-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S131072 : Shape := ⟨1, ![131072]⟩
abbrev S3x500000x32 : Shape := ⟨3, ![3, 500000, 32]⟩
abbrev S97x256 : Shape := ⟨2, ![97, 256]⟩
abbrev S512x1 : Shape := ⟨2, ![512, 1]⟩
abbrev S1 : Shape := ⟨1, ![1]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S3x500000x32 : S_.BroadcastsInDim S3x500000x32 (![] : Fin 0 → Fin S3x500000x32.rank)
  reducesTo_S3x500000x32_S_d0_1_2 : S3x500000x32.ReducesTo [0, 1, 2] S_
  bcast_S_S97x256 : S_.BroadcastsInDim S97x256 (![] : Fin 0 → Fin S97x256.rank)
  reducesTo_S97x256_S_d0_1 : S97x256.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S131072x3 : S_.BroadcastsInDim S131072x3 (![] : Fin 0 → Fin S131072x3.rank)
  reducesTo_S131072x3_S_d0_1 : S131072x3.ReducesTo [0, 1] S_

variable [Facts]

def fn_part1 {F : FTy → Type} [FloatOps F] (main_arg0 : IVec S131072x3 32) (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S131072x3 32 := broadcastInDim S131072x3 ![] bcast_S_S131072x3 main_c_8
  let main_v25 : IVec S131072x3 1 := cmpi .sge main_arg0 main_v24
  let main_c_9 : IVec S_ 32 := constantI S_ 32 500000#32
  let main_v26 : IVec S131072x3 32 := broadcastInDim S131072x3 ![] bcast_S_S131072x3 main_c_9
  let main_v27 : IVec S131072x3 1 := cmpi .slt main_arg0 main_v26
  let main_v28 : IVec S131072x3 1 := andi main_v25 main_v27
  let main_c_10 : IVec S_ 1 := constantI S_ 1 1#1
  let main_v29 : IVec S_ 1 := (fun x v => Host.reduce IntOp.andi x v reducesTo_S131072x3_S_d0_1 h_S_) main_v28 main_c_10
  let main_v30 : IVec S_ 1 := andi main_v23 main_v29
  main_v30

def fn {F : FTy → Type} [FloatOps F] (main_arg0 : IVec S131072x3 32) (main_arg1 : FVec F S131072 .f32) (main_arg2 : FVec F S3x500000x32 .f32) (main_arg3 : FVec F S97x256 .f32) (main_arg4 : FVec F S512x1 .f32) (main_arg5 : FVec F S1 .f32) : IVec S_ 1 :=
  let main_v0 : FVec F S131072 .f32 := Host.absf main_arg1
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S3x500000x32 .f32 := Host.absf main_arg2
  let main_cst_0 : FVec F S_ .f32 := constant S_ .f32 0x7F800000#32
  let main_v5 : FVec F S3x500000x32 .f32 := broadcastInDim S3x500000x32 ![] bcast_S_S3x500000x32 main_cst_0
  let main_v6 : IVec S3x500000x32 1 := cmpf .olt main_v4 main_v5
  let main_c_1 : IVec S_ 1 := constantI S_ 1 1#1
  let main_v7 : IVec S_ 1 := (fun x v => Host.reduce IntOp.andi x v reducesTo_S3x500000x32_S_d0_1_2 h_S_) main_v6 main_c_1
  let main_v8 : IVec S_ 1 := andi main_v3 main_v7
  let main_v9 : FVec F S97x256 .f32 := Host.absf main_arg3
  let main_cst_2 : FVec F S_ .f32 := constant S_ .f32 0x7F800000#32
  let main_v10 : FVec F S97x256 .f32 := broadcastInDim S97x256 ![] bcast_S_S97x256 main_cst_2
  let main_v11 : IVec S97x256 1 := cmpf .olt main_v9 main_v10
  let main_c_3 : IVec S_ 1 := constantI S_ 1 1#1
  let main_v12 : IVec S_ 1 := (fun x v => Host.reduce IntOp.andi x v reducesTo_S97x256_S_d0_1 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg0 main_arg5 main_v13 main_v16
-- ==== Kernel.lean ====
abbrev S131072x3 : Shape := ⟨2, ![131072, 3]⟩
abbrev S131072 : Shape := ⟨1, ![131072]⟩
abbrev S3x500000x32 : Shape := ⟨3, ![3, 500000, 32]⟩
abbrev S97x256 : Shape := ⟨2, ![97, 256]⟩
abbrev S512x1 : Shape := ⟨2, ![512, 1]⟩
abbrev S1 : Shape := ⟨1, ![1]⟩
abbrev S131072x1 : Shape := ⟨2, ![131072, 1]⟩
abbrev S1x500000x32 : Shape := ⟨3, ![1, 500000, 32]⟩
abbrev S500000x32 : Shape := ⟨2, ![500000, 32]⟩
abbrev S131072x32 : Shape := ⟨2, ![131072, 32]⟩
abbrev S1024x32 : Shape := ⟨2, ![1024, 32]⟩
abbrev S32 : Shape := ⟨1, ![32]⟩
abbrev S_ : Shape := ⟨0, ![]⟩
abbrev S1x32 : Shape := ⟨2, ![1, 32]⟩
abbrev S131072x97 : Shape := ⟨2, ![131072, 97]⟩
abbrev S1x1 : Shape := ⟨2, ![1, 1]⟩
abbrev S512x97 : Shape := ⟨2, ![512, 97]⟩
abbrev S512x256 : Shape := ⟨2, ![512, 256]⟩
abbrev S512x512 : Shape := ⟨2, ![512, 512]⟩

abbrev nBuf : Space → Nat
  | .hbm => 22
  | .vmem => 16
  | .smem => 3
  | _ => 0

abbrev bufTy : (tb : Table) → Fin (tcTables nBuf tb) → BufTy
  | .hbm, ⟨0, _⟩ => ⟨S131072x3, .i32⟩
  | .hbm, ⟨1, _⟩ => ⟨S131072, .f32⟩
  | .hbm, ⟨2, _⟩ => ⟨S3x500000x32, .f32⟩
  | .hbm, ⟨3, _⟩ => ⟨S97x256, .f32⟩
  | .hbm, ⟨4, _⟩ => ⟨S512x1, .f32⟩
  | .hbm, ⟨5, _⟩ => ⟨S1, .f32⟩
  | .hbm, ⟨6, _⟩ => ⟨S131072x1, .i32⟩
  | .hbm, ⟨7, _⟩ => ⟨S1x500000x32, .f32⟩
  | .hbm, ⟨8, _⟩ => ⟨S500000x32, .f32⟩
  | .hbm, ⟨9, _⟩ => ⟨S131072x32, .f32⟩
  | .hbm, ⟨10, _⟩ => ⟨S131072x1, .i32⟩
  | .hbm, ⟨11, _⟩ => ⟨S1x500000x32, .f32⟩
  | .hbm, ⟨12, _⟩ => ⟨S500000x32, .f32⟩
  | .hbm, ⟨13, _⟩ => ⟨S131072x32, .f32⟩
  | .hbm, ⟨14, _⟩ => ⟨S131072x1, .i32⟩
  | .hbm, ⟨15, _⟩ => ⟨S1x500000x32, .f32⟩
  | .hbm, ⟨16, _⟩ => ⟨S500000x32, .f32⟩
  | .hbm, ⟨17, _⟩ => ⟨S131072x32, .f32⟩
  | .hbm, ⟨18, _⟩ => ⟨S131072x1, .f32⟩
  | .hbm, ⟨19, _⟩ => ⟨S131072x97, .f32⟩
  | .hbm, ⟨20, _⟩ => ⟨S1x1, .f32⟩
  | .hbm, ⟨21, _⟩ => ⟨S131072x1, .f32⟩
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S512x97, .f32⟩
  | .local _ .vmem, ⟨10, _⟩ => ⟨S512x97, .f32⟩
  | .local _ .vmem, ⟨11, _⟩ => ⟨S97x256, .f32⟩
  | .local _ .vmem, ⟨12, _⟩ => ⟨S512x1, .f32⟩
  | .local _ .vmem, ⟨13, _⟩ => ⟨S1x1, .f32⟩
  | .local _ .vmem, ⟨14, _⟩ => ⟨S512x1, .f32⟩
  | .local _ .vmem, ⟨15, _⟩ => ⟨S512x1, .f32⟩
  | .local _ .smem, ⟨0, _⟩ => ⟨S131072, .i32⟩
  | .local _ .smem, ⟨1, _⟩ => ⟨S131072, .i32⟩
  | .local _ .smem, ⟨2, _⟩ => ⟨S131072, .i32⟩
  | _, _ => ⟨S131072x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  ofTc nBuf bufTy 0 109 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v1 : Ref sig .tc := ⟨.smem, 0, rfl⟩
abbrev main_v6 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_scratch0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_scratch0 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg4_1 : Ref sig .tc := ⟨.vmem, 15, rfl⟩
abbrev cc0_sem0_0 : DmaSem sig := 0
abbrev cc0_sem0_1 : DmaSem sig := 1
abbrev cc1_sem0_0 : DmaSem sig := 34
abbrev cc1_sem0_1 : DmaSem sig := 35
abbrev cc2_sem0_0 : DmaSem sig := 68
abbrev cc2_sem0_1 : DmaSem sig := 69
abbrev cc3_sem0_0 : DmaSem sig := 102
abbrev cc3_sem0_1 : DmaSem sig := 103
abbrev cc3_sem1_0 : DmaSem sig := 104
abbrev cc3_sem2_0 : DmaSem sig := 105
abbrev cc3_sem3_0 : DmaSem sig := 106
abbrev cc3_sem4_0 : DmaSem sig := 107
abbrev cc3_sem4_1 : DmaSem sig := 108

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c0_i32_7 : BitVec 32 := 0#32
  let v8 : BitVec 32 := Scalar.addi v7 c0_i32_7
  let v9 : Index := Scalar.indexCast v8
  ![v9.toNat]
def k0_off2 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_8 : BitVec 32 := 32#32
  let v11 : BitVec 32 := Scalar.muli v5 c32_i32_8
  let c0_i32_9 : BitVec 32 := 0#32
  let v12 : BitVec 32 := Scalar.addi v11 c0_i32_9
  let c0_i32_11 : BitVec 32 := 0#32
  ![v12.toNat, 0]
def k0_off3 (v10 : BitVec 32) : Fin 2 → Nat :=
  let c0_i32_12 : BitVec 32 := 0#32
  ![v10.toNat, 0]

def k0_chk1 (v10 : BitVec 32) : Prop :=
  (∀ a, (k0_off3 v10) a + S1x32.size a ≤ S500000x32.size a)
instance k0_chk1.dec : ∀ (v10 : BitVec 32), Decidable (k0_chk1 v10) := fun v10 => decidable_of_iff' _ (Iff.of_eq (k0_chk1.eq_1 v10))
theorem k0_off3_inb : ∀ (v10 : BitVec 32) (k0_hw1 : k0_chk1 v10), ∀ a, (k0_off3 v10) a + S1x32.size a ≤ S500000x32.size a := fun v10 k0_hw1 => k0_hw1

def k0_off4 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c1_i32_13 : BitVec 32 := 1#32
  let v19 : BitVec 32 := Scalar.addi v7 c1_i32_13
  let v20 : Index := Scalar.indexCast v19
  ![v20.toNat]
def k0_off5 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_14 : BitVec 32 := 32#32
  let v22 : BitVec 32 := Scalar.muli v5 c32_i32_14
  let c1_i32_15 : BitVec 32 := 1#32
  let v23 : BitVec 32 := Scalar.addi v22 c1_i32_15
  let c0_i32_17 : BitVec 32 := 0#32
  ![v23.toNat, 0]
def k0_off6 (v21 : BitVec 32) : Fin 2 → Nat :=
  let c0_i32_18 : BitVec 32 := 0#32
  ![v21.toNat, 0]

def k0_chk2 (v21 : BitVec 32) : Prop :=
  (∀ a, (k0_off6 v21) a + S1x32.size a ≤ S500000x32.size a)
instance k0_chk2.dec : ∀ (v21 : BitVec 32), Decidable (k0_chk2 v21) := fun v21 => decidable_of_iff' _ (Iff.of_eq (k0_chk2.eq_1 v21))
theorem k0_off6_inb : ∀ (v21 : BitVec 32) (k0_hw2 : k0_chk2 v21), ∀ a, (k0_off6 v21) a + S1x32.size a ≤ S500000x32.size a := fun v21 k0_hw2 => k0_hw2

def k0_off7 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c2_i32 : BitVec 32 := 2#32
  let v30 : BitVec 32 := Scalar.addi v7 c2_i32
  let v31 : Index := Scalar.indexCast v30
  ![v31.toNat]
def k0_off8 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_19 : BitVec 32 := 32#32
  let v33 : BitVec 32 := Scalar.muli v5 c32_i32_19
  let c2_i32_20 : BitVec 32 := 2#32
  let v34 : BitVec 32 := Scalar.addi v33 c2_i32_20
  let c0_i32_22 : BitVec 32 := 0#32
  ![v34.toNat, 0]
def k0_off9 (v32 : BitVec 32) : Fin 2 → Nat :=
  let c0_i32_23 : BitVec 32 := 0#32
  ![v32.toNat, 0]

def k0_chk3 (v32 : BitVec 32) : Prop :=
  (∀ a, (k0_off9 v32) a + S1x32.size a ≤ S500000x32.size a)
instance k0_chk3.dec : ∀ (v32 : BitVec 32), Decidable (k0_chk3 v32) := fun v32 => decidable_of_iff' _ (Iff.of_eq (k0_chk3.eq_1 v32))
theorem k0_off9_inb : ∀ (v32 : BitVec 32) (k0_hw3 : k0_chk3 v32), ∀ a, (k0_off9 v32) a + S1x32.size a ≤ S500000x32.size a := fun v32 k0_hw3 => k0_hw3

def k0_off10 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c3_i32 : BitVec 32 := 3#32
  let v41 : BitVec 32 := Scalar.addi v7 c3_i32
  let v42 : Index := Scalar.indexCast v41
  ![v42.toNat]
def k0_off11 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_24 : BitVec 32 := 32#32
  let v44 : BitVec 32 := Scalar.muli v5 c32_i32_24
  let c3_i32_25 : BitVec 32 := 3#32
  let v45 : BitVec 32 := Scalar.addi v44 c3_i32_25
  let c0_i32_27 : BitVec 32 := 0#32
  ![v45.toNat, 0]
def k0_off12 (v43 : BitVec 32) : Fin 2 → Nat :=
  let c0_i32_28 : BitVec 32 := 0#32
  ![v43.toNat, 0]

def k0_chk4 (v43 : BitVec 32) : Prop :=
  (∀ a, (k0_off12 v43) a + S1x32.size a ≤ S500000x32.size a)
instance k0_chk4.dec : ∀ (v43 : BitVec 32), Decidable (k0_chk4 v43) := fun v43 => decidable_of_iff' _ (Iff.of_eq (k0_chk4.eq_1 v43))
theorem k0_off12_inb : ∀ (v43 : BitVec 32) (k0_hw4 : k0_chk4 v43), ∀ a, (k0_off12 v43) a + S1x32.size a ≤ S500000x32.size a := fun v43 k0_hw4 => k0_hw4

def k0_off13 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c4_i32 : BitVec 32 := 4#32
  let v52 : BitVec 32 := Scalar.addi v7 c4_i32
  let v53 : Index := Scalar.indexCast v52
  ![v53.toNat]
def k0_off14 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_29 : BitVec 32 := 32#32
  let v55 : BitVec 32 := Scalar.muli v5 c32_i32_29
  let c4_i32_30 : BitVec 32 := 4#32
  let v56 : BitVec 32 := Scalar.addi v55 c4_i32_30
  let c0_i32_32 : BitVec 32 := 0#32
  ![v56.toNat, 0]
def k0_off15 (v54 : BitVec 32) : Fin 2 → Nat :=
  let c0_i32_33 : BitVec 32 := 0#32
  ![v54.toNat, 0]

def k0_chk5 (v54 : BitVec 32) : Prop :=
  (∀ a, (k0_off15 v54) a + S1x32.size a ≤ S500000x32.size a)
instance k0_chk5.dec : ∀ (v54 : BitVec 32), Decidable (k0_chk5 v54) := fun v54 => decidable_of_iff' _ (Iff.of_eq (k0_chk5.eq_1 v54))
theorem k0_off15_inb : ∀ (v54 : BitVec 32) (k0_hw5 : k0_chk5 v54), ∀ a, (k0_off15 v54) a + S1x32.size a ≤ S500000x32.size a := fun v54 k0_hw5 => k0_hw5

def k0_off16 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c5_i32 : BitVec 32 := 5#32
  let v63 : BitVec 32 := Scalar.addi v7 c5_i32
  let v64 : Index := Scalar.indexCast v63
  ![v64.toNat]
def k0_off17 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_34 : BitVec 32 := 32#32
  let v66 : BitVec 32 := Scalar.muli v5 c32_i32_34
  let c5_i32_35 : BitVec 32 := 5#32
  let v67 : BitVec 32 := Scalar.addi v66 c5_i32_35
  let c0_i32_37 : BitVec 32 := 0#32
  ![v67.toNat, 0]
def k0_off18 (v65 : BitVec 32) : Fin 2 → Nat :=
  let c0_i32_38 : BitVec 32 := 0#32
  ![v65.toNat, 0]

def k0_chk6 (v65 : BitVec 32) : Prop :=
  (∀ a, (k0_off18 v65) a + S1x32.size a ≤ S500000x32.size a)
instance k0_chk6.dec : ∀ (v65 : BitVec 32), Decidable (k0_chk6 v65) := fun v65 => decidable_of_iff' _ (Iff.of_eq (k0_chk6.eq_1 v65))
theorem k0_off18_inb : ∀ (v65 : BitVec 32) (k0_hw6 : k0_chk6 v65), ∀ a, (k0_off18 v65) a + S1x32.size a ≤ S500000x32.size a := fun v65 k0_hw6 => k0_hw6

def k0_off19 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c6_i32 : BitVec 32 := 6#32
  let v74 : BitVec 32 := Scalar.addi v7 c6_i32
  let v75 : Index := Scalar.indexCast v74
  ![v75.toNat]
def k0_off20 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_39 : BitVec 32 := 32#32
  let v77 : BitVec 32 := Scalar.muli v5 c32_i32_39
  let c6_i32_40 : BitVec 32 := 6#32
  let v78 : BitVec 32 := Scalar.addi v77 c6_i32_40
  let c0_i32_42 : BitVec 32 := 0#32
  ![v78.toNat, 0]
def k0_off21 (v76 : BitVec 32) : Fin 2 → Nat :=
  let c0_i32_43 : BitVec 32 := 0#32
  ![v76.toNat, 0]

def k0_chk7 (v76 : BitVec 32) : Prop :=
  (∀ a, (k0_off21 v76) a + S1x32.size a ≤ S500000x32.size a)
instance k0_chk7.dec : ∀ (v76 : BitVec 32), Decidable (k0_chk7 v76) := fun v76 => decidable_of_iff' _ (Iff.of_eq (k0_chk7.eq_1 v76))
theorem k0_off21_inb : ∀ (v76 : BitVec 32) (k0_hw7 : k0_chk7 v76), ∀ a, (k0_off21 v76) a + S1x32.size a ≤ S500000x32.size a := fun v76 k0_hw7 => k0_hw7

def k0_off22 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c7_i32 : BitVec 32 := 7#32
  let v85 : BitVec 32 := Scalar.addi v7 c7_i32
  let v86 : Index := Scalar.indexCast v85
  ![v86.toNat]
def k0_off23 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_44 : BitVec 32 := 32#32
  let v88 : BitVec 32 := Scalar.muli v5 c32_i32_44
  let c7_i32_45 : BitVec 32 := 7#32
  let v89 : BitVec 32 := Scalar.addi v88 c7_i32_45
  let c0_i32_47 : BitVec 32 := 0#32
  ![v89.toNat, 0]
def k0_off24 (v87 : BitVec 32) : Fin 2 → Nat :=
  let c0_i32_48 : BitVec 32 := 0#32
  ![v87.toNat, 0]

def k0_chk8 (v87 : BitVec 32) : Prop :=
  (∀ a, (k0_off24 v87) a + S1x32.size a ≤ S500000x32.size a)
instance k0_chk8.dec : ∀ (v87 : BitVec 32), Decidable (k0_chk8 v87) := fun v87 => decidable_of_iff' _ (Iff.of_eq (k0_chk8.eq_1 v87))
theorem k0_off24_inb : ∀ (v87 : BitVec 32) (k0_hw8 : k0_chk8 v87), ∀ a, (k0_off24 v87) a + S1x32.size a ≤ S500000x32.size a := fun v87 k0_hw8 => k0_hw8

def k0_off25 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c8_i32 : BitVec 32 := 8#32
  let v96 : BitVec 32 := Scalar.addi v7 c8_i32
  let v97 : Index := Scalar.indexCast v96
  ![v97.toNat]
def k0_off26 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_49 : BitVec 32 := 32#32
  let v99 : BitVec 32 := Scalar.muli v5 c32_i32_49
  let c8_i32_50 : BitVec 32 := 8#32
  let v100 : BitVec 32 := Scalar.addi v99 c8_i32_50
  let c0_i32_52 : BitVec 32 := 0#32
  ![v100.toNat, 0]
def k0_off27 (v98 : BitVec 32) : Fin 2 → Nat :=
  let c0_i32_53 : BitVec 32 := 0#32
  ![v98.toNat, 0]

def k0_chk9 (v98 : BitVec 32) : Prop :=
  (∀ a, (k0_off27 v98) a + S1x32.size a ≤ S500000x32.size a)
instance k0_chk9.dec : ∀ (v98 : BitVec 32), Decidable (k0_chk9 v98) := fun v98 => decidable_of_iff' _ (Iff.of_eq (k0_chk9.eq_1 v98))
theorem k0_off27_inb : ∀ (v98 : BitVec 32) (k0_hw9 : k0_chk9 v98), ∀ a, (k0_off27 v98) a + S1x32.size a ≤ S500000x32.size a := fun v98 k0_hw9 => k0_hw9

def k0_off28 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c9_i32 : BitVec 32 := 9#32
  let v107 : BitVec 32 := Scalar.addi v7 c9_i32
  let v108 : Index := Scalar.indexCast v107
  ![v108.toNat]
def k0_off29 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_54 : BitVec 32 := 32#32
  let v110 : BitVec 32 := Scalar.muli v5 c32_i32_54
  let c9_i32_55 : BitVec 32 := 9#32
  let v111 : BitVec 32 := Scalar.addi v110 c9_i32_55
  let c0_i32_57 : BitVec 32 := 0#32
  ![v111.toNat, 0]
def k0_off30 (v109 : BitVec 32) : Fin 2 → Nat :=
  let c0_i32_58 : BitVec 32 := 0#32
  ![v109.toNat, 0]

def k0_chk10 (v109 : BitVec 32) : Prop :=
  (∀ a, (k0_off30 v109) a + S1x32.size a ≤ S500000x32.size a)
instance k0_chk10.dec : ∀ (v109 : BitVec 32), Decidable (k0_chk10 v109) := fun v109 => decidable_of_iff' _ (Iff.of_eq (k0_chk10.eq_1 v109))
theorem k0_off30_inb : ∀ (v109 : BitVec 32) (k0_hw10 : k0_chk10 v109), ∀ a, (k0_off30 v109) a + S1x32.size a ≤ S500000x32.size a := fun v109 k0_hw10 => k0_hw10

def k0_off31 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c10_i32 : BitVec 32 := 10#32
  let v118 : BitVec 32 := Scalar.addi v7 c10_i32
  let v119 : Index := Scalar.indexCast v118
  ![v119.toNat]
def k0_off32 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_59 : BitVec 32 := 32#32
  let v121 : BitVec 32 := Scalar.muli v5 c32_i32_59
  let c10_i32_60 : BitVec 32 := 10#32
  let v122 : BitVec 32 := Scalar.addi v121 c10_i32_60
  let c0_i32_62 : BitVec 32 := 0#32
  ![v122.toNat, 0]
def k0_off33 (v120 : BitVec 32) : Fin 2 → Nat :=
  let c0_i32_63 : BitVec 32 := 0#32
  ![v120.toNat, 0]

def k0_chk11 (v120 : BitVec 32) : Prop :=
  (∀ a, (k0_off33 v120) a + S1x32.size a ≤ S500000x32.size a)
instance k0_chk11.dec : ∀ (v120 : BitVec 32), Decidable (k0_chk11 v120) := fun v120 => decidable_of_iff' _ (Iff.of_eq (k0_chk11.eq_1 v120))
theorem k0_off33_inb : ∀ (v120 : BitVec 32) (k0_hw11 : k0_chk11 v120), ∀ a, (k0_off33 v120) a + S1x32.size a ≤ S500000x32.size a := fun v120 k0_hw11 => k0_hw11

def k0_off34 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c11_i32 : BitVec 32 := 11#32
  let v129 : BitVec 32 := Scalar.addi v7 c11_i32
  let v130 : Index := Scalar.indexCast v129
  ![v130.toNat]
def k0_off35 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_64 : BitVec 32 := 32#32
  let v132 : BitVec 32 := Scalar.muli v5 c32_i32_64
  let c11_i32_65 : BitVec 32 := 11#32
  let v133 : BitVec 32 := Scalar.addi v132 c11_i32_65
  let c0_i32_67 : BitVec 32 := 0#32
  ![v133.toNat, 0]
def k0_off36 (v131 : BitVec 32) : Fin 2 → Nat :=
  let c0_i32_68 : BitVec 32 := 0#32
  ![v131.toNat, 0]

def k0_chk12 (v131 : BitVec 32) : Prop :=
  (∀ a, (k0_off36 v131) a + S1x32.size a ≤ S500000x32.size a)
instance k0_chk12.dec : ∀ (v131 : BitVec 32), Decidable (k0_chk12 v131) := fun v131 => decidable_of_iff' _ (Iff.of_eq (k0_chk12.eq_1 v131))
theorem k0_off36_inb : ∀ (v131 : BitVec 32) (k0_hw12 : k0_chk12 v131), ∀ a, (k0_off36 v131) a + S1x32.size a ≤ S500000x32.size a := fun v131 k0_hw12 => k0_hw12

def k0_off37 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c12_i32 : BitVec 32 := 12#32
  let v140 : BitVec 32 := Scalar.addi v7 c12_i32
  let v141 : Index := Scalar.indexCast v140
  ![v141.toNat]
def k0_off38 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_69 : BitVec 32 := 32#32
  let v143 : BitVec 32 := Scalar.muli v5 c32_i32_69
  let c12_i32_70 : BitVec 32 := 12#32
  let v144 : BitVec 32 := Scalar.addi v143 c12_i32_70
  let c0_i32_72 : BitVec 32 := 0#32
  ![v144.toNat, 0]
def k0_off39 (v142 : BitVec 32) : Fin 2 → Nat :=
  let c0_i32_73 : BitVec 32 := 0#32
  ![v142.toNat, 0]

def k0_chk13 (v142 : BitVec 32) : Prop :=
  (∀ a, (k0_off39 v142) a + S1x32.size a ≤ S500000x32.size a)
instance k0_chk13.dec : ∀ (v142 : BitVec 32), Decidable (k0_chk13 v142) := fun v142 => decidable_of_iff' _ (Iff.of_eq (k0_chk13.eq_1 v142))
theorem k0_off39_inb : ∀ (v142 : BitVec 32) (k0_hw13 : k0_chk13 v142), ∀ a, (k0_off39 v142) a + S1x32.size a ≤ S500000x32.size a := fun v142 k0_hw13 => k0_hw13

def k0_off40 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c13_i32 : BitVec 32 := 13#32
  let v151 : BitVec 32 := Scalar.addi v7 c13_i32
  let v152 : Index := Scalar.indexCast v151
  ![v152.toNat]
def k0_off41 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_74 : BitVec 32 := 32#32
  let v154 : BitVec 32 := Scalar.muli v5 c32_i32_74
  let c13_i32_75 : BitVec 32 := 13#32
  let v155 : BitVec 32 := Scalar.addi v154 c13_i32_75
  let c0_i32_77 : BitVec 32 := 0#32
  ![v155.toNat, 0]
def k0_off42 (v153 : BitVec 32) : Fin 2 → Nat :=
  let c0_i32_78 : BitVec 32 := 0#32
  ![v153.toNat, 0]

def k0_chk14 (v153 : BitVec 32) : Prop :=
  (∀ a, (k0_off42 v153) a + S1x32.size a ≤ S500000x32.size a)
instance k0_chk14.dec : ∀ (v153 : BitVec 32), Decidable (k0_chk14 v153) := fun v153 => decidable_of_iff' _ (Iff.of_eq (k0_chk14.eq_1 v153))
theorem k0_off42_inb : ∀ (v153 : BitVec 32) (k0_hw14 : k0_chk14 v153), ∀ a, (k0_off42 v153) a + S1x32.size a ≤ S500000x32.size a := fun v153 k0_hw14 => k0_hw14

def k0_off43 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c14_i32 : BitVec 32 := 14#32
  let v162 : BitVec 32 := Scalar.addi v7 c14_i32
  let v163 : Index := Scalar.indexCast v162
  ![v163.toNat]
def k0_off44 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_79 : BitVec 32 := 32#32
  let v165 : BitVec 32 := Scalar.muli v5 c32_i32_79
  let c14_i32_80 : BitVec 32 := 14#32
  let v166 : BitVec 32 := Scalar.addi v165 c14_i32_80
  let c0_i32_82 : BitVec 32 := 0#32
  ![v166.toNat, 0]
def k0_off45 (v164 : BitVec 32) : Fin 2 → Nat :=
  let c0_i32_83 : BitVec 32 := 0#32
  ![v164.toNat, 0]

def k0_chk15 (v164 : BitVec 32) : Prop :=
  (∀ a, (k0_off45 v164) a + S1x32.size a ≤ S500000x32.size a)
instance k0_chk15.dec : ∀ (v164 : BitVec 32), Decidable (k0_chk15 v164) := fun v164 => decidable_of_iff' _ (Iff.of_eq (k0_chk15.eq_1 v164))
theorem k0_off45_inb : ∀ (v164 : BitVec 32) (k0_hw15 : k0_chk15 v164), ∀ a, (k0_off45 v164) a + S1x32.size a ≤ S500000x32.size a := fun v164 k0_hw15 => k0_hw15

def k0_off46 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c15_i32 : BitVec 32 := 15#32
  let v173 : BitVec 32 := Scalar.addi v7 c15_i32
  let v174 : Index := Scalar.indexCast v173
  ![v174.toNat]
def k0_off47 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_84 : BitVec 32 := 32#32
  let v176 : BitVec 32 := Scalar.muli v5 c32_i32_84
  let c15_i32_85 : BitVec 32 := 15#32
  let v177 : BitVec 32 := Scalar.addi v176 c15_i32_85
  let c0_i32_87 : BitVec 32 := 0#32
  ![v177.toNat, 0]
def k0_off48 (v175 : BitVec 32) : Fin 2 → Nat :=
  let c0_i32_88 : BitVec 32 := 0#32
  ![v175.toNat, 0]

def k0_chk16 (v175 : BitVec 32) : Prop :=
  (∀ a, (k0_off48 v175) a + S1x32.size a ≤ S500000x32.size a)
instance k0_chk16.dec : ∀ (v175 : BitVec 32), Decidable (k0_chk16 v175) := fun v175 => decidable_of_iff' _ (Iff.of_eq (k0_chk16.eq_1 v175))
theorem k0_off48_inb : ∀ (v175 : BitVec 32) (k0_hw16 : k0_chk16 v175), ∀ a, (k0_off48 v175) a + S1x32.size a ≤ S500000x32.size a := fun v175 k0_hw16 => k0_hw16

def k0_off49 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c16_i32 : BitVec 32 := 16#32
  let v184 : BitVec 32 := Scalar.addi v7 c16_i32
  let v185 : Index := Scalar.indexCast v184
  ![v185.toNat]
def k0_off50 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_89 : BitVec 32 := 32#32
  let v187 : BitVec 32 := Scalar.muli v5 c32_i32_89
  let c16_i32_90 : BitVec 32 := 16#32
  let v188 : BitVec 32 := Scalar.addi v187 c16_i32_90
  let c0_i32_92 : BitVec 32 := 0#32
  ![v188.toNat, 0]
def k0_off51 (v186 : BitVec 32) : Fin 2 → Nat :=
  let c0_i32_93 : BitVec 32 := 0#32
  ![v186.toNat, 0]

def k0_chk17 (v186 : BitVec 32) : Prop :=
  (∀ a, (k0_off51 v186) a + S1x32.size a ≤ S500000x32.size a)
instance k0_chk17.dec : ∀ (v186 : BitVec 32), Decidable (k0_chk17 v186) := fun v186 => decidable_of_iff' _ (Iff.of_eq (k0_chk17.eq_1 v186))
theorem k0_off51_inb : ∀ (v186 : BitVec 32) (k0_hw17 : k0_chk17 v186), ∀ a, (k0_off51 v186) a + S1x32.size a ≤ S500000x32.size a := fun v186 k0_hw17 => k0_hw17

def k0_off52 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c17_i32 : BitVec 32 := 17#32
  let v195 : BitVec 32 := Scalar.addi v7 c17_i32
  let v196 : Index := Scalar.indexCast v195
  ![v196.toNat]
def k0_off53 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_94 : BitVec 32 := 32#32
  let v198 : BitVec 32 := Scalar.muli v5 c32_i32_94
  let c17_i32_95 : BitVec 32 := 17#32
  let v199 : BitVec 32 := Scalar.addi v198 c17_i32_95
  let c0_i32_97 : BitVec 32 := 0#32
  ![v199.toNat, 0]
def k0_off54 (v197 : BitVec 32) : Fin 2 → Nat :=
  let c0_i32_98 : BitVec 32 := 0#32
  ![v197.toNat, 0]

def k0_chk18 (v197 : BitVec 32) : Prop :=
  (∀ a, (k0_off54 v197) a + S1x32.size a ≤ S500000x32.size a)
instance k0_chk18.dec : ∀ (v197 : BitVec 32), Decidable (k0_chk18 v197) := fun v197 => decidable_of_iff' _ (Iff.of_eq (k0_chk18.eq_1 v197))
theorem k0_off54_inb : ∀ (v197 : BitVec 32) (k0_hw18 : k0_chk18 v197), ∀ a, (k0_off54 v197) a + S1x32.size a ≤ S500000x32.size a := fun v197 k0_hw18 => k0_hw18

def k0_off55 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c18_i32 : BitVec 32 := 18#32
  let v206 : BitVec 32 := Scalar.addi v7 c18_i32
  let v207 : Index := Scalar.indexCast v206
  ![v207.toNat]
def k0_off56 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_99 : BitVec 32 := 32#32
  let v209 : BitVec 32 := Scalar.muli v5 c32_i32_99
  let c18_i32_100 : BitVec 32 := 18#32
  let v210 : BitVec 32 := Scalar.addi v209 c18_i32_100
  let c0_i32_102 : BitVec 32 := 0#32
  ![v210.toNat, 0]
def k0_off57 (v208 : BitVec 32) : Fin 2 → Nat :=
  let c0_i32_103 : BitVec 32 := 0#32
  ![v208.toNat, 0]

def k0_chk19 (v208 : BitVec 32) : Prop :=
  (∀ a, (k0_off57 v208) a + S1x32.size a ≤ S500000x32.size a)
instance k0_chk19.dec : ∀ (v208 : BitVec 32), Decidable (k0_chk19 v208) := fun v208 => decidable_of_iff' _ (Iff.of_eq (k0_chk19.eq_1 v208))
theorem k0_off57_inb : ∀ (v208 : BitVec 32) (k0_hw19 : k0_chk19 v208), ∀ a, (k0_off57 v208) a + S1x32.size a ≤ S500000x32.size a := fun v208 k0_hw19 => k0_hw19

def k0_off58 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c19_i32 : BitVec 32 := 19#32
  let v217 : BitVec 32 := Scalar.addi v7 c19_i32
  let v218 : Index := Scalar.indexCast v217
  ![v218.toNat]
def k0_off59 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_104 : BitVec 32 := 32#32
  let v220 : BitVec 32 := Scalar.muli v5 c32_i32_104
  let c19_i32_105 : BitVec 32 := 19#32
  let v221 : BitVec 32 := Scalar.addi v220 c19_i32_105
  let c0_i32_107 : BitVec 32 := 0#32
  ![v221.toNat, 0]
def k0_off60 (v219 : BitVec 32) : Fin 2 → Nat :=
  let c0_i32_108 : BitVec 32 := 0#32
  ![v219.toNat, 0]

def k0_chk20 (v219 : BitVec 32) : Prop :=
  (∀ a, (k0_off60 v219) a + S1x32.size a ≤ S500000x32.size a)
instance k0_chk20.dec : ∀ (v219 : BitVec 32), Decidable (k0_chk20 v219) := fun v219 => decidable_of_iff' _ (Iff.of_eq (k0_chk20.eq_1 v219))
theorem k0_off60_inb : ∀ (v219 : BitVec 32) (k0_hw20 : k0_chk20 v219), ∀ a, (k0_off60 v219) a + S1x32.size a ≤ S500000x32.size a := fun v219 k0_hw20 => k0_hw20

def k0_off61 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c20_i32 : BitVec 32 := 20#32
  let v228 : BitVec 32 := Scalar.addi v7 c20_i32
  let v229 : Index := Scalar.indexCast v228
  ![v229.toNat]
def k0_off62 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_109 : BitVec 32 := 32#32
  let v231 : BitVec 32 := Scalar.muli v5 c32_i32_109
  let c20_i32_110 : BitVec 32 := 20#32
  let v232 : BitVec 32 := Scalar.addi v231 c20_i32_110
  let c0_i32_112 : BitVec 32 := 0#32
  ![v232.toNat, 0]
def k0_off63 (v230 : BitVec 32) : Fin 2 → Nat :=
  let c0_i32_113 : BitVec 32 := 0#32
  ![v230.toNat, 0]

def k0_chk21 (v230 : BitVec 32) : Prop :=
  (∀ a, (k0_off63 v230) a + S1x32.size a ≤ S500000x32.size a)
instance k0_chk21.dec : ∀ (v230 : BitVec 32), Decidable (k0_chk21 v230) := fun v230 => decidable_of_iff' _ (Iff.of_eq (k0_chk21.eq_1 v230))
theorem k0_off63_inb : ∀ (v230 : BitVec 32) (k0_hw21 : k0_chk21 v230), ∀ a, (k0_off63 v230) a + S1x32.size a ≤ S500000x32.size a := fun v230 k0_hw21 => k0_hw21

def k0_off64 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c21_i32 : BitVec 32 := 21#32
  let v239 : BitVec 32 := Scalar.addi v7 c21_i32
  let v240 : Index := Scalar.indexCast v239
  ![v240.toNat]
def k0_off65 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_114 : BitVec 32 := 32#32
  let v242 : BitVec 32 := Scalar.muli v5 c32_i32_114
  let c21_i32_115 : BitVec 32 := 21#32
  let v243 : BitVec 32 := Scalar.addi v242 c21_i32_115
  let c0_i32_117 : BitVec 32 := 0#32
  ![v243.toNat, 0]
def k0_off66 (v241 : BitVec 32) : Fin 2 → Nat :=
  let c0_i32_118 : BitVec 32 := 0#32
  ![v241.toNat, 0]

def k0_chk22 (v241 : BitVec 32) : Prop :=
  (∀ a, (k0_off66 v241) a + S1x32.size a ≤ S500000x32.size a)
instance k0_chk22.dec : ∀ (v241 : BitVec 32), Decidable (k0_chk22 v241) := fun v241 => decidable_of_iff' _ (Iff.of_eq (k0_chk22.eq_1 v241))
theorem k0_off66_inb : ∀ (v241 : BitVec 32) (k0_hw22 : k0_chk22 v241), ∀ a, (k0_off66 v241) a + S1x32.size a ≤ S500000x32.size a := fun v241 k0_hw22 => k0_hw22

def k0_off67 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c22_i32 : BitVec 32 := 22#32
  let v250 : BitVec 32 := Scalar.addi v7 c22_i32
  let v251 : Index := Scalar.indexCast v250
  ![v251.toNat]
def k0_off68 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_119 : BitVec 32 := 32#32
  let v253 : BitVec 32 := Scalar.muli v5 c32_i32_119
  let c22_i32_120 : BitVec 32 := 22#32
  let v254 : BitVec 32 := Scalar.addi v253 c22_i32_120
  let c0_i32_122 : BitVec 32 := 0#32
  ![v254.toNat, 0]
def k0_off69 (v252 : BitVec 32) : Fin 2 → Nat :=
  let c0_i32_123 : BitVec 32 := 0#32
  ![v252.toNat, 0]

def k0_chk23 (v252 : BitVec 32) : Prop :=
  (∀ a, (k0_off69 v252) a + S1x32.size a ≤ S500000x32.size a)
instance k0_chk23.dec : ∀ (v252 : BitVec 32), Decidable (k0_chk23 v252) := fun v252 => decidable_of_iff' _ (Iff.of_eq (k0_chk23.eq_1 v252))
theorem k0_off69_inb : ∀ (v252 : BitVec 32) (k0_hw23 : k0_chk23 v252), ∀ a, (k0_off69 v252) a + S1x32.size a ≤ S500000x32.size a := fun v252 k0_hw23 => k0_hw23

def k0_off70 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c23_i32 : BitVec 32 := 23#32
  let v261 : BitVec 32 := Scalar.addi v7 c23_i32
  let v262 : Index := Scalar.indexCast v261
  ![v262.toNat]
def k0_off71 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_124 : BitVec 32 := 32#32
  let v264 : BitVec 32 := Scalar.muli v5 c32_i32_124
  let c23_i32_125 : BitVec 32 := 23#32
  let v265 : BitVec 32 := Scalar.addi v264 c23_i32_125
  let c0_i32_127 : BitVec 32 := 0#32
  ![v265.toNat, 0]
def k0_off72 (v263 : BitVec 32) : Fin 2 → Nat :=
  let c0_i32_128 : BitVec 32 := 0#32
  ![v263.toNat, 0]

def k0_chk24 (v263 : BitVec 32) : Prop :=
  (∀ a, (k0_off72 v263) a + S1x32.size a ≤ S500000x32.size a)
instance k0_chk24.dec : ∀ (v263 : BitVec 32), Decidable (k0_chk24 v263) := fun v263 => decidable_of_iff' _ (Iff.of_eq (k0_chk24.eq_1 v263))
theorem k0_off72_inb : ∀ (v263 : BitVec 32) (k0_hw24 : k0_chk24 v263), ∀ a, (k0_off72 v263) a + S1x32.size a ≤ S500000x32.size a := fun v263 k0_hw24 => k0_hw24

def k0_off73 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c24_i32 : BitVec 32 := 24#32
  let v272 : BitVec 32 := Scalar.addi v7 c24_i32
  let v273 : Index := Scalar.indexCast v272
  ![v273.toNat]
def k0_off74 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_129 : BitVec 32 := 32#32
  let v275 : BitVec 32 := Scalar.muli v5 c32_i32_129
  let c24_i32_130 : BitVec 32 := 24#32
  let v276 : BitVec 32 := Scalar.addi v275 c24_i32_130
  let c0_i32_132 : BitVec 32 := 0#32
  ![v276.toNat, 0]
def k0_off75 (v274 : BitVec 32) : Fin 2 → Nat :=
  let c0_i32_133 : BitVec 32 := 0#32
  ![v274.toNat, 0]

def k0_chk25 (v274 : BitVec 32) : Prop :=
  (∀ a, (k0_off75 v274) a + S1x32.size a ≤ S500000x32.size a)
instance k0_chk25.dec : ∀ (v274 : BitVec 32), Decidable (k0_chk25 v274) := fun v274 => decidable_of_iff' _ (Iff.of_eq (k0_chk25.eq_1 v274))
theorem k0_off75_inb : ∀ (v274 : BitVec 32) (k0_hw25 : k0_chk25 v274), ∀ a, (k0_off75 v274) a + S1x32.size a ≤ S500000x32.size a := fun v274 k0_hw25 => k0_hw25

def k0_off76 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c25_i32 : BitVec 32 := 25#32
  let v283 : BitVec 32 := Scalar.addi v7 c25_i32
  let v284 : Index := Scalar.indexCast v283
  ![v284.toNat]
def k0_off77 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_134 : BitVec 32 := 32#32
  let v286 : BitVec 32 := Scalar.muli v5 c32_i32_134
  let c25_i32_135 : BitVec 32 := 25#32
  let v287 : BitVec 32 := Scalar.addi v286 c25_i32_135
  let c0_i32_137 : BitVec 32 := 0#32
  ![v287.toNat, 0]
def k0_off78 (v285 : BitVec 32) : Fin 2 → Nat :=
  let c0_i32_138 : BitVec 32 := 0#32
  ![v285.toNat, 0]

def k0_chk26 (v285 : BitVec 32) : Prop :=
  (∀ a, (k0_off78 v285) a + S1x32.size a ≤ S500000x32.size a)
instance k0_chk26.dec : ∀ (v285 : BitVec 32), Decidable (k0_chk26 v285) := fun v285 => decidable_of_iff' _ (Iff.of_eq (k0_chk26.eq_1 v285))
theorem k0_off78_inb : ∀ (v285 : BitVec 32) (k0_hw26 : k0_chk26 v285), ∀ a, (k0_off78 v285) a + S1x32.size a ≤ S500000x32.size a := fun v285 k0_hw26 => k0_hw26

def k0_off79 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c26_i32 : BitVec 32 := 26#32
  let v294 : BitVec 32 := Scalar.addi v7 c26_i32
  let v295 : Index := Scalar.indexCast v294
  ![v295.toNat]
def k0_off80 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_139 : BitVec 32 := 32#32
  let v297 : BitVec 32 := Scalar.muli v5 c32_i32_139
  let c26_i32_140 : BitVec 32 := 26#32
  let v298 : BitVec 32 := Scalar.addi v297 c26_i32_140
  let c0_i32_142 : BitVec 32 := 0#32
  ![v298.toNat, 0]
def k0_off81 (v296 : BitVec 32) : Fin 2 → Nat :=
  let c0_i32_143 : BitVec 32 := 0#32
  ![v296.toNat, 0]

def k0_chk27 (v296 : BitVec 32) : Prop :=
  (∀ a, (k0_off81 v296) a + S1x32.size a ≤ S500000x32.size a)
instance k0_chk27.dec : ∀ (v296 : BitVec 32), Decidable (k0_chk27 v296) := fun v296 => decidable_of_iff' _ (Iff.of_eq (k0_chk27.eq_1 v296))
theorem k0_off81_inb : ∀ (v296 : BitVec 32) (k0_hw27 : k0_chk27 v296), ∀ a, (k0_off81 v296) a + S1x32.size a ≤ S500000x32.size a := fun v296 k0_hw27 => k0_hw27

def k0_off82 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c27_i32 : BitVec 32 := 27#32
  let v305 : BitVec 32 := Scalar.addi v7 c27_i32
  let v306 : Index := Scalar.indexCast v305
  ![v306.toNat]
def k0_off83 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_144 : BitVec 32 := 32#32
  let v308 : BitVec 32 := Scalar.muli v5 c32_i32_144
  let c27_i32_145 : BitVec 32 := 27#32
  let v309 : BitVec 32 := Scalar.addi v308 c27_i32_145
  let c0_i32_147 : BitVec 32 := 0#32
  ![v309.toNat, 0]
def k0_off84 (v307 : BitVec 32) : Fin 2 → Nat :=
  let c0_i32_148 : BitVec 32 := 0#32
  ![v307.toNat, 0]

def k0_chk28 (v307 : BitVec 32) : Prop :=
  (∀ a, (k0_off84 v307) a + S1x32.size a ≤ S500000x32.size a)
instance k0_chk28.dec : ∀ (v307 : BitVec 32), Decidable (k0_chk28 v307) := fun v307 => decidable_of_iff' _ (Iff.of_eq (k0_chk28.eq_1 v307))
theorem k0_off84_inb : ∀ (v307 : BitVec 32) (k0_hw28 : k0_chk28 v307), ∀ a, (k0_off84 v307) a + S1x32.size a ≤ S500000x32.size a := fun v307 k0_hw28 => k0_hw28

def k0_off85 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c28_i32 : BitVec 32 := 28#32
  let v316 : BitVec 32 := Scalar.addi v7 c28_i32
  let v317 : Index := Scalar.indexCast v316
  ![v317.toNat]
def k0_off86 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_149 : BitVec 32 := 32#32
  let v319 : BitVec 32 := Scalar.muli v5 c32_i32_149
  let c28_i32_150 : BitVec 32 := 28#32
  let v320 : BitVec 32 := Scalar.addi v319 c28_i32_150
  let c0_i32_152 : BitVec 32 := 0#32
  ![v320.toNat, 0]
def k0_off87 (v318 : BitVec 32) : Fin 2 → Nat :=
  let c0_i32_153 : BitVec 32 := 0#32
  ![v318.toNat, 0]

def k0_chk29 (v318 : BitVec 32) : Prop :=
  (∀ a, (k0_off87 v318) a + S1x32.size a ≤ S500000x32.size a)
instance k0_chk29.dec : ∀ (v318 : BitVec 32), Decidable (k0_chk29 v318) := fun v318 => decidable_of_iff' _ (Iff.of_eq (k0_chk29.eq_1 v318))
theorem k0_off87_inb : ∀ (v318 : BitVec 32) (k0_hw29 : k0_chk29 v318), ∀ a, (k0_off87 v318) a + S1x32.size a ≤ S500000x32.size a := fun v318 k0_hw29 => k0_hw29

def k0_off88 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c29_i32 : BitVec 32 := 29#32
  let v327 : BitVec 32 := Scalar.addi v7 c29_i32
  let v328 : Index := Scalar.indexCast v327
  ![v328.toNat]
def k0_off89 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_154 : BitVec 32 := 32#32
  let v330 : BitVec 32 := Scalar.muli v5 c32_i32_154
  let c29_i32_155 : BitVec 32 := 29#32
  let v331 : BitVec 32 := Scalar.addi v330 c29_i32_155
  let c0_i32_157 : BitVec 32 := 0#32
  ![v331.toNat, 0]
def k0_off90 (v329 : BitVec 32) : Fin 2 → Nat :=
  let c0_i32_158 : BitVec 32 := 0#32
  ![v329.toNat, 0]

def k0_chk30 (v329 : BitVec 32) : Prop :=
  (∀ a, (k0_off90 v329) a + S1x32.size a ≤ S500000x32.size a)
instance k0_chk30.dec : ∀ (v329 : BitVec 32), Decidable (k0_chk30 v329) := fun v329 => decidable_of_iff' _ (Iff.of_eq (k0_chk30.eq_1 v329))
theorem k0_off90_inb : ∀ (v329 : BitVec 32) (k0_hw30 : k0_chk30 v329), ∀ a, (k0_off90 v329) a + S1x32.size a ≤ S500000x32.size a := fun v329 k0_hw30 => k0_hw30

def k0_off91 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c30_i32 : BitVec 32 := 30#32
  let v338 : BitVec 32 := Scalar.addi v7 c30_i32
  let v339 : Index := Scalar.indexCast v338
  ![v339.toNat]
def k0_off92 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_159 : BitVec 32 := 32#32
  let v341 : BitVec 32 := Scalar.muli v5 c32_i32_159
  let c30_i32_160 : BitVec 32 := 30#32
  let v342 : BitVec 32 := Scalar.addi v341 c30_i32_160
  let c0_i32_162 : BitVec 32 := 0#32
  ![v342.toNat, 0]
def k0_off93 (v340 : BitVec 32) : Fin 2 → Nat :=
  let c0_i32_163 : BitVec 32 := 0#32
  ![v340.toNat, 0]

def k0_chk31 (v340 : BitVec 32) : Prop :=
  (∀ a, (k0_off93 v340) a + S1x32.size a ≤ S500000x32.size a)
instance k0_chk31.dec : ∀ (v340 : BitVec 32), Decidable (k0_chk31 v340) := fun v340 => decidable_of_iff' _ (Iff.of_eq (k0_chk31.eq_1 v340))
theorem k0_off93_inb : ∀ (v340 : BitVec 32) (k0_hw31 : k0_chk31 v340), ∀ a, (k0_off93 v340) a + S1x32.size a ≤ S500000x32.size a := fun v340 k0_hw31 => k0_hw31

def k0_off94 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c31_i32 : BitVec 32 := 31#32
  let v349 : BitVec 32 := Scalar.addi v7 c31_i32
  let v350 : Index := Scalar.indexCast v349
  ![v350.toNat]
def k0_off95 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_164 : BitVec 32 := 32#32
  let v352 : BitVec 32 := Scalar.muli v5 c32_i32_164
  let c31_i32_165 : BitVec 32 := 31#32
  let v353 : BitVec 32 := Scalar.addi v352 c31_i32_165
  let c0_i32_167 : BitVec 32 := 0#32
  ![v353.toNat, 0]
def k0_off96 (v351 : BitVec 32) : Fin 2 → Nat :=
  let c0_i32_168 : BitVec 32 := 0#32
  ![v351.toNat, 0]

def k0_chk32 (v351 : BitVec 32) : Prop :=
  (∀ a, (k0_off96 v351) a + S1x32.size a ≤ S500000x32.size a)
instance k0_chk32.dec : ∀ (v351 : BitVec 32), Decidable (k0_chk32 v351) := fun v351 => decidable_of_iff' _ (Iff.of_eq (k0_chk32.eq_1 v351))
theorem k0_off96_inb : ∀ (v351 : BitVec 32) (k0_hw32 : k0_chk32 v351), ∀ a, (k0_off96 v351) a + S1x32.size a ≤ S500000x32.size a := fun v351 k0_hw32 => k0_hw32

def k0_off97 (k0_t1 : Fin k0_t1_loop.trips) (c0_i32_170 : BitVec 32) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_169 : BitVec 32 := 32#32
  let v360 : BitVec 32 := Scalar.muli v5 c32_i32_169
  let v361 : BitVec 32 := Scalar.addi v360 c0_i32_170
  let c0_i32_173 : BitVec 32 := 0#32
  ![v361.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![128], ![false]⟩

abbrev pre1 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k1_off1 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c0_i32_7 : BitVec 32 := 0#32
  let v8 : BitVec 32 := Scalar.addi v7 c0_i32_7
  let v9 : Index := Scalar.indexCast v8
  ![v9.toNat]
def k1_off2 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_8 : BitVec 32 := 32#32
  let v11 : BitVec 32 := Scalar.muli v5 c32_i32_8
  let c0_i32_9 : BitVec 32 := 0#32
  let v12 : BitVec 32 := Scalar.addi v11 c0_i32_9
  let c0_i32_11 : BitVec 32 := 0#32
  ![v12.toNat, 0]
def k1_off3 (v10 : BitVec 32) : Fin 2 → Nat :=
  let c0_i32_12 : BitVec 32 := 0#32
  ![v10.toNat, 0]

def k1_chk1 (v10 : BitVec 32) : Prop :=
  (∀ a, (k1_off3 v10) a + S1x32.size a ≤ S500000x32.size a)
instance k1_chk1.dec : ∀ (v10 : BitVec 32), Decidable (k1_chk1 v10) := fun v10 => decidable_of_iff' _ (Iff.of_eq (k1_chk1.eq_1 v10))
theorem k1_off3_inb : ∀ (v10 : BitVec 32) (k1_hw1 : k1_chk1 v10), ∀ a, (k1_off3 v10) a + S1x32.size a ≤ S500000x32.size a := fun v10 k1_hw1 => k1_hw1

def k1_off4 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c1_i32_13 : BitVec 32 := 1#32
  let v19 : BitVec 32 := Scalar.addi v7 c1_i32_13
  let v20 : Index := Scalar.indexCast v19
  ![v20.toNat]
def k1_off5 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_14 : BitVec 32 := 32#32
  let v22 : BitVec 32 := Scalar.muli v5 c32_i32_14
  let c1_i32_15 : BitVec 32 := 1#32
  let v23 : BitVec 32 := Scalar.addi v22 c1_i32_15
  let c0_i32_17 : BitVec 32 := 0#32
  ![v23.toNat, 0]
def k1_off6 (v21 : BitVec 32) : Fin 2 → Nat :=
  let c0_i32_18 : BitVec 32 := 0#32
  ![v21.toNat, 0]

def k1_chk2 (v21 : BitVec 32) : Prop :=
  (∀ a, (k1_off6 v21) a + S1x32.size a ≤ S500000x32.size a)
instance k1_chk2.dec : ∀ (v21 : BitVec 32), Decidable (k1_chk2 v21) := fun v21 => decidable_of_iff' _ (Iff.of_eq (k1_chk2.eq_1 v21))
theorem k1_off6_inb : ∀ (v21 : BitVec 32) (k1_hw2 : k1_chk2 v21), ∀ a, (k1_off6 v21) a + S1x32.size a ≤ S500000x32.size a := fun v21 k1_hw2 => k1_hw2

def k1_off7 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c2_i32 : BitVec 32 := 2#32
  let v30 : BitVec 32 := Scalar.addi v7 c2_i32
  let v31 : Index := Scalar.indexCast v30
  ![v31.toNat]
def k1_off8 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_19 : BitVec 32 := 32#32
  let v33 : BitVec 32 := Scalar.muli v5 c32_i32_19
  let c2_i32_20 : BitVec 32 := 2#32
  let v34 : BitVec 32 := Scalar.addi v33 c2_i32_20
  let c0_i32_22 : BitVec 32 := 0#32
  ![v34.toNat, 0]
def k1_off9 (v32 : BitVec 32) : Fin 2 → Nat :=
  let c0_i32_23 : BitVec 32 := 0#32
  ![v32.toNat, 0]

def k1_chk3 (v32 : BitVec 32) : Prop :=
  (∀ a, (k1_off9 v32) a + S1x32.size a ≤ S500000x32.size a)
instance k1_chk3.dec : ∀ (v32 : BitVec 32), Decidable (k1_chk3 v32) := fun v32 => decidable_of_iff' _ (Iff.of_eq (k1_chk3.eq_1 v32))
theorem k1_off9_inb : ∀ (v32 : BitVec 32) (k1_hw3 : k1_chk3 v32), ∀ a, (k1_off9 v32) a + S1x32.size a ≤ S500000x32.size a := fun v32 k1_hw3 => k1_hw3

def k1_off10 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c3_i32 : BitVec 32 := 3#32
  let v41 : BitVec 32 := Scalar.addi v7 c3_i32
  let v42 : Index := Scalar.indexCast v41
  ![v42.toNat]
def k1_off11 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_24 : BitVec 32 := 32#32
  let v44 : BitVec 32 := Scalar.muli v5 c32_i32_24
  let c3_i32_25 : BitVec 32 := 3#32
  let v45 : BitVec 32 := Scalar.addi v44 c3_i32_25
  let c0_i32_27 : BitVec 32 := 0#32
  ![v45.toNat, 0]
def k1_off12 (v43 : BitVec 32) : Fin 2 → Nat :=
  let c0_i32_28 : BitVec 32 := 0#32
  ![v43.toNat, 0]

def k1_chk4 (v43 : BitVec 32) : Prop :=
  (∀ a, (k1_off12 v43) a + S1x32.size a ≤ S500000x32.size a)
instance k1_chk4.dec : ∀ (v43 : BitVec 32), Decidable (k1_chk4 v43) := fun v43 => decidable_of_iff' _ (Iff.of_eq (k1_chk4.eq_1 v43))
theorem k1_off12_inb : ∀ (v43 : BitVec 32) (k1_hw4 : k1_chk4 v43), ∀ a, (k1_off12 v43) a + S1x32.size a ≤ S500000x32.size a := fun v43 k1_hw4 => k1_hw4

def k1_off13 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c4_i32 : BitVec 32 := 4#32
  let v52 : BitVec 32 := Scalar.addi v7 c4_i32
  let v53 : Index := Scalar.indexCast v52
  ![v53.toNat]
def k1_off14 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_29 : BitVec 32 := 32#32
  let v55 : BitVec 32 := Scalar.muli v5 c32_i32_29
  let c4_i32_30 : BitVec 32 := 4#32
  let v56 : BitVec 32 := Scalar.addi v55 c4_i32_30
  let c0_i32_32 : BitVec 32 := 0#32
  ![v56.toNat, 0]
def k1_off15 (v54 : BitVec 32) : Fin 2 → Nat :=
  let c0_i32_33 : BitVec 32 := 0#32
  ![v54.toNat, 0]

def k1_chk5 (v54 : BitVec 32) : Prop :=
  (∀ a, (k1_off15 v54) a + S1x32.size a ≤ S500000x32.size a)
instance k1_chk5.dec : ∀ (v54 : BitVec 32), Decidable (k1_chk5 v54) := fun v54 => decidable_of_iff' _ (Iff.of_eq (k1_chk5.eq_1 v54))
theorem k1_off15_inb : ∀ (v54 : BitVec 32) (k1_hw5 : k1_chk5 v54), ∀ a, (k1_off15 v54) a + S1x32.size a ≤ S500000x32.size a := fun v54 k1_hw5 => k1_hw5

def k1_off16 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c5_i32 : BitVec 32 := 5#32
  let v63 : BitVec 32 := Scalar.addi v7 c5_i32
  let v64 : Index := Scalar.indexCast v63
  ![v64.toNat]
def k1_off17 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_34 : BitVec 32 := 32#32
  let v66 : BitVec 32 := Scalar.muli v5 c32_i32_34
  let c5_i32_35 : BitVec 32 := 5#32
  let v67 : BitVec 32 := Scalar.addi v66 c5_i32_35
  let c0_i32_37 : BitVec 32 := 0#32
  ![v67.toNat, 0]
def k1_off18 (v65 : BitVec 32) : Fin 2 → Nat :=
  let c0_i32_38 : BitVec 32 := 0#32
  ![v65.toNat, 0]

def k1_chk6 (v65 : BitVec 32) : Prop :=
  (∀ a, (k1_off18 v65) a + S1x32.size a ≤ S500000x32.size a)
instance k1_chk6.dec : ∀ (v65 : BitVec 32), Decidable (k1_chk6 v65) := fun v65 => decidable_of_iff' _ (Iff.of_eq (k1_chk6.eq_1 v65))
theorem k1_off18_inb : ∀ (v65 : BitVec 32) (k1_hw6 : k1_chk6 v65), ∀ a, (k1_off18 v65) a + S1x32.size a ≤ S500000x32.size a := fun v65 k1_hw6 => k1_hw6

def k1_off19 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c6_i32 : BitVec 32 := 6#32
  let v74 : BitVec 32 := Scalar.addi v7 c6_i32
  let v75 : Index := Scalar.indexCast v74
  ![v75.toNat]
def k1_off20 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_39 : BitVec 32 := 32#32
  let v77 : BitVec 32 := Scalar.muli v5 c32_i32_39
  let c6_i32_40 : BitVec 32 := 6#32
  let v78 : BitVec 32 := Scalar.addi v77 c6_i32_40
  let c0_i32_42 : BitVec 32 := 0#32
  ![v78.toNat, 0]
def k1_off21 (v76 : BitVec 32) : Fin 2 → Nat :=
  let c0_i32_43 : BitVec 32 := 0#32
  ![v76.toNat, 0]

def k1_chk7 (v76 : BitVec 32) : Prop :=
  (∀ a, (k1_off21 v76) a + S1x32.size a ≤ S500000x32.size a)
instance k1_chk7.dec : ∀ (v76 : BitVec 32), Decidable (k1_chk7 v76) := fun v76 => decidable_of_iff' _ (Iff.of_eq (k1_chk7.eq_1 v76))
theorem k1_off21_inb : ∀ (v76 : BitVec 32) (k1_hw7 : k1_chk7 v76), ∀ a, (k1_off21 v76) a + S1x32.size a ≤ S500000x32.size a := fun v76 k1_hw7 => k1_hw7

def k1_off22 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c7_i32 : BitVec 32 := 7#32
  let v85 : BitVec 32 := Scalar.addi v7 c7_i32
  let v86 : Index := Scalar.indexCast v85
  ![v86.toNat]
def k1_off23 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_44 : BitVec 32 := 32#32
  let v88 : BitVec 32 := Scalar.muli v5 c32_i32_44
  let c7_i32_45 : BitVec 32 := 7#32
  let v89 : BitVec 32 := Scalar.addi v88 c7_i32_45
  let c0_i32_47 : BitVec 32 := 0#32
  ![v89.toNat, 0]
def k1_off24 (v87 : BitVec 32) : Fin 2 → Nat :=
  let c0_i32_48 : BitVec 32 := 0#32
  ![v87.toNat, 0]

def k1_chk8 (v87 : BitVec 32) : Prop :=
  (∀ a, (k1_off24 v87) a + S1x32.size a ≤ S500000x32.size a)
instance k1_chk8.dec : ∀ (v87 : BitVec 32), Decidable (k1_chk8 v87) := fun v87 => decidable_of_iff' _ (Iff.of_eq (k1_chk8.eq_1 v87))
theorem k1_off24_inb : ∀ (v87 : BitVec 32) (k1_hw8 : k1_chk8 v87), ∀ a, (k1_off24 v87) a + S1x32.size a ≤ S500000x32.size a := fun v87 k1_hw8 => k1_hw8

def k1_off25 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c8_i32 : BitVec 32 := 8#32
  let v96 : BitVec 32 := Scalar.addi v7 c8_i32
  let v97 : Index := Scalar.indexCast v96
  ![v97.toNat]
def k1_off26 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_49 : BitVec 32 := 32#32
  let v99 : BitVec 32 := Scalar.muli v5 c32_i32_49
  let c8_i32_50 : BitVec 32 := 8#32
  let v100 : BitVec 32 := Scalar.addi v99 c8_i32_50
  let c0_i32_52 : BitVec 32 := 0#32
  ![v100.toNat, 0]
def k1_off27 (v98 : BitVec 32) : Fin 2 → Nat :=
  let c0_i32_53 : BitVec 32 := 0#32
  ![v98.toNat, 0]

def k1_chk9 (v98 : BitVec 32) : Prop :=
  (∀ a, (k1_off27 v98) a + S1x32.size a ≤ S500000x32.size a)
instance k1_chk9.dec : ∀ (v98 : BitVec 32), Decidable (k1_chk9 v98) := fun v98 => decidable_of_iff' _ (Iff.of_eq (k1_chk9.eq_1 v98))
theorem k1_off27_inb : ∀ (v98 : BitVec 32) (k1_hw9 : k1_chk9 v98), ∀ a, (k1_off27 v98) a + S1x32.size a ≤ S500000x32.size a := fun v98 k1_hw9 => k1_hw9

def k1_off28 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c9_i32 : BitVec 32 := 9#32
  let v107 : BitVec 32 := Scalar.addi v7 c9_i32
  let v108 : Index := Scalar.indexCast v107
  ![v108.toNat]
def k1_off29 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_54 : BitVec 32 := 32#32
  let v110 : BitVec 32 := Scalar.muli v5 c32_i32_54
  let c9_i32_55 : BitVec 32 := 9#32
  let v111 : BitVec 32 := Scalar.addi v110 c9_i32_55
  let c0_i32_57 : BitVec 32 := 0#32
  ![v111.toNat, 0]
def k1_off30 (v109 : BitVec 32) : Fin 2 → Nat :=
  let c0_i32_58 : BitVec 32 := 0#32
  ![v109.toNat, 0]

def k1_chk10 (v109 : BitVec 32) : Prop :=
  (∀ a, (k1_off30 v109) a + S1x32.size a ≤ S500000x32.size a)
instance k1_chk10.dec : ∀ (v109 : BitVec 32), Decidable (k1_chk10 v109) := fun v109 => decidable_of_iff' _ (Iff.of_eq (k1_chk10.eq_1 v109))
theorem k1_off30_inb : ∀ (v109 : BitVec 32) (k1_hw10 : k1_chk10 v109), ∀ a, (k1_off30 v109) a + S1x32.size a ≤ S500000x32.size a := fun v109 k1_hw10 => k1_hw10

def k1_off31 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c10_i32 : BitVec 32 := 10#32
  let v118 : BitVec 32 := Scalar.addi v7 c10_i32
  let v119 : Index := Scalar.indexCast v118
  ![v119.toNat]
def k1_off32 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_59 : BitVec 32 := 32#32
  let v121 : BitVec 32 := Scalar.muli v5 c32_i32_59
  let c10_i32_60 : BitVec 32 := 10#32
  let v122 : BitVec 32 := Scalar.addi v121 c10_i32_60
  let c0_i32_62 : BitVec 32 := 0#32
  ![v122.toNat, 0]
def k1_off33 (v120 : BitVec 32) : Fin 2 → Nat :=
  let c0_i32_63 : BitVec 32 := 0#32
  ![v120.toNat, 0]

def k1_chk11 (v120 : BitVec 32) : Prop :=
  (∀ a, (k1_off33 v120) a + S1x32.size a ≤ S500000x32.size a)
instance k1_chk11.dec : ∀ (v120 : BitVec 32), Decidable (k1_chk11 v120) := fun v120 => decidable_of_iff' _ (Iff.of_eq (k1_chk11.eq_1 v120))
theorem k1_off33_inb : ∀ (v120 : BitVec 32) (k1_hw11 : k1_chk11 v120), ∀ a, (k1_off33 v120) a + S1x32.size a ≤ S500000x32.size a := fun v120 k1_hw11 => k1_hw11

def k1_off34 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c11_i32 : BitVec 32 := 11#32
  let v129 : BitVec 32 := Scalar.addi v7 c11_i32
  let v130 : Index := Scalar.indexCast v129
  ![v130.toNat]
def k1_off35 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_64 : BitVec 32 := 32#32
  let v132 : BitVec 32 := Scalar.muli v5 c32_i32_64
  let c11_i32_65 : BitVec 32 := 11#32
  let v133 : BitVec 32 := Scalar.addi v132 c11_i32_65
  let c0_i32_67 : BitVec 32 := 0#32
  ![v133.toNat, 0]
def k1_off36 (v131 : BitVec 32) : Fin 2 → Nat :=
  let c0_i32_68 : BitVec 32 := 0#32
  ![v131.toNat, 0]

def k1_chk12 (v131 : BitVec 32) : Prop :=
  (∀ a, (k1_off36 v131) a + S1x32.size a ≤ S500000x32.size a)
instance k1_chk12.dec : ∀ (v131 : BitVec 32), Decidable (k1_chk12 v131) := fun v131 => decidable_of_iff' _ (Iff.of_eq (k1_chk12.eq_1 v131))
theorem k1_off36_inb : ∀ (v131 : BitVec 32) (k1_hw12 : k1_chk12 v131), ∀ a, (k1_off36 v131) a + S1x32.size a ≤ S500000x32.size a := fun v131 k1_hw12 => k1_hw12

def k1_off37 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c12_i32 : BitVec 32 := 12#32
  let v140 : BitVec 32 := Scalar.addi v7 c12_i32
  let v141 : Index := Scalar.indexCast v140
  ![v141.toNat]
def k1_off38 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_69 : BitVec 32 := 32#32
  let v143 : BitVec 32 := Scalar.muli v5 c32_i32_69
  let c12_i32_70 : BitVec 32 := 12#32
  let v144 : BitVec 32 := Scalar.addi v143 c12_i32_70
  let c0_i32_72 : BitVec 32 := 0#32
  ![v144.toNat, 0]
def k1_off39 (v142 : BitVec 32) : Fin 2 → Nat :=
  let c0_i32_73 : BitVec 32 := 0#32
  ![v142.toNat, 0]

def k1_chk13 (v142 : BitVec 32) : Prop :=
  (∀ a, (k1_off39 v142) a + S1x32.size a ≤ S500000x32.size a)
instance k1_chk13.dec : ∀ (v142 : BitVec 32), Decidable (k1_chk13 v142) := fun v142 => decidable_of_iff' _ (Iff.of_eq (k1_chk13.eq_1 v142))
theorem k1_off39_inb : ∀ (v142 : BitVec 32) (k1_hw13 : k1_chk13 v142), ∀ a, (k1_off39 v142) a + S1x32.size a ≤ S500000x32.size a := fun v142 k1_hw13 => k1_hw13

def k1_off40 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c13_i32 : BitVec 32 := 13#32
  let v151 : BitVec 32 := Scalar.addi v7 c13_i32
  let v152 : Index := Scalar.indexCast v151
  ![v152.toNat]
def k1_off41 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_74 : BitVec 32 := 32#32
  let v154 : BitVec 32 := Scalar.muli v5 c32_i32_74
  let c13_i32_75 : BitVec 32 := 13#32
  let v155 : BitVec 32 := Scalar.addi v154 c13_i32_75
  let c0_i32_77 : BitVec 32 := 0#32
  ![v155.toNat, 0]
def k1_off42 (v153 : BitVec 32) : Fin 2 → Nat :=
  let c0_i32_78 : BitVec 32 := 0#32
  ![v153.toNat, 0]

def k1_chk14 (v153 : BitVec 32) : Prop :=
  (∀ a, (k1_off42 v153) a + S1x32.size a ≤ S500000x32.size a)
instance k1_chk14.dec : ∀ (v153 : BitVec 32), Decidable (k1_chk14 v153) := fun v153 => decidable_of_iff' _ (Iff.of_eq (k1_chk14.eq_1 v153))
theorem k1_off42_inb : ∀ (v153 : BitVec 32) (k1_hw14 : k1_chk14 v153), ∀ a, (k1_off42 v153) a + S1x32.size a ≤ S500000x32.size a := fun v153 k1_hw14 => k1_hw14

def k1_off43 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c14_i32 : BitVec 32 := 14#32
  let v162 : BitVec 32 := Scalar.addi v7 c14_i32
  let v163 : Index := Scalar.indexCast v162
  ![v163.toNat]
def k1_off44 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_79 : BitVec 32 := 32#32
  let v165 : BitVec 32 := Scalar.muli v5 c32_i32_79
  let c14_i32_80 : BitVec 32 := 14#32
  let v166 : BitVec 32 := Scalar.addi v165 c14_i32_80
  let c0_i32_82 : BitVec 32 := 0#32
  ![v166.toNat, 0]
def k1_off45 (v164 : BitVec 32) : Fin 2 → Nat :=
  let c0_i32_83 : BitVec 32 := 0#32
  ![v164.toNat, 0]

def k1_chk15 (v164 : BitVec 32) : Prop :=
  (∀ a, (k1_off45 v164) a + S1x32.size a ≤ S500000x32.size a)
instance k1_chk15.dec : ∀ (v164 : BitVec 32), Decidable (k1_chk15 v164) := fun v164 => decidable_of_iff' _ (Iff.of_eq (k1_chk15.eq_1 v164))
theorem k1_off45_inb : ∀ (v164 : BitVec 32) (k1_hw15 : k1_chk15 v164), ∀ a, (k1_off45 v164) a + S1x32.size a ≤ S500000x32.size a := fun v164 k1_hw15 => k1_hw15

def k1_off46 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c15_i32 : BitVec 32 := 15#32
  let v173 : BitVec 32 := Scalar.addi v7 c15_i32
  let v174 : Index := Scalar.indexCast v173
  ![v174.toNat]
def k1_off47 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_84 : BitVec 32 := 32#32
  let v176 : BitVec 32 := Scalar.muli v5 c32_i32_84
  let c15_i32_85 : BitVec 32 := 15#32
  let v177 : BitVec 32 := Scalar.addi v176 c15_i32_85
  let c0_i32_87 : BitVec 32 := 0#32
  ![v177.toNat, 0]
def k1_off48 (v175 : BitVec 32) : Fin 2 → Nat :=
  let c0_i32_88 : BitVec 32 := 0#32
  ![v175.toNat, 0]

def k1_chk16 (v175 : BitVec 32) : Prop :=
  (∀ a, (k1_off48 v175) a + S1x32.size a ≤ S500000x32.size a)
instance k1_chk16.dec : ∀ (v175 : BitVec 32), Decidable (k1_chk16 v175) := fun v175 => decidable_of_iff' _ (Iff.of_eq (k1_chk16.eq_1 v175))
theorem k1_off48_inb : ∀ (v175 : BitVec 32) (k1_hw16 : k1_chk16 v175), ∀ a, (k1_off48 v175) a + S1x32.size a ≤ S500000x32.size a := fun v175 k1_hw16 => k1_hw16

def k1_off49 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c16_i32 : BitVec 32 := 16#32
  let v184 : BitVec 32 := Scalar.addi v7 c16_i32
  let v185 : Index := Scalar.indexCast v184
  ![v185.toNat]
def k1_off50 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_89 : BitVec 32 := 32#32
  let v187 : BitVec 32 := Scalar.muli v5 c32_i32_89
  let c16_i32_90 : BitVec 32 := 16#32
  let v188 : BitVec 32 := Scalar.addi v187 c16_i32_90
  let c0_i32_92 : BitVec 32 := 0#32
  ![v188.toNat, 0]
def k1_off51 (v186 : BitVec 32) : Fin 2 → Nat :=
  let c0_i32_93 : BitVec 32 := 0#32
  ![v186.toNat, 0]

def k1_chk17 (v186 : BitVec 32) : Prop :=
  (∀ a, (k1_off51 v186) a + S1x32.size a ≤ S500000x32.size a)
instance k1_chk17.dec : ∀ (v186 : BitVec 32), Decidable (k1_chk17 v186) := fun v186 => decidable_of_iff' _ (Iff.of_eq (k1_chk17.eq_1 v186))
theorem k1_off51_inb : ∀ (v186 : BitVec 32) (k1_hw17 : k1_chk17 v186), ∀ a, (k1_off51 v186) a + S1x32.size a ≤ S500000x32.size a := fun v186 k1_hw17 => k1_hw17

def k1_off52 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c17_i32 : BitVec 32 := 17#32
  let v195 : BitVec 32 := Scalar.addi v7 c17_i32
  let v196 : Index := Scalar.indexCast v195
  ![v196.toNat]
def k1_off53 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_94 : BitVec 32 := 32#32
  let v198 : BitVec 32 := Scalar.muli v5 c32_i32_94
  let c17_i32_95 : BitVec 32 := 17#32
  let v199 : BitVec 32 := Scalar.addi v198 c17_i32_95
  let c0_i32_97 : BitVec 32 := 0#32
  ![v199.toNat, 0]
def k1_off54 (v197 : BitVec 32) : Fin 2 → Nat :=
  let c0_i32_98 : BitVec 32 := 0#32
  ![v197.toNat, 0]

def k1_chk18 (v197 : BitVec 32) : Prop :=
  (∀ a, (k1_off54 v197) a + S1x32.size a ≤ S500000x32.size a)
instance k1_chk18.dec : ∀ (v197 : BitVec 32), Decidable (k1_chk18 v197) := fun v197 => decidable_of_iff' _ (Iff.of_eq (k1_chk18.eq_1 v197))
theorem k1_off54_inb : ∀ (v197 : BitVec 32) (k1_hw18 : k1_chk18 v197), ∀ a, (k1_off54 v197) a + S1x32.size a ≤ S500000x32.size a := fun v197 k1_hw18 => k1_hw18

def k1_off55 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c18_i32 : BitVec 32 := 18#32
  let v206 : BitVec 32 := Scalar.addi v7 c18_i32
  let v207 : Index := Scalar.indexCast v206
  ![v207.toNat]
def k1_off56 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_99 : BitVec 32 := 32#32
  let v209 : BitVec 32 := Scalar.muli v5 c32_i32_99
  let c18_i32_100 : BitVec 32 := 18#32
  let v210 : BitVec 32 := Scalar.addi v209 c18_i32_100
  let c0_i32_102 : BitVec 32 := 0#32
  ![v210.toNat, 0]
def k1_off57 (v208 : BitVec 32) : Fin 2 → Nat :=
  let c0_i32_103 : BitVec 32 := 0#32
  ![v208.toNat, 0]

def k1_chk19 (v208 : BitVec 32) : Prop :=
  (∀ a, (k1_off57 v208) a + S1x32.size a ≤ S500000x32.size a)
instance k1_chk19.dec : ∀ (v208 : BitVec 32), Decidable (k1_chk19 v208) := fun v208 => decidable_of_iff' _ (Iff.of_eq (k1_chk19.eq_1 v208))
theorem k1_off57_inb : ∀ (v208 : BitVec 32) (k1_hw19 : k1_chk19 v208), ∀ a, (k1_off57 v208) a + S1x32.size a ≤ S500000x32.size a := fun v208 k1_hw19 => k1_hw19

def k1_off58 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c19_i32 : BitVec 32 := 19#32
  let v217 : BitVec 32 := Scalar.addi v7 c19_i32
  let v218 : Index := Scalar.indexCast v217
  ![v218.toNat]
def k1_off59 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_104 : BitVec 32 := 32#32
  let v220 : BitVec 32 := Scalar.muli v5 c32_i32_104
  let c19_i32_105 : BitVec 32 := 19#32
  let v221 : BitVec 32 := Scalar.addi v220 c19_i32_105
  let c0_i32_107 : BitVec 32 := 0#32
  ![v221.toNat, 0]
def k1_off60 (v219 : BitVec 32) : Fin 2 → Nat :=
  let c0_i32_108 : BitVec 32 := 0#32
  ![v219.toNat, 0]

def k1_chk20 (v219 : BitVec 32) : Prop :=
  (∀ a, (k1_off60 v219) a + S1x32.size a ≤ S500000x32.size a)
instance k1_chk20.dec : ∀ (v219 : BitVec 32), Decidable (k1_chk20 v219) := fun v219 => decidable_of_iff' _ (Iff.of_eq (k1_chk20.eq_1 v219))
theorem k1_off60_inb : ∀ (v219 : BitVec 32) (k1_hw20 : k1_chk20 v219), ∀ a, (k1_off60 v219) a + S1x32.size a ≤ S500000x32.size a := fun v219 k1_hw20 => k1_hw20

def k1_off61 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c20_i32 : BitVec 32 := 20#32
  let v228 : BitVec 32 := Scalar.addi v7 c20_i32
  let v229 : Index := Scalar.indexCast v228
  ![v229.toNat]
def k1_off62 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_109 : BitVec 32 := 32#32
  let v231 : BitVec 32 := Scalar.muli v5 c32_i32_109
  let c20_i32_110 : BitVec 32 := 20#32
  let v232 : BitVec 32 := Scalar.addi v231 c20_i32_110
  let c0_i32_112 : BitVec 32 := 0#32
  ![v232.toNat, 0]
def k1_off63 (v230 : BitVec 32) : Fin 2 → Nat :=
  let c0_i32_113 : BitVec 32 := 0#32
  ![v230.toNat, 0]

def k1_chk21 (v230 : BitVec 32) : Prop :=
  (∀ a, (k1_off63 v230) a + S1x32.size a ≤ S500000x32.size a)
instance k1_chk21.dec : ∀ (v230 : BitVec 32), Decidable (k1_chk21 v230) := fun v230 => decidable_of_iff' _ (Iff.of_eq (k1_chk21.eq_1 v230))
theorem k1_off63_inb : ∀ (v230 : BitVec 32) (k1_hw21 : k1_chk21 v230), ∀ a, (k1_off63 v230) a + S1x32.size a ≤ S500000x32.size a := fun v230 k1_hw21 => k1_hw21

def k1_off64 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c21_i32 : BitVec 32 := 21#32
  let v239 : BitVec 32 := Scalar.addi v7 c21_i32
  let v240 : Index := Scalar.indexCast v239
  ![v240.toNat]
def k1_off65 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_114 : BitVec 32 := 32#32
  let v242 : BitVec 32 := Scalar.muli v5 c32_i32_114
  let c21_i32_115 : BitVec 32 := 21#32
  let v243 : BitVec 32 := Scalar.addi v242 c21_i32_115
  let c0_i32_117 : BitVec 32 := 0#32
  ![v243.toNat, 0]
def k1_off66 (v241 : BitVec 32) : Fin 2 → Nat :=
  let c0_i32_118 : BitVec 32 := 0#32
  ![v241.toNat, 0]

def k1_chk22 (v241 : BitVec 32) : Prop :=
  (∀ a, (k1_off66 v241) a + S1x32.size a ≤ S500000x32.size a)
instance k1_chk22.dec : ∀ (v241 : BitVec 32), Decidable (k1_chk22 v241) := fun v241 => decidable_of_iff' _ (Iff.of_eq (k1_chk22.eq_1 v241))
theorem k1_off66_inb : ∀ (v241 : BitVec 32) (k1_hw22 : k1_chk22 v241), ∀ a, (k1_off66 v241) a + S1x32.size a ≤ S500000x32.size a := fun v241 k1_hw22 => k1_hw22

def k1_off67 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c22_i32 : BitVec 32 := 22#32
  let v250 : BitVec 32 := Scalar.addi v7 c22_i32
  let v251 : Index := Scalar.indexCast v250
  ![v251.toNat]
def k1_off68 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_119 : BitVec 32 := 32#32
  let v253 : BitVec 32 := Scalar.muli v5 c32_i32_119
  let c22_i32_120 : BitVec 32 := 22#32
  let v254 : BitVec 32 := Scalar.addi v253 c22_i32_120
  let c0_i32_122 : BitVec 32 := 0#32
  ![v254.toNat, 0]
def k1_off69 (v252 : BitVec 32) : Fin 2 → Nat :=
  let c0_i32_123 : BitVec 32 := 0#32
  ![v252.toNat, 0]

def k1_chk23 (v252 : BitVec 32) : Prop :=
  (∀ a, (k1_off69 v252) a + S1x32.size a ≤ S500000x32.size a)
instance k1_chk23.dec : ∀ (v252 : BitVec 32), Decidable (k1_chk23 v252) := fun v252 => decidable_of_iff' _ (Iff.of_eq (k1_chk23.eq_1 v252))
theorem k1_off69_inb : ∀ (v252 : BitVec 32) (k1_hw23 : k1_chk23 v252), ∀ a, (k1_off69 v252) a + S1x32.size a ≤ S500000x32.size a := fun v252 k1_hw23 => k1_hw23

def k1_off70 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c23_i32 : BitVec 32 := 23#32
  let v261 : BitVec 32 := Scalar.addi v7 c23_i32
  let v262 : Index := Scalar.indexCast v261
  ![v262.toNat]
def k1_off71 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_124 : BitVec 32 := 32#32
  let v264 : BitVec 32 := Scalar.muli v5 c32_i32_124
  let c23_i32_125 : BitVec 32 := 23#32
  let v265 : BitVec 32 := Scalar.addi v264 c23_i32_125
  let c0_i32_127 : BitVec 32 := 0#32
  ![v265.toNat, 0]
def k1_off72 (v263 : BitVec 32) : Fin 2 → Nat :=
  let c0_i32_128 : BitVec 32 := 0#32
  ![v263.toNat, 0]

def k1_chk24 (v263 : BitVec 32) : Prop :=
  (∀ a, (k1_off72 v263) a + S1x32.size a ≤ S500000x32.size a)
instance k1_chk24.dec : ∀ (v263 : BitVec 32), Decidable (k1_chk24 v263) := fun v263 => decidable_of_iff' _ (Iff.of_eq (k1_chk24.eq_1 v263))
theorem k1_off72_inb : ∀ (v263 : BitVec 32) (k1_hw24 : k1_chk24 v263), ∀ a, (k1_off72 v263) a + S1x32.size a ≤ S500000x32.size a := fun v263 k1_hw24 => k1_hw24

def k1_off73 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c24_i32 : BitVec 32 := 24#32
  let v272 : BitVec 32 := Scalar.addi v7 c24_i32
  let v273 : Index := Scalar.indexCast v272
  ![v273.toNat]
def k1_off74 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_129 : BitVec 32 := 32#32
  let v275 : BitVec 32 := Scalar.muli v5 c32_i32_129
  let c24_i32_130 : BitVec 32 := 24#32
  let v276 : BitVec 32 := Scalar.addi v275 c24_i32_130
  let c0_i32_132 : BitVec 32 := 0#32
  ![v276.toNat, 0]
def k1_off75 (v274 : BitVec 32) : Fin 2 → Nat :=
  let c0_i32_133 : BitVec 32 := 0#32
  ![v274.toNat, 0]

def k1_chk25 (v274 : BitVec 32) : Prop :=
  (∀ a, (k1_off75 v274) a + S1x32.size a ≤ S500000x32.size a)
instance k1_chk25.dec : ∀ (v274 : BitVec 32), Decidable (k1_chk25 v274) := fun v274 => decidable_of_iff' _ (Iff.of_eq (k1_chk25.eq_1 v274))
theorem k1_off75_inb : ∀ (v274 : BitVec 32) (k1_hw25 : k1_chk25 v274), ∀ a, (k1_off75 v274) a + S1x32.size a ≤ S500000x32.size a := fun v274 k1_hw25 => k1_hw25

def k1_off76 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c25_i32 : BitVec 32 := 25#32
  let v283 : BitVec 32 := Scalar.addi v7 c25_i32
  let v284 : Index := Scalar.indexCast v283
  ![v284.toNat]
def k1_off77 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_134 : BitVec 32 := 32#32
  let v286 : BitVec 32 := Scalar.muli v5 c32_i32_134
  let c25_i32_135 : BitVec 32 := 25#32
  let v287 : BitVec 32 := Scalar.addi v286 c25_i32_135
  let c0_i32_137 : BitVec 32 := 0#32
  ![v287.toNat, 0]
def k1_off78 (v285 : BitVec 32) : Fin 2 → Nat :=
  let c0_i32_138 : BitVec 32 := 0#32
  ![v285.toNat, 0]

def k1_chk26 (v285 : BitVec 32) : Prop :=
  (∀ a, (k1_off78 v285) a + S1x32.size a ≤ S500000x32.size a)
instance k1_chk26.dec : ∀ (v285 : BitVec 32), Decidable (k1_chk26 v285) := fun v285 => decidable_of_iff' _ (Iff.of_eq (k1_chk26.eq_1 v285))
theorem k1_off78_inb : ∀ (v285 : BitVec 32) (k1_hw26 : k1_chk26 v285), ∀ a, (k1_off78 v285) a + S1x32.size a ≤ S500000x32.size a := fun v285 k1_hw26 => k1_hw26

def k1_off79 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c26_i32 : BitVec 32 := 26#32
  let v294 : BitVec 32 := Scalar.addi v7 c26_i32
  let v295 : Index := Scalar.indexCast v294
  ![v295.toNat]
def k1_off80 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_139 : BitVec 32 := 32#32
  let v297 : BitVec 32 := Scalar.muli v5 c32_i32_139
  let c26_i32_140 : BitVec 32 := 26#32
  let v298 : BitVec 32 := Scalar.addi v297 c26_i32_140
  let c0_i32_142 : BitVec 32 := 0#32
  ![v298.toNat, 0]
def k1_off81 (v296 : BitVec 32) : Fin 2 → Nat :=
  let c0_i32_143 : BitVec 32 := 0#32
  ![v296.toNat, 0]

def k1_chk27 (v296 : BitVec 32) : Prop :=
  (∀ a, (k1_off81 v296) a + S1x32.size a ≤ S500000x32.size a)
instance k1_chk27.dec : ∀ (v296 : BitVec 32), Decidable (k1_chk27 v296) := fun v296 => decidable_of_iff' _ (Iff.of_eq (k1_chk27.eq_1 v296))
theorem k1_off81_inb : ∀ (v296 : BitVec 32) (k1_hw27 : k1_chk27 v296), ∀ a, (k1_off81 v296) a + S1x32.size a ≤ S500000x32.size a := fun v296 k1_hw27 => k1_hw27

def k1_off82 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c27_i32 : BitVec 32 := 27#32
  let v305 : BitVec 32 := Scalar.addi v7 c27_i32
  let v306 : Index := Scalar.indexCast v305
  ![v306.toNat]
def k1_off83 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_144 : BitVec 32 := 32#32
  let v308 : BitVec 32 := Scalar.muli v5 c32_i32_144
  let c27_i32_145 : BitVec 32 := 27#32
  let v309 : BitVec 32 := Scalar.addi v308 c27_i32_145
  let c0_i32_147 : BitVec 32 := 0#32
  ![v309.toNat, 0]
def k1_off84 (v307 : BitVec 32) : Fin 2 → Nat :=
  let c0_i32_148 : BitVec 32 := 0#32
  ![v307.toNat, 0]

def k1_chk28 (v307 : BitVec 32) : Prop :=
  (∀ a, (k1_off84 v307) a + S1x32.size a ≤ S500000x32.size a)
instance k1_chk28.dec : ∀ (v307 : BitVec 32), Decidable (k1_chk28 v307) := fun v307 => decidable_of_iff' _ (Iff.of_eq (k1_chk28.eq_1 v307))
theorem k1_off84_inb : ∀ (v307 : BitVec 32) (k1_hw28 : k1_chk28 v307), ∀ a, (k1_off84 v307) a + S1x32.size a ≤ S500000x32.size a := fun v307 k1_hw28 => k1_hw28

def k1_off85 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c28_i32 : BitVec 32 := 28#32
  let v316 : BitVec 32 := Scalar.addi v7 c28_i32
  let v317 : Index := Scalar.indexCast v316
  ![v317.toNat]
def k1_off86 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_149 : BitVec 32 := 32#32
  let v319 : BitVec 32 := Scalar.muli v5 c32_i32_149
  let c28_i32_150 : BitVec 32 := 28#32
  let v320 : BitVec 32 := Scalar.addi v319 c28_i32_150
  let c0_i32_152 : BitVec 32 := 0#32
  ![v320.toNat, 0]
def k1_off87 (v318 : BitVec 32) : Fin 2 → Nat :=
  let c0_i32_153 : BitVec 32 := 0#32
  ![v318.toNat, 0]

def k1_chk29 (v318 : BitVec 32) : Prop :=
  (∀ a, (k1_off87 v318) a + S1x32.size a ≤ S500000x32.size a)
instance k1_chk29.dec : ∀ (v318 : BitVec 32), Decidable (k1_chk29 v318) := fun v318 => decidable_of_iff' _ (Iff.of_eq (k1_chk29.eq_1 v318))
theorem k1_off87_inb : ∀ (v318 : BitVec 32) (k1_hw29 : k1_chk29 v318), ∀ a, (k1_off87 v318) a + S1x32.size a ≤ S500000x32.size a := fun v318 k1_hw29 => k1_hw29

def k1_off88 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c29_i32 : BitVec 32 := 29#32
  let v327 : BitVec 32 := Scalar.addi v7 c29_i32
  let v328 : Index := Scalar.indexCast v327
  ![v328.toNat]
def k1_off89 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_154 : BitVec 32 := 32#32
  let v330 : BitVec 32 := Scalar.muli v5 c32_i32_154
  let c29_i32_155 : BitVec 32 := 29#32
  let v331 : BitVec 32 := Scalar.addi v330 c29_i32_155
  let c0_i32_157 : BitVec 32 := 0#32
  ![v331.toNat, 0]
def k1_off90 (v329 : BitVec 32) : Fin 2 → Nat :=
  let c0_i32_158 : BitVec 32 := 0#32
  ![v329.toNat, 0]

def k1_chk30 (v329 : BitVec 32) : Prop :=
  (∀ a, (k1_off90 v329) a + S1x32.size a ≤ S500000x32.size a)
instance k1_chk30.dec : ∀ (v329 : BitVec 32), Decidable (k1_chk30 v329) := fun v329 => decidable_of_iff' _ (Iff.of_eq (k1_chk30.eq_1 v329))
theorem k1_off90_inb : ∀ (v329 : BitVec 32) (k1_hw30 : k1_chk30 v329), ∀ a, (k1_off90 v329) a + S1x32.size a ≤ S500000x32.size a := fun v329 k1_hw30 => k1_hw30

def k1_off91 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c30_i32 : BitVec 32 := 30#32
  let v338 : BitVec 32 := Scalar.addi v7 c30_i32
  let v339 : Index := Scalar.indexCast v338
  ![v339.toNat]
def k1_off92 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_159 : BitVec 32 := 32#32
  let v341 : BitVec 32 := Scalar.muli v5 c32_i32_159
  let c30_i32_160 : BitVec 32 := 30#32
  let v342 : BitVec 32 := Scalar.addi v341 c30_i32_160
  let c0_i32_162 : BitVec 32 := 0#32
  ![v342.toNat, 0]
def k1_off93 (v340 : BitVec 32) : Fin 2 → Nat :=
  let c0_i32_163 : BitVec 32 := 0#32
  ![v340.toNat, 0]

def k1_chk31 (v340 : BitVec 32) : Prop :=
  (∀ a, (k1_off93 v340) a + S1x32.size a ≤ S500000x32.size a)
instance k1_chk31.dec : ∀ (v340 : BitVec 32), Decidable (k1_chk31 v340) := fun v340 => decidable_of_iff' _ (Iff.of_eq (k1_chk31.eq_1 v340))
theorem k1_off93_inb : ∀ (v340 : BitVec 32) (k1_hw31 : k1_chk31 v340), ∀ a, (k1_off93 v340) a + S1x32.size a ≤ S500000x32.size a := fun v340 k1_hw31 => k1_hw31

def k1_off94 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c31_i32 : BitVec 32 := 31#32
  let v349 : BitVec 32 := Scalar.addi v7 c31_i32
  let v350 : Index := Scalar.indexCast v349
  ![v350.toNat]
def k1_off95 (k1_t1 : Fin k1_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_164 : BitVec 32 := 32#32
  let v352 : BitVec 32 := Scalar.muli v5 c32_i32_164
  let c31_i32_165 : BitVec 32 := 31#32
  let v353 : BitVec 32 := Scalar.addi v352 c31_i32_165
  let c0_i32_167 : BitVec 32 := 0#32
  ![v353.toNat, 0]
def k1_off96 (v351 : BitVec 32) : Fin 2 → Nat :=
  let c0_i32_168 : BitVec 32 := 0#32
  ![v351.toNat, 0]

def k1_chk32 (v351 : BitVec 32) : Prop :=
  (∀ a, (k1_off96 v351) a + S1x32.size a ≤ S500000x32.size a)
instance k1_chk32.dec : ∀ (v351 : BitVec 32), Decidable (k1_chk32 v351) := fun v351 => decidable_of_iff' _ (Iff.of_eq (k1_chk32.eq_1 v351))
theorem k1_off96_inb : ∀ (v351 : BitVec 32) (k1_hw32 : k1_chk32 v351), ∀ a, (k1_off96 v351) a + S1x32.size a ≤ S500000x32.size a := fun v351 k1_hw32 => k1_hw32

def k1_off97 (k1_t1 : Fin k1_t1_loop.trips) (c0_i32_170 : BitVec 32) : Fin 2 → Nat :=
  let c0_i32_5 : BitVec 32 := 0#32
  let c0_i32 : BitVec 32 := 0#32
  let c1_i32 : BitVec 32 := 1#32
  let arg6 : BitVec 32 := Scf.iv c0_i32 c1_i32 k1_t1
  let c1_i32_4 : BitVec 32 := 1#32
  let v4 : BitVec 32 := Scalar.muli arg6 c1_i32_4
  let v5 : BitVec 32 := Scalar.addi c0_i32_5 v4
  let c32_i32_169 : BitVec 32 := 32#32
  let v360 : BitVec 32 := Scalar.muli v5 c32_i32_169
  let v361 : BitVec 32 := Scalar.addi v360 c0_i32_170
  let c0_i32_173 : BitVec 32 := 0#32
  ![v361.toNat, 0]
def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![128], ![false]⟩

abbrev pre2 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

@[reducible] def k2_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k2_off1 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c0_i32_7 : BitVec 32 := 0#32
  let v8 : BitVec 32 := Scalar.addi v7 c0_i32_7
  let v9 : Index := Scalar.indexCast v8
  ![v9.toNat]
def k2_off2 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_8 : BitVec 32 := 32#32
  let v11 : BitVec 32 := Scalar.muli v5 c32_i32_8
  let c0_i32_9 : BitVec 32 := 0#32
  let v12 : BitVec 32 := Scalar.addi v11 c0_i32_9
  let c0_i32_11 : BitVec 32 := 0#32
  ![v12.toNat, 0]
def k2_off3 (v10 : BitVec 32) : Fin 2 → Nat :=
  let c0_i32_12 : BitVec 32 := 0#32
  ![v10.toNat, 0]

def k2_chk1 (v10 : BitVec 32) : Prop :=
  (∀ a, (k2_off3 v10) a + S1x32.size a ≤ S500000x32.size a)
instance k2_chk1.dec : ∀ (v10 : BitVec 32), Decidable (k2_chk1 v10) := fun v10 => decidable_of_iff' _ (Iff.of_eq (k2_chk1.eq_1 v10))
theorem k2_off3_inb : ∀ (v10 : BitVec 32) (k2_hw1 : k2_chk1 v10), ∀ a, (k2_off3 v10) a + S1x32.size a ≤ S500000x32.size a := fun v10 k2_hw1 => k2_hw1

def k2_off4 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c1_i32_13 : BitVec 32 := 1#32
  let v19 : BitVec 32 := Scalar.addi v7 c1_i32_13
  let v20 : Index := Scalar.indexCast v19
  ![v20.toNat]
def k2_off5 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_14 : BitVec 32 := 32#32
  let v22 : BitVec 32 := Scalar.muli v5 c32_i32_14
  let c1_i32_15 : BitVec 32 := 1#32
  let v23 : BitVec 32 := Scalar.addi v22 c1_i32_15
  let c0_i32_17 : BitVec 32 := 0#32
  ![v23.toNat, 0]
def k2_off6 (v21 : BitVec 32) : Fin 2 → Nat :=
  let c0_i32_18 : BitVec 32 := 0#32
  ![v21.toNat, 0]

def k2_chk2 (v21 : BitVec 32) : Prop :=
  (∀ a, (k2_off6 v21) a + S1x32.size a ≤ S500000x32.size a)
instance k2_chk2.dec : ∀ (v21 : BitVec 32), Decidable (k2_chk2 v21) := fun v21 => decidable_of_iff' _ (Iff.of_eq (k2_chk2.eq_1 v21))
theorem k2_off6_inb : ∀ (v21 : BitVec 32) (k2_hw2 : k2_chk2 v21), ∀ a, (k2_off6 v21) a + S1x32.size a ≤ S500000x32.size a := fun v21 k2_hw2 => k2_hw2

def k2_off7 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c2_i32 : BitVec 32 := 2#32
  let v30 : BitVec 32 := Scalar.addi v7 c2_i32
  let v31 : Index := Scalar.indexCast v30
  ![v31.toNat]
def k2_off8 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_19 : BitVec 32 := 32#32
  let v33 : BitVec 32 := Scalar.muli v5 c32_i32_19
  let c2_i32_20 : BitVec 32 := 2#32
  let v34 : BitVec 32 := Scalar.addi v33 c2_i32_20
  let c0_i32_22 : BitVec 32 := 0#32
  ![v34.toNat, 0]
def k2_off9 (v32 : BitVec 32) : Fin 2 → Nat :=
  let c0_i32_23 : BitVec 32 := 0#32
  ![v32.toNat, 0]

def k2_chk3 (v32 : BitVec 32) : Prop :=
  (∀ a, (k2_off9 v32) a + S1x32.size a ≤ S500000x32.size a)
instance k2_chk3.dec : ∀ (v32 : BitVec 32), Decidable (k2_chk3 v32) := fun v32 => decidable_of_iff' _ (Iff.of_eq (k2_chk3.eq_1 v32))
theorem k2_off9_inb : ∀ (v32 : BitVec 32) (k2_hw3 : k2_chk3 v32), ∀ a, (k2_off9 v32) a + S1x32.size a ≤ S500000x32.size a := fun v32 k2_hw3 => k2_hw3

def k2_off10 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c3_i32 : BitVec 32 := 3#32
  let v41 : BitVec 32 := Scalar.addi v7 c3_i32
  let v42 : Index := Scalar.indexCast v41
  ![v42.toNat]
def k2_off11 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_24 : BitVec 32 := 32#32
  let v44 : BitVec 32 := Scalar.muli v5 c32_i32_24
  let c3_i32_25 : BitVec 32 := 3#32
  let v45 : BitVec 32 := Scalar.addi v44 c3_i32_25
  let c0_i32_27 : BitVec 32 := 0#32
  ![v45.toNat, 0]
def k2_off12 (v43 : BitVec 32) : Fin 2 → Nat :=
  let c0_i32_28 : BitVec 32 := 0#32
  ![v43.toNat, 0]

def k2_chk4 (v43 : BitVec 32) : Prop :=
  (∀ a, (k2_off12 v43) a + S1x32.size a ≤ S500000x32.size a)
instance k2_chk4.dec : ∀ (v43 : BitVec 32), Decidable (k2_chk4 v43) := fun v43 => decidable_of_iff' _ (Iff.of_eq (k2_chk4.eq_1 v43))
theorem k2_off12_inb : ∀ (v43 : BitVec 32) (k2_hw4 : k2_chk4 v43), ∀ a, (k2_off12 v43) a + S1x32.size a ≤ S500000x32.size a := fun v43 k2_hw4 => k2_hw4

def k2_off13 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c4_i32 : BitVec 32 := 4#32
  let v52 : BitVec 32 := Scalar.addi v7 c4_i32
  let v53 : Index := Scalar.indexCast v52
  ![v53.toNat]
def k2_off14 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_29 : BitVec 32 := 32#32
  let v55 : BitVec 32 := Scalar.muli v5 c32_i32_29
  let c4_i32_30 : BitVec 32 := 4#32
  let v56 : BitVec 32 := Scalar.addi v55 c4_i32_30
  let c0_i32_32 : BitVec 32 := 0#32
  ![v56.toNat, 0]
def k2_off15 (v54 : BitVec 32) : Fin 2 → Nat :=
  let c0_i32_33 : BitVec 32 := 0#32
  ![v54.toNat, 0]

def k2_chk5 (v54 : BitVec 32) : Prop :=
  (∀ a, (k2_off15 v54) a + S1x32.size a ≤ S500000x32.size a)
instance k2_chk5.dec : ∀ (v54 : BitVec 32), Decidable (k2_chk5 v54) := fun v54 => decidable_of_iff' _ (Iff.of_eq (k2_chk5.eq_1 v54))
theorem k2_off15_inb : ∀ (v54 : BitVec 32) (k2_hw5 : k2_chk5 v54), ∀ a, (k2_off15 v54) a + S1x32.size a ≤ S500000x32.size a := fun v54 k2_hw5 => k2_hw5

def k2_off16 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c5_i32 : BitVec 32 := 5#32
  let v63 : BitVec 32 := Scalar.addi v7 c5_i32
  let v64 : Index := Scalar.indexCast v63
  ![v64.toNat]
def k2_off17 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_34 : BitVec 32 := 32#32
  let v66 : BitVec 32 := Scalar.muli v5 c32_i32_34
  let c5_i32_35 : BitVec 32 := 5#32
  let v67 : BitVec 32 := Scalar.addi v66 c5_i32_35
  let c0_i32_37 : BitVec 32 := 0#32
  ![v67.toNat, 0]
def k2_off18 (v65 : BitVec 32) : Fin 2 → Nat :=
  let c0_i32_38 : BitVec 32 := 0#32
  ![v65.toNat, 0]

def k2_chk6 (v65 : BitVec 32) : Prop :=
  (∀ a, (k2_off18 v65) a + S1x32.size a ≤ S500000x32.size a)
instance k2_chk6.dec : ∀ (v65 : BitVec 32), Decidable (k2_chk6 v65) := fun v65 => decidable_of_iff' _ (Iff.of_eq (k2_chk6.eq_1 v65))
theorem k2_off18_inb : ∀ (v65 : BitVec 32) (k2_hw6 : k2_chk6 v65), ∀ a, (k2_off18 v65) a + S1x32.size a ≤ S500000x32.size a := fun v65 k2_hw6 => k2_hw6

def k2_off19 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c6_i32 : BitVec 32 := 6#32
  let v74 : BitVec 32 := Scalar.addi v7 c6_i32
  let v75 : Index := Scalar.indexCast v74
  ![v75.toNat]
def k2_off20 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_39 : BitVec 32 := 32#32
  let v77 : BitVec 32 := Scalar.muli v5 c32_i32_39
  let c6_i32_40 : BitVec 32 := 6#32
  let v78 : BitVec 32 := Scalar.addi v77 c6_i32_40
  let c0_i32_42 : BitVec 32 := 0#32
  ![v78.toNat, 0]
def k2_off21 (v76 : BitVec 32) : Fin 2 → Nat :=
  let c0_i32_43 : BitVec 32 := 0#32
  ![v76.toNat, 0]

def k2_chk7 (v76 : BitVec 32) : Prop :=
  (∀ a, (k2_off21 v76) a + S1x32.size a ≤ S500000x32.size a)
instance k2_chk7.dec : ∀ (v76 : BitVec 32), Decidable (k2_chk7 v76) := fun v76 => decidable_of_iff' _ (Iff.of_eq (k2_chk7.eq_1 v76))
theorem k2_off21_inb : ∀ (v76 : BitVec 32) (k2_hw7 : k2_chk7 v76), ∀ a, (k2_off21 v76) a + S1x32.size a ≤ S500000x32.size a := fun v76 k2_hw7 => k2_hw7

def k2_off22 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c7_i32 : BitVec 32 := 7#32
  let v85 : BitVec 32 := Scalar.addi v7 c7_i32
  let v86 : Index := Scalar.indexCast v85
  ![v86.toNat]
def k2_off23 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_44 : BitVec 32 := 32#32
  let v88 : BitVec 32 := Scalar.muli v5 c32_i32_44
  let c7_i32_45 : BitVec 32 := 7#32
  let v89 : BitVec 32 := Scalar.addi v88 c7_i32_45
  let c0_i32_47 : BitVec 32 := 0#32
  ![v89.toNat, 0]
def k2_off24 (v87 : BitVec 32) : Fin 2 → Nat :=
  let c0_i32_48 : BitVec 32 := 0#32
  ![v87.toNat, 0]

def k2_chk8 (v87 : BitVec 32) : Prop :=
  (∀ a, (k2_off24 v87) a + S1x32.size a ≤ S500000x32.size a)
instance k2_chk8.dec : ∀ (v87 : BitVec 32), Decidable (k2_chk8 v87) := fun v87 => decidable_of_iff' _ (Iff.of_eq (k2_chk8.eq_1 v87))
theorem k2_off24_inb : ∀ (v87 : BitVec 32) (k2_hw8 : k2_chk8 v87), ∀ a, (k2_off24 v87) a + S1x32.size a ≤ S500000x32.size a := fun v87 k2_hw8 => k2_hw8

def k2_off25 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c8_i32 : BitVec 32 := 8#32
  let v96 : BitVec 32 := Scalar.addi v7 c8_i32
  let v97 : Index := Scalar.indexCast v96
  ![v97.toNat]
def k2_off26 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_49 : BitVec 32 := 32#32
  let v99 : BitVec 32 := Scalar.muli v5 c32_i32_49
  let c8_i32_50 : BitVec 32 := 8#32
  let v100 : BitVec 32 := Scalar.addi v99 c8_i32_50
  let c0_i32_52 : BitVec 32 := 0#32
  ![v100.toNat, 0]
def k2_off27 (v98 : BitVec 32) : Fin 2 → Nat :=
  let c0_i32_53 : BitVec 32 := 0#32
  ![v98.toNat, 0]

def k2_chk9 (v98 : BitVec 32) : Prop :=
  (∀ a, (k2_off27 v98) a + S1x32.size a ≤ S500000x32.size a)
instance k2_chk9.dec : ∀ (v98 : BitVec 32), Decidable (k2_chk9 v98) := fun v98 => decidable_of_iff' _ (Iff.of_eq (k2_chk9.eq_1 v98))
theorem k2_off27_inb : ∀ (v98 : BitVec 32) (k2_hw9 : k2_chk9 v98), ∀ a, (k2_off27 v98) a + S1x32.size a ≤ S500000x32.size a := fun v98 k2_hw9 => k2_hw9

def k2_off28 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c9_i32 : BitVec 32 := 9#32
  let v107 : BitVec 32 := Scalar.addi v7 c9_i32
  let v108 : Index := Scalar.indexCast v107
  ![v108.toNat]
def k2_off29 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_54 : BitVec 32 := 32#32
  let v110 : BitVec 32 := Scalar.muli v5 c32_i32_54
  let c9_i32_55 : BitVec 32 := 9#32
  let v111 : BitVec 32 := Scalar.addi v110 c9_i32_55
  let c0_i32_57 : BitVec 32 := 0#32
  ![v111.toNat, 0]
def k2_off30 (v109 : BitVec 32) : Fin 2 → Nat :=
  let c0_i32_58 : BitVec 32 := 0#32
  ![v109.toNat, 0]

def k2_chk10 (v109 : BitVec 32) : Prop :=
  (∀ a, (k2_off30 v109) a + S1x32.size a ≤ S500000x32.size a)
instance k2_chk10.dec : ∀ (v109 : BitVec 32), Decidable (k2_chk10 v109) := fun v109 => decidable_of_iff' _ (Iff.of_eq (k2_chk10.eq_1 v109))
theorem k2_off30_inb : ∀ (v109 : BitVec 32) (k2_hw10 : k2_chk10 v109), ∀ a, (k2_off30 v109) a + S1x32.size a ≤ S500000x32.size a := fun v109 k2_hw10 => k2_hw10

def k2_off31 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c10_i32 : BitVec 32 := 10#32
  let v118 : BitVec 32 := Scalar.addi v7 c10_i32
  let v119 : Index := Scalar.indexCast v118
  ![v119.toNat]
def k2_off32 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_59 : BitVec 32 := 32#32
  let v121 : BitVec 32 := Scalar.muli v5 c32_i32_59
  let c10_i32_60 : BitVec 32 := 10#32
  let v122 : BitVec 32 := Scalar.addi v121 c10_i32_60
  let c0_i32_62 : BitVec 32 := 0#32
  ![v122.toNat, 0]
def k2_off33 (v120 : BitVec 32) : Fin 2 → Nat :=
  let c0_i32_63 : BitVec 32 := 0#32
  ![v120.toNat, 0]

def k2_chk11 (v120 : BitVec 32) : Prop :=
  (∀ a, (k2_off33 v120) a + S1x32.size a ≤ S500000x32.size a)
instance k2_chk11.dec : ∀ (v120 : BitVec 32), Decidable (k2_chk11 v120) := fun v120 => decidable_of_iff' _ (Iff.of_eq (k2_chk11.eq_1 v120))
theorem k2_off33_inb : ∀ (v120 : BitVec 32) (k2_hw11 : k2_chk11 v120), ∀ a, (k2_off33 v120) a + S1x32.size a ≤ S500000x32.size a := fun v120 k2_hw11 => k2_hw11

def k2_off34 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c11_i32 : BitVec 32 := 11#32
  let v129 : BitVec 32 := Scalar.addi v7 c11_i32
  let v130 : Index := Scalar.indexCast v129
  ![v130.toNat]
def k2_off35 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_64 : BitVec 32 := 32#32
  let v132 : BitVec 32 := Scalar.muli v5 c32_i32_64
  let c11_i32_65 : BitVec 32 := 11#32
  let v133 : BitVec 32 := Scalar.addi v132 c11_i32_65
  let c0_i32_67 : BitVec 32 := 0#32
  ![v133.toNat, 0]
def k2_off36 (v131 : BitVec 32) : Fin 2 → Nat :=
  let c0_i32_68 : BitVec 32 := 0#32
  ![v131.toNat, 0]

def k2_chk12 (v131 : BitVec 32) : Prop :=
  (∀ a, (k2_off36 v131) a + S1x32.size a ≤ S500000x32.size a)
instance k2_chk12.dec : ∀ (v131 : BitVec 32), Decidable (k2_chk12 v131) := fun v131 => decidable_of_iff' _ (Iff.of_eq (k2_chk12.eq_1 v131))
theorem k2_off36_inb : ∀ (v131 : BitVec 32) (k2_hw12 : k2_chk12 v131), ∀ a, (k2_off36 v131) a + S1x32.size a ≤ S500000x32.size a := fun v131 k2_hw12 => k2_hw12

def k2_off37 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c12_i32 : BitVec 32 := 12#32
  let v140 : BitVec 32 := Scalar.addi v7 c12_i32
  let v141 : Index := Scalar.indexCast v140
  ![v141.toNat]
def k2_off38 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_69 : BitVec 32 := 32#32
  let v143 : BitVec 32 := Scalar.muli v5 c32_i32_69
  let c12_i32_70 : BitVec 32 := 12#32
  let v144 : BitVec 32 := Scalar.addi v143 c12_i32_70
  let c0_i32_72 : BitVec 32 := 0#32
  ![v144.toNat, 0]
def k2_off39 (v142 : BitVec 32) : Fin 2 → Nat :=
  let c0_i32_73 : BitVec 32 := 0#32
  ![v142.toNat, 0]

def k2_chk13 (v142 : BitVec 32) : Prop :=
  (∀ a, (k2_off39 v142) a + S1x32.size a ≤ S500000x32.size a)
instance k2_chk13.dec : ∀ (v142 : BitVec 32), Decidable (k2_chk13 v142) := fun v142 => decidable_of_iff' _ (Iff.of_eq (k2_chk13.eq_1 v142))
theorem k2_off39_inb : ∀ (v142 : BitVec 32) (k2_hw13 : k2_chk13 v142), ∀ a, (k2_off39 v142) a + S1x32.size a ≤ S500000x32.size a := fun v142 k2_hw13 => k2_hw13

def k2_off40 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c13_i32 : BitVec 32 := 13#32
  let v151 : BitVec 32 := Scalar.addi v7 c13_i32
  let v152 : Index := Scalar.indexCast v151
  ![v152.toNat]
def k2_off41 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_74 : BitVec 32 := 32#32
  let v154 : BitVec 32 := Scalar.muli v5 c32_i32_74
  let c13_i32_75 : BitVec 32 := 13#32
  let v155 : BitVec 32 := Scalar.addi v154 c13_i32_75
  let c0_i32_77 : BitVec 32 := 0#32
  ![v155.toNat, 0]
def k2_off42 (v153 : BitVec 32) : Fin 2 → Nat :=
  let c0_i32_78 : BitVec 32 := 0#32
  ![v153.toNat, 0]

def k2_chk14 (v153 : BitVec 32) : Prop :=
  (∀ a, (k2_off42 v153) a + S1x32.size a ≤ S500000x32.size a)
instance k2_chk14.dec : ∀ (v153 : BitVec 32), Decidable (k2_chk14 v153) := fun v153 => decidable_of_iff' _ (Iff.of_eq (k2_chk14.eq_1 v153))
theorem k2_off42_inb : ∀ (v153 : BitVec 32) (k2_hw14 : k2_chk14 v153), ∀ a, (k2_off42 v153) a + S1x32.size a ≤ S500000x32.size a := fun v153 k2_hw14 => k2_hw14

def k2_off43 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c14_i32 : BitVec 32 := 14#32
  let v162 : BitVec 32 := Scalar.addi v7 c14_i32
  let v163 : Index := Scalar.indexCast v162
  ![v163.toNat]
def k2_off44 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_79 : BitVec 32 := 32#32
  let v165 : BitVec 32 := Scalar.muli v5 c32_i32_79
  let c14_i32_80 : BitVec 32 := 14#32
  let v166 : BitVec 32 := Scalar.addi v165 c14_i32_80
  let c0_i32_82 : BitVec 32 := 0#32
  ![v166.toNat, 0]
def k2_off45 (v164 : BitVec 32) : Fin 2 → Nat :=
  let c0_i32_83 : BitVec 32 := 0#32
  ![v164.toNat, 0]

def k2_chk15 (v164 : BitVec 32) : Prop :=
  (∀ a, (k2_off45 v164) a + S1x32.size a ≤ S500000x32.size a)
instance k2_chk15.dec : ∀ (v164 : BitVec 32), Decidable (k2_chk15 v164) := fun v164 => decidable_of_iff' _ (Iff.of_eq (k2_chk15.eq_1 v164))
theorem k2_off45_inb : ∀ (v164 : BitVec 32) (k2_hw15 : k2_chk15 v164), ∀ a, (k2_off45 v164) a + S1x32.size a ≤ S500000x32.size a := fun v164 k2_hw15 => k2_hw15

def k2_off46 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c15_i32 : BitVec 32 := 15#32
  let v173 : BitVec 32 := Scalar.addi v7 c15_i32
  let v174 : Index := Scalar.indexCast v173
  ![v174.toNat]
def k2_off47 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_84 : BitVec 32 := 32#32
  let v176 : BitVec 32 := Scalar.muli v5 c32_i32_84
  let c15_i32_85 : BitVec 32 := 15#32
  let v177 : BitVec 32 := Scalar.addi v176 c15_i32_85
  let c0_i32_87 : BitVec 32 := 0#32
  ![v177.toNat, 0]
def k2_off48 (v175 : BitVec 32) : Fin 2 → Nat :=
  let c0_i32_88 : BitVec 32 := 0#32
  ![v175.toNat, 0]

def k2_chk16 (v175 : BitVec 32) : Prop :=
  (∀ a, (k2_off48 v175) a + S1x32.size a ≤ S500000x32.size a)
instance k2_chk16.dec : ∀ (v175 : BitVec 32), Decidable (k2_chk16 v175) := fun v175 => decidable_of_iff' _ (Iff.of_eq (k2_chk16.eq_1 v175))
theorem k2_off48_inb : ∀ (v175 : BitVec 32) (k2_hw16 : k2_chk16 v175), ∀ a, (k2_off48 v175) a + S1x32.size a ≤ S500000x32.size a := fun v175 k2_hw16 => k2_hw16

def k2_off49 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c16_i32 : BitVec 32 := 16#32
  let v184 : BitVec 32 := Scalar.addi v7 c16_i32
  let v185 : Index := Scalar.indexCast v184
  ![v185.toNat]
def k2_off50 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_89 : BitVec 32 := 32#32
  let v187 : BitVec 32 := Scalar.muli v5 c32_i32_89
  let c16_i32_90 : BitVec 32 := 16#32
  let v188 : BitVec 32 := Scalar.addi v187 c16_i32_90
  let c0_i32_92 : BitVec 32 := 0#32
  ![v188.toNat, 0]
def k2_off51 (v186 : BitVec 32) : Fin 2 → Nat :=
  let c0_i32_93 : BitVec 32 := 0#32
  ![v186.toNat, 0]

def k2_chk17 (v186 : BitVec 32) : Prop :=
  (∀ a, (k2_off51 v186) a + S1x32.size a ≤ S500000x32.size a)
instance k2_chk17.dec : ∀ (v186 : BitVec 32), Decidable (k2_chk17 v186) := fun v186 => decidable_of_iff' _ (Iff.of_eq (k2_chk17.eq_1 v186))
theorem k2_off51_inb : ∀ (v186 : BitVec 32) (k2_hw17 : k2_chk17 v186), ∀ a, (k2_off51 v186) a + S1x32.size a ≤ S500000x32.size a := fun v186 k2_hw17 => k2_hw17

def k2_off52 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c17_i32 : BitVec 32 := 17#32
  let v195 : BitVec 32 := Scalar.addi v7 c17_i32
  let v196 : Index := Scalar.indexCast v195
  ![v196.toNat]
def k2_off53 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_94 : BitVec 32 := 32#32
  let v198 : BitVec 32 := Scalar.muli v5 c32_i32_94
  let c17_i32_95 : BitVec 32 := 17#32
  let v199 : BitVec 32 := Scalar.addi v198 c17_i32_95
  let c0_i32_97 : BitVec 32 := 0#32
  ![v199.toNat, 0]
def k2_off54 (v197 : BitVec 32) : Fin 2 → Nat :=
  let c0_i32_98 : BitVec 32 := 0#32
  ![v197.toNat, 0]

def k2_chk18 (v197 : BitVec 32) : Prop :=
  (∀ a, (k2_off54 v197) a + S1x32.size a ≤ S500000x32.size a)
instance k2_chk18.dec : ∀ (v197 : BitVec 32), Decidable (k2_chk18 v197) := fun v197 => decidable_of_iff' _ (Iff.of_eq (k2_chk18.eq_1 v197))
theorem k2_off54_inb : ∀ (v197 : BitVec 32) (k2_hw18 : k2_chk18 v197), ∀ a, (k2_off54 v197) a + S1x32.size a ≤ S500000x32.size a := fun v197 k2_hw18 => k2_hw18

def k2_off55 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c18_i32 : BitVec 32 := 18#32
  let v206 : BitVec 32 := Scalar.addi v7 c18_i32
  let v207 : Index := Scalar.indexCast v206
  ![v207.toNat]
def k2_off56 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_99 : BitVec 32 := 32#32
  let v209 : BitVec 32 := Scalar.muli v5 c32_i32_99
  let c18_i32_100 : BitVec 32 := 18#32
  let v210 : BitVec 32 := Scalar.addi v209 c18_i32_100
  let c0_i32_102 : BitVec 32 := 0#32
  ![v210.toNat, 0]
def k2_off57 (v208 : BitVec 32) : Fin 2 → Nat :=
  let c0_i32_103 : BitVec 32 := 0#32
  ![v208.toNat, 0]

def k2_chk19 (v208 : BitVec 32) : Prop :=
  (∀ a, (k2_off57 v208) a + S1x32.size a ≤ S500000x32.size a)
instance k2_chk19.dec : ∀ (v208 : BitVec 32), Decidable (k2_chk19 v208) := fun v208 => decidable_of_iff' _ (Iff.of_eq (k2_chk19.eq_1 v208))
theorem k2_off57_inb : ∀ (v208 : BitVec 32) (k2_hw19 : k2_chk19 v208), ∀ a, (k2_off57 v208) a + S1x32.size a ≤ S500000x32.size a := fun v208 k2_hw19 => k2_hw19

def k2_off58 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c19_i32 : BitVec 32 := 19#32
  let v217 : BitVec 32 := Scalar.addi v7 c19_i32
  let v218 : Index := Scalar.indexCast v217
  ![v218.toNat]
def k2_off59 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_104 : BitVec 32 := 32#32
  let v220 : BitVec 32 := Scalar.muli v5 c32_i32_104
  let c19_i32_105 : BitVec 32 := 19#32
  let v221 : BitVec 32 := Scalar.addi v220 c19_i32_105
  let c0_i32_107 : BitVec 32 := 0#32
  ![v221.toNat, 0]
def k2_off60 (v219 : BitVec 32) : Fin 2 → Nat :=
  let c0_i32_108 : BitVec 32 := 0#32
  ![v219.toNat, 0]

def k2_chk20 (v219 : BitVec 32) : Prop :=
  (∀ a, (k2_off60 v219) a + S1x32.size a ≤ S500000x32.size a)
instance k2_chk20.dec : ∀ (v219 : BitVec 32), Decidable (k2_chk20 v219) := fun v219 => decidable_of_iff' _ (Iff.of_eq (k2_chk20.eq_1 v219))
theorem k2_off60_inb : ∀ (v219 : BitVec 32) (k2_hw20 : k2_chk20 v219), ∀ a, (k2_off60 v219) a + S1x32.size a ≤ S500000x32.size a := fun v219 k2_hw20 => k2_hw20

def k2_off61 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c20_i32 : BitVec 32 := 20#32
  let v228 : BitVec 32 := Scalar.addi v7 c20_i32
  let v229 : Index := Scalar.indexCast v228
  ![v229.toNat]
def k2_off62 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_109 : BitVec 32 := 32#32
  let v231 : BitVec 32 := Scalar.muli v5 c32_i32_109
  let c20_i32_110 : BitVec 32 := 20#32
  let v232 : BitVec 32 := Scalar.addi v231 c20_i32_110
  let c0_i32_112 : BitVec 32 := 0#32
  ![v232.toNat, 0]
def k2_off63 (v230 : BitVec 32) : Fin 2 → Nat :=
  let c0_i32_113 : BitVec 32 := 0#32
  ![v230.toNat, 0]

def k2_chk21 (v230 : BitVec 32) : Prop :=
  (∀ a, (k2_off63 v230) a + S1x32.size a ≤ S500000x32.size a)
instance k2_chk21.dec : ∀ (v230 : BitVec 32), Decidable (k2_chk21 v230) := fun v230 => decidable_of_iff' _ (Iff.of_eq (k2_chk21.eq_1 v230))
theorem k2_off63_inb : ∀ (v230 : BitVec 32) (k2_hw21 : k2_chk21 v230), ∀ a, (k2_off63 v230) a + S1x32.size a ≤ S500000x32.size a := fun v230 k2_hw21 => k2_hw21

def k2_off64 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c21_i32 : BitVec 32 := 21#32
  let v239 : BitVec 32 := Scalar.addi v7 c21_i32
  let v240 : Index := Scalar.indexCast v239
  ![v240.toNat]
def k2_off65 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_114 : BitVec 32 := 32#32
  let v242 : BitVec 32 := Scalar.muli v5 c32_i32_114
  let c21_i32_115 : BitVec 32 := 21#32
  let v243 : BitVec 32 := Scalar.addi v242 c21_i32_115
  let c0_i32_117 : BitVec 32 := 0#32
  ![v243.toNat, 0]
def k2_off66 (v241 : BitVec 32) : Fin 2 → Nat :=
  let c0_i32_118 : BitVec 32 := 0#32
  ![v241.toNat, 0]

def k2_chk22 (v241 : BitVec 32) : Prop :=
  (∀ a, (k2_off66 v241) a + S1x32.size a ≤ S500000x32.size a)
instance k2_chk22.dec : ∀ (v241 : BitVec 32), Decidable (k2_chk22 v241) := fun v241 => decidable_of_iff' _ (Iff.of_eq (k2_chk22.eq_1 v241))
theorem k2_off66_inb : ∀ (v241 : BitVec 32) (k2_hw22 : k2_chk22 v241), ∀ a, (k2_off66 v241) a + S1x32.size a ≤ S500000x32.size a := fun v241 k2_hw22 => k2_hw22

def k2_off67 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c22_i32 : BitVec 32 := 22#32
  let v250 : BitVec 32 := Scalar.addi v7 c22_i32
  let v251 : Index := Scalar.indexCast v250
  ![v251.toNat]
def k2_off68 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_119 : BitVec 32 := 32#32
  let v253 : BitVec 32 := Scalar.muli v5 c32_i32_119
  let c22_i32_120 : BitVec 32 := 22#32
  let v254 : BitVec 32 := Scalar.addi v253 c22_i32_120
  let c0_i32_122 : BitVec 32 := 0#32
  ![v254.toNat, 0]
def k2_off69 (v252 : BitVec 32) : Fin 2 → Nat :=
  let c0_i32_123 : BitVec 32 := 0#32
  ![v252.toNat, 0]

def k2_chk23 (v252 : BitVec 32) : Prop :=
  (∀ a, (k2_off69 v252) a + S1x32.size a ≤ S500000x32.size a)
instance k2_chk23.dec : ∀ (v252 : BitVec 32), Decidable (k2_chk23 v252) := fun v252 => decidable_of_iff' _ (Iff.of_eq (k2_chk23.eq_1 v252))
theorem k2_off69_inb : ∀ (v252 : BitVec 32) (k2_hw23 : k2_chk23 v252), ∀ a, (k2_off69 v252) a + S1x32.size a ≤ S500000x32.size a := fun v252 k2_hw23 => k2_hw23

def k2_off70 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c23_i32 : BitVec 32 := 23#32
  let v261 : BitVec 32 := Scalar.addi v7 c23_i32
  let v262 : Index := Scalar.indexCast v261
  ![v262.toNat]
def k2_off71 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_124 : BitVec 32 := 32#32
  let v264 : BitVec 32 := Scalar.muli v5 c32_i32_124
  let c23_i32_125 : BitVec 32 := 23#32
  let v265 : BitVec 32 := Scalar.addi v264 c23_i32_125
  let c0_i32_127 : BitVec 32 := 0#32
  ![v265.toNat, 0]
def k2_off72 (v263 : BitVec 32) : Fin 2 → Nat :=
  let c0_i32_128 : BitVec 32 := 0#32
  ![v263.toNat, 0]

def k2_chk24 (v263 : BitVec 32) : Prop :=
  (∀ a, (k2_off72 v263) a + S1x32.size a ≤ S500000x32.size a)
instance k2_chk24.dec : ∀ (v263 : BitVec 32), Decidable (k2_chk24 v263) := fun v263 => decidable_of_iff' _ (Iff.of_eq (k2_chk24.eq_1 v263))
theorem k2_off72_inb : ∀ (v263 : BitVec 32) (k2_hw24 : k2_chk24 v263), ∀ a, (k2_off72 v263) a + S1x32.size a ≤ S500000x32.size a := fun v263 k2_hw24 => k2_hw24

def k2_off73 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c24_i32 : BitVec 32 := 24#32
  let v272 : BitVec 32 := Scalar.addi v7 c24_i32
  let v273 : Index := Scalar.indexCast v272
  ![v273.toNat]
def k2_off74 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_129 : BitVec 32 := 32#32
  let v275 : BitVec 32 := Scalar.muli v5 c32_i32_129
  let c24_i32_130 : BitVec 32 := 24#32
  let v276 : BitVec 32 := Scalar.addi v275 c24_i32_130
  let c0_i32_132 : BitVec 32 := 0#32
  ![v276.toNat, 0]
def k2_off75 (v274 : BitVec 32) : Fin 2 → Nat :=
  let c0_i32_133 : BitVec 32 := 0#32
  ![v274.toNat, 0]

def k2_chk25 (v274 : BitVec 32) : Prop :=
  (∀ a, (k2_off75 v274) a + S1x32.size a ≤ S500000x32.size a)
instance k2_chk25.dec : ∀ (v274 : BitVec 32), Decidable (k2_chk25 v274) := fun v274 => decidable_of_iff' _ (Iff.of_eq (k2_chk25.eq_1 v274))
theorem k2_off75_inb : ∀ (v274 : BitVec 32) (k2_hw25 : k2_chk25 v274), ∀ a, (k2_off75 v274) a + S1x32.size a ≤ S500000x32.size a := fun v274 k2_hw25 => k2_hw25

def k2_off76 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c25_i32 : BitVec 32 := 25#32
  let v283 : BitVec 32 := Scalar.addi v7 c25_i32
  let v284 : Index := Scalar.indexCast v283
  ![v284.toNat]
def k2_off77 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_134 : BitVec 32 := 32#32
  let v286 : BitVec 32 := Scalar.muli v5 c32_i32_134
  let c25_i32_135 : BitVec 32 := 25#32
  let v287 : BitVec 32 := Scalar.addi v286 c25_i32_135
  let c0_i32_137 : BitVec 32 := 0#32
  ![v287.toNat, 0]
def k2_off78 (v285 : BitVec 32) : Fin 2 → Nat :=
  let c0_i32_138 : BitVec 32 := 0#32
  ![v285.toNat, 0]

def k2_chk26 (v285 : BitVec 32) : Prop :=
  (∀ a, (k2_off78 v285) a + S1x32.size a ≤ S500000x32.size a)
instance k2_chk26.dec : ∀ (v285 : BitVec 32), Decidable (k2_chk26 v285) := fun v285 => decidable_of_iff' _ (Iff.of_eq (k2_chk26.eq_1 v285))
theorem k2_off78_inb : ∀ (v285 : BitVec 32) (k2_hw26 : k2_chk26 v285), ∀ a, (k2_off78 v285) a + S1x32.size a ≤ S500000x32.size a := fun v285 k2_hw26 => k2_hw26

def k2_off79 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c26_i32 : BitVec 32 := 26#32
  let v294 : BitVec 32 := Scalar.addi v7 c26_i32
  let v295 : Index := Scalar.indexCast v294
  ![v295.toNat]
def k2_off80 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_139 : BitVec 32 := 32#32
  let v297 : BitVec 32 := Scalar.muli v5 c32_i32_139
  let c26_i32_140 : BitVec 32 := 26#32
  let v298 : BitVec 32 := Scalar.addi v297 c26_i32_140
  let c0_i32_142 : BitVec 32 := 0#32
  ![v298.toNat, 0]
def k2_off81 (v296 : BitVec 32) : Fin 2 → Nat :=
  let c0_i32_143 : BitVec 32 := 0#32
  ![v296.toNat, 0]

def k2_chk27 (v296 : BitVec 32) : Prop :=
  (∀ a, (k2_off81 v296) a + S1x32.size a ≤ S500000x32.size a)
instance k2_chk27.dec : ∀ (v296 : BitVec 32), Decidable (k2_chk27 v296) := fun v296 => decidable_of_iff' _ (Iff.of_eq (k2_chk27.eq_1 v296))
theorem k2_off81_inb : ∀ (v296 : BitVec 32) (k2_hw27 : k2_chk27 v296), ∀ a, (k2_off81 v296) a + S1x32.size a ≤ S500000x32.size a := fun v296 k2_hw27 => k2_hw27

def k2_off82 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c27_i32 : BitVec 32 := 27#32
  let v305 : BitVec 32 := Scalar.addi v7 c27_i32
  let v306 : Index := Scalar.indexCast v305
  ![v306.toNat]
def k2_off83 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_144 : BitVec 32 := 32#32
  let v308 : BitVec 32 := Scalar.muli v5 c32_i32_144
  let c27_i32_145 : BitVec 32 := 27#32
  let v309 : BitVec 32 := Scalar.addi v308 c27_i32_145
  let c0_i32_147 : BitVec 32 := 0#32
  ![v309.toNat, 0]
def k2_off84 (v307 : BitVec 32) : Fin 2 → Nat :=
  let c0_i32_148 : BitVec 32 := 0#32
  ![v307.toNat, 0]

def k2_chk28 (v307 : BitVec 32) : Prop :=
  (∀ a, (k2_off84 v307) a + S1x32.size a ≤ S500000x32.size a)
instance k2_chk28.dec : ∀ (v307 : BitVec 32), Decidable (k2_chk28 v307) := fun v307 => decidable_of_iff' _ (Iff.of_eq (k2_chk28.eq_1 v307))
theorem k2_off84_inb : ∀ (v307 : BitVec 32) (k2_hw28 : k2_chk28 v307), ∀ a, (k2_off84 v307) a + S1x32.size a ≤ S500000x32.size a := fun v307 k2_hw28 => k2_hw28

def k2_off85 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c28_i32 : BitVec 32 := 28#32
  let v316 : BitVec 32 := Scalar.addi v7 c28_i32
  let v317 : Index := Scalar.indexCast v316
  ![v317.toNat]
def k2_off86 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_149 : BitVec 32 := 32#32
  let v319 : BitVec 32 := Scalar.muli v5 c32_i32_149
  let c28_i32_150 : BitVec 32 := 28#32
  let v320 : BitVec 32 := Scalar.addi v319 c28_i32_150
  let c0_i32_152 : BitVec 32 := 0#32
  ![v320.toNat, 0]
def k2_off87 (v318 : BitVec 32) : Fin 2 → Nat :=
  let c0_i32_153 : BitVec 32 := 0#32
  ![v318.toNat, 0]

def k2_chk29 (v318 : BitVec 32) : Prop :=
  (∀ a, (k2_off87 v318) a + S1x32.size a ≤ S500000x32.size a)
instance k2_chk29.dec : ∀ (v318 : BitVec 32), Decidable (k2_chk29 v318) := fun v318 => decidable_of_iff' _ (Iff.of_eq (k2_chk29.eq_1 v318))
theorem k2_off87_inb : ∀ (v318 : BitVec 32) (k2_hw29 : k2_chk29 v318), ∀ a, (k2_off87 v318) a + S1x32.size a ≤ S500000x32.size a := fun v318 k2_hw29 => k2_hw29

def k2_off88 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c29_i32 : BitVec 32 := 29#32
  let v327 : BitVec 32 := Scalar.addi v7 c29_i32
  let v328 : Index := Scalar.indexCast v327
  ![v328.toNat]
def k2_off89 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_154 : BitVec 32 := 32#32
  let v330 : BitVec 32 := Scalar.muli v5 c32_i32_154
  let c29_i32_155 : BitVec 32 := 29#32
  let v331 : BitVec 32 := Scalar.addi v330 c29_i32_155
  let c0_i32_157 : BitVec 32 := 0#32
  ![v331.toNat, 0]
def k2_off90 (v329 : BitVec 32) : Fin 2 → Nat :=
  let c0_i32_158 : BitVec 32 := 0#32
  ![v329.toNat, 0]

def k2_chk30 (v329 : BitVec 32) : Prop :=
  (∀ a, (k2_off90 v329) a + S1x32.size a ≤ S500000x32.size a)
instance k2_chk30.dec : ∀ (v329 : BitVec 32), Decidable (k2_chk30 v329) := fun v329 => decidable_of_iff' _ (Iff.of_eq (k2_chk30.eq_1 v329))
theorem k2_off90_inb : ∀ (v329 : BitVec 32) (k2_hw30 : k2_chk30 v329), ∀ a, (k2_off90 v329) a + S1x32.size a ≤ S500000x32.size a := fun v329 k2_hw30 => k2_hw30

def k2_off91 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c30_i32 : BitVec 32 := 30#32
  let v338 : BitVec 32 := Scalar.addi v7 c30_i32
  let v339 : Index := Scalar.indexCast v338
  ![v339.toNat]
def k2_off92 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_159 : BitVec 32 := 32#32
  let v341 : BitVec 32 := Scalar.muli v5 c32_i32_159
  let c30_i32_160 : BitVec 32 := 30#32
  let v342 : BitVec 32 := Scalar.addi v341 c30_i32_160
  let c0_i32_162 : BitVec 32 := 0#32
  ![v342.toNat, 0]
def k2_off93 (v340 : BitVec 32) : Fin 2 → Nat :=
  let c0_i32_163 : BitVec 32 := 0#32
  ![v340.toNat, 0]

def k2_chk31 (v340 : BitVec 32) : Prop :=
  (∀ a, (k2_off93 v340) a + S1x32.size a ≤ S500000x32.size a)
instance k2_chk31.dec : ∀ (v340 : BitVec 32), Decidable (k2_chk31 v340) := fun v340 => decidable_of_iff' _ (Iff.of_eq (k2_chk31.eq_1 v340))
theorem k2_off93_inb : ∀ (v340 : BitVec 32) (k2_hw31 : k2_chk31 v340), ∀ a, (k2_off93 v340) a + S1x32.size a ≤ S500000x32.size a := fun v340 k2_hw31 => k2_hw31

def k2_off94 (i : grid2.Coords) (k2_t1 : Fin k2_t1_loop.trips) : Fin 1 → Nat :=
  let arg0 : BitVec 32 := BitVec.ofNat 32 (i 0).val
  let c1024_i32 : BitVec 32 := 1024#32
  let v0 : BitVec 32 := Scalar.muli arg0 c1024_i32
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_6 : BitVec 32 := 32#32
  let v6 : BitVec 32 := Scalar.muli v5 c32_i32_6
  let v7 : BitVec 32 := Scalar.addi v0 v6
  let c31_i32 : BitVec 32 := 31#32
  let v349 : BitVec 32 := Scalar.addi v7 c31_i32
  let v350 : Index := Scalar.indexCast v349
  ![v350.toNat]
def k2_off95 (k2_t1 : Fin k2_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_164 : BitVec 32 := 32#32
  let v352 : BitVec 32 := Scalar.muli v5 c32_i32_164
  let c31_i32_165 : BitVec 32 := 31#32
  let v353 : BitVec 32 := Scalar.addi v352 c31_i32_165
  let c0_i32_167 : BitVec 32 := 0#32
  ![v353.toNat, 0]
def k2_off96 (v351 : BitVec 32) : Fin 2 → Nat :=
  let c0_i32_168 : BitVec 32 := 0#32
  ![v351.toNat, 0]

def k2_chk32 (v351 : BitVec 32) : Prop :=
  (∀ a, (k2_off96 v351) a + S1x32.size a ≤ S500000x32.size a)
instance k2_chk32.dec : ∀ (v351 : BitVec 32), Decidable (k2_chk32 v351) := fun v351 => decidable_of_iff' _ (Iff.of_eq (k2_chk32.eq_1 v351))
theorem k2_off96_inb : ∀ (v351 : BitVec 32) (k2_hw32 : k2_chk32 v351), ∀ a, (k2_off96 v351) a + S1x32.size a ≤ S500000x32.size a := fun v351 k2_hw32 => k2_hw32

def k2_off97 (k2_t1 : Fin k2_t1_loop.trips) (c0_i32_170 : BitVec 32) : Fin 2 → Nat :=
  let c0_i32_5 : BitVec 32 := 0#32
  let c0_i32 : BitVec 32 := 0#32
  let c1_i32 : BitVec 32 := 1#32
  let arg6 : BitVec 32 := Scf.iv c0_i32 c1_i32 k2_t1
  let c1_i32_4 : BitVec 32 := 1#32
  let v4 : BitVec 32 := Scalar.muli arg6 c1_i32_4
  let v5 : BitVec 32 := Scalar.addi c0_i32_5 v4
  let c32_i32_169 : BitVec 32 := 32#32
  let v360 : BitVec 32 := Scalar.muli v5 c32_i32_169
  let v361 : BitVec 32 := Scalar.addi v360 c0_i32_170
  let c0_i32_173 : BitVec 32 := 0#32
  ![v361.toNat, 0]
def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![256], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x97 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S97x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S131072x3_S131072x1_0_0 : S131072x3.Slices ![0, 0] S131072x1
  shapeCasts_S131072x1_S131072 : S131072x1.ShapeCasts S131072
  slices_S3x500000x32_S1x500000x32_0_0_0 : S3x500000x32.Slices ![0, 0, 0] S1x500000x32
  shapeCasts_S1x500000x32_S500000x32 : S1x500000x32.ShapeCasts S500000x32
  numel1_S1 : S1.numel = 1
  inb_S32_S1_0 : ∀ a, (![0] : Fin 1 → Nat) a + S1.size a ≤ S32.size a
  squeezes_S1_S_ : S1.Squeezes S_
  squeezes_S1x32_S32 : S1x32.Squeezes S32
  inb_S32_S1_1 : ∀ a, (![1] : Fin 1 → Nat) a + S1.size a ≤ S32.size a
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  inb_S500000x32_S1x32_0_0 : ∀ a, (![0, 0] : Fin 2 → Nat) a + S1x32.size a ≤ S500000x32.size a
  inb_S1024x32_S1024x32_0_0 : ∀ a, (![0, 0] : Fin 2 → Nat) a + S1024x32.size a ≤ S1024x32.size a
  h_S1024x32 : 0 < S1024x32.numel
  slices_S131072x3_S131072x1_0_1 : S131072x3.Slices ![0, 1] S131072x1
  slices_S3x500000x32_S1x500000x32_1_0_0 : S3x500000x32.Slices ![1, 0, 0] S1x500000x32
  slices_S131072x3_S131072x1_0_2 : S131072x3.Slices ![0, 2] S131072x1
  slices_S3x500000x32_S1x500000x32_2_0_0 : S3x500000x32.Slices ![2, 0, 0] S1x500000x32
  bcast_S131072_S131072x1_0 : S131072.BroadcastsInDim S131072x1 (![0] : Fin 1 → Fin S131072x1.rank)
  concatenates_S131072x32_S131072x32_S131072x32_S131072x1_S131072x97_d1 : Shape.Concatenates [S131072x32, S131072x32, S131072x32, S131072x1] S131072x97 1
  shapeCasts_S1_S1x1 : S1.ShapeCasts S1x1
  inb_S512x97_S512x97_0_0 : ∀ a, (![0, 0] : Fin 2 → Nat) a + S512x97.size a ≤ S512x97.size a
  h_S512x97 : 0 < S512x97.numel
  shapeCasts_S512x97_S512x97 : S512x97.ShapeCasts S512x97
  inb_S97x256_S97x256_0_0 : ∀ a, (![0, 0] : Fin 2 → Nat) a + S97x256.size a ≤ S97x256.size a
  h_S97x256 : 0 < S97x256.numel
  concatenates_S512x256_S512x256_S512x512_d1 : Shape.Concatenates [S512x256, S512x256] S512x512 1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  dot_S512x97_S97x256_S512x256_1_0_0_1_n_n_wf : DotDims.WF S512x97 S97x256 S512x256 [1] [0] [0] [1] [] []
  dot_S512x512_S512x1_S512x1_1_0_0_1_n_n_wf : DotDims.WF S512x512 S512x1 S512x1 [1] [0] [0] [1] [] []
  hcc0_scratch1 : 2 + S32.numel ≤ 109
  hcc1_scratch1 : 36 + S32.numel ≤ 109
  hcc2_scratch1 : 70 + S32.numel ≤ 109
  hrank0 : 0 < grid0.rank
  k0_t1_ok : k0_t1_loop.OK
  k0_off1_inb : ∀ (i : grid0.Coords) (k0_t1 : Fin k0_t1_loop.trips), ∀ a, (k0_off1 i k0_t1) a + S1.size a ≤ S131072.size a
  k0_off2_inb : ∀ k0_t1 : Fin k0_t1_loop.trips, ∀ a, (k0_off2 k0_t1) a + S1x32.size a ≤ S1024x32.size a
  k0_off4_inb : ∀ (i : grid0.Coords) (k0_t1 : Fin k0_t1_loop.trips), ∀ a, (k0_off4 i k0_t1) a + S1.size a ≤ S131072.size a
  k0_off5_inb : ∀ k0_t1 : Fin k0_t1_loop.trips, ∀ a, (k0_off5 k0_t1) a + S1x32.size a ≤ S1024x32.size a
  k0_off7_inb : ∀ (i : grid0.Coords) (k0_t1 : Fin k0_t1_loop.trips), ∀ a, (k0_off7 i k0_t1) a + S1.size a ≤ S131072.size a
  k0_off8_inb : ∀ k0_t1 : Fin k0_t1_loop.trips, ∀ a, (k0_off8 k0_t1) a + S1x32.size a ≤ S1024x32.size a
  k0_off10_inb : ∀ (i : grid0.Coords) (k0_t1 : Fin k0_t1_loop.trips), ∀ a, (k0_off10 i k0_t1) a + S1.size a ≤ S131072.size a
  k0_off11_inb : ∀ k0_t1 : Fin k0_t1_loop.trips, ∀ a, (k0_off11 k0_t1) a + S1x32.size a ≤ S1024x32.size a
  k0_off13_inb : ∀ (i : grid0.Coords) (k0_t1 : Fin k0_t1_loop.trips), ∀ a, (k0_off13 i k0_t1) a + S1.size a ≤ S131072.size a
  k0_off14_inb : ∀ k0_t1 : Fin k0_t1_loop.trips, ∀ a, (k0_off14 k0_t1) a + S1x32.size a ≤ S1024x32.size a
  k0_off16_inb : ∀ (i : grid0.Coords) (k0_t1 : Fin k0_t1_loop.trips), ∀ a, (k0_off16 i k0_t1) a + S1.size a ≤ S131072.size a
  k0_off17_inb : ∀ k0_t1 : Fin k0_t1_loop.trips, ∀ a, (k0_off17 k0_t1) a + S1x32.size a ≤ S1024x32.size a
  k0_off19_inb : ∀ (i : grid0.Coords) (k0_t1 : Fin k0_t1_loop.trips), ∀ a, (k0_off19 i k0_t1) a + S1.size a ≤ S131072.size a
  k0_off20_inb : ∀ k0_t1 : Fin k0_t1_loop.trips, ∀ a, (k0_off20 k0_t1) a + S1x32.size a ≤ S1024x32.size a
  k0_off22_inb : ∀ (i : grid0.Coords) (k0_t1 : Fin k0_t1_loop.trips), ∀ a, (k0_off22 i k0_t1) a + S1.size a ≤ S131072.size a
  k0_off23_inb : ∀ k0_t1 : Fin k0_t1_loop.trips, ∀ a, (k0_off23 k0_t1) a + S1x32.size a ≤ S1024x32.size a
  k0_off25_inb : ∀ (i : grid0.Coords) (k0_t1 : Fin k0_t1_loop.trips), ∀ a, (k0_off25 i k0_t1) a + S1.size a ≤ S131072.size a
  k0_off26_inb : ∀ k0_t1 : Fin k0_t1_loop.trips, ∀ a, (k0_off26 k0_t1) a + S1x32.size a ≤ S1024x32.size a
  k0_off28_inb : ∀ (i : grid0.Coords) (k0_t1 : Fin k0_t1_loop.trips), ∀ a, (k0_off28 i k0_t1) a + S1.size a ≤ S131072.size a
  k0_off29_inb : ∀ k0_t1 : Fin k0_t1_loop.trips, ∀ a, (k0_off29 k0_t1) a + S1x32.size a ≤ S1024x32.size a
  k0_off31_inb : ∀ (i : grid0.Coords) (k0_t1 : Fin k0_t1_loop.trips), ∀ a, (k0_off31 i k0_t1) a + S1.size a ≤ S131072.size a
  k0_off32_inb : ∀ k0_t1 : Fin k0_t1_loop.trips, ∀ a, (k0_off32 k0_t1) a + S1x32.size a ≤ S1024x32.size a
  k0_off34_inb : ∀ (i : grid0.Coords) (k0_t1 : Fin k0_t1_loop.trips), ∀ a, (k0_off34 i k0_t1) a + S1.size a ≤ S131072.size a
  k0_off35_inb : ∀ k0_t1 : Fin k0_t1_loop.trips, ∀ a, (k0_off35 k0_t1) a + S1x32.size a ≤ S1024x32.size a
  k0_off37_inb : ∀ (i : grid0.Coords) (k0_t1 : Fin k0_t1_loop.trips), ∀ a, (k0_off37 i k0_t1) a + S1.size a ≤ S131072.size a
  k0_off38_inb : ∀ k0_t1 : Fin k0_t1_loop.trips, ∀ a, (k0_off38 k0_t1) a + S1x32.size a ≤ S1024x32.size a
  k0_off40_inb : ∀ (i : grid0.Coords) (k0_t1 : Fin k0_t1_loop.trips), ∀ a, (k0_off40 i k0_t1) a + S1.size a ≤ S131072.size a
  k0_off41_inb : ∀ k0_t1 : Fin k0_t1_loop.trips, ∀ a, (k0_off41 k0_t1) a + S1x32.size a ≤ S1024x32.size a
  k0_off43_inb : ∀ (i : grid0.Coords) (k0_t1 : Fin k0_t1_loop.trips), ∀ a, (k0_off43 i k0_t1) a + S1.size a ≤ S131072.size a
  k0_off44_inb : ∀ k0_t1 : Fin k0_t1_loop.trips, ∀ a, (k0_off44 k0_t1) a + S1x32.size a ≤ S1024x32.size a
  k0_off46_inb : ∀ (i : grid0.Coords) (k0_t1 : Fin k0_t1_loop.trips), ∀ a, (k0_off46 i k0_t1) a + S1.size a ≤ S131072.size a
  k0_off47_inb : ∀ k0_t1 : Fin k0_t1_loop.trips, ∀ a, (k0_off47 k0_t1) a + S1x32.size a ≤ S1024x32.size a
  k0_off49_inb : ∀ (i : grid0.Coords) (k0_t1 : Fin k0_t1_loop.trips), ∀ a, (k0_off49 i k0_t1) a + S1.size a ≤ S131072.size a
  k0_off50_inb : ∀ k0_t1 : Fin k0_t1_loop.trips, ∀ a, (k0_off50 k0_t1) a + S1x32.size a ≤ S1024x32.size a
  k0_off52_inb : ∀ (i : grid0.Coords) (k0_t1 : Fin k0_t1_loop.trips), ∀ a, (k0_off52 i k0_t1) a + S1.size a ≤ S131072.size a
  k0_off53_inb : ∀ k0_t1 : Fin k0_t1_loop.trips, ∀ a, (k0_off53 k0_t1) a + S1x32.size a ≤ S1024x32.size a
  k0_off55_inb : ∀ (i : grid0.Coords) (k0_t1 : Fin k0_t1_loop.trips), ∀ a, (k0_off55 i k0_t1) a + S1.size a ≤ S131072.size a
  k0_off56_inb : ∀ k0_t1 : Fin k0_t1_loop.trips, ∀ a, (k0_off56 k0_t1) a + S1x32.size a ≤ S1024x32.size a
  k0_off58_inb : ∀ (i : grid0.Coords) (k0_t1 : Fin k0_t1_loop.trips), ∀ a, (k0_off58 i k0_t1) a + S1.size a ≤ S131072.size a
  k0_off59_inb : ∀ k0_t1 : Fin k0_t1_loop.trips, ∀ a, (k0_off59 k0_t1) a + S1x32.size a ≤ S1024x32.size a
  k0_off61_inb : ∀ (i : grid0.Coords) (k0_t1 : Fin k0_t1_loop.trips), ∀ a, (k0_off61 i k0_t1) a + S1.size a ≤ S131072.size a
  k0_off62_inb : ∀ k0_t1 : Fin k0_t1_loop.trips, ∀ a, (k0_off62 k0_t1) a + S1x32.size a ≤ S1024x32.size a
  k0_off64_inb : ∀ (i : grid0.Coords) (k0_t1 : Fin k0_t1_loop.trips), ∀ a, (k0_off64 i k0_t1) a + S1.size a ≤ S131072.size a
  k0_off65_inb : ∀ k0_t1 : Fin k0_t1_loop.trips, ∀ a, (k0_off65 k0_t1) a + S1x32.size a ≤ S1024x32.size a
  k0_off67_inb : ∀ (i : grid0.Coords) (k0_t1 : Fin k0_t1_loop.trips), ∀ a, (k0_off67 i k0_t1) a + S1.size a ≤ S131072.size a
  k0_off68_inb : ∀ k0_t1 : Fin k0_t1_loop.trips, ∀ a, (k0_off68 k0_t1) a + S1x32.size a ≤ S1024x32.size a
  k0_off70_inb : ∀ (i : grid0.Coords) (k0_t1 : Fin k0_t1_loop.trips), ∀ a, (k0_off70 i k0_t1) a + S1.size a ≤ S131072.size a
  k0_off71_inb : ∀ k0_t1 : Fin k0_t1_loop.trips, ∀ a, (k0_off71 k0_t1) a + S1x32.size a ≤ S1024x32.size a
  k0_off73_inb : ∀ (i : grid0.Coords) (k0_t1 : Fin k0_t1_loop.trips), ∀ a, (k0_off73 i k0_t1) a + S1.size a ≤ S131072.size a
  k0_off74_inb : ∀ k0_t1 : Fin k0_t1_loop.trips, ∀ a, (k0_off74 k0_t1) a + S1x32.size a ≤ S1024x32.size a
  k0_off76_inb : ∀ (i : grid0.Coords) (k0_t1 : Fin k0_t1_loop.trips), ∀ a, (k0_off76 i k0_t1) a + S1.size a ≤ S131072.size a
  k0_off77_inb : ∀ k0_t1 : Fin k0_t1_loop.trips, ∀ a, (k0_off77 k0_t1) a + S1x32.size a ≤ S1024x32.size a
  k0_off79_inb : ∀ (i : grid0.Coords) (k0_t1 : Fin k0_t1_loop.trips), ∀ a, (k0_off79 i k0_t1) a + S1.size a ≤ S131072.size a
  k0_off80_inb : ∀ k0_t1 : Fin k0_t1_loop.trips, ∀ a, (k0_off80 k0_t1) a + S1x32.size a ≤ S1024x32.size a
  k0_off82_inb : ∀ (i : grid0.Coords) (k0_t1 : Fin k0_t1_loop.trips), ∀ a, (k0_off82 i k0_t1) a + S1.size a ≤ S131072.size a
  k0_off83_inb : ∀ k0_t1 : Fin k0_t1_loop.trips, ∀ a, (k0_off83 k0_t1) a + S1x32.size a ≤ S1024x32.size a
  k0_off85_inb : ∀ (i : grid0.Coords) (k0_t1 : Fin k0_t1_loop.trips), ∀ a, (k0_off85 i k0_t1) a + S1.size a ≤ S131072.size a
  k0_off86_inb : ∀ k0_t1 : Fin k0_t1_loop.trips, ∀ a, (k0_off86 k0_t1) a + S1x32.size a ≤ S1024x32.size a
  k0_off88_inb : ∀ (i : grid0.Coords) (k0_t1 : Fin k0_t1_loop.trips), ∀ a, (k0_off88 i k0_t1) a + S1.size a ≤ S131072.size a
  k0_off89_inb : ∀ k0_t1 : Fin k0_t1_loop.trips, ∀ a, (k0_off89 k0_t1) a + S1x32.size a ≤ S1024x32.size a
  k0_off91_inb : ∀ (i : grid0.Coords) (k0_t1 : Fin k0_t1_loop.trips), ∀ a, (k0_off91 i k0_t1) a + S1.size a ≤ S131072.size a
  k0_off92_inb : ∀ k0_t1 : Fin k0_t1_loop.trips, ∀ a, (k0_off92 k0_t1) a + S1x32.size a ≤ S1024x32.size a
  k0_off94_inb : ∀ (i : grid0.Coords) (k0_t1 : Fin k0_t1_loop.trips), ∀ a, (k0_off94 i k0_t1) a + S1.size a ≤ S131072.size a
  k0_off95_inb : ∀ k0_t1 : Fin k0_t1_loop.trips, ∀ a, (k0_off95 k0_t1) a + S1x32.size a ≤ S1024x32.size a
  k0_off97_inb : ∀ k0_t1 : Fin k0_t1_loop.trips, ∀ (r : Fin 32), ∀ a, (k0_off97 k0_t1 (BitVec.ofNat 32 r.val)) a + S1x32.size a ≤ S1024x32.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1024x32.size a ≤ S131072x32.size a
  hwx0_0 : ∀ i : grid0.Coords, EltTy.bits .f32 = 32 ∨ (Rect.block (s := S131072x32) S1024x32.size (cc0_transform_1 i) (hinb0_0 i)).WholeWords (EltTy.packing .f32)
  hrank1 : 0 < grid1.rank
  k1_t1_ok : k1_t1_loop.OK
  k1_off1_inb : ∀ (i : grid1.Coords) (k1_t1 : Fin k1_t1_loop.trips), ∀ a, (k1_off1 i k1_t1) a + S1.size a ≤ S131072.size a
  k1_off2_inb : ∀ k1_t1 : Fin k1_t1_loop.trips, ∀ a, (k1_off2 k1_t1) a + S1x32.size a ≤ S1024x32.size a
  k1_off4_inb : ∀ (i : grid1.Coords) (k1_t1 : Fin k1_t1_loop.trips), ∀ a, (k1_off4 i k1_t1) a + S1.size a ≤ S131072.size a
  k1_off5_inb : ∀ k1_t1 : Fin k1_t1_loop.trips, ∀ a, (k1_off5 k1_t1) a + S1x32.size a ≤ S1024x32.size a
  k1_off7_inb : ∀ (i : grid1.Coords) (k1_t1 : Fin k1_t1_loop.trips), ∀ a, (k1_off7 i k1_t1) a + S1.size a ≤ S131072.size a
  k1_off8_inb : ∀ k1_t1 : Fin k1_t1_loop.trips, ∀ a, (k1_off8 k1_t1) a + S1x32.size a ≤ S1024x32.size a
  k1_off10_inb : ∀ (i : grid1.Coords) (k1_t1 : Fin k1_t1_loop.trips), ∀ a, (k1_off10 i k1_t1) a + S1.size a ≤ S131072.size a
  k1_off11_inb : ∀ k1_t1 : Fin k1_t1_loop.trips, ∀ a, (k1_off11 k1_t1) a + S1x32.size a ≤ S1024x32.size a
  k1_off13_inb : ∀ (i : grid1.Coords) (k1_t1 : Fin k1_t1_loop.trips), ∀ a, (k1_off13 i k1_t1) a + S1.size a ≤ S131072.size a
  k1_off14_inb : ∀ k1_t1 : Fin k1_t1_loop.trips, ∀ a, (k1_off14 k1_t1) a + S1x32.size a ≤ S1024x32.size a
  k1_off16_inb : ∀ (i : grid1.Coords) (k1_t1 : Fin k1_t1_loop.trips), ∀ a, (k1_off16 i k1_t1) a + S1.size a ≤ S131072.size a
  k1_off17_inb : ∀ k1_t1 : Fin k1_t1_loop.trips, ∀ a, (k1_off17 k1_t1) a + S1x32.size a ≤ S1024x32.size a
  k1_off19_inb : ∀ (i : grid1.Coords) (k1_t1 : Fin k1_t1_loop.trips), ∀ a, (k1_off19 i k1_t1) a + S1.size a ≤ S131072.size a
  k1_off20_inb : ∀ k1_t1 : Fin k1_t1_loop.trips, ∀ a, (k1_off20 k1_t1) a + S1x32.size a ≤ S1024x32.size a
  k1_off22_inb : ∀ (i : grid1.Coords) (k1_t1 : Fin k1_t1_loop.trips), ∀ a, (k1_off22 i k1_t1) a + S1.size a ≤ S131072.size a
  k1_off23_inb : ∀ k1_t1 : Fin k1_t1_loop.trips, ∀ a, (k1_off23 k1_t1) a + S1x32.size a ≤ S1024x32.size a
  k1_off25_inb : ∀ (i : grid1.Coords) (k1_t1 : Fin k1_t1_loop.trips), ∀ a, (k1_off25 i k1_t1) a + S1.size a ≤ S131072.size a
  k1_off26_inb : ∀ k1_t1 : Fin k1_t1_loop.trips, ∀ a, (k1_off26 k1_t1) a + S1x32.size a ≤ S1024x32.size a
  k1_off28_inb : ∀ (i : grid1.Coords) (k1_t1 : Fin k1_t1_loop.trips), ∀ a, (k1_off28 i k1_t1) a + S1.size a ≤ S131072.size a
  k1_off29_inb : ∀ k1_t1 : Fin k1_t1_loop.trips, ∀ a, (k1_off29 k1_t1) a + S1x32.size a ≤ S1024x32.size a
  k1_off31_inb : ∀ (i : grid1.Coords) (k1_t1 : Fin k1_t1_loop.trips), ∀ a, (k1_off31 i k1_t1) a + S1.size a ≤ S131072.size a
  k1_off32_inb : ∀ k1_t1 : Fin k1_t1_loop.trips, ∀ a, (k1_off32 k1_t1) a + S1x32.size a ≤ S1024x32.size a
  k1_off34_inb : ∀ (i : grid1.Coords) (k1_t1 : Fin k1_t1_loop.trips), ∀ a, (k1_off34 i k1_t1) a + S1.size a ≤ S131072.size a
  k1_off35_inb : ∀ k1_t1 : Fin k1_t1_loop.trips, ∀ a, (k1_off35 k1_t1) a + S1x32.size a ≤ S1024x32.size a
  k1_off37_inb : ∀ (i : grid1.Coords) (k1_t1 : Fin k1_t1_loop.trips), ∀ a, (k1_off37 i k1_t1) a + S1.size a ≤ S131072.size a
  k1_off38_inb : ∀ k1_t1 : Fin k1_t1_loop.trips, ∀ a, (k1_off38 k1_t1) a + S1x32.size a ≤ S1024x32.size a
  k1_off40_inb : ∀ (i : grid1.Coords) (k1_t1 : Fin k1_t1_loop.trips), ∀ a, (k1_off40 i k1_t1) a + S1.size a ≤ S131072.size a
  k1_off41_inb : ∀ k1_t1 : Fin k1_t1_loop.trips, ∀ a, (k1_off41 k1_t1) a + S1x32.size a ≤ S1024x32.size a
  k1_off43_inb : ∀ (i : grid1.Coords) (k1_t1 : Fin k1_t1_loop.trips), ∀ a, (k1_off43 i k1_t1) a + S1.size a ≤ S131072.size a
  k1_off44_inb : ∀ k1_t1 : Fin k1_t1_loop.trips, ∀ a, (k1_off44 k1_t1) a + S1x32.size a ≤ S1024x32.size a
  k1_off46_inb : ∀ (i : grid1.Coords) (k1_t1 : Fin k1_t1_loop.trips), ∀ a, (k1_off46 i k1_t1) a + S1.size a ≤ S131072.size a
  k1_off47_inb : ∀ k1_t1 : Fin k1_t1_loop.trips, ∀ a, (k1_off47 k1_t1) a + S1x32.size a ≤ S1024x32.size a
  k1_off49_inb : ∀ (i : grid1.Coords) (k1_t1 : Fin k1_t1_loop.trips), ∀ a, (k1_off49 i k1_t1) a + S1.size a ≤ S131072.size a
  k1_off50_inb : ∀ k1_t1 : Fin k1_t1_loop.trips, ∀ a, (k1_off50 k1_t1) a + S1x32.size a ≤ S1024x32.size a
  k1_off52_inb : ∀ (i : grid1.Coords) (k1_t1 : Fin k1_t1_loop.trips), ∀ a, (k1_off52 i k1_t1) a + S1.size a ≤ S131072.size a
  k1_off53_inb : ∀ k1_t1 : Fin k1_t1_loop.trips, ∀ a, (k1_off53 k1_t1) a + S1x32.size a ≤ S1024x32.size a
  k1_off55_inb : ∀ (i : grid1.Coords) (k1_t1 : Fin k1_t1_loop.trips), ∀ a, (k1_off55 i k1_t1) a + S1.size a ≤ S131072.size a
  k1_off56_inb : ∀ k1_t1 : Fin k1_t1_loop.trips, ∀ a, (k1_off56 k1_t1) a + S1x32.size a ≤ S1024x32.size a
  k1_off58_inb : ∀ (i : grid1.Coords) (k1_t1 : Fin k1_t1_loop.trips), ∀ a, (k1_off58 i k1_t1) a + S1.size a ≤ S131072.size a
  k1_off59_inb : ∀ k1_t1 : Fin k1_t1_loop.trips, ∀ a, (k1_off59 k1_t1) a + S1x32.size a ≤ S1024x32.size a
  k1_off61_inb : ∀ (i : grid1.Coords) (k1_t1 : Fin k1_t1_loop.trips), ∀ a, (k1_off61 i k1_t1) a + S1.size a ≤ S131072.size a
  k1_off62_inb : ∀ k1_t1 : Fin k1_t1_loop.trips, ∀ a, (k1_off62 k1_t1) a + S1x32.size a ≤ S1024x32.size a
  k1_off64_inb : ∀ (i : grid1.Coords) (k1_t1 : Fin k1_t1_loop.trips), ∀ a, (k1_off64 i k1_t1) a + S1.size a ≤ S131072.size a
  k1_off65_inb : ∀ k1_t1 : Fin k1_t1_loop.trips, ∀ a, (k1_off65 k1_t1) a + S1x32.size a ≤ S1024x32.size a
  k1_off67_inb : ∀ (i : grid1.Coords) (k1_t1 : Fin k1_t1_loop.trips), ∀ a, (k1_off67 i k1_t1) a + S1.size a ≤ S131072.size a
  k1_off68_inb : ∀ k1_t1 : Fin k1_t1_loop.trips, ∀ a, (k1_off68 k1_t1) a + S1x32.size a ≤ S1024x32.size a
  k1_off70_inb : ∀ (i : grid1.Coords) (k1_t1 : Fin k1_t1_loop.trips), ∀ a, (k1_off70 i k1_t1) a + S1.size a ≤ S131072.size a
  k1_off71_inb : ∀ k1_t1 : Fin k1_t1_loop.trips, ∀ a, (k1_off71 k1_t1) a + S1x32.size a ≤ S1024x32.size a
  k1_off73_inb : ∀ (i : grid1.Coords) (k1_t1 : Fin k1_t1_loop.trips), ∀ a, (k1_off73 i k1_t1) a + S1.size a ≤ S131072.size a
  k1_off74_inb : ∀ k1_t1 : Fin k1_t1_loop.trips, ∀ a, (k1_off74 k1_t1) a + S1x32.size a ≤ S1024x32.size a
  k1_off76_inb : ∀ (i : grid1.Coords) (k1_t1 : Fin k1_t1_loop.trips), ∀ a, (k1_off76 i k1_t1) a + S1.size a ≤ S131072.size a
  k1_off77_inb : ∀ k1_t1 : Fin k1_t1_loop.trips, ∀ a, (k1_off77 k1_t1) a + S1x32.size a ≤ S1024x32.size a
  k1_off79_inb : ∀ (i : grid1.Coords) (k1_t1 : Fin k1_t1_loop.trips), ∀ a, (k1_off79 i k1_t1) a + S1.size a ≤ S131072.size a
  k1_off80_inb : ∀ k1_t1 : Fin k1_t1_loop.trips, ∀ a, (k1_off80 k1_t1) a + S1x32.size a ≤ S1024x32.size a
  k1_off82_inb : ∀ (i : grid1.Coords) (k1_t1 : Fin k1_t1_loop.trips), ∀ a, (k1_off82 i k1_t1) a + S1.size a ≤ S131072.size a
  k1_off83_inb : ∀ k1_t1 : Fin k1_t1_loop.trips, ∀ a, (k1_off83 k1_t1) a + S1x32.size a ≤ S1024x32.size a
  k1_off85_inb : ∀ (i : grid1.Coords) (k1_t1 : Fin k1_t1_loop.trips), ∀ a, (k1_off85 i k1_t1) a + S1.size a ≤ S131072.size a
  k1_off86_inb : ∀ k1_t1 : Fin k1_t1_loop.trips, ∀ a, (k1_off86 k1_t1) a + S1x32.size a ≤ S1024x32.size a
  k1_off88_inb : ∀ (i : grid1.Coords) (k1_t1 : Fin k1_t1_loop.trips), ∀ a, (k1_off88 i k1_t1) a + S1.size a ≤ S131072.size a
  k1_off89_inb : ∀ k1_t1 : Fin k1_t1_loop.trips, ∀ a, (k1_off89 k1_t1) a + S1x32.size a ≤ S1024x32.size a
  k1_off91_inb : ∀ (i : grid1.Coords) (k1_t1 : Fin k1_t1_loop.trips), ∀ a, (k1_off91 i k1_t1) a + S1.size a ≤ S131072.size a
  k1_off92_inb : ∀ k1_t1 : Fin k1_t1_loop.trips, ∀ a, (k1_off92 k1_t1) a + S1x32.size a ≤ S1024x32.size a
  k1_off94_inb : ∀ (i : grid1.Coords) (k1_t1 : Fin k1_t1_loop.trips), ∀ a, (k1_off94 i k1_t1) a + S1.size a ≤ S131072.size a
  k1_off95_inb : ∀ k1_t1 : Fin k1_t1_loop.trips, ∀ a, (k1_off95 k1_t1) a + S1x32.size a ≤ S1024x32.size a
  k1_off97_inb : ∀ k1_t1 : Fin k1_t1_loop.trips, ∀ (r : Fin 32), ∀ a, (k1_off97 k1_t1 (BitVec.ofNat 32 r.val)) a + S1x32.size a ≤ S1024x32.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1024x32.size a ≤ S131072x32.size a
  hwx1_0 : ∀ i : grid1.Coords, EltTy.bits .f32 = 32 ∨ (Rect.block (s := S131072x32) S1024x32.size (cc1_transform_1 i) (hinb1_0 i)).WholeWords (EltTy.packing .f32)
  hrank2 : 0 < grid2.rank
  k2_t1_ok : k2_t1_loop.OK
  k2_off1_inb : ∀ (i : grid2.Coords) (k2_t1 : Fin k2_t1_loop.trips), ∀ a, (k2_off1 i k2_t1) a + S1.size a ≤ S131072.size a
  k2_off2_inb : ∀ k2_t1 : Fin k2_t1_loop.trips, ∀ a, (k2_off2 k2_t1) a + S1x32.size a ≤ S1024x32.size a
  k2_off4_inb : ∀ (i : grid2.Coords) (k2_t1 : Fin k2_t1_loop.trips), ∀ a, (k2_off4 i k2_t1) a + S1.size a ≤ S131072.size a
  k2_off5_inb : ∀ k2_t1 : Fin k2_t1_loop.trips, ∀ a, (k2_off5 k2_t1) a + S1x32.size a ≤ S1024x32.size a
  k2_off7_inb : ∀ (i : grid2.Coords) (k2_t1 : Fin k2_t1_loop.trips), ∀ a, (k2_off7 i k2_t1) a + S1.size a ≤ S131072.size a
  k2_off8_inb : ∀ k2_t1 : Fin k2_t1_loop.trips, ∀ a, (k2_off8 k2_t1) a + S1x32.size a ≤ S1024x32.size a
  k2_off10_inb : ∀ (i : grid2.Coords) (k2_t1 : Fin k2_t1_loop.trips), ∀ a, (k2_off10 i k2_t1) a + S1.size a ≤ S131072.size a
  k2_off11_inb : ∀ k2_t1 : Fin k2_t1_loop.trips, ∀ a, (k2_off11 k2_t1) a + S1x32.size a ≤ S1024x32.size a
  k2_off13_inb : ∀ (i : grid2.Coords) (k2_t1 : Fin k2_t1_loop.trips), ∀ a, (k2_off13 i k2_t1) a + S1.size a ≤ S131072.size a
  k2_off14_inb : ∀ k2_t1 : Fin k2_t1_loop.trips, ∀ a, (k2_off14 k2_t1) a + S1x32.size a ≤ S1024x32.size a
  k2_off16_inb : ∀ (i : grid2.Coords) (k2_t1 : Fin k2_t1_loop.trips), ∀ a, (k2_off16 i k2_t1) a + S1.size a ≤ S131072.size a
  k2_off17_inb : ∀ k2_t1 : Fin k2_t1_loop.trips, ∀ a, (k2_off17 k2_t1) a + S1x32.size a ≤ S1024x32.size a
  k2_off19_inb : ∀ (i : grid2.Coords) (k2_t1 : Fin k2_t1_loop.trips), ∀ a, (k2_off19 i k2_t1) a + S1.size a ≤ S131072.size a
  k2_off20_inb : ∀ k2_t1 : Fin k2_t1_loop.trips, ∀ a, (k2_off20 k2_t1) a + S1x32.size a ≤ S1024x32.size a
  k2_off22_inb : ∀ (i : grid2.Coords) (k2_t1 : Fin k2_t1_loop.trips), ∀ a, (k2_off22 i k2_t1) a + S1.size a ≤ S131072.size a
  k2_off23_inb : ∀ k2_t1 : Fin k2_t1_loop.trips, ∀ a, (k2_off23 k2_t1) a + S1x32.size a ≤ S1024x32.size a
  k2_off25_inb : ∀ (i : grid2.Coords) (k2_t1 : Fin k2_t1_loop.trips), ∀ a, (k2_off25 i k2_t1) a + S1.size a ≤ S131072.size a
  k2_off26_inb : ∀ k2_t1 : Fin k2_t1_loop.trips, ∀ a, (k2_off26 k2_t1) a + S1x32.size a ≤ S1024x32.size a
  k2_off28_inb : ∀ (i : grid2.Coords) (k2_t1 : Fin k2_t1_loop.trips), ∀ a, (k2_off28 i k2_t1) a + S1.size a ≤ S131072.size a
  k2_off29_inb : ∀ k2_t1 : Fin k2_t1_loop.trips, ∀ a, (k2_off29 k2_t1) a + S1x32.size a ≤ S1024x32.size a
  k2_off31_inb : ∀ (i : grid2.Coords) (k2_t1 : Fin k2_t1_loop.trips), ∀ a, (k2_off31 i k2_t1) a + S1.size a ≤ S131072.size a
  k2_off32_inb : ∀ k2_t1 : Fin k2_t1_loop.trips, ∀ a, (k2_off32 k2_t1) a + S1x32.size a ≤ S1024x32.size a
  k2_off34_inb : ∀ (i : grid2.Coords) (k2_t1 : Fin k2_t1_loop.trips), ∀ a, (k2_off34 i k2_t1) a + S1.size a ≤ S131072.size a
  k2_off35_inb : ∀ k2_t1 : Fin k2_t1_loop.trips, ∀ a, (k2_off35 k2_t1) a + S1x32.size a ≤ S1024x32.size a
  k2_off37_inb : ∀ (i : grid2.Coords) (k2_t1 : Fin k2_t1_loop.trips), ∀ a, (k2_off37 i k2_t1) a + S1.size a ≤ S131072.size a
  k2_off38_inb : ∀ k2_t1 : Fin k2_t1_loop.trips, ∀ a, (k2_off38 k2_t1) a + S1x32.size a ≤ S1024x32.size a
  k2_off40_inb : ∀ (i : grid2.Coords) (k2_t1 : Fin k2_t1_loop.trips), ∀ a, (k2_off40 i k2_t1) a + S1.size a ≤ S131072.size a
  k2_off41_inb : ∀ k2_t1 : Fin k2_t1_loop.trips, ∀ a, (k2_off41 k2_t1) a + S1x32.size a ≤ S1024x32.size a
  k2_off43_inb : ∀ (i : grid2.Coords) (k2_t1 : Fin k2_t1_loop.trips), ∀ a, (k2_off43 i k2_t1) a + S1.size a ≤ S131072.size a
  k2_off44_inb : ∀ k2_t1 : Fin k2_t1_loop.trips, ∀ a, (k2_off44 k2_t1) a + S1x32.size a ≤ S1024x32.size a
  k2_off46_inb : ∀ (i : grid2.Coords) (k2_t1 : Fin k2_t1_loop.trips), ∀ a, (k2_off46 i k2_t1) a + S1.size a ≤ S131072.size a
  k2_off47_inb : ∀ k2_t1 : Fin k2_t1_loop.trips, ∀ a, (k2_off47 k2_t1) a + S1x32.size a ≤ S1024x32.size a
  k2_off49_inb : ∀ (i : grid2.Coords) (k2_t1 : Fin k2_t1_loop.trips), ∀ a, (k2_off49 i k2_t1) a + S1.size a ≤ S131072.size a
  k2_off50_inb : ∀ k2_t1 : Fin k2_t1_loop.trips, ∀ a, (k2_off50 k2_t1) a + S1x32.size a ≤ S1024x32.size a
  k2_off52_inb : ∀ (i : grid2.Coords) (k2_t1 : Fin k2_t1_loop.trips), ∀ a, (k2_off52 i k2_t1) a + S1.size a ≤ S131072.size a
  k2_off53_inb : ∀ k2_t1 : Fin k2_t1_loop.trips, ∀ a, (k2_off53 k2_t1) a + S1x32.size a ≤ S1024x32.size a
  k2_off55_inb : ∀ (i : grid2.Coords) (k2_t1 : Fin k2_t1_loop.trips), ∀ a, (k2_off55 i k2_t1) a + S1.size a ≤ S131072.size a
  k2_off56_inb : ∀ k2_t1 : Fin k2_t1_loop.trips, ∀ a, (k2_off56 k2_t1) a + S1x32.size a ≤ S1024x32.size a
  k2_off58_inb : ∀ (i : grid2.Coords) (k2_t1 : Fin k2_t1_loop.trips), ∀ a, (k2_off58 i k2_t1) a + S1.size a ≤ S131072.size a
  k2_off59_inb : ∀ k2_t1 : Fin k2_t1_loop.trips, ∀ a, (k2_off59 k2_t1) a + S1x32.size a ≤ S1024x32.size a
  k2_off61_inb : ∀ (i : grid2.Coords) (k2_t1 : Fin k2_t1_loop.trips), ∀ a, (k2_off61 i k2_t1) a + S1.size a ≤ S131072.size a
  k2_off62_inb : ∀ k2_t1 : Fin k2_t1_loop.trips, ∀ a, (k2_off62 k2_t1) a + S1x32.size a ≤ S1024x32.size a
  k2_off64_inb : ∀ (i : grid2.Coords) (k2_t1 : Fin k2_t1_loop.trips), ∀ a, (k2_off64 i k2_t1) a + S1.size a ≤ S131072.size a
  k2_off65_inb : ∀ k2_t1 : Fin k2_t1_loop.trips, ∀ a, (k2_off65 k2_t1) a + S1x32.size a ≤ S1024x32.size a
  k2_off67_inb : ∀ (i : grid2.Coords) (k2_t1 : Fin k2_t1_loop.trips), ∀ a, (k2_off67 i k2_t1) a + S1.size a ≤ S131072.size a
  k2_off68_inb : ∀ k2_t1 : Fin k2_t1_loop.trips, ∀ a, (k2_off68 k2_t1) a + S1x32.size a ≤ S1024x32.size a
  k2_off70_inb : ∀ (i : grid2.Coords) (k2_t1 : Fin k2_t1_loop.trips), ∀ a, (k2_off70 i k2_t1) a + S1.size a ≤ S131072.size a
  k2_off71_inb : ∀ k2_t1 : Fin k2_t1_loop.trips, ∀ a, (k2_off71 k2_t1) a + S1x32.size a ≤ S1024x32.size a
  k2_off73_inb : ∀ (i : grid2.Coords) (k2_t1 : Fin k2_t1_loop.trips), ∀ a, (k2_off73 i k2_t1) a + S1.size a ≤ S131072.size a
  k2_off74_inb : ∀ k2_t1 : Fin k2_t1_loop.trips, ∀ a, (k2_off74 k2_t1) a + S1x32.size a ≤ S1024x32.size a
  k2_off76_inb : ∀ (i : grid2.Coords) (k2_t1 : Fin k2_t1_loop.trips), ∀ a, (k2_off76 i k2_t1) a + S1.size a ≤ S131072.size a
  k2_off77_inb : ∀ k2_t1 : Fin k2_t1_loop.trips, ∀ a, (k2_off77 k2_t1) a + S1x32.size a ≤ S1024x32.size a
  k2_off79_inb : ∀ (i : grid2.Coords) (k2_t1 : Fin k2_t1_loop.trips), ∀ a, (k2_off79 i k2_t1) a + S1.size a ≤ S131072.size a
  k2_off80_inb : ∀ k2_t1 : Fin k2_t1_loop.trips, ∀ a, (k2_off80 k2_t1) a + S1x32.size a ≤ S1024x32.size a
  k2_off82_inb : ∀ (i : grid2.Coords) (k2_t1 : Fin k2_t1_loop.trips), ∀ a, (k2_off82 i k2_t1) a + S1.size a ≤ S131072.size a
  k2_off83_inb : ∀ k2_t1 : Fin k2_t1_loop.trips, ∀ a, (k2_off83 k2_t1) a + S1x32.size a ≤ S1024x32.size a
  k2_off85_inb : ∀ (i : grid2.Coords) (k2_t1 : Fin k2_t1_loop.trips), ∀ a, (k2_off85 i k2_t1) a + S1.size a ≤ S131072.size a
  k2_off86_inb : ∀ k2_t1 : Fin k2_t1_loop.trips, ∀ a, (k2_off86 k2_t1) a + S1x32.size a ≤ S1024x32.size a
  k2_off88_inb : ∀ (i : grid2.Coords) (k2_t1 : Fin k2_t1_loop.trips), ∀ a, (k2_off88 i k2_t1) a + S1.size a ≤ S131072.size a
  k2_off89_inb : ∀ k2_t1 : Fin k2_t1_loop.trips, ∀ a, (k2_off89 k2_t1) a + S1x32.size a ≤ S1024x32.size a
  k2_off91_inb : ∀ (i : grid2.Coords) (k2_t1 : Fin k2_t1_loop.trips), ∀ a, (k2_off91 i k2_t1) a + S1.size a ≤ S131072.size a
  k2_off92_inb : ∀ k2_t1 : Fin k2_t1_loop.trips, ∀ a, (k2_off92 k2_t1) a + S1x32.size a ≤ S1024x32.size a
  k2_off94_inb : ∀ (i : grid2.Coords) (k2_t1 : Fin k2_t1_loop.trips), ∀ a, (k2_off94 i k2_t1) a + S1.size a ≤ S131072.size a
  k2_off95_inb : ∀ k2_t1 : Fin k2_t1_loop.trips, ∀ a, (k2_off95 k2_t1) a + S1x32.size a ≤ S1024x32.size a
  k2_off97_inb : ∀ k2_t1 : Fin k2_t1_loop.trips, ∀ (r : Fin 32), ∀ a, (k2_off97 k2_t1 (BitVec.ofNat 32 r.val)) a + S1x32.size a ≤ S1024x32.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S1024x32.size a ≤ S131072x32.size a
  hwx2_0 : ∀ i : grid2.Coords, EltTy.bits .f32 = 32 ∨ (Rect.block (s := S131072x32) S1024x32.size (cc2_transform_1 i) (hinb2_0 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x97.size a ≤ S131072x97.size a
  hwx3_0 : ∀ i : grid3.Coords, EltTy.bits .f32 = 32 ∨ (Rect.block (s := S131072x97) S512x97.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S97x256.size a ≤ S97x256.size a
  hwx3_1 : ∀ i : grid3.Coords, EltTy.bits .f32 = 32 ∨ (Rect.block (s := S97x256) S97x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S512x1.size a
  hwx3_2 : ∀ i : grid3.Coords, EltTy.bits .f32 = 32 ∨ (Rect.block (s := S512x1) S512x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S131072x1.size a
  hwx3_4 : ∀ i : grid3.Coords, EltTy.bits .f32 = 32 ∨ (Rect.block (s := S131072x1) S512x1.size (cc3_transform_4 i) (hinb3_4 i)).WholeWords (EltTy.packing .f32)

variable [Facts₀]

abbrev cc0_scratch1 : DmaSems sig S32 := SemArray.consecutive 2 S32 hcc0_scratch1
abbrev cc1_scratch1 : DmaSems sig S32 := SemArray.consecutive 36 S32 hcc1_scratch1
abbrev cc2_scratch1 : DmaSems sig S32 := SemArray.consecutive 70 S32 hcc2_scratch1
def dot_S512x97_S97x256_S512x256_1_0_0_1_n_n : DotDims S512x97 S97x256 S512x256 where
  lhsContracting := [1]
  rhsContracting := [0]
  lhsNonContracting := [0]
  rhsNonContracting := [1]
  lhsBatch := []
  rhsBatch := []
  wf := dot_S512x97_S97x256_S512x256_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev spec0_0 : Pipeline.WinSpec sig grid0.rank :=
  Pipeline.WinSpec.ofSpec (Memref.whole main_v4) S1024x32.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v9) S1024x32.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v14) S1024x32.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev win3_0 : Pipeline.Window sig grid3 :=
  Pipeline.Window.ofSpec (Memref.whole main_v16) S512x97.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S97x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S512x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S512x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where
  harr0 : ∀ w, (spec0 w).arr.IsWhole
  harr1 : ∀ w, (spec1 w).arr.IsWhole
  harr2 : ∀ w, (spec2 w).arr.IsWhole

variable [Facts]
-- ==== ReferenceIdeal.lean ====
abbrev S131072x3 : Shape := ⟨2, ![131072, 3]⟩
abbrev S131072 : Shape := ⟨1, ![131072]⟩
abbrev S3x500000x32 : Shape := ⟨3, ![3, 500000, 32]⟩
abbrev S97x256 : Shape := ⟨2, ![97, 256]⟩
abbrev S512x1 : Shape := ⟨2, ![512, 1]⟩
abbrev S1 : Shape := ⟨1, ![1]⟩
abbrev S3 : Shape := ⟨1, ![3]⟩
abbrev S1x3 : Shape := ⟨2, ![1, 3]⟩
abbrev S_ : Shape := ⟨0, ![]⟩
abbrev S131072x3x1 : Shape := ⟨3, ![131072, 3, 1]⟩
abbrev S131072x3x2 : Shape := ⟨3, ![131072, 3, 2]⟩
abbrev S131072x3x32 : Shape := ⟨3, ![131072, 3, 32]⟩
abbrev S131072x96 : Shape := ⟨2, ![131072, 96]⟩
abbrev S131072x1 : Shape := ⟨2, ![131072, 1]⟩
abbrev S131072x97 : Shape := ⟨2, ![131072, 97]⟩
abbrev S131072x256 : Shape := ⟨2, ![131072, 256]⟩
abbrev S131072x512 : Shape := ⟨2, ![131072, 512]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S131072x3, .i32⟩
  | .hbm, ⟨1, _⟩ => ⟨S131072, .f32⟩
  | .hbm, ⟨2, _⟩ => ⟨S3x500000x32, .f32⟩
  | .hbm, ⟨3, _⟩ => ⟨S97x256, .f32⟩
  | .hbm, ⟨4, _⟩ => ⟨S512x1, .f32⟩
  | .hbm, ⟨5, _⟩ => ⟨S1, .f32⟩
  | .hbm, ⟨6, _⟩ => ⟨S3, .i32⟩
  | .hbm, ⟨7, _⟩ => ⟨S1x3, .i32⟩
  | .hbm, ⟨8, _⟩ => ⟨S_, .i32⟩
  | .hbm, ⟨9, _⟩ => ⟨S1x3, .i32⟩
  | .hbm, ⟨10, _⟩ => ⟨S1x3, .i1⟩
  | .hbm, ⟨11, _⟩ => ⟨S_, .i32⟩
  | .hbm, ⟨12, _⟩ => ⟨S1x3, .i32⟩
  | .hbm, ⟨13, _⟩ => ⟨S1x3, .i32⟩
  | .hbm, ⟨14, _⟩ => ⟨S1x3, .i32⟩
  | .hbm, ⟨15, _⟩ => ⟨S_, .i32⟩
  | .hbm, ⟨16, _⟩ => ⟨S131072x3, .i32⟩
  | .hbm, ⟨17, _⟩ => ⟨S131072x3, .i1⟩
  | .hbm, ⟨18, _⟩ => ⟨S_, .i32⟩
  | .hbm, ⟨19, _⟩ => ⟨S131072x3, .i32⟩
  | .hbm, ⟨20, _⟩ => ⟨S131072x3, .i32⟩
  | .hbm, ⟨21, _⟩ => ⟨S131072x3, .i32⟩
  | .hbm, ⟨22, _⟩ => ⟨S131072x3, .i32⟩
  | .hbm, ⟨23, _⟩ => ⟨S131072x3x1, .i32⟩
  | .hbm, ⟨24, _⟩ => ⟨S131072x3x1, .i32⟩
  | .hbm, ⟨25, _⟩ => ⟨S131072x3x2, .i32⟩
  | .hbm, ⟨26, _⟩ => ⟨S131072x3x32, .f32⟩
  | .hbm, ⟨27, _⟩ => ⟨S131072x96, .f32⟩
  | .hbm, ⟨28, _⟩ => ⟨S131072x1, .f32⟩
  | .hbm, ⟨29, _⟩ => ⟨S131072x97, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S131072x512, .f32⟩
  | .hbm, ⟨34, _⟩ => ⟨S_, .f32⟩
  | .hbm, ⟨35, _⟩ => ⟨S_, .f32⟩
  | .hbm, ⟨36, _⟩ => ⟨S131072x512, .f32⟩
  | .hbm, ⟨37, _⟩ => ⟨S131072x512, .f32⟩
  | .hbm, ⟨38, _⟩ => ⟨S131072x1, .f32⟩
  | .hbm, ⟨39, _⟩ => ⟨S1x1, .f32⟩
  | .hbm, ⟨40, _⟩ => ⟨S131072x1, .f32⟩
  | .hbm, ⟨41, _⟩ => ⟨S131072x1, .f32⟩
  | _, _ => ⟨S131072x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S_S1x3 : S_.BroadcastsInDim S1x3 (![] : Fin 0 → Fin S1x3.rank)
  bcast_S_S131072x3 : S_.BroadcastsInDim S131072x3 (![] : Fin 0 → Fin S131072x3.rank)
  bcast_S1x3_S131072x3_0_1 : S1x3.BroadcastsInDim S131072x3 (![0, 1] : Fin 2 → Fin S131072x3.rank)
  bcast_S131072x3_S131072x3x1_0_1 : S131072x3.BroadcastsInDim S131072x3x1 (![0, 1] : Fin 2 → Fin S131072x3x1.rank)
  concatenates_S131072x3x1_S131072x3x1_S131072x3x2_d2 : Shape.Concatenates [S131072x3x1, S131072x3x1] S131072x3x2 2
  shapeCasts_S131072x3x32_S131072x96 : S131072x3x32.ShapeCasts S131072x96
  bcast_S131072_S131072x1_0 : S131072.BroadcastsInDim S131072x1 (![0] : Fin 1 → Fin S131072x1.rank)
  concatenates_S131072x96_S131072x1_S131072x97_d1 : Shape.Concatenates [S131072x96, S131072x1] S131072x97 1
  concatenates_S131072x256_S131072x256_S131072x512_d1 : Shape.Concatenates [S131072x256, S131072x256] S131072x512 1
  bcast_S_S131072x512 : S_.BroadcastsInDim S131072x512 (![] : Fin 0 → Fin S131072x512.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  gather_S3x500000x32_S131072x3x2_S131072x3x32_2_01_n_n_01_2_1132_wf : GatherDims.WF S3x500000x32 S131072x3x2 S131072x3x32 [2] [0, 1] [] [0, 1] [] 2 ![1, 1, 32]
  dot_S131072x97_S97x256_S131072x256_1_0_0_1_n_n_wf : DotDims.WF S131072x97 S97x256 S131072x256 [1] [0] [0] [1] [] []
  dot_S131072x512_S512x1_S131072x1_1_0_0_1_n_n_wf : DotDims.WF S131072x512 S512x1 S131072x1 [1] [0] [0] [1] [] []

variable [Facts₀]

def gather_S3x500000x32_S131072x3x2_S131072x3x32_2_01_n_n_01_2_1132 : GatherDims S3x500000x32 S131072x3x2 S131072x3x32 where
  offsetDims := [2]
  collapsedSliceDims := [0, 1]
  operandBatchingDims := []
  startIndicesBatchingDims := []
  startIndexMap := [0, 1]
  indexVectorDim := 2
  sliceSizes := ![1, 1, 32]
  wf := gather_S3x500000x32_S131072x3x2_S131072x3x32_2_01_n_n_01_2_1132_wf
def dot_S131072x97_S97x256_S131072x256_1_0_0_1_n_n : DotDims S131072x97 S97x256 S131072x256 where
  lhsContracting := [1]
  rhsContracting := [0]
  lhsNonContracting := [0]
  rhsNonContracting := [1]
  lhsBatch := []
  rhsBatch := []
  wf := dot_S131072x97_S97x256_S131072x256_1_0_0_1_n_n_wf
def dot_S131072x512_S512x1_S131072x1_1_0_0_1_n_n : DotDims S131072x512 S512x1 S131072x1 where
  lhsContracting := [1]
  rhsContracting := [0]
  lhsNonContracting := [0]
  rhsNonContracting := [1]
  lhsBatch := []
  rhsBatch := []
  wf := dot_S131072x512_S512x1_S131072x1_1_0_0_1_n_n_wf

class Facts : Prop extends Facts₀ where

variable [Facts]
-- ==== Proof.Spec.lean ====
/-
  What both programs compute, as ONE function of the argument arrays, index by index.

  For a batch row b the input vector has 97 entries: entries 32m .. 32m+31 are row idx[b, m] of the
  m-th factor table (m = 0, 1, 2), and entry 96 is the time t[b].  The projection is the matrix
  product with W, the feature map is sin of the projection on the first 256 columns and cos on the
  last 256, every feature divided by sqrt 256 = 16, and the result is the matrix product of the
  features with the read-out column plus the bias.

  The row a table is read at is the index word read as a natural number, capped at the last row; on
  words in [0, 500000) the cap does nothing.
-/
import Idealize.ShloMosaic.PureOps.Ideal
import Idealize.ShloMosaic.Lib.ValueIdx

noncomputable section

open scoped BigOperators

namespace Cert.Spec

open Idealize.ShloMosaic Idealize.ShloMosaic.ValueIdx

/-- The literal shapes of the six arguments and of the result. -/
abbrev SIdx : Shape := ⟨2, ![131072, 3]⟩
abbrev STime : Shape := ⟨1, ![131072]⟩
abbrev STab : Shape := ⟨3, ![3, 500000, 32]⟩
abbrev SW : Shape := ⟨2, ![97, 256]⟩
abbrev SOut : Shape := ⟨2, ![512, 1]⟩
abbrev SBias : Shape := ⟨1, ![1]⟩
abbrev SRes : Shape := ⟨2, ![131072, 1]⟩

/-- The table row batch row `b` reads in mode `m`: the index word as a natural number, capped at the last row. -/
def rowOf (idx : SIdx.Idx → BitVec 32) (b : Fin 131072) (m : Fin 3) : Fin 500000 :=
  ⟨min (idx (ix2 b m)).toNat 499999, by omega⟩

/-- On a word below 500000 the cap does nothing. -/
theorem rowOf_val (idx : SIdx.Idx → BitVec 32) (b : Fin 131072) (m : Fin 3)
    (h : (idx (ix2 b m)).toNat < 500000) : (rowOf idx b m).val = (idx (ix2 b m)).toNat := by
  unfold rowOf; simp only; omega

/-- Entry `j` of batch row `b`'s input vector: the three gathered table rows side by side, then the time. -/
def input (idx : SIdx.Idx → BitVec 32) (t : STime.Idx → EReal) (U : STab.Idx → EReal)
    (b : Fin 131072) (j : Fin 97) : EReal :=
  if h : j.val < 96 then
    U (ix3 (⟨j.val / 32, by omega⟩ : Fin 3) (rowOf idx b ⟨j.val / 32, by omega⟩) (⟨j.val % 32, Nat.mod_lt _ (by decide)⟩ : Fin 32))
  else t (ix1 b)

/-- The projection: the input vector against column `n` of `W`. -/
def proj (idx : SIdx.Idx → BitVec 32) (t : STime.Idx → EReal) (U : STab.Idx → EReal) (W : SW.Idx → EReal)
    (b : Fin 131072) (n : Fin 256) : EReal :=
  ∑ j : Fin 97, input idx t U b j * W (ix2 j n)

/-- Feature `p` of batch row `b`, before scaling: the sine of the projection on the first 256 columns, the
    cosine on the last 256. -/
def feat (idx : SIdx.Idx → BitVec 32) (t : STime.Idx → EReal) (U : STab.Idx → EReal) (W : SW.Idx → EReal)
    (b : Fin 131072) (p : Fin 512) : EReal :=
  if h : p.val < 256 then Ideal.sin (proj idx t U W b ⟨p.val, h⟩)
  else Ideal.cos (proj idx t U W b ⟨p.val - 256, by omega⟩)

/-- The result at batch row `b`: the features, each times one sixteenth, against the read-out column, plus the bias. -/
def G (idx : SIdx.Idx → BitVec 32) (t : STime.Idx → EReal) (U : STab.Idx → EReal) (W : SW.Idx → EReal)
    (wout : SOut.Idx → EReal) (bias : SBias.Idx → EReal) : SRes.Idx → EReal :=
  fun y => (∑ p : Fin 512, (feat idx t U W (y 0) p * ((1 / 16 : ℝ) : EReal)) * wout (ix2 p (0 : Fin 1)))
    + bias (ix1 (0 : Fin 1))

end Cert.Spec

end
-- ==== Proof.Consts.lean ====
/-
  The two float literals the programs spell, as the extended reals their patterns denote, and the one
  arithmetic law that joins the two sides.

  The reference divides every feature by the square root of 256; the other program multiplies it by
  the sixteenth.  The square root of 256 is exactly 16, and on the extended reals division by a
  nonzero real is the product with its reciprocal at the infinities too, so both are the product with
  one sixteenth, for every extended real x.
-/
import Idealize.ShloMosaic.PureOps.Ideal

noncomputable section

namespace Cert.Consts

open Idealize.ShloMosaic

/-- The pattern of `256.0` denotes the real 256. -/
theorem ofBits_256 : Ideal.ofBits .f32 0x43800000#32 = ((256 : ℝ) : EReal) := by
  simp [Ideal.ofBits, Ideal.ieee, -EReal.coe_mul]; norm_num

/-- The pattern of `0.0625` denotes the real one sixteenth. -/
theorem ofBits_sixteenth : Ideal.ofBits .f32 0x3D800000#32 = ((1 / 16 : ℝ) : EReal) := by
  simp [Ideal.ofBits, Ideal.ieee, -EReal.coe_mul]; norm_num

/-- The square root of 256 is 16. -/
theorem sqrt_256 : Ideal.sqrt ((256 : ℝ) : EReal) = ((16 : ℝ) : EReal) := by
  rw [Ideal.sqrt_coe, if_neg (by norm_num)]
  congr 1
  rw [show (256 : ℝ) = 16 * 16 by norm_num]
  exact Real.sqrt_mul_self (by norm_num)

/-- Dividing by the square root of the literal 256 is multiplying by one sixteenth, on every extended real. -/
theorem div_sqrt_256 (x : EReal) :
    Ideal.div x (Ideal.sqrt (Ideal.ofBits .f32 0x43800000#32)) = x * ((1 / 16 : ℝ) : EReal) := by
  rw [ofBits_256, sqrt_256, Ideal.div_coe (by norm_num : (16 : ℝ) ≠ 0)]

/-- Multiplying by the literal 0.0625 is multiplying by one sixteenth. -/
theorem mul_sixteenth (x : EReal) :
    x * Ideal.ofBits .f32 0x3D800000#32 = x * ((1 / 16 : ℝ) : EReal) := by
  rw [ofBits_sixteenth]

end Cert.Consts

end
-- ==== Proof.RefValue.lean ====
/-
  The reference's value.  Its run ends with the result array at the composed term of its 36 host
  operations applied to the arguments; read one operation at a time, that term is the specification's
  function of the arguments: a batch row's input vector is the three table rows its index words name,
  side by side, then its time; the projection, the sine and cosine features and their division by the
  square root of 256, and the read-out with its bias, follow.  An index word below 500000 is read as
  itself: the wrap of negative words and the cap at the last row both leave it alone.
-/
import proofs.«423058_j50337016709696_1_alg».proof.Proof.RefRead
import proofs.«423058_j50337016709696_1_alg».proof.Proof.Spec
import proofs.«423058_j50337016709696_1_alg».proof.Proof.Consts
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

/-! ## Words: a small natural number is not negative -/

/-- A 32-bit word below 500000 as a natural number is not negative as a signed one: the signed comparison
    with zero is the bit 0. -/
theorem slt_zero_of_small (x : BitVec 32) (h : x.toNat < 500000) : IntOp.cmpi .slt x 0#32 = 0#1 := by
  have hi : x.toInt = (x.toNat : Int) := by
    rw [BitVec.toInt_eq_toNat_cond, if_pos (by omega)]
  have hn : ¬ x.toInt < (0#32 : BitVec 32).toInt := by
    rw [hi]; simp
  have hb : x.slt 0#32 = false := by
    rw [Bool.eq_false_iff]; intro hs; exact hn (BitVec.slt_iff_toInt_lt.mp hs)
  unfold IntOp.cmpi
  simp only [hb]
  rfl

/-- Such a word read signed is itself. -/
theorem toInt_toNat_of_small (x : BitVec 32) (h : x.toNat < 500000) : x.toInt.toNat = x.toNat := by
  rw [BitVec.toInt_eq_toNat_cond, if_pos (by omega)]
  simp

/-! ## The two components of an index vector -/

/-- Component 0, the mode: the counter 0, 1, 2 is below 3, so the wrap of a negative word leaves it alone. -/
theorem mode_apply {F : FTy → Type} [FloatOps F] (i : S1x3.Idx) :
    val_main_v6 (F := F) i = BitVec.ofNat 32 (i 1).val := by
  obtain ⟨p, q, rfl⟩ : ∃ p q, i = ix2 p q := ⟨i 0, i 1, eq_ix2 i⟩
  rw [val_main_v6_apply, val_main_v3_apply, val_main_v1_apply, val_main_v0_apply, val_main_v2_apply, val_main_c_apply]
  match q with
  | ⟨0, _⟩ => rfl
  | ⟨1, _⟩ => rfl
  | ⟨2, _⟩ => rfl

/-- Component 1, the row: an index word below 500000 is not negative, so the wrap leaves it alone. -/
theorem row_apply {F : FTy → Type} [FloatOps F] (x0 : (⟨S131072x3, .i32⟩ : BufTy).Contents (Elt F))
    (i : S131072x3.Idx) (h : (x0 i).toNat < 500000) :
    val_main_v11 (F := F) x0 i = x0 i := by
  rw [val_main_v11_apply, val_main_v8_apply, val_main_v7_apply, val_main_c_1_apply, slt_zero_of_small _ h, select_zero]

/-! ## Stage 1: the index vectors -/

/-- The index vector of batch row `b` in mode `m` has the mode as its component 0 … -/
theorem val_main_v15_apply0 {F : FTy → Type} [FloatOps F] (x0 : (⟨S131072x3, .i32⟩ : BufTy).Contents (Elt F))
    (b : Fin 131072) (m : Fin 3) :
    val_main_v15 (F := F) x0 (ix3 b m (0 : Fin 2)) = BitVec.ofNat 32 m.val := by
  unfold val_main_v15
  rw [concatenate_pair_apply_left (2 : Fin S131072x3x2.rank) _ _ concatenates_S131072x3x1_S131072x3x1_S131072x3x2_d2
    (ix3 b m (0 : Fin 2)) rfl (ix3 b m (0 : Fin 1)) (fun a => by match a with | ⟨0, _⟩ => rfl | ⟨1, _⟩ => rfl | ⟨2, _⟩ => rfl)]
  rw [val_main_v13_apply, val_main_v12_apply, mode_apply]

/-- … and the index word, when it is below 500000, as its component 1. -/
theorem val_main_v15_apply1 {F : FTy → Type} [FloatOps F] (x0 : (⟨S131072x3, .i32⟩ : BufTy).Contents (Elt F))
    (b : Fin 131072) (m : Fin 3) (h : (x0 (ix2 b m)).toNat < 500000) :
    val_main_v15 (F := F) x0 (ix3 b m (1 : Fin 2)) = x0 (ix2 b m) := by
  unfold val_main_v15
  rw [concatenate_pair_apply_right (2 : Fin S131072x3x2.rank) _ _ concatenates_S131072x3x1_S131072x3x1_S131072x3x2_d2
    (ix3 b m (1 : Fin 2)) rfl rfl (ix3 b m (0 : Fin 1))
    (fun a ha => by match a with | ⟨0, _⟩ => rfl | ⟨1, _⟩ => rfl | ⟨2, _⟩ => exact absurd rfl ha) rfl]
  have e : idx_main_v14 (ix3 b m (0 : Fin 1)) = ix2 b m :=
    funext fun a => Fin.ext (by match a with | ⟨0, _⟩ => rfl | ⟨1, _⟩ => rfl)
  rw [val_main_v14_apply, e, row_apply _ _ h]

/-! ## Stage 2: the gather

The operand has three axes (mode, row, lane) and a start index has two components, for the mode and the row axes,
both collapsed; the lane axis is the one offset axis, read whole.  So result element `(b, m, l)` is the operand at
the clamped start indices on the first two axes and at `l` on the third. -/

section Gather
variable (idx : IVec S131072x3x2 32) (b : Fin 131072) (m : Fin 3) (l : Fin 32)

/-- On the mode axis: component 0 of the start index, read signed and clamped to the three tables. -/
theorem gather_coord0 :
    gather_S3x500000x32_S131072x3x2_S131072x3x32_2_01_n_n_01_2_1132.start (ix3 b m l) idx (0 : Fin 3) + gather_S3x500000x32_S131072x3x2_S131072x3x32_2_01_n_n_01_2_1132.batchCoord (ix3 b m l) (0 : Fin 3) + gather_S3x500000x32_S131072x3x2_S131072x3x32_2_01_n_n_01_2_1132.offCoord (ix3 b m l) (0 : Fin 3)
      = min (idx (ix3 b m (0 : Fin 2))).toInt.toNat 2 := by
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (0 : Fin 3) ∈ gather_S3x500000x32_S131072x3x2_S131072x3x32_2_01_n_n_01_2_1132.startIndexMap by decide)]
  have hsi : gather_S3x500000x32_S131072x3x2_S131072x3x32_2_01_n_n_01_2_1132.siIdx (ix3 b m l) ⟨List.idxOf (0 : Fin 3) gather_S3x500000x32_S131072x3x2_S131072x3x32_2_01_n_n_01_2_1132.startIndexMap, List.idxOf_lt_length_iff.2 (by decide)⟩
      = ix3 b m (0 : Fin 2) := by
    funext c; refine Fin.ext ?_
    match c with
    | ⟨0, _⟩ => rfl
    | ⟨1, _⟩ => rfl
    | ⟨2, _⟩ => rfl
  rw [hsi]
  rfl

/-- On the row axis: component 1 of the start index, read signed and clamped to the table's height. -/
theorem gather_coord1 :
    gather_S3x500000x32_S131072x3x2_S131072x3x32_2_01_n_n_01_2_1132.start (ix3 b m l) idx (1 : Fin 3) + gather_S3x500000x32_S131072x3x2_S131072x3x32_2_01_n_n_01_2_1132.batchCoord (ix3 b m l) (1 : Fin 3) + gather_S3x500000x32_S131072x3x2_S131072x3x32_2_01_n_n_01_2_1132.offCoord (ix3 b m l) (1 : Fin 3)
      = min (idx (ix3 b m (1 : Fin 2))).toInt.toNat 499999 := by
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (1 : Fin 3) ∈ gather_S3x500000x32_S131072x3x2_S131072x3x32_2_01_n_n_01_2_1132.startIndexMap by decide)]
  have hsi : gather_S3x500000x32_S131072x3x2_S131072x3x32_2_01_n_n_01_2_1132.siIdx (ix3 b m l) ⟨List.idxOf (1 : Fin 3) gather_S3x500000x32_S131072x3x2_S131072x3x32_2_01_n_n_01_2_1132.startIndexMap, List.idxOf_lt_length_iff.2 (by decide)⟩
      = ix3 b m (1 : Fin 2) := by
    funext c; refine Fin.ext ?_
    match c with
    | ⟨0, _⟩ => rfl
    | ⟨1, _⟩ => rfl
    | ⟨2, _⟩ => rfl
  rw [hsi]
  rfl

/-- On the lane axis, which no start index names: the result's own lane. -/
theorem gather_coord2 :
    gather_S3x500000x32_S131072x3x2_S131072x3x32_2_01_n_n_01_2_1132.start (ix3 b m l) idx (2 : Fin 3) + gather_S3x500000x32_S131072x3x2_S131072x3x32_2_01_n_n_01_2_1132.batchCoord (ix3 b m l) (2 : Fin 3) + gather_S3x500000x32_S131072x3x2_S131072x3x32_2_01_n_n_01_2_1132.offCoord (ix3 b m l) (2 : Fin 3)
      = l.val := by
  rw [GatherDims.batchCoord_eq_zero _ _ _ List.not_mem_nil, Nat.add_zero]
  unfold GatherDims.start
  rw [dif_neg (show ¬ (2 : Fin 3) ∈ gather_S3x500000x32_S131072x3x2_S131072x3x32_2_01_n_n_01_2_1132.startIndexMap by decide), Nat.zero_add]
  unfold GatherDims.offCoord
  rw [dif_pos (show (2 : Fin 3) ∈ gather_S3x500000x32_S131072x3x2_S131072x3x32_2_01_n_n_01_2_1132.sKept by decide)]
  rfl

/-- The gather read at `(b, m, l)`, for any operand and any start indices: both components read signed and clamped to
    their axes. -/
theorem gather_apply {α : Type} (x : S3x500000x32.Idx → α) :
    Host.gather gather_S3x500000x32_S131072x3x2_S131072x3x32_2_01_n_n_01_2_1132 x idx (ix3 b m l)
      = x (ix3 (⟨min (idx (ix3 b m (0 : Fin 2))).toInt.toNat 2, by omega⟩ : Fin 3)
            (⟨min (idx (ix3 b m (1 : Fin 2))).toInt.toNat 499999, by omega⟩ : Fin 500000) l) := by
  unfold Host.gather
  congr 1
  funext a
  refine Fin.ext ?_
  match a with
  | ⟨0, _⟩ => exact gather_coord0 idx b m l
  | ⟨1, _⟩ => exact gather_coord1 idx b m l
  | ⟨2, _⟩ => exact gather_coord2 idx b m l

end Gather

/-- The gathered array at `(b, m, l)`: table `m` at the row the index word names, lane `l`. -/
theorem val_main_v16_apply (x0 : (⟨S131072x3, .i32⟩ : BufTy).Contents (Elt Ideal))
    (x2 : (⟨S3x500000x32, .f32⟩ : BufTy).Contents (Elt Ideal))
    (hidx : ∀ j : S131072x3.Idx, (x0 j).toNat < 500000) (b : Fin 131072) (m : Fin 3) (l : Fin 32) :
    val_main_v16 (F := Ideal) x0 x2 (ix3 b m l) = x2 (ix3 m (Cert.Spec.rowOf x0 b m) l) := by
  unfold val_main_v16
  rw [gather_apply]
  congr 1
  have h := hidx (ix2 b m)
  funext a
  refine Fin.ext ?_
  match a with
  | ⟨0, _⟩ =>
    show min (val_main_v15 (F := Ideal) x0 (ix3 b m (0 : Fin 2))).toInt.toNat 2 = m.val
    rw [val_main_v15_apply0]
    have hm := m.isLt
    have e : (BitVec.ofNat 32 m.val).toNat = m.val := by
      rw [BitVec.toNat_ofNat]; exact Nat.mod_eq_of_lt (by omega)
    rw [toInt_toNat_of_small _ (by omega), e]
    omega
  | ⟨1, _⟩ =>
    show min (val_main_v15 (F := Ideal) x0 (ix3 b m (1 : Fin 2))).toInt.toNat 499999 = (Cert.Spec.rowOf x0 b m).val
    rw [val_main_v15_apply1 _ _ _ h, toInt_toNat_of_small _ h]
    rfl
  | ⟨2, _⟩ => rfl

/-! ## Stage 3: a batch row's input vector -/

/-- The reshape lays a batch row's three gathered rows side by side: column `j` is lane `j % 32` of mode `j / 32`. -/
theorem val_main_v17_apply' (x0 : (⟨S131072x3, .i32⟩ : BufTy).Contents (Elt Ideal))
    (x2 : (⟨S3x500000x32, .f32⟩ : BufTy).Contents (Elt Ideal))
    (hidx : ∀ j : S131072x3.Idx, (x0 j).toNat < 500000) (b : Fin 131072) (j : Fin 96) :
    val_main_v17 (F := Ideal) x0 x2 (ix2 b j)
      = x2 (ix3 (⟨j.val / 32, by omega⟩ : Fin 3) (Cert.Spec.rowOf x0 b ⟨j.val / 32, by omega⟩)
          (⟨j.val % 32, Nat.mod_lt _ (by decide)⟩ : Fin 32)) := by
  have hb := b.isLt
  have hj := j.isLt
  have e : idx_main_v17 (ix2 b j) = ix3 b (⟨j.val / 32, by omega⟩ : Fin 3) (⟨j.val % 32, Nat.mod_lt _ (by decide)⟩ : Fin 32) :=
    funext fun a => Fin.ext (by
      match a with
      | ⟨0, _⟩ => show (b.val * 96 + j.val) / 96 = b.val; omega
      | ⟨1, _⟩ => show (b.val * 96 + j.val) / 32 % 3 = j.val / 32; omega
      | ⟨2, _⟩ => show (b.val * 96 + j.val) % 32 = j.val % 32; omega)
  rw [val_main_v17_apply, e, val_main_v16_apply _ _ hidx]

/-- The input vector of batch row `b`: the 96 gathered entries, then the time. -/
theorem val_main_v19_apply' (x0 : (⟨S131072x3, .i32⟩ : BufTy).Contents (Elt Ideal))
    (x1 : (⟨S131072, .f32⟩ : BufTy).Contents (Elt Ideal)) (x2 : (⟨S3x500000x32, .f32⟩ : BufTy).Contents (Elt Ideal))
    (hidx : ∀ j : S131072x3.Idx, (x0 j).toNat < 500000) (b : Fin 131072) (j : Fin 97) :
    val_main_v19 (F := Ideal) x0 x1 x2 (ix2 b j) = Cert.Spec.input x0 x1 x2 b j := by
  unfold val_main_v19 Cert.Spec.input
  by_cases h : j.val < 96
  · rw [dif_pos h, concatenate_pair_apply_left (1 : Fin S131072x97.rank) _ _ concatenates_S131072x96_S131072x1_S131072x97_d1
      (ix2 b j) rfl (ix2 b (⟨j.val, h⟩ : Fin 96)) (fun a => by match a with | ⟨0, _⟩ => rfl | ⟨1, _⟩ => rfl)]
    exact val_main_v17_apply' x0 x2 hidx b ⟨j.val, h⟩
  · rw [dif_neg h, concatenate_pair_apply_right (1 : Fin S131072x97.rank) _ _ concatenates_S131072x96_S131072x1_S131072x97_d1
      (ix2 b j) rfl rfl (ix2 b (0 : Fin 1))
      (fun a ha => by match a with | ⟨0, _⟩ => rfl | ⟨1, _⟩ => exact absurd rfl ha)
      (by have := j.isLt; show 0 + 96 = j.val; omega)]
    have e : idx_main_v18 (ix2 b (0 : Fin 1)) = ix1 b :=
      funext fun a => Fin.ext (by match a with | ⟨0, _⟩ => rfl)
    rw [val_main_v18_apply, e]

/-- The projection: the input vector against a column of the weights. -/
theorem val_main_v20_apply' (x0 : (⟨S131072x3, .i32⟩ : BufTy).Contents (Elt Ideal))
    (x1 : (⟨S131072, .f32⟩ : BufTy).Contents (Elt Ideal)) (x2 : (⟨S3x500000x32, .f32⟩ : BufTy).Contents (Elt Ideal))
    (x3 : (⟨S97x256, .f32⟩ : BufTy).Contents (Elt Ideal))
    (hidx : ∀ j : S131072x3.Idx, (x0 j).toNat < 500000) (b : Fin 131072) (n : Fin 256) :
    val_main_v20 (F := Ideal) x0 x1 x2 x3 (ix2 b n) = Cert.Spec.proj x0 x1 x2 x3 b n := by
  rw [val_main_v20_apply]
  unfold Cert.Spec.proj
  refine Finset.sum_congr rfl fun k _ => ?_
  have el : lidx_main_v20 (ix2 b n) k = ix2 b k :=
    funext fun a => Fin.ext (by match a with | ⟨0, _⟩ => rfl | ⟨1, _⟩ => rfl)
  have er : ridx_main_v20 (ix2 b n) k = ix2 k n :=
    funext fun a => Fin.ext (by match a with | ⟨0, _⟩ => rfl | ⟨1, _⟩ => rfl)
  rw [el, er, val_main_v19_apply' _ _ _ hidx]

/-! ## Stage 4: the features, their scaling and the read-out -/

/-- The features of batch row `b`: the sine of the projection on the first 256 columns, the cosine on the last 256. -/
theorem val_main_v23_apply' (x0 : (⟨S131072x3, .i32⟩ : BufTy).Contents (Elt Ideal))
    (x1 : (⟨S131072, .f32⟩ : BufTy).Contents (Elt Ideal)) (x2 : (⟨S3x500000x32, .f32⟩ : BufTy).Contents (Elt Ideal))
    (x3 : (⟨S97x256, .f32⟩ : BufTy).Contents (Elt Ideal))
    (hidx : ∀ j : S131072x3.Idx, (x0 j).toNat < 500000) (b : Fin 131072) (p : Fin 512) :
    val_main_v23 (F := Ideal) x0 x1 x2 x3 (ix2 b p) = Cert.Spec.feat x0 x1 x2 x3 b p := by
  unfold val_main_v23 Cert.Spec.feat
  by_cases h : p.val < 256
  · rw [dif_pos h, concatenate_pair_apply_left (1 : Fin S131072x512.rank) _ _ concatenates_S131072x256_S131072x256_S131072x512_d1
      (ix2 b p) rfl (ix2 b (⟨p.val, h⟩ : Fin 256)) (fun a => by match a with | ⟨0, _⟩ => rfl | ⟨1, _⟩ => rfl)]
    rw [val_main_v21_apply, Ideal.hostUnary_sin_def, val_main_v20_apply' _ _ _ _ hidx]
  · have hp := p.isLt
    rw [dif_neg h, concatenate_pair_apply_right (1 : Fin S131072x512.rank) _ _ concatenates_S131072x256_S131072x256_S131072x512_d1
      (ix2 b p) rfl rfl (ix2 b (⟨p.val - 256, by omega⟩ : Fin 256))
      (fun a ha => by match a with | ⟨0, _⟩ => rfl | ⟨1, _⟩ => exact absurd rfl ha)
      (by show p.val - 256 + 256 = p.val; omega)]
    rw [val_main_v22_apply, Ideal.hostUnary_cos_def, val_main_v20_apply' _ _ _ _ hidx]

/-- Every feature divided by the square root of 256 is the feature times one sixteenth. -/
theorem val_main_v26_apply' (x0 : (⟨S131072x3, .i32⟩ : BufTy).Contents (Elt Ideal))
    (x1 : (⟨S131072, .f32⟩ : BufTy).Contents (Elt Ideal)) (x2 : (⟨S3x500000x32, .f32⟩ : BufTy).Contents (Elt Ideal))
    (x3 : (⟨S97x256, .f32⟩ : BufTy).Contents (Elt Ideal))
    (hidx : ∀ j : S131072x3.Idx, (x0 j).toNat < 500000) (b : Fin 131072) (p : Fin 512) :
    val_main_v26 (F := Ideal) x0 x1 x2 x3 (ix2 b p) = Cert.Spec.feat x0 x1 x2 x3 b p * ((1 / 16 : ℝ) : EReal) := by
  rw [val_main_v26_apply, Ideal.hostDivf_def, val_main_v25_apply, val_main_v24_apply, Ideal.hostUnary_sqrt_def,
    val_main_cst_apply, val_main_v23_apply' _ _ _ _ hidx]
  exact Cert.Consts.div_sqrt_256 _

/-- The reference's last stage is the specification's function of the six arguments, when every index word is below
    the tables' height. -/
theorem result_eq
    (x0 : (⟨S131072x3, .i32⟩ : BufTy).Contents (Elt Ideal)) (x1 : (⟨S131072, .f32⟩ : BufTy).Contents (Elt Ideal))
    (x2 : (⟨S3x500000x32, .f32⟩ : BufTy).Contents (Elt Ideal)) (x3 : (⟨S97x256, .f32⟩ : BufTy).Contents (Elt Ideal))
    (x4 : (⟨S512x1, .f32⟩ : BufTy).Contents (Elt Ideal)) (x5 : (⟨S1, .f32⟩ : BufTy).Contents (Elt Ideal))
    (hidx : ∀ j : S131072x3.Idx, (x0 j).toNat < 500000) :
    Cert.ReferenceIdeal.Read.val_main_v30 (F := Ideal) x0 x1 x2 x3 x4 x5 = Cert.Spec.G x0 x1 x2 x3 x4 x5 := by
  funext y
  obtain ⟨b, z, rfl⟩ : ∃ b z, y = ix2 b z := ⟨y 0, y 1, eq_ix2 y⟩
  obtain rfl : z = (0 : Fin 1) := Subsingleton.elim _ _
  rw [val_main_v30_apply, Ideal.addf_def, val_main_v27_apply, val_main_v29_apply, val_main_v28_apply]
  unfold Cert.Spec.G
  have eb : idx_main_v28 (idx_main_v29 (ix2 b (0 : Fin 1))) = ix1 (0 : Fin 1) :=
    funext fun a => Fin.ext (by match a with | ⟨0, _⟩ => rfl)
  rw [eb]
  congr 1
  refine Finset.sum_congr rfl fun k _ => ?_
  have el : lidx_main_v27 (ix2 b (0 : Fin 1)) k = ix2 b k :=
    funext fun a => Fin.ext (by match a with | ⟨0, _⟩ => rfl | ⟨1, _⟩ => rfl)
  have er : ridx_main_v27 (ix2 b (0 : Fin 1)) k = ix2 k (0 : Fin 1) :=
    funext fun a => Fin.ext (by match a with | ⟨0, _⟩ => rfl | ⟨1, _⟩ => rfl)
  rw [el, er, val_main_v26_apply' _ _ _ _ hidx]

end Cert.ReferenceIdeal.RefValue

end
-- ==== Proof.PreRange.lean ====
/-
  What the precondition says of the index array.  The printed predicate is a conjunction whose last
  conjunct is "every index word w has 0 ≤ w and w < 500000, read as signed numbers", taken over the whole
  array; a word whose signed value lies in that range has the same value read unsigned, so every index
  word, read as a natural number, is below the tables' height.  The conjuncts before it (each float
  input finite) are not needed here.
-/
import proofs.«423058_j50337016709696_1_alg».proof.Pre_finite_inputs
import Idealize.ShloMosaic.Lib.ReduceAll
import Idealize.ShloMosaic.Lib.StableHlo.Predicate
import Idealize.ShloMosaic.Lib.ValueIdx
import Idealize.ShloMosaic.Lib.Affine

noncomputable section

namespace Cert.PreRange

open Idealize.ShloMosaic Cert.Pre_finite_inputs

/-- A word whose signed value is at least 0 and below 500000 is below 500000 read as a natural number: a word in
    the upper half of the range reads negative, so this one is in the lower half, where both readings agree. -/
theorem toNat_lt_of_toInt_range (w : BitVec 32) (h0 : (0 : Int) ≤ w.toInt) (h1 : w.toInt < 500000) :
    w.toNat < 500000 := by
  rw [BitVec.toInt_eq_toNat_cond] at h0 h1
  split at h0
  · rw [if_pos (by assumption)] at h1; omega
  · omega

/-- Under the precondition every index word, read as a natural number, is below 500000: at any float instance. -/
theorem idx_in_range {F : FTy → Type} [FloatOps F] [Cert.Pre_finite_inputs.Facts]
    (a0 : IVec S131072x3 32) (a1 : FVec F S131072 .f32) (a2 : FVec F S3x500000x32 .f32)
    (a3 : FVec F S97x256 .f32) (a4 : FVec F S512x1 .f32) (a5 : FVec F S1 .f32)
    (h : Cert.Pre_finite_inputs.fn (F := F) a0 a1 a2 a3 a4 a5 = (fun _ => 1#1)) :
    ∀ j : S131072x3.Idx, (a0 j).toNat < 500000 := by
  intro j
  -- the predicate's one element, as the conjunction its last operation forms
  have hr := congrFun h ValueIdx.ix0
  unfold fn fn_part1 at hr
  dsimp only at hr
  -- its last conjunct: the conjunction over the whole index array, so every element of it
  have hall := (IntOp.andi_eq_one.mp hr).2
  -- the scalar shape has one index
  haveI : Subsingleton S_.Idx := ⟨fun _ _ => funext fun d => d.elim0⟩
  have hj := Host.reduce_andi_all _ _ _ _ _ hall j
  -- at `j`: both signed comparisons hold
  obtain ⟨hge, hlt⟩ := IntOp.andi_eq_one.mp hj
  have hge' := IntOp.cmpi_sge.mp hge
  have hlt' := IntOp.cmpi_slt.mp hlt
  rw [StableHlo.Predicate.bcast_scalar _ Facts.h_S_] at hge' hlt'
  exact toNat_lt_of_toInt_range (a0 j) hge' hlt'

end Cert.PreRange

end
-- ==== Proof.KI.Base.lean ====
/-
  The resource algebra and the ways of holding a buffer that every module about the idealized kernel's
  regions shares.  Beside the pipeline library's own algebra it carries the counters the regions' local
  transfers take their tokens from: three of the four regions move table rows by transfers of their own.
-/
import proofs.«423058_j50337016709696_1_alg».proof.Proof.Gen.KernelIdeal.Loops
import Idealize.ShloMosaic.Lib.Tactic
import Idealize.ShloMosaic.Lib.Pipeline.Kit
import Idealize.ShloMosaic.Lib.WholeRead

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra of the whole program: the pipeline library's, beside the transfers' counters. -/
abbrev UU : Type := UR sig nD τ × Counters

/-- The model every statement about this program's regions is made in. -/
abbrev 𝕄K (F : FTy → Type) : Type := MT nD τ sig Unit (Elt F) ℕ UU ℕ

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c` held whole, at the full share, at contents `f`. -/
abbrev pt (c : Dev nD) {sp : Space} {S : Shape} {e : EltTy} (M : Memref sig .tc sp S e) (f : Bf (F := F) c M) : sProp (𝕄K F) :=
  M.view.loc (c : Thread nD τ) ↦{fullShare} f

/-- The same at a share `q`: how an array that several transfers read at once is held, one share a transfer. -/
abbrev ptq (c : Dev nD) {sp : Space} {S : Shape} {e : EltTy} (M : Memref sig .tc sp S e) (q : PosShare TreeShare)
    (f : Bf (F := F) c M) : sProp (𝕄K F) :=
  M.view.loc (c : Thread nD τ) ↦{q} f

/-- A row index below the tables' height keeps the one-row window inside the table: what each transfer's
    source asks of the index word it was computed from. -/
theorem row_inb (v : BitVec 32) (h : v.toNat < 500000) :
    ∀ a, (![v.toNat, 0] : Fin 2 → ℕ) a + S1x32.size a ≤ S500000x32.size a := by
  intro a
  match a with
  | ⟨0, _⟩ => show v.toNat + 1 ≤ 500000; omega
  | ⟨1, _⟩ => show 0 + 32 ≤ 32; omega

end Cert.KernelIdeal.Hand

end
-- ==== Proof.GatherSpec.lean ====
/-
  What the first three regions' scratch holds between the trips of their loop.

  A region at grid point `i` fills a block of 1024 rows, 32 rows a trip over 32 trips.  Row `n` of the
  block is row `X[1024 i + n]` of the table, where `X` is the region's column of index words: the word
  is read as a natural number, capped at the table's last row (on words below 500000 the cap does
  nothing).  Before trip `k` the first `32 k` rows are filled and the rest are as the region found them.
-/
import Idealize.ShloMosaic.PureOps
import Idealize.ShloMosaic.Lib.ValueIdx

noncomputable section

namespace Cert.Gather

open Idealize.ShloMosaic Idealize.ShloMosaic.ValueIdx

/-- The literal shapes: a column of index words, a table, a block of gathered rows. -/
abbrev SCol : Shape := ⟨1, ![131072]⟩
abbrev STbl : Shape := ⟨2, ![500000, 32]⟩
abbrev SBlk : Shape := ⟨2, ![1024, 32]⟩

variable {α : Type}

/-- The table row that row `n` of block `i` is filled from: the index word at position `1024 i + n`, as a natural
    number, capped at the last row. -/
def srcRow (X : SCol.Idx → BitVec 32) (i : Fin 128) (n : Fin 1024) : Fin 500000 :=
  ⟨min (X (ix1 (⟨1024 * i.val + n.val, by omega⟩ : Fin 131072))).toNat 499999, by omega⟩

/-- On a word below 500000 the cap does nothing. -/
theorem srcRow_val (X : SCol.Idx → BitVec 32) (i : Fin 128) (n : Fin 1024)
    (h : (X (ix1 (⟨1024 * i.val + n.val, by omega⟩ : Fin 131072))).toNat < 500000) :
    (srcRow X i n).val = (X (ix1 (⟨1024 * i.val + n.val, by omega⟩ : Fin 131072))).toNat := by
  unfold srcRow; simp only; omega

/-- The block with every row filled: row `n` is the table's row `srcRow X i n`. -/
def filled (X : SCol.Idx → BitVec 32) (u : STbl.Idx → α) (i : Fin 128) : SBlk.Idx → α :=
  fun y => u (ix2 (srcRow X i (y 0)) (y 1))

/-- The block before trip `k`: rows below `32 k` filled, the others as found (`f₀`).  By recursion on the trip, each
    trip filling its 32 rows, so that before the first trip it is `f₀` itself. -/
def gath (X : SCol.Idx → BitVec 32) (u : STbl.Idx → α) (i : Fin 128) (f₀ : SBlk.Idx → α) : ℕ → SBlk.Idx → α
  | 0 => f₀
  | k + 1 => fun y => if 32 * k ≤ (y 0).val ∧ (y 0).val < 32 * k + 32 then filled X u i y else gath X u i f₀ k y

theorem gath_zero (X : SCol.Idx → BitVec 32) (u : STbl.Idx → α) (i : Fin 128) (f₀ : SBlk.Idx → α) :
    gath X u i f₀ 0 = f₀ := rfl

/-- In closed form: a row is filled exactly when it lies below `32 k`. -/
theorem gath_apply (X : SCol.Idx → BitVec 32) (u : STbl.Idx → α) (i : Fin 128) (f₀ : SBlk.Idx → α) (k : ℕ) (y : SBlk.Idx) :
    gath X u i f₀ k y = if (y 0).val < 32 * k then filled X u i y else f₀ y := by
  induction k with
  | zero => simp [gath]
  | succ k ih =>
    simp only [gath, ih]
    by_cases h1 : (y 0).val < 32 * k
    · have : ¬ (32 * k ≤ (y 0).val ∧ (y 0).val < 32 * k + 32) := by omega
      rw [if_neg this, if_pos h1, if_pos (by omega)]
    · by_cases h2 : (y 0).val < 32 * k + 32
      · rw [if_pos ⟨by omega, h2⟩, if_pos (by omega)]
      · rw [if_neg (by omega), if_neg h1, if_neg (by omega)]

/-- After the last of the 32 trips every row is filled, whatever the block held before. -/
theorem gath_last (X : SCol.Idx → BitVec 32) (u : STbl.Idx → α) (i : Fin 128) (f₀ : SBlk.Idx → α) :
    gath X u i f₀ 32 = filled X u i := by
  funext y
  have h : (y 0).val < 1024 := idx2_lt0 y
  rw [gath_apply, if_pos (by omega)]

end Cert.Gather

end
-- ==== Proof.KI.Cells0.lean ====
/-
  The first region's cells: the 32 semaphores of its own that its transfers complete on (the core's 2 to 33),
  their counters, and the table it reads held as one read share for each of them, so that transfers reading the
  same table row do not compete.
-/
import proofs.«423058_j50337016709696_1_alg».proof.Proof.KI.Base
import proofs.«423058_j50337016709696_1_alg».proof.Proof.GatherSpec
import Idealize.ShloMosaic.Lib.Pipeline.FrameBody

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first region's table held for reading: one read share for each of the 32 transfers of a trip, indexed by the
    transfer's semaphore (the region's own semaphores are the core's 2 to 33). -/
abbrev toks0 (c : Dev nD) (f : Bf (F := F) c (Memref.whole main_v3)) : sProp (𝕄K F) :=
  iprop(ptq c (Memref.whole main_v3) (Transfers.shareTokN fullShare 2) f
      ∗ ptq c (Memref.whole main_v3) (Transfers.shareTokN fullShare 3) f
      ∗ ptq c (Memref.whole main_v3) (Transfers.shareTokN fullShare 4) f
      ∗ ptq c (Memref.whole main_v3) (Transfers.shareTokN fullShare 5) f
      ∗ ptq c (Memref.whole main_v3) (Transfers.shareTokN fullShare 6) f
      ∗ ptq c (Memref.whole main_v3) (Transfers.shareTokN fullShare 7) f
      ∗ ptq c (Memref.whole main_v3) (Transfers.shareTokN fullShare 8) f
      ∗ ptq c (Memref.whole main_v3) (Transfers.shareTokN fullShare 9) f
      ∗ ptq c (Memref.whole main_v3) (Transfers.shareTokN fullShare 10) f
      ∗ ptq c (Memref.whole main_v3) (Transfers.shareTokN fullShare 11) f
      ∗ ptq c (Memref.whole main_v3) (Transfers.shareTokN fullShare 12) f
      ∗ ptq c (Memref.whole main_v3) (Transfers.shareTokN fullShare 13) f
      ∗ ptq c (Memref.whole main_v3) (Transfers.shareTokN fullShare 14) f
      ∗ ptq c (Memref.whole main_v3) (Transfers.shareTokN fullShare 15) f
      ∗ ptq c (Memref.whole main_v3) (Transfers.shareTokN fullShare 16) f
      ∗ ptq c (Memref.whole main_v3) (Transfers.shareTokN fullShare 17) f
      ∗ ptq c (Memref.whole main_v3) (Transfers.shareTokN fullShare 18) f
      ∗ ptq c (Memref.whole main_v3) (Transfers.shareTokN fullShare 19) f
      ∗ ptq c (Memref.whole main_v3) (Transfers.shareTokN fullShare 20) f
      ∗ ptq c (Memref.whole main_v3) (Transfers.shareTokN fullShare 21) f
      ∗ ptq c (Memref.whole main_v3) (Transfers.shareTokN fullShare 22) f
      ∗ ptq c (Memref.whole main_v3) (Transfers.shareTokN fullShare 23) f
      ∗ ptq c (Memref.whole main_v3) (Transfers.shareTokN fullShare 24) f
      ∗ ptq c (Memref.whole main_v3) (Transfers.shareTokN fullShare 25) f
      ∗ ptq c (Memref.whole main_v3) (Transfers.shareTokN fullShare 26) f
      ∗ ptq c (Memref.whole main_v3) (Transfers.shareTokN fullShare 27) f
      ∗ ptq c (Memref.whole main_v3) (Transfers.shareTokN fullShare 28) f
      ∗ ptq c (Memref.whole main_v3) (Transfers.shareTokN fullShare 29) f
      ∗ ptq c (Memref.whole main_v3) (Transfers.shareTokN fullShare 30) f
      ∗ ptq c (Memref.whole main_v3) (Transfers.shareTokN fullShare 31) f
      ∗ ptq c (Memref.whole main_v3) (Transfers.shareTokN fullShare 32) f
      ∗ ptq c (Memref.whole main_v3) (Transfers.shareTokN fullShare 33) f)

/-- The first region's 32 semaphores' counters at zero. -/
abbrev sems0 (c : Dev nD) : sProp (𝕄K F) :=
  iprop(semVal ((c : Thread nD τ), (SemLoc.dma 2 : SemLoc sig)) 0
      ∗ semVal ((c : Thread nD τ), (SemLoc.dma 3 : SemLoc sig)) 0
      ∗ semVal ((c : Thread nD τ), (SemLoc.dma 4 : SemLoc sig)) 0
      ∗ semVal ((c : Thread nD τ), (SemLoc.dma 5 : SemLoc sig)) 0
      ∗ semVal ((c : Thread nD τ), (SemLoc.dma 6 : SemLoc sig)) 0
      ∗ semVal ((c : Thread nD τ), (SemLoc.dma 7 : SemLoc sig)) 0
      ∗ semVal ((c : Thread nD τ), (SemLoc.dma 8 : SemLoc sig)) 0
      ∗ semVal ((c : Thread nD τ), (SemLoc.dma 9 : SemLoc sig)) 0
      ∗ semVal ((c : Thread nD τ), (SemLoc.dma 10 : SemLoc sig)) 0
      ∗ semVal ((c : Thread nD τ), (SemLoc.dma 11 : SemLoc sig)) 0
      ∗ semVal ((c : Thread nD τ), (SemLoc.dma 12 : SemLoc sig)) 0
      ∗ semVal ((c : Thread nD τ), (SemLoc.dma 13 : SemLoc sig)) 0
      ∗ semVal ((c : Thread nD τ), (SemLoc.dma 14 : SemLoc sig)) 0
      ∗ semVal ((c : Thread nD τ), (SemLoc.dma 15 : SemLoc sig)) 0
      ∗ semVal ((c : Thread nD τ), (SemLoc.dma 16 : SemLoc sig)) 0
      ∗ semVal ((c : Thread nD τ), (SemLoc.dma 17 : SemLoc sig)) 0
      ∗ semVal ((c : Thread nD τ), (SemLoc.dma 18 : SemLoc sig)) 0
      ∗ semVal ((c : Thread nD τ), (SemLoc.dma 19 : SemLoc sig)) 0
      ∗ semVal ((c : Thread nD τ), (SemLoc.dma 20 : SemLoc sig)) 0
      ∗ semVal ((c : Thread nD τ), (SemLoc.dma 21 : SemLoc sig)) 0
      ∗ semVal ((c : Thread nD τ), (SemLoc.dma 22 : SemLoc sig)) 0
      ∗ semVal ((c : Thread nD τ), (SemLoc.dma 23 : SemLoc sig)) 0
      ∗ semVal ((c : Thread nD τ), (SemLoc.dma 24 : SemLoc sig)) 0
      ∗ semVal ((c : Thread nD τ), (SemLoc.dma 25 : SemLoc sig)) 0
      ∗ semVal ((c : Thread nD τ), (SemLoc.dma 26 : SemLoc sig)) 0
      ∗ semVal ((c : Thread nD τ), (SemLoc.dma 27 : SemLoc sig)) 0
      ∗ semVal ((c : Thread nD τ), (SemLoc.dma 28 : SemLoc sig)) 0
      ∗ semVal ((c : Thread nD τ), (SemLoc.dma 29 : SemLoc sig)) 0
      ∗ semVal ((c : Thread nD τ), (SemLoc.dma 30 : SemLoc sig)) 0
      ∗ semVal ((c : Thread nD τ), (SemLoc.dma 31 : SemLoc sig)) 0
      ∗ semVal ((c : Thread nD τ), (SemLoc.dma 32 : SemLoc sig)) 0
      ∗ semVal ((c : Thread nD τ), (SemLoc.dma 33 : SemLoc sig)) 0)

/-- The grid point as a block number. -/
abbrev blk0 (i : grid0.Coords) : Fin 128 := ⟨(i 0).val, (i 0).isLt⟩

end Cert.KernelIdeal.Hand

end
-- ==== Proof.KI.Rows0.lean ====
/-
  The 32 rows a trip of the first region's loop fills, as one family: transfer `s` of trip `k` goes to row
  `32 k + s` of the scratch.
-/
import proofs.«423058_j50337016709696_1_alg».proof.Proof.KI.Base

noncomputable section

namespace Cert.KernelIdeal.Hand

open Cert.KernelIdeal Cert.KernelIdeal.Gen
open Idealize.ShloMosaic

/-- The offsets the kernel computes for transfer `s`'s destination row at trip `k`. -/
def dstOff0 (k : Fin k0_t1_loop.trips) : Fin 32 → Fin 2 → ℕ
  | ⟨0, _⟩ => k0_off2 k
  | ⟨1, _⟩ => k0_off5 k
  | ⟨2, _⟩ => k0_off8 k
  | ⟨3, _⟩ => k0_off11 k
  | ⟨4, _⟩ => k0_off14 k
  | ⟨5, _⟩ => k0_off17 k
  | ⟨6, _⟩ => k0_off20 k
  | ⟨7, _⟩ => k0_off23 k
  | ⟨8, _⟩ => k0_off26 k
  | ⟨9, _⟩ => k0_off29 k
  | ⟨10, _⟩ => k0_off32 k
  | ⟨11, _⟩ => k0_off35 k
  | ⟨12, _⟩ => k0_off38 k
  | ⟨13, _⟩ => k0_off41 k
  | ⟨14, _⟩ => k0_off44 k
  | ⟨15, _⟩ => k0_off47 k
  | ⟨16, _⟩ => k0_off50 k
  | ⟨17, _⟩ => k0_off53 k
  | ⟨18, _⟩ => k0_off56 k
  | ⟨19, _⟩ => k0_off59 k
  | ⟨20, _⟩ => k0_off62 k
  | ⟨21, _⟩ => k0_off65 k
  | ⟨22, _⟩ => k0_off68 k
  | ⟨23, _⟩ => k0_off71 k
  | ⟨24, _⟩ => k0_off74 k
  | ⟨25, _⟩ => k0_off77 k
  | ⟨26, _⟩ => k0_off80 k
  | ⟨27, _⟩ => k0_off83 k
  | ⟨28, _⟩ => k0_off86 k
  | ⟨29, _⟩ => k0_off89 k
  | ⟨30, _⟩ => k0_off92 k
  | ⟨31, _⟩ => k0_off95 k
  | ⟨_ + 32, h⟩ => absurd h (Nat.not_lt.2 (Nat.le_add_left _ _))

/-- Each row lies inside the block. -/
theorem dstOff0_inb (k : Fin k0_t1_loop.trips) : ∀ (s : Fin 32) (a : Fin 2), dstOff0 k s a + S1x32.size a ≤ S1024x32.size a
  | ⟨0, _⟩ => k0_off2_inb k
  | ⟨1, _⟩ => k0_off5_inb k
  | ⟨2, _⟩ => k0_off8_inb k
  | ⟨3, _⟩ => k0_off11_inb k
  | ⟨4, _⟩ => k0_off14_inb k
  | ⟨5, _⟩ => k0_off17_inb k
  | ⟨6, _⟩ => k0_off20_inb k
  | ⟨7, _⟩ => k0_off23_inb k
  | ⟨8, _⟩ => k0_off26_inb k
  | ⟨9, _⟩ => k0_off29_inb k
  | ⟨10, _⟩ => k0_off32_inb k
  | ⟨11, _⟩ => k0_off35_inb k
  | ⟨12, _⟩ => k0_off38_inb k
  | ⟨13, _⟩ => k0_off41_inb k
  | ⟨14, _⟩ => k0_off44_inb k
  | ⟨15, _⟩ => k0_off47_inb k
  | ⟨16, _⟩ => k0_off50_inb k
  | ⟨17, _⟩ => k0_off53_inb k
  | ⟨18, _⟩ => k0_off56_inb k
  | ⟨19, _⟩ => k0_off59_inb k
  | ⟨20, _⟩ => k0_off62_inb k
  | ⟨21, _⟩ => k0_off65_inb k
  | ⟨22, _⟩ => k0_off68_inb k
  | ⟨23, _⟩ => k0_off71_inb k
  | ⟨24, _⟩ => k0_off74_inb k
  | ⟨25, _⟩ => k0_off77_inb k
  | ⟨26, _⟩ => k0_off80_inb k
  | ⟨27, _⟩ => k0_off83_inb k
  | ⟨28, _⟩ => k0_off86_inb k
  | ⟨29, _⟩ => k0_off89_inb k
  | ⟨30, _⟩ => k0_off92_inb k
  | ⟨31, _⟩ => k0_off95_inb k
  | ⟨_ + 32, h⟩ => absurd h (Nat.not_lt.2 (Nat.le_add_left _ _))

/-- The loop runs 32 trips. -/
theorem trips0 : k0_t1_loop.trips = 32 := by decide

/-- Transfer s of trip k fills row 32 k + s. -/
def dstRow0 (k : Fin k0_t1_loop.trips) (s : Fin 32) : Fin 1024 :=
  ⟨32 * k.val + s.val, by have hk : k.val < 32 := Nat.lt_of_lt_of_eq k.isLt trips0; have := s.isLt; omega⟩

/-- In closed form the offsets of transfer `s` are row `32 k + s`, lane 0. -/
theorem dstOff0_eq (k : Fin k0_t1_loop.trips) : ∀ s : Fin 32, dstOff0 k s = ![(dstRow0 k s).val, 0]
  | ⟨0, _⟩ => k0_off2_eq k
  | ⟨1, _⟩ => k0_off5_eq k
  | ⟨2, _⟩ => k0_off8_eq k
  | ⟨3, _⟩ => k0_off11_eq k
  | ⟨4, _⟩ => k0_off14_eq k
  | ⟨5, _⟩ => k0_off17_eq k
  | ⟨6, _⟩ => k0_off20_eq k
  | ⟨7, _⟩ => k0_off23_eq k
  | ⟨8, _⟩ => k0_off26_eq k
  | ⟨9, _⟩ => k0_off29_eq k
  | ⟨10, _⟩ => k0_off32_eq k
  | ⟨11, _⟩ => k0_off35_eq k
  | ⟨12, _⟩ => k0_off38_eq k
  | ⟨13, _⟩ => k0_off41_eq k
  | ⟨14, _⟩ => k0_off44_eq k
  | ⟨15, _⟩ => k0_off47_eq k
  | ⟨16, _⟩ => k0_off50_eq k
  | ⟨17, _⟩ => k0_off53_eq k
  | ⟨18, _⟩ => k0_off56_eq k
  | ⟨19, _⟩ => k0_off59_eq k
  | ⟨20, _⟩ => k0_off62_eq k
  | ⟨21, _⟩ => k0_off65_eq k
  | ⟨22, _⟩ => k0_off68_eq k
  | ⟨23, _⟩ => k0_off71_eq k
  | ⟨24, _⟩ => k0_off74_eq k
  | ⟨25, _⟩ => k0_off77_eq k
  | ⟨26, _⟩ => k0_off80_eq k
  | ⟨27, _⟩ => k0_off83_eq k
  | ⟨28, _⟩ => k0_off86_eq k
  | ⟨29, _⟩ => k0_off89_eq k
  | ⟨30, _⟩ => k0_off92_eq k
  | ⟨31, _⟩ => k0_off95_eq k
  | ⟨_ + 32, h⟩ => absurd h (Nat.not_lt.2 (Nat.le_add_left _ _))

/-- Different transfers of a trip fill different rows. -/
theorem dstRow0_inj (k : Fin k0_t1_loop.trips) : Function.Injective (dstRow0 k) := by
  intro s s' h
  have h' : 32 * k.val + s.val = 32 * k.val + s'.val := congrArg Fin.val h
  exact Fin.ext (by omega)

end Cert.KernelIdeal.Hand

end
-- ==== Proof.KI.RowWrites.lean ====
/-
  A transfer into one row of a block overwrites that row and nothing else.  Read back as a function of
  (row, lane), the block after a write of the 32 words `p` through the one-row window at row `ρ` is `p` on
  row `ρ` and what it was on every other row.  Then the same for several such writes one after another into
  rows that are all different: a row some write went to holds that write's words, any other row is as before.
-/
import proofs.«423058_j50337016709696_1_alg».proof.Proof.KI.Base
import Idealize.ShloMosaic.Lib.ValueIdx
import Idealize.ShloMosaic.Lib.Writes
import Idealize.ShloMosaic.Signature.View
import Idealize.ShloMosaic.Signature.Memref
import Idealize.ShloMosaic.Shape

set_option maxRecDepth 16384

noncomputable section

namespace Cert.KernelIdeal.Hand

open Cert.KernelIdeal Cert.KernelIdeal.Gen
open Idealize.ShloMosaic

variable {F : FTy → Type} [FloatOps F]

/-- The one-row window at offsets `off` of a block of 1024 rows of 32 lanes, as the kernels name it: the slice of
    one row, its leading axis of size one dropped. -/
abbrev rowWin (sc : Memref sig .tc .vmem S1024x32 .f32) (off : Fin 2 → ℕ) (h : ∀ a, off a + S1x32.size a ≤ S1024x32.size a) :
    Memref sig .tc .vmem S32 .f32 :=
  (sc.slice (Rect.unit (s := S1024x32) off S1x32.size h) (fun _ => rfl)).squeeze S32 squeezes_S1x32_S32

/-- ONE write: the block read back after the words `p` are written through the window at row `ρ`. -/
theorem read_write_row (sc : Memref sig .tc .vmem S1024x32 .f32) (hsc : sc.IsWhole)
    (off : Fin 2 → ℕ) (ρ : Fin 1024) (hoff : off = ![ρ.val, 0]) (h : ∀ a, off a + S1x32.size a ≤ S1024x32.size a)
    (f : sc.view.ty.Contents (Elt F)) (p : S32.Idx → Elt F .f32) :
    sc.view.read (Elt F) (View.write (Elt F) (rowWin sc off h).view f p Finset.univ)
      = fun y => if (y 0).val = ρ.val then p (ValueIdx.ix1 (y 1)) else sc.view.read (Elt F) f y := by
  subst hoff
  funext y
  -- the window is the one-row rectangle of the block, re-indexed by its lane alone
  show sc.view.read (Elt F) (View.write (Elt F)
      ((sc.view.slice (Rect.unit (s := S1024x32) ![ρ.val, 0] S1x32.size h)).reshape S32 squeezes_S1x32_S32.numel_eq) f p Finset.univ) y = _
  rw [View.write_reshape_univ]
  by_cases hy : (y 0).val = ρ.val
  · -- on row `ρ`: the index is the rectangle's own index (0, lane) placed in the block
    rw [if_pos hy]
    have hx : (Rect.unit (s := S1024x32) ![ρ.val, 0] S1x32.size h).emb
        (Fin.cons (⟨0, Nat.one_pos⟩ : Fin 1) (ValueIdx.ix1 (y 1) : S32.Idx)) = y :=
      funext fun a => Fin.ext (by
        match a with
        | ⟨0, _⟩ => show ρ.val + 1 * 0 = (y 0).val; omega
        | ⟨1, _⟩ => show 0 + 1 * (y 1).val = (y 1).val; omega)
    have hw := View.read_slice_write_emb (v := sc.view) (Rect.unit (s := S1024x32) ![ρ.val, 0] S1x32.size h) f
      (fun x => p ((Shape.reshapeEquiv squeezes_S1x32_S32.numel_eq).symm x))
      (Finset.mem_univ (Fin.cons (⟨0, Nat.one_pos⟩ : Fin 1) (ValueIdx.ix1 (y 1) : S32.Idx)))
    rw [hx] at hw
    rw [hw]
    congr 1
    rw [Equiv.symm_apply_eq]
    exact (Shape.reshapeEquiv_cons_one _ _).symm
  · -- off row `ρ`: the index is outside the rectangle, on the row axis
    rw [if_neg hy]
    refine View.read_slice_write_of_not_mem _ _ _ _ ?_
    rw [Rect.map_emb_univ, Rect.mem_set_unit]
    intro hall
    have h0 := hall (0 : Fin 2)
    have e0 : (![ρ.val, 0] : Fin 2 → ℕ) (0 : Fin 2) = ρ.val := rfl
    have e1 : S1x32.size (0 : Fin 2) = 1 := rfl
    rw [e0, e1] at h0
    omega

/-- SEVERAL writes one after another, write `s` through the window at row `ρ s`, the rows all different: the block
    after the first `m` of them. -/
def writeRows (sc : Memref sig .tc .vmem S1024x32 .f32) {n : ℕ} (off : Fin n → Fin 2 → ℕ)
    (h : ∀ s a, off s a + S1x32.size a ≤ S1024x32.size a) (p : Fin n → S32.Idx → Elt F .f32)
    (f : sc.view.ty.Contents (Elt F)) : (m : ℕ) → m ≤ n → sc.view.ty.Contents (Elt F)
  | 0, _ => f
  | m + 1, hm => View.write (Elt F) (rowWin sc (off ⟨m, hm⟩) (h ⟨m, hm⟩)).view (writeRows sc off h p f m (Nat.le_of_succ_le hm)) (p ⟨m, hm⟩) Finset.univ

/-- The rows being all different, the write that went to a given row is determined by the row. -/
theorem choose_row_eq {n : ℕ} (ρ : Fin n → Fin 1024) (hρ : Function.Injective ρ) {m r : ℕ}
    (hy : ∃ s : Fin n, s.val < m ∧ (ρ s).val = r) (s₀ : Fin n) (h₀ : (ρ s₀).val = r) : hy.choose = s₀ :=
  hρ (Fin.ext (hy.choose_spec.2.trans h₀.symm))

/-- Read back: a row that one of the first `m` writes went to holds that write's words; every other row is as before. -/
theorem read_writeRows (sc : Memref sig .tc .vmem S1024x32 .f32) (hsc : sc.IsWhole) {n : ℕ} (off : Fin n → Fin 2 → ℕ)
    (ρ : Fin n → Fin 1024) (hoff : ∀ s, off s = ![(ρ s).val, 0]) (hρ : Function.Injective ρ)
    (h : ∀ s a, off s a + S1x32.size a ≤ S1024x32.size a) (p : Fin n → S32.Idx → Elt F .f32)
    (f : sc.view.ty.Contents (Elt F)) (m : ℕ) (hm : m ≤ n) (y : S1024x32.Idx) :
    sc.view.read (Elt F) (writeRows sc off h p f m hm) y
      = if hy : ∃ s : Fin n, s.val < m ∧ (ρ s).val = (y 0).val then p hy.choose (ValueIdx.ix1 (y 1))
        else sc.view.read (Elt F) f y := by
  induction m with
  | zero =>
    -- no write yet: the block is as it was
    rw [dif_neg (fun ⟨_, hs, _⟩ => Nat.not_lt_zero _ hs)]
    rfl
  | succ m ih =>
    have hm' : m ≤ n := Nat.le_of_succ_le hm
    -- the newest write is one write through the window at row `ρ m`, over the first `m`
    show sc.view.read (Elt F) (View.write (Elt F) (rowWin sc (off ⟨m, hm⟩) (h ⟨m, hm⟩)).view
        (writeRows sc off h p f m hm') (p ⟨m, hm⟩) Finset.univ) y = _
    rw [read_write_row sc hsc (off ⟨m, hm⟩) (ρ ⟨m, hm⟩) (hoff ⟨m, hm⟩) (h ⟨m, hm⟩)]
    show (if (y 0).val = (ρ ⟨m, hm⟩).val then p ⟨m, hm⟩ (ValueIdx.ix1 (y 1))
        else sc.view.read (Elt F) (writeRows sc off h p f m hm') y) = _
    by_cases hr : (y 0).val = (ρ ⟨m, hm⟩).val
    · -- its own row: it is the write that went there
      have hy : ∃ s : Fin n, s.val < m + 1 ∧ (ρ s).val = (y 0).val := ⟨⟨m, hm⟩, Nat.lt_succ_self m, hr.symm⟩
      rw [if_pos hr, dif_pos hy, choose_row_eq ρ hρ hy ⟨m, hm⟩ hr.symm]
    · -- another row: as the first `m` writes left it, and the newest write is not among those that went there
      rw [if_neg hr, ih hm']
      by_cases hy : ∃ s : Fin n, s.val < m ∧ (ρ s).val = (y 0).val
      · obtain ⟨s, hs, hs'⟩ := id hy
        have hy1 : ∃ s : Fin n, s.val < m + 1 ∧ (ρ s).val = (y 0).val := ⟨s, Nat.lt_succ_of_lt hs, hs'⟩
        rw [dif_pos hy, dif_pos hy1, choose_row_eq ρ hρ hy s hs', choose_row_eq ρ hρ hy1 s hs']
      · have hy1 : ¬ ∃ s : Fin n, s.val < m + 1 ∧ (ρ s).val = (y 0).val := by
          rintro ⟨s, hs, hs'⟩
          rcases Nat.lt_succ_iff_lt_or_eq.mp hs with hlt | heq
          · exact hy ⟨s, hlt, hs'⟩
          · have es : s = ⟨m, hm⟩ := Fin.ext heq
            rw [es] at hs'
            exact hr hs'.symm
        rw [dif_neg hy, dif_neg hy1]

/-! ## Consequences at one row -/

section Corollaries

variable (sc : Memref sig .tc .vmem S1024x32 .f32) (hsc : sc.IsWhole) {n : ℕ} (off : Fin n → Fin 2 → ℕ)
  (ρ : Fin n → Fin 1024) (hoff : ∀ s, off s = ![(ρ s).val, 0]) (hρ : Function.Injective ρ)
  (h : ∀ s a, off s a + S1x32.size a ≤ S1024x32.size a) (p : Fin n → S32.Idx → Elt F .f32)
  (f : sc.view.ty.Contents (Elt F))

include hsc hoff hρ

/-- A row that write `s`, one of the first `m`, went to holds that write's words. -/
theorem read_writeRows_of_row (m : ℕ) (hm : m ≤ n) (s : Fin n) (hs : s.val < m) (y : S1024x32.Idx)
    (hy : (ρ s).val = (y 0).val) :
    sc.view.read (Elt F) (writeRows sc off h p f m hm) y = p s (ValueIdx.ix1 (y 1)) := by
  have he : ∃ s : Fin n, s.val < m ∧ (ρ s).val = (y 0).val := ⟨s, hs, hy⟩
  rw [read_writeRows sc hsc off ρ hoff hρ h p f m hm y, dif_pos he, choose_row_eq ρ hρ he s hy]

/-- A row that none of the first `m` writes went to is as before. -/
theorem read_writeRows_of_not_row (m : ℕ) (hm : m ≤ n) (y : S1024x32.Idx)
    (hy : ∀ s : Fin n, s.val < m → (ρ s).val ≠ (y 0).val) :
    sc.view.read (Elt F) (writeRows sc off h p f m hm) y = sc.view.read (Elt F) f y := by
  rw [read_writeRows sc hsc off ρ hoff hρ h p f m hm y, dif_neg (fun ⟨s, hs, hs'⟩ => hy s hs hs')]

/-- ROWS AGREE: once write `s` is among the writes made, the row it went to reads the same however many more are made. -/
theorem read_writeRows_agree (m m' : ℕ) (hm : m ≤ n) (hm' : m' ≤ n) (s : Fin n) (hs : s.val < m) (hs' : s.val < m')
    (y : S1024x32.Idx) (hy : (ρ s).val = (y 0).val) :
    sc.view.read (Elt F) (writeRows sc off h p f m hm) y = sc.view.read (Elt F) (writeRows sc off h p f m' hm') y := by
  rw [read_writeRows_of_row sc hsc off ρ hoff hρ h p f m hm s hs y hy,
    read_writeRows_of_row sc hsc off ρ hoff hρ h p f m' hm' s hs' y hy]

/-- The same on the buffer itself: under the window at row `ρ s` the two contents are equal element by element. -/
theorem writeRows_agree_on_row (m m' : ℕ) (hm : m ≤ n) (hm' : m' ≤ n) (s : Fin n) (hs : s.val < m) (hs' : s.val < m') :
    ∀ i ∈ (rowWin sc (off s) (h s)).view.set, writeRows sc off h p f m hm i = writeRows sc off h p f m' hm' i := by
  intro i hi
  -- an element under the window is an element of the block whose row is `ρ s`
  have hi' : i ∈ (Rect.unit (s := S1024x32) (off s) S1x32.size (h s)).set.map sc.view.emb := by
    change i ∈ ((sc.view.slice (Rect.unit (s := S1024x32) (off s) S1x32.size (h s))).reshape S32
      squeezes_S1x32_S32.numel_eq).set at hi
    rw [View.set_reshape, View.set_slice] at hi
    exact hi
  obtain ⟨y, hyR, rfl⟩ := Finset.mem_map.mp hi'
  rw [Rect.mem_set_unit] at hyR
  have h0 := hyR (0 : Fin 2)
  have e0 : off s (0 : Fin 2) = (ρ s).val := by rw [hoff s]; rfl
  have e1 : S1x32.size (0 : Fin 2) = 1 := rfl
  rw [e0, e1] at h0
  have hrow : (ρ s).val = (y 0).val := by omega
  -- there the two contents read the same, and reading is the element itself up to the type of its words
  have hr := read_writeRows_agree sc hsc off ρ hoff hρ h p f m m' hm hm' s hs hs' y hrow
  rw [View.read_apply, View.read_apply] at hr
  exact (cast_inj _).mp hr

end Corollaries

end Cert.KernelIdeal.Hand

end
-- ==== Proof.KI.ReadRow.lean ====
/-
  Reading one row of the table.  Each transfer's source is the one-row window of the table at the row its index
  word names; read through that window, the table gives exactly that row, lane by lane.  And two one-row windows
  of the scratch at different rows share no element, which is what lets 32 transfers into 32 different rows be in
  flight at once and be put back one by one.
-/
import proofs.«423058_j50337016709696_1_alg».proof.Proof.KI.Base
import Idealize.ShloMosaic.Lib.ValueIdx
import Idealize.ShloMosaic.Signature.View
import Idealize.ShloMosaic.Signature.Memref
import Idealize.ShloMosaic.Signature.Eff
import Idealize.ShloMosaic.Shape
import proofs.«423058_j50337016709696_1_alg».proof.Proof.KI.RowWrites

noncomputable section

namespace Cert.KernelIdeal.Hand

open Cert.KernelIdeal Cert.KernelIdeal.Gen
open Idealize.ShloMosaic

variable {F : FTy → Type} [FloatOps F]

/-- The one-row window at offsets `off` of a table of 500000 rows of 32 lanes, as the kernels name it. -/
abbrev tblRowWin (tb : Memref sig .tc .hbm S500000x32 .f32) (off : Fin 2 → ℕ) (h : ∀ a, off a + S1x32.size a ≤ S500000x32.size a) :
    Memref sig .tc .hbm S32 .f32 :=
  (tb.slice (Rect.unit (s := S500000x32) off S1x32.size h) (fun _ => rfl)).squeeze S32 squeezes_S1x32_S32

/-- Read through the window at row `ρ`, the table gives its row `ρ`. -/
theorem read_tblRow (tb : Memref sig .tc .hbm S500000x32 .f32) (off : Fin 2 → ℕ) (ρ : Fin 500000) (hoff : off = ![ρ.val, 0])
    (h : ∀ a, off a + S1x32.size a ≤ S500000x32.size a) (g : tb.view.ty.Contents (Elt F)) :
    View.read (Elt F) (tblRowWin tb off h).view g = fun l => tb.view.read (Elt F) g (ValueIdx.ix2 ρ (l 0)) := by
  subst hoff
  funext l
  -- lane `l` of the window sits in the table at the rectangle's own index (0, l), placed at row `ρ`
  have he : (tblRowWin tb ![ρ.val, 0] h).view.emb l = tb.view.emb (ValueIdx.ix2 ρ (l 0)) := by
    show tb.view.emb ((Rect.unit (s := S500000x32) ![ρ.val, 0] S1x32.size h).emb
      (Shape.reshapeEquiv squeezes_S1x32_S32.numel_eq l)) = _
    congr 1
    rw [Shape.reshapeEquiv_cons_one]
    funext a
    refine Fin.ext ?_
    match a with
    | ⟨0, _⟩ => show ρ.val + 1 * 0 = ρ.val; omega
    | ⟨1, _⟩ => show 0 + 1 * (l 0).val = (l 0).val; omega
  rw [View.read_apply, View.read_apply, he]

/-- The values a transfer from that window moves, taken as they are: row `ρ` of the table. -/
theorem readAs_same_tblRow (tb : Memref sig .tc .hbm S500000x32 .f32) (off : Fin 2 → ℕ) (ρ : Fin 500000) (hoff : off = ![ρ.val, 0])
    (h : ∀ a, off a + S1x32.size a ≤ S500000x32.size a) (g : tb.view.ty.Contents (Elt F)) :
    (ReadAs.same : ReadAs (Elt F) S32 .f32 S32 .f32).apply (View.read (Elt F) (tblRowWin tb off h).view g)
      = fun l => tb.view.read (Elt F) g (ValueIdx.ix2 ρ (l 0)) := by
  rw [ReadAs.apply_same]
  exact read_tblRow tb off ρ hoff h g

/-! ## One-row windows of the scratch at different rows -/

/-- The elements under a one-row window: the block's elements in the one-row rectangle at its offsets. -/
theorem rowWin_set (sc : Memref sig .tc .vmem S1024x32 .f32) (off : Fin 2 → ℕ) (h : ∀ a, off a + S1x32.size a ≤ S1024x32.size a) :
    (rowWin sc off h).view.set = (Rect.unit (s := S1024x32) off S1x32.size h).set.map sc.view.emb := by
  show ((sc.view.slice (Rect.unit (s := S1024x32) off S1x32.size h)).reshape S32 squeezes_S1x32_S32.numel_eq).set = _
  rw [View.set_reshape, View.set_slice]

/-- Windows at different rows share no element: their rectangles are apart on the row axis. -/
theorem rowWin_disjoint (sc : Memref sig .tc .vmem S1024x32 .f32) (off off' : Fin 2 → ℕ) (ρ ρ' : Fin 1024)
    (hoff : off = ![ρ.val, 0]) (hoff' : off' = ![ρ'.val, 0]) (hne : ρ ≠ ρ')
    (h : ∀ a, off a + S1x32.size a ≤ S1024x32.size a) (h' : ∀ a, off' a + S1x32.size a ≤ S1024x32.size a) :
    Disjoint (rowWin sc off h).view.set (rowWin sc off' h').view.set := by
  subst hoff hoff'
  rw [rowWin_set, rowWin_set, Finset.disjoint_map]
  refine Rect.unit_disjoint (0 : Fin 2) ?_
  show ρ.val + 1 ≤ ρ'.val ∨ ρ'.val + 1 ≤ ρ.val
  have hv : ρ.val ≠ ρ'.val := fun e => hne (Fin.ext e)
  omega

/-- ONE STEP of a chain: a window inside `S` is inside `S` less a window at another row. -/
theorem rowWin_subset_sdiff (sc : Memref sig .tc .vmem S1024x32 .f32) (off off' : Fin 2 → ℕ) (ρ ρ' : Fin 1024)
    (hoff : off = ![ρ.val, 0]) (hoff' : off' = ![ρ'.val, 0]) (hne : ρ ≠ ρ')
    (h : ∀ a, off a + S1x32.size a ≤ S1024x32.size a) (h' : ∀ a, off' a + S1x32.size a ≤ S1024x32.size a)
    {S : Finset sc.view.ty.Idx} (hS : (rowWin sc off h).view.set ⊆ S) :
    (rowWin sc off h).view.set ⊆ S \ (rowWin sc off' h').view.set :=
  Finset.subset_sdiff.mpr ⟨hS, rowWin_disjoint sc off off' ρ ρ' hoff hoff' hne h h'⟩

/-- A set inside `S` and apart from every set of a list is inside `S` less them all, taken off one after another. -/
theorem subset_foldl_sdiff {α : Type} [DecidableEq α] (W : Finset α) :
    ∀ (L : List (Finset α)) (S : Finset α), W ⊆ S → (∀ V ∈ L, Disjoint W V) → W ⊆ L.foldl (· \ ·) S
  | [], _, hS, _ => hS
  | V :: L, S, hS, hL =>
    subset_foldl_sdiff W L (S \ V) (Finset.subset_sdiff.mpr ⟨hS, hL V List.mem_cons_self⟩)
      (fun V' hV' => hL V' (List.mem_cons_of_mem _ hV'))

section Chain

variable (sc : Memref sig .tc .vmem S1024x32 .f32) {n : ℕ} (off : Fin n → Fin 2 → ℕ)
  (ρ : Fin n → Fin 1024) (hoff : ∀ s, off s = ![(ρ s).val, 0]) (hρ : Function.Injective ρ)
  (h : ∀ s a, off s a + S1x32.size a ≤ S1024x32.size a)

include hoff hρ

/-- A CHAIN: of several windows at rows all different, window `r` inside `S` is inside `S` less the windows `ks`, taken off
    one after another, when `r` is none of them. -/
theorem rowWin_subset_sdiff_list (r : Fin n) (ks : List (Fin n)) (hks : ∀ k ∈ ks, k ≠ r)
    {S : Finset sc.view.ty.Idx} (hS : (rowWin sc (off r) (h r)).view.set ⊆ S) :
    (rowWin sc (off r) (h r)).view.set
      ⊆ (ks.map fun k => ((rowWin sc (off k) (h k)).view.set : Finset sc.view.ty.Idx)).foldl (· \ ·) S := by
  refine subset_foldl_sdiff _ _ S hS ?_
  intro V hV
  obtain ⟨k, hk, rfl⟩ := List.mem_map.mp hV
  exact rowWin_disjoint sc (off r) (off k) (ρ r) (ρ k) (hoff r) (hoff k)
    (fun e => hks k hk (hρ e).symm) (h r) (h k)

/-- The same from every element of the block. -/
theorem rowWin_subset_univ_sdiff_list (r : Fin n) (ks : List (Fin n)) (hks : ∀ k ∈ ks, k ≠ r) :
    (rowWin sc (off r) (h r)).view.set
      ⊆ (ks.map fun k => ((rowWin sc (off k) (h k)).view.set : Finset sc.view.ty.Idx)).foldl (· \ ·) Finset.univ :=
  rowWin_subset_sdiff_list sc off ρ hoff hρ h r ks hks (Finset.subset_univ _)

end Chain

end Cert.KernelIdeal.Hand

end
-- ==== Proof.KI.Rejoin.lean ====
/-
  The scratch put back together after a trip.  A trip's 32 transfers each fill one row; when they have all
  landed, the 16 rows filled first are held apart from the rest of the block, each at what the block held
  right after that row was filled.  Later transfers went to other rows, so on its own row each of those
  agrees with the block's final contents, and the 16 rows and the rest are the whole block at those contents.
-/
import proofs.«423058_j50337016709696_1_alg».proof.Proof.KI.ReadRow

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- ONE row brought to the final contents: on the row of write `s`, the block after `m` writes (`s < m`) and the block
    after all 32 agree, so the row held at the former is held at the latter. -/
theorem window_final (c : Dev nD) (sc : Memref sig .tc .vmem S1024x32 .f32) (hsc : sc.IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32) (f : sc.view.ty.Contents (Elt F))
    (s : Fin 32) (m : ℕ) (hm : m ≤ 32) (hs : s.val < m) :
    (sc.view.loc (c : Thread nD τ) ↦[(rowWin sc (off s) (h s)).view.set]{fullShare} writeRows sc off h p f m hm : sProp (𝕄K F))
      = (sc.view.loc (c : Thread nD τ) ↦[(rowWin sc (off s) (h s)).view.set]{fullShare} writeRows sc off h p f 32 (le_refl _)) :=
  pointsTo_congr (writeRows_agree_on_row sc hsc off ρ hoff hρ h p f m 32 hm (le_refl _) s hs s.isLt)

/-- The same as an entailment: the row held at the earlier contents is held at the final ones. -/
theorem window_final_le (c : Dev nD) (sc : Memref sig .tc .vmem S1024x32 .f32) (hsc : sc.IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32) (f : sc.view.ty.Contents (Elt F))
    (s : Fin 32) (m : ℕ) (hm : m ≤ 32) (hs : s.val < m) :
    (sc.view.loc (c : Thread nD τ) ↦[(rowWin sc (off s) (h s)).view.set]{fullShare} writeRows sc off h p f m hm : sProp (𝕄K F))
      ⊢ (sc.view.loc (c : Thread nD τ) ↦[(rowWin sc (off s) (h s)).view.set]{fullShare} writeRows sc off h p f 32 (le_refl _)) := by
  rw [window_final c sc hsc off ρ hoff hρ h p f s m hm hs]

-- sixteen rows are put back one after another, each into a set written as up to fifteen nested differences
set_option maxHeartbeats 4000000 in
/-- The rest of the block at its final contents and the 16 rows filled first, each at what the block held then, are
    the whole block at its final contents. -/
theorem rejoin16 (c : Dev nD) (sc : Memref sig .tc .vmem S1024x32 .f32) (hsc : sc.IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32) (f : sc.view.ty.Contents (Elt F)) :
    (iprop((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega))) : sProp (𝕄K F))
      ⊢ sc.view.loc (c : Thread nD τ) ↦{fullShare} writeRows sc off h p f 32 (le_refl _) := by
  have hI0 : (rowWin sc (off 0) (h 0)).view.set ⊆ Finset.univ :=
    rowWin_subset_univ_sdiff_list sc off ρ hoff hρ h 0 [] (by decide)
  have hI1 : (rowWin sc (off 1) (h 1)).view.set ⊆ (Finset.univ \ (rowWin sc (off 0) (h 0)).view.set) :=
    rowWin_subset_univ_sdiff_list sc off ρ hoff hρ h 1 [0] (by decide)
  have hI2 : (rowWin sc (off 2) (h 2)).view.set ⊆ ((Finset.univ \ (rowWin sc (off 0) (h 0)).view.set) \ (rowWin sc (off 1) (h 1)).view.set) :=
    rowWin_subset_univ_sdiff_list sc off ρ hoff hρ h 2 [0, 1] (by decide)
  have hI3 : (rowWin sc (off 3) (h 3)).view.set ⊆ (((Finset.univ \ (rowWin sc (off 0) (h 0)).view.set) \ (rowWin sc (off 1) (h 1)).view.set) \ (rowWin sc (off 2) (h 2)).view.set) :=
    rowWin_subset_univ_sdiff_list sc off ρ hoff hρ h 3 [0, 1, 2] (by decide)
  have hI4 : (rowWin sc (off 4) (h 4)).view.set ⊆ ((((Finset.univ \ (rowWin sc (off 0) (h 0)).view.set) \ (rowWin sc (off 1) (h 1)).view.set) \ (rowWin sc (off 2) (h 2)).view.set) \ (rowWin sc (off 3) (h 3)).view.set) :=
    rowWin_subset_univ_sdiff_list sc off ρ hoff hρ h 4 [0, 1, 2, 3] (by decide)
  have hI5 : (rowWin sc (off 5) (h 5)).view.set ⊆ (((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) :=
    rowWin_subset_univ_sdiff_list sc off ρ hoff hρ h 5 [0, 1, 2, 3, 4] (by decide)
  have hI6 : (rowWin sc (off 6) (h 6)).view.set ⊆ ((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) :=
    rowWin_subset_univ_sdiff_list sc off ρ hoff hρ h 6 [0, 1, 2, 3, 4, 5] (by decide)
  have hI7 : (rowWin sc (off 7) (h 7)).view.set ⊆ (((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) :=
    rowWin_subset_univ_sdiff_list sc off ρ hoff hρ h 7 [0, 1, 2, 3, 4, 5, 6] (by decide)
  have hI8 : (rowWin sc (off 8) (h 8)).view.set ⊆ ((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) :=
    rowWin_subset_univ_sdiff_list sc off ρ hoff hρ h 8 [0, 1, 2, 3, 4, 5, 6, 7] (by decide)
  have hI9 : (rowWin sc (off 9) (h 9)).view.set ⊆ (((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) :=
    rowWin_subset_univ_sdiff_list sc off ρ hoff hρ h 9 [0, 1, 2, 3, 4, 5, 6, 7, 8] (by decide)
  have hI10 : (rowWin sc (off 10) (h 10)).view.set ⊆ ((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) :=
    rowWin_subset_univ_sdiff_list sc off ρ hoff hρ h 10 [0, 1, 2, 3, 4, 5, 6, 7, 8, 9] (by decide)
  have hI11 : (rowWin sc (off 11) (h 11)).view.set ⊆ (((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) :=
    rowWin_subset_univ_sdiff_list sc off ρ hoff hρ h 11 [0, 1, 2, 3, 4, 5, 6, 7, 8, 9, 10] (by decide)
  have hI12 : (rowWin sc (off 12) (h 12)).view.set ⊆ ((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) :=
    rowWin_subset_univ_sdiff_list sc off ρ hoff hρ h 12 [0, 1, 2, 3, 4, 5, 6, 7, 8, 9, 10, 11] (by decide)
  have hI13 : (rowWin sc (off 13) (h 13)).view.set ⊆ (((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) :=
    rowWin_subset_univ_sdiff_list sc off ρ hoff hρ h 13 [0, 1, 2, 3, 4, 5, 6, 7, 8, 9, 10, 11, 12] (by decide)
  have hI14 : (rowWin sc (off 14) (h 14)).view.set ⊆ ((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) :=
    rowWin_subset_univ_sdiff_list sc off ρ hoff hρ h 14 [0, 1, 2, 3, 4, 5, 6, 7, 8, 9, 10, 11, 12, 13] (by decide)
  have hI15 : (rowWin sc (off 15) (h 15)).view.set ⊆ (((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) :=
    rowWin_subset_univ_sdiff_list sc off ρ hoff hρ h 15 [0, 1, 2, 3, 4, 5, 6, 7, 8, 9, 10, 11, 12, 13, 14] (by decide)
  iintro ⟨Hs, Hw0, Hw1, Hw2, Hw3, Hw4, Hw5, Hw6, Hw7, Hw8, Hw9, Hw10, Hw11, Hw12, Hw13, Hw14, Hw15⟩
  ihave Hw0 := (window_final_le c sc hsc off ρ hoff hρ h p f 0 1 _ (by decide)) $$ Hw0
  ihave Hw1 := (window_final_le c sc hsc off ρ hoff hρ h p f 1 2 _ (by decide)) $$ Hw1
  ihave Hw2 := (window_final_le c sc hsc off ρ hoff hρ h p f 2 3 _ (by decide)) $$ Hw2
  ihave Hw3 := (window_final_le c sc hsc off ρ hoff hρ h p f 3 4 _ (by decide)) $$ Hw3
  ihave Hw4 := (window_final_le c sc hsc off ρ hoff hρ h p f 4 5 _ (by decide)) $$ Hw4
  ihave Hw5 := (window_final_le c sc hsc off ρ hoff hρ h p f 5 6 _ (by decide)) $$ Hw5
  ihave Hw6 := (window_final_le c sc hsc off ρ hoff hρ h p f 6 7 _ (by decide)) $$ Hw6
  ihave Hw7 := (window_final_le c sc hsc off ρ hoff hρ h p f 7 8 _ (by decide)) $$ Hw7
  ihave Hw8 := (window_final_le c sc hsc off ρ hoff hρ h p f 8 9 _ (by decide)) $$ Hw8
  ihave Hw9 := (window_final_le c sc hsc off ρ hoff hρ h p f 9 10 _ (by decide)) $$ Hw9
  ihave Hw10 := (window_final_le c sc hsc off ρ hoff hρ h p f 10 11 _ (by decide)) $$ Hw10
  ihave Hw11 := (window_final_le c sc hsc off ρ hoff hρ h p f 11 12 _ (by decide)) $$ Hw11
  ihave Hw12 := (window_final_le c sc hsc off ρ hoff hρ h p f 12 13 _ (by decide)) $$ Hw12
  ihave Hw13 := (window_final_le c sc hsc off ρ hoff hρ h p f 13 14 _ (by decide)) $$ Hw13
  ihave Hw14 := (window_final_le c sc hsc off ρ hoff hρ h p f 14 15 _ (by decide)) $$ Hw14
  ihave Hw15 := (window_final_le c sc hsc off ρ hoff hρ h p f 15 16 _ (by decide)) $$ Hw15
  ihave Hs := (pointsTo_split_subset (ℓ := sc.view.loc (c : Thread nD τ)) (q := fullShare) (f := writeRows sc off h p f 32 (le_refl _)) hI15).2 $$ [Hw15 Hs]
  · isplitl [Hw15] <;> iassumption
  ihave Hs := (pointsTo_split_subset (ℓ := sc.view.loc (c : Thread nD τ)) (q := fullShare) (f := writeRows sc off h p f 32 (le_refl _)) hI14).2 $$ [Hw14 Hs]
  · isplitl [Hw14] <;> iassumption
  ihave Hs := (pointsTo_split_subset (ℓ := sc.view.loc (c : Thread nD τ)) (q := fullShare) (f := writeRows sc off h p f 32 (le_refl _)) hI13).2 $$ [Hw13 Hs]
  · isplitl [Hw13] <;> iassumption
  ihave Hs := (pointsTo_split_subset (ℓ := sc.view.loc (c : Thread nD τ)) (q := fullShare) (f := writeRows sc off h p f 32 (le_refl _)) hI12).2 $$ [Hw12 Hs]
  · isplitl [Hw12] <;> iassumption
  ihave Hs := (pointsTo_split_subset (ℓ := sc.view.loc (c : Thread nD τ)) (q := fullShare) (f := writeRows sc off h p f 32 (le_refl _)) hI11).2 $$ [Hw11 Hs]
  · isplitl [Hw11] <;> iassumption
  ihave Hs := (pointsTo_split_subset (ℓ := sc.view.loc (c : Thread nD τ)) (q := fullShare) (f := writeRows sc off h p f 32 (le_refl _)) hI10).2 $$ [Hw10 Hs]
  · isplitl [Hw10] <;> iassumption
  ihave Hs := (pointsTo_split_subset (ℓ := sc.view.loc (c : Thread nD τ)) (q := fullShare) (f := writeRows sc off h p f 32 (le_refl _)) hI9).2 $$ [Hw9 Hs]
  · isplitl [Hw9] <;> iassumption
  ihave Hs := (pointsTo_split_subset (ℓ := sc.view.loc (c : Thread nD τ)) (q := fullShare) (f := writeRows sc off h p f 32 (le_refl _)) hI8).2 $$ [Hw8 Hs]
  · isplitl [Hw8] <;> iassumption
  ihave Hs := (pointsTo_split_subset (ℓ := sc.view.loc (c : Thread nD τ)) (q := fullShare) (f := writeRows sc off h p f 32 (le_refl _)) hI7).2 $$ [Hw7 Hs]
  · isplitl [Hw7] <;> iassumption
  ihave Hs := (pointsTo_split_subset (ℓ := sc.view.loc (c : Thread nD τ)) (q := fullShare) (f := writeRows sc off h p f 32 (le_refl _)) hI6).2 $$ [Hw6 Hs]
  · isplitl [Hw6] <;> iassumption
  ihave Hs := (pointsTo_split_subset (ℓ := sc.view.loc (c : Thread nD τ)) (q := fullShare) (f := writeRows sc off h p f 32 (le_refl _)) hI5).2 $$ [Hw5 Hs]
  · isplitl [Hw5] <;> iassumption
  ihave Hs := (pointsTo_split_subset (ℓ := sc.view.loc (c : Thread nD τ)) (q := fullShare) (f := writeRows sc off h p f 32 (le_refl _)) hI4).2 $$ [Hw4 Hs]
  · isplitl [Hw4] <;> iassumption
  ihave Hs := (pointsTo_split_subset (ℓ := sc.view.loc (c : Thread nD τ)) (q := fullShare) (f := writeRows sc off h p f 32 (le_refl _)) hI3).2 $$ [Hw3 Hs]
  · isplitl [Hw3] <;> iassumption
  ihave Hs := (pointsTo_split_subset (ℓ := sc.view.loc (c : Thread nD τ)) (q := fullShare) (f := writeRows sc off h p f 32 (le_refl _)) hI2).2 $$ [Hw2 Hs]
  · isplitl [Hw2] <;> iassumption
  ihave Hs := (pointsTo_split_subset (ℓ := sc.view.loc (c : Thread nD τ)) (q := fullShare) (f := writeRows sc off h p f 32 (le_refl _)) hI1).2 $$ [Hw1 Hs]
  · isplitl [Hw1] <;> iassumption
  ihave Hs := (pointsTo_split_subset (ℓ := sc.view.loc (c : Thread nD τ)) (q := fullShare) (f := writeRows sc off h p f 32 (le_refl _)) hI0).2 $$ [Hw0 Hs]
  · isplitl [Hw0] <;> iassumption
  iexact Hs

end Cert.KernelIdeal.Hand

end
-- ==== Proof.KI.GathStep.lean ====
/-
  One trip's effect on the scratch, as a function of (row, lane).  If the scratch reads as the block with rows
  below `32 k` filled, and 32 rows `32 k` to `32 k + 31` are then written, row `32 k + s` with the table row that the
  block's index word at that position names, it reads as the block with rows below `32 (k + 1)` filled.
-/
import proofs.«423058_j50337016709696_1_alg».proof.Proof.KI.RowWrites
import proofs.«423058_j50337016709696_1_alg».proof.Proof.GatherSpec

noncomputable section

namespace Cert.KernelIdeal.Hand

open Cert.KernelIdeal Cert.KernelIdeal.Gen
open Idealize.ShloMosaic

variable {F : FTy → Type} [FloatOps F]

theorem gath_step (sc : Memref sig .tc .vmem S1024x32 .f32) (hsc : sc.IsWhole)
    (X : S131072.Idx → Elt F .i32) (u : S500000x32.Idx → Elt F .f32) (i : Fin 128) (f₀ : S1024x32.Idx → Elt F .f32)
    (k : ℕ) (hk : k < 32)
    (off : Fin 32 → Fin 2 → ℕ) (ρ : Fin 32 → Fin 1024) (hoff : ∀ s, off s = ![(ρ s).val, 0]) (hρ : Function.Injective ρ)
    (hrow : ∀ s : Fin 32, (ρ s).val = 32 * k + s.val)
    (h : ∀ s a, off s a + S1x32.size a ≤ S1024x32.size a)
    (p : Fin 32 → S32.Idx → Elt F .f32)
    (hp : ∀ (s : Fin 32) (l : S32.Idx), p s l = u (ValueIdx.ix2 (Cert.Gather.srcRow X i (ρ s)) (l 0)))
    (fs : sc.view.ty.Contents (Elt F)) (hfs : sc.view.read (Elt F) fs = Cert.Gather.gath X u i f₀ k) :
    sc.view.read (Elt F) (writeRows sc off h p fs 32 (le_refl _)) = Cert.Gather.gath X u i f₀ (k + 1) := by
  funext y
  have hy0 : (y 0).val < 1024 := ValueIdx.idx2_lt0 y
  -- after the trip a row is filled if it is one of the trip's 32, else as before the trip
  show _ = (if 32 * k ≤ (y 0).val ∧ (y 0).val < 32 * k + 32 then Cert.Gather.filled X u i y
      else Cert.Gather.gath X u i f₀ k y)
  by_cases hin : 32 * k ≤ (y 0).val ∧ (y 0).val < 32 * k + 32
  · -- one of the trip's rows: write `s = row − 32 k` went there, and its words are the table row that row names
    rw [if_pos hin]
    have hs : (y 0).val - 32 * k < 32 := by omega
    have hys : (ρ ⟨(y 0).val - 32 * k, hs⟩).val = (y 0).val := by
      rw [hrow]
      show 32 * k + ((y 0).val - 32 * k) = (y 0).val
      omega
    rw [read_writeRows_of_row sc hsc off ρ hoff hρ h p fs 32 (le_refl _) ⟨(y 0).val - 32 * k, hs⟩ hs y hys, hp]
    have e : ρ ⟨(y 0).val - 32 * k, hs⟩ = y 0 := Fin.ext hys
    rw [e]
    rfl
  · -- another row: no write of the trip went there, so it is as before the trip
    rw [if_neg hin]
    rw [read_writeRows_of_not_row sc hsc off ρ hoff hρ h p fs 32 (le_refl _) y
      (fun s _ e => hin (by rw [hrow] at e; have := s.isLt; omega)), hfs]

end Cert.KernelIdeal.Hand

end
-- ==== Proof.KI.Payload.lean ====
/-
  What one transfer carries.  Transfer `s` of trip `k` at grid point `i` reads the index word at position
  `1024 i + 32 k + s` of the column, takes it as a row number of the table, and carries that row: the row
  the specification fills row `32 k + s` of block `i` from.
-/
import proofs.«423058_j50337016709696_1_alg».proof.Proof.KI.ReadRow
import proofs.«423058_j50337016709696_1_alg».proof.Proof.KI.Rows0
import proofs.«423058_j50337016709696_1_alg».proof.Proof.GatherSpec
import Idealize.ShloMosaic.Lib.WholeRead

noncomputable section

namespace Cert.KernelIdeal.Hand

open Cert.KernelIdeal Cert.KernelIdeal.Gen
open Idealize.ShloMosaic

variable {F : FTy → Type} [FloatOps F]

/-- For any column `col` of index words and any table `tbl`: a payload that is the table read through the one-row window
    at the row a word names, the word being the column's entry at position `pos`, is the table's row `srcRow` names for block row `n`, when `pos = 1024 i + n`. -/
theorem payload_row (col : Memref sig .tc .smem S131072 .i32) (tbl : Memref sig .tc .hbm S500000x32 .f32) (h1 : col.IsWhole) (h2 : tbl.IsWhole)
    (X : S131072.Idx → Elt F .i32) (hX : ∀ j, (X j).toNat < 500000) (u : S500000x32.Idx → Elt F .f32)
    (ib : Fin 128) (n : Fin 1024)
    (woff : Fin 1 → ℕ) (hw : ∀ a, woff a + S1.size a ≤ S131072.size a) (hwoff : woff = ![1024 * ib.val + n.val])
    (hfirst : 0 < (Rect.unit (s := S131072) woff S1.size hw).toLoadRect.shape.numel)
    (w : Elt F .i32)
    (hwv : w = View.readAt (Elt F) col.view (Rect.unit (s := S131072) woff S1.size hw).toLoadRect (h1.unread X) (Shape.Idx.first hfirst))
    (soff : Fin 2 → ℕ) (hs : ∀ a, soff a + S1x32.size a ≤ S500000x32.size a) (hsoff : soff = ![w.toNat, 0])
    (p : S32.Idx → Elt F .f32)
    (hp : p = (ReadAs.same : ReadAs (Elt F) S32 .f32 S32 .f32).apply (View.read (Elt F) (tblRowWin tbl soff hs).view (h2.unread u)))
    (l : S32.Idx) :
    p l = u (ValueIdx.ix2 (Cert.Gather.srcRow X ib n) (l 0)) := by
  subst hp hwoff
  -- the word is the column's entry at position 1024 ib + n
  have hwX : w = X (ValueIdx.ix1 (⟨1024 * ib.val + n.val, by have := ib.isLt; have := n.isLt; omega⟩ : Fin 131072)) := by
    rw [hwv, h1.readAt_unread X]
    congr 1
    funext a
    match a with
    | ⟨0, _⟩ => exact Fin.ext (by simp [LoadRect.idx, Rect.toLoadRect, Rect.unit, Shape.Idx.first])
  have hlt : w.toNat < 500000 := hwX ▸ hX _
  -- so the row the transfer reads is the row srcRow names
  have hrow : (⟨w.toNat, hlt⟩ : Fin 500000) = Cert.Gather.srcRow X ib n :=
    Fin.ext (by rw [Cert.Gather.srcRow_val X ib n (hX _)]; exact congrArg BitVec.toNat hwX)
  rw [readAs_same_tblRow tbl soff ⟨w.toNat, hlt⟩ hsoff hs (h2.unread u), h2.read_unread, hrow]

end Cert.KernelIdeal.Hand

end
-- ==== Proof.KI.Words0.lean ====
/-
  The positions, in the region's column of index words, of the 32 words a trip reads: transfer `s` of trip `k`
  at grid point `i` reads the word at position `1024 i + 32 k + s`, the one for row `32 k + s` of block `i`.
-/
import proofs.«423058_j50337016709696_1_alg».proof.Proof.KI.Rows0

noncomputable section

namespace Cert.KernelIdeal.Hand

open Cert.KernelIdeal Cert.KernelIdeal.Gen
open Idealize.ShloMosaic

/-- The offsets the kernel computes for the position of transfer `s`'s index word. -/
def wordOff0 (i : grid0.Coords) (k : Fin k0_t1_loop.trips) : Fin 32 → Fin 1 → ℕ
  | ⟨0, _⟩ => k0_off1 i k
  | ⟨1, _⟩ => k0_off4 i k
  | ⟨2, _⟩ => k0_off7 i k
  | ⟨3, _⟩ => k0_off10 i k
  | ⟨4, _⟩ => k0_off13 i k
  | ⟨5, _⟩ => k0_off16 i k
  | ⟨6, _⟩ => k0_off19 i k
  | ⟨7, _⟩ => k0_off22 i k
  | ⟨8, _⟩ => k0_off25 i k
  | ⟨9, _⟩ => k0_off28 i k
  | ⟨10, _⟩ => k0_off31 i k
  | ⟨11, _⟩ => k0_off34 i k
  | ⟨12, _⟩ => k0_off37 i k
  | ⟨13, _⟩ => k0_off40 i k
  | ⟨14, _⟩ => k0_off43 i k
  | ⟨15, _⟩ => k0_off46 i k
  | ⟨16, _⟩ => k0_off49 i k
  | ⟨17, _⟩ => k0_off52 i k
  | ⟨18, _⟩ => k0_off55 i k
  | ⟨19, _⟩ => k0_off58 i k
  | ⟨20, _⟩ => k0_off61 i k
  | ⟨21, _⟩ => k0_off64 i k
  | ⟨22, _⟩ => k0_off67 i k
  | ⟨23, _⟩ => k0_off70 i k
  | ⟨24, _⟩ => k0_off73 i k
  | ⟨25, _⟩ => k0_off76 i k
  | ⟨26, _⟩ => k0_off79 i k
  | ⟨27, _⟩ => k0_off82 i k
  | ⟨28, _⟩ => k0_off85 i k
  | ⟨29, _⟩ => k0_off88 i k
  | ⟨30, _⟩ => k0_off91 i k
  | ⟨31, _⟩ => k0_off94 i k
  | ⟨_ + 32, h⟩ => absurd h (Nat.not_lt.2 (Nat.le_add_left _ _))

/-- Each position lies inside the column. -/
theorem wordOff0_inb (i : grid0.Coords) (k : Fin k0_t1_loop.trips) : ∀ (s : Fin 32) (a : Fin 1), wordOff0 i k s a + S1.size a ≤ S131072.size a
  | ⟨0, _⟩ => k0_off1_inb i k
  | ⟨1, _⟩ => k0_off4_inb i k
  | ⟨2, _⟩ => k0_off7_inb i k
  | ⟨3, _⟩ => k0_off10_inb i k
  | ⟨4, _⟩ => k0_off13_inb i k
  | ⟨5, _⟩ => k0_off16_inb i k
  | ⟨6, _⟩ => k0_off19_inb i k
  | ⟨7, _⟩ => k0_off22_inb i k
  | ⟨8, _⟩ => k0_off25_inb i k
  | ⟨9, _⟩ => k0_off28_inb i k
  | ⟨10, _⟩ => k0_off31_inb i k
  | ⟨11, _⟩ => k0_off34_inb i k
  | ⟨12, _⟩ => k0_off37_inb i k
  | ⟨13, _⟩ => k0_off40_inb i k
  | ⟨14, _⟩ => k0_off43_inb i k
  | ⟨15, _⟩ => k0_off46_inb i k
  | ⟨16, _⟩ => k0_off49_inb i k
  | ⟨17, _⟩ => k0_off52_inb i k
  | ⟨18, _⟩ => k0_off55_inb i k
  | ⟨19, _⟩ => k0_off58_inb i k
  | ⟨20, _⟩ => k0_off61_inb i k
  | ⟨21, _⟩ => k0_off64_inb i k
  | ⟨22, _⟩ => k0_off67_inb i k
  | ⟨23, _⟩ => k0_off70_inb i k
  | ⟨24, _⟩ => k0_off73_inb i k
  | ⟨25, _⟩ => k0_off76_inb i k
  | ⟨26, _⟩ => k0_off79_inb i k
  | ⟨27, _⟩ => k0_off82_inb i k
  | ⟨28, _⟩ => k0_off85_inb i k
  | ⟨29, _⟩ => k0_off88_inb i k
  | ⟨30, _⟩ => k0_off91_inb i k
  | ⟨31, _⟩ => k0_off94_inb i k
  | ⟨_ + 32, h⟩ => absurd h (Nat.not_lt.2 (Nat.le_add_left _ _))

/-- In closed form the position is `1024 i + 32 k + s`. -/
theorem wordOff0_eq (i : grid0.Coords) (k : Fin k0_t1_loop.trips) : ∀ s : Fin 32, wordOff0 i k s = ![1024 * (i 0).val + 32 * k.val + s.val]
  | ⟨0, _⟩ => k0_off1_eq i k
  | ⟨1, _⟩ => k0_off4_eq i k
  | ⟨2, _⟩ => k0_off7_eq i k
  | ⟨3, _⟩ => k0_off10_eq i k
  | ⟨4, _⟩ => k0_off13_eq i k
  | ⟨5, _⟩ => k0_off16_eq i k
  | ⟨6, _⟩ => k0_off19_eq i k
  | ⟨7, _⟩ => k0_off22_eq i k
  | ⟨8, _⟩ => k0_off25_eq i k
  | ⟨9, _⟩ => k0_off28_eq i k
  | ⟨10, _⟩ => k0_off31_eq i k
  | ⟨11, _⟩ => k0_off34_eq i k
  | ⟨12, _⟩ => k0_off37_eq i k
  | ⟨13, _⟩ => k0_off40_eq i k
  | ⟨14, _⟩ => k0_off43_eq i k
  | ⟨15, _⟩ => k0_off46_eq i k
  | ⟨16, _⟩ => k0_off49_eq i k
  | ⟨17, _⟩ => k0_off52_eq i k
  | ⟨18, _⟩ => k0_off55_eq i k
  | ⟨19, _⟩ => k0_off58_eq i k
  | ⟨20, _⟩ => k0_off61_eq i k
  | ⟨21, _⟩ => k0_off64_eq i k
  | ⟨22, _⟩ => k0_off67_eq i k
  | ⟨23, _⟩ => k0_off70_eq i k
  | ⟨24, _⟩ => k0_off73_eq i k
  | ⟨25, _⟩ => k0_off76_eq i k
  | ⟨26, _⟩ => k0_off79_eq i k
  | ⟨27, _⟩ => k0_off82_eq i k
  | ⟨28, _⟩ => k0_off85_eq i k
  | ⟨29, _⟩ => k0_off88_eq i k
  | ⟨30, _⟩ => k0_off91_eq i k
  | ⟨31, _⟩ => k0_off94_eq i k
  | ⟨_ + 32, h⟩ => absurd h (Nat.not_lt.2 (Nat.le_add_left _ _))

end Cert.KernelIdeal.Hand

end
-- ==== Proof.KI.Handback0.lean ====
/-
  After a trip, everything the trip borrowed is back: the column, the table's read shares, the counters at zero,
  and the scratch whole again at its final contents (its 16 rows held apart rejoined).
-/
import proofs.«423058_j50337016709696_1_alg».proof.Proof.KI.Rejoin
import proofs.«423058_j50337016709696_1_alg».proof.Proof.KI.Cells0

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- 80 resources are sorted into their places and 16 rows rejoined
set_option maxHeartbeats 4000000 in
theorem handback0 (c : Dev nD) (hsc : (Memref.whole cc0_scratch0).IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32)
    (f : Bf (F := F) c (Memref.whole cc0_scratch0))
    (col : Bf (F := F) c (Memref.whole main_v1)) (tb : Bf (F := F) c (Memref.whole main_v3)) (W : Waits sig Unit) :
    let sc := Memref.whole cc0_scratch0
    (iprop(pt c (Memref.whole main_v1) col
        ∗ (ptq c (Memref.whole main_v3) (Transfers.shareTokN fullShare 2) tb
        ∗ ptq c (Memref.whole main_v3) (Transfers.shareTokN fullShare 3) tb
        ∗ ptq c (Memref.whole main_v3) (Transfers.shareTokN fullShare 4) tb
        ∗ ptq c (Memref.whole main_v3) (Transfers.shareTokN fullShare 5) tb
        ∗ ptq c (Memref.whole main_v3) (Transfers.shareTokN fullShare 6) tb
        ∗ ptq c (Memref.whole main_v3) (Transfers.shareTokN fullShare 7) tb
        ∗ ptq c (Memref.whole main_v3) (Transfers.shareTokN fullShare 8) tb
        ∗ ptq c (Memref.whole main_v3) (Transfers.shareTokN fullShare 9) tb
        ∗ ptq c (Memref.whole main_v3) (Transfers.shareTokN fullShare 10) tb
        ∗ ptq c (Memref.whole main_v3) (Transfers.shareTokN fullShare 11) tb
        ∗ ptq c (Memref.whole main_v3) (Transfers.shareTokN fullShare 12) tb
        ∗ ptq c (Memref.whole main_v3) (Transfers.shareTokN fullShare 13) tb
        ∗ ptq c (Memref.whole main_v3) (Transfers.shareTokN fullShare 14) tb
        ∗ ptq c (Memref.whole main_v3) (Transfers.shareTokN fullShare 15) tb
        ∗ ptq c (Memref.whole main_v3) (Transfers.shareTokN fullShare 16) tb
        ∗ ptq c (Memref.whole main_v3) (Transfers.shareTokN fullShare 17) tb
        ∗ ptq c (Memref.whole main_v3) (Transfers.shareTokN fullShare 18) tb
        ∗ ptq c (Memref.whole main_v3) (Transfers.shareTokN fullShare 19) tb
        ∗ ptq c (Memref.whole main_v3) (Transfers.shareTokN fullShare 20) tb
        ∗ ptq c (Memref.whole main_v3) (Transfers.shareTokN fullShare 21) tb
        ∗ ptq c (Memref.whole main_v3) (Transfers.shareTokN fullShare 22) tb
        ∗ ptq c (Memref.whole main_v3) (Transfers.shareTokN fullShare 23) tb
        ∗ ptq c (Memref.whole main_v3) (Transfers.shareTokN fullShare 24) tb
        ∗ ptq c (Memref.whole main_v3) (Transfers.shareTokN fullShare 25) tb
        ∗ ptq c (Memref.whole main_v3) (Transfers.shareTokN fullShare 26) tb
        ∗ ptq c (Memref.whole main_v3) (Transfers.shareTokN fullShare 27) tb
        ∗ ptq c (Memref.whole main_v3) (Transfers.shareTokN fullShare 28) tb
        ∗ ptq c (Memref.whole main_v3) (Transfers.shareTokN fullShare 29) tb
        ∗ ptq c (Memref.whole main_v3) (Transfers.shareTokN fullShare 30) tb
        ∗ ptq c (Memref.whole main_v3) (Transfers.shareTokN fullShare 31) tb
        ∗ ptq c (Memref.whole main_v3) (Transfers.shareTokN fullShare 32) tb
        ∗ ptq c (Memref.whole main_v3) (Transfers.shareTokN fullShare 33) tb)
        ∗ ((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega)))
        ∗ (semVal ((c : Thread nD τ), (SemLoc.dma 2 : SemLoc sig)) 0
        ∗ semVal ((c : Thread nD τ), (SemLoc.dma 3 : SemLoc sig)) 0
        ∗ semVal ((c : Thread nD τ), (SemLoc.dma 4 : SemLoc sig)) 0
        ∗ semVal ((c : Thread nD τ), (SemLoc.dma 5 : SemLoc sig)) 0
        ∗ semVal ((c : Thread nD τ), (SemLoc.dma 6 : SemLoc sig)) 0
        ∗ semVal ((c : Thread nD τ), (SemLoc.dma 7 : SemLoc sig)) 0
        ∗ semVal ((c : Thread nD τ), (SemLoc.dma 8 : SemLoc sig)) 0
        ∗ semVal ((c : Thread nD τ), (SemLoc.dma 9 : SemLoc sig)) 0
        ∗ semVal ((c : Thread nD τ), (SemLoc.dma 10 : SemLoc sig)) 0
        ∗ semVal ((c : Thread nD τ), (SemLoc.dma 11 : SemLoc sig)) 0
        ∗ semVal ((c : Thread nD τ), (SemLoc.dma 12 : SemLoc sig)) 0
        ∗ semVal ((c : Thread nD τ), (SemLoc.dma 13 : SemLoc sig)) 0
        ∗ semVal ((c : Thread nD τ), (SemLoc.dma 14 : SemLoc sig)) 0
        ∗ semVal ((c : Thread nD τ), (SemLoc.dma 15 : SemLoc sig)) 0
        ∗ semVal ((c : Thread nD τ), (SemLoc.dma 16 : SemLoc sig)) 0
        ∗ semVal ((c : Thread nD τ), (SemLoc.dma 17 : SemLoc sig)) 0
        ∗ semVal ((c : Thread nD τ), (SemLoc.dma 18 : SemLoc sig)) 0
        ∗ semVal ((c : Thread nD τ), (SemLoc.dma 19 : SemLoc sig)) 0
        ∗ semVal ((c : Thread nD τ), (SemLoc.dma 20 : SemLoc sig)) 0
        ∗ semVal ((c : Thread nD τ), (SemLoc.dma 21 : SemLoc sig)) 0
        ∗ semVal ((c : Thread nD τ), (SemLoc.dma 22 : SemLoc sig)) 0
        ∗ semVal ((c : Thread nD τ), (SemLoc.dma 23 : SemLoc sig)) 0
        ∗ semVal ((c : Thread nD τ), (SemLoc.dma 24 : SemLoc sig)) 0
        ∗ semVal ((c : Thread nD τ), (SemLoc.dma 25 : SemLoc sig)) 0
        ∗ semVal ((c : Thread nD τ), (SemLoc.dma 26 : SemLoc sig)) 0
        ∗ semVal ((c : Thread nD τ), (SemLoc.dma 27 : SemLoc sig)) 0
        ∗ semVal ((c : Thread nD τ), (SemLoc.dma 28 : SemLoc sig)) 0
        ∗ semVal ((c : Thread nD τ), (SemLoc.dma 29 : SemLoc sig)) 0
        ∗ semVal ((c : Thread nD τ), (SemLoc.dma 30 : SemLoc sig)) 0
        ∗ semVal ((c : Thread nD τ), (SemLoc.dma 31 : SemLoc sig)) 0
        ∗ semVal ((c : Thread nD τ), (SemLoc.dma 32 : SemLoc sig)) 0
        ∗ semVal ((c : Thread nD τ), (SemLoc.dma 33 : SemLoc sig)) 0)
        ∗ owes (c : Thread nD τ) 0 W) : sProp (𝕄K F))
      ⊢ iprop((pt c (Memref.whole main_v1) col ∗ toks0 c tb ∗ pt c sc (writeRows sc off h p f 32 (le_refl _)) ∗ sems0 c)
          ∗ ∃ W', owes (c : Thread nD τ) 0 W') := by
  intro sc
  iintro ⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hs, Hw0, Hw1, Hw2, Hw3, Hw4, Hw5, Hw6, Hw7, Hw8, Hw9, Hw10, Hw11, Hw12, Hw13, Hw14, Hw15⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO⟩
  isplitr [HO]; swap
  · iexists _; iexact HO
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks0
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hs Hw0 Hw1 Hw2 Hw3 Hw4 Hw5 Hw6 Hw7 Hw8 Hw9 Hw10 Hw11 Hw12 Hw13 Hw14 Hw15]
  · iapply (rejoin16 c sc hsc off ρ hoff hρ h p f)
    isplitl [Hs]; · iexact Hs
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  unfold sems0
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  isplitl [Hd23]; · iexact Hd23
  isplitl [Hd24]; · iexact Hd24
  isplitl [Hd25]; · iexact Hd25
  isplitl [Hd26]; · iexact Hd26
  isplitl [Hd27]; · iexact Hd27
  isplitl [Hd28]; · iexact Hd28
  isplitl [Hd29]; · iexact Hd29
  isplitl [Hd30]; · iexact Hd30
  iexact Hd31

end Cert.KernelIdeal.Hand

end
-- ==== Proof.KI.RowWritesMore.lean ====
/-
  Two small facts used when a trip's writes are put in order: the block after one more write, and that a buffer
  held at some contents is held at any equal contents.
-/
import proofs.«423058_j50337016709696_1_alg».proof.Proof.KI.RowWrites

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One more write: the block after `m + 1` of the writes is write `m` over the block after `m`. -/
theorem writeRows_succ (sc : Memref sig .tc .vmem S1024x32 .f32) {n : ℕ} (off : Fin n → Fin 2 → ℕ)
    (h : ∀ s a, off s a + S1x32.size a ≤ S1024x32.size a) (p : Fin n → S32.Idx → Elt F .f32)
    (f : sc.view.ty.Contents (Elt F)) (m : ℕ) (hm : m + 1 ≤ n) :
    writeRows sc off h p f (m + 1) hm
      = View.write (Elt F) (rowWin sc (off ⟨m, hm⟩) (h ⟨m, hm⟩)).view (writeRows sc off h p f m (Nat.le_of_succ_le hm)) (p ⟨m, hm⟩) Finset.univ := rfl

/-- Held at contents that are equal, held at either. -/
theorem pt_of_eq {ℓ : Loc nD τ sig} {S : Finset (Idx ℓ)} {q : PosShare TreeShare} {A B : Buf (Elt F) ℓ} (e : A = B) :
    (ℓ ↦[S]{q} A : sProp (𝕄K F)) ⊢ ℓ ↦[S]{q} B := e ▸ .rfl

end Cert.KernelIdeal.Hand

end
-- ==== Proof.KI.Trip0.lean ====
/-
  One trip of the first region's loop.  Before trip `k` the scratch holds the rows filled so far; the trip
  starts 32 transfers, one per row `32 k` to `32 k + 31`, each reading the table row its index word names,
  and waits for all of them; afterwards those 32 rows are filled too and nothing else has changed.
-/
import proofs.«423058_j50337016709696_1_alg».proof.Proof.KI.Cells0
import proofs.«423058_j50337016709696_1_alg».proof.Proof.KI.Rows0
import proofs.«423058_j50337016709696_1_alg».proof.Proof.KI.Rejoin
import proofs.«423058_j50337016709696_1_alg».proof.Proof.KI.GathStep
import proofs.«423058_j50337016709696_1_alg».proof.Proof.KI.Payload
import proofs.«423058_j50337016709696_1_alg».proof.Proof.KI.Words0
import proofs.«423058_j50337016709696_1_alg».proof.Proof.KI.Handback0
import proofs.«423058_j50337016709696_1_alg».proof.Proof.KI.RowWritesMore

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a trip needs and gives back, the scratch at raw contents `fs`: the column, the table held for reading, the
    scratch, the counters at zero.  (The result's staging block is not among them: a trip never touches it.) -/
abbrev Trip0 (c : Dev nD) (h1 : (Memref.whole main_v1).IsWhole)
    (h2 : (Memref.whole main_v3).IsWhole) (X : S131072.Idx → Elt F .i32) (u : S500000x32.Idx → Elt F .f32)
    (fs : Bf (F := F) c (Memref.whole cc0_scratch0)) : sProp (𝕄K F) :=
  iprop(pt c (Memref.whole main_v1) (h1.unread X) ∗ toks0 c (h2.unread u)
    ∗ pt c (Memref.whole cc0_scratch0) fs ∗ sems0 c)

-- one trip is 32 transfers started and then 32 awaited, run in one go, and 16 rows rejoined after it
set_option maxHeartbeats 40000000 in
/-- ONE trip: from the scratch reading as `Gather.gath X u i f₀ k` to the scratch reading as `Gather.gath X u i f₀ (k + 1)`,
    everything else as it was. -/
theorem trip0 (c : Dev nD) (i : grid0.Coords) (M3 : Memref sig .tc .vmem S1024x32 .f32) (h3 : M3.IsWhole)
    (h1 : (Memref.whole main_v1).IsWhole) (h2 : (Memref.whole main_v3).IsWhole) (h4 : (Memref.whole cc0_scratch0).IsWhole)
    (X : S131072.Idx → Elt F .i32) (hX : ∀ j, (X j).toNat < 500000) (u : S500000x32.Idx → Elt F .f32)
    (f₀ : S1024x32.Idx → Elt F .f32) (fs : Bf (F := F) c (Memref.whole cc0_scratch0))
    (k : Fin k0_t1_loop.trips) (hfs : (Memref.whole cc0_scratch0).view.read (Elt F) fs = Cert.Gather.gath X u (blk0 i) f₀ k.val)
    (W : Waits sig Unit) (Q : Unit → sProp (𝕄K F)) :
    iprop(Trip0 c h1 h2 X u fs ∗ owes (c : Thread nD τ) 0 W
        ∗ (iprop(∃ fs' : Bf (F := F) c (Memref.whole cc0_scratch0),
              ⌜(Memref.whole cc0_scratch0).view.read (Elt F) fs' = Cert.Gather.gath X u (blk0 i) f₀ (k.val + 1)⌝
              ∗ Trip0 c h1 h2 X u fs' ∗ (∃ W', owes (c : Thread nD τ) 0 W')) -∗ Q ()))
      ⊢ wp frame (wpE (defs₀ (F := F)) Variants.none c none) Set.univ
          (k0_t1_body i (Memref.whole main_v1) h1 (Memref.whole main_v3) h2 M3 h3 (Memref.whole cc0_scratch0) h4 cc0_scratch1
            (Scalar.muli (BitVec.ofNat 32 (i 0).val) 1024#32) k ()) Q := by
  unfold k0_t1_body
  iintro ⟨⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, Hs, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩⟩, HO, Hk⟩
  sl_exec (disch := (sl_unfold_run_names; obtain ⟨j, hj⟩ := h1.exists_readAt_unread X _ _; rw [hj]; exact row_inb _ (hX j)))
  sl_step
  -- the 32 transfers' payloads, as one family (the run's own names)
  let pay : Fin 32 → S32.Idx → Elt F .f32 := fun s => match s with
    | ⟨0, _⟩ => trip0.sl.dma1 i h1 h2 X hX u k
    | ⟨1, _⟩ => trip0.sl.dma2 i h1 h2 X hX u k
    | ⟨2, _⟩ => trip0.sl.dma3 i h1 h2 X hX u k
    | ⟨3, _⟩ => trip0.sl.dma4 i h1 h2 X hX u k
    | ⟨4, _⟩ => trip0.sl.dma5 i h1 h2 X hX u k
    | ⟨5, _⟩ => trip0.sl.dma6 i h1 h2 X hX u k
    | ⟨6, _⟩ => trip0.sl.dma7 i h1 h2 X hX u k
    | ⟨7, _⟩ => trip0.sl.dma8 i h1 h2 X hX u k
    | ⟨8, _⟩ => trip0.sl.dma9 i h1 h2 X hX u k
    | ⟨9, _⟩ => trip0.sl.dma10 i h1 h2 X hX u k
    | ⟨10, _⟩ => trip0.sl.dma11 i h1 h2 X hX u k
    | ⟨11, _⟩ => trip0.sl.dma12 i h1 h2 X hX u k
    | ⟨12, _⟩ => trip0.sl.dma13 i h1 h2 X hX u k
    | ⟨13, _⟩ => trip0.sl.dma14 i h1 h2 X hX u k
    | ⟨14, _⟩ => trip0.sl.dma15 i h1 h2 X hX u k
    | ⟨15, _⟩ => trip0.sl.dma16 i h1 h2 X hX u k
    | ⟨16, _⟩ => trip0.sl.dma17 i h1 h2 X hX u k
    | ⟨17, _⟩ => trip0.sl.dma18 i h1 h2 X hX u k
    | ⟨18, _⟩ => trip0.sl.dma19 i h1 h2 X hX u k
    | ⟨19, _⟩ => trip0.sl.dma20 i h1 h2 X hX u k
    | ⟨20, _⟩ => trip0.sl.dma21 i h1 h2 X hX u k
    | ⟨21, _⟩ => trip0.sl.dma22 i h1 h2 X hX u k
    | ⟨22, _⟩ => trip0.sl.dma23 i h1 h2 X hX u k
    | ⟨23, _⟩ => trip0.sl.dma24 i h1 h2 X hX u k
    | ⟨24, _⟩ => trip0.sl.dma25 i h1 h2 X hX u k
    | ⟨25, _⟩ => trip0.sl.dma26 i h1 h2 X hX u k
    | ⟨26, _⟩ => trip0.sl.dma27 i h1 h2 X hX u k
    | ⟨27, _⟩ => trip0.sl.dma28 i h1 h2 X hX u k
    | ⟨28, _⟩ => trip0.sl.dma29 i h1 h2 X hX u k
    | ⟨29, _⟩ => trip0.sl.dma30 i h1 h2 X hX u k
    | ⟨30, _⟩ => trip0.sl.dma31 i h1 h2 X hX u k
    | ⟨31, _⟩ => trip0.sl.dma32 i h1 h2 X hX u k
    | ⟨_ + 32, h⟩ => absurd h (Nat.not_lt.2 (Nat.le_add_left _ _))
  -- the scratch after r + 1 of the transfers have landed is the run's name for it
  have e0 : trip0.sl.Hs_w0 c i h1 h2 X hX u fs k = writeRows (Memref.whole cc0_scratch0) (dstOff0 k) (dstOff0_inb k) pay fs (0 + 1) (by omega) := by
    rw [writeRows_succ]; rfl
  have e1 : trip0.sl.Hs_w1 c i h1 h2 X hX u fs k = writeRows (Memref.whole cc0_scratch0) (dstOff0 k) (dstOff0_inb k) pay fs (1 + 1) (by omega) := by
    rw [writeRows_succ, ← e0]; rfl
  have e2 : trip0.sl.Hs_w2 c i h1 h2 X hX u fs k = writeRows (Memref.whole cc0_scratch0) (dstOff0 k) (dstOff0_inb k) pay fs (2 + 1) (by omega) := by
    rw [writeRows_succ, ← e1]; rfl
  have e3 : trip0.sl.Hs_w3 c i h1 h2 X hX u fs k = writeRows (Memref.whole cc0_scratch0) (dstOff0 k) (dstOff0_inb k) pay fs (3 + 1) (by omega) := by
    rw [writeRows_succ, ← e2]; rfl
  have e4 : trip0.sl.Hs_w4 c i h1 h2 X hX u fs k = writeRows (Memref.whole cc0_scratch0) (dstOff0 k) (dstOff0_inb k) pay fs (4 + 1) (by omega) := by
    rw [writeRows_succ, ← e3]; rfl
  have e5 : trip0.sl.Hs_w5 c i h1 h2 X hX u fs k = writeRows (Memref.whole cc0_scratch0) (dstOff0 k) (dstOff0_inb k) pay fs (5 + 1) (by omega) := by
    rw [writeRows_succ, ← e4]; rfl
  have e6 : trip0.sl.Hs_w6 c i h1 h2 X hX u fs k = writeRows (Memref.whole cc0_scratch0) (dstOff0 k) (dstOff0_inb k) pay fs (6 + 1) (by omega) := by
    rw [writeRows_succ, ← e5]; rfl
  have e7 : trip0.sl.Hs_w7 c i h1 h2 X hX u fs k = writeRows (Memref.whole cc0_scratch0) (dstOff0 k) (dstOff0_inb k) pay fs (7 + 1) (by omega) := by
    rw [writeRows_succ, ← e6]; rfl
  have e8 : trip0.sl.Hs_w8 c i h1 h2 X hX u fs k = writeRows (Memref.whole cc0_scratch0) (dstOff0 k) (dstOff0_inb k) pay fs (8 + 1) (by omega) := by
    rw [writeRows_succ, ← e7]; rfl
  have e9 : trip0.sl.Hs_w9 c i h1 h2 X hX u fs k = writeRows (Memref.whole cc0_scratch0) (dstOff0 k) (dstOff0_inb k) pay fs (9 + 1) (by omega) := by
    rw [writeRows_succ, ← e8]; rfl
  have e10 : trip0.sl.Hs_w10 c i h1 h2 X hX u fs k = writeRows (Memref.whole cc0_scratch0) (dstOff0 k) (dstOff0_inb k) pay fs (10 + 1) (by omega) := by
    rw [writeRows_succ, ← e9]; rfl
  have e11 : trip0.sl.Hs_w11 c i h1 h2 X hX u fs k = writeRows (Memref.whole cc0_scratch0) (dstOff0 k) (dstOff0_inb k) pay fs (11 + 1) (by omega) := by
    rw [writeRows_succ, ← e10]; rfl
  have e12 : trip0.sl.Hs_w12 c i h1 h2 X hX u fs k = writeRows (Memref.whole cc0_scratch0) (dstOff0 k) (dstOff0_inb k) pay fs (12 + 1) (by omega) := by
    rw [writeRows_succ, ← e11]; rfl
  have e13 : trip0.sl.Hs_w13 c i h1 h2 X hX u fs k = writeRows (Memref.whole cc0_scratch0) (dstOff0 k) (dstOff0_inb k) pay fs (13 + 1) (by omega) := by
    rw [writeRows_succ, ← e12]; rfl
  have e14 : trip0.sl.Hs_w14 c i h1 h2 X hX u fs k = writeRows (Memref.whole cc0_scratch0) (dstOff0 k) (dstOff0_inb k) pay fs (14 + 1) (by omega) := by
    rw [writeRows_succ, ← e13]; rfl
  have e15 : trip0.sl.Hs_w15 c i h1 h2 X hX u fs k = writeRows (Memref.whole cc0_scratch0) (dstOff0 k) (dstOff0_inb k) pay fs (15 + 1) (by omega) := by
    rw [writeRows_succ, ← e14]; rfl
  have e16 : trip0.sl.Hs_w16 c i h1 h2 X hX u fs k = writeRows (Memref.whole cc0_scratch0) (dstOff0 k) (dstOff0_inb k) pay fs (16 + 1) (by omega) := by
    rw [writeRows_succ, ← e15]; rfl
  have e17 : trip0.sl.Hs_w17 c i h1 h2 X hX u fs k = writeRows (Memref.whole cc0_scratch0) (dstOff0 k) (dstOff0_inb k) pay fs (17 + 1) (by omega) := by
    rw [writeRows_succ, ← e16]; rfl
  have e18 : trip0.sl.Hs_w18 c i h1 h2 X hX u fs k = writeRows (Memref.whole cc0_scratch0) (dstOff0 k) (dstOff0_inb k) pay fs (18 + 1) (by omega) := by
    rw [writeRows_succ, ← e17]; rfl
  have e19 : trip0.sl.Hs_w19 c i h1 h2 X hX u fs k = writeRows (Memref.whole cc0_scratch0) (dstOff0 k) (dstOff0_inb k) pay fs (19 + 1) (by omega) := by
    rw [writeRows_succ, ← e18]; rfl
  have e20 : trip0.sl.Hs_w20 c i h1 h2 X hX u fs k = writeRows (Memref.whole cc0_scratch0) (dstOff0 k) (dstOff0_inb k) pay fs (20 + 1) (by omega) := by
    rw [writeRows_succ, ← e19]; rfl
  have e21 : trip0.sl.Hs_w21 c i h1 h2 X hX u fs k = writeRows (Memref.whole cc0_scratch0) (dstOff0 k) (dstOff0_inb k) pay fs (21 + 1) (by omega) := by
    rw [writeRows_succ, ← e20]; rfl
  have e22 : trip0.sl.Hs_w22 c i h1 h2 X hX u fs k = writeRows (Memref.whole cc0_scratch0) (dstOff0 k) (dstOff0_inb k) pay fs (22 + 1) (by omega) := by
    rw [writeRows_succ, ← e21]; rfl
  have e23 : trip0.sl.Hs_w23 c i h1 h2 X hX u fs k = writeRows (Memref.whole cc0_scratch0) (dstOff0 k) (dstOff0_inb k) pay fs (23 + 1) (by omega) := by
    rw [writeRows_succ, ← e22]; rfl
  have e24 : trip0.sl.Hs_w24 c i h1 h2 X hX u fs k = writeRows (Memref.whole cc0_scratch0) (dstOff0 k) (dstOff0_inb k) pay fs (24 + 1) (by omega) := by
    rw [writeRows_succ, ← e23]; rfl
  have e25 : trip0.sl.Hs_w25 c i h1 h2 X hX u fs k = writeRows (Memref.whole cc0_scratch0) (dstOff0 k) (dstOff0_inb k) pay fs (25 + 1) (by omega) := by
    rw [writeRows_succ, ← e24]; rfl
  have e26 : trip0.sl.Hs_w26 c i h1 h2 X hX u fs k = writeRows (Memref.whole cc0_scratch0) (dstOff0 k) (dstOff0_inb k) pay fs (26 + 1) (by omega) := by
    rw [writeRows_succ, ← e25]; rfl
  have e27 : trip0.sl.Hs_w27 c i h1 h2 X hX u fs k = writeRows (Memref.whole cc0_scratch0) (dstOff0 k) (dstOff0_inb k) pay fs (27 + 1) (by omega) := by
    rw [writeRows_succ, ← e26]; rfl
  have e28 : trip0.sl.Hs_w28 c i h1 h2 X hX u fs k = writeRows (Memref.whole cc0_scratch0) (dstOff0 k) (dstOff0_inb k) pay fs (28 + 1) (by omega) := by
    rw [writeRows_succ, ← e27]; rfl
  have e29 : trip0.sl.Hs_w29 c i h1 h2 X hX u fs k = writeRows (Memref.whole cc0_scratch0) (dstOff0 k) (dstOff0_inb k) pay fs (29 + 1) (by omega) := by
    rw [writeRows_succ, ← e28]; rfl
  have e30 : trip0.sl.Hs_w30 c i h1 h2 X hX u fs k = writeRows (Memref.whole cc0_scratch0) (dstOff0 k) (dstOff0_inb k) pay fs (30 + 1) (by omega) := by
    rw [writeRows_succ, ← e29]; rfl
  have e31 : trip0.sl.Hs_w31 c i h1 h2 X hX u fs k = writeRows (Memref.whole cc0_scratch0) (dstOff0 k) (dstOff0_inb k) pay fs (31 + 1) (by omega) := by
    rw [writeRows_succ, ← e30]; rfl
  -- each transfer carries the table row the specification fills its row from
  have hpAll : ∀ (s : Fin 32) (l : S32.Idx), pay s l = u (ValueIdx.ix2 (Cert.Gather.srcRow X (blk0 i) (dstRow0 k s)) (l 0)) := fun s => match s with
    | ⟨0, _⟩ => fun l => payload_row (Memref.whole main_v1) (Memref.whole main_v3) h1 h2 X hX u (blk0 i) (dstRow0 k ⟨0, by decide⟩) (wordOff0 i k ⟨0, by decide⟩) (wordOff0_inb i k ⟨0, by decide⟩) (by rw [wordOff0_eq]; rfl) _ (trip0.sl.r i h1 X k) rfl (k0_off3 (trip0.sl.r i h1 X k)) _ rfl (trip0.sl.dma1 i h1 h2 X hX u k) rfl l
    | ⟨1, _⟩ => fun l => payload_row (Memref.whole main_v1) (Memref.whole main_v3) h1 h2 X hX u (blk0 i) (dstRow0 k ⟨1, by decide⟩) (wordOff0 i k ⟨1, by decide⟩) (wordOff0_inb i k ⟨1, by decide⟩) (by rw [wordOff0_eq]; rfl) _ (trip0.sl.r_1 i h1 X k) rfl (k0_off6 (trip0.sl.r_1 i h1 X k)) _ rfl (trip0.sl.dma2 i h1 h2 X hX u k) rfl l
    | ⟨2, _⟩ => fun l => payload_row (Memref.whole main_v1) (Memref.whole main_v3) h1 h2 X hX u (blk0 i) (dstRow0 k ⟨2, by decide⟩) (wordOff0 i k ⟨2, by decide⟩) (wordOff0_inb i k ⟨2, by decide⟩) (by rw [wordOff0_eq]; rfl) _ (trip0.sl.r_2 i h1 X k) rfl (k0_off9 (trip0.sl.r_2 i h1 X k)) _ rfl (trip0.sl.dma3 i h1 h2 X hX u k) rfl l
    | ⟨3, _⟩ => fun l => payload_row (Memref.whole main_v1) (Memref.whole main_v3) h1 h2 X hX u (blk0 i) (dstRow0 k ⟨3, by decide⟩) (wordOff0 i k ⟨3, by decide⟩) (wordOff0_inb i k ⟨3, by decide⟩) (by rw [wordOff0_eq]; rfl) _ (trip0.sl.r_3 i h1 X k) rfl (k0_off12 (trip0.sl.r_3 i h1 X k)) _ rfl (trip0.sl.dma4 i h1 h2 X hX u k) rfl l
    | ⟨4, _⟩ => fun l => payload_row (Memref.whole main_v1) (Memref.whole main_v3) h1 h2 X hX u (blk0 i) (dstRow0 k ⟨4, by decide⟩) (wordOff0 i k ⟨4, by decide⟩) (wordOff0_inb i k ⟨4, by decide⟩) (by rw [wordOff0_eq]; rfl) _ (trip0.sl.r_4 i h1 X k) rfl (k0_off15 (trip0.sl.r_4 i h1 X k)) _ rfl (trip0.sl.dma5 i h1 h2 X hX u k) rfl l
    | ⟨5, _⟩ => fun l => payload_row (Memref.whole main_v1) (Memref.whole main_v3) h1 h2 X hX u (blk0 i) (dstRow0 k ⟨5, by decide⟩) (wordOff0 i k ⟨5, by decide⟩) (wordOff0_inb i k ⟨5, by decide⟩) (by rw [wordOff0_eq]; rfl) _ (trip0.sl.r_5 i h1 X k) rfl (k0_off18 (trip0.sl.r_5 i h1 X k)) _ rfl (trip0.sl.dma6 i h1 h2 X hX u k) rfl l
    | ⟨6, _⟩ => fun l => payload_row (Memref.whole main_v1) (Memref.whole main_v3) h1 h2 X hX u (blk0 i) (dstRow0 k ⟨6, by decide⟩) (wordOff0 i k ⟨6, by decide⟩) (wordOff0_inb i k ⟨6, by decide⟩) (by rw [wordOff0_eq]; rfl) _ (trip0.sl.r_6 i h1 X k) rfl (k0_off21 (trip0.sl.r_6 i h1 X k)) _ rfl (trip0.sl.dma7 i h1 h2 X hX u k) rfl l
    | ⟨7, _⟩ => fun l => payload_row (Memref.whole main_v1) (Memref.whole main_v3) h1 h2 X hX u (blk0 i) (dstRow0 k ⟨7, by decide⟩) (wordOff0 i k ⟨7, by decide⟩) (wordOff0_inb i k ⟨7, by decide⟩) (by rw [wordOff0_eq]; rfl) _ (trip0.sl.r_7 i h1 X k) rfl (k0_off24 (trip0.sl.r_7 i h1 X k)) _ rfl (trip0.sl.dma8 i h1 h2 X hX u k) rfl l
    | ⟨8, _⟩ => fun l => payload_row (Memref.whole main_v1) (Memref.whole main_v3) h1 h2 X hX u (blk0 i) (dstRow0 k ⟨8, by decide⟩) (wordOff0 i k ⟨8, by decide⟩) (wordOff0_inb i k ⟨8, by decide⟩) (by rw [wordOff0_eq]; rfl) _ (trip0.sl.r_8 i h1 X k) rfl (k0_off27 (trip0.sl.r_8 i h1 X k)) _ rfl (trip0.sl.dma9 i h1 h2 X hX u k) rfl l
    | ⟨9, _⟩ => fun l => payload_row (Memref.whole main_v1) (Memref.whole main_v3) h1 h2 X hX u (blk0 i) (dstRow0 k ⟨9, by decide⟩) (wordOff0 i k ⟨9, by decide⟩) (wordOff0_inb i k ⟨9, by decide⟩) (by rw [wordOff0_eq]; rfl) _ (trip0.sl.r_9 i h1 X k) rfl (k0_off30 (trip0.sl.r_9 i h1 X k)) _ rfl (trip0.sl.dma10 i h1 h2 X hX u k) rfl l
    | ⟨10, _⟩ => fun l => payload_row (Memref.whole main_v1) (Memref.whole main_v3) h1 h2 X hX u (blk0 i) (dstRow0 k ⟨10, by decide⟩) (wordOff0 i k ⟨10, by decide⟩) (wordOff0_inb i k ⟨10, by decide⟩) (by rw [wordOff0_eq]; rfl) _ (trip0.sl.r_10 i h1 X k) rfl (k0_off33 (trip0.sl.r_10 i h1 X k)) _ rfl (trip0.sl.dma11 i h1 h2 X hX u k) rfl l
    | ⟨11, _⟩ => fun l => payload_row (Memref.whole main_v1) (Memref.whole main_v3) h1 h2 X hX u (blk0 i) (dstRow0 k ⟨11, by decide⟩) (wordOff0 i k ⟨11, by decide⟩) (wordOff0_inb i k ⟨11, by decide⟩) (by rw [wordOff0_eq]; rfl) _ (trip0.sl.r_11 i h1 X k) rfl (k0_off36 (trip0.sl.r_11 i h1 X k)) _ rfl (trip0.sl.dma12 i h1 h2 X hX u k) rfl l
    | ⟨12, _⟩ => fun l => payload_row (Memref.whole main_v1) (Memref.whole main_v3) h1 h2 X hX u (blk0 i) (dstRow0 k ⟨12, by decide⟩) (wordOff0 i k ⟨12, by decide⟩) (wordOff0_inb i k ⟨12, by decide⟩) (by rw [wordOff0_eq]; rfl) _ (trip0.sl.r_12 i h1 X k) rfl (k0_off39 (trip0.sl.r_12 i h1 X k)) _ rfl (trip0.sl.dma13 i h1 h2 X hX u k) rfl l
    | ⟨13, _⟩ => fun l => payload_row (Memref.whole main_v1) (Memref.whole main_v3) h1 h2 X hX u (blk0 i) (dstRow0 k ⟨13, by decide⟩) (wordOff0 i k ⟨13, by decide⟩) (wordOff0_inb i k ⟨13, by decide⟩) (by rw [wordOff0_eq]; rfl) _ (trip0.sl.r_13 i h1 X k) rfl (k0_off42 (trip0.sl.r_13 i h1 X k)) _ rfl (trip0.sl.dma14 i h1 h2 X hX u k) rfl l
    | ⟨14, _⟩ => fun l => payload_row (Memref.whole main_v1) (Memref.whole main_v3) h1 h2 X hX u (blk0 i) (dstRow0 k ⟨14, by decide⟩) (wordOff0 i k ⟨14, by decide⟩) (wordOff0_inb i k ⟨14, by decide⟩) (by rw [wordOff0_eq]; rfl) _ (trip0.sl.r_14 i h1 X k) rfl (k0_off45 (trip0.sl.r_14 i h1 X k)) _ rfl (trip0.sl.dma15 i h1 h2 X hX u k) rfl l
    | ⟨15, _⟩ => fun l => payload_row (Memref.whole main_v1) (Memref.whole main_v3) h1 h2 X hX u (blk0 i) (dstRow0 k ⟨15, by decide⟩) (wordOff0 i k ⟨15, by decide⟩) (wordOff0_inb i k ⟨15, by decide⟩) (by rw [wordOff0_eq]; rfl) _ (trip0.sl.r_15 i h1 X k) rfl (k0_off48 (trip0.sl.r_15 i h1 X k)) _ rfl (trip0.sl.dma16 i h1 h2 X hX u k) rfl l
    | ⟨16, _⟩ => fun l => payload_row (Memref.whole main_v1) (Memref.whole main_v3) h1 h2 X hX u (blk0 i) (dstRow0 k ⟨16, by decide⟩) (wordOff0 i k ⟨16, by decide⟩) (wordOff0_inb i k ⟨16, by decide⟩) (by rw [wordOff0_eq]; rfl) _ (trip0.sl.r_16 i h1 X k) rfl (k0_off51 (trip0.sl.r_16 i h1 X k)) _ rfl (trip0.sl.dma17 i h1 h2 X hX u k) rfl l
    | ⟨17, _⟩ => fun l => payload_row (Memref.whole main_v1) (Memref.whole main_v3) h1 h2 X hX u (blk0 i) (dstRow0 k ⟨17, by decide⟩) (wordOff0 i k ⟨17, by decide⟩) (wordOff0_inb i k ⟨17, by decide⟩) (by rw [wordOff0_eq]; rfl) _ (trip0.sl.r_17 i h1 X k) rfl (k0_off54 (trip0.sl.r_17 i h1 X k)) _ rfl (trip0.sl.dma18 i h1 h2 X hX u k) rfl l
    | ⟨18, _⟩ => fun l => payload_row (Memref.whole main_v1) (Memref.whole main_v3) h1 h2 X hX u (blk0 i) (dstRow0 k ⟨18, by decide⟩) (wordOff0 i k ⟨18, by decide⟩) (wordOff0_inb i k ⟨18, by decide⟩) (by rw [wordOff0_eq]; rfl) _ (trip0.sl.r_18 i h1 X k) rfl (k0_off57 (trip0.sl.r_18 i h1 X k)) _ rfl (trip0.sl.dma19 i h1 h2 X hX u k) rfl l
    | ⟨19, _⟩ => fun l => payload_row (Memref.whole main_v1) (Memref.whole main_v3) h1 h2 X hX u (blk0 i) (dstRow0 k ⟨19, by decide⟩) (wordOff0 i k ⟨19, by decide⟩) (wordOff0_inb i k ⟨19, by decide⟩) (by rw [wordOff0_eq]; rfl) _ (trip0.sl.r_19 i h1 X k) rfl (k0_off60 (trip0.sl.r_19 i h1 X k)) _ rfl (trip0.sl.dma20 i h1 h2 X hX u k) rfl l
    | ⟨20, _⟩ => fun l => payload_row (Memref.whole main_v1) (Memref.whole main_v3) h1 h2 X hX u (blk0 i) (dstRow0 k ⟨20, by decide⟩) (wordOff0 i k ⟨20, by decide⟩) (wordOff0_inb i k ⟨20, by decide⟩) (by rw [wordOff0_eq]; rfl) _ (trip0.sl.r_20 i h1 X k) rfl (k0_off63 (trip0.sl.r_20 i h1 X k)) _ rfl (trip0.sl.dma21 i h1 h2 X hX u k) rfl l
    | ⟨21, _⟩ => fun l => payload_row (Memref.whole main_v1) (Memref.whole main_v3) h1 h2 X hX u (blk0 i) (dstRow0 k ⟨21, by decide⟩) (wordOff0 i k ⟨21, by decide⟩) (wordOff0_inb i k ⟨21, by decide⟩) (by rw [wordOff0_eq]; rfl) _ (trip0.sl.r_21 i h1 X k) rfl (k0_off66 (trip0.sl.r_21 i h1 X k)) _ rfl (trip0.sl.dma22 i h1 h2 X hX u k) rfl l
    | ⟨22, _⟩ => fun l => payload_row (Memref.whole main_v1) (Memref.whole main_v3) h1 h2 X hX u (blk0 i) (dstRow0 k ⟨22, by decide⟩) (wordOff0 i k ⟨22, by decide⟩) (wordOff0_inb i k ⟨22, by decide⟩) (by rw [wordOff0_eq]; rfl) _ (trip0.sl.r_22 i h1 X k) rfl (k0_off69 (trip0.sl.r_22 i h1 X k)) _ rfl (trip0.sl.dma23 i h1 h2 X hX u k) rfl l
    | ⟨23, _⟩ => fun l => payload_row (Memref.whole main_v1) (Memref.whole main_v3) h1 h2 X hX u (blk0 i) (dstRow0 k ⟨23, by decide⟩) (wordOff0 i k ⟨23, by decide⟩) (wordOff0_inb i k ⟨23, by decide⟩) (by rw [wordOff0_eq]; rfl) _ (trip0.sl.r_23 i h1 X k) rfl (k0_off72 (trip0.sl.r_23 i h1 X k)) _ rfl (trip0.sl.dma24 i h1 h2 X hX u k) rfl l
    | ⟨24, _⟩ => fun l => payload_row (Memref.whole main_v1) (Memref.whole main_v3) h1 h2 X hX u (blk0 i) (dstRow0 k ⟨24, by decide⟩) (wordOff0 i k ⟨24, by decide⟩) (wordOff0_inb i k ⟨24, by decide⟩) (by rw [wordOff0_eq]; rfl) _ (trip0.sl.r_24 i h1 X k) rfl (k0_off75 (trip0.sl.r_24 i h1 X k)) _ rfl (trip0.sl.dma25 i h1 h2 X hX u k) rfl l
    | ⟨25, _⟩ => fun l => payload_row (Memref.whole main_v1) (Memref.whole main_v3) h1 h2 X hX u (blk0 i) (dstRow0 k ⟨25, by decide⟩) (wordOff0 i k ⟨25, by decide⟩) (wordOff0_inb i k ⟨25, by decide⟩) (by rw [wordOff0_eq]; rfl) _ (trip0.sl.r_25 i h1 X k) rfl (k0_off78 (trip0.sl.r_25 i h1 X k)) _ rfl (trip0.sl.dma26 i h1 h2 X hX u k) rfl l
    | ⟨26, _⟩ => fun l => payload_row (Memref.whole main_v1) (Memref.whole main_v3) h1 h2 X hX u (blk0 i) (dstRow0 k ⟨26, by decide⟩) (wordOff0 i k ⟨26, by decide⟩) (wordOff0_inb i k ⟨26, by decide⟩) (by rw [wordOff0_eq]; rfl) _ (trip0.sl.r_26 i h1 X k) rfl (k0_off81 (trip0.sl.r_26 i h1 X k)) _ rfl (trip0.sl.dma27 i h1 h2 X hX u k) rfl l
    | ⟨27, _⟩ => fun l => payload_row (Memref.whole main_v1) (Memref.whole main_v3) h1 h2 X hX u (blk0 i) (dstRow0 k ⟨27, by decide⟩) (wordOff0 i k ⟨27, by decide⟩) (wordOff0_inb i k ⟨27, by decide⟩) (by rw [wordOff0_eq]; rfl) _ (trip0.sl.r_27 i h1 X k) rfl (k0_off84 (trip0.sl.r_27 i h1 X k)) _ rfl (trip0.sl.dma28 i h1 h2 X hX u k) rfl l
    | ⟨28, _⟩ => fun l => payload_row (Memref.whole main_v1) (Memref.whole main_v3) h1 h2 X hX u (blk0 i) (dstRow0 k ⟨28, by decide⟩) (wordOff0 i k ⟨28, by decide⟩) (wordOff0_inb i k ⟨28, by decide⟩) (by rw [wordOff0_eq]; rfl) _ (trip0.sl.r_28 i h1 X k) rfl (k0_off87 (trip0.sl.r_28 i h1 X k)) _ rfl (trip0.sl.dma29 i h1 h2 X hX u k) rfl l
    | ⟨29, _⟩ => fun l => payload_row (Memref.whole main_v1) (Memref.whole main_v3) h1 h2 X hX u (blk0 i) (dstRow0 k ⟨29, by decide⟩) (wordOff0 i k ⟨29, by decide⟩) (wordOff0_inb i k ⟨29, by decide⟩) (by rw [wordOff0_eq]; rfl) _ (trip0.sl.r_29 i h1 X k) rfl (k0_off90 (trip0.sl.r_29 i h1 X k)) _ rfl (trip0.sl.dma30 i h1 h2 X hX u k) rfl l
    | ⟨30, _⟩ => fun l => payload_row (Memref.whole main_v1) (Memref.whole main_v3) h1 h2 X hX u (blk0 i) (dstRow0 k ⟨30, by decide⟩) (wordOff0 i k ⟨30, by decide⟩) (wordOff0_inb i k ⟨30, by decide⟩) (by rw [wordOff0_eq]; rfl) _ (trip0.sl.r_30 i h1 X k) rfl (k0_off93 (trip0.sl.r_30 i h1 X k)) _ rfl (trip0.sl.dma31 i h1 h2 X hX u k) rfl l
    | ⟨31, _⟩ => fun l => payload_row (Memref.whole main_v1) (Memref.whole main_v3) h1 h2 X hX u (blk0 i) (dstRow0 k ⟨31, by decide⟩) (wordOff0 i k ⟨31, by decide⟩) (wordOff0_inb i k ⟨31, by decide⟩) (by rw [wordOff0_eq]; rfl) _ (trip0.sl.r_31 i h1 X k) rfl (k0_off96 (trip0.sl.r_31 i h1 X k)) _ rfl (trip0.sl.dma32 i h1 h2 X hX u k) rfl l
    | ⟨_ + 32, h⟩ => absurd h (Nat.not_lt.2 (Nat.le_add_left _ _))
  -- the scratch's pieces at those contents
  ihave Hs_2 := (pt_of_eq e0) $$ Hs_2
  ihave Hs_3 := (pt_of_eq e1) $$ Hs_3
  ihave Hs_4 := (pt_of_eq e2) $$ Hs_4
  ihave Hs_5 := (pt_of_eq e3) $$ Hs_5
  ihave Hs_6 := (pt_of_eq e4) $$ Hs_6
  ihave Hs_7 := (pt_of_eq e5) $$ Hs_7
  ihave Hs_8 := (pt_of_eq e6) $$ Hs_8
  ihave Hs_9 := (pt_of_eq e7) $$ Hs_9
  ihave Hs_10 := (pt_of_eq e8) $$ Hs_10
  ihave Hs_11 := (pt_of_eq e9) $$ Hs_11
  ihave Hs_12 := (pt_of_eq e10) $$ Hs_12
  ihave Hs_13 := (pt_of_eq e11) $$ Hs_13
  ihave Hs_14 := (pt_of_eq e12) $$ Hs_14
  ihave Hs_15 := (pt_of_eq e13) $$ Hs_15
  ihave Hs_16 := (pt_of_eq e14) $$ Hs_16
  ihave Hs_17 := (pt_of_eq e15) $$ Hs_17
  ihave Hs := (pt_of_eq e31) $$ Hs
  iapply Hk
  iexists (writeRows (Memref.whole cc0_scratch0) (dstOff0 k) (dstOff0_inb k) pay fs (32) (by omega))
  isplitr [Ht Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hs Hs_2 Hs_3 Hs_4 Hs_5 Hs_6 Hs_7 Hs_8 Hs_9 Hs_10 Hs_11 Hs_12 Hs_13 Hs_14 Hs_15 Hs_16 Hs_17 Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 HO]; swap
  · iapply (handback0 c h4 (dstOff0 k) (dstRow0 k) (dstOff0_eq k) (dstRow0_inj k) (dstOff0_inb k) pay fs (h1.unread X) (h2.unread u) _)
    isplitl [Ht]; · iexact Ht
    isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
    ·
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hu19]; · iexact Hu19
      isplitl [Hu20]; · iexact Hu20
      isplitl [Hu21]; · iexact Hu21
      isplitl [Hu22]; · iexact Hu22
      isplitl [Hu23]; · iexact Hu23
      isplitl [Hu24]; · iexact Hu24
      isplitl [Hu25]; · iexact Hu25
      isplitl [Hu26]; · iexact Hu26
      isplitl [Hu27]; · iexact Hu27
      isplitl [Hu28]; · iexact Hu28
      isplitl [Hu29]; · iexact Hu29
      isplitl [Hu30]; · iexact Hu30
      iexact Hu31
    isplitl [Hs Hs_2 Hs_3 Hs_4 Hs_5 Hs_6 Hs_7 Hs_8 Hs_9 Hs_10 Hs_11 Hs_12 Hs_13 Hs_14 Hs_15 Hs_16 Hs_17]
    ·
      isplitl [Hs]; · iexact Hs
      isplitl [Hs_2]; · iexact Hs_2
      isplitl [Hs_3]; · iexact Hs_3
      isplitl [Hs_4]; · iexact Hs_4
      isplitl [Hs_5]; · iexact Hs_5
      isplitl [Hs_6]; · iexact Hs_6
      isplitl [Hs_7]; · iexact Hs_7
      isplitl [Hs_8]; · iexact Hs_8
      isplitl [Hs_9]; · iexact Hs_9
      isplitl [Hs_10]; · iexact Hs_10
      isplitl [Hs_11]; · iexact Hs_11
      isplitl [Hs_12]; · iexact Hs_12
      isplitl [Hs_13]; · iexact Hs_13
      isplitl [Hs_14]; · iexact Hs_14
      isplitl [Hs_15]; · iexact Hs_15
      isplitl [Hs_16]; · iexact Hs_16
      iexact Hs_17
    isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
    ·
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      iexact Hd31
    iexact HO
  · ipureintro
    exact gath_step (Memref.whole cc0_scratch0) h4 X u (blk0 i) f₀ k.val (Nat.lt_of_lt_of_eq k.isLt trips0) (dstOff0 k) (dstRow0 k) (dstOff0_eq k) (dstRow0_inj k)
      (fun s => rfl) (dstOff0_inb k) pay hpAll fs hfs

end Cert.KernelIdeal.Hand

end
-- ==== Proof.KI.Loop0.lean ====
/-
  The first region's loop, by its invariant.  Before trip `k` the scratch reads as the block with rows below
  `32 k` filled from the table and the rest as the loop found them; the column, the table held for reading and the
  region's own counters at zero are as they were.  One trip takes this from `k` to `k + 1`.
-/
import proofs.«423058_j50337016709696_1_alg».proof.Proof.KI.Trip0

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Before trip `k`: the scratch reads as the block with rows below `32 k` filled; the rest as the loop found it. -/
abbrev inv0 (c : Dev nD) (i : grid0.Coords) (h1 : (Memref.whole main_v1).IsWhole)
    (h2 : (Memref.whole main_v3).IsWhole) (X : S131072.Idx → Elt F .i32) (u : S500000x32.Idx → Elt F .f32)
    (f₀ : S1024x32.Idx → Elt F .f32) (k : ℕ) : sProp (𝕄K F) :=
  iprop(∃ fs : Bf (F := F) c (Memref.whole cc0_scratch0),
    ⌜(Memref.whole cc0_scratch0).view.read (Elt F) fs = Cert.Gather.gath X u (blk0 i) f₀ k⌝
    ∗ Trip0 c h1 h2 X u fs ∗ (∃ W, owes (c : Thread nD τ) 0 W))

@[sl_loop] noncomputable def loopInv0 (c : Dev nD) (X : S131072.Idx → Elt F .i32) (hX : ∀ j, (X j).toNat < 500000)
    (u : S500000x32.Idx → Elt F .f32) (f₀ : S1024x32.Idx → Elt F .f32)
    (i : grid0.Coords) (h1 : (Memref.whole main_v1).IsWhole) (h2 : (Memref.whole main_v3).IsWhole)
    (M3 : Memref sig .tc .vmem S1024x32 .f32) (h3 : M3.IsWhole) (h4 : (Memref.whole cc0_scratch0).IsWhole) :
    Cert.KernelIdeal.Gen.LoopInvTy_k0_t1 (F := F) Unit ℕ UU ℕ Variants.none c none Set.univ i (Memref.whole main_v1) h1 (Memref.whole main_v3) h2
      M3 h3 (Memref.whole cc0_scratch0) h4 cc0_scratch1 (Scalar.muli (BitVec.ofNat 32 (i 0).val) 1024#32) where
  inv := fun k _ => inv0 c i h1 h2 X u f₀ k
  step := fun k _ => by
    unfold inv0
    iintro ⟨%fs, %hfs, HT, %W, HO⟩
    iapply (trip0 c i M3 h3 h1 h2 h4 X hX u f₀ fs k hfs W _)
    isplitl [HT]; · iexact HT
    isplitl [HO]; · iexact HO
    iintro ⟨%fs', %hfs', HT', HO'⟩
    iexists fs'
    isplitr; · ipureintro; exact hfs'
    isplitl [HT']; · iexact HT'
    iexact HO'

end Cert.KernelIdeal.Hand

end
-- ==== Proof.KI.WholeBlock.lean ====
/-
  Copying a block whole.  A block that is overwritten by one store of another block read whole reads as that
  other block: the store's one rectangle covers every element, and reading a block through the rectangle that
  is the whole of it reads the block.
-/
import proofs.«423058_j50337016709696_1_alg».proof.Proof.KI.Base
import Idealize.ShloMosaic.Lib.Pipeline.FrameBody

noncomputable section

namespace Cert.KernelIdeal.Hand

open Cert.KernelIdeal Cert.KernelIdeal.Gen
open Idealize.ShloMosaic

variable {F : FTy → Type} [FloatOps F]

/-- The whole of a 1024x32 block, as the rectangle the kernels load and store it through. -/
abbrev rBlk : Rect S1024x32 := Rect.unit (s := S1024x32) ![0, 0] S1024x32.size inb_S1024x32_S1024x32_0_0

/-- The whole block is one rectangle of itself. -/
theorem cover_blk (p0 : Vec F S1024x32 .f32) (y : S1024x32.Idx) :
    ∃ pc ∈ ([⟨rBlk, p0⟩] : List (View.Piece (Elt F) S1024x32 .f32)), y ∈ pc.1.set :=
  View.cover_of_tiled [⟨rBlk, p0⟩] S1024x32.size (by rfl) y

/-- One store of a block read whole leaves that block: for any memref `sc` of the block's shape at raw contents `f`. -/
theorem canon_whole_read (sc : Memref sig .tc .vmem S1024x32 .f32) (f : sc.view.ty.Contents (Elt F)) :
    View.canon [⟨rBlk, View.readAt (Elt F) sc.view rBlk.toLoadRect f⟩] = sc.view.read (Elt F) f := by
  funext y
  have hy : y ∈ (rBlk : Rect S1024x32).set := by
    obtain ⟨pc, hpc, hmem⟩ := cover_blk (F := F) (View.readAt (Elt F) sc.view rBlk.toLoadRect f) y
    rw [List.mem_singleton.mp hpc] at hmem
    exact hmem
  obtain ⟨x, rfl⟩ : ∃ x, (rBlk : Rect S1024x32).emb x = y := (rBlk : Rect S1024x32).exists_idx_of_mem hy
  rw [View.canon_cons_emb]
  rfl

end Cert.KernelIdeal.Hand

end
-- ==== Proof.KI.Gather0.lean ====
/-
  The first region's body.  At grid point `i` it fills its scratch with the 1024 table rows that the
  region's column of index words names at positions `1024 i` to `1024 i + 1023`, 32 rows a trip by 32
  transfers in flight at once, each waited for before the trip ends, and then copies the scratch to the
  result's block.  The table is only read, by several transfers at a time, so it is held as one read
  share per transfer; every index word is below the table's height, which is what each transfer's
  source window asks.
-/
import proofs.«423058_j50337016709696_1_alg».proof.Proof.KI.Loop0
import proofs.«423058_j50337016709696_1_alg».proof.Proof.KI.WholeBlock

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

-- the body is run across its loop and through the copy of the scratch to the result's block
set_option maxHeartbeats 4000000 in
/-- The body at grid point `i`: from the result's staging block and the scratch at anything, the index column at `X`
    (every word below the table's height), the table at `u` held for reading, the counters at zero and nothing owed, it
    runs to the continuation with the result's block filled (`Gather.filled X u i`), and everything else as it was. -/
theorem sound_gather0 (c : Dev nD) (i : grid0.Coords)
    (arg3 : Memref sig .tc .vmem S1024x32 .f32) (harg3 : arg3.IsWhole)
    (h1 : (Memref.whole main_v1).IsWhole) (h2 : (Memref.whole main_v3).IsWhole) (h4 : (Memref.whole cc0_scratch0).IsWhole)
    (X : S131072.Idx → Elt F .i32) (hX : ∀ j, (X j).toNat < 500000) (u : S500000x32.Idx → Elt F .f32)
    (W : Waits sig Unit) (K : PUnit → sProp (𝕄K F)) :
    iprop((∃ d, owns (c : Thread nD τ) arg3 fullShare d) ∗ (∃ f, pt c (Memref.whole cc0_scratch0) f)
        ∗ pt c (Memref.whole main_v1) (h1.unread X) ∗ toks0 c (h2.unread u) ∗ sems0 c ∗ owes (c : Thread nD τ) 0 W
        ∗ (iprop(owns (c : Thread nD τ) arg3 fullShare (Cert.Gather.filled X u (blk0 i)) ∗ (∃ f, pt c (Memref.whole cc0_scratch0) f)
              ∗ pt c (Memref.whole main_v1) (h1.unread X) ∗ toks0 c (h2.unread u) ∗ sems0 c ∗ (∃ W', owes (c : Thread nD τ) 0 W')) -∗ K ⟨⟩))
      ⊢ wp frame (wpE (defs₀ (F := F)) Variants.none c none) Set.univ
          (cc0__gather_kernel i (Memref.whole main_v1) h1 (Memref.whole main_v3) h2 arg3 harg3 (Memref.whole cc0_scratch0) h4 cc0_scratch1) K := by
  simp only [cc0__gather_kernel_eq_skeleton]; unfold cc0__gather_kernel_skel
  unfold owns
  iintro ⟨⟨%d3, %f3, -, H3⟩, ⟨%fs₀, Hs⟩, Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO, Hk⟩
  sl_exec
  sl_step
  iapply Hk
  -- the result's block: one whole-block store of the scratch read whole
  isplitl [H3]
  · iexists _; isplitr; swap; · iexact H3
    ipureintro
    rw [View.read_writes_eq_canon _ _ _ (cover_blk _), canon_whole_read, hL0]
    exact Cert.Gather.gath_last X u (blk0 i) _
  isplitl [Hs]; · iexists _; iexact Hs
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks0
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · unfold sems0
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.KernelIdeal.Hand

end
-- ==== Proof.KI.Region0.lean ====
/-
  The first region's proof data and body obligation, at the contents `V` the buffers hold when the region is
  entered and the contents `a` of its column of index words.  At grid point `t` the body leaves in the result's
  block the 1024 table rows that the column names at positions `1024 t` onward.  Between points the region keeps
  the table it reads, its own 32 semaphores at zero, the column, and its scratch at whatever the last point left.
-/
import proofs.«423058_j50337016709696_1_alg».proof.Proof.KI.Gather0
import proofs.«423058_j50337016709696_1_alg».proof.Proof.GatherSpec
import proofs.«423058_j50337016709696_1_alg».proof.Proof.Gen.KernelIdeal.Launch
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
variable (a : (pcfg0 (F := F)).Adm)

/-- The region's own 32 semaphores: the core's DMA semaphores 2 to 33. -/
abbrev osem0 : Fin 32 → SemLoc sig := fun k => .dma ⟨2 + k.val, by show 2 + k.val < 109; omega⟩

/-- The column of index words, as the function its contents read as. -/
abbrev col0 : S131072.Idx → Elt F .i32 := (Memref.whole main_v1).view.read (Elt F) (a.1 0)

/-- The table, as the function its contents read as when the region is entered. -/
abbrev tbl0 (c : Dev nD) : S500000x32.Idx → Elt F .f32 := (Memref.whole main_v3).view.read (Elt F) (V c main_v3)

/-- Grid point `t` as a block number. -/
abbrev blkAt0 (t : Fin (cfg0 a).N) : Fin 128 := ⟨((cfg0 a).grid.coords t 0).val, ((cfg0 a).grid.coords t 0).isLt⟩

/-- What the region keeps between points: the table at its entry contents, its own semaphores at zero, the column,
    and the scoped buffers no window stages (its scratch among them, at anything). -/
def Φ0 (c : Dev nD) : sProp (𝕄K F) :=
  iprop((((c : Thread nD τ).loc main_v3) ↦{fullShare} V c main_v3)
    ∗ Pipeline.ownSems0 (Ix := Unit) (Name := ℕ) (U := UU) (Lvl := ℕ) (Val := Elt F) osem0 c
    ∗ Pipeline.prefHeld (Ix := Unit) (Name := ℕ) (U := UU) (Lvl := ℕ) pre0 c (fun _ => fullShare) a.1
    ∗ Pipeline.scopedRest (Ix := Unit) (Name := ℕ) (U := UU) (Lvl := ℕ) (Val := Elt F) spec0 c)

/-- The first region's proof data: the result's array as found; after the body at point `t` the result's block
    filled from the table by the column; the invariant `Φ0`; nothing owed; full shares. -/
def dat0 (c : Dev nD) : Dat τ (Elt F) Unit ℕ UU ℕ (cfg0 a) c where
  A w := V c (Pipeline.arrRef spec0 w)
  after w t := match w with
    | ⟨0, _⟩ => Cert.Gather.filled (col0 a) (tbl0 V c) (blkAt0 a t)
  Φ _ := Φ0 V a c
  q _ := fullShare
  owed _ := 0

/-! ## The invariant's parts in the shape the body's triple takes them -/

/-- The region's own semaphores at zero, written out one by one. -/
theorem ownSems0_eq (c : Dev nD) :
    (Pipeline.ownSems0 (Ix := Unit) (Name := ℕ) (U := UU) (Lvl := ℕ) (Val := Elt F) osem0 c : sProp (𝕄K F)) = sems0 c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl

/-- The column is the one prefetched table, held whole; its contents are the raw contents that read as `col0`. -/
theorem prefHeld0_eq (c : Dev nD) (h1 : (Memref.whole main_v1).IsWhole) :
    (Pipeline.prefHeld (Ix := Unit) (Name := ℕ) (U := UU) (Lvl := ℕ) pre0 c (fun _ => fullShare) a.1 : sProp (𝕄K F))
      = pt c (Memref.whole main_v1) (h1.unread (col0 a)) := by
  have e : h1.unread (col0 (F := F) a) = a.1 0 := h1.unread_read _
  rw [e]
  exact bigSep_W0 _

/-- The table's contents at entry are the raw contents that read as `tbl0`. -/
theorem table0_eq (c : Dev nD) (h2 : (Memref.whole main_v3).IsWhole) :
    ((((c : Thread nD τ).loc main_v3) ↦{fullShare} V c main_v3 : sProp (𝕄K F)))
      = pt c (Memref.whole main_v3) (h2.unread (tbl0 V c)) := by
  rw [h2.unread_read]

/-- The table held whole is what is left after 34 read shares are dealt off, the read shares below the region's
    own, and the 32 the transfers take: a full share deals into a remainder and any number of read shares, and back. -/
theorem table0_toks (c : Dev nD) (f : Bf (F := F) c (Memref.whole main_v3)) :
    pt c (Memref.whole main_v3) f ⊣⊢
      iprop(ptq c (Memref.whole main_v3) (Transfers.shareDrop fullShare 34) f
        ∗ bigSep (Finset.range 2) (fun i => ptq c (Memref.whole main_v3) (Transfers.shareTokN fullShare i) f)
        ∗ toks0 c f) := by
  have h := Transfers.pointsTo_toks_range (Ix := Unit) (Name := ℕ) (U := UU) (Lvl := ℕ) (Val := Elt F)
    (ℓ := (Memref.whole main_v3).view.loc (c : Thread nD τ)) (S := Finset.univ) (f := f) fullShare 34
  rw [show Finset.range 34 = Finset.range 2 ∪ [2, 3, 4, 5, 6, 7, 8, 9, 10, 11, 12, 13, 14, 15, 16, 17, 18, 19, 20, 21, 22, 23, 24, 25, 26, 27, 28, 29, 30, 31, 32, 33].toFinset by decide,
    BI.bigSep_union (show Disjoint (Finset.range 2) [2, 3, 4, 5, 6, 7, 8, 9, 10, 11, 12, 13, 14, 15, 16, 17, 18, 19, 20, 21, 22, 23, 24, 25, 26, 27, 28, 29, 30, 31, 32, 33].toFinset by decide),
    BI.bigSep_eq_bigSepL [2, 3, 4, 5, 6, 7, 8, 9, 10, 11, 12, 13, 14, 15, 16, 17, 18, 19, 20, 21, 22, 23, 24, 25, 26, 27, 28, 29, 30, 31, 32, 33] (by decide)] at h
  exact h

/-- The scoped buffers no window stages are the region's scratch and the others. -/
theorem scopedRest0_split (c : Dev nD) :
    (Pipeline.scopedRest (Ix := Unit) (Name := ℕ) (U := UU) (Lvl := ℕ) (Val := Elt F) spec0 c : sProp (𝕄K F))
      = iprop((∃ f, pt c (Memref.whole cc0_scratch0) f)
          ∗ Pipeline.scopedRestBut (Ix := Unit) (Name := ℕ) (U := UU) (Lvl := ℕ) (Val := Elt F) spec0 c [cc0_scratch0]) :=
  Pipeline.scopedRest_split_of_list spec0 c [cc0_scratch0] (by decide) (by decide)

/-- Everything the region keeps that the body never touches: what is left of the table beside the transfers' read
    shares, and the scoped buffers other than the scratch. -/
abbrev aside0 (c : Dev nD) (h2 : (Memref.whole main_v3).IsWhole) : sProp (𝕄K F) :=
  iprop(ptq c (Memref.whole main_v3) (Transfers.shareDrop fullShare 34) (h2.unread (tbl0 V c))
    ∗ bigSep (Finset.range 2) (fun i => ptq c (Memref.whole main_v3) (Transfers.shareTokN fullShare i) (h2.unread (tbl0 V c)))
    ∗ Pipeline.scopedRestBut (Ix := Unit) (Name := ℕ) (U := UU) (Lvl := ℕ) (Val := Elt F) spec0 c [cc0_scratch0])

/-- The invariant, both ways, as what the body's triple takes and gives back — the scratch at anything, the column,
    the table's 32 read shares, the semaphores at zero — beside what the body never touches. -/
theorem Φ0_body (c : Dev nD) (h1 : (Memref.whole main_v1).IsWhole) (h2 : (Memref.whole main_v3).IsWhole) :
    Φ0 V a c ⊣⊢
      iprop((∃ f, pt c (Memref.whole cc0_scratch0) f) ∗ pt c (Memref.whole main_v1) (h1.unread (col0 a))
        ∗ toks0 c (h2.unread (tbl0 V c)) ∗ sems0 c ∗ aside0 V c h2) := by
  unfold Φ0
  rw [table0_eq V c h2, ownSems0_eq, prefHeld0_eq a c h1, scopedRest0_split]
  constructor
  · iintro ⟨Htab, Hsems, Hcol, Hscr, Hrest⟩
    icases (table0_toks c (h2.unread (tbl0 V c))).1 $$ Htab with ⟨Hd, Hlow, Htoks⟩
    isplitl [Hscr]; · iexact Hscr
    isplitl [Hcol]; · iexact Hcol
    isplitl [Htoks]; · iexact Htoks
    isplitl [Hsems]; · iexact Hsems
    isplitl [Hd]; · iexact Hd
    isplitl [Hlow]; · iexact Hlow
    iexact Hrest
  · iintro ⟨Hscr, Hcol, Htoks, Hsems, Hd, Hlow, Hrest⟩
    isplitl [Hd Hlow Htoks]
    · iapply (table0_toks c (h2.unread (tbl0 V c))).2
      isplitl [Hd]; · iexact Hd
      isplitl [Hlow]; · iexact Hlow
      iexact Htoks
    isplitl [Hsems]; · iexact Hsems
    isplitl [Hcol]; · iexact Hcol
    isplitl [Hscr]; · iexact Hscr
    iexact Hrest

/-! ## The proof data, projected -/

/-- What the body leaves in the result's block at point `t`. -/
theorem after0_0 (c : Dev nD) (t : Fin (cfg0 a).N) :
    (dat0 V a c).after 0 t = Cert.Gather.filled (col0 a) (tbl0 V c) (blkAt0 a t) := by dsimp only [dat0]; rfl

/-! ## The obligation's two sides -/

/-- The one window's current staging memref at point `t`. -/
abbrev st0_0 (t : Fin (cfg0 a).N) := ((cfg0 a).win 0).stage ((cfg0 a).slots t 0)

/-- The body at point `t`, on what the pipeline calls it with. -/
abbrev bodyAt0 (t : Fin (cfg0 a).N) : Prog (TpuEff nD τ sig (Elt F) Λ₀ .tc) PUnit :=
  cc0__gather_kernel ((cfg0 a).grid.coords t) (Memref.whole main_v1) (Memref.isWhole_whole _) (Memref.whole main_v3) (Memref.isWhole_whole _)
    (spec0_0.stage ((cfg0 a).slots t 0)) (hstage0_0 (((cfg0 a).slots t 0).cast nbuf0_0))
    (Memref.whole cc0_scratch0) (Memref.isWhole_whole _) cc0_scratch1

/-- What the body is handed at point `t`: the invariant, what the core owes, and the result's current buffer. -/
def bodyPre0 (c : Dev nD) (t : Fin (cfg0 a).N) : sProp (𝕄K F) :=
  iprop((dat0 V a c).Φ t.castSucc ∗ (dat0 V a c).owesAt () t.castSucc
    ∗ (∃ d, owns (c : Thread nD τ) (st0_0 a t) fullShare ((dat0 V a c).before 0 t d)))

/-- What it hands back: the same at the next point, the buffer at what the body leaves there. -/
def bodyPost0 (c : Dev nD) (t : Fin (cfg0 a).N) : sProp (𝕄K F) :=
  iprop((dat0 V a c).Φ t.succ ∗ (dat0 V a c).owesAt () t.succ
    ∗ owns (c : Thread nD τ) (st0_0 a t) fullShare ((dat0 V a c).after 0 t))

/-- The body at any point: the invariant opens into what the body's triple takes, the triple runs, and what it gives
    back closes into the invariant again; the core owes nothing before and nothing after, and the bound on its
    recorded waits is the whole set, so it asks nothing. -/
theorem sound_body0 (c : Dev nD) (hX : ∀ j, ((col0 a) j).toNat < 500000) (t : Fin (cfg0 a).N) :
    bodyPre0 V a c t ⊢ wp frame (wpE (defs₀ (F := F)) Variants.none c none) Set.univ (bodyAt0 a t) (fun _ => bodyPost0 V a c t) := by
  unfold bodyPre0 bodyPost0
  rw [show (dat0 V a c).Φ t.succ = Φ0 V a c from rfl, show (dat0 V a c).Φ t.castSucc = Φ0 V a c from rfl, after0_0]
  iintro ⟨HΦ, ⟨%W, %hW, Ho⟩, ⟨%d, Hw⟩⟩
  icases (Φ0_body V a c (Memref.isWhole_whole _) (Memref.isWhole_whole _)).1 $$ HΦ with ⟨Hscr, Hcol, Htoks, Hsems, Hrest⟩
  iapply (sound_gather0 c ((cfg0 a).grid.coords t) (spec0_0.stage ((cfg0 a).slots t 0)) (hstage0_0 (((cfg0 a).slots t 0).cast nbuf0_0))
    (Memref.isWhole_whole _) (Memref.isWhole_whole _) (Memref.isWhole_whole _) (col0 a) hX (tbl0 V c) W _)
  isplitl [Hw]; · iexists _; iexact Hw
  isplitl [Hscr]; · iexact Hscr
  isplitl [Hcol]; · iexact Hcol
  isplitl [Htoks]; · iexact Htoks
  isplitl [Hsems]; · iexact Hsems
  isplitl [Ho]; · iexact Ho
  iintro ⟨Hw, Hscr, Hcol, Htoks, Hsems, ⟨%W', Ho⟩⟩
  isplitl [Hscr Hcol Htoks Hsems Hrest]
  · iapply (Φ0_body V a c (Memref.isWhole_whole _) (Memref.isWhole_whole _)).2
    isplitl [Hscr]; · iexact Hscr
    isplitl [Hcol]; · iexact Hcol
    isplitl [Htoks]; · iexact Htoks
    isplitl [Hsems]; · iexact Hsems
    iexact Hrest
  isplitl [Ho]
  · iexists W'; isplitr
    · ipureintro; exact fun _ _ => Or.inl trivial
    iexact Ho
  iexact Hw

/-- The library's body obligation for the first region, at every point, when every word of the column is below the
    table's height. -/
theorem body_obligation0 (c : Dev nD) (hX : ∀ j, ((col0 a) j).toNat < 500000) :
    BodyObligation (dat0 (F := F) V a c) (defs₀ (F := F)) Variants.none () Set.univ := fun t => by
  rw [bigSep_W0, bigSep_W0]
  exact sound_body0 V a c hX t

end Cert.KernelIdeal.Hand

end
-- ==== Proof.KI.Cells1.lean ====
/-
  The second region's cells: the 32 semaphores of its own that its transfers complete on (the core's 36 to 67),
  their counters, and the table it reads held as one read share for each of them, so that transfers reading the
  same table row do not compete.
-/
import proofs.«423058_j50337016709696_1_alg».proof.Proof.KI.Base
import proofs.«423058_j50337016709696_1_alg».proof.Proof.GatherSpec
import Idealize.ShloMosaic.Lib.Pipeline.FrameBody

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The second region's table held for reading: one read share for each of the 32 transfers of a trip, indexed by the
    transfer's semaphore (the region's own semaphores are the core's 36 to 67). -/
abbrev toks1 (c : Dev nD) (f : Bf (F := F) c (Memref.whole main_v8)) : sProp (𝕄K F) :=
  iprop(ptq c (Memref.whole main_v8) (Transfers.shareTokN fullShare 36) f
      ∗ ptq c (Memref.whole main_v8) (Transfers.shareTokN fullShare 37) f
      ∗ ptq c (Memref.whole main_v8) (Transfers.shareTokN fullShare 38) f
      ∗ ptq c (Memref.whole main_v8) (Transfers.shareTokN fullShare 39) f
      ∗ ptq c (Memref.whole main_v8) (Transfers.shareTokN fullShare 40) f
      ∗ ptq c (Memref.whole main_v8) (Transfers.shareTokN fullShare 41) f
      ∗ ptq c (Memref.whole main_v8) (Transfers.shareTokN fullShare 42) f
      ∗ ptq c (Memref.whole main_v8) (Transfers.shareTokN fullShare 43) f
      ∗ ptq c (Memref.whole main_v8) (Transfers.shareTokN fullShare 44) f
      ∗ ptq c (Memref.whole main_v8) (Transfers.shareTokN fullShare 45) f
      ∗ ptq c (Memref.whole main_v8) (Transfers.shareTokN fullShare 46) f
      ∗ ptq c (Memref.whole main_v8) (Transfers.shareTokN fullShare 47) f
      ∗ ptq c (Memref.whole main_v8) (Transfers.shareTokN fullShare 48) f
      ∗ ptq c (Memref.whole main_v8) (Transfers.shareTokN fullShare 49) f
      ∗ ptq c (Memref.whole main_v8) (Transfers.shareTokN fullShare 50) f
      ∗ ptq c (Memref.whole main_v8) (Transfers.shareTokN fullShare 51) f
      ∗ ptq c (Memref.whole main_v8) (Transfers.shareTokN fullShare 52) f
      ∗ ptq c (Memref.whole main_v8) (Transfers.shareTokN fullShare 53) f
      ∗ ptq c (Memref.whole main_v8) (Transfers.shareTokN fullShare 54) f
      ∗ ptq c (Memref.whole main_v8) (Transfers.shareTokN fullShare 55) f
      ∗ ptq c (Memref.whole main_v8) (Transfers.shareTokN fullShare 56) f
      ∗ ptq c (Memref.whole main_v8) (Transfers.shareTokN fullShare 57) f
      ∗ ptq c (Memref.whole main_v8) (Transfers.shareTokN fullShare 58) f
      ∗ ptq c (Memref.whole main_v8) (Transfers.shareTokN fullShare 59) f
      ∗ ptq c (Memref.whole main_v8) (Transfers.shareTokN fullShare 60) f
      ∗ ptq c (Memref.whole main_v8) (Transfers.shareTokN fullShare 61) f
      ∗ ptq c (Memref.whole main_v8) (Transfers.shareTokN fullShare 62) f
      ∗ ptq c (Memref.whole main_v8) (Transfers.shareTokN fullShare 63) f
      ∗ ptq c (Memref.whole main_v8) (Transfers.shareTokN fullShare 64) f
      ∗ ptq c (Memref.whole main_v8) (Transfers.shareTokN fullShare 65) f
      ∗ ptq c (Memref.whole main_v8) (Transfers.shareTokN fullShare 66) f
      ∗ ptq c (Memref.whole main_v8) (Transfers.shareTokN fullShare 67) f)

/-- The second region's 32 semaphores' counters at zero. -/
abbrev sems1 (c : Dev nD) : sProp (𝕄K F) :=
  iprop(semVal ((c : Thread nD τ), (SemLoc.dma 36 : SemLoc sig)) 0
      ∗ semVal ((c : Thread nD τ), (SemLoc.dma 37 : SemLoc sig)) 0
      ∗ semVal ((c : Thread nD τ), (SemLoc.dma 38 : SemLoc sig)) 0
      ∗ semVal ((c : Thread nD τ), (SemLoc.dma 39 : SemLoc sig)) 0
      ∗ semVal ((c : Thread nD τ), (SemLoc.dma 40 : SemLoc sig)) 0
      ∗ semVal ((c : Thread nD τ), (SemLoc.dma 41 : SemLoc sig)) 0
      ∗ semVal ((c : Thread nD τ), (SemLoc.dma 42 : SemLoc sig)) 0
      ∗ semVal ((c : Thread nD τ), (SemLoc.dma 43 : SemLoc sig)) 0
      ∗ semVal ((c : Thread nD τ), (SemLoc.dma 44 : SemLoc sig)) 0
      ∗ semVal ((c : Thread nD τ), (SemLoc.dma 45 : SemLoc sig)) 0
      ∗ semVal ((c : Thread nD τ), (SemLoc.dma 46 : SemLoc sig)) 0
      ∗ semVal ((c : Thread nD τ), (SemLoc.dma 47 : SemLoc sig)) 0
      ∗ semVal ((c : Thread nD τ), (SemLoc.dma 48 : SemLoc sig)) 0
      ∗ semVal ((c : Thread nD τ), (SemLoc.dma 49 : SemLoc sig)) 0
      ∗ semVal ((c : Thread nD τ), (SemLoc.dma 50 : SemLoc sig)) 0
      ∗ semVal ((c : Thread nD τ), (SemLoc.dma 51 : SemLoc sig)) 0
      ∗ semVal ((c : Thread nD τ), (SemLoc.dma 52 : SemLoc sig)) 0
      ∗ semVal ((c : Thread nD τ), (SemLoc.dma 53 : SemLoc sig)) 0
      ∗ semVal ((c : Thread nD τ), (SemLoc.dma 54 : SemLoc sig)) 0
      ∗ semVal ((c : Thread nD τ), (SemLoc.dma 55 : SemLoc sig)) 0
      ∗ semVal ((c : Thread nD τ), (SemLoc.dma 56 : SemLoc sig)) 0
      ∗ semVal ((c : Thread nD τ), (SemLoc.dma 57 : SemLoc sig)) 0
      ∗ semVal ((c : Thread nD τ), (SemLoc.dma 58 : SemLoc sig)) 0
      ∗ semVal ((c : Thread nD τ), (SemLoc.dma 59 : SemLoc sig)) 0
      ∗ semVal ((c : Thread nD τ), (SemLoc.dma 60 : SemLoc sig)) 0
      ∗ semVal ((c : Thread nD τ), (SemLoc.dma 61 : SemLoc sig)) 0
      ∗ semVal ((c : Thread nD τ), (SemLoc.dma 62 : SemLoc sig)) 0
      ∗ semVal ((c : Thread nD τ), (SemLoc.dma 63 : SemLoc sig)) 0
      ∗ semVal ((c : Thread nD τ), (SemLoc.dma 64 : SemLoc sig)) 0
      ∗ semVal ((c : Thread nD τ), (SemLoc.dma 65 : SemLoc sig)) 0
      ∗ semVal ((c : Thread nD τ), (SemLoc.dma 66 : SemLoc sig)) 0
      ∗ semVal ((c : Thread nD τ), (SemLoc.dma 67 : SemLoc sig)) 0)

/-- The grid point as a block number. -/
abbrev blk1 (i : grid1.Coords) : Fin 128 := ⟨(i 0).val, (i 0).isLt⟩

end Cert.KernelIdeal.Hand

end
-- ==== Proof.KI.Rows1.lean ====
/-
  The 32 rows a trip of the second region's loop fills, as one family: transfer `s` of trip `k` goes to row
  `32 k + s` of the scratch.
-/
import proofs.«423058_j50337016709696_1_alg».proof.Proof.KI.Base

noncomputable section

namespace Cert.KernelIdeal.Hand

open Cert.KernelIdeal Cert.KernelIdeal.Gen
open Idealize.ShloMosaic

/-- The offsets the kernel computes for transfer `s`'s destination row at trip `k`. -/
def dstOff1 (k : Fin k1_t1_loop.trips) : Fin 32 → Fin 2 → ℕ
  | ⟨0, _⟩ => k1_off2 k
  | ⟨1, _⟩ => k1_off5 k
  | ⟨2, _⟩ => k1_off8 k
  | ⟨3, _⟩ => k1_off11 k
  | ⟨4, _⟩ => k1_off14 k
  | ⟨5, _⟩ => k1_off17 k
  | ⟨6, _⟩ => k1_off20 k
  | ⟨7, _⟩ => k1_off23 k
  | ⟨8, _⟩ => k1_off26 k
  | ⟨9, _⟩ => k1_off29 k
  | ⟨10, _⟩ => k1_off32 k
  | ⟨11, _⟩ => k1_off35 k
  | ⟨12, _⟩ => k1_off38 k
  | ⟨13, _⟩ => k1_off41 k
  | ⟨14, _⟩ => k1_off44 k
  | ⟨15, _⟩ => k1_off47 k
  | ⟨16, _⟩ => k1_off50 k
  | ⟨17, _⟩ => k1_off53 k
  | ⟨18, _⟩ => k1_off56 k
  | ⟨19, _⟩ => k1_off59 k
  | ⟨20, _⟩ => k1_off62 k
  | ⟨21, _⟩ => k1_off65 k
  | ⟨22, _⟩ => k1_off68 k
  | ⟨23, _⟩ => k1_off71 k
  | ⟨24, _⟩ => k1_off74 k
  | ⟨25, _⟩ => k1_off77 k
  | ⟨26, _⟩ => k1_off80 k
  | ⟨27, _⟩ => k1_off83 k
  | ⟨28, _⟩ => k1_off86 k
  | ⟨29, _⟩ => k1_off89 k
  | ⟨30, _⟩ => k1_off92 k
  | ⟨31, _⟩ => k1_off95 k
  | ⟨_ + 32, h⟩ => absurd h (Nat.not_lt.2 (Nat.le_add_left _ _))

/-- Each row lies inside the block. -/
theorem dstOff1_inb (k : Fin k1_t1_loop.trips) : ∀ (s : Fin 32) (a : Fin 2), dstOff1 k s a + S1x32.size a ≤ S1024x32.size a
  | ⟨0, _⟩ => k1_off2_inb k
  | ⟨1, _⟩ => k1_off5_inb k
  | ⟨2, _⟩ => k1_off8_inb k
  | ⟨3, _⟩ => k1_off11_inb k
  | ⟨4, _⟩ => k1_off14_inb k
  | ⟨5, _⟩ => k1_off17_inb k
  | ⟨6, _⟩ => k1_off20_inb k
  | ⟨7, _⟩ => k1_off23_inb k
  | ⟨8, _⟩ => k1_off26_inb k
  | ⟨9, _⟩ => k1_off29_inb k
  | ⟨10, _⟩ => k1_off32_inb k
  | ⟨11, _⟩ => k1_off35_inb k
  | ⟨12, _⟩ => k1_off38_inb k
  | ⟨13, _⟩ => k1_off41_inb k
  | ⟨14, _⟩ => k1_off44_inb k
  | ⟨15, _⟩ => k1_off47_inb k
  | ⟨16, _⟩ => k1_off50_inb k
  | ⟨17, _⟩ => k1_off53_inb k
  | ⟨18, _⟩ => k1_off56_inb k
  | ⟨19, _⟩ => k1_off59_inb k
  | ⟨20, _⟩ => k1_off62_inb k
  | ⟨21, _⟩ => k1_off65_inb k
  | ⟨22, _⟩ => k1_off68_inb k
  | ⟨23, _⟩ => k1_off71_inb k
  | ⟨24, _⟩ => k1_off74_inb k
  | ⟨25, _⟩ => k1_off77_inb k
  | ⟨26, _⟩ => k1_off80_inb k
  | ⟨27, _⟩ => k1_off83_inb k
  | ⟨28, _⟩ => k1_off86_inb k
  | ⟨29, _⟩ => k1_off89_inb k
  | ⟨30, _⟩ => k1_off92_inb k
  | ⟨31, _⟩ => k1_off95_inb k
  | ⟨_ + 32, h⟩ => absurd h (Nat.not_lt.2 (Nat.le_add_left _ _))

/-- The loop runs 32 trips. -/
theorem trips1 : k1_t1_loop.trips = 32 := by decide

/-- Transfer s of trip k fills row 32 k + s. -/
def dstRow1 (k : Fin k1_t1_loop.trips) (s : Fin 32) : Fin 1024 :=
  ⟨32 * k.val + s.val, by have hk : k.val < 32 := Nat.lt_of_lt_of_eq k.isLt trips1; have := s.isLt; omega⟩

/-- In closed form the offsets of transfer `s` are row `32 k + s`, lane 0. -/
theorem dstOff1_eq (k : Fin k1_t1_loop.trips) : ∀ s : Fin 32, dstOff1 k s = ![(dstRow1 k s).val, 0]
  | ⟨0, _⟩ => k1_off2_eq k
  | ⟨1, _⟩ => k1_off5_eq k
  | ⟨2, _⟩ => k1_off8_eq k
  | ⟨3, _⟩ => k1_off11_eq k
  | ⟨4, _⟩ => k1_off14_eq k
  | ⟨5, _⟩ => k1_off17_eq k
  | ⟨6, _⟩ => k1_off20_eq k
  | ⟨7, _⟩ => k1_off23_eq k
  | ⟨8, _⟩ => k1_off26_eq k
  | ⟨9, _⟩ => k1_off29_eq k
  | ⟨10, _⟩ => k1_off32_eq k
  | ⟨11, _⟩ => k1_off35_eq k
  | ⟨12, _⟩ => k1_off38_eq k
  | ⟨13, _⟩ => k1_off41_eq k
  | ⟨14, _⟩ => k1_off44_eq k
  | ⟨15, _⟩ => k1_off47_eq k
  | ⟨16, _⟩ => k1_off50_eq k
  | ⟨17, _⟩ => k1_off53_eq k
  | ⟨18, _⟩ => k1_off56_eq k
  | ⟨19, _⟩ => k1_off59_eq k
  | ⟨20, _⟩ => k1_off62_eq k
  | ⟨21, _⟩ => k1_off65_eq k
  | ⟨22, _⟩ => k1_off68_eq k
  | ⟨23, _⟩ => k1_off71_eq k
  | ⟨24, _⟩ => k1_off74_eq k
  | ⟨25, _⟩ => k1_off77_eq k
  | ⟨26, _⟩ => k1_off80_eq k
  | ⟨27, _⟩ => k1_off83_eq k
  | ⟨28, _⟩ => k1_off86_eq k
  | ⟨29, _⟩ => k1_off89_eq k
  | ⟨30, _⟩ => k1_off92_eq k
  | ⟨31, _⟩ => k1_off95_eq k
  | ⟨_ + 32, h⟩ => absurd h (Nat.not_lt.2 (Nat.le_add_left _ _))

/-- Different transfers of a trip fill different rows. -/
theorem dstRow1_inj (k : Fin k1_t1_loop.trips) : Function.Injective (dstRow1 k) := by
  intro s s' h
  have h' : 32 * k.val + s.val = 32 * k.val + s'.val := congrArg Fin.val h
  exact Fin.ext (by omega)

end Cert.KernelIdeal.Hand

end
-- ==== Proof.KI.Words1.lean ====
/-
  The positions, in the region's column of index words, of the 32 words a trip reads: transfer `s` of trip `k`
  at grid point `i` reads the word at position `1024 i + 32 k + s`, the one for row `32 k + s` of block `i`.
-/
import proofs.«423058_j50337016709696_1_alg».proof.Proof.KI.Rows1

noncomputable section

namespace Cert.KernelIdeal.Hand

open Cert.KernelIdeal Cert.KernelIdeal.Gen
open Idealize.ShloMosaic

/-- The offsets the kernel computes for the position of transfer `s`'s index word. -/
def wordOff1 (i : grid1.Coords) (k : Fin k1_t1_loop.trips) : Fin 32 → Fin 1 → ℕ
  | ⟨0, _⟩ => k1_off1 i k
  | ⟨1, _⟩ => k1_off4 i k
  | ⟨2, _⟩ => k1_off7 i k
  | ⟨3, _⟩ => k1_off10 i k
  | ⟨4, _⟩ => k1_off13 i k
  | ⟨5, _⟩ => k1_off16 i k
  | ⟨6, _⟩ => k1_off19 i k
  | ⟨7, _⟩ => k1_off22 i k
  | ⟨8, _⟩ => k1_off25 i k
  | ⟨9, _⟩ => k1_off28 i k
  | ⟨10, _⟩ => k1_off31 i k
  | ⟨11, _⟩ => k1_off34 i k
  | ⟨12, _⟩ => k1_off37 i k
  | ⟨13, _⟩ => k1_off40 i k
  | ⟨14, _⟩ => k1_off43 i k
  | ⟨15, _⟩ => k1_off46 i k
  | ⟨16, _⟩ => k1_off49 i k
  | ⟨17, _⟩ => k1_off52 i k
  | ⟨18, _⟩ => k1_off55 i k
  | ⟨19, _⟩ => k1_off58 i k
  | ⟨20, _⟩ => k1_off61 i k
  | ⟨21, _⟩ => k1_off64 i k
  | ⟨22, _⟩ => k1_off67 i k
  | ⟨23, _⟩ => k1_off70 i k
  | ⟨24, _⟩ => k1_off73 i k
  | ⟨25, _⟩ => k1_off76 i k
  | ⟨26, _⟩ => k1_off79 i k
  | ⟨27, _⟩ => k1_off82 i k
  | ⟨28, _⟩ => k1_off85 i k
  | ⟨29, _⟩ => k1_off88 i k
  | ⟨30, _⟩ => k1_off91 i k
  | ⟨31, _⟩ => k1_off94 i k
  | ⟨_ + 32, h⟩ => absurd h (Nat.not_lt.2 (Nat.le_add_left _ _))

/-- Each position lies inside the column. -/
theorem wordOff1_inb (i : grid1.Coords) (k : Fin k1_t1_loop.trips) : ∀ (s : Fin 32) (a : Fin 1), wordOff1 i k s a + S1.size a ≤ S131072.size a
  | ⟨0, _⟩ => k1_off1_inb i k
  | ⟨1, _⟩ => k1_off4_inb i k
  | ⟨2, _⟩ => k1_off7_inb i k
  | ⟨3, _⟩ => k1_off10_inb i k
  | ⟨4, _⟩ => k1_off13_inb i k
  | ⟨5, _⟩ => k1_off16_inb i k
  | ⟨6, _⟩ => k1_off19_inb i k
  | ⟨7, _⟩ => k1_off22_inb i k
  | ⟨8, _⟩ => k1_off25_inb i k
  | ⟨9, _⟩ => k1_off28_inb i k
  | ⟨10, _⟩ => k1_off31_inb i k
  | ⟨11, _⟩ => k1_off34_inb i k
  | ⟨12, _⟩ => k1_off37_inb i k
  | ⟨13, _⟩ => k1_off40_inb i k
  | ⟨14, _⟩ => k1_off43_inb i k
  | ⟨15, _⟩ => k1_off46_inb i k
  | ⟨16, _⟩ => k1_off49_inb i k
  | ⟨17, _⟩ => k1_off52_inb i k
  | ⟨18, _⟩ => k1_off55_inb i k
  | ⟨19, _⟩ => k1_off58_inb i k
  | ⟨20, _⟩ => k1_off61_inb i k
  | ⟨21, _⟩ => k1_off64_inb i k
  | ⟨22, _⟩ => k1_off67_inb i k
  | ⟨23, _⟩ => k1_off70_inb i k
  | ⟨24, _⟩ => k1_off73_inb i k
  | ⟨25, _⟩ => k1_off76_inb i k
  | ⟨26, _⟩ => k1_off79_inb i k
  | ⟨27, _⟩ => k1_off82_inb i k
  | ⟨28, _⟩ => k1_off85_inb i k
  | ⟨29, _⟩ => k1_off88_inb i k
  | ⟨30, _⟩ => k1_off91_inb i k
  | ⟨31, _⟩ => k1_off94_inb i k
  | ⟨_ + 32, h⟩ => absurd h (Nat.not_lt.2 (Nat.le_add_left _ _))

/-- In closed form the position is `1024 i + 32 k + s`. -/
theorem wordOff1_eq (i : grid1.Coords) (k : Fin k1_t1_loop.trips) : ∀ s : Fin 32, wordOff1 i k s = ![1024 * (i 0).val + 32 * k.val + s.val]
  | ⟨0, _⟩ => k1_off1_eq i k
  | ⟨1, _⟩ => k1_off4_eq i k
  | ⟨2, _⟩ => k1_off7_eq i k
  | ⟨3, _⟩ => k1_off10_eq i k
  | ⟨4, _⟩ => k1_off13_eq i k
  | ⟨5, _⟩ => k1_off16_eq i k
  | ⟨6, _⟩ => k1_off19_eq i k
  | ⟨7, _⟩ => k1_off22_eq i k
  | ⟨8, _⟩ => k1_off25_eq i k
  | ⟨9, _⟩ => k1_off28_eq i k
  | ⟨10, _⟩ => k1_off31_eq i k
  | ⟨11, _⟩ => k1_off34_eq i k
  | ⟨12, _⟩ => k1_off37_eq i k
  | ⟨13, _⟩ => k1_off40_eq i k
  | ⟨14, _⟩ => k1_off43_eq i k
  | ⟨15, _⟩ => k1_off46_eq i k
  | ⟨16, _⟩ => k1_off49_eq i k
  | ⟨17, _⟩ => k1_off52_eq i k
  | ⟨18, _⟩ => k1_off55_eq i k
  | ⟨19, _⟩ => k1_off58_eq i k
  | ⟨20, _⟩ => k1_off61_eq i k
  | ⟨21, _⟩ => k1_off64_eq i k
  | ⟨22, _⟩ => k1_off67_eq i k
  | ⟨23, _⟩ => k1_off70_eq i k
  | ⟨24, _⟩ => k1_off73_eq i k
  | ⟨25, _⟩ => k1_off76_eq i k
  | ⟨26, _⟩ => k1_off79_eq i k
  | ⟨27, _⟩ => k1_off82_eq i k
  | ⟨28, _⟩ => k1_off85_eq i k
  | ⟨29, _⟩ => k1_off88_eq i k
  | ⟨30, _⟩ => k1_off91_eq i k
  | ⟨31, _⟩ => k1_off94_eq i k
  | ⟨_ + 32, h⟩ => absurd h (Nat.not_lt.2 (Nat.le_add_left _ _))

end Cert.KernelIdeal.Hand

end
-- ==== Proof.KI.Handback1.lean ====
/-
  After a trip, everything the trip borrowed is back: the column, the table's read shares, the counters at zero,
  and the scratch whole again at its final contents (its 16 rows held apart rejoined).
-/
import proofs.«423058_j50337016709696_1_alg».proof.Proof.KI.Rejoin
import proofs.«423058_j50337016709696_1_alg».proof.Proof.KI.Cells1

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- 80 resources are sorted into their places and 16 rows rejoined
set_option maxHeartbeats 4000000 in
theorem handback1 (c : Dev nD) (hsc : (Memref.whole cc1_scratch0).IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32)
    (f : Bf (F := F) c (Memref.whole cc1_scratch0))
    (col : Bf (F := F) c (Memref.whole main_v6)) (tb : Bf (F := F) c (Memref.whole main_v8)) (W : Waits sig Unit) :
    let sc := Memref.whole cc1_scratch0
    (iprop(pt c (Memref.whole main_v6) col
        ∗ (ptq c (Memref.whole main_v8) (Transfers.shareTokN fullShare 36) tb
        ∗ ptq c (Memref.whole main_v8) (Transfers.shareTokN fullShare 37) tb
        ∗ ptq c (Memref.whole main_v8) (Transfers.shareTokN fullShare 38) tb
        ∗ ptq c (Memref.whole main_v8) (Transfers.shareTokN fullShare 39) tb
        ∗ ptq c (Memref.whole main_v8) (Transfers.shareTokN fullShare 40) tb
        ∗ ptq c (Memref.whole main_v8) (Transfers.shareTokN fullShare 41) tb
        ∗ ptq c (Memref.whole main_v8) (Transfers.shareTokN fullShare 42) tb
        ∗ ptq c (Memref.whole main_v8) (Transfers.shareTokN fullShare 43) tb
        ∗ ptq c (Memref.whole main_v8) (Transfers.shareTokN fullShare 44) tb
        ∗ ptq c (Memref.whole main_v8) (Transfers.shareTokN fullShare 45) tb
        ∗ ptq c (Memref.whole main_v8) (Transfers.shareTokN fullShare 46) tb
        ∗ ptq c (Memref.whole main_v8) (Transfers.shareTokN fullShare 47) tb
        ∗ ptq c (Memref.whole main_v8) (Transfers.shareTokN fullShare 48) tb
        ∗ ptq c (Memref.whole main_v8) (Transfers.shareTokN fullShare 49) tb
        ∗ ptq c (Memref.whole main_v8) (Transfers.shareTokN fullShare 50) tb
        ∗ ptq c (Memref.whole main_v8) (Transfers.shareTokN fullShare 51) tb
        ∗ ptq c (Memref.whole main_v8) (Transfers.shareTokN fullShare 52) tb
        ∗ ptq c (Memref.whole main_v8) (Transfers.shareTokN fullShare 53) tb
        ∗ ptq c (Memref.whole main_v8) (Transfers.shareTokN fullShare 54) tb
        ∗ ptq c (Memref.whole main_v8) (Transfers.shareTokN fullShare 55) tb
        ∗ ptq c (Memref.whole main_v8) (Transfers.shareTokN fullShare 56) tb
        ∗ ptq c (Memref.whole main_v8) (Transfers.shareTokN fullShare 57) tb
        ∗ ptq c (Memref.whole main_v8) (Transfers.shareTokN fullShare 58) tb
        ∗ ptq c (Memref.whole main_v8) (Transfers.shareTokN fullShare 59) tb
        ∗ ptq c (Memref.whole main_v8) (Transfers.shareTokN fullShare 60) tb
        ∗ ptq c (Memref.whole main_v8) (Transfers.shareTokN fullShare 61) tb
        ∗ ptq c (Memref.whole main_v8) (Transfers.shareTokN fullShare 62) tb
        ∗ ptq c (Memref.whole main_v8) (Transfers.shareTokN fullShare 63) tb
        ∗ ptq c (Memref.whole main_v8) (Transfers.shareTokN fullShare 64) tb
        ∗ ptq c (Memref.whole main_v8) (Transfers.shareTokN fullShare 65) tb
        ∗ ptq c (Memref.whole main_v8) (Transfers.shareTokN fullShare 66) tb
        ∗ ptq c (Memref.whole main_v8) (Transfers.shareTokN fullShare 67) tb)
        ∗ ((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega)))
        ∗ (semVal ((c : Thread nD τ), (SemLoc.dma 36 : SemLoc sig)) 0
        ∗ semVal ((c : Thread nD τ), (SemLoc.dma 37 : SemLoc sig)) 0
        ∗ semVal ((c : Thread nD τ), (SemLoc.dma 38 : SemLoc sig)) 0
        ∗ semVal ((c : Thread nD τ), (SemLoc.dma 39 : SemLoc sig)) 0
        ∗ semVal ((c : Thread nD τ), (SemLoc.dma 40 : SemLoc sig)) 0
        ∗ semVal ((c : Thread nD τ), (SemLoc.dma 41 : SemLoc sig)) 0
        ∗ semVal ((c : Thread nD τ), (SemLoc.dma 42 : SemLoc sig)) 0
        ∗ semVal ((c : Thread nD τ), (SemLoc.dma 43 : SemLoc sig)) 0
        ∗ semVal ((c : Thread nD τ), (SemLoc.dma 44 : SemLoc sig)) 0
        ∗ semVal ((c : Thread nD τ), (SemLoc.dma 45 : SemLoc sig)) 0
        ∗ semVal ((c : Thread nD τ), (SemLoc.dma 46 : SemLoc sig)) 0
        ∗ semVal ((c : Thread nD τ), (SemLoc.dma 47 : SemLoc sig)) 0
        ∗ semVal ((c : Thread nD τ), (SemLoc.dma 48 : SemLoc sig)) 0
        ∗ semVal ((c : Thread nD τ), (SemLoc.dma 49 : SemLoc sig)) 0
        ∗ semVal ((c : Thread nD τ), (SemLoc.dma 50 : SemLoc sig)) 0
        ∗ semVal ((c : Thread nD τ), (SemLoc.dma 51 : SemLoc sig)) 0
        ∗ semVal ((c : Thread nD τ), (SemLoc.dma 52 : SemLoc sig)) 0
        ∗ semVal ((c : Thread nD τ), (SemLoc.dma 53 : SemLoc sig)) 0
        ∗ semVal ((c : Thread nD τ), (SemLoc.dma 54 : SemLoc sig)) 0
        ∗ semVal ((c : Thread nD τ), (SemLoc.dma 55 : SemLoc sig)) 0
        ∗ semVal ((c : Thread nD τ), (SemLoc.dma 56 : SemLoc sig)) 0
        ∗ semVal ((c : Thread nD τ), (SemLoc.dma 57 : SemLoc sig)) 0
        ∗ semVal ((c : Thread nD τ), (SemLoc.dma 58 : SemLoc sig)) 0
        ∗ semVal ((c : Thread nD τ), (SemLoc.dma 59 : SemLoc sig)) 0
        ∗ semVal ((c : Thread nD τ), (SemLoc.dma 60 : SemLoc sig)) 0
        ∗ semVal ((c : Thread nD τ), (SemLoc.dma 61 : SemLoc sig)) 0
        ∗ semVal ((c : Thread nD τ), (SemLoc.dma 62 : SemLoc sig)) 0
        ∗ semVal ((c : Thread nD τ), (SemLoc.dma 63 : SemLoc sig)) 0
        ∗ semVal ((c : Thread nD τ), (SemLoc.dma 64 : SemLoc sig)) 0
        ∗ semVal ((c : Thread nD τ), (SemLoc.dma 65 : SemLoc sig)) 0
        ∗ semVal ((c : Thread nD τ), (SemLoc.dma 66 : SemLoc sig)) 0
        ∗ semVal ((c : Thread nD τ), (SemLoc.dma 67 : SemLoc sig)) 0)
        ∗ owes (c : Thread nD τ) 0 W) : sProp (𝕄K F))
      ⊢ iprop((pt c (Memref.whole main_v6) col ∗ toks1 c tb ∗ pt c sc (writeRows sc off h p f 32 (le_refl _)) ∗ sems1 c)
          ∗ ∃ W', owes (c : Thread nD τ) 0 W') := by
  intro sc
  iintro ⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hs, Hw0, Hw1, Hw2, Hw3, Hw4, Hw5, Hw6, Hw7, Hw8, Hw9, Hw10, Hw11, Hw12, Hw13, Hw14, Hw15⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO⟩
  isplitr [HO]; swap
  · iexists _; iexact HO
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks1
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hs Hw0 Hw1 Hw2 Hw3 Hw4 Hw5 Hw6 Hw7 Hw8 Hw9 Hw10 Hw11 Hw12 Hw13 Hw14 Hw15]
  · iapply (rejoin16 c sc hsc off ρ hoff hρ h p f)
    isplitl [Hs]; · iexact Hs
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  unfold sems1
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  isplitl [Hd23]; · iexact Hd23
  isplitl [Hd24]; · iexact Hd24
  isplitl [Hd25]; · iexact Hd25
  isplitl [Hd26]; · iexact Hd26
  isplitl [Hd27]; · iexact Hd27
  isplitl [Hd28]; · iexact Hd28
  isplitl [Hd29]; · iexact Hd29
  isplitl [Hd30]; · iexact Hd30
  iexact Hd31

end Cert.KernelIdeal.Hand

end
-- ==== Proof.KI.Trip1.lean ====
/-
  One trip of the second region's loop.  Before trip `k` the scratch holds the rows filled so far; the trip
  starts 32 transfers, one per row `32 k` to `32 k + 31`, each reading the table row its index word names,
  and waits for all of them; afterwards those 32 rows are filled too and nothing else has changed.
-/
import proofs.«423058_j50337016709696_1_alg».proof.Proof.KI.Cells1
import proofs.«423058_j50337016709696_1_alg».proof.Proof.KI.Rows1
import proofs.«423058_j50337016709696_1_alg».proof.Proof.KI.Rejoin
import proofs.«423058_j50337016709696_1_alg».proof.Proof.KI.GathStep
import proofs.«423058_j50337016709696_1_alg».proof.Proof.KI.Payload
import proofs.«423058_j50337016709696_1_alg».proof.Proof.KI.Words1
import proofs.«423058_j50337016709696_1_alg».proof.Proof.KI.Handback1
import proofs.«423058_j50337016709696_1_alg».proof.Proof.KI.RowWritesMore

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a trip needs and gives back, the scratch at raw contents `fs`: the column, the table held for reading, the
    scratch, the counters at zero.  (The result's staging block is not among them: a trip never touches it.) -/
abbrev Trip1 (c : Dev nD) (h1 : (Memref.whole main_v6).IsWhole)
    (h2 : (Memref.whole main_v8).IsWhole) (X : S131072.Idx → Elt F .i32) (u : S500000x32.Idx → Elt F .f32)
    (fs : Bf (F := F) c (Memref.whole cc1_scratch0)) : sProp (𝕄K F) :=
  iprop(pt c (Memref.whole main_v6) (h1.unread X) ∗ toks1 c (h2.unread u)
    ∗ pt c (Memref.whole cc1_scratch0) fs ∗ sems1 c)

-- one trip is 32 transfers started and then 32 awaited, run in one go, and 16 rows rejoined after it
set_option maxHeartbeats 40000000 in
/-- ONE trip: from the scratch reading as `Gather.gath X u i f₀ k` to the scratch reading as `Gather.gath X u i f₀ (k + 1)`,
    everything else as it was. -/
theorem trip1 (c : Dev nD) (i : grid1.Coords) (M3 : Memref sig .tc .vmem S1024x32 .f32) (h3 : M3.IsWhole)
    (h1 : (Memref.whole main_v6).IsWhole) (h2 : (Memref.whole main_v8).IsWhole) (h4 : (Memref.whole cc1_scratch0).IsWhole)
    (X : S131072.Idx → Elt F .i32) (hX : ∀ j, (X j).toNat < 500000) (u : S500000x32.Idx → Elt F .f32)
    (f₀ : S1024x32.Idx → Elt F .f32) (fs : Bf (F := F) c (Memref.whole cc1_scratch0))
    (k : Fin k1_t1_loop.trips) (hfs : (Memref.whole cc1_scratch0).view.read (Elt F) fs = Cert.Gather.gath X u (blk1 i) f₀ k.val)
    (W : Waits sig Unit) (Q : Unit → sProp (𝕄K F)) :
    iprop(Trip1 c h1 h2 X u fs ∗ owes (c : Thread nD τ) 0 W
        ∗ (iprop(∃ fs' : Bf (F := F) c (Memref.whole cc1_scratch0),
              ⌜(Memref.whole cc1_scratch0).view.read (Elt F) fs' = Cert.Gather.gath X u (blk1 i) f₀ (k.val + 1)⌝
              ∗ Trip1 c h1 h2 X u fs' ∗ (∃ W', owes (c : Thread nD τ) 0 W')) -∗ Q ()))
      ⊢ wp frame (wpE (defs₀ (F := F)) Variants.none c none) Set.univ
          (k1_t1_body i (Memref.whole main_v6) h1 (Memref.whole main_v8) h2 M3 h3 (Memref.whole cc1_scratch0) h4 cc1_scratch1
            (Scalar.muli (BitVec.ofNat 32 (i 0).val) 1024#32) k ()) Q := by
  unfold k1_t1_body
  iintro ⟨⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, Hs, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩⟩, HO, Hk⟩
  sl_exec (disch := (sl_unfold_run_names; obtain ⟨j, hj⟩ := h1.exists_readAt_unread X _ _; rw [hj]; exact row_inb _ (hX j)))
  sl_step
  -- the 32 transfers' payloads, as one family (the run's own names)
  let pay : Fin 32 → S32.Idx → Elt F .f32 := fun s => match s with
    | ⟨0, _⟩ => trip1.sl.dma1 i h1 h2 X hX u k
    | ⟨1, _⟩ => trip1.sl.dma2 i h1 h2 X hX u k
    | ⟨2, _⟩ => trip1.sl.dma3 i h1 h2 X hX u k
    | ⟨3, _⟩ => trip1.sl.dma4 i h1 h2 X hX u k
    | ⟨4, _⟩ => trip1.sl.dma5 i h1 h2 X hX u k
    | ⟨5, _⟩ => trip1.sl.dma6 i h1 h2 X hX u k
    | ⟨6, _⟩ => trip1.sl.dma7 i h1 h2 X hX u k
    | ⟨7, _⟩ => trip1.sl.dma8 i h1 h2 X hX u k
    | ⟨8, _⟩ => trip1.sl.dma9 i h1 h2 X hX u k
    | ⟨9, _⟩ => trip1.sl.dma10 i h1 h2 X hX u k
    | ⟨10, _⟩ => trip1.sl.dma11 i h1 h2 X hX u k
    | ⟨11, _⟩ => trip1.sl.dma12 i h1 h2 X hX u k
    | ⟨12, _⟩ => trip1.sl.dma13 i h1 h2 X hX u k
    | ⟨13, _⟩ => trip1.sl.dma14 i h1 h2 X hX u k
    | ⟨14, _⟩ => trip1.sl.dma15 i h1 h2 X hX u k
    | ⟨15, _⟩ => trip1.sl.dma16 i h1 h2 X hX u k
    | ⟨16, _⟩ => trip1.sl.dma17 i h1 h2 X hX u k
    | ⟨17, _⟩ => trip1.sl.dma18 i h1 h2 X hX u k
    | ⟨18, _⟩ => trip1.sl.dma19 i h1 h2 X hX u k
    | ⟨19, _⟩ => trip1.sl.dma20 i h1 h2 X hX u k
    | ⟨20, _⟩ => trip1.sl.dma21 i h1 h2 X hX u k
    | ⟨21, _⟩ => trip1.sl.dma22 i h1 h2 X hX u k
    | ⟨22, _⟩ => trip1.sl.dma23 i h1 h2 X hX u k
    | ⟨23, _⟩ => trip1.sl.dma24 i h1 h2 X hX u k
    | ⟨24, _⟩ => trip1.sl.dma25 i h1 h2 X hX u k
    | ⟨25, _⟩ => trip1.sl.dma26 i h1 h2 X hX u k
    | ⟨26, _⟩ => trip1.sl.dma27 i h1 h2 X hX u k
    | ⟨27, _⟩ => trip1.sl.dma28 i h1 h2 X hX u k
    | ⟨28, _⟩ => trip1.sl.dma29 i h1 h2 X hX u k
    | ⟨29, _⟩ => trip1.sl.dma30 i h1 h2 X hX u k
    | ⟨30, _⟩ => trip1.sl.dma31 i h1 h2 X hX u k
    | ⟨31, _⟩ => trip1.sl.dma32 i h1 h2 X hX u k
    | ⟨_ + 32, h⟩ => absurd h (Nat.not_lt.2 (Nat.le_add_left _ _))
  -- the scratch after r + 1 of the transfers have landed is the run's name for it
  have e0 : trip1.sl.Hs_w0 c i h1 h2 X hX u fs k = writeRows (Memref.whole cc1_scratch0) (dstOff1 k) (dstOff1_inb k) pay fs (0 + 1) (by omega) := by
    rw [writeRows_succ]; rfl
  have e1 : trip1.sl.Hs_w1 c i h1 h2 X hX u fs k = writeRows (Memref.whole cc1_scratch0) (dstOff1 k) (dstOff1_inb k) pay fs (1 + 1) (by omega) := by
    rw [writeRows_succ, ← e0]; rfl
  have e2 : trip1.sl.Hs_w2 c i h1 h2 X hX u fs k = writeRows (Memref.whole cc1_scratch0) (dstOff1 k) (dstOff1_inb k) pay fs (2 + 1) (by omega) := by
    rw [writeRows_succ, ← e1]; rfl
  have e3 : trip1.sl.Hs_w3 c i h1 h2 X hX u fs k = writeRows (Memref.whole cc1_scratch0) (dstOff1 k) (dstOff1_inb k) pay fs (3 + 1) (by omega) := by
    rw [writeRows_succ, ← e2]; rfl
  have e4 : trip1.sl.Hs_w4 c i h1 h2 X hX u fs k = writeRows (Memref.whole cc1_scratch0) (dstOff1 k) (dstOff1_inb k) pay fs (4 + 1) (by omega) := by
    rw [writeRows_succ, ← e3]; rfl
  have e5 : trip1.sl.Hs_w5 c i h1 h2 X hX u fs k = writeRows (Memref.whole cc1_scratch0) (dstOff1 k) (dstOff1_inb k) pay fs (5 + 1) (by omega) := by
    rw [writeRows_succ, ← e4]; rfl
  have e6 : trip1.sl.Hs_w6 c i h1 h2 X hX u fs k = writeRows (Memref.whole cc1_scratch0) (dstOff1 k) (dstOff1_inb k) pay fs (6 + 1) (by omega) := by
    rw [writeRows_succ, ← e5]; rfl
  have e7 : trip1.sl.Hs_w7 c i h1 h2 X hX u fs k = writeRows (Memref.whole cc1_scratch0) (dstOff1 k) (dstOff1_inb k) pay fs (7 + 1) (by omega) := by
    rw [writeRows_succ, ← e6]; rfl
  have e8 : trip1.sl.Hs_w8 c i h1 h2 X hX u fs k = writeRows (Memref.whole cc1_scratch0) (dstOff1 k) (dstOff1_inb k) pay fs (8 + 1) (by omega) := by
    rw [writeRows_succ, ← e7]; rfl
  have e9 : trip1.sl.Hs_w9 c i h1 h2 X hX u fs k = writeRows (Memref.whole cc1_scratch0) (dstOff1 k) (dstOff1_inb k) pay fs (9 + 1) (by omega) := by
    rw [writeRows_succ, ← e8]; rfl
  have e10 : trip1.sl.Hs_w10 c i h1 h2 X hX u fs k = writeRows (Memref.whole cc1_scratch0) (dstOff1 k) (dstOff1_inb k) pay fs (10 + 1) (by omega) := by
    rw [writeRows_succ, ← e9]; rfl
  have e11 : trip1.sl.Hs_w11 c i h1 h2 X hX u fs k = writeRows (Memref.whole cc1_scratch0) (dstOff1 k) (dstOff1_inb k) pay fs (11 + 1) (by omega) := by
    rw [writeRows_succ, ← e10]; rfl
  have e12 : trip1.sl.Hs_w12 c i h1 h2 X hX u fs k = writeRows (Memref.whole cc1_scratch0) (dstOff1 k) (dstOff1_inb k) pay fs (12 + 1) (by omega) := by
    rw [writeRows_succ, ← e11]; rfl
  have e13 : trip1.sl.Hs_w13 c i h1 h2 X hX u fs k = writeRows (Memref.whole cc1_scratch0) (dstOff1 k) (dstOff1_inb k) pay fs (13 + 1) (by omega) := by
    rw [writeRows_succ, ← e12]; rfl
  have e14 : trip1.sl.Hs_w14 c i h1 h2 X hX u fs k = writeRows (Memref.whole cc1_scratch0) (dstOff1 k) (dstOff1_inb k) pay fs (14 + 1) (by omega) := by
    rw [writeRows_succ, ← e13]; rfl
  have e15 : trip1.sl.Hs_w15 c i h1 h2 X hX u fs k = writeRows (Memref.whole cc1_scratch0) (dstOff1 k) (dstOff1_inb k) pay fs (15 + 1) (by omega) := by
    rw [writeRows_succ, ← e14]; rfl
  have e16 : trip1.sl.Hs_w16 c i h1 h2 X hX u fs k = writeRows (Memref.whole cc1_scratch0) (dstOff1 k) (dstOff1_inb k) pay fs (16 + 1) (by omega) := by
    rw [writeRows_succ, ← e15]; rfl
  have e17 : trip1.sl.Hs_w17 c i h1 h2 X hX u fs k = writeRows (Memref.whole cc1_scratch0) (dstOff1 k) (dstOff1_inb k) pay fs (17 + 1) (by omega) := by
    rw [writeRows_succ, ← e16]; rfl
  have e18 : trip1.sl.Hs_w18 c i h1 h2 X hX u fs k = writeRows (Memref.whole cc1_scratch0) (dstOff1 k) (dstOff1_inb k) pay fs (18 + 1) (by omega) := by
    rw [writeRows_succ, ← e17]; rfl
  have e19 : trip1.sl.Hs_w19 c i h1 h2 X hX u fs k = writeRows (Memref.whole cc1_scratch0) (dstOff1 k) (dstOff1_inb k) pay fs (19 + 1) (by omega) := by
    rw [writeRows_succ, ← e18]; rfl
  have e20 : trip1.sl.Hs_w20 c i h1 h2 X hX u fs k = writeRows (Memref.whole cc1_scratch0) (dstOff1 k) (dstOff1_inb k) pay fs (20 + 1) (by omega) := by
    rw [writeRows_succ, ← e19]; rfl
  have e21 : trip1.sl.Hs_w21 c i h1 h2 X hX u fs k = writeRows (Memref.whole cc1_scratch0) (dstOff1 k) (dstOff1_inb k) pay fs (21 + 1) (by omega) := by
    rw [writeRows_succ, ← e20]; rfl
  have e22 : trip1.sl.Hs_w22 c i h1 h2 X hX u fs k = writeRows (Memref.whole cc1_scratch0) (dstOff1 k) (dstOff1_inb k) pay fs (22 + 1) (by omega) := by
    rw [writeRows_succ, ← e21]; rfl
  have e23 : trip1.sl.Hs_w23 c i h1 h2 X hX u fs k = writeRows (Memref.whole cc1_scratch0) (dstOff1 k) (dstOff1_inb k) pay fs (23 + 1) (by omega) := by
    rw [writeRows_succ, ← e22]; rfl
  have e24 : trip1.sl.Hs_w24 c i h1 h2 X hX u fs k = writeRows (Memref.whole cc1_scratch0) (dstOff1 k) (dstOff1_inb k) pay fs (24 + 1) (by omega) := by
    rw [writeRows_succ, ← e23]; rfl
  have e25 : trip1.sl.Hs_w25 c i h1 h2 X hX u fs k = writeRows (Memref.whole cc1_scratch0) (dstOff1 k) (dstOff1_inb k) pay fs (25 + 1) (by omega) := by
    rw [writeRows_succ, ← e24]; rfl
  have e26 : trip1.sl.Hs_w26 c i h1 h2 X hX u fs k = writeRows (Memref.whole cc1_scratch0) (dstOff1 k) (dstOff1_inb k) pay fs (26 + 1) (by omega) := by
    rw [writeRows_succ, ← e25]; rfl
  have e27 : trip1.sl.Hs_w27 c i h1 h2 X hX u fs k = writeRows (Memref.whole cc1_scratch0) (dstOff1 k) (dstOff1_inb k) pay fs (27 + 1) (by omega) := by
    rw [writeRows_succ, ← e26]; rfl
  have e28 : trip1.sl.Hs_w28 c i h1 h2 X hX u fs k = writeRows (Memref.whole cc1_scratch0) (dstOff1 k) (dstOff1_inb k) pay fs (28 + 1) (by omega) := by
    rw [writeRows_succ, ← e27]; rfl
  have e29 : trip1.sl.Hs_w29 c i h1 h2 X hX u fs k = writeRows (Memref.whole cc1_scratch0) (dstOff1 k) (dstOff1_inb k) pay fs (29 + 1) (by omega) := by
    rw [writeRows_succ, ← e28]; rfl
  have e30 : trip1.sl.Hs_w30 c i h1 h2 X hX u fs k = writeRows (Memref.whole cc1_scratch0) (dstOff1 k) (dstOff1_inb k) pay fs (30 + 1) (by omega) := by
    rw [writeRows_succ, ← e29]; rfl
  have e31 : trip1.sl.Hs_w31 c i h1 h2 X hX u fs k = writeRows (Memref.whole cc1_scratch0) (dstOff1 k) (dstOff1_inb k) pay fs (31 + 1) (by omega) := by
    rw [writeRows_succ, ← e30]; rfl
  -- each transfer carries the table row the specification fills its row from
  have hpAll : ∀ (s : Fin 32) (l : S32.Idx), pay s l = u (ValueIdx.ix2 (Cert.Gather.srcRow X (blk1 i) (dstRow1 k s)) (l 0)) := fun s => match s with
    | ⟨0, _⟩ => fun l => payload_row (Memref.whole main_v6) (Memref.whole main_v8) h1 h2 X hX u (blk1 i) (dstRow1 k ⟨0, by decide⟩) (wordOff1 i k ⟨0, by decide⟩) (wordOff1_inb i k ⟨0, by decide⟩) (by rw [wordOff1_eq]; rfl) _ (trip1.sl.r i h1 X k) rfl (k1_off3 (trip1.sl.r i h1 X k)) _ rfl (trip1.sl.dma1 i h1 h2 X hX u k) rfl l
    | ⟨1, _⟩ => fun l => payload_row (Memref.whole main_v6) (Memref.whole main_v8) h1 h2 X hX u (blk1 i) (dstRow1 k ⟨1, by decide⟩) (wordOff1 i k ⟨1, by decide⟩) (wordOff1_inb i k ⟨1, by decide⟩) (by rw [wordOff1_eq]; rfl) _ (trip1.sl.r_1 i h1 X k) rfl (k1_off6 (trip1.sl.r_1 i h1 X k)) _ rfl (trip1.sl.dma2 i h1 h2 X hX u k) rfl l
    | ⟨2, _⟩ => fun l => payload_row (Memref.whole main_v6) (Memref.whole main_v8) h1 h2 X hX u (blk1 i) (dstRow1 k ⟨2, by decide⟩) (wordOff1 i k ⟨2, by decide⟩) (wordOff1_inb i k ⟨2, by decide⟩) (by rw [wordOff1_eq]; rfl) _ (trip1.sl.r_2 i h1 X k) rfl (k1_off9 (trip1.sl.r_2 i h1 X k)) _ rfl (trip1.sl.dma3 i h1 h2 X hX u k) rfl l
    | ⟨3, _⟩ => fun l => payload_row (Memref.whole main_v6) (Memref.whole main_v8) h1 h2 X hX u (blk1 i) (dstRow1 k ⟨3, by decide⟩) (wordOff1 i k ⟨3, by decide⟩) (wordOff1_inb i k ⟨3, by decide⟩) (by rw [wordOff1_eq]; rfl) _ (trip1.sl.r_3 i h1 X k) rfl (k1_off12 (trip1.sl.r_3 i h1 X k)) _ rfl (trip1.sl.dma4 i h1 h2 X hX u k) rfl l
    | ⟨4, _⟩ => fun l => payload_row (Memref.whole main_v6) (Memref.whole main_v8) h1 h2 X hX u (blk1 i) (dstRow1 k ⟨4, by decide⟩) (wordOff1 i k ⟨4, by decide⟩) (wordOff1_inb i k ⟨4, by decide⟩) (by rw [wordOff1_eq]; rfl) _ (trip1.sl.r_4 i h1 X k) rfl (k1_off15 (trip1.sl.r_4 i h1 X k)) _ rfl (trip1.sl.dma5 i h1 h2 X hX u k) rfl l
    | ⟨5, _⟩ => fun l => payload_row (Memref.whole main_v6) (Memref.whole main_v8) h1 h2 X hX u (blk1 i) (dstRow1 k ⟨5, by decide⟩) (wordOff1 i k ⟨5, by decide⟩) (wordOff1_inb i k ⟨5, by decide⟩) (by rw [wordOff1_eq]; rfl) _ (trip1.sl.r_5 i h1 X k) rfl (k1_off18 (trip1.sl.r_5 i h1 X k)) _ rfl (trip1.sl.dma6 i h1 h2 X hX u k) rfl l
    | ⟨6, _⟩ => fun l => payload_row (Memref.whole main_v6) (Memref.whole main_v8) h1 h2 X hX u (blk1 i) (dstRow1 k ⟨6, by decide⟩) (wordOff1 i k ⟨6, by decide⟩) (wordOff1_inb i k ⟨6, by decide⟩) (by rw [wordOff1_eq]; rfl) _ (trip1.sl.r_6 i h1 X k) rfl (k1_off21 (trip1.sl.r_6 i h1 X k)) _ rfl (trip1.sl.dma7 i h1 h2 X hX u k) rfl l
    | ⟨7, _⟩ => fun l => payload_row (Memref.whole main_v6) (Memref.whole main_v8) h1 h2 X hX u (blk1 i) (dstRow1 k ⟨7, by decide⟩) (wordOff1 i k ⟨7, by decide⟩) (wordOff1_inb i k ⟨7, by decide⟩) (by rw [wordOff1_eq]; rfl) _ (trip1.sl.r_7 i h1 X k) rfl (k1_off24 (trip1.sl.r_7 i h1 X k)) _ rfl (trip1.sl.dma8 i h1 h2 X hX u k) rfl l
    | ⟨8, _⟩ => fun l => payload_row (Memref.whole main_v6) (Memref.whole main_v8) h1 h2 X hX u (blk1 i) (dstRow1 k ⟨8, by decide⟩) (wordOff1 i k ⟨8, by decide⟩) (wordOff1_inb i k ⟨8, by decide⟩) (by rw [wordOff1_eq]; rfl) _ (trip1.sl.r_8 i h1 X k) rfl (k1_off27 (trip1.sl.r_8 i h1 X k)) _ rfl (trip1.sl.dma9 i h1 h2 X hX u k) rfl l
    | ⟨9, _⟩ => fun l => payload_row (Memref.whole main_v6) (Memref.whole main_v8) h1 h2 X hX u (blk1 i) (dstRow1 k ⟨9, by decide⟩) (wordOff1 i k ⟨9, by decide⟩) (wordOff1_inb i k ⟨9, by decide⟩) (by rw [wordOff1_eq]; rfl) _ (trip1.sl.r_9 i h1 X k) rfl (k1_off30 (trip1.sl.r_9 i h1 X k)) _ rfl (trip1.sl.dma10 i h1 h2 X hX u k) rfl l
    | ⟨10, _⟩ => fun l => payload_row (Memref.whole main_v6) (Memref.whole main_v8) h1 h2 X hX u (blk1 i) (dstRow1 k ⟨10, by decide⟩) (wordOff1 i k ⟨10, by decide⟩) (wordOff1_inb i k ⟨10, by decide⟩) (by rw [wordOff1_eq]; rfl) _ (trip1.sl.r_10 i h1 X k) rfl (k1_off33 (trip1.sl.r_10 i h1 X k)) _ rfl (trip1.sl.dma11 i h1 h2 X hX u k) rfl l
    | ⟨11, _⟩ => fun l => payload_row (Memref.whole main_v6) (Memref.whole main_v8) h1 h2 X hX u (blk1 i) (dstRow1 k ⟨11, by decide⟩) (wordOff1 i k ⟨11, by decide⟩) (wordOff1_inb i k ⟨11, by decide⟩) (by rw [wordOff1_eq]; rfl) _ (trip1.sl.r_11 i h1 X k) rfl (k1_off36 (trip1.sl.r_11 i h1 X k)) _ rfl (trip1.sl.dma12 i h1 h2 X hX u k) rfl l
    | ⟨12, _⟩ => fun l => payload_row (Memref.whole main_v6) (Memref.whole main_v8) h1 h2 X hX u (blk1 i) (dstRow1 k ⟨12, by decide⟩) (wordOff1 i k ⟨12, by decide⟩) (wordOff1_inb i k ⟨12, by decide⟩) (by rw [wordOff1_eq]; rfl) _ (trip1.sl.r_12 i h1 X k) rfl (k1_off39 (trip1.sl.r_12 i h1 X k)) _ rfl (trip1.sl.dma13 i h1 h2 X hX u k) rfl l
    | ⟨13, _⟩ => fun l => payload_row (Memref.whole main_v6) (Memref.whole main_v8) h1 h2 X hX u (blk1 i) (dstRow1 k ⟨13, by decide⟩) (wordOff1 i k ⟨13, by decide⟩) (wordOff1_inb i k ⟨13, by decide⟩) (by rw [wordOff1_eq]; rfl) _ (trip1.sl.r_13 i h1 X k) rfl (k1_off42 (trip1.sl.r_13 i h1 X k)) _ rfl (trip1.sl.dma14 i h1 h2 X hX u k) rfl l
    | ⟨14, _⟩ => fun l => payload_row (Memref.whole main_v6) (Memref.whole main_v8) h1 h2 X hX u (blk1 i) (dstRow1 k ⟨14, by decide⟩) (wordOff1 i k ⟨14, by decide⟩) (wordOff1_inb i k ⟨14, by decide⟩) (by rw [wordOff1_eq]; rfl) _ (trip1.sl.r_14 i h1 X k) rfl (k1_off45 (trip1.sl.r_14 i h1 X k)) _ rfl (trip1.sl.dma15 i h1 h2 X hX u k) rfl l
    | ⟨15, _⟩ => fun l => payload_row (Memref.whole main_v6) (Memref.whole main_v8) h1 h2 X hX u (blk1 i) (dstRow1 k ⟨15, by decide⟩) (wordOff1 i k ⟨15, by decide⟩) (wordOff1_inb i k ⟨15, by decide⟩) (by rw [wordOff1_eq]; rfl) _ (trip1.sl.r_15 i h1 X k) rfl (k1_off48 (trip1.sl.r_15 i h1 X k)) _ rfl (trip1.sl.dma16 i h1 h2 X hX u k) rfl l
    | ⟨16, _⟩ => fun l => payload_row (Memref.whole main_v6) (Memref.whole main_v8) h1 h2 X hX u (blk1 i) (dstRow1 k ⟨16, by decide⟩) (wordOff1 i k ⟨16, by decide⟩) (wordOff1_inb i k ⟨16, by decide⟩) (by rw [wordOff1_eq]; rfl) _ (trip1.sl.r_16 i h1 X k) rfl (k1_off51 (trip1.sl.r_16 i h1 X k)) _ rfl (trip1.sl.dma17 i h1 h2 X hX u k) rfl l
    | ⟨17, _⟩ => fun l => payload_row (Memref.whole main_v6) (Memref.whole main_v8) h1 h2 X hX u (blk1 i) (dstRow1 k ⟨17, by decide⟩) (wordOff1 i k ⟨17, by decide⟩) (wordOff1_inb i k ⟨17, by decide⟩) (by rw [wordOff1_eq]; rfl) _ (trip1.sl.r_17 i h1 X k) rfl (k1_off54 (trip1.sl.r_17 i h1 X k)) _ rfl (trip1.sl.dma18 i h1 h2 X hX u k) rfl l
    | ⟨18, _⟩ => fun l => payload_row (Memref.whole main_v6) (Memref.whole main_v8) h1 h2 X hX u (blk1 i) (dstRow1 k ⟨18, by decide⟩) (wordOff1 i k ⟨18, by decide⟩) (wordOff1_inb i k ⟨18, by decide⟩) (by rw [wordOff1_eq]; rfl) _ (trip1.sl.r_18 i h1 X k) rfl (k1_off57 (trip1.sl.r_18 i h1 X k)) _ rfl (trip1.sl.dma19 i h1 h2 X hX u k) rfl l
    | ⟨19, _⟩ => fun l => payload_row (Memref.whole main_v6) (Memref.whole main_v8) h1 h2 X hX u (blk1 i) (dstRow1 k ⟨19, by decide⟩) (wordOff1 i k ⟨19, by decide⟩) (wordOff1_inb i k ⟨19, by decide⟩) (by rw [wordOff1_eq]; rfl) _ (trip1.sl.r_19 i h1 X k) rfl (k1_off60 (trip1.sl.r_19 i h1 X k)) _ rfl (trip1.sl.dma20 i h1 h2 X hX u k) rfl l
    | ⟨20, _⟩ => fun l => payload_row (Memref.whole main_v6) (Memref.whole main_v8) h1 h2 X hX u (blk1 i) (dstRow1 k ⟨20, by decide⟩) (wordOff1 i k ⟨20, by decide⟩) (wordOff1_inb i k ⟨20, by decide⟩) (by rw [wordOff1_eq]; rfl) _ (trip1.sl.r_20 i h1 X k) rfl (k1_off63 (trip1.sl.r_20 i h1 X k)) _ rfl (trip1.sl.dma21 i h1 h2 X hX u k) rfl l
    | ⟨21, _⟩ => fun l => payload_row (Memref.whole main_v6) (Memref.whole main_v8) h1 h2 X hX u (blk1 i) (dstRow1 k ⟨21, by decide⟩) (wordOff1 i k ⟨21, by decide⟩) (wordOff1_inb i k ⟨21, by decide⟩) (by rw [wordOff1_eq]; rfl) _ (trip1.sl.r_21 i h1 X k) rfl (k1_off66 (trip1.sl.r_21 i h1 X k)) _ rfl (trip1.sl.dma22 i h1 h2 X hX u k) rfl l
    | ⟨22, _⟩ => fun l => payload_row (Memref.whole main_v6) (Memref.whole main_v8) h1 h2 X hX u (blk1 i) (dstRow1 k ⟨22, by decide⟩) (wordOff1 i k ⟨22, by decide⟩) (wordOff1_inb i k ⟨22, by decide⟩) (by rw [wordOff1_eq]; rfl) _ (trip1.sl.r_22 i h1 X k) rfl (k1_off69 (trip1.sl.r_22 i h1 X k)) _ rfl (trip1.sl.dma23 i h1 h2 X hX u k) rfl l
    | ⟨23, _⟩ => fun l => payload_row (Memref.whole main_v6) (Memref.whole main_v8) h1 h2 X hX u (blk1 i) (dstRow1 k ⟨23, by decide⟩) (wordOff1 i k ⟨23, by decide⟩) (wordOff1_inb i k ⟨23, by decide⟩) (by rw [wordOff1_eq]; rfl) _ (trip1.sl.r_23 i h1 X k) rfl (k1_off72 (trip1.sl.r_23 i h1 X k)) _ rfl (trip1.sl.dma24 i h1 h2 X hX u k) rfl l
    | ⟨24, _⟩ => fun l => payload_row (Memref.whole main_v6) (Memref.whole main_v8) h1 h2 X hX u (blk1 i) (dstRow1 k ⟨24, by decide⟩) (wordOff1 i k ⟨24, by decide⟩) (wordOff1_inb i k ⟨24, by decide⟩) (by rw [wordOff1_eq]; rfl) _ (trip1.sl.r_24 i h1 X k) rfl (k1_off75 (trip1.sl.r_24 i h1 X k)) _ rfl (trip1.sl.dma25 i h1 h2 X hX u k) rfl l
    | ⟨25, _⟩ => fun l => payload_row (Memref.whole main_v6) (Memref.whole main_v8) h1 h2 X hX u (blk1 i) (dstRow1 k ⟨25, by decide⟩) (wordOff1 i k ⟨25, by decide⟩) (wordOff1_inb i k ⟨25, by decide⟩) (by rw [wordOff1_eq]; rfl) _ (trip1.sl.r_25 i h1 X k) rfl (k1_off78 (trip1.sl.r_25 i h1 X k)) _ rfl (trip1.sl.dma26 i h1 h2 X hX u k) rfl l
    | ⟨26, _⟩ => fun l => payload_row (Memref.whole main_v6) (Memref.whole main_v8) h1 h2 X hX u (blk1 i) (dstRow1 k ⟨26, by decide⟩) (wordOff1 i k ⟨26, by decide⟩) (wordOff1_inb i k ⟨26, by decide⟩) (by rw [wordOff1_eq]; rfl) _ (trip1.sl.r_26 i h1 X k) rfl (k1_off81 (trip1.sl.r_26 i h1 X k)) _ rfl (trip1.sl.dma27 i h1 h2 X hX u k) rfl l
    | ⟨27, _⟩ => fun l => payload_row (Memref.whole main_v6) (Memref.whole main_v8) h1 h2 X hX u (blk1 i) (dstRow1 k ⟨27, by decide⟩) (wordOff1 i k ⟨27, by decide⟩) (wordOff1_inb i k ⟨27, by decide⟩) (by rw [wordOff1_eq]; rfl) _ (trip1.sl.r_27 i h1 X k) rfl (k1_off84 (trip1.sl.r_27 i h1 X k)) _ rfl (trip1.sl.dma28 i h1 h2 X hX u k) rfl l
    | ⟨28, _⟩ => fun l => payload_row (Memref.whole main_v6) (Memref.whole main_v8) h1 h2 X hX u (blk1 i) (dstRow1 k ⟨28, by decide⟩) (wordOff1 i k ⟨28, by decide⟩) (wordOff1_inb i k ⟨28, by decide⟩) (by rw [wordOff1_eq]; rfl) _ (trip1.sl.r_28 i h1 X k) rfl (k1_off87 (trip1.sl.r_28 i h1 X k)) _ rfl (trip1.sl.dma29 i h1 h2 X hX u k) rfl l
    | ⟨29, _⟩ => fun l => payload_row (Memref.whole main_v6) (Memref.whole main_v8) h1 h2 X hX u (blk1 i) (dstRow1 k ⟨29, by decide⟩) (wordOff1 i k ⟨29, by decide⟩) (wordOff1_inb i k ⟨29, by decide⟩) (by rw [wordOff1_eq]; rfl) _ (trip1.sl.r_29 i h1 X k) rfl (k1_off90 (trip1.sl.r_29 i h1 X k)) _ rfl (trip1.sl.dma30 i h1 h2 X hX u k) rfl l
    | ⟨30, _⟩ => fun l => payload_row (Memref.whole main_v6) (Memref.whole main_v8) h1 h2 X hX u (blk1 i) (dstRow1 k ⟨30, by decide⟩) (wordOff1 i k ⟨30, by decide⟩) (wordOff1_inb i k ⟨30, by decide⟩) (by rw [wordOff1_eq]; rfl) _ (trip1.sl.r_30 i h1 X k) rfl (k1_off93 (trip1.sl.r_30 i h1 X k)) _ rfl (trip1.sl.dma31 i h1 h2 X hX u k) rfl l
    | ⟨31, _⟩ => fun l => payload_row (Memref.whole main_v6) (Memref.whole main_v8) h1 h2 X hX u (blk1 i) (dstRow1 k ⟨31, by decide⟩) (wordOff1 i k ⟨31, by decide⟩) (wordOff1_inb i k ⟨31, by decide⟩) (by rw [wordOff1_eq]; rfl) _ (trip1.sl.r_31 i h1 X k) rfl (k1_off96 (trip1.sl.r_31 i h1 X k)) _ rfl (trip1.sl.dma32 i h1 h2 X hX u k) rfl l
    | ⟨_ + 32, h⟩ => absurd h (Nat.not_lt.2 (Nat.le_add_left _ _))
  -- the scratch's pieces at those contents
  ihave Hs_2 := (pt_of_eq e0) $$ Hs_2
  ihave Hs_3 := (pt_of_eq e1) $$ Hs_3
  ihave Hs_4 := (pt_of_eq e2) $$ Hs_4
  ihave Hs_5 := (pt_of_eq e3) $$ Hs_5
  ihave Hs_6 := (pt_of_eq e4) $$ Hs_6
  ihave Hs_7 := (pt_of_eq e5) $$ Hs_7
  ihave Hs_8 := (pt_of_eq e6) $$ Hs_8
  ihave Hs_9 := (pt_of_eq e7) $$ Hs_9
  ihave Hs_10 := (pt_of_eq e8) $$ Hs_10
  ihave Hs_11 := (pt_of_eq e9) $$ Hs_11
  ihave Hs_12 := (pt_of_eq e10) $$ Hs_12
  ihave Hs_13 := (pt_of_eq e11) $$ Hs_13
  ihave Hs_14 := (pt_of_eq e12) $$ Hs_14
  ihave Hs_15 := (pt_of_eq e13) $$ Hs_15
  ihave Hs_16 := (pt_of_eq e14) $$ Hs_16
  ihave Hs_17 := (pt_of_eq e15) $$ Hs_17
  ihave Hs := (pt_of_eq e31) $$ Hs
  iapply Hk
  iexists (writeRows (Memref.whole cc1_scratch0) (dstOff1 k) (dstOff1_inb k) pay fs (32) (by omega))
  isplitr [Ht Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hs Hs_2 Hs_3 Hs_4 Hs_5 Hs_6 Hs_7 Hs_8 Hs_9 Hs_10 Hs_11 Hs_12 Hs_13 Hs_14 Hs_15 Hs_16 Hs_17 Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 HO]; swap
  · iapply (handback1 c h4 (dstOff1 k) (dstRow1 k) (dstOff1_eq k) (dstRow1_inj k) (dstOff1_inb k) pay fs (h1.unread X) (h2.unread u) _)
    isplitl [Ht]; · iexact Ht
    isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
    ·
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hu19]; · iexact Hu19
      isplitl [Hu20]; · iexact Hu20
      isplitl [Hu21]; · iexact Hu21
      isplitl [Hu22]; · iexact Hu22
      isplitl [Hu23]; · iexact Hu23
      isplitl [Hu24]; · iexact Hu24
      isplitl [Hu25]; · iexact Hu25
      isplitl [Hu26]; · iexact Hu26
      isplitl [Hu27]; · iexact Hu27
      isplitl [Hu28]; · iexact Hu28
      isplitl [Hu29]; · iexact Hu29
      isplitl [Hu30]; · iexact Hu30
      iexact Hu31
    isplitl [Hs Hs_2 Hs_3 Hs_4 Hs_5 Hs_6 Hs_7 Hs_8 Hs_9 Hs_10 Hs_11 Hs_12 Hs_13 Hs_14 Hs_15 Hs_16 Hs_17]
    ·
      isplitl [Hs]; · iexact Hs
      isplitl [Hs_2]; · iexact Hs_2
      isplitl [Hs_3]; · iexact Hs_3
      isplitl [Hs_4]; · iexact Hs_4
      isplitl [Hs_5]; · iexact Hs_5
      isplitl [Hs_6]; · iexact Hs_6
      isplitl [Hs_7]; · iexact Hs_7
      isplitl [Hs_8]; · iexact Hs_8
      isplitl [Hs_9]; · iexact Hs_9
      isplitl [Hs_10]; · iexact Hs_10
      isplitl [Hs_11]; · iexact Hs_11
      isplitl [Hs_12]; · iexact Hs_12
      isplitl [Hs_13]; · iexact Hs_13
      isplitl [Hs_14]; · iexact Hs_14
      isplitl [Hs_15]; · iexact Hs_15
      isplitl [Hs_16]; · iexact Hs_16
      iexact Hs_17
    isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
    ·
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      iexact Hd31
    iexact HO
  · ipureintro
    exact gath_step (Memref.whole cc1_scratch0) h4 X u (blk1 i) f₀ k.val (Nat.lt_of_lt_of_eq k.isLt trips1) (dstOff1 k) (dstRow1 k) (dstOff1_eq k) (dstRow1_inj k)
      (fun s => rfl) (dstOff1_inb k) pay hpAll fs hfs

end Cert.KernelIdeal.Hand

end
-- ==== Proof.KI.Loop1.lean ====
/-
  The second region's loop, by its invariant.  Before trip `k` the scratch reads as the block with rows below
  `32 k` filled from the table and the rest as the loop found them; the column, the table held for reading and the
  region's own counters at zero are as they were.  One trip takes this from `k` to `k + 1`.
-/
import proofs.«423058_j50337016709696_1_alg».proof.Proof.KI.Trip1

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Before trip `k`: the scratch reads as the block with rows below `32 k` filled; the rest as the loop found it. -/
abbrev inv1 (c : Dev nD) (i : grid1.Coords) (h1 : (Memref.whole main_v6).IsWhole)
    (h2 : (Memref.whole main_v8).IsWhole) (X : S131072.Idx → Elt F .i32) (u : S500000x32.Idx → Elt F .f32)
    (f₀ : S1024x32.Idx → Elt F .f32) (k : ℕ) : sProp (𝕄K F) :=
  iprop(∃ fs : Bf (F := F) c (Memref.whole cc1_scratch0),
    ⌜(Memref.whole cc1_scratch0).view.read (Elt F) fs = Cert.Gather.gath X u (blk1 i) f₀ k⌝
    ∗ Trip1 c h1 h2 X u fs ∗ (∃ W, owes (c : Thread nD τ) 0 W))

@[sl_loop] noncomputable def loopInv1 (c : Dev nD) (X : S131072.Idx → Elt F .i32) (hX : ∀ j, (X j).toNat < 500000)
    (u : S500000x32.Idx → Elt F .f32) (f₀ : S1024x32.Idx → Elt F .f32)
    (i : grid1.Coords) (h1 : (Memref.whole main_v6).IsWhole) (h2 : (Memref.whole main_v8).IsWhole)
    (M3 : Memref sig .tc .vmem S1024x32 .f32) (h3 : M3.IsWhole) (h4 : (Memref.whole cc1_scratch0).IsWhole) :
    Cert.KernelIdeal.Gen.LoopInvTy_k1_t1 (F := F) Unit ℕ UU ℕ Variants.none c none Set.univ i (Memref.whole main_v6) h1 (Memref.whole main_v8) h2
      M3 h3 (Memref.whole cc1_scratch0) h4 cc1_scratch1 (Scalar.muli (BitVec.ofNat 32 (i 0).val) 1024#32) where
  inv := fun k _ => inv1 c i h1 h2 X u f₀ k
  step := fun k _ => by
    unfold inv1
    iintro ⟨%fs, %hfs, HT, %W, HO⟩
    iapply (trip1 c i M3 h3 h1 h2 h4 X hX u f₀ fs k hfs W _)
    isplitl [HT]; · iexact HT
    isplitl [HO]; · iexact HO
    iintro ⟨%fs', %hfs', HT', HO'⟩
    iexists fs'
    isplitr; · ipureintro; exact hfs'
    isplitl [HT']; · iexact HT'
    iexact HO'

end Cert.KernelIdeal.Hand

end
-- ==== Proof.KI.Gather1.lean ====
/-
  The second region's body.  At grid point `i` it fills its scratch with the 1024 table rows that the
  region's column of index words names at positions `1024 i` to `1024 i + 1023`, 32 rows a trip by 32
  transfers in flight at once, each waited for before the trip ends, and then copies the scratch to the
  result's block.  The table is only read, by several transfers at a time, so it is held as one read
  share per transfer; every index word is below the table's height, which is what each transfer's
  source window asks.
-/
import proofs.«423058_j50337016709696_1_alg».proof.Proof.KI.Loop1
import proofs.«423058_j50337016709696_1_alg».proof.Proof.KI.WholeBlock

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

-- the body is run across its loop and through the copy of the scratch to the result's block
set_option maxHeartbeats 4000000 in
/-- The body at grid point `i`: from the result's staging block and the scratch at anything, the index column at `X`
    (every word below the table's height), the table at `u` held for reading, the counters at zero and nothing owed, it
    runs to the continuation with the result's block filled (`Gather.filled X u i`), and everything else as it was. -/
theorem sound_gather1 (c : Dev nD) (i : grid1.Coords)
    (arg3 : Memref sig .tc .vmem S1024x32 .f32) (harg3 : arg3.IsWhole)
    (h1 : (Memref.whole main_v6).IsWhole) (h2 : (Memref.whole main_v8).IsWhole) (h4 : (Memref.whole cc1_scratch0).IsWhole)
    (X : S131072.Idx → Elt F .i32) (hX : ∀ j, (X j).toNat < 500000) (u : S500000x32.Idx → Elt F .f32)
    (W : Waits sig Unit) (K : PUnit → sProp (𝕄K F)) :
    iprop((∃ d, owns (c : Thread nD τ) arg3 fullShare d) ∗ (∃ f, pt c (Memref.whole cc1_scratch0) f)
        ∗ pt c (Memref.whole main_v6) (h1.unread X) ∗ toks1 c (h2.unread u) ∗ sems1 c ∗ owes (c : Thread nD τ) 0 W
        ∗ (iprop(owns (c : Thread nD τ) arg3 fullShare (Cert.Gather.filled X u (blk1 i)) ∗ (∃ f, pt c (Memref.whole cc1_scratch0) f)
              ∗ pt c (Memref.whole main_v6) (h1.unread X) ∗ toks1 c (h2.unread u) ∗ sems1 c ∗ (∃ W', owes (c : Thread nD τ) 0 W')) -∗ K ⟨⟩))
      ⊢ wp frame (wpE (defs₀ (F := F)) Variants.none c none) Set.univ
          (cc1__gather_kernel i (Memref.whole main_v6) h1 (Memref.whole main_v8) h2 arg3 harg3 (Memref.whole cc1_scratch0) h4 cc1_scratch1) K := by
  simp only [cc1__gather_kernel_eq_skeleton]; unfold cc1__gather_kernel_skel
  unfold owns
  iintro ⟨⟨%d3, %f3, -, H3⟩, ⟨%fs₀, Hs⟩, Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO, Hk⟩
  sl_exec
  sl_step
  iapply Hk
  -- the result's block: one whole-block store of the scratch read whole
  isplitl [H3]
  · iexists _; isplitr; swap; · iexact H3
    ipureintro
    rw [View.read_writes_eq_canon _ _ _ (cover_blk _), canon_whole_read, hL0]
    exact Cert.Gather.gath_last X u (blk1 i) _
  isplitl [Hs]; · iexists _; iexact Hs
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks1
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · unfold sems1
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.KernelIdeal.Hand

end
-- ==== Proof.KI.Region1.lean ====
/-
  The second region's proof data and body obligation, at the contents `V` the buffers hold when the region is
  entered and the contents `a` of its column of index words.  At grid point `t` the body leaves in the result's
  block the 1024 table rows that the column names at positions `1024 t` onward.  Between points the region keeps
  the table it reads, its own 32 semaphores at zero, the column, and its scratch at whatever the last point left.
-/
import proofs.«423058_j50337016709696_1_alg».proof.Proof.KI.Gather1
import proofs.«423058_j50337016709696_1_alg».proof.Proof.GatherSpec
import proofs.«423058_j50337016709696_1_alg».proof.Proof.Gen.KernelIdeal.Launch
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
variable (a : (pcfg1 (F := F)).Adm)

/-- The region's own 32 semaphores: the core's DMA semaphores 2 to 33. -/
abbrev osem1 : Fin 32 → SemLoc sig := fun k => .dma ⟨36 + k.val, by show 36 + k.val < 109; omega⟩

/-- The column of index words, as the function its contents read as. -/
abbrev col1 : S131072.Idx → Elt F .i32 := (Memref.whole main_v6).view.read (Elt F) (a.1 0)

/-- The table, as the function its contents read as when the region is entered. -/
abbrev tbl1 (c : Dev nD) : S500000x32.Idx → Elt F .f32 := (Memref.whole main_v8).view.read (Elt F) (V c main_v8)

/-- Grid point `t` as a block number. -/
abbrev blkAt1 (t : Fin (cfg1 a).N) : Fin 128 := ⟨((cfg1 a).grid.coords t 0).val, ((cfg1 a).grid.coords t 0).isLt⟩

/-- What the region keeps between points: the table at its entry contents, its own semaphores at zero, the column,
    and the scoped buffers no window stages (its scratch among them, at anything). -/
def Φ1 (c : Dev nD) : sProp (𝕄K F) :=
  iprop((((c : Thread nD τ).loc main_v8) ↦{fullShare} V c main_v8)
    ∗ Pipeline.ownSems0 (Ix := Unit) (Name := ℕ) (U := UU) (Lvl := ℕ) (Val := Elt F) osem1 c
    ∗ Pipeline.prefHeld (Ix := Unit) (Name := ℕ) (U := UU) (Lvl := ℕ) pre1 c (fun _ => fullShare) a.1
    ∗ Pipeline.scopedRest (Ix := Unit) (Name := ℕ) (U := UU) (Lvl := ℕ) (Val := Elt F) spec1 c)

/-- The second region's proof data: the result's array as found; after the body at point `t` the result's block
    filled from the table by the column; the invariant `Φ1`; nothing owed; full shares. -/
def dat1 (c : Dev nD) : Dat τ (Elt F) Unit ℕ UU ℕ (cfg1 a) c where
  A w := V c (Pipeline.arrRef spec1 w)
  after w t := match w with
    | ⟨0, _⟩ => Cert.Gather.filled (col1 a) (tbl1 V c) (blkAt1 a t)
  Φ _ := Φ1 V a c
  q _ := fullShare
  owed _ := 0

/-! ## The invariant's parts in the shape the body's triple takes them -/

/-- The region's own semaphores at zero, written out one by one. -/
theorem ownSems1_eq (c : Dev nD) :
    (Pipeline.ownSems0 (Ix := Unit) (Name := ℕ) (U := UU) (Lvl := ℕ) (Val := Elt F) osem1 c : sProp (𝕄K F)) = sems1 c := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

/-- The column is the one prefetched table, held whole; its contents are the raw contents that read as `col1`. -/
theorem prefHeld1_eq (c : Dev nD) (h1 : (Memref.whole main_v6).IsWhole) :
    (Pipeline.prefHeld (Ix := Unit) (Name := ℕ) (U := UU) (Lvl := ℕ) pre1 c (fun _ => fullShare) a.1 : sProp (𝕄K F))
      = pt c (Memref.whole main_v6) (h1.unread (col1 a)) := by
  have e : h1.unread (col1 (F := F) a) = a.1 0 := h1.unread_read _
  rw [e]
  exact bigSep_W1 _

/-- The table's contents at entry are the raw contents that read as `tbl1`. -/
theorem table1_eq (c : Dev nD) (h2 : (Memref.whole main_v8).IsWhole) :
    ((((c : Thread nD τ).loc main_v8) ↦{fullShare} V c main_v8 : sProp (𝕄K F)))
      = pt c (Memref.whole main_v8) (h2.unread (tbl1 V c)) := by
  rw [h2.unread_read]

/-- The table held whole is what is left after 68 read shares are dealt off, the read shares below the region's
    own, and the 32 the transfers take: a full share deals into a remainder and any number of read shares, and back. -/
theorem table1_toks (c : Dev nD) (f : Bf (F := F) c (Memref.whole main_v8)) :
    pt c (Memref.whole main_v8) f ⊣⊢
      iprop(ptq c (Memref.whole main_v8) (Transfers.shareDrop fullShare 68) f
        ∗ bigSep (Finset.range 36) (fun i => ptq c (Memref.whole main_v8) (Transfers.shareTokN fullShare i) f)
        ∗ toks1 c f) := by
  have h := Transfers.pointsTo_toks_range (Ix := Unit) (Name := ℕ) (U := UU) (Lvl := ℕ) (Val := Elt F)
    (ℓ := (Memref.whole main_v8).view.loc (c : Thread nD τ)) (S := Finset.univ) (f := f) fullShare 68
  rw [show Finset.range 68 = Finset.range 36 ∪ [36, 37, 38, 39, 40, 41, 42, 43, 44, 45, 46, 47, 48, 49, 50, 51, 52, 53, 54, 55, 56, 57, 58, 59, 60, 61, 62, 63, 64, 65, 66, 67].toFinset by decide,
    BI.bigSep_union (show Disjoint (Finset.range 36) [36, 37, 38, 39, 40, 41, 42, 43, 44, 45, 46, 47, 48, 49, 50, 51, 52, 53, 54, 55, 56, 57, 58, 59, 60, 61, 62, 63, 64, 65, 66, 67].toFinset by decide),
    BI.bigSep_eq_bigSepL [36, 37, 38, 39, 40, 41, 42, 43, 44, 45, 46, 47, 48, 49, 50, 51, 52, 53, 54, 55, 56, 57, 58, 59, 60, 61, 62, 63, 64, 65, 66, 67] (by decide)] at h
  exact h

/-- The scoped buffers no window stages are the region's scratch and the others. -/
theorem scopedRest1_split (c : Dev nD) :
    (Pipeline.scopedRest (Ix := Unit) (Name := ℕ) (U := UU) (Lvl := ℕ) (Val := Elt F) spec1 c : sProp (𝕄K F))
      = iprop((∃ f, pt c (Memref.whole cc1_scratch0) f)
          ∗ Pipeline.scopedRestBut (Ix := Unit) (Name := ℕ) (U := UU) (Lvl := ℕ) (Val := Elt F) spec1 c [cc1_scratch0]) :=
  Pipeline.scopedRest_split_of_list spec1 c [cc1_scratch0] (by decide) (by decide)

/-- Everything the region keeps that the body never touches: what is left of the table beside the transfers' read
    shares, and the scoped buffers other than the scratch. -/
abbrev aside1 (c : Dev nD) (h2 : (Memref.whole main_v8).IsWhole) : sProp (𝕄K F) :=
  iprop(ptq c (Memref.whole main_v8) (Transfers.shareDrop fullShare 68) (h2.unread (tbl1 V c))
    ∗ bigSep (Finset.range 36) (fun i => ptq c (Memref.whole main_v8) (Transfers.shareTokN fullShare i) (h2.unread (tbl1 V c)))
    ∗ Pipeline.scopedRestBut (Ix := Unit) (Name := ℕ) (U := UU) (Lvl := ℕ) (Val := Elt F) spec1 c [cc1_scratch0])

/-- The invariant, both ways, as what the body's triple takes and gives back — the scratch at anything, the column,
    the table's 32 read shares, the semaphores at zero — beside what the body never touches. -/
theorem Φ1_body (c : Dev nD) (h1 : (Memref.whole main_v6).IsWhole) (h2 : (Memref.whole main_v8).IsWhole) :
    Φ1 V a c ⊣⊢
      iprop((∃ f, pt c (Memref.whole cc1_scratch0) f) ∗ pt c (Memref.whole main_v6) (h1.unread (col1 a))
        ∗ toks1 c (h2.unread (tbl1 V c)) ∗ sems1 c ∗ aside1 V c h2) := by
  unfold Φ1
  rw [table1_eq V c h2, ownSems1_eq, prefHeld1_eq a c h1, scopedRest1_split]
  constructor
  · iintro ⟨Htab, Hsems, Hcol, Hscr, Hrest⟩
    icases (table1_toks c (h2.unread (tbl1 V c))).1 $$ Htab with ⟨Hd, Hlow, Htoks⟩
    isplitl [Hscr]; · iexact Hscr
    isplitl [Hcol]; · iexact Hcol
    isplitl [Htoks]; · iexact Htoks
    isplitl [Hsems]; · iexact Hsems
    isplitl [Hd]; · iexact Hd
    isplitl [Hlow]; · iexact Hlow
    iexact Hrest
  · iintro ⟨Hscr, Hcol, Htoks, Hsems, Hd, Hlow, Hrest⟩
    isplitl [Hd Hlow Htoks]
    · iapply (table1_toks c (h2.unread (tbl1 V c))).2
      isplitl [Hd]; · iexact Hd
      isplitl [Hlow]; · iexact Hlow
      iexact Htoks
    isplitl [Hsems]; · iexact Hsems
    isplitl [Hcol]; · iexact Hcol
    isplitl [Hscr]; · iexact Hscr
    iexact Hrest

/-! ## The proof data, projected -/

/-- What the body leaves in the result's block at point `t`. -/
theorem after1_1 (c : Dev nD) (t : Fin (cfg1 a).N) :
    (dat1 V a c).after 0 t = Cert.Gather.filled (col1 a) (tbl1 V c) (blkAt1 a t) := by dsimp only [dat1]; rfl

/-! ## The obligation's two sides -/

/-- The one window's current staging memref at point `t`. -/
abbrev st1_0 (t : Fin (cfg1 a).N) := ((cfg1 a).win 0).stage ((cfg1 a).slots t 0)

/-- The body at point `t`, on what the pipeline calls it with. -/
abbrev bodyAt1 (t : Fin (cfg1 a).N) : Prog (TpuEff nD τ sig (Elt F) Λ₀ .tc) PUnit :=
  cc1__gather_kernel ((cfg1 a).grid.coords t) (Memref.whole main_v6) (Memref.isWhole_whole _) (Memref.whole main_v8) (Memref.isWhole_whole _)
    (spec1_0.stage ((cfg1 a).slots t 0)) (hstage1_0 (((cfg1 a).slots t 0).cast nbuf1_0))
    (Memref.whole cc1_scratch0) (Memref.isWhole_whole _) cc1_scratch1

/-- What the body is handed at point `t`: the invariant, what the core owes, and the result's current buffer. -/
def bodyPre1 (c : Dev nD) (t : Fin (cfg1 a).N) : sProp (𝕄K F) :=
  iprop((dat1 V a c).Φ t.castSucc ∗ (dat1 V a c).owesAt () t.castSucc
    ∗ (∃ d, owns (c : Thread nD τ) (st1_0 a t) fullShare ((dat1 V a c).before 0 t d)))

/-- What it hands back: the same at the next point, the buffer at what the body leaves there. -/
def bodyPost1 (c : Dev nD) (t : Fin (cfg1 a).N) : sProp (𝕄K F) :=
  iprop((dat1 V a c).Φ t.succ ∗ (dat1 V a c).owesAt () t.succ
    ∗ owns (c : Thread nD τ) (st1_0 a t) fullShare ((dat1 V a c).after 0 t))

/-- The body at any point: the invariant opens into what the body's triple takes, the triple runs, and what it gives
    back closes into the invariant again; the core owes nothing before and nothing after, and the bound on its
    recorded waits is the whole set, so it asks nothing. -/
theorem sound_body1 (c : Dev nD) (hX : ∀ j, ((col1 a) j).toNat < 500000) (t : Fin (cfg1 a).N) :
    bodyPre1 V a c t ⊢ wp frame (wpE (defs₀ (F := F)) Variants.none c none) Set.univ (bodyAt1 a t) (fun _ => bodyPost1 V a c t) := by
  unfold bodyPre1 bodyPost1
  rw [show (dat1 V a c).Φ t.succ = Φ1 V a c from rfl, show (dat1 V a c).Φ t.castSucc = Φ1 V a c from rfl, after1_1]
  iintro ⟨HΦ, ⟨%W, %hW, Ho⟩, ⟨%d, Hw⟩⟩
  icases (Φ1_body V a c (Memref.isWhole_whole _) (Memref.isWhole_whole _)).1 $$ HΦ with ⟨Hscr, Hcol, Htoks, Hsems, Hrest⟩
  iapply (sound_gather1 c ((cfg1 a).grid.coords t) (spec1_0.stage ((cfg1 a).slots t 0)) (hstage1_0 (((cfg1 a).slots t 0).cast nbuf1_0))
    (Memref.isWhole_whole _) (Memref.isWhole_whole _) (Memref.isWhole_whole _) (col1 a) hX (tbl1 V c) W _)
  isplitl [Hw]; · iexists _; iexact Hw
  isplitl [Hscr]; · iexact Hscr
  isplitl [Hcol]; · iexact Hcol
  isplitl [Htoks]; · iexact Htoks
  isplitl [Hsems]; · iexact Hsems
  isplitl [Ho]; · iexact Ho
  iintro ⟨Hw, Hscr, Hcol, Htoks, Hsems, ⟨%W', Ho⟩⟩
  isplitl [Hscr Hcol Htoks Hsems Hrest]
  · iapply (Φ1_body V a c (Memref.isWhole_whole _) (Memref.isWhole_whole _)).2
    isplitl [Hscr]; · iexact Hscr
    isplitl [Hcol]; · iexact Hcol
    isplitl [Htoks]; · iexact Htoks
    isplitl [Hsems]; · iexact Hsems
    iexact Hrest
  isplitl [Ho]
  · iexists W'; isplitr
    · ipureintro; exact fun _ _ => Or.inl trivial
    iexact Ho
  iexact Hw

/-- The library's body obligation for the second region, at every point, when every word of the column is below the
    table's height. -/
theorem body_obligation1 (c : Dev nD) (hX : ∀ j, ((col1 a) j).toNat < 500000) :
    BodyObligation (dat1 (F := F) V a c) (defs₀ (F := F)) Variants.none () Set.univ := fun t => by
  rw [bigSep_W1, bigSep_W1]
  exact sound_body1 V a c hX t

end Cert.KernelIdeal.Hand

end
-- ==== Proof.KI.Cells2.lean ====
/-
  The third region's cells: the 32 semaphores of its own that its transfers complete on (the core's 70 to 101),
  their counters, and the table it reads held as one read share for each of them, so that transfers reading the
  same table row do not compete.
-/
import proofs.«423058_j50337016709696_1_alg».proof.Proof.KI.Base
import proofs.«423058_j50337016709696_1_alg».proof.Proof.GatherSpec
import Idealize.ShloMosaic.Lib.Pipeline.FrameBody

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The third region's table held for reading: one read share for each of the 32 transfers of a trip, indexed by the
    transfer's semaphore (the region's own semaphores are the core's 70 to 101). -/
abbrev toks2 (c : Dev nD) (f : Bf (F := F) c (Memref.whole main_v13)) : sProp (𝕄K F) :=
  iprop(ptq c (Memref.whole main_v13) (Transfers.shareTokN fullShare 70) f
      ∗ ptq c (Memref.whole main_v13) (Transfers.shareTokN fullShare 71) f
      ∗ ptq c (Memref.whole main_v13) (Transfers.shareTokN fullShare 72) f
      ∗ ptq c (Memref.whole main_v13) (Transfers.shareTokN fullShare 73) f
      ∗ ptq c (Memref.whole main_v13) (Transfers.shareTokN fullShare 74) f
      ∗ ptq c (Memref.whole main_v13) (Transfers.shareTokN fullShare 75) f
      ∗ ptq c (Memref.whole main_v13) (Transfers.shareTokN fullShare 76) f
      ∗ ptq c (Memref.whole main_v13) (Transfers.shareTokN fullShare 77) f
      ∗ ptq c (Memref.whole main_v13) (Transfers.shareTokN fullShare 78) f
      ∗ ptq c (Memref.whole main_v13) (Transfers.shareTokN fullShare 79) f
      ∗ ptq c (Memref.whole main_v13) (Transfers.shareTokN fullShare 80) f
      ∗ ptq c (Memref.whole main_v13) (Transfers.shareTokN fullShare 81) f
      ∗ ptq c (Memref.whole main_v13) (Transfers.shareTokN fullShare 82) f
      ∗ ptq c (Memref.whole main_v13) (Transfers.shareTokN fullShare 83) f
      ∗ ptq c (Memref.whole main_v13) (Transfers.shareTokN fullShare 84) f
      ∗ ptq c (Memref.whole main_v13) (Transfers.shareTokN fullShare 85) f
      ∗ ptq c (Memref.whole main_v13) (Transfers.shareTokN fullShare 86) f
      ∗ ptq c (Memref.whole main_v13) (Transfers.shareTokN fullShare 87) f
      ∗ ptq c (Memref.whole main_v13) (Transfers.shareTokN fullShare 88) f
      ∗ ptq c (Memref.whole main_v13) (Transfers.shareTokN fullShare 89) f
      ∗ ptq c (Memref.whole main_v13) (Transfers.shareTokN fullShare 90) f
      ∗ ptq c (Memref.whole main_v13) (Transfers.shareTokN fullShare 91) f
      ∗ ptq c (Memref.whole main_v13) (Transfers.shareTokN fullShare 92) f
      ∗ ptq c (Memref.whole main_v13) (Transfers.shareTokN fullShare 93) f
      ∗ ptq c (Memref.whole main_v13) (Transfers.shareTokN fullShare 94) f
      ∗ ptq c (Memref.whole main_v13) (Transfers.shareTokN fullShare 95) f
      ∗ ptq c (Memref.whole main_v13) (Transfers.shareTokN fullShare 96) f
      ∗ ptq c (Memref.whole main_v13) (Transfers.shareTokN fullShare 97) f
      ∗ ptq c (Memref.whole main_v13) (Transfers.shareTokN fullShare 98) f
      ∗ ptq c (Memref.whole main_v13) (Transfers.shareTokN fullShare 99) f
      ∗ ptq c (Memref.whole main_v13) (Transfers.shareTokN fullShare 100) f
      ∗ ptq c (Memref.whole main_v13) (Transfers.shareTokN fullShare 101) f)

/-- The third region's 32 semaphores' counters at zero. -/
abbrev sems2 (c : Dev nD) : sProp (𝕄K F) :=
  iprop(semVal ((c : Thread nD τ), (SemLoc.dma 70 : SemLoc sig)) 0
      ∗ semVal ((c : Thread nD τ), (SemLoc.dma 71 : SemLoc sig)) 0
      ∗ semVal ((c : Thread nD τ), (SemLoc.dma 72 : SemLoc sig)) 0
      ∗ semVal ((c : Thread nD τ), (SemLoc.dma 73 : SemLoc sig)) 0
      ∗ semVal ((c : Thread nD τ), (SemLoc.dma 74 : SemLoc sig)) 0
      ∗ semVal ((c : Thread nD τ), (SemLoc.dma 75 : SemLoc sig)) 0
      ∗ semVal ((c : Thread nD τ), (SemLoc.dma 76 : SemLoc sig)) 0
      ∗ semVal ((c : Thread nD τ), (SemLoc.dma 77 : SemLoc sig)) 0
      ∗ semVal ((c : Thread nD τ), (SemLoc.dma 78 : SemLoc sig)) 0
      ∗ semVal ((c : Thread nD τ), (SemLoc.dma 79 : SemLoc sig)) 0
      ∗ semVal ((c : Thread nD τ), (SemLoc.dma 80 : SemLoc sig)) 0
      ∗ semVal ((c : Thread nD τ), (SemLoc.dma 81 : SemLoc sig)) 0
      ∗ semVal ((c : Thread nD τ), (SemLoc.dma 82 : SemLoc sig)) 0
      ∗ semVal ((c : Thread nD τ), (SemLoc.dma 83 : SemLoc sig)) 0
      ∗ semVal ((c : Thread nD τ), (SemLoc.dma 84 : SemLoc sig)) 0
      ∗ semVal ((c : Thread nD τ), (SemLoc.dma 85 : SemLoc sig)) 0
      ∗ semVal ((c : Thread nD τ), (SemLoc.dma 86 : SemLoc sig)) 0
      ∗ semVal ((c : Thread nD τ), (SemLoc.dma 87 : SemLoc sig)) 0
      ∗ semVal ((c : Thread nD τ), (SemLoc.dma 88 : SemLoc sig)) 0
      ∗ semVal ((c : Thread nD τ), (SemLoc.dma 89 : SemLoc sig)) 0
      ∗ semVal ((c : Thread nD τ), (SemLoc.dma 90 : SemLoc sig)) 0
      ∗ semVal ((c : Thread nD τ), (SemLoc.dma 91 : SemLoc sig)) 0
      ∗ semVal ((c : Thread nD τ), (SemLoc.dma 92 : SemLoc sig)) 0
      ∗ semVal ((c : Thread nD τ), (SemLoc.dma 93 : SemLoc sig)) 0
      ∗ semVal ((c : Thread nD τ), (SemLoc.dma 94 : SemLoc sig)) 0
      ∗ semVal ((c : Thread nD τ), (SemLoc.dma 95 : SemLoc sig)) 0
      ∗ semVal ((c : Thread nD τ), (SemLoc.dma 96 : SemLoc sig)) 0
      ∗ semVal ((c : Thread nD τ), (SemLoc.dma 97 : SemLoc sig)) 0
      ∗ semVal ((c : Thread nD τ), (SemLoc.dma 98 : SemLoc sig)) 0
      ∗ semVal ((c : Thread nD τ), (SemLoc.dma 99 : SemLoc sig)) 0
      ∗ semVal ((c : Thread nD τ), (SemLoc.dma 100 : SemLoc sig)) 0
      ∗ semVal ((c : Thread nD τ), (SemLoc.dma 101 : SemLoc sig)) 0)

/-- The grid point as a block number. -/
abbrev blk2 (i : grid2.Coords) : Fin 128 := ⟨(i 0).val, (i 0).isLt⟩

end Cert.KernelIdeal.Hand

end
-- ==== Proof.KI.Rows2.lean ====
/-
  The 32 rows a trip of the third region's loop fills, as one family: transfer `s` of trip `k` goes to row
  `32 k + s` of the scratch.
-/
import proofs.«423058_j50337016709696_1_alg».proof.Proof.KI.Base

noncomputable section

namespace Cert.KernelIdeal.Hand

open Cert.KernelIdeal Cert.KernelIdeal.Gen
open Idealize.ShloMosaic

/-- The offsets the kernel computes for transfer `s`'s destination row at trip `k`. -/
def dstOff2 (k : Fin k2_t1_loop.trips) : Fin 32 → Fin 2 → ℕ
  | ⟨0, _⟩ => k2_off2 k
  | ⟨1, _⟩ => k2_off5 k
  | ⟨2, _⟩ => k2_off8 k
  | ⟨3, _⟩ => k2_off11 k
  | ⟨4, _⟩ => k2_off14 k
  | ⟨5, _⟩ => k2_off17 k
  | ⟨6, _⟩ => k2_off20 k
  | ⟨7, _⟩ => k2_off23 k
  | ⟨8, _⟩ => k2_off26 k
  | ⟨9, _⟩ => k2_off29 k
  | ⟨10, _⟩ => k2_off32 k
  | ⟨11, _⟩ => k2_off35 k
  | ⟨12, _⟩ => k2_off38 k
  | ⟨13, _⟩ => k2_off41 k
  | ⟨14, _⟩ => k2_off44 k
  | ⟨15, _⟩ => k2_off47 k
  | ⟨16, _⟩ => k2_off50 k
  | ⟨17, _⟩ => k2_off53 k
  | ⟨18, _⟩ => k2_off56 k
  | ⟨19, _⟩ => k2_off59 k
  | ⟨20, _⟩ => k2_off62 k
  | ⟨21, _⟩ => k2_off65 k
  | ⟨22, _⟩ => k2_off68 k
  | ⟨23, _⟩ => k2_off71 k
  | ⟨24, _⟩ => k2_off74 k
  | ⟨25, _⟩ => k2_off77 k
  | ⟨26, _⟩ => k2_off80 k
  | ⟨27, _⟩ => k2_off83 k
  | ⟨28, _⟩ => k2_off86 k
  | ⟨29, _⟩ => k2_off89 k
  | ⟨30, _⟩ => k2_off92 k
  | ⟨31, _⟩ => k2_off95 k
  | ⟨_ + 32, h⟩ => absurd h (Nat.not_lt.2 (Nat.le_add_left _ _))

/-- Each row lies inside the block. -/
theorem dstOff2_inb (k : Fin k2_t1_loop.trips) : ∀ (s : Fin 32) (a : Fin 2), dstOff2 k s a + S1x32.size a ≤ S1024x32.size a
  | ⟨0, _⟩ => k2_off2_inb k
  | ⟨1, _⟩ => k2_off5_inb k
  | ⟨2, _⟩ => k2_off8_inb k
  | ⟨3, _⟩ => k2_off11_inb k
  | ⟨4, _⟩ => k2_off14_inb k
  | ⟨5, _⟩ => k2_off17_inb k
  | ⟨6, _⟩ => k2_off20_inb k
  | ⟨7, _⟩ => k2_off23_inb k
  | ⟨8, _⟩ => k2_off26_inb k
  | ⟨9, _⟩ => k2_off29_inb k
  | ⟨10, _⟩ => k2_off32_inb k
  | ⟨11, _⟩ => k2_off35_inb k
  | ⟨12, _⟩ => k2_off38_inb k
  | ⟨13, _⟩ => k2_off41_inb k
  | ⟨14, _⟩ => k2_off44_inb k
  | ⟨15, _⟩ => k2_off47_inb k
  | ⟨16, _⟩ => k2_off50_inb k
  | ⟨17, _⟩ => k2_off53_inb k
  | ⟨18, _⟩ => k2_off56_inb k
  | ⟨19, _⟩ => k2_off59_inb k
  | ⟨20, _⟩ => k2_off62_inb k
  | ⟨21, _⟩ => k2_off65_inb k
  | ⟨22, _⟩ => k2_off68_inb k
  | ⟨23, _⟩ => k2_off71_inb k
  | ⟨24, _⟩ => k2_off74_inb k
  | ⟨25, _⟩ => k2_off77_inb k
  | ⟨26, _⟩ => k2_off80_inb k
  | ⟨27, _⟩ => k2_off83_inb k
  | ⟨28, _⟩ => k2_off86_inb k
  | ⟨29, _⟩ => k2_off89_inb k
  | ⟨30, _⟩ => k2_off92_inb k
  | ⟨31, _⟩ => k2_off95_inb k
  | ⟨_ + 32, h⟩ => absurd h (Nat.not_lt.2 (Nat.le_add_left _ _))

/-- The loop runs 32 trips. -/
theorem trips2 : k2_t1_loop.trips = 32 := by decide

/-- Transfer s of trip k fills row 32 k + s. -/
def dstRow2 (k : Fin k2_t1_loop.trips) (s : Fin 32) : Fin 1024 :=
  ⟨32 * k.val + s.val, by have hk : k.val < 32 := Nat.lt_of_lt_of_eq k.isLt trips2; have := s.isLt; omega⟩

/-- In closed form the offsets of transfer `s` are row `32 k + s`, lane 0. -/
theorem dstOff2_eq (k : Fin k2_t1_loop.trips) : ∀ s : Fin 32, dstOff2 k s = ![(dstRow2 k s).val, 0]
  | ⟨0, _⟩ => k2_off2_eq k
  | ⟨1, _⟩ => k2_off5_eq k
  | ⟨2, _⟩ => k2_off8_eq k
  | ⟨3, _⟩ => k2_off11_eq k
  | ⟨4, _⟩ => k2_off14_eq k
  | ⟨5, _⟩ => k2_off17_eq k
  | ⟨6, _⟩ => k2_off20_eq k
  | ⟨7, _⟩ => k2_off23_eq k
  | ⟨8, _⟩ => k2_off26_eq k
  | ⟨9, _⟩ => k2_off29_eq k
  | ⟨10, _⟩ => k2_off32_eq k
  | ⟨11, _⟩ => k2_off35_eq k
  | ⟨12, _⟩ => k2_off38_eq k
  | ⟨13, _⟩ => k2_off41_eq k
  | ⟨14, _⟩ => k2_off44_eq k
  | ⟨15, _⟩ => k2_off47_eq k
  | ⟨16, _⟩ => k2_off50_eq k
  | ⟨17, _⟩ => k2_off53_eq k
  | ⟨18, _⟩ => k2_off56_eq k
  | ⟨19, _⟩ => k2_off59_eq k
  | ⟨20, _⟩ => k2_off62_eq k
  | ⟨21, _⟩ => k2_off65_eq k
  | ⟨22, _⟩ => k2_off68_eq k
  | ⟨23, _⟩ => k2_off71_eq k
  | ⟨24, _⟩ => k2_off74_eq k
  | ⟨25, _⟩ => k2_off77_eq k
  | ⟨26, _⟩ => k2_off80_eq k
  | ⟨27, _⟩ => k2_off83_eq k
  | ⟨28, _⟩ => k2_off86_eq k
  | ⟨29, _⟩ => k2_off89_eq k
  | ⟨30, _⟩ => k2_off92_eq k
  | ⟨31, _⟩ => k2_off95_eq k
  | ⟨_ + 32, h⟩ => absurd h (Nat.not_lt.2 (Nat.le_add_left _ _))

/-- Different transfers of a trip fill different rows. -/
theorem dstRow2_inj (k : Fin k2_t1_loop.trips) : Function.Injective (dstRow2 k) := by
  intro s s' h
  have h' : 32 * k.val + s.val = 32 * k.val + s'.val := congrArg Fin.val h
  exact Fin.ext (by omega)

end Cert.KernelIdeal.Hand

end
-- ==== Proof.KI.Words2.lean ====
/-
  The positions, in the region's column of index words, of the 32 words a trip reads: transfer `s` of trip `k`
  at grid point `i` reads the word at position `1024 i + 32 k + s`, the one for row `32 k + s` of block `i`.
-/
import proofs.«423058_j50337016709696_1_alg».proof.Proof.KI.Rows2

noncomputable section

namespace Cert.KernelIdeal.Hand

open Cert.KernelIdeal Cert.KernelIdeal.Gen
open Idealize.ShloMosaic

/-- The offsets the kernel computes for the position of transfer `s`'s index word. -/
def wordOff2 (i : grid2.Coords) (k : Fin k2_t1_loop.trips) : Fin 32 → Fin 1 → ℕ
  | ⟨0, _⟩ => k2_off1 i k
  | ⟨1, _⟩ => k2_off4 i k
  | ⟨2, _⟩ => k2_off7 i k
  | ⟨3, _⟩ => k2_off10 i k
  | ⟨4, _⟩ => k2_off13 i k
  | ⟨5, _⟩ => k2_off16 i k
  | ⟨6, _⟩ => k2_off19 i k
  | ⟨7, _⟩ => k2_off22 i k
  | ⟨8, _⟩ => k2_off25 i k
  | ⟨9, _⟩ => k2_off28 i k
  | ⟨10, _⟩ => k2_off31 i k
  | ⟨11, _⟩ => k2_off34 i k
  | ⟨12, _⟩ => k2_off37 i k
  | ⟨13, _⟩ => k2_off40 i k
  | ⟨14, _⟩ => k2_off43 i k
  | ⟨15, _⟩ => k2_off46 i k
  | ⟨16, _⟩ => k2_off49 i k
  | ⟨17, _⟩ => k2_off52 i k
  | ⟨18, _⟩ => k2_off55 i k
  | ⟨19, _⟩ => k2_off58 i k
  | ⟨20, _⟩ => k2_off61 i k
  | ⟨21, _⟩ => k2_off64 i k
  | ⟨22, _⟩ => k2_off67 i k
  | ⟨23, _⟩ => k2_off70 i k
  | ⟨24, _⟩ => k2_off73 i k
  | ⟨25, _⟩ => k2_off76 i k
  | ⟨26, _⟩ => k2_off79 i k
  | ⟨27, _⟩ => k2_off82 i k
  | ⟨28, _⟩ => k2_off85 i k
  | ⟨29, _⟩ => k2_off88 i k
  | ⟨30, _⟩ => k2_off91 i k
  | ⟨31, _⟩ => k2_off94 i k
  | ⟨_ + 32, h⟩ => absurd h (Nat.not_lt.2 (Nat.le_add_left _ _))

/-- Each position lies inside the column. -/
theorem wordOff2_inb (i : grid2.Coords) (k : Fin k2_t1_loop.trips) : ∀ (s : Fin 32) (a : Fin 1), wordOff2 i k s a + S1.size a ≤ S131072.size a
  | ⟨0, _⟩ => k2_off1_inb i k
  | ⟨1, _⟩ => k2_off4_inb i k
  | ⟨2, _⟩ => k2_off7_inb i k
  | ⟨3, _⟩ => k2_off10_inb i k
  | ⟨4, _⟩ => k2_off13_inb i k
  | ⟨5, _⟩ => k2_off16_inb i k
  | ⟨6, _⟩ => k2_off19_inb i k
  | ⟨7, _⟩ => k2_off22_inb i k
  | ⟨8, _⟩ => k2_off25_inb i k
  | ⟨9, _⟩ => k2_off28_inb i k
  | ⟨10, _⟩ => k2_off31_inb i k
  | ⟨11, _⟩ => k2_off34_inb i k
  | ⟨12, _⟩ => k2_off37_inb i k
  | ⟨13, _⟩ => k2_off40_inb i k
  | ⟨14, _⟩ => k2_off43_inb i k
  | ⟨15, _⟩ => k2_off46_inb i k
  | ⟨16, _⟩ => k2_off49_inb i k
  | ⟨17, _⟩ => k2_off52_inb i k
  | ⟨18, _⟩ => k2_off55_inb i k
  | ⟨19, _⟩ => k2_off58_inb i k
  | ⟨20, _⟩ => k2_off61_inb i k
  | ⟨21, _⟩ => k2_off64_inb i k
  | ⟨22, _⟩ => k2_off67_inb i k
  | ⟨23, _⟩ => k2_off70_inb i k
  | ⟨24, _⟩ => k2_off73_inb i k
  | ⟨25, _⟩ => k2_off76_inb i k
  | ⟨26, _⟩ => k2_off79_inb i k
  | ⟨27, _⟩ => k2_off82_inb i k
  | ⟨28, _⟩ => k2_off85_inb i k
  | ⟨29, _⟩ => k2_off88_inb i k
  | ⟨30, _⟩ => k2_off91_inb i k
  | ⟨31, _⟩ => k2_off94_inb i k
  | ⟨_ + 32, h⟩ => absurd h (Nat.not_lt.2 (Nat.le_add_left _ _))

/-- In closed form the position is `1024 i + 32 k + s`. -/
theorem wordOff2_eq (i : grid2.Coords) (k : Fin k2_t1_loop.trips) : ∀ s : Fin 32, wordOff2 i k s = ![1024 * (i 0).val + 32 * k.val + s.val]
  | ⟨0, _⟩ => k2_off1_eq i k
  | ⟨1, _⟩ => k2_off4_eq i k
  | ⟨2, _⟩ => k2_off7_eq i k
  | ⟨3, _⟩ => k2_off10_eq i k
  | ⟨4, _⟩ => k2_off13_eq i k
  | ⟨5, _⟩ => k2_off16_eq i k
  | ⟨6, _⟩ => k2_off19_eq i k
  | ⟨7, _⟩ => k2_off22_eq i k
  | ⟨8, _⟩ => k2_off25_eq i k
  | ⟨9, _⟩ => k2_off28_eq i k
  | ⟨10, _⟩ => k2_off31_eq i k
  | ⟨11, _⟩ => k2_off34_eq i k
  | ⟨12, _⟩ => k2_off37_eq i k
  | ⟨13, _⟩ => k2_off40_eq i k
  | ⟨14, _⟩ => k2_off43_eq i k
  | ⟨15, _⟩ => k2_off46_eq i k
  | ⟨16, _⟩ => k2_off49_eq i k
  | ⟨17, _⟩ => k2_off52_eq i k
  | ⟨18, _⟩ => k2_off55_eq i k
  | ⟨19, _⟩ => k2_off58_eq i k
  | ⟨20, _⟩ => k2_off61_eq i k
  | ⟨21, _⟩ => k2_off64_eq i k
  | ⟨22, _⟩ => k2_off67_eq i k
  | ⟨23, _⟩ => k2_off70_eq i k
  | ⟨24, _⟩ => k2_off73_eq i k
  | ⟨25, _⟩ => k2_off76_eq i k
  | ⟨26, _⟩ => k2_off79_eq i k
  | ⟨27, _⟩ => k2_off82_eq i k
  | ⟨28, _⟩ => k2_off85_eq i k
  | ⟨29, _⟩ => k2_off88_eq i k
  | ⟨30, _⟩ => k2_off91_eq i k
  | ⟨31, _⟩ => k2_off94_eq i k
  | ⟨_ + 32, h⟩ => absurd h (Nat.not_lt.2 (Nat.le_add_left _ _))

end Cert.KernelIdeal.Hand

end
-- ==== Proof.KI.Handback2.lean ====
/-
  After a trip, everything the trip borrowed is back: the column, the table's read shares, the counters at zero,
  and the scratch whole again at its final contents (its 16 rows held apart rejoined).
-/
import proofs.«423058_j50337016709696_1_alg».proof.Proof.KI.Rejoin
import proofs.«423058_j50337016709696_1_alg».proof.Proof.KI.Cells2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- 80 resources are sorted into their places and 16 rows rejoined
set_option maxHeartbeats 4000000 in
theorem handback2 (c : Dev nD) (hsc : (Memref.whole cc2_scratch0).IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32)
    (f : Bf (F := F) c (Memref.whole cc2_scratch0))
    (col : Bf (F := F) c (Memref.whole main_v11)) (tb : Bf (F := F) c (Memref.whole main_v13)) (W : Waits sig Unit) :
    let sc := Memref.whole cc2_scratch0
    (iprop(pt c (Memref.whole main_v11) col
        ∗ (ptq c (Memref.whole main_v13) (Transfers.shareTokN fullShare 70) tb
        ∗ ptq c (Memref.whole main_v13) (Transfers.shareTokN fullShare 71) tb
        ∗ ptq c (Memref.whole main_v13) (Transfers.shareTokN fullShare 72) tb
        ∗ ptq c (Memref.whole main_v13) (Transfers.shareTokN fullShare 73) tb
        ∗ ptq c (Memref.whole main_v13) (Transfers.shareTokN fullShare 74) tb
        ∗ ptq c (Memref.whole main_v13) (Transfers.shareTokN fullShare 75) tb
        ∗ ptq c (Memref.whole main_v13) (Transfers.shareTokN fullShare 76) tb
        ∗ ptq c (Memref.whole main_v13) (Transfers.shareTokN fullShare 77) tb
        ∗ ptq c (Memref.whole main_v13) (Transfers.shareTokN fullShare 78) tb
        ∗ ptq c (Memref.whole main_v13) (Transfers.shareTokN fullShare 79) tb
        ∗ ptq c (Memref.whole main_v13) (Transfers.shareTokN fullShare 80) tb
        ∗ ptq c (Memref.whole main_v13) (Transfers.shareTokN fullShare 81) tb
        ∗ ptq c (Memref.whole main_v13) (Transfers.shareTokN fullShare 82) tb
        ∗ ptq c (Memref.whole main_v13) (Transfers.shareTokN fullShare 83) tb
        ∗ ptq c (Memref.whole main_v13) (Transfers.shareTokN fullShare 84) tb
        ∗ ptq c (Memref.whole main_v13) (Transfers.shareTokN fullShare 85) tb
        ∗ ptq c (Memref.whole main_v13) (Transfers.shareTokN fullShare 86) tb
        ∗ ptq c (Memref.whole main_v13) (Transfers.shareTokN fullShare 87) tb
        ∗ ptq c (Memref.whole main_v13) (Transfers.shareTokN fullShare 88) tb
        ∗ ptq c (Memref.whole main_v13) (Transfers.shareTokN fullShare 89) tb
        ∗ ptq c (Memref.whole main_v13) (Transfers.shareTokN fullShare 90) tb
        ∗ ptq c (Memref.whole main_v13) (Transfers.shareTokN fullShare 91) tb
        ∗ ptq c (Memref.whole main_v13) (Transfers.shareTokN fullShare 92) tb
        ∗ ptq c (Memref.whole main_v13) (Transfers.shareTokN fullShare 93) tb
        ∗ ptq c (Memref.whole main_v13) (Transfers.shareTokN fullShare 94) tb
        ∗ ptq c (Memref.whole main_v13) (Transfers.shareTokN fullShare 95) tb
        ∗ ptq c (Memref.whole main_v13) (Transfers.shareTokN fullShare 96) tb
        ∗ ptq c (Memref.whole main_v13) (Transfers.shareTokN fullShare 97) tb
        ∗ ptq c (Memref.whole main_v13) (Transfers.shareTokN fullShare 98) tb
        ∗ ptq c (Memref.whole main_v13) (Transfers.shareTokN fullShare 99) tb
        ∗ ptq c (Memref.whole main_v13) (Transfers.shareTokN fullShare 100) tb
        ∗ ptq c (Memref.whole main_v13) (Transfers.shareTokN fullShare 101) tb)
        ∗ ((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega)))
        ∗ (semVal ((c : Thread nD τ), (SemLoc.dma 70 : SemLoc sig)) 0
        ∗ semVal ((c : Thread nD τ), (SemLoc.dma 71 : SemLoc sig)) 0
        ∗ semVal ((c : Thread nD τ), (SemLoc.dma 72 : SemLoc sig)) 0
        ∗ semVal ((c : Thread nD τ), (SemLoc.dma 73 : SemLoc sig)) 0
        ∗ semVal ((c : Thread nD τ), (SemLoc.dma 74 : SemLoc sig)) 0
        ∗ semVal ((c : Thread nD τ), (SemLoc.dma 75 : SemLoc sig)) 0
        ∗ semVal ((c : Thread nD τ), (SemLoc.dma 76 : SemLoc sig)) 0
        ∗ semVal ((c : Thread nD τ), (SemLoc.dma 77 : SemLoc sig)) 0
        ∗ semVal ((c : Thread nD τ), (SemLoc.dma 78 : SemLoc sig)) 0
        ∗ semVal ((c : Thread nD τ), (SemLoc.dma 79 : SemLoc sig)) 0
        ∗ semVal ((c : Thread nD τ), (SemLoc.dma 80 : SemLoc sig)) 0
        ∗ semVal ((c : Thread nD τ), (SemLoc.dma 81 : SemLoc sig)) 0
        ∗ semVal ((c : Thread nD τ), (SemLoc.dma 82 : SemLoc sig)) 0
        ∗ semVal ((c : Thread nD τ), (SemLoc.dma 83 : SemLoc sig)) 0
        ∗ semVal ((c : Thread nD τ), (SemLoc.dma 84 : SemLoc sig)) 0
        ∗ semVal ((c : Thread nD τ), (SemLoc.dma 85 : SemLoc sig)) 0
        ∗ semVal ((c : Thread nD τ), (SemLoc.dma 86 : SemLoc sig)) 0
        ∗ semVal ((c : Thread nD τ), (SemLoc.dma 87 : SemLoc sig)) 0
        ∗ semVal ((c : Thread nD τ), (SemLoc.dma 88 : SemLoc sig)) 0
        ∗ semVal ((c : Thread nD τ), (SemLoc.dma 89 : SemLoc sig)) 0
        ∗ semVal ((c : Thread nD τ), (SemLoc.dma 90 : SemLoc sig)) 0
        ∗ semVal ((c : Thread nD τ), (SemLoc.dma 91 : SemLoc sig)) 0
        ∗ semVal ((c : Thread nD τ), (SemLoc.dma 92 : SemLoc sig)) 0
        ∗ semVal ((c : Thread nD τ), (SemLoc.dma 93 : SemLoc sig)) 0
        ∗ semVal ((c : Thread nD τ), (SemLoc.dma 94 : SemLoc sig)) 0
        ∗ semVal ((c : Thread nD τ), (SemLoc.dma 95 : SemLoc sig)) 0
        ∗ semVal ((c : Thread nD τ), (SemLoc.dma 96 : SemLoc sig)) 0
        ∗ semVal ((c : Thread nD τ), (SemLoc.dma 97 : SemLoc sig)) 0
        ∗ semVal ((c : Thread nD τ), (SemLoc.dma 98 : SemLoc sig)) 0
        ∗ semVal ((c : Thread nD τ), (SemLoc.dma 99 : SemLoc sig)) 0
        ∗ semVal ((c : Thread nD τ), (SemLoc.dma 100 : SemLoc sig)) 0
        ∗ semVal ((c : Thread nD τ), (SemLoc.dma 101 : SemLoc sig)) 0)
        ∗ owes (c : Thread nD τ) 0 W) : sProp (𝕄K F))
      ⊢ iprop((pt c (Memref.whole main_v11) col ∗ toks2 c tb ∗ pt c sc (writeRows sc off h p f 32 (le_refl _)) ∗ sems2 c)
          ∗ ∃ W', owes (c : Thread nD τ) 0 W') := by
  intro sc
  iintro ⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hs, Hw0, Hw1, Hw2, Hw3, Hw4, Hw5, Hw6, Hw7, Hw8, Hw9, Hw10, Hw11, Hw12, Hw13, Hw14, Hw15⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO⟩
  isplitr [HO]; swap
  · iexists _; iexact HO
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks2
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hs Hw0 Hw1 Hw2 Hw3 Hw4 Hw5 Hw6 Hw7 Hw8 Hw9 Hw10 Hw11 Hw12 Hw13 Hw14 Hw15]
  · iapply (rejoin16 c sc hsc off ρ hoff hρ h p f)
    isplitl [Hs]; · iexact Hs
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  unfold sems2
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  isplitl [Hd23]; · iexact Hd23
  isplitl [Hd24]; · iexact Hd24
  isplitl [Hd25]; · iexact Hd25
  isplitl [Hd26]; · iexact Hd26
  isplitl [Hd27]; · iexact Hd27
  isplitl [Hd28]; · iexact Hd28
  isplitl [Hd29]; · iexact Hd29
  isplitl [Hd30]; · iexact Hd30
  iexact Hd31

end Cert.KernelIdeal.Hand

end
-- ==== Proof.KI.Trip2.lean ====
/-
  One trip of the third region's loop.  Before trip `k` the scratch holds the rows filled so far; the trip
  starts 32 transfers, one per row `32 k` to `32 k + 31`, each reading the table row its index word names,
  and waits for all of them; afterwards those 32 rows are filled too and nothing else has changed.
-/
import proofs.«423058_j50337016709696_1_alg».proof.Proof.KI.Cells2
import proofs.«423058_j50337016709696_1_alg».proof.Proof.KI.Rows2
import proofs.«423058_j50337016709696_1_alg».proof.Proof.KI.Rejoin
import proofs.«423058_j50337016709696_1_alg».proof.Proof.KI.GathStep
import proofs.«423058_j50337016709696_1_alg».proof.Proof.KI.Payload
import proofs.«423058_j50337016709696_1_alg».proof.Proof.KI.Words2
import proofs.«423058_j50337016709696_1_alg».proof.Proof.KI.Handback2
import proofs.«423058_j50337016709696_1_alg».proof.Proof.KI.RowWritesMore

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a trip needs and gives back, the scratch at raw contents `fs`: the column, the table held for reading, the
    scratch, the counters at zero.  (The result's staging block is not among them: a trip never touches it.) -/
abbrev Trip2 (c : Dev nD) (h1 : (Memref.whole main_v11).IsWhole)
    (h2 : (Memref.whole main_v13).IsWhole) (X : S131072.Idx → Elt F .i32) (u : S500000x32.Idx → Elt F .f32)
    (fs : Bf (F := F) c (Memref.whole cc2_scratch0)) : sProp (𝕄K F) :=
  iprop(pt c (Memref.whole main_v11) (h1.unread X) ∗ toks2 c (h2.unread u)
    ∗ pt c (Memref.whole cc2_scratch0) fs ∗ sems2 c)

-- one trip is 32 transfers started and then 32 awaited, run in one go, and 16 rows rejoined after it
set_option maxHeartbeats 40000000 in
/-- ONE trip: from the scratch reading as `Gather.gath X u i f₀ k` to the scratch reading as `Gather.gath X u i f₀ (k + 1)`,
    everything else as it was. -/
theorem trip2 (c : Dev nD) (i : grid2.Coords) (M3 : Memref sig .tc .vmem S1024x32 .f32) (h3 : M3.IsWhole)
    (h1 : (Memref.whole main_v11).IsWhole) (h2 : (Memref.whole main_v13).IsWhole) (h4 : (Memref.whole cc2_scratch0).IsWhole)
    (X : S131072.Idx → Elt F .i32) (hX : ∀ j, (X j).toNat < 500000) (u : S500000x32.Idx → Elt F .f32)
    (f₀ : S1024x32.Idx → Elt F .f32) (fs : Bf (F := F) c (Memref.whole cc2_scratch0))
    (k : Fin k2_t1_loop.trips) (hfs : (Memref.whole cc2_scratch0).view.read (Elt F) fs = Cert.Gather.gath X u (blk2 i) f₀ k.val)
    (W : Waits sig Unit) (Q : Unit → sProp (𝕄K F)) :
    iprop(Trip2 c h1 h2 X u fs ∗ owes (c : Thread nD τ) 0 W
        ∗ (iprop(∃ fs' : Bf (F := F) c (Memref.whole cc2_scratch0),
              ⌜(Memref.whole cc2_scratch0).view.read (Elt F) fs' = Cert.Gather.gath X u (blk2 i) f₀ (k.val + 1)⌝
              ∗ Trip2 c h1 h2 X u fs' ∗ (∃ W', owes (c : Thread nD τ) 0 W')) -∗ Q ()))
      ⊢ wp frame (wpE (defs₀ (F := F)) Variants.none c none) Set.univ
          (k2_t1_body i (Memref.whole main_v11) h1 (Memref.whole main_v13) h2 M3 h3 (Memref.whole cc2_scratch0) h4 cc2_scratch1
            (Scalar.muli (BitVec.ofNat 32 (i 0).val) 1024#32) k ()) Q := by
  unfold k2_t1_body
  iintro ⟨⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, Hs, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩⟩, HO, Hk⟩
  sl_exec (disch := (sl_unfold_run_names; obtain ⟨j, hj⟩ := h1.exists_readAt_unread X _ _; rw [hj]; exact row_inb _ (hX j)))
  sl_step
  -- the 32 transfers' payloads, as one family (the run's own names)
  let pay : Fin 32 → S32.Idx → Elt F .f32 := fun s => match s with
    | ⟨0, _⟩ => trip2.sl.dma1 i h1 h2 X hX u k
    | ⟨1, _⟩ => trip2.sl.dma2 i h1 h2 X hX u k
    | ⟨2, _⟩ => trip2.sl.dma3 i h1 h2 X hX u k
    | ⟨3, _⟩ => trip2.sl.dma4 i h1 h2 X hX u k
    | ⟨4, _⟩ => trip2.sl.dma5 i h1 h2 X hX u k
    | ⟨5, _⟩ => trip2.sl.dma6 i h1 h2 X hX u k
    | ⟨6, _⟩ => trip2.sl.dma7 i h1 h2 X hX u k
    | ⟨7, _⟩ => trip2.sl.dma8 i h1 h2 X hX u k
    | ⟨8, _⟩ => trip2.sl.dma9 i h1 h2 X hX u k
    | ⟨9, _⟩ => trip2.sl.dma10 i h1 h2 X hX u k
    | ⟨10, _⟩ => trip2.sl.dma11 i h1 h2 X hX u k
    | ⟨11, _⟩ => trip2.sl.dma12 i h1 h2 X hX u k
    | ⟨12, _⟩ => trip2.sl.dma13 i h1 h2 X hX u k
    | ⟨13, _⟩ => trip2.sl.dma14 i h1 h2 X hX u k
    | ⟨14, _⟩ => trip2.sl.dma15 i h1 h2 X hX u k
    | ⟨15, _⟩ => trip2.sl.dma16 i h1 h2 X hX u k
    | ⟨16, _⟩ => trip2.sl.dma17 i h1 h2 X hX u k
    | ⟨17, _⟩ => trip2.sl.dma18 i h1 h2 X hX u k
    | ⟨18, _⟩ => trip2.sl.dma19 i h1 h2 X hX u k
    | ⟨19, _⟩ => trip2.sl.dma20 i h1 h2 X hX u k
    | ⟨20, _⟩ => trip2.sl.dma21 i h1 h2 X hX u k
    | ⟨21, _⟩ => trip2.sl.dma22 i h1 h2 X hX u k
    | ⟨22, _⟩ => trip2.sl.dma23 i h1 h2 X hX u k
    | ⟨23, _⟩ => trip2.sl.dma24 i h1 h2 X hX u k
    | ⟨24, _⟩ => trip2.sl.dma25 i h1 h2 X hX u k
    | ⟨25, _⟩ => trip2.sl.dma26 i h1 h2 X hX u k
    | ⟨26, _⟩ => trip2.sl.dma27 i h1 h2 X hX u k
    | ⟨27, _⟩ => trip2.sl.dma28 i h1 h2 X hX u k
    | ⟨28, _⟩ => trip2.sl.dma29 i h1 h2 X hX u k
    | ⟨29, _⟩ => trip2.sl.dma30 i h1 h2 X hX u k
    | ⟨30, _⟩ => trip2.sl.dma31 i h1 h2 X hX u k
    | ⟨31, _⟩ => trip2.sl.dma32 i h1 h2 X hX u k
    | ⟨_ + 32, h⟩ => absurd h (Nat.not_lt.2 (Nat.le_add_left _ _))
  -- the scratch after r + 1 of the transfers have landed is the run's name for it
  have e0 : trip2.sl.Hs_w0 c i h1 h2 X hX u fs k = writeRows (Memref.whole cc2_scratch0) (dstOff2 k) (dstOff2_inb k) pay fs (0 + 1) (by omega) := by
    rw [writeRows_succ]; rfl
  have e1 : trip2.sl.Hs_w1 c i h1 h2 X hX u fs k = writeRows (Memref.whole cc2_scratch0) (dstOff2 k) (dstOff2_inb k) pay fs (1 + 1) (by omega) := by
    rw [writeRows_succ, ← e0]; rfl
  have e2 : trip2.sl.Hs_w2 c i h1 h2 X hX u fs k = writeRows (Memref.whole cc2_scratch0) (dstOff2 k) (dstOff2_inb k) pay fs (2 + 1) (by omega) := by
    rw [writeRows_succ, ← e1]; rfl
  have e3 : trip2.sl.Hs_w3 c i h1 h2 X hX u fs k = writeRows (Memref.whole cc2_scratch0) (dstOff2 k) (dstOff2_inb k) pay fs (3 + 1) (by omega) := by
    rw [writeRows_succ, ← e2]; rfl
  have e4 : trip2.sl.Hs_w4 c i h1 h2 X hX u fs k = writeRows (Memref.whole cc2_scratch0) (dstOff2 k) (dstOff2_inb k) pay fs (4 + 1) (by omega) := by
    rw [writeRows_succ, ← e3]; rfl
  have e5 : trip2.sl.Hs_w5 c i h1 h2 X hX u fs k = writeRows (Memref.whole cc2_scratch0) (dstOff2 k) (dstOff2_inb k) pay fs (5 + 1) (by omega) := by
    rw [writeRows_succ, ← e4]; rfl
  have e6 : trip2.sl.Hs_w6 c i h1 h2 X hX u fs k = writeRows (Memref.whole cc2_scratch0) (dstOff2 k) (dstOff2_inb k) pay fs (6 + 1) (by omega) := by
    rw [writeRows_succ, ← e5]; rfl
  have e7 : trip2.sl.Hs_w7 c i h1 h2 X hX u fs k = writeRows (Memref.whole cc2_scratch0) (dstOff2 k) (dstOff2_inb k) pay fs (7 + 1) (by omega) := by
    rw [writeRows_succ, ← e6]; rfl
  have e8 : trip2.sl.Hs_w8 c i h1 h2 X hX u fs k = writeRows (Memref.whole cc2_scratch0) (dstOff2 k) (dstOff2_inb k) pay fs (8 + 1) (by omega) := by
    rw [writeRows_succ, ← e7]; rfl
  have e9 : trip2.sl.Hs_w9 c i h1 h2 X hX u fs k = writeRows (Memref.whole cc2_scratch0) (dstOff2 k) (dstOff2_inb k) pay fs (9 + 1) (by omega) := by
    rw [writeRows_succ, ← e8]; rfl
  have e10 : trip2.sl.Hs_w10 c i h1 h2 X hX u fs k = writeRows (Memref.whole cc2_scratch0) (dstOff2 k) (dstOff2_inb k) pay fs (10 + 1) (by omega) := by
    rw [writeRows_succ, ← e9]; rfl
  have e11 : trip2.sl.Hs_w11 c i h1 h2 X hX u fs k = writeRows (Memref.whole cc2_scratch0) (dstOff2 k) (dstOff2_inb k) pay fs (11 + 1) (by omega) := by
    rw [writeRows_succ, ← e10]; rfl
  have e12 : trip2.sl.Hs_w12 c i h1 h2 X hX u fs k = writeRows (Memref.whole cc2_scratch0) (dstOff2 k) (dstOff2_inb k) pay fs (12 + 1) (by omega) := by
    rw [writeRows_succ, ← e11]; rfl
  have e13 : trip2.sl.Hs_w13 c i h1 h2 X hX u fs k = writeRows (Memref.whole cc2_scratch0) (dstOff2 k) (dstOff2_inb k) pay fs (13 + 1) (by omega) := by
    rw [writeRows_succ, ← e12]; rfl
  have e14 : trip2.sl.Hs_w14 c i h1 h2 X hX u fs k = writeRows (Memref.whole cc2_scratch0) (dstOff2 k) (dstOff2_inb k) pay fs (14 + 1) (by omega) := by
    rw [writeRows_succ, ← e13]; rfl
  have e15 : trip2.sl.Hs_w15 c i h1 h2 X hX u fs k = writeRows (Memref.whole cc2_scratch0) (dstOff2 k) (dstOff2_inb k) pay fs (15 + 1) (by omega) := by
    rw [writeRows_succ, ← e14]; rfl
  have e16 : trip2.sl.Hs_w16 c i h1 h2 X hX u fs k = writeRows (Memref.whole cc2_scratch0) (dstOff2 k) (dstOff2_inb k) pay fs (16 + 1) (by omega) := by
    rw [writeRows_succ, ← e15]; rfl
  have e17 : trip2.sl.Hs_w17 c i h1 h2 X hX u fs k = writeRows (Memref.whole cc2_scratch0) (dstOff2 k) (dstOff2_inb k) pay fs (17 + 1) (by omega) := by
    rw [writeRows_succ, ← e16]; rfl
  have e18 : trip2.sl.Hs_w18 c i h1 h2 X hX u fs k = writeRows (Memref.whole cc2_scratch0) (dstOff2 k) (dstOff2_inb k) pay fs (18 + 1) (by omega) := by
    rw [writeRows_succ, ← e17]; rfl
  have e19 : trip2.sl.Hs_w19 c i h1 h2 X hX u fs k = writeRows (Memref.whole cc2_scratch0) (dstOff2 k) (dstOff2_inb k) pay fs (19 + 1) (by omega) := by
    rw [writeRows_succ, ← e18]; rfl
  have e20 : trip2.sl.Hs_w20 c i h1 h2 X hX u fs k = writeRows (Memref.whole cc2_scratch0) (dstOff2 k) (dstOff2_inb k) pay fs (20 + 1) (by omega) := by
    rw [writeRows_succ, ← e19]; rfl
  have e21 : trip2.sl.Hs_w21 c i h1 h2 X hX u fs k = writeRows (Memref.whole cc2_scratch0) (dstOff2 k) (dstOff2_inb k) pay fs (21 + 1) (by omega) := by
    rw [writeRows_succ, ← e20]; rfl
  have e22 : trip2.sl.Hs_w22 c i h1 h2 X hX u fs k = writeRows (Memref.whole cc2_scratch0) (dstOff2 k) (dstOff2_inb k) pay fs (22 + 1) (by omega) := by
    rw [writeRows_succ, ← e21]; rfl
  have e23 : trip2.sl.Hs_w23 c i h1 h2 X hX u fs k = writeRows (Memref.whole cc2_scratch0) (dstOff2 k) (dstOff2_inb k) pay fs (23 + 1) (by omega) := by
    rw [writeRows_succ, ← e22]; rfl
  have e24 : trip2.sl.Hs_w24 c i h1 h2 X hX u fs k = writeRows (Memref.whole cc2_scratch0) (dstOff2 k) (dstOff2_inb k) pay fs (24 + 1) (by omega) := by
    rw [writeRows_succ, ← e23]; rfl
  have e25 : trip2.sl.Hs_w25 c i h1 h2 X hX u fs k = writeRows (Memref.whole cc2_scratch0) (dstOff2 k) (dstOff2_inb k) pay fs (25 + 1) (by omega) := by
    rw [writeRows_succ, ← e24]; rfl
  have e26 : trip2.sl.Hs_w26 c i h1 h2 X hX u fs k = writeRows (Memref.whole cc2_scratch0) (dstOff2 k) (dstOff2_inb k) pay fs (26 + 1) (by omega) := by
    rw [writeRows_succ, ← e25]; rfl
  have e27 : trip2.sl.Hs_w27 c i h1 h2 X hX u fs k = writeRows (Memref.whole cc2_scratch0) (dstOff2 k) (dstOff2_inb k) pay fs (27 + 1) (by omega) := by
    rw [writeRows_succ, ← e26]; rfl
  have e28 : trip2.sl.Hs_w28 c i h1 h2 X hX u fs k = writeRows (Memref.whole cc2_scratch0) (dstOff2 k) (dstOff2_inb k) pay fs (28 + 1) (by omega) := by
    rw [writeRows_succ, ← e27]; rfl
  have e29 : trip2.sl.Hs_w29 c i h1 h2 X hX u fs k = writeRows (Memref.whole cc2_scratch0) (dstOff2 k) (dstOff2_inb k) pay fs (29 + 1) (by omega) := by
    rw [writeRows_succ, ← e28]; rfl
  have e30 : trip2.sl.Hs_w30 c i h1 h2 X hX u fs k = writeRows (Memref.whole cc2_scratch0) (dstOff2 k) (dstOff2_inb k) pay fs (30 + 1) (by omega) := by
    rw [writeRows_succ, ← e29]; rfl
  have e31 : trip2.sl.Hs_w31 c i h1 h2 X hX u fs k = writeRows (Memref.whole cc2_scratch0) (dstOff2 k) (dstOff2_inb k) pay fs (31 + 1) (by omega) := by
    rw [writeRows_succ, ← e30]; rfl
  -- each transfer carries the table row the specification fills its row from
  have hpAll : ∀ (s : Fin 32) (l : S32.Idx), pay s l = u (ValueIdx.ix2 (Cert.Gather.srcRow X (blk2 i) (dstRow2 k s)) (l 0)) := fun s => match s with
    | ⟨0, _⟩ => fun l => payload_row (Memref.whole main_v11) (Memref.whole main_v13) h1 h2 X hX u (blk2 i) (dstRow2 k ⟨0, by decide⟩) (wordOff2 i k ⟨0, by decide⟩) (wordOff2_inb i k ⟨0, by decide⟩) (by rw [wordOff2_eq]; rfl) _ (trip2.sl.r i h1 X k) rfl (k2_off3 (trip2.sl.r i h1 X k)) _ rfl (trip2.sl.dma1 i h1 h2 X hX u k) rfl l
    | ⟨1, _⟩ => fun l => payload_row (Memref.whole main_v11) (Memref.whole main_v13) h1 h2 X hX u (blk2 i) (dstRow2 k ⟨1, by decide⟩) (wordOff2 i k ⟨1, by decide⟩) (wordOff2_inb i k ⟨1, by decide⟩) (by rw [wordOff2_eq]; rfl) _ (trip2.sl.r_1 i h1 X k) rfl (k2_off6 (trip2.sl.r_1 i h1 X k)) _ rfl (trip2.sl.dma2 i h1 h2 X hX u k) rfl l
    | ⟨2, _⟩ => fun l => payload_row (Memref.whole main_v11) (Memref.whole main_v13) h1 h2 X hX u (blk2 i) (dstRow2 k ⟨2, by decide⟩) (wordOff2 i k ⟨2, by decide⟩) (wordOff2_inb i k ⟨2, by decide⟩) (by rw [wordOff2_eq]; rfl) _ (trip2.sl.r_2 i h1 X k) rfl (k2_off9 (trip2.sl.r_2 i h1 X k)) _ rfl (trip2.sl.dma3 i h1 h2 X hX u k) rfl l
    | ⟨3, _⟩ => fun l => payload_row (Memref.whole main_v11) (Memref.whole main_v13) h1 h2 X hX u (blk2 i) (dstRow2 k ⟨3, by decide⟩) (wordOff2 i k ⟨3, by decide⟩) (wordOff2_inb i k ⟨3, by decide⟩) (by rw [wordOff2_eq]; rfl) _ (trip2.sl.r_3 i h1 X k) rfl (k2_off12 (trip2.sl.r_3 i h1 X k)) _ rfl (trip2.sl.dma4 i h1 h2 X hX u k) rfl l
    | ⟨4, _⟩ => fun l => payload_row (Memref.whole main_v11) (Memref.whole main_v13) h1 h2 X hX u (blk2 i) (dstRow2 k ⟨4, by decide⟩) (wordOff2 i k ⟨4, by decide⟩) (wordOff2_inb i k ⟨4, by decide⟩) (by rw [wordOff2_eq]; rfl) _ (trip2.sl.r_4 i h1 X k) rfl (k2_off15 (trip2.sl.r_4 i h1 X k)) _ rfl (trip2.sl.dma5 i h1 h2 X hX u k) rfl l
    | ⟨5, _⟩ => fun l => payload_row (Memref.whole main_v11) (Memref.whole main_v13) h1 h2 X hX u (blk2 i) (dstRow2 k ⟨5, by decide⟩) (wordOff2 i k ⟨5, by decide⟩) (wordOff2_inb i k ⟨5, by decide⟩) (by rw [wordOff2_eq]; rfl) _ (trip2.sl.r_5 i h1 X k) rfl (k2_off18 (trip2.sl.r_5 i h1 X k)) _ rfl (trip2.sl.dma6 i h1 h2 X hX u k) rfl l
    | ⟨6, _⟩ => fun l => payload_row (Memref.whole main_v11) (Memref.whole main_v13) h1 h2 X hX u (blk2 i) (dstRow2 k ⟨6, by decide⟩) (wordOff2 i k ⟨6, by decide⟩) (wordOff2_inb i k ⟨6, by decide⟩) (by rw [wordOff2_eq]; rfl) _ (trip2.sl.r_6 i h1 X k) rfl (k2_off21 (trip2.sl.r_6 i h1 X k)) _ rfl (trip2.sl.dma7 i h1 h2 X hX u k) rfl l
    | ⟨7, _⟩ => fun l => payload_row (Memref.whole main_v11) (Memref.whole main_v13) h1 h2 X hX u (blk2 i) (dstRow2 k ⟨7, by decide⟩) (wordOff2 i k ⟨7, by decide⟩) (wordOff2_inb i k ⟨7, by decide⟩) (by rw [wordOff2_eq]; rfl) _ (trip2.sl.r_7 i h1 X k) rfl (k2_off24 (trip2.sl.r_7 i h1 X k)) _ rfl (trip2.sl.dma8 i h1 h2 X hX u k) rfl l
    | ⟨8, _⟩ => fun l => payload_row (Memref.whole main_v11) (Memref.whole main_v13) h1 h2 X hX u (blk2 i) (dstRow2 k ⟨8, by decide⟩) (wordOff2 i k ⟨8, by decide⟩) (wordOff2_inb i k ⟨8, by decide⟩) (by rw [wordOff2_eq]; rfl) _ (trip2.sl.r_8 i h1 X k) rfl (k2_off27 (trip2.sl.r_8 i h1 X k)) _ rfl (trip2.sl.dma9 i h1 h2 X hX u k) rfl l
    | ⟨9, _⟩ => fun l => payload_row (Memref.whole main_v11) (Memref.whole main_v13) h1 h2 X hX u (blk2 i) (dstRow2 k ⟨9, by decide⟩) (wordOff2 i k ⟨9, by decide⟩) (wordOff2_inb i k ⟨9, by decide⟩) (by rw [wordOff2_eq]; rfl) _ (trip2.sl.r_9 i h1 X k) rfl (k2_off30 (trip2.sl.r_9 i h1 X k)) _ rfl (trip2.sl.dma10 i h1 h2 X hX u k) rfl l
    | ⟨10, _⟩ => fun l => payload_row (Memref.whole main_v11) (Memref.whole main_v13) h1 h2 X hX u (blk2 i) (dstRow2 k ⟨10, by decide⟩) (wordOff2 i k ⟨10, by decide⟩) (wordOff2_inb i k ⟨10, by decide⟩) (by rw [wordOff2_eq]; rfl) _ (trip2.sl.r_10 i h1 X k) rfl (k2_off33 (trip2.sl.r_10 i h1 X k)) _ rfl (trip2.sl.dma11 i h1 h2 X hX u k) rfl l
    | ⟨11, _⟩ => fun l => payload_row (Memref.whole main_v11) (Memref.whole main_v13) h1 h2 X hX u (blk2 i) (dstRow2 k ⟨11, by decide⟩) (wordOff2 i k ⟨11, by decide⟩) (wordOff2_inb i k ⟨11, by decide⟩) (by rw [wordOff2_eq]; rfl) _ (trip2.sl.r_11 i h1 X k) rfl (k2_off36 (trip2.sl.r_11 i h1 X k)) _ rfl (trip2.sl.dma12 i h1 h2 X hX u k) rfl l
    | ⟨12, _⟩ => fun l => payload_row (Memref.whole main_v11) (Memref.whole main_v13) h1 h2 X hX u (blk2 i) (dstRow2 k ⟨12, by decide⟩) (wordOff2 i k ⟨12, by decide⟩) (wordOff2_inb i k ⟨12, by decide⟩) (by rw [wordOff2_eq]; rfl) _ (trip2.sl.r_12 i h1 X k) rfl (k2_off39 (trip2.sl.r_12 i h1 X k)) _ rfl (trip2.sl.dma13 i h1 h2 X hX u k) rfl l
    | ⟨13, _⟩ => fun l => payload_row (Memref.whole main_v11) (Memref.whole main_v13) h1 h2 X hX u (blk2 i) (dstRow2 k ⟨13, by decide⟩) (wordOff2 i k ⟨13, by decide⟩) (wordOff2_inb i k ⟨13, by decide⟩) (by rw [wordOff2_eq]; rfl) _ (trip2.sl.r_13 i h1 X k) rfl (k2_off42 (trip2.sl.r_13 i h1 X k)) _ rfl (trip2.sl.dma14 i h1 h2 X hX u k) rfl l
    | ⟨14, _⟩ => fun l => payload_row (Memref.whole main_v11) (Memref.whole main_v13) h1 h2 X hX u (blk2 i) (dstRow2 k ⟨14, by decide⟩) (wordOff2 i k ⟨14, by decide⟩) (wordOff2_inb i k ⟨14, by decide⟩) (by rw [wordOff2_eq]; rfl) _ (trip2.sl.r_14 i h1 X k) rfl (k2_off45 (trip2.sl.r_14 i h1 X k)) _ rfl (trip2.sl.dma15 i h1 h2 X hX u k) rfl l
    | ⟨15, _⟩ => fun l => payload_row (Memref.whole main_v11) (Memref.whole main_v13) h1 h2 X hX u (blk2 i) (dstRow2 k ⟨15, by decide⟩) (wordOff2 i k ⟨15, by decide⟩) (wordOff2_inb i k ⟨15, by decide⟩) (by rw [wordOff2_eq]; rfl) _ (trip2.sl.r_15 i h1 X k) rfl (k2_off48 (trip2.sl.r_15 i h1 X k)) _ rfl (trip2.sl.dma16 i h1 h2 X hX u k) rfl l
    | ⟨16, _⟩ => fun l => payload_row (Memref.whole main_v11) (Memref.whole main_v13) h1 h2 X hX u (blk2 i) (dstRow2 k ⟨16, by decide⟩) (wordOff2 i k ⟨16, by decide⟩) (wordOff2_inb i k ⟨16, by decide⟩) (by rw [wordOff2_eq]; rfl) _ (trip2.sl.r_16 i h1 X k) rfl (k2_off51 (trip2.sl.r_16 i h1 X k)) _ rfl (trip2.sl.dma17 i h1 h2 X hX u k) rfl l
    | ⟨17, _⟩ => fun l => payload_row (Memref.whole main_v11) (Memref.whole main_v13) h1 h2 X hX u (blk2 i) (dstRow2 k ⟨17, by decide⟩) (wordOff2 i k ⟨17, by decide⟩) (wordOff2_inb i k ⟨17, by decide⟩) (by rw [wordOff2_eq]; rfl) _ (trip2.sl.r_17 i h1 X k) rfl (k2_off54 (trip2.sl.r_17 i h1 X k)) _ rfl (trip2.sl.dma18 i h1 h2 X hX u k) rfl l
    | ⟨18, _⟩ => fun l => payload_row (Memref.whole main_v11) (Memref.whole main_v13) h1 h2 X hX u (blk2 i) (dstRow2 k ⟨18, by decide⟩) (wordOff2 i k ⟨18, by decide⟩) (wordOff2_inb i k ⟨18, by decide⟩) (by rw [wordOff2_eq]; rfl) _ (trip2.sl.r_18 i h1 X k) rfl (k2_off57 (trip2.sl.r_18 i h1 X k)) _ rfl (trip2.sl.dma19 i h1 h2 X hX u k) rfl l
    | ⟨19, _⟩ => fun l => payload_row (Memref.whole main_v11) (Memref.whole main_v13) h1 h2 X hX u (blk2 i) (dstRow2 k ⟨19, by decide⟩) (wordOff2 i k ⟨19, by decide⟩) (wordOff2_inb i k ⟨19, by decide⟩) (by rw [wordOff2_eq]; rfl) _ (trip2.sl.r_19 i h1 X k) rfl (k2_off60 (trip2.sl.r_19 i h1 X k)) _ rfl (trip2.sl.dma20 i h1 h2 X hX u k) rfl l
    | ⟨20, _⟩ => fun l => payload_row (Memref.whole main_v11) (Memref.whole main_v13) h1 h2 X hX u (blk2 i) (dstRow2 k ⟨20, by decide⟩) (wordOff2 i k ⟨20, by decide⟩) (wordOff2_inb i k ⟨20, by decide⟩) (by rw [wordOff2_eq]; rfl) _ (trip2.sl.r_20 i h1 X k) rfl (k2_off63 (trip2.sl.r_20 i h1 X k)) _ rfl (trip2.sl.dma21 i h1 h2 X hX u k) rfl l
    | ⟨21, _⟩ => fun l => payload_row (Memref.whole main_v11) (Memref.whole main_v13) h1 h2 X hX u (blk2 i) (dstRow2 k ⟨21, by decide⟩) (wordOff2 i k ⟨21, by decide⟩) (wordOff2_inb i k ⟨21, by decide⟩) (by rw [wordOff2_eq]; rfl) _ (trip2.sl.r_21 i h1 X k) rfl (k2_off66 (trip2.sl.r_21 i h1 X k)) _ rfl (trip2.sl.dma22 i h1 h2 X hX u k) rfl l
    | ⟨22, _⟩ => fun l => payload_row (Memref.whole main_v11) (Memref.whole main_v13) h1 h2 X hX u (blk2 i) (dstRow2 k ⟨22, by decide⟩) (wordOff2 i k ⟨22, by decide⟩) (wordOff2_inb i k ⟨22, by decide⟩) (by rw [wordOff2_eq]; rfl) _ (trip2.sl.r_22 i h1 X k) rfl (k2_off69 (trip2.sl.r_22 i h1 X k)) _ rfl (trip2.sl.dma23 i h1 h2 X hX u k) rfl l
    | ⟨23, _⟩ => fun l => payload_row (Memref.whole main_v11) (Memref.whole main_v13) h1 h2 X hX u (blk2 i) (dstRow2 k ⟨23, by decide⟩) (wordOff2 i k ⟨23, by decide⟩) (wordOff2_inb i k ⟨23, by decide⟩) (by rw [wordOff2_eq]; rfl) _ (trip2.sl.r_23 i h1 X k) rfl (k2_off72 (trip2.sl.r_23 i h1 X k)) _ rfl (trip2.sl.dma24 i h1 h2 X hX u k) rfl l
    | ⟨24, _⟩ => fun l => payload_row (Memref.whole main_v11) (Memref.whole main_v13) h1 h2 X hX u (blk2 i) (dstRow2 k ⟨24, by decide⟩) (wordOff2 i k ⟨24, by decide⟩) (wordOff2_inb i k ⟨24, by decide⟩) (by rw [wordOff2_eq]; rfl) _ (trip2.sl.r_24 i h1 X k) rfl (k2_off75 (trip2.sl.r_24 i h1 X k)) _ rfl (trip2.sl.dma25 i h1 h2 X hX u k) rfl l
    | ⟨25, _⟩ => fun l => payload_row (Memref.whole main_v11) (Memref.whole main_v13) h1 h2 X hX u (blk2 i) (dstRow2 k ⟨25, by decide⟩) (wordOff2 i k ⟨25, by decide⟩) (wordOff2_inb i k ⟨25, by decide⟩) (by rw [wordOff2_eq]; rfl) _ (trip2.sl.r_25 i h1 X k) rfl (k2_off78 (trip2.sl.r_25 i h1 X k)) _ rfl (trip2.sl.dma26 i h1 h2 X hX u k) rfl l
    | ⟨26, _⟩ => fun l => payload_row (Memref.whole main_v11) (Memref.whole main_v13) h1 h2 X hX u (blk2 i) (dstRow2 k ⟨26, by decide⟩) (wordOff2 i k ⟨26, by decide⟩) (wordOff2_inb i k ⟨26, by decide⟩) (by rw [wordOff2_eq]; rfl) _ (trip2.sl.r_26 i h1 X k) rfl (k2_off81 (trip2.sl.r_26 i h1 X k)) _ rfl (trip2.sl.dma27 i h1 h2 X hX u k) rfl l
    | ⟨27, _⟩ => fun l => payload_row (Memref.whole main_v11) (Memref.whole main_v13) h1 h2 X hX u (blk2 i) (dstRow2 k ⟨27, by decide⟩) (wordOff2 i k ⟨27, by decide⟩) (wordOff2_inb i k ⟨27, by decide⟩) (by rw [wordOff2_eq]; rfl) _ (trip2.sl.r_27 i h1 X k) rfl (k2_off84 (trip2.sl.r_27 i h1 X k)) _ rfl (trip2.sl.dma28 i h1 h2 X hX u k) rfl l
    | ⟨28, _⟩ => fun l => payload_row (Memref.whole main_v11) (Memref.whole main_v13) h1 h2 X hX u (blk2 i) (dstRow2 k ⟨28, by decide⟩) (wordOff2 i k ⟨28, by decide⟩) (wordOff2_inb i k ⟨28, by decide⟩) (by rw [wordOff2_eq]; rfl) _ (trip2.sl.r_28 i h1 X k) rfl (k2_off87 (trip2.sl.r_28 i h1 X k)) _ rfl (trip2.sl.dma29 i h1 h2 X hX u k) rfl l
    | ⟨29, _⟩ => fun l => payload_row (Memref.whole main_v11) (Memref.whole main_v13) h1 h2 X hX u (blk2 i) (dstRow2 k ⟨29, by decide⟩) (wordOff2 i k ⟨29, by decide⟩) (wordOff2_inb i k ⟨29, by decide⟩) (by rw [wordOff2_eq]; rfl) _ (trip2.sl.r_29 i h1 X k) rfl (k2_off90 (trip2.sl.r_29 i h1 X k)) _ rfl (trip2.sl.dma30 i h1 h2 X hX u k) rfl l
    | ⟨30, _⟩ => fun l => payload_row (Memref.whole main_v11) (Memref.whole main_v13) h1 h2 X hX u (blk2 i) (dstRow2 k ⟨30, by decide⟩) (wordOff2 i k ⟨30, by decide⟩) (wordOff2_inb i k ⟨30, by decide⟩) (by rw [wordOff2_eq]; rfl) _ (trip2.sl.r_30 i h1 X k) rfl (k2_off93 (trip2.sl.r_30 i h1 X k)) _ rfl (trip2.sl.dma31 i h1 h2 X hX u k) rfl l
    | ⟨31, _⟩ => fun l => payload_row (Memref.whole main_v11) (Memref.whole main_v13) h1 h2 X hX u (blk2 i) (dstRow2 k ⟨31, by decide⟩) (wordOff2 i k ⟨31, by decide⟩) (wordOff2_inb i k ⟨31, by decide⟩) (by rw [wordOff2_eq]; rfl) _ (trip2.sl.r_31 i h1 X k) rfl (k2_off96 (trip2.sl.r_31 i h1 X k)) _ rfl (trip2.sl.dma32 i h1 h2 X hX u k) rfl l
    | ⟨_ + 32, h⟩ => absurd h (Nat.not_lt.2 (Nat.le_add_left _ _))
  -- the scratch's pieces at those contents
  ihave Hs_2 := (pt_of_eq e0) $$ Hs_2
  ihave Hs_3 := (pt_of_eq e1) $$ Hs_3
  ihave Hs_4 := (pt_of_eq e2) $$ Hs_4
  ihave Hs_5 := (pt_of_eq e3) $$ Hs_5
  ihave Hs_6 := (pt_of_eq e4) $$ Hs_6
  ihave Hs_7 := (pt_of_eq e5) $$ Hs_7
  ihave Hs_8 := (pt_of_eq e6) $$ Hs_8
  ihave Hs_9 := (pt_of_eq e7) $$ Hs_9
  ihave Hs_10 := (pt_of_eq e8) $$ Hs_10
  ihave Hs_11 := (pt_of_eq e9) $$ Hs_11
  ihave Hs_12 := (pt_of_eq e10) $$ Hs_12
  ihave Hs_13 := (pt_of_eq e11) $$ Hs_13
  ihave Hs_14 := (pt_of_eq e12) $$ Hs_14
  ihave Hs_15 := (pt_of_eq e13) $$ Hs_15
  ihave Hs_16 := (pt_of_eq e14) $$ Hs_16
  ihave Hs_17 := (pt_of_eq e15) $$ Hs_17
  ihave Hs := (pt_of_eq e31) $$ Hs
  iapply Hk
  iexists (writeRows (Memref.whole cc2_scratch0) (dstOff2 k) (dstOff2_inb k) pay fs (32) (by omega))
  isplitr [Ht Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hs Hs_2 Hs_3 Hs_4 Hs_5 Hs_6 Hs_7 Hs_8 Hs_9 Hs_10 Hs_11 Hs_12 Hs_13 Hs_14 Hs_15 Hs_16 Hs_17 Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 HO]; swap
  · iapply (handback2 c h4 (dstOff2 k) (dstRow2 k) (dstOff2_eq k) (dstRow2_inj k) (dstOff2_inb k) pay fs (h1.unread X) (h2.unread u) _)
    isplitl [Ht]; · iexact Ht
    isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
    ·
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hu19]; · iexact Hu19
      isplitl [Hu20]; · iexact Hu20
      isplitl [Hu21]; · iexact Hu21
      isplitl [Hu22]; · iexact Hu22
      isplitl [Hu23]; · iexact Hu23
      isplitl [Hu24]; · iexact Hu24
      isplitl [Hu25]; · iexact Hu25
      isplitl [Hu26]; · iexact Hu26
      isplitl [Hu27]; · iexact Hu27
      isplitl [Hu28]; · iexact Hu28
      isplitl [Hu29]; · iexact Hu29
      isplitl [Hu30]; · iexact Hu30
      iexact Hu31
    isplitl [Hs Hs_2 Hs_3 Hs_4 Hs_5 Hs_6 Hs_7 Hs_8 Hs_9 Hs_10 Hs_11 Hs_12 Hs_13 Hs_14 Hs_15 Hs_16 Hs_17]
    ·
      isplitl [Hs]; · iexact Hs
      isplitl [Hs_2]; · iexact Hs_2
      isplitl [Hs_3]; · iexact Hs_3
      isplitl [Hs_4]; · iexact Hs_4
      isplitl [Hs_5]; · iexact Hs_5
      isplitl [Hs_6]; · iexact Hs_6
      isplitl [Hs_7]; · iexact Hs_7
      isplitl [Hs_8]; · iexact Hs_8
      isplitl [Hs_9]; · iexact Hs_9
      isplitl [Hs_10]; · iexact Hs_10
      isplitl [Hs_11]; · iexact Hs_11
      isplitl [Hs_12]; · iexact Hs_12
      isplitl [Hs_13]; · iexact Hs_13
      isplitl [Hs_14]; · iexact Hs_14
      isplitl [Hs_15]; · iexact Hs_15
      isplitl [Hs_16]; · iexact Hs_16
      iexact Hs_17
    isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
    ·
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      iexact Hd31
    iexact HO
  · ipureintro
    exact gath_step (Memref.whole cc2_scratch0) h4 X u (blk2 i) f₀ k.val (Nat.lt_of_lt_of_eq k.isLt trips2) (dstOff2 k) (dstRow2 k) (dstOff2_eq k) (dstRow2_inj k)
      (fun s => rfl) (dstOff2_inb k) pay hpAll fs hfs

end Cert.KernelIdeal.Hand

end
-- ==== Proof.KI.Loop2.lean ====
/-
  The third region's loop, by its invariant.  Before trip `k` the scratch reads as the block with rows below
  `32 k` filled from the table and the rest as the loop found them; the column, the table held for reading and the
  region's own counters at zero are as they were.  One trip takes this from `k` to `k + 1`.
-/
import proofs.«423058_j50337016709696_1_alg».proof.Proof.KI.Trip2

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Before trip `k`: the scratch reads as the block with rows below `32 k` filled; the rest as the loop found it. -/
abbrev inv2 (c : Dev nD) (i : grid2.Coords) (h1 : (Memref.whole main_v11).IsWhole)
    (h2 : (Memref.whole main_v13).IsWhole) (X : S131072.Idx → Elt F .i32) (u : S500000x32.Idx → Elt F .f32)
    (f₀ : S1024x32.Idx → Elt F .f32) (k : ℕ) : sProp (𝕄K F) :=
  iprop(∃ fs : Bf (F := F) c (Memref.whole cc2_scratch0),
    ⌜(Memref.whole cc2_scratch0).view.read (Elt F) fs = Cert.Gather.gath X u (blk2 i) f₀ k⌝
    ∗ Trip2 c h1 h2 X u fs ∗ (∃ W, owes (c : Thread nD τ) 0 W))

@[sl_loop] noncomputable def loopInv2 (c : Dev nD) (X : S131072.Idx → Elt F .i32) (hX : ∀ j, (X j).toNat < 500000)
    (u : S500000x32.Idx → Elt F .f32) (f₀ : S1024x32.Idx → Elt F .f32)
    (i : grid2.Coords) (h1 : (Memref.whole main_v11).IsWhole) (h2 : (Memref.whole main_v13).IsWhole)
    (M3 : Memref sig .tc .vmem S1024x32 .f32) (h3 : M3.IsWhole) (h4 : (Memref.whole cc2_scratch0).IsWhole) :
    Cert.KernelIdeal.Gen.LoopInvTy_k2_t1 (F := F) Unit ℕ UU ℕ Variants.none c none Set.univ i (Memref.whole main_v11) h1 (Memref.whole main_v13) h2
      M3 h3 (Memref.whole cc2_scratch0) h4 cc2_scratch1 (Scalar.muli (BitVec.ofNat 32 (i 0).val) 1024#32) where
  inv := fun k _ => inv2 c i h1 h2 X u f₀ k
  step := fun k _ => by
    unfold inv2
    iintro ⟨%fs, %hfs, HT, %W, HO⟩
    iapply (trip2 c i M3 h3 h1 h2 h4 X hX u f₀ fs k hfs W _)
    isplitl [HT]; · iexact HT
    isplitl [HO]; · iexact HO
    iintro ⟨%fs', %hfs', HT', HO'⟩
    iexists fs'
    isplitr; · ipureintro; exact hfs'
    isplitl [HT']; · iexact HT'
    iexact HO'

end Cert.KernelIdeal.Hand

end
-- ==== Proof.KI.Gather2.lean ====
/-
  The third region's body.  At grid point `i` it fills its scratch with the 1024 table rows that the
  region's column of index words names at positions `1024 i` to `1024 i + 1023`, 32 rows a trip by 32
  transfers in flight at once, each waited for before the trip ends, and then copies the scratch to the
  result's block.  The table is only read, by several transfers at a time, so it is held as one read
  share per transfer; every index word is below the table's height, which is what each transfer's
  source window asks.
-/
import proofs.«423058_j50337016709696_1_alg».proof.Proof.KI.Loop2
import proofs.«423058_j50337016709696_1_alg».proof.Proof.KI.WholeBlock

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

-- the body is run across its loop and through the copy of the scratch to the result's block
set_option maxHeartbeats 4000000 in
/-- The body at grid point `i`: from the result's staging block and the scratch at anything, the index column at `X`
    (every word below the table's height), the table at `u` held for reading, the counters at zero and nothing owed, it
    runs to the continuation with the result's block filled (`Gather.filled X u i`), and everything else as it was. -/
theorem sound_gather2 (c : Dev nD) (i : grid2.Coords)
    (arg3 : Memref sig .tc .vmem S1024x32 .f32) (harg3 : arg3.IsWhole)
    (h1 : (Memref.whole main_v11).IsWhole) (h2 : (Memref.whole main_v13).IsWhole) (h4 : (Memref.whole cc2_scratch0).IsWhole)
    (X : S131072.Idx → Elt F .i32) (hX : ∀ j, (X j).toNat < 500000) (u : S500000x32.Idx → Elt F .f32)
    (W : Waits sig Unit) (K : PUnit → sProp (𝕄K F)) :
    iprop((∃ d, owns (c : Thread nD τ) arg3 fullShare d) ∗ (∃ f, pt c (Memref.whole cc2_scratch0) f)
        ∗ pt c (Memref.whole main_v11) (h1.unread X) ∗ toks2 c (h2.unread u) ∗ sems2 c ∗ owes (c : Thread nD τ) 0 W
        ∗ (iprop(owns (c : Thread nD τ) arg3 fullShare (Cert.Gather.filled X u (blk2 i)) ∗ (∃ f, pt c (Memref.whole cc2_scratch0) f)
              ∗ pt c (Memref.whole main_v11) (h1.unread X) ∗ toks2 c (h2.unread u) ∗ sems2 c ∗ (∃ W', owes (c : Thread nD τ) 0 W')) -∗ K ⟨⟩))
      ⊢ wp frame (wpE (defs₀ (F := F)) Variants.none c none) Set.univ
          (cc2__gather_kernel i (Memref.whole main_v11) h1 (Memref.whole main_v13) h2 arg3 harg3 (Memref.whole cc2_scratch0) h4 cc2_scratch1) K := by
  simp only [cc2__gather_kernel_eq_skeleton]; unfold cc2__gather_kernel_skel
  unfold owns
  iintro ⟨⟨%d3, %f3, -, H3⟩, ⟨%fs₀, Hs⟩, Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO, Hk⟩
  sl_exec
  sl_step
  iapply Hk
  -- the result's block: one whole-block store of the scratch read whole
  isplitl [H3]
  · iexists _; isplitr; swap; · iexact H3
    ipureintro
    rw [View.read_writes_eq_canon _ _ _ (cover_blk _), canon_whole_read, hL0]
    exact Cert.Gather.gath_last X u (blk2 i) _
  isplitl [Hs]; · iexists _; iexact Hs
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks2
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · unfold sems2
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.KernelIdeal.Hand

end
-- ==== Proof.KI.Region2.lean ====
/-
  The third region's proof data and body obligation, at the contents `V` the buffers hold when the region is
  entered and the contents `a` of its column of index words.  At grid point `t` the body leaves in the result's
  block the 1024 table rows that the column names at positions `1024 t` onward.  Between points the region keeps
  the table it reads, its own 32 semaphores at zero, the column, and its scratch at whatever the last point left.
-/
import proofs.«423058_j50337016709696_1_alg».proof.Proof.KI.Gather2
import proofs.«423058_j50337016709696_1_alg».proof.Proof.GatherSpec
import proofs.«423058_j50337016709696_1_alg».proof.Proof.Gen.KernelIdeal.Launch
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
variable (a : (pcfg2 (F := F)).Adm)

/-- The region's own 32 semaphores: the core's DMA semaphores 2 to 33. -/
abbrev osem2 : Fin 32 → SemLoc sig := fun k => .dma ⟨70 + k.val, by show 70 + k.val < 109; omega⟩

/-- The column of index words, as the function its contents read as. -/
abbrev col2 : S131072.Idx → Elt F .i32 := (Memref.whole main_v11).view.read (Elt F) (a.1 0)

/-- The table, as the function its contents read as when the region is entered. -/
abbrev tbl2 (c : Dev nD) : S500000x32.Idx → Elt F .f32 := (Memref.whole main_v13).view.read (Elt F) (V c main_v13)

/-- Grid point `t` as a block number. -/
abbrev blkAt2 (t : Fin (cfg2 a).N) : Fin 128 := ⟨((cfg2 a).grid.coords t 0).val, ((cfg2 a).grid.coords t 0).isLt⟩

/-- What the region keeps between points: the table at its entry contents, its own semaphores at zero, the column,
    and the scoped buffers no window stages (its scratch among them, at anything). -/
def Φ2 (c : Dev nD) : sProp (𝕄K F) :=
  iprop((((c : Thread nD τ).loc main_v13) ↦{fullShare} V c main_v13)
    ∗ Pipeline.ownSems0 (Ix := Unit) (Name := ℕ) (U := UU) (Lvl := ℕ) (Val := Elt F) osem2 c
    ∗ Pipeline.prefHeld (Ix := Unit) (Name := ℕ) (U := UU) (Lvl := ℕ) pre2 c (fun _ => fullShare) a.1
    ∗ Pipeline.scopedRest (Ix := Unit) (Name := ℕ) (U := UU) (Lvl := ℕ) (Val := Elt F) spec2 c)

/-- The third region's proof data: the result's array as found; after the body at point `t` the result's block
    filled from the table by the column; the invariant `Φ2`; nothing owed; full shares. -/
def dat2 (c : Dev nD) : Dat τ (Elt F) Unit ℕ UU ℕ (cfg2 a) c where
  A w := V c (Pipeline.arrRef spec2 w)
  after w t := match w with
    | ⟨0, _⟩ => Cert.Gather.filled (col2 a) (tbl2 V c) (blkAt2 a t)
  Φ _ := Φ2 V a c
  q _ := fullShare
  owed _ := 0

/-! ## The invariant's parts in the shape the body's triple takes them -/

/-- The region's own semaphores at zero, written out one by one. -/
theorem ownSems2_eq (c : Dev nD) :
    (Pipeline.ownSems0 (Ix := Unit) (Name := ℕ) (U := UU) (Lvl := ℕ) (Val := Elt F) osem2 c : sProp (𝕄K F)) = sems2 c := by
  rw [Pipeline.ownSems0_eq_of_list c osem2 [0, 1, 2, 3, 4, 5, 6, 7, 8, 9, 10, 11, 12, 13, 14, 15, 16, 17, 18, 19, 20, 21, 22, 23, 24, 25, 26, 27, 28, 29, 30, 31] (by decide) (by decide)]; rfl

/-- The column is the one prefetched table, held whole; its contents are the raw contents that read as `col2`. -/
theorem prefHeld2_eq (c : Dev nD) (h1 : (Memref.whole main_v11).IsWhole) :
    (Pipeline.prefHeld (Ix := Unit) (Name := ℕ) (U := UU) (Lvl := ℕ) pre2 c (fun _ => fullShare) a.1 : sProp (𝕄K F))
      = pt c (Memref.whole main_v11) (h1.unread (col2 a)) := by
  have e : h1.unread (col2 (F := F) a) = a.1 0 := h1.unread_read _
  rw [e]
  exact bigSep_W2 _

/-- The table's contents at entry are the raw contents that read as `tbl2`. -/
theorem table2_eq (c : Dev nD) (h2 : (Memref.whole main_v13).IsWhole) :
    ((((c : Thread nD τ).loc main_v13) ↦{fullShare} V c main_v13 : sProp (𝕄K F)))
      = pt c (Memref.whole main_v13) (h2.unread (tbl2 V c)) := by
  rw [h2.unread_read]

/-- The table held whole is what is left after 102 read shares are dealt off, the read shares below the region's
    own, and the 32 the transfers take: a full share deals into a remainder and any number of read shares, and back. -/
theorem table2_toks (c : Dev nD) (f : Bf (F := F) c (Memref.whole main_v13)) :
    pt c (Memref.whole main_v13) f ⊣⊢
      iprop(ptq c (Memref.whole main_v13) (Transfers.shareDrop fullShare 102) f
        ∗ bigSep (Finset.range 70) (fun i => ptq c (Memref.whole main_v13) (Transfers.shareTokN fullShare i) f)
        ∗ toks2 c f) := by
  have h := Transfers.pointsTo_toks_range (Ix := Unit) (Name := ℕ) (U := UU) (Lvl := ℕ) (Val := Elt F)
    (ℓ := (Memref.whole main_v13).view.loc (c : Thread nD τ)) (S := Finset.univ) (f := f) fullShare 102
  rw [show Finset.range 102 = Finset.range 70 ∪ [70, 71, 72, 73, 74, 75, 76, 77, 78, 79, 80, 81, 82, 83, 84, 85, 86, 87, 88, 89, 90, 91, 92, 93, 94, 95, 96, 97, 98, 99, 100, 101].toFinset by decide,
    BI.bigSep_union (show Disjoint (Finset.range 70) [70, 71, 72, 73, 74, 75, 76, 77, 78, 79, 80, 81, 82, 83, 84, 85, 86, 87, 88, 89, 90, 91, 92, 93, 94, 95, 96, 97, 98, 99, 100, 101].toFinset by decide),
    BI.bigSep_eq_bigSepL [70, 71, 72, 73, 74, 75, 76, 77, 78, 79, 80, 81, 82, 83, 84, 85, 86, 87, 88, 89, 90, 91, 92, 93, 94, 95, 96, 97, 98, 99, 100, 101] (by decide)] at h
  exact h

/-- The scoped buffers no window stages are the region's scratch and the others. -/
theorem scopedRest2_split (c : Dev nD) :
    (Pipeline.scopedRest (Ix := Unit) (Name := ℕ) (U := UU) (Lvl := ℕ) (Val := Elt F) spec2 c : sProp (𝕄K F))
      = iprop((∃ f, pt c (Memref.whole cc2_scratch0) f)
          ∗ Pipeline.scopedRestBut (Ix := Unit) (Name := ℕ) (U := UU) (Lvl := ℕ) (Val := Elt F) spec2 c [cc2_scratch0]) :=
  Pipeline.scopedRest_split_of_list spec2 c [cc2_scratch0] (by decide) (by decide)

/-- Everything the region keeps that the body never touches: what is left of the table beside the transfers' read
    shares, and the scoped buffers other than the scratch. -/
abbrev aside2 (c : Dev nD) (h2 : (Memref.whole main_v13).IsWhole) : sProp (𝕄K F) :=
  iprop(ptq c (Memref.whole main_v13) (Transfers.shareDrop fullShare 102) (h2.unread (tbl2 V c))
    ∗ bigSep (Finset.range 70) (fun i => ptq c (Memref.whole main_v13) (Transfers.shareTokN fullShare i) (h2.unread (tbl2 V c)))
    ∗ Pipeline.scopedRestBut (Ix := Unit) (Name := ℕ) (U := UU) (Lvl := ℕ) (Val := Elt F) spec2 c [cc2_scratch0])

/-- The invariant, both ways, as what the body's triple takes and gives back — the scratch at anything, the column,
    the table's 32 read shares, the semaphores at zero — beside what the body never touches. -/
theorem Φ2_body (c : Dev nD) (h1 : (Memref.whole main_v11).IsWhole) (h2 : (Memref.whole main_v13).IsWhole) :
    Φ2 V a c ⊣⊢
      iprop((∃ f, pt c (Memref.whole cc2_scratch0) f) ∗ pt c (Memref.whole main_v11) (h1.unread (col2 a))
        ∗ toks2 c (h2.unread (tbl2 V c)) ∗ sems2 c ∗ aside2 V c h2) := by
  unfold Φ2
  rw [table2_eq V c h2, ownSems2_eq, prefHeld2_eq a c h1, scopedRest2_split]
  constructor
  · iintro ⟨Htab, Hsems, Hcol, Hscr, Hrest⟩
    icases (table2_toks c (h2.unread (tbl2 V c))).1 $$ Htab with ⟨Hd, Hlow, Htoks⟩
    isplitl [Hscr]; · iexact Hscr
    isplitl [Hcol]; · iexact Hcol
    isplitl [Htoks]; · iexact Htoks
    isplitl [Hsems]; · iexact Hsems
    isplitl [Hd]; · iexact Hd
    isplitl [Hlow]; · iexact Hlow
    iexact Hrest
  · iintro ⟨Hscr, Hcol, Htoks, Hsems, Hd, Hlow, Hrest⟩
    isplitl [Hd Hlow Htoks]
    · iapply (table2_toks c (h2.unread (tbl2 V c))).2
      isplitl [Hd]; · iexact Hd
      isplitl [Hlow]; · iexact Hlow
      iexact Htoks
    isplitl [Hsems]; · iexact Hsems
    isplitl [Hcol]; · iexact Hcol
    isplitl [Hscr]; · iexact Hscr
    iexact Hrest

/-! ## The proof data, projected -/

/-- What the body leaves in the result's block at point `t`. -/
theorem after2_2 (c : Dev nD) (t : Fin (cfg2 a).N) :
    (dat2 V a c).after 0 t = Cert.Gather.filled (col2 a) (tbl2 V c) (blkAt2 a t) := by dsimp only [dat2]; rfl

/-! ## The obligation's two sides -/

/-- The one window's current staging memref at point `t`. -/
abbrev st2_0 (t : Fin (cfg2 a).N) := ((cfg2 a).win 0).stage ((cfg2 a).slots t 0)

/-- The body at point `t`, on what the pipeline calls it with. -/
abbrev bodyAt2 (t : Fin (cfg2 a).N) : Prog (TpuEff nD τ sig (Elt F) Λ₀ .tc) PUnit :=
  cc2__gather_kernel ((cfg2 a).grid.coords t) (Memref.whole main_v11) (Memref.isWhole_whole _) (Memref.whole main_v13) (Memref.isWhole_whole _)
    (spec2_0.stage ((cfg2 a).slots t 0)) (hstage2_0 (((cfg2 a).slots t 0).cast nbuf2_0))
    (Memref.whole cc2_scratch0) (Memref.isWhole_whole _) cc2_scratch1

/-- What the body is handed at point `t`: the invariant, what the core owes, and the result's current buffer. -/
def bodyPre2 (c : Dev nD) (t : Fin (cfg2 a).N) : sProp (𝕄K F) :=
  iprop((dat2 V a c).Φ t.castSucc ∗ (dat2 V a c).owesAt () t.castSucc
    ∗ (∃ d, owns (c : Thread nD τ) (st2_0 a t) fullShare ((dat2 V a c).before 0 t d)))

/-- What it hands back: the same at the next point, the buffer at what the body leaves there. -/
def bodyPost2 (c : Dev nD) (t : Fin (cfg2 a).N) : sProp (𝕄K F) :=
  iprop((dat2 V a c).Φ t.succ ∗ (dat2 V a c).owesAt () t.succ
    ∗ owns (c : Thread nD τ) (st2_0 a t) fullShare ((dat2 V a c).after 0 t))

/-- The body at any point: the invariant opens into what the body's triple takes, the triple runs, and what it gives
    back closes into the invariant again; the core owes nothing before and nothing after, and the bound on its
    recorded waits is the whole set, so it asks nothing. -/
theorem sound_body2 (c : Dev nD) (hX : ∀ j, ((col2 a) j).toNat < 500000) (t : Fin (cfg2 a).N) :
    bodyPre2 V a c t ⊢ wp frame (wpE (defs₀ (F := F)) Variants.none c none) Set.univ (bodyAt2 a t) (fun _ => bodyPost2 V a c t) := by
  unfold bodyPre2 bodyPost2
  rw [show (dat2 V a c).Φ t.succ = Φ2 V a c from rfl, show (dat2 V a c).Φ t.castSucc = Φ2 V a c from rfl, after2_2]
  iintro ⟨HΦ, ⟨%W, %hW, Ho⟩, ⟨%d, Hw⟩⟩
  icases (Φ2_body V a c (Memref.isWhole_whole _) (Memref.isWhole_whole _)).1 $$ HΦ with ⟨Hscr, Hcol, Htoks, Hsems, Hrest⟩
  iapply (sound_gather2 c ((cfg2 a).grid.coords t) (spec2_0.stage ((cfg2 a).slots t 0)) (hstage2_0 (((cfg2 a).slots t 0).cast nbuf2_0))
    (Memref.isWhole_whole _) (Memref.isWhole_whole _) (Memref.isWhole_whole _) (col2 a) hX (tbl2 V c) W _)
  isplitl [Hw]; · iexists _; iexact Hw
  isplitl [Hscr]; · iexact Hscr
  isplitl [Hcol]; · iexact Hcol
  isplitl [Htoks]; · iexact Htoks
  isplitl [Hsems]; · iexact Hsems
  isplitl [Ho]; · iexact Ho
  iintro ⟨Hw, Hscr, Hcol, Htoks, Hsems, ⟨%W', Ho⟩⟩
  isplitl [Hscr Hcol Htoks Hsems Hrest]
  · iapply (Φ2_body V a c (Memref.isWhole_whole _) (Memref.isWhole_whole _)).2
    isplitl [Hscr]; · iexact Hscr
    isplitl [Hcol]; · iexact Hcol
    isplitl [Htoks]; · iexact Htoks
    isplitl [Hsems]; · iexact Hsems
    iexact Hrest
  isplitl [Ho]
  · iexists W'; isplitr
    · ipureintro; exact fun _ _ => Or.inl trivial
    iexact Ho
  iexact Hw

/-- The library's body obligation for the third region, at every point, when every word of the column is below the
    table's height. -/
theorem body_obligation2 (c : Dev nD) (hX : ∀ j, ((col2 a) j).toNat < 500000) :
    BodyObligation (dat2 (F := F) V a c) (defs₀ (F := F)) Variants.none () Set.univ := fun t => by
  rw [bigSep_W2, bigSep_W2]
  exact sound_body2 V a c hX t

end Cert.KernelIdeal.Hand

end
-- ==== Proof.KI.ProjBody.lean ====
/-
  The fourth region's body: from a block of 512 input rows, the frequency matrix, the read-out column
  and the bias, it leaves in the result's block the read-out of the sine and cosine features of the rows'
  projections, scaled by one sixteenth, plus the bias.  It loads its four operands whole, computes, and
  stores the result's block whole: one store, so what the block holds afterwards is that one payload.
-/
import proofs.«423058_j50337016709696_1_alg».proof.Proof.KI.Base
import Idealize.ShloMosaic.Lib.Pipeline.FrameBody

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The whole of each operand's block, as the rectangle the body reads or writes it through. -/
abbrev rIn : Rect S512x97 := Rect.unit (s := S512x97) ![0, 0] S512x97.size inb_S512x97_S512x97_0_0
abbrev rW : Rect S97x256 := Rect.unit (s := S97x256) ![0, 0] S97x256.size inb_S97x256_S97x256_0_0
abbrev rOut : Rect S512x1 := Rect.unit (s := S512x1) ![0, 0] S512x1.size inb_S512x1_S512x1_0_0
abbrev rBias : Rect S1x1 := Rect.unit (s := S1x1) ![0, 0] S1x1.size inb_S1x1_S1x1_0_0

/-- What the body leaves in the result's block, from the four operands' blocks: its one store. -/
def projOut (x0 : Vec F S512x97 .f32) (x1 : Vec F S97x256 .f32) (x2 : Vec F S512x1 .f32) (x3 : Vec F S1x1 .f32) :
    Vec F S512x1 .f32 :=
  View.canon [⟨rOut, k3_pay1 (View.ld x0 rIn) (View.ld x1 rW) (View.ld x2 rOut) (View.ld x3 rBias)⟩]

/-- The one store's rectangle is the whole result block, so every index of the block lies in it. -/
theorem cover_out (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

/-- The body on whole staging memrefs: the four operands' at read contents, the result's at anything, runs to the
    continuation holding the operands' as they were and the result's at `projOut` of them. -/
theorem sound_proj (c : Dev nD) (E : Set ℕ) (i : grid3.Coords)
    (arg1 : Memref sig .tc .vmem S512x97 .f32) (harg1 : arg1.IsWhole) (arg2 : Memref sig .tc .vmem S97x256 .f32) (harg2 : arg2.IsWhole)
    (arg3 : Memref sig .tc .vmem S512x1 .f32) (harg3 : arg3.IsWhole) (arg4 : Memref sig .tc .vmem S1x1 .f32) (harg4 : arg4.IsWhole)
    (arg5 : Memref sig .tc .vmem S512x1 .f32) (harg5 : arg5.IsWhole)
    (x0 : Vec F S512x97 .f32) (x1 : Vec F S97x256 .f32) (x2 : Vec F S512x1 .f32) (x3 : Vec F S1x1 .f32)
    (K : PUnit → sProp (𝕄K F)) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare (projOut x0 x1 x2 x3)) -∗ K ⟨⟩))
      ⊢ wp frame (wpE (defs₀ (F := F)) Variants.none c none) E
          (cc3__proj_kernel i arg1 harg1 arg2 harg2 arg3 harg3 arg4 harg4 arg5 harg5) K := by
  simp only [cc3__proj_kernel_eq_skeleton]; unfold cc3__proj_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Hand

end
-- ==== Proof.KI.Region3.lean ====
/-
  The fourth region's proof data and body obligation, at the contents `V` the buffers hold when the region
  is entered.  At grid point `t` the body is handed block `t` of the input rows and the whole of the three
  small operands (the same block at every point), and leaves in the result's block the read-out of those
  rows: `projOut` of the four.  It touches nothing else, so the invariant between points is just what the
  pipeline itself keeps aside.
-/
import proofs.«423058_j50337016709696_1_alg».proof.Proof.KI.ProjBody
import proofs.«423058_j50337016709696_1_alg».proof.Proof.Gen.KernelIdeal.Points
import proofs.«423058_j50337016709696_1_alg».proof.Proof.Gen.KernelIdeal.Launch
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The fourth region's proof data: the arrays as found; after the body each operand's buffer at its block and the
    result's at `projOut` of the four; the invariant what the pipeline keeps aside; nothing owed; full shares. -/
def dat3 (c : Dev nD) : Dat τ (Elt F) Unit ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => projOut (iblk3 V c 0 t) (iblk3 V c 1 t) (iblk3 V c 2 t) (iblk3 V c 3 t)
  Φ _ := Pipeline.ΦA spec3 c
  q _ := fullShare
  owed _ := 0

/-! ## The proof data, projected -/

/-- The arrays of the proof data are the contents the region is entered with. -/
theorem A_eq3 (c : Dev nD) (w : Fin cfg3.W) : (dat3 V c).A w = V c (Pipeline.arrRef spec3 w) := by
  dsimp only [dat3]

/-- What the body leaves in each window's buffer: an operand's block where it was, the result's at `projOut`. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = projOut (iblk3 V c 0 t) (iblk3 V c 1 t) (iblk3 V c 2 t) (iblk3 V c 3 t) := by dsimp only [dat3]

/-! ## What the body finds in each operand's buffer

An operand's buffer holds its block at every point.  Where the pipeline fetched it, the fetch put the block there.
Where it did not, the block index is the one of the point before, the body left the buffer as it found it, and so
the buffer still holds the previous point's block, which is this point's: the three small operands, whose block
is the same at every point, are fetched once and found unchanged ever after. -/

theorem before3_0 (c : Dev nD) (t : Fin cfg3.N) (d) : (dat3 V c).before 0 t d = iblk3 V c 0 t := by
  have hkeep : ∀ t, (cfg3.win 0).cut (cfg3.grid.coords t) ((dat3 V c).after 0 t) = (dat3 V c).blockOf 0 t := fun t => by
    rw [after3_0]; unfold Dat.blockOf iblk3; rw [A_eq3]
  rw [(dat3 V c).before_in_eq_fetched 0 rfl (fun _ => rfl) (fun _ _ _ => rfl) hkeep t d]
  unfold Dat.fetched Dat.blockOf iblk3; rw [A_eq3]; rfl

theorem before3_1 (c : Dev nD) (t : Fin cfg3.N) (d) : (dat3 V c).before 1 t d = iblk3 V c 1 t := by
  have hkeep : ∀ t, (cfg3.win 1).cut (cfg3.grid.coords t) ((dat3 V c).after 1 t) = (dat3 V c).blockOf 1 t := fun t => by
    rw [after3_1]; unfold Dat.blockOf iblk3; rw [A_eq3]
  rw [(dat3 V c).before_in_eq_fetched 1 rfl (fun _ => rfl) (fun _ _ _ => rfl) hkeep t d]
  unfold Dat.fetched Dat.blockOf iblk3; rw [A_eq3]; rfl

theorem before3_2 (c : Dev nD) (t : Fin cfg3.N) (d) : (dat3 V c).before 2 t d = iblk3 V c 2 t := by
  have hkeep : ∀ t, (cfg3.win 2).cut (cfg3.grid.coords t) ((dat3 V c).after 2 t) = (dat3 V c).blockOf 2 t := fun t => by
    rw [after3_2]; unfold Dat.blockOf iblk3; rw [A_eq3]
  rw [(dat3 V c).before_in_eq_fetched 2 rfl (fun _ => rfl) (fun _ _ _ => rfl) hkeep t d]
  unfold Dat.fetched Dat.blockOf iblk3; rw [A_eq3]; rfl

theorem before3_3 (c : Dev nD) (t : Fin cfg3.N) (d) : (dat3 V c).before 3 t d = iblk3 V c 3 t := by
  have hkeep : ∀ t, (cfg3.win 3).cut (cfg3.grid.coords t) ((dat3 V c).after 3 t) = (dat3 V c).blockOf 3 t := fun t => by
    rw [after3_3]; unfold Dat.blockOf iblk3; rw [A_eq3]
  rw [(dat3 V c).before_in_eq_fetched 3 rfl (fun _ => rfl) (fun _ _ _ => rfl) hkeep t d]
  unfold Dat.fetched Dat.blockOf iblk3; rw [A_eq3]; rfl

/-! ## The obligation's two sides, window by window -/

/-- What the body is handed at point `t`: the invariant, what the core owes, and the five current buffers. -/
def bodyPre3 (c : Dev nD) (t : Fin cfg3.N) : sProp (𝕄K F) :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it hands back: the same at the next point, each buffer at what the body leaves there. -/
def bodyPost3 (c : Dev nD) (t : Fin cfg3.N) : sProp (𝕄K F) :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the operands' buffers hold their blocks, so the body's triple applies at those four
    blocks; the invariant and what the core owes do not depend on the point and pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_proj c Set.univ (grid3.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))
    (win3_4.stage (cfg3.slots t 4)) (hstage3_4 ((cfg3.slots t 4).cast nbuf3_4))
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the fourth region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.LaunchData.lean ====
/-
  The launch's data for the idealized kernel, from the memory `m` it starts in: the contents of the three
  columns of index words the gather regions read (which the host computes from the index array before
  each region), what each region leaves in the arrays it may change, and the buffers' contents between
  the items of the program.  The valuations are the generated ones at those leavings; each region's proof
  data is read off the valuation it is entered in.
-/
import proofs.«423058_j50337016709696_1_alg».proof.Proof.KI.RunCond
import proofs.«423058_j50337016709696_1_alg».proof.Proof.KI.Region0
import proofs.«423058_j50337016709696_1_alg».proof.Proof.KI.Region1
import proofs.«423058_j50337016709696_1_alg».proof.Proof.KI.Region2
import proofs.«423058_j50337016709696_1_alg».proof.Proof.KI.Region3
import Idealize.ShloMosaic.Lib.Pipeline.FrameSuffix

noncomputable section

namespace Cert.KernelIdeal.Hand

open Cert.KernelIdeal Cert.KernelIdeal.Gen Cert.KernelIdeal.RunCond
open Idealize.ShloMosaic Idealize.ShloMosaic.TcCoe
open Idealize.ShloMosaic.Pipeline (Dat withArrays arrRef)

variable {F : FTy → Type} [FloatOps F]

variable (m : (ℓ : Loc nD τ sig) → Buf (Elt F) ℓ)

/-- The one core. -/
abbrev c₀ : Dev nD := ⟨0, by decide⟩

/-- The buffers after the first host stretch: the valuation region 0 is entered in. -/
abbrev U1 (c : Dev nD) : Valuation τ sig (Elt F) := V1 m c

/-- Region 0's column of index words: what the first host stretch leaves in its table. -/
def a0 : (pcfg0 (F := F)).Adm := ⟨fun k => match k with | ⟨0, _⟩ => U1 m c₀ main_v1, trivial⟩

/-- A valuation, as the function of a buffer's reference that the regions' proof data take. -/
abbrev ofVal (W : Dev nD → Valuation τ sig (Elt F)) : (c : Dev nD) → (b : Ref sig .tc) → Buf (Elt F) ((c : Thread nD τ).loc b) :=
  fun c b => W c b

/-- After region 0: its result array at what the region leaves, everything else as it was. -/
def U2 (c : Dev nD) : Valuation τ sig (Elt F) :=
  withArrays spec0 c (U1 m c) (fun w => (dat0 (ofVal (U1 m)) (a0 m) c).arrAt w (cfg0 (a0 m)).N)

/-- After the second host stretch: the valuation region 1 is entered in. -/
def U3 (c : Dev nD) : Valuation τ sig (Elt F) := StableHlo.after hostOps1 (U2 m c)

/-- Region 1's column of index words. -/
def a1 : (pcfg1 (F := F)).Adm := ⟨fun k => match k with | ⟨0, _⟩ => U3 m c₀ main_v6, trivial⟩

/-- After region 1. -/
def U4 (c : Dev nD) : Valuation τ sig (Elt F) :=
  withArrays spec1 c (U3 m c) (fun w => (dat1 (ofVal (U3 m)) (a1 m) c).arrAt w (cfg1 (a1 m)).N)

/-- After the third host stretch: the valuation region 2 is entered in. -/
def U5 (c : Dev nD) : Valuation τ sig (Elt F) := StableHlo.after hostOps2 (U4 m c)

/-- Region 2's column of index words. -/
def a2 : (pcfg2 (F := F)).Adm := ⟨fun k => match k with | ⟨0, _⟩ => U5 m c₀ main_v11, trivial⟩

/-- After region 2. -/
def U6 (c : Dev nD) : Valuation τ sig (Elt F) :=
  withArrays spec2 c (U5 m c) (fun w => (dat2 (ofVal (U5 m)) (a2 m) c).arrAt w (cfg2 (a2 m)).N)

/-- After the fourth host stretch (the input rows put side by side): the valuation region 3 is entered in. -/
def U7 (c : Dev nD) : Valuation τ sig (Elt F) := StableHlo.after hostOps3 (U6 m c)

/-- After region 3: the result array at what the region leaves. -/
def U8 (c : Dev nD) : Valuation τ sig (Elt F) :=
  withArrays spec3 c (U7 m c) (fun w => (dat3 (ofVal (U7 m)) c).arrAt w cfg3.N)

/-- What the regions leave in the arrays they may change: read off the valuations after them. -/
def outs : Outs (F := F) := fun j r c =>
  match j with
  | 2 => U2 m c r
  | 4 => U4 m c r
  | 6 => U6 m c r
  | 8 => U8 m c r
  | _ => U1 m c r

end Cert.KernelIdeal.Hand

end
-- ==== Proof.KI.LaunchVals.lean ====
/-
  The generated valuations, taken at what the regions leave, are the buffers' contents between the program's
  items as the launch data define them: each host stretch runs from the valuation before it, and each region
  replaces its result array (and nothing else) by what it leaves.
-/
import proofs.«423058_j50337016709696_1_alg».proof.Proof.KI.LaunchData

noncomputable section

namespace Cert.KernelIdeal.Hand

open Cert.KernelIdeal Cert.KernelIdeal.Gen Cert.KernelIdeal.RunCond
open Idealize.ShloMosaic Idealize.ShloMosaic.TcCoe
open Idealize.ShloMosaic.Pipeline (withArrays arrRef)

variable {F : FTy → Type} [FloatOps F]
variable (m : (ℓ : Loc nD τ sig) → Buf (Elt F) ℓ)

/-! ## Three facts about valuations -/

/-- A valuation overwritten at two buffers by another's contents there is that other one, when the two agree at every
    buffer but those. -/
theorem update2_eq (X Y : Valuation τ sig (Elt F)) (r r' : Ref sig .tc)
    (h : ∀ b : DevRef τ sig, b ≠ Proc.devRef .tc r → b ≠ Proc.devRef .tc r' → Y b = X b) :
    Function.update (Function.update X (Proc.devRef .tc r) (Y (Proc.devRef .tc r))) (Proc.devRef .tc r') (Y (Proc.devRef .tc r')) = Y := by
  funext b
  by_cases h' : b = Proc.devRef .tc r'
  · subst h'; exact Function.update_self _ _ _
  · rw [Function.update_of_ne h']
    by_cases hr : b = Proc.devRef .tc r
    · subst hr; exact Function.update_self _ _ _
    · rw [Function.update_of_ne hr]; exact (h b hr h').symm

/-- The same at one buffer. -/
theorem update1_eq (X Y : Valuation τ sig (Elt F)) (r : Ref sig .tc)
    (h : ∀ b : DevRef τ sig, b ≠ Proc.devRef .tc r → Y b = X b) :
    Function.update X (Proc.devRef .tc r) (Y (Proc.devRef .tc r)) = Y := by
  funext b
  by_cases hr : b = Proc.devRef .tc r
  · subst hr; exact Function.update_self _ _ _
  · rw [Function.update_of_ne hr]; exact (h b hr).symm

/-- Away from every window's array, a region leaves a buffer as it found it. -/
theorem withArrays_away {gr W : Nat} (win : Fin W → Pipeline.WinSpec sig gr) (c : Dev nD) (X : Valuation τ sig (Elt F))
    (A : (w : Fin W) → Buf (Elt F) ((win w).arr.view.loc (c.tc : Thread nD τ))) (b : DevRef τ sig)
    (hb : ∀ w, (Proc.devRef .tc (arrRef win w) : DevRef τ sig) ≠ b) : withArrays win c X A b = X b := by
  unfold withArrays
  rw [dif_neg]
  rintro ⟨w, e⟩
  exact hb w e

/-! ## The valuations, item by item -/

theorem V1_eq (c : Dev nD) : V1 m c = U1 m c := rfl

/-- After region 0: the generated valuation writes back, at the result array and at the table, what the launch data
    hold there; everywhere else both are the valuation before, the launch data's because a region changes its
    result array only. -/
theorem V2_eq (c : Dev nD) : V2 m (outs m) c = U2 m c :=
  update2_eq (U1 m c) (U2 m c) main_v4 main_v3 fun b h4 _ =>
    withArrays_away spec0 c (U1 m c) _ b fun w => match w with | ⟨0, _⟩ => fun e => h4 e.symm

theorem V3_eq (c : Dev nD) : V3 m (outs m) c = U3 m c := by
  show StableHlo.after hostOps1 (V2 m (outs m) c) = StableHlo.after hostOps1 (U2 m c)
  rw [V2_eq]

theorem V4_eq (c : Dev nD) : V4 m (outs m) c = U4 m c := by
  show Function.update (Function.update (V3 m (outs m) c) main_v9 (U4 m c main_v9)) main_v8 (U4 m c main_v8) = U4 m c
  rw [V3_eq]
  exact update2_eq (U3 m c) (U4 m c) main_v9 main_v8 fun b h9 _ =>
    withArrays_away spec1 c (U3 m c) _ b fun w => match w with | ⟨0, _⟩ => fun e => h9 e.symm

theorem V5_eq (c : Dev nD) : V5 m (outs m) c = U5 m c := by
  show StableHlo.after hostOps2 (V4 m (outs m) c) = StableHlo.after hostOps2 (U4 m c)
  rw [V4_eq]

theorem V6_eq (c : Dev nD) : V6 m (outs m) c = U6 m c := by
  show Function.update (Function.update (V5 m (outs m) c) main_v14 (U6 m c main_v14)) main_v13 (U6 m c main_v13) = U6 m c
  rw [V5_eq]
  exact update2_eq (U5 m c) (U6 m c) main_v14 main_v13 fun b h14 _ =>
    withArrays_away spec2 c (U5 m c) _ b fun w => match w with | ⟨0, _⟩ => fun e => h14 e.symm

theorem V7_eq (c : Dev nD) : V7 m (outs m) c = U7 m c := by
  show StableHlo.after hostOps3 (V6 m (outs m) c) = StableHlo.after hostOps3 (U6 m c)
  rw [V6_eq]

/-- After region 3: away from the result array the launch data hold what the valuation before held — at a buffer that
    is no window's array because a region leaves it alone, at an operand's array because an operand's array is never
    written back. -/
theorem V8_eq (c : Dev nD) : V8 m (outs m) c = U8 m c := by
  show Function.update (V7 m (outs m) c) main_v18 (U8 m c main_v18) = U8 m c
  rw [V7_eq]
  refine update1_eq (U7 m c) (U8 m c) main_v18 fun b h18 => ?_
  unfold U8
  by_cases hb : ∃ w, (Proc.devRef .tc (arrRef spec3 w) : DevRef τ sig) = b
  · obtain ⟨w, rfl⟩ := hb
    rw [Pipeline.withArrays_arr spec3 (by decide) c _ _ w]
    have hin : (cfg3.win w).isOut = false := by
      match w with
      | ⟨0, _⟩ => rfl
      | ⟨1, _⟩ => rfl
      | ⟨2, _⟩ => rfl
      | ⟨3, _⟩ => rfl
      | ⟨4, _⟩ => exact absurd rfl h18
    rw [(dat3 (ofVal (U7 m)) c).arrAt_in w hin cfg3.N]
    rfl
  · exact withArrays_away spec3 c (U7 m c) _ b fun w e => hb ⟨w, e⟩

end Cert.KernelIdeal.Hand

end
-- ==== Proof.KI.LaunchObjs.lean ====
/-
  The objects the launch's four region records share: which column of index words each gather region reads,
  each region's proof data at the buffers it is entered in, and what rides along between the program's items.
-/
import proofs.«423058_j50337016709696_1_alg».proof.Proof.KI.LaunchVals
import Idealize.ShloMosaic.Lib.Pipeline.Regions

noncomputable section

namespace Cert.KernelIdeal.Hand

open Cert.KernelIdeal Cert.KernelIdeal.Gen Cert.KernelIdeal.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ) (ρ : Dev nD → PrngReg)

/-- The tables' contents of the four pipelines: the three columns of index words; the fourth has none. -/
def adm : (p : Fin 4) → (pcfgs (F := F) p).Adm
  | ⟨0, _⟩ => a0 m
  | ⟨1, _⟩ => a1 m
  | ⟨2, _⟩ => a2 m
  | ⟨3, _⟩ => cfg3.toPCfg_adm

/-- Each region's proof data, read off the valuation it is entered in. -/
def pdats : (p : Fin 4) → (c : Dev nD) → Dat τ (Elt F) Unit ℕ UU ℕ (Pipeline.pin (pcfgs (F := F)) (adm m) p) c
  | ⟨0, _⟩ => fun c => dat0 (ofVal (U1 m)) (a0 m) c
  | ⟨1, _⟩ => fun c => dat1 (ofVal (U3 m)) (a1 m) c
  | ⟨2, _⟩ => fun c => dat2 (ofVal (U5 m)) (a2 m) c
  | ⟨3, _⟩ => fun c => dat3 (ofVal (U7 m)) c

/-- No levels. -/
abbrev L₀ : GSem nD τ sig → Finset Unit := fun _ => ∅
abbrev lv₀ : GSem nD τ sig → Unit → ℕ := fun _ _ => 0

/-- What rides along between the program's items: the generator register, at whatever state it is in (a region that
    keeps it in its invariant forgets which), and the core's `owes`. -/
abbrev Erest (c : Dev nD) : sProp (𝕄K F) := iprop((∃ r, prngReg c r) ∗ ∃ W, owes (c : Thread nD τ) (0 : CellTallies nD τ sig Unit) W)

end Cert.KernelIdeal.Hand

end
-- ==== Proof.KI.Reg0.lean ====
/-
  Region 0's place in the launch: entered from the buffers as the host leaves them (`U1`) and left with its
  result array at what the region computes (`U2`), everything else as it was.
-/
import proofs.«423058_j50337016709696_1_alg».proof.Proof.KI.LaunchObjs
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Launch
import Idealize.ShloMosaic.Lib.Pipeline.Kit

noncomputable section

namespace Cert.KernelIdeal.Hand

open Cert.KernelIdeal Cert.KernelIdeal.Gen Cert.KernelIdeal.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat withArrays arrRef)

variable {F : FTy → Type} [FloatOps F]
variable (m : (ℓ : Loc nD τ sig) → Buf (Elt F) ℓ) (ρ : Dev nD → PrngReg)

/-! ## The buffers that bypass region 0, and the two it reads -/

/-- There is one core. -/
theorem dev_eq0 (c : Dev nD) : c = c₀ := Subsingleton.elim _ _

/-- The unscoped buffers region 0 neither takes as its result array, nor reads as its column of index words, nor as its
    table: they pass the region by. -/
abbrev others0 : Finset (Ref sig .tc) := Pipeline.restRefsP sig pre0 spec0 \ {main_v3}

/-- The unscoped buffers that are not region 0's array, at contents `V`: the column, the table, and the others. -/
theorem unscopedRest0_parts (c : Dev nD) (V : (b : Ref sig .tc) → Buf (Elt F) ((c : Thread nD τ).loc b)) :
    (Pipeline.unscopedRest (Ix := Unit) (Name := ℕ) (U := UU) (Lvl := ℕ) spec0 c V : sProp (𝕄K F))
      = iprop(Pipeline.prefHeld (Ix := Unit) (Name := ℕ) (U := UU) (Lvl := ℕ) pre0 c (fun _ => fullShare) (fun k => V (pre0.ref k))
          ∗ (((c : Thread nD τ).loc main_v3) ↦{fullShare} V main_v3)
          ∗ bigSep others0 fun b => ((c : Thread nD τ).loc b) ↦{fullShare} V b) := by
  rw [Pipeline.unscopedRest_split (show Pipeline.PreFacts spec0 pre0 from (launch0 (F := F)).pre) c V]
  unfold Pipeline.unscopedRestP
  rw [BI.bigSep_sdiff_split (show ({main_v3} : Finset (Ref sig .tc)) ⊆ Pipeline.restRefsP sig pre0 spec0 by decide),
    BI.bigSep_singleton]
  rfl

/-- The column's contents under the valuation region 0 is entered in are the contents the region's tables are pinned at. -/
theorem pre0_contents (c : Dev nD) : (fun k => ofVal (U1 m) c (pre0.ref k)) = (a0 m).1 := by
  obtain rfl := dev_eq0 c
  funext k
  fin_cases k
  rfl

/-- The same at the valuation region 0 is entered in, the column at the contents the region's tables are pinned at. -/
theorem rest0_eq (c : Dev nD) :
    (Pipeline.unscopedRest (Ix := Unit) (Name := ℕ) (U := UU) (Lvl := ℕ) spec0 c (ofVal (U1 m) c) : sProp (𝕄K F))
      = iprop(Pipeline.prefHeld (Ix := Unit) (Name := ℕ) (U := UU) (Lvl := ℕ) pre0 c (fun _ => fullShare) (a0 m).1
          ∗ (((c : Thread nD τ).loc main_v3) ↦{fullShare} ofVal (U1 m) c main_v3)
          ∗ bigSep others0 fun b => ((c : Thread nD τ).loc b) ↦{fullShare} ofVal (U1 m) c b) := by
  rw [unscopedRest0_parts, pre0_contents]

/-- The kernel's own 32 semaphores are scoped, distinct, and no staging cell of the pipeline. -/
theorem ownSemFacts0 : Pipeline.OwnSemFacts spec0 osem0 := by decide

/-- Region 0 leaves in its result array what its proof data compute … -/
theorem hF0 (c : Dev nD) (w : Fin (cfg0 (a0 m)).W) :
    (dat0 (ofVal (U1 m)) (a0 m) c).arrAt w (cfg0 (a0 m)).N = ofVal (U2 m) c (arrRef spec0 w) := by
  show _ = withArrays spec0 c (U1 m c) (fun w => (dat0 (ofVal (U1 m)) (a0 m) c).arrAt w (cfg0 (a0 m)).N)
    (Proc.devRef .tc (arrRef spec0 w))
  exact (Pipeline.withArrays_arr spec0 (show Function.Injective (arrRef spec0) from (launch0 (F := F)).win.arr_inj) c (U1 m c)
    (fun w => (dat0 (ofVal (U1 m)) (a0 m) c).arrAt w (cfg0 (a0 m)).N) w).symm

/-- … and every other buffer as it found it. -/
theorem hrest0 (c : Dev nD) : ∀ b, b ∉ Finset.univ.image (arrRef spec0) → ofVal (U2 m) c b = ofVal (U1 m) c b := fun b hb => by
  show withArrays spec0 c (U1 m c) (fun w => (dat0 (ofVal (U1 m)) (a0 m) c).arrAt w (cfg0 (a0 m)).N) (Proc.devRef .tc b)
    = U1 m c (Proc.devRef .tc b)
  exact withArrays_away spec0 c (U1 m c) _ _ fun w e =>
    hb (Finset.mem_image.mpr ⟨w, Finset.mem_univ _, Proc.devRef_injective _ e⟩)

-- a library lemma stated over the pinned configuration unifies with it only when unification may unfold plain
-- definitions in a metavariable's type
set_option backward.isDefEq.respectTransparency.types false in
/-- Region 0's record: the launch's layout, the kernel's own 32 semaphores, the body obligation.  It is entered from every
    unscoped buffer at `U1` beside the register and the core's `owes`, and left with them at `U2`.  Of the unscoped buffers
    its result array goes to the pipeline; the column of index words (its prefetched table) and the table it reads go
    into the invariant, the table beside the own semaphores at entry and beside the column at exit; every other unscoped
    buffer and the register pass it by.  Nothing is owed. -/
def reg0 (hX : ∀ j, ((col0 (a0 m)) j).toNat < 500000) : Pipeline.RegionSeg (pcfgs (F := F)) (adm m) (pdats m) () (defs₀ (F := F)) Variants.none L₀ lv₀ 0 where
  win := (launch0 (F := F)).win.to₀
  block_pos := (launch0 (F := F)).block_pos
  stage_whole := (launch0 (F := F)).stage_whole
  K := Fin 32
  osem := osem0
  ho := ownSemFacts0
  hbody c := (body_obligation0 (ofVal (U1 m)) (a0 m) c hX).loose
  hwaits := Pipeline.hwaits_of_owed_zero _ _ _ _ L₀ lv₀ 0 fun _ _ => rfl
  pre c := iprop(StableHlo.held (c : Thread nD τ) (Pipeline.ucRefs τ sig) (U1 m c) ∗ Erest c)
  post c := iprop(StableHlo.held (c : Thread nD τ) (Pipeline.ucRefs τ sig) (U2 m c) ∗ Erest c)
  X c := iprop((((c : Thread nD τ).loc main_v3) ↦{fullShare} ofVal (U1 m) c main_v3)
    ∗ Pipeline.ownSems0 (Ix := Unit) (Name := ℕ) (U := UU) (Lvl := ℕ) (Val := Elt F) osem0 c)
  Y c := iprop((((c : Thread nD τ).loc main_v3) ↦{fullShare} ofVal (U1 m) c main_v3)
    ∗ Pipeline.prefHeld (Ix := Unit) (Name := ℕ) (U := UU) (Lvl := ℕ) pre0 c (fun _ => fullShare) (a0 m).1)
  Z c := iprop((bigSep others0 fun b => ((c : Thread nD τ).loc b) ↦{fullShare} ofVal (U1 m) c b) ∗ ∃ r, prngReg c r)
  hentry c := by
    have hsplit := (Pipeline.arrays_of_unscopedBufs (p := 0) (pcfgs (F := F)) (adm m) (pdats m) (launch0 (F := F)).win
      (launch0 (F := F)).arr_whole c ((pdats m 0 c).share_full fun _ => rfl) (ofVal (U1 m) c) fun _ => rfl).trans
      (sep_mono .rfl (Entails.of_eq (rest0_eq m c)))
    rw [Pipeline.unscopedBufs_held] at hsplit
    iintro ⟨⟨Hub, Hreg, HO⟩, Hos, -⟩
    ihave H := hsplit $$ Hub
    icases H with ⟨Ha, Hcol, Htab, Hoth⟩
    imodintro
    isplitl [Ha]; · iexact Ha
    isplitl [Hcol]; · iexact Hcol
    isplitl [HO]
    · unfold Pipeline.Dat.owesAt Pipeline.owesWithin
      icases HO with ⟨%W, HO⟩; iexists W; isplitr; · ipureintro; exact fun _ _ => Or.inl trivial
      iexact HO
    isplitl [Htab Hos]
    · isplitl [Htab]; · iexact Htab
      iexact Hos
    isplitl [Hoth]; · iexact Hoth
    iexact Hreg
  hin c := by
    show _ ⊢ Φ0 (ofVal (U1 m)) (a0 m) c
    unfold Φ0
    iintro ⟨⟨Htab, Hos⟩, Hcol, Hr⟩
    isplitl [Htab]; · iexact Htab
    isplitl [Hos]; · iexact Hos
    isplitl [Hcol]; · iexact Hcol
    iexact Hr
  hout c := by
    show Φ0 (ofVal (U1 m)) (a0 m) c ⊢ _
    unfold Φ0
    iintro ⟨Htab, Hos, Hcol, Hr⟩
    isplitl [Htab Hcol]
    · isplitl [Htab]; · iexact Htab
      iexact Hcol
    isplitl [Hos]; · iexact Hos
    iexact Hr
  hexit c := by
    have hjoin := (sep_mono .rfl (Entails.of_eq (rest0_eq m c).symm)).trans
      (Pipeline.unscopedBufs_of_arrays (p := 0) (pcfgs (F := F)) (adm m) (Ix := Unit) (Name := ℕ) (U := UU) (Lvl := ℕ)
        (launch0 (F := F)).win (launch0 (F := F)).arr_whole c (pdats m) ((pdats m 0 c).share_full fun _ => rfl)
        (ofVal (U1 m) c) (ofVal (U2 m) c) ((pdats m 0 c).arrAt · (cfg0 (a0 m)).N) (hF0 m c) (hrest0 m c))
    rw [Pipeline.unscopedBufs_held] at hjoin
    iintro ⟨Ha, HO, ⟨Htab, Hcol⟩, ⟨Hoth, Hreg⟩⟩
    imodintro
    isplitl [Ha Htab Hcol Hoth]
    · iapply hjoin
      isplitl [Ha]; · iexact Ha
      isplitl [Hcol]; · iexact Hcol
      isplitl [Htab]; · iexact Htab
      iexact Hoth
    isplitl [Hreg]; · iexact Hreg
    unfold Pipeline.Dat.owesAt Pipeline.owesWithin
    icases HO with ⟨%W, -, HO⟩; iexists W; iexact HO

/-- It is entered from the buffers at `U1` and what rides along, -/
theorem reg0_pre (hX : ∀ j, ((col0 (a0 m)) j).toNat < 500000) (c : Dev nD) :
    iprop(StableHlo.held (c : Thread nD τ) (Pipeline.ucRefs τ sig) (U1 m c) ∗ Erest c) ⊢ (reg0 m hX).pre c := .rfl

/-- and left with them at `U2`. -/
theorem reg0_post (hX : ∀ j, ((col0 (a0 m)) j).toNat < 500000) (c : Dev nD) :
    (reg0 m hX).post c ⊢ iprop(StableHlo.held (c : Thread nD τ) (Pipeline.ucRefs τ sig) (U2 m c) ∗ Erest c) := .rfl

end Cert.KernelIdeal.Hand

end
-- ==== Proof.KI.Reg1.lean ====
/-
  Region 1's place in the launch: entered from the buffers as the host leaves them (`U3`) and left with its
  result array at what the region computes (`U4`), everything else as it was.
-/
import proofs.«423058_j50337016709696_1_alg».proof.Proof.KI.LaunchObjs
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Launch
import Idealize.ShloMosaic.Lib.Pipeline.Kit

noncomputable section

namespace Cert.KernelIdeal.Hand

open Cert.KernelIdeal Cert.KernelIdeal.Gen Cert.KernelIdeal.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat withArrays arrRef)

variable {F : FTy → Type} [FloatOps F]
variable (m : (ℓ : Loc nD τ sig) → Buf (Elt F) ℓ) (ρ : Dev nD → PrngReg)

/-! ## The buffers that bypass region 0, and the two it reads -/

/-- There is one core. -/
theorem dev_eq1 (c : Dev nD) : c = c₀ := Subsingleton.elim _ _

/-- The unscoped buffers region 0 neither takes as its result array, nor reads as its column of index words, nor as its
    table: they pass the region by. -/
abbrev others1 : Finset (Ref sig .tc) := Pipeline.restRefsP sig pre1 spec1 \ {main_v8}

/-- The unscoped buffers that are not region 0's array, at contents `V`: the column, the table, and the others. -/
theorem unscopedRest1_parts (c : Dev nD) (V : (b : Ref sig .tc) → Buf (Elt F) ((c : Thread nD τ).loc b)) :
    (Pipeline.unscopedRest (Ix := Unit) (Name := ℕ) (U := UU) (Lvl := ℕ) spec1 c V : sProp (𝕄K F))
      = iprop(Pipeline.prefHeld (Ix := Unit) (Name := ℕ) (U := UU) (Lvl := ℕ) pre1 c (fun _ => fullShare) (fun k => V (pre1.ref k))
          ∗ (((c : Thread nD τ).loc main_v8) ↦{fullShare} V main_v8)
          ∗ bigSep others1 fun b => ((c : Thread nD τ).loc b) ↦{fullShare} V b) := by
  rw [Pipeline.unscopedRest_split (show Pipeline.PreFacts spec1 pre1 from (launch1 (F := F)).pre) c V]
  unfold Pipeline.unscopedRestP
  rw [BI.bigSep_sdiff_split (show ({main_v8} : Finset (Ref sig .tc)) ⊆ Pipeline.restRefsP sig pre1 spec1 by decide),
    BI.bigSep_singleton]
  rfl

/-- The column's contents under the valuation region 0 is entered in are the contents the region's tables are pinned at. -/
theorem pre1_contents (c : Dev nD) : (fun k => ofVal (U3 m) c (pre1.ref k)) = (a1 m).1 := by
  obtain rfl := dev_eq1 c
  funext k
  fin_cases k
  rfl

/-- The same at the valuation region 0 is entered in, the column at the contents the region's tables are pinned at. -/
theorem rest1_eq (c : Dev nD) :
    (Pipeline.unscopedRest (Ix := Unit) (Name := ℕ) (U := UU) (Lvl := ℕ) spec1 c (ofVal (U3 m) c) : sProp (𝕄K F))
      = iprop(Pipeline.prefHeld (Ix := Unit) (Name := ℕ) (U := UU) (Lvl := ℕ) pre1 c (fun _ => fullShare) (a1 m).1
          ∗ (((c : Thread nD τ).loc main_v8) ↦{fullShare} ofVal (U3 m) c main_v8)
          ∗ bigSep others1 fun b => ((c : Thread nD τ).loc b) ↦{fullShare} ofVal (U3 m) c b) := by
  rw [unscopedRest1_parts, pre1_contents]

/-- The kernel's own 32 semaphores are scoped, distinct, and no staging cell of the pipeline. -/
theorem ownSemFacts1 : Pipeline.OwnSemFacts spec1 osem1 := by decide

/-- Region 0 leaves in its result array what its proof data compute … -/
theorem hF1 (c : Dev nD) (w : Fin (cfg1 (a1 m)).W) :
    (dat1 (ofVal (U3 m)) (a1 m) c).arrAt w (cfg1 (a1 m)).N = ofVal (U4 m) c (arrRef spec1 w) := by
  show _ = withArrays spec1 c (U3 m c) (fun w => (dat1 (ofVal (U3 m)) (a1 m) c).arrAt w (cfg1 (a1 m)).N)
    (Proc.devRef .tc (arrRef spec1 w))
  exact (Pipeline.withArrays_arr spec1 (show Function.Injective (arrRef spec1) from (launch1 (F := F)).win.arr_inj) c (U3 m c)
    (fun w => (dat1 (ofVal (U3 m)) (a1 m) c).arrAt w (cfg1 (a1 m)).N) w).symm

/-- … and every other buffer as it found it. -/
theorem hrest1 (c : Dev nD) : ∀ b, b ∉ Finset.univ.image (arrRef spec1) → ofVal (U4 m) c b = ofVal (U3 m) c b := fun b hb => by
  show withArrays spec1 c (U3 m c) (fun w => (dat1 (ofVal (U3 m)) (a1 m) c).arrAt w (cfg1 (a1 m)).N) (Proc.devRef .tc b)
    = U3 m c (Proc.devRef .tc b)
  exact withArrays_away spec1 c (U3 m c) _ _ fun w e =>
    hb (Finset.mem_image.mpr ⟨w, Finset.mem_univ _, Proc.devRef_injective _ e⟩)

-- a library lemma stated over the pinned configuration unifies with it only when unification may unfold plain
-- definitions in a metavariable's type
set_option backward.isDefEq.respectTransparency.types false in
/-- Region 1's record: the launch's layout, the kernel's own 32 semaphores, the body obligation.  It is entered from every
    unscoped buffer at `U3` beside the register and the core's `owes`, and left with them at `U4`.  Of the unscoped buffers
    its result array goes to the pipeline; the column of index words (its prefetched table) and the table it reads go
    into the invariant, the table beside the own semaphores at entry and beside the column at exit; every other unscoped
    buffer and the register pass it by.  Nothing is owed. -/
def reg1 (hX : ∀ j, ((col1 (a1 m)) j).toNat < 500000) : Pipeline.RegionSeg (pcfgs (F := F)) (adm m) (pdats m) () (defs₀ (F := F)) Variants.none L₀ lv₀ 1 where
  win := (launch1 (F := F)).win.to₀
  block_pos := (launch1 (F := F)).block_pos
  stage_whole := (launch1 (F := F)).stage_whole
  K := Fin 32
  osem := osem1
  ho := ownSemFacts1
  hbody c := (body_obligation1 (ofVal (U3 m)) (a1 m) c hX).loose
  hwaits := Pipeline.hwaits_of_owed_zero _ _ _ _ L₀ lv₀ 1 fun _ _ => rfl
  pre c := iprop(StableHlo.held (c : Thread nD τ) (Pipeline.ucRefs τ sig) (U3 m c) ∗ Erest c)
  post c := iprop(StableHlo.held (c : Thread nD τ) (Pipeline.ucRefs τ sig) (U4 m c) ∗ Erest c)
  X c := iprop((((c : Thread nD τ).loc main_v8) ↦{fullShare} ofVal (U3 m) c main_v8)
    ∗ Pipeline.ownSems0 (Ix := Unit) (Name := ℕ) (U := UU) (Lvl := ℕ) (Val := Elt F) osem1 c)
  Y c := iprop((((c : Thread nD τ).loc main_v8) ↦{fullShare} ofVal (U3 m) c main_v8)
    ∗ Pipeline.prefHeld (Ix := Unit) (Name := ℕ) (U := UU) (Lvl := ℕ) pre1 c (fun _ => fullShare) (a1 m).1)
  Z c := iprop((bigSep others1 fun b => ((c : Thread nD τ).loc b) ↦{fullShare} ofVal (U3 m) c b) ∗ ∃ r, prngReg c r)
  hentry c := by
    have hsplit := (Pipeline.arrays_of_unscopedBufs (p := 1) (pcfgs (F := F)) (adm m) (pdats m) (launch1 (F := F)).win
      (launch1 (F := F)).arr_whole c ((pdats m 1 c).share_full fun _ => rfl) (ofVal (U3 m) c) fun _ => rfl).trans
      (sep_mono .rfl (Entails.of_eq (rest1_eq m c)))
    rw [Pipeline.unscopedBufs_held] at hsplit
    iintro ⟨⟨Hub, Hreg, HO⟩, Hos, -⟩
    ihave H := hsplit $$ Hub
    icases H with ⟨Ha, Hcol, Htab, Hoth⟩
    imodintro
    isplitl [Ha]; · iexact Ha
    isplitl [Hcol]; · iexact Hcol
    isplitl [HO]
    · unfold Pipeline.Dat.owesAt Pipeline.owesWithin
      icases HO with ⟨%W, HO⟩; iexists W; isplitr; · ipureintro; exact fun _ _ => Or.inl trivial
      iexact HO
    isplitl [Htab Hos]
    · isplitl [Htab]; · iexact Htab
      iexact Hos
    isplitl [Hoth]; · iexact Hoth
    iexact Hreg
  hin c := by
    show _ ⊢ Φ1 (ofVal (U3 m)) (a1 m) c
    unfold Φ1
    iintro ⟨⟨Htab, Hos⟩, Hcol, Hr⟩
    isplitl [Htab]; · iexact Htab
    isplitl [Hos]; · iexact Hos
    isplitl [Hcol]; · iexact Hcol
    iexact Hr
  hout c := by
    show Φ1 (ofVal (U3 m)) (a1 m) c ⊢ _
    unfold Φ1
    iintro ⟨Htab, Hos, Hcol, Hr⟩
    isplitl [Htab Hcol]
    · isplitl [Htab]; · iexact Htab
      iexact Hcol
    isplitl [Hos]; · iexact Hos
    iexact Hr
  hexit c := by
    have hjoin := (sep_mono .rfl (Entails.of_eq (rest1_eq m c).symm)).trans
      (Pipeline.unscopedBufs_of_arrays (p := 1) (pcfgs (F := F)) (adm m) (Ix := Unit) (Name := ℕ) (U := UU) (Lvl := ℕ)
        (launch1 (F := F)).win (launch1 (F := F)).arr_whole c (pdats m) ((pdats m 1 c).share_full fun _ => rfl)
        (ofVal (U3 m) c) (ofVal (U4 m) c) ((pdats m 1 c).arrAt · (cfg1 (a1 m)).N) (hF1 m c) (hrest1 m c))
    rw [Pipeline.unscopedBufs_held] at hjoin
    iintro ⟨Ha, HO, ⟨Htab, Hcol⟩, ⟨Hoth, Hreg⟩⟩
    imodintro
    isplitl [Ha Htab Hcol Hoth]
    · iapply hjoin
      isplitl [Ha]; · iexact Ha
      isplitl [Hcol]; · iexact Hcol
      isplitl [Htab]; · iexact Htab
      iexact Hoth
    isplitl [Hreg]; · iexact Hreg
    unfold Pipeline.Dat.owesAt Pipeline.owesWithin
    icases HO with ⟨%W, -, HO⟩; iexists W; iexact HO

/-- It is entered from the buffers at `U3` and what rides along, -/
theorem reg1_pre (hX : ∀ j, ((col1 (a1 m)) j).toNat < 500000) (c : Dev nD) :
    iprop(StableHlo.held (c : Thread nD τ) (Pipeline.ucRefs τ sig) (U3 m c) ∗ Erest c) ⊢ (reg1 m hX).pre c := .rfl

/-- and left with them at `U4`. -/
theorem reg1_post (hX : ∀ j, ((col1 (a1 m)) j).toNat < 500000) (c : Dev nD) :
    (reg1 m hX).post c ⊢ iprop(StableHlo.held (c : Thread nD τ) (Pipeline.ucRefs τ sig) (U4 m c) ∗ Erest c) := .rfl

end Cert.KernelIdeal.Hand

end
-- ==== Proof.KI.Reg2.lean ====
/-
  Region 2's place in the launch: entered from the buffers as the host leaves them (`U5`) and left with its
  result array at what the region computes (`U6`), everything else as it was.
-/
import proofs.«423058_j50337016709696_1_alg».proof.Proof.KI.LaunchObjs
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Launch
import Idealize.ShloMosaic.Lib.Pipeline.Kit

noncomputable section

namespace Cert.KernelIdeal.Hand

open Cert.KernelIdeal Cert.KernelIdeal.Gen Cert.KernelIdeal.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat withArrays arrRef)

variable {F : FTy → Type} [FloatOps F]
variable (m : (ℓ : Loc nD τ sig) → Buf (Elt F) ℓ) (ρ : Dev nD → PrngReg)

/-! ## The buffers that bypass region 0, and the two it reads -/

/-- There is one core. -/
theorem dev_eq2 (c : Dev nD) : c = c₀ := Subsingleton.elim _ _

/-- The unscoped buffers region 0 neither takes as its result array, nor reads as its column of index words, nor as its
    table: they pass the region by. -/
abbrev others2 : Finset (Ref sig .tc) := Pipeline.restRefsP sig pre2 spec2 \ {main_v13}

/-- The unscoped buffers that are not region 0's array, at contents `V`: the column, the table, and the others. -/
theorem unscopedRest2_parts (c : Dev nD) (V : (b : Ref sig .tc) → Buf (Elt F) ((c : Thread nD τ).loc b)) :
    (Pipeline.unscopedRest (Ix := Unit) (Name := ℕ) (U := UU) (Lvl := ℕ) spec2 c V : sProp (𝕄K F))
      = iprop(Pipeline.prefHeld (Ix := Unit) (Name := ℕ) (U := UU) (Lvl := ℕ) pre2 c (fun _ => fullShare) (fun k => V (pre2.ref k))
          ∗ (((c : Thread nD τ).loc main_v13) ↦{fullShare} V main_v13)
          ∗ bigSep others2 fun b => ((c : Thread nD τ).loc b) ↦{fullShare} V b) := by
  rw [Pipeline.unscopedRest_split (show Pipeline.PreFacts spec2 pre2 from (launch2 (F := F)).pre) c V]
  unfold Pipeline.unscopedRestP
  rw [BI.bigSep_sdiff_split (show ({main_v13} : Finset (Ref sig .tc)) ⊆ Pipeline.restRefsP sig pre2 spec2 by decide),
    BI.bigSep_singleton]
  rfl

/-- The column's contents under the valuation region 0 is entered in are the contents the region's tables are pinned at. -/
theorem pre2_contents (c : Dev nD) : (fun k => ofVal (U5 m) c (pre2.ref k)) = (a2 m).1 := by
  obtain rfl := dev_eq2 c
  funext k
  fin_cases k
  rfl

/-- The same at the valuation region 0 is entered in, the column at the contents the region's tables are pinned at. -/
theorem rest2_eq (c : Dev nD) :
    (Pipeline.unscopedRest (Ix := Unit) (Name := ℕ) (U := UU) (Lvl := ℕ) spec2 c (ofVal (U5 m) c) : sProp (𝕄K F))
      = iprop(Pipeline.prefHeld (Ix := Unit) (Name := ℕ) (U := UU) (Lvl := ℕ) pre2 c (fun _ => fullShare) (a2 m).1
          ∗ (((c : Thread nD τ).loc main_v13) ↦{fullShare} ofVal (U5 m) c main_v13)
          ∗ bigSep others2 fun b => ((c : Thread nD τ).loc b) ↦{fullShare} ofVal (U5 m) c b) := by
  rw [unscopedRest2_parts, pre2_contents]

/-- The kernel's own 32 semaphores are scoped, distinct, and no staging cell of the pipeline. -/
theorem ownSemFacts2 : Pipeline.OwnSemFacts spec2 osem2 := by decide

/-- Region 0 leaves in its result array what its proof data compute … -/
theorem hF2 (c : Dev nD) (w : Fin (cfg2 (a2 m)).W) :
    (dat2 (ofVal (U5 m)) (a2 m) c).arrAt w (cfg2 (a2 m)).N = ofVal (U6 m) c (arrRef spec2 w) := by
  show _ = withArrays spec2 c (U5 m c) (fun w => (dat2 (ofVal (U5 m)) (a2 m) c).arrAt w (cfg2 (a2 m)).N)
    (Proc.devRef .tc (arrRef spec2 w))
  exact (Pipeline.withArrays_arr spec2 (show Function.Injective (arrRef spec2) from (launch2 (F := F)).win.arr_inj) c (U5 m c)
    (fun w => (dat2 (ofVal (U5 m)) (a2 m) c).arrAt w (cfg2 (a2 m)).N) w).symm

/-- … and every other buffer as it found it. -/
theorem hrest2 (c : Dev nD) : ∀ b, b ∉ Finset.univ.image (arrRef spec2) → ofVal (U6 m) c b = ofVal (U5 m) c b := fun b hb => by
  show withArrays spec2 c (U5 m c) (fun w => (dat2 (ofVal (U5 m)) (a2 m) c).arrAt w (cfg2 (a2 m)).N) (Proc.devRef .tc b)
    = U5 m c (Proc.devRef .tc b)
  exact withArrays_away spec2 c (U5 m c) _ _ fun w e =>
    hb (Finset.mem_image.mpr ⟨w, Finset.mem_univ _, Proc.devRef_injective _ e⟩)

-- a library lemma stated over the pinned configuration unifies with it only when unification may unfold plain
-- definitions in a metavariable's type
set_option backward.isDefEq.respectTransparency.types false in
/-- Region 2's record: the launch's layout, the kernel's own 32 semaphores, the body obligation.  It is entered from every
    unscoped buffer at `U5` beside the register and the core's `owes`, and left with them at `U6`.  Of the unscoped buffers
    its result array goes to the pipeline; the column of index words (its prefetched table) and the table it reads go
    into the invariant, the table beside the own semaphores at entry and beside the column at exit; every other unscoped
    buffer and the register pass it by.  Nothing is owed. -/
def reg2 (hX : ∀ j, ((col2 (a2 m)) j).toNat < 500000) : Pipeline.RegionSeg (pcfgs (F := F)) (adm m) (pdats m) () (defs₀ (F := F)) Variants.none L₀ lv₀ 2 where
  win := (launch2 (F := F)).win.to₀
  block_pos := (launch2 (F := F)).block_pos
  stage_whole := (launch2 (F := F)).stage_whole
  K := Fin 32
  osem := osem2
  ho := ownSemFacts2
  hbody c := (body_obligation2 (ofVal (U5 m)) (a2 m) c hX).loose
  hwaits := Pipeline.hwaits_of_owed_zero _ _ _ _ L₀ lv₀ 2 fun _ _ => rfl
  pre c := iprop(StableHlo.held (c : Thread nD τ) (Pipeline.ucRefs τ sig) (U5 m c) ∗ Erest c)
  post c := iprop(StableHlo.held (c : Thread nD τ) (Pipeline.ucRefs τ sig) (U6 m c) ∗ Erest c)
  X c := iprop((((c : Thread nD τ).loc main_v13) ↦{fullShare} ofVal (U5 m) c main_v13)
    ∗ Pipeline.ownSems0 (Ix := Unit) (Name := ℕ) (U := UU) (Lvl := ℕ) (Val := Elt F) osem2 c)
  Y c := iprop((((c : Thread nD τ).loc main_v13) ↦{fullShare} ofVal (U5 m) c main_v13)
    ∗ Pipeline.prefHeld (Ix := Unit) (Name := ℕ) (U := UU) (Lvl := ℕ) pre2 c (fun _ => fullShare) (a2 m).1)
  Z c := iprop((bigSep others2 fun b => ((c : Thread nD τ).loc b) ↦{fullShare} ofVal (U5 m) c b) ∗ ∃ r, prngReg c r)
  hentry c := by
    have hsplit := (Pipeline.arrays_of_unscopedBufs (p := 2) (pcfgs (F := F)) (adm m) (pdats m) (launch2 (F := F)).win
      (launch2 (F := F)).arr_whole c ((pdats m 2 c).share_full fun _ => rfl) (ofVal (U5 m) c) fun _ => rfl).trans
      (sep_mono .rfl (Entails.of_eq (rest2_eq m c)))
    rw [Pipeline.unscopedBufs_held] at hsplit
    iintro ⟨⟨Hub, Hreg, HO⟩, Hos, -⟩
    ihave H := hsplit $$ Hub
    icases H with ⟨Ha, Hcol, Htab, Hoth⟩
    imodintro
    isplitl [Ha]; · iexact Ha
    isplitl [Hcol]; · iexact Hcol
    isplitl [HO]
    · unfold Pipeline.Dat.owesAt Pipeline.owesWithin
      icases HO with ⟨%W, HO⟩; iexists W; isplitr; · ipureintro; exact fun _ _ => Or.inl trivial
      iexact HO
    isplitl [Htab Hos]
    · isplitl [Htab]; · iexact Htab
      iexact Hos
    isplitl [Hoth]; · iexact Hoth
    iexact Hreg
  hin c := by
    show _ ⊢ Φ2 (ofVal (U5 m)) (a2 m) c
    unfold Φ2
    iintro ⟨⟨Htab, Hos⟩, Hcol, Hr⟩
    isplitl [Htab]; · iexact Htab
    isplitl [Hos]; · iexact Hos
    isplitl [Hcol]; · iexact Hcol
    iexact Hr
  hout c := by
    show Φ2 (ofVal (U5 m)) (a2 m) c ⊢ _
    unfold Φ2
    iintro ⟨Htab, Hos, Hcol, Hr⟩
    isplitl [Htab Hcol]
    · isplitl [Htab]; · iexact Htab
      iexact Hcol
    isplitl [Hos]; · iexact Hos
    iexact Hr
  hexit c := by
    have hjoin := (sep_mono .rfl (Entails.of_eq (rest2_eq m c).symm)).trans
      (Pipeline.unscopedBufs_of_arrays (p := 2) (pcfgs (F := F)) (adm m) (Ix := Unit) (Name := ℕ) (U := UU) (Lvl := ℕ)
        (launch2 (F := F)).win (launch2 (F := F)).arr_whole c (pdats m) ((pdats m 2 c).share_full fun _ => rfl)
        (ofVal (U5 m) c) (ofVal (U6 m) c) ((pdats m 2 c).arrAt · (cfg2 (a2 m)).N) (hF2 m c) (hrest2 m c))
    rw [Pipeline.unscopedBufs_held] at hjoin
    iintro ⟨Ha, HO, ⟨Htab, Hcol⟩, ⟨Hoth, Hreg⟩⟩
    imodintro
    isplitl [Ha Htab Hcol Hoth]
    · iapply hjoin
      isplitl [Ha]; · iexact Ha
      isplitl [Hcol]; · iexact Hcol
      isplitl [Htab]; · iexact Htab
      iexact Hoth
    isplitl [Hreg]; · iexact Hreg
    unfold Pipeline.Dat.owesAt Pipeline.owesWithin
    icases HO with ⟨%W, -, HO⟩; iexists W; iexact HO

/-- It is entered from the buffers at `U5` and what rides along, -/
theorem reg2_pre (hX : ∀ j, ((col2 (a2 m)) j).toNat < 500000) (c : Dev nD) :
    iprop(StableHlo.held (c : Thread nD τ) (Pipeline.ucRefs τ sig) (U5 m c) ∗ Erest c) ⊢ (reg2 m hX).pre c := .rfl

/-- and left with them at `U6`. -/
theorem reg2_post (hX : ∀ j, ((col2 (a2 m)) j).toNat < 500000) (c : Dev nD) :
    (reg2 m hX).post c ⊢ iprop(StableHlo.held (c : Thread nD τ) (Pipeline.ucRefs τ sig) (U6 m c) ∗ Erest c) := .rfl

end Cert.KernelIdeal.Hand

end
-- ==== Proof.KI.Reg3.lean ====
/-
  Region 3's place in the launch: entered from the buffers as the host leaves them (`U7`) and left with its
  result array at what the region computes (`U8`), everything else as it was.
-/
import proofs.«423058_j50337016709696_1_alg».proof.Proof.KI.LaunchObjs
import Idealize.ShloMosaic.Lib.Pipeline.RegionsLoop
import Idealize.ShloMosaic.Lib.Pipeline.FrameSuffix

noncomputable section

namespace Cert.KernelIdeal.Hand

open Cert.KernelIdeal Cert.KernelIdeal.Gen Cert.KernelIdeal.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- At region 3's exit each of its arrays holds what the pipeline leaves there, -/
theorem hF3 (c : Dev nD) (w : Fin cfg3.W) :
    (dat3 (ofVal (F := F) (U7 m)) c).arrAt w cfg3.N = ofVal (F := F) (U8 m) c (Pipeline.arrRef spec3 w) := by
  unfold U8; exact (Pipeline.withArrays_arr spec3 (launch3 (F := F)).win.arr_inj c (U7 m c)
    (fun w => (dat3 (ofVal (F := F) (U7 m)) c).arrAt w cfg3.N) w).symm

/-- and every other buffer what it held at entry. -/
theorem hrest3 (c : Dev nD) : ∀ b, b ∉ Finset.univ.image (Pipeline.arrRef spec3) → ofVal (F := F) (U8 m) c b = ofVal (F := F) (U7 m) c b :=
  fun b hb => by
    unfold U8
    exact Pipeline.withArrays_of_ne spec3 c _ _ b fun w e => hb (Finset.mem_image.mpr ⟨w, Finset.mem_univ _, e⟩)

-- a library lemma stated over the pinned configuration unifies with the printed one only when unification may unfold
-- plain definitions in a metavariable's type
set_option backward.isDefEq.respectTransparency.types false in
/-- Region 3's record: entered from every unscoped buffer at `U7` and left at `U8`.  Its five arrays are split out of
    the unscoped buffers and put back at what the pipeline leaves; the generator register goes into the region's
    invariant and comes out at some state; nothing is owed; the kernel has no semaphore of its own and no table. -/
def reg3 : Pipeline.RegionSeg (pcfgs (F := F)) (adm m) (pdats m) () (defs₀ (F := F)) Variants.none L₀ lv₀ 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (ofVal (U7 m)) c).loose
  hwaits := Pipeline.hwaits_of_owed_zero _ _ _ _ L₀ lv₀ 3 fun _ _ => rfl
  pre c := iprop(StableHlo.held (c : Thread nD τ) (Pipeline.ucRefs τ sig) (U7 m c) ∗ Erest (F := F) c)
  post c := iprop(StableHlo.held (c : Thread nD τ) (Pipeline.ucRefs τ sig) (U8 m c) ∗ Erest (F := F) c)
  X c := iprop(∃ r, prngReg c r)
  Y c := iprop(∃ r, prngReg c r)
  Z c := Pipeline.unscopedRest (Ix := Unit) (Name := ℕ) (U := UU) (Lvl := ℕ) spec3 c (ofVal (U7 m) c)
  hentry c := by
    rw [Pipeline.ownSems0_none]
    have hsplit := Pipeline.arrays_of_unscopedBufs (p := 3) (pcfgs (F := F)) (adm m) (pdats m) (launch3 (F := F)).win (launch3 (F := F)).arr_whole c
      ((pdats m 3 c).share_full fun _ => rfl) (ofVal (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m) (Ix := Unit) (Name := ℕ) (U := UU) (Lvl := ℕ)
      (launch3 (F := F)).win (launch3 (F := F)).arr_whole c (pdats m) ((pdats m 3 c).share_full fun _ => rfl)
      (ofVal (U7 m) c) (ofVal (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- It is entered from the buffers at `U7` and what rides along, -/
theorem reg3_pre (c : Dev nD) :
    iprop(StableHlo.held (c : Thread nD τ) (Pipeline.ucRefs τ sig) (U7 m c) ∗ Erest c) ⊢ (reg3 m).pre c := .rfl

/-- and left with them at `U8`. -/
theorem reg3_post (c : Dev nD) :
    (reg3 m).post c ⊢ iprop(StableHlo.held (c : Thread nD τ) (Pipeline.ucRefs τ sig) (U8 m c) ∗ Erest c) := .rfl

end Cert.KernelIdeal.Hand

end
-- ==== Proof.KI.Run.lean ====
/-
  The idealized kernel's run.  From any memory with zero counters, when the three columns of index words the
  gather regions read are in range, every fair execution of the program terminates with the result array at what
  the fourth region leaves (`U8`) and the six arguments as they were.
-/
import proofs.«423058_j50337016709696_1_alg».proof.Proof.KI.Reg0
import proofs.«423058_j50337016709696_1_alg».proof.Proof.KI.Reg1
import proofs.«423058_j50337016709696_1_alg».proof.Proof.KI.Reg2
import proofs.«423058_j50337016709696_1_alg».proof.Proof.KI.Reg3
import proofs.«423058_j50337016709696_1_alg».proof.Proof.KI.RunCond
import proofs.«423058_j50337016709696_1_alg».proof.Proof.KI.LaunchVals
import Idealize.ShloMosaic.Lib.Pipeline.Regions
import Idealize.ShloMosaic.Lib.Pipeline.Kit

noncomputable section

namespace Cert.KernelIdeal.Hand

open Cert.KernelIdeal Cert.KernelIdeal.Gen Cert.KernelIdeal.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra is the left component of the program's. -/
abbrev EPK : Emb (UR sig nD τ) (𝕄K F) := embL

-- the launch theorem's implicit arguments are found by unifying its conclusion with this one, which takes unfolding
-- plain definitions in a metavariable's type
set_option backward.isDefEq.respectTransparency.types false in
theorem run_KI (m : (ℓ : Loc nD τ sig) → Buf (Elt F) ℓ) (ρ : Dev nD → PrngReg)
    (hX0 : ∀ j, ((col0 (a0 m)) j).toNat < 500000) (hX1 : ∀ j, ((col1 (a1 m)) j).toNat < 500000) (hX2 : ∀ j, ((col2 (a2 m)) j).toNat < 500000) :
    θ_run (defs (F := F)) (onTc (τ := τ) (main (F := F))) ⟨m, fun _ => 0, ρ⟩ (fun r => ∀ c : Dev nD,
      r.2.mem ((c.tc : Thread nD τ).loc main_v18) = U8 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  -- the launch theorem states the result array at the generated valuation; that is the launch data's
  have h := run_cond (F := F) m (Ix := Unit) (U := UU) (Lvl := ℕ) (EPK (F := F)) () Variants.none L₀ lv₀ (fun _ _ => rfl) ρ (outs m) (adm m) (pdats m)
    (O₀ := fun _ => 0) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      -- the launch element is a pair: the pipelines' tokens are its left half, and nothing is asked of the right
      iintro Hu
      ihave H := (ownU_pair _ _) $$ Hu
      icases H with ⟨HP, -⟩
      imodintro
      isplitl [HP]; · iexact HP
      iapply (show (BI.emp : sProp (𝕄K F)) ⊢ bigSep Finset.univ (fun _ : Dev nD => (BI.emp : sProp (𝕄K F))) from by
        rw [BI.bigSep_emp_const])
      iempintro)
    (E := fun _ c => Erest c)
    (hE0 := Pipeline.initEach L₀ lv₀ fun c => by
      -- of what the launch deals a core, the register and the `owes` ride along; the rest is not needed
      iintro ⟨⟨-, HO, -, Hreg, -⟩, -⟩
      imodintro
      isplitl [Hreg]; · iexists _; iexact Hreg
      iexists ∅; iexact HO)
    (hE4 := fun c => by iintro ⟨-, HO⟩; iexact HO)
    (R0 := reg0 m hX0) (hpre0 := fun c => reg0_pre m hX0 c)
    (hpost0 := fun c => by rw [V2_eq]; exact reg0_post m hX0 c)
    (R1 := reg1 m hX1) (hpre1 := fun c => by rw [V3_eq]; exact reg1_pre m hX1 c)
    (hpost1 := fun c => by rw [V4_eq]; exact reg1_post m hX1 c)
    (R2 := reg2 m hX2) (hpre2 := fun c => by rw [V5_eq]; exact reg2_pre m hX2 c)
    (hpost2 := fun c => by rw [V6_eq]; exact reg2_post m hX2 c)
    (R3 := reg3 m) (hpre3 := fun c => by rw [V7_eq]; exact reg3_pre m c)
    (hpost3 := fun c => by rw [V8_eq]; exact reg3_post m c)
  exact (θ_run _ _ _).mono (fun r hr c => by have hc := hr c; rwa [V8_eq] at hc) h

end Cert.KernelIdeal.Hand

end
-- ==== Proof.KI.HostLink.lean ====
/-
  What the host computes between the regions, read at an index.  Before gather region m the host cuts column m
  out of the index array and table m out of the stack of tables; after the three regions it puts their three
  results and the time column side by side as the 97 input columns, and reshapes the bias.
-/
import proofs.«423058_j50337016709696_1_alg».proof.Proof.KI.LaunchData
import Idealize.ShloMosaic.Lib.StableHlo.Run
import Idealize.ShloMosaic.Lib.ValueIdx
import Idealize.ShloMosaic.Lib.Pipeline.Value
import Idealize.ShloMosaic.Lib.Pipeline.FrameSuffix
import Idealize.ShloMosaic.Signature.View
import Idealize.ShloMosaic.Shape

noncomputable section

namespace Cert.KernelIdeal.Hand

open Cert.KernelIdeal Cert.KernelIdeal.Gen Cert.KernelIdeal.RunCond
open Idealize.ShloMosaic Idealize.ShloMosaic.TcCoe

variable {F : FTy → Type} [FloatOps F]
variable (m : (ℓ : Loc nD τ sig) → Buf (Elt F) ℓ)

/-! ## The two cuts, read at an index -/

/-- Column `q` of the index array, cut out as a 131072-by-1 slice and read as a vector: entry `j` is the array's at `(j, q)`. -/
theorem col_at {α : Type} (x : S131072x3.Idx → α) (q : Fin 3) (off : Fin 2 → ℕ) (hoff : off = ![0, q.val])
    (hs : S131072x3.Slices off S131072x1) (j : S131072.Idx) :
    shapeCast S131072 (extractStridedSlice S131072x1 off x hs) shapeCasts_S131072x1_S131072 j
      = x (ValueIdx.ix2 (j 0) q) := by
  subst hoff
  rw [shapeCast_apply _ shapeCasts_S131072x1_S131072 j (ValueIdx.ix2 (j 0) (0 : Fin 1))
    (by rw [Shape.rowMajor_val_two, Shape.rowMajor_val_one]; show (j 0).val * 1 + 0 = (j 0).val; omega)]
  exact extractStridedSlice_apply _ x hs _ _ (fun a => by
    match a with
    | ⟨0, _⟩ => show (j 0).val = 0 + (j 0).val; omega
    | ⟨1, _⟩ => show q.val = q.val + 0; omega)

/-- Table `q` of the stack, cut out as a 1-by-500000-by-32 slice and read as a matrix: entry `(r, l)` is the stack's at `(q, r, l)`. -/
theorem tbl_at {α : Type} (x : S3x500000x32.Idx → α) (q : Fin 3) (off : Fin 3 → ℕ) (hoff : off = ![q.val, 0, 0])
    (hs : S3x500000x32.Slices off S1x500000x32) (y : S500000x32.Idx) :
    shapeCast S500000x32 (extractStridedSlice S1x500000x32 off x hs) shapeCasts_S1x500000x32_S500000x32 y
      = x (ValueIdx.ix3 q (y 0) (y 1)) := by
  subst hoff
  rw [shapeCast_apply _ shapeCasts_S1x500000x32_S500000x32 y (ValueIdx.ix3 (0 : Fin 1) (y 0) (y 1))
    (by rw [Shape.rowMajor_val_three, Shape.rowMajor_val_two]
        show ((0 : ℕ) * 500000 + (y 0).val) * 32 + (y 1).val = (y 0).val * 32 + (y 1).val; omega)]
  exact extractStridedSlice_apply _ x hs _ _ (fun a => by
    match a with
    | ⟨0, _⟩ => show q.val = q.val + 0; omega
    | ⟨1, _⟩ => show (y 0).val = 0 + (y 0).val; omega
    | ⟨2, _⟩ => show (y 1).val = 0 + (y 1).val; omega)

/-! ## What each host stretch leaves in the column and the table it cuts, from any contents `V` -/

section After
variable (V : Valuation τ sig (Elt F))

theorem after_hostOps0_v1 :
    StableHlo.after hostOps0 V main_v1
      = shapeCast S131072 (extractStridedSlice S131072x1 ![0, 0] (V main_arg0) slices_S131072x3_S131072x1_0_0) shapeCasts_S131072x1_S131072 := by
  after_results <;> rfl

theorem after_hostOps0_v3 :
    StableHlo.after hostOps0 V main_v3
      = shapeCast S500000x32 (extractStridedSlice S1x500000x32 ![0, 0, 0] (V main_arg2) slices_S3x500000x32_S1x500000x32_0_0_0) shapeCasts_S1x500000x32_S500000x32 := by
  after_results <;> rfl

theorem after_hostOps1_v6 :
    StableHlo.after hostOps1 V main_v6
      = shapeCast S131072 (extractStridedSlice S131072x1 ![0, 1] (V main_arg0) slices_S131072x3_S131072x1_0_1) shapeCasts_S131072x1_S131072 := by
  after_results <;> rfl

theorem after_hostOps1_v8 :
    StableHlo.after hostOps1 V main_v8
      = shapeCast S500000x32 (extractStridedSlice S1x500000x32 ![1, 0, 0] (V main_arg2) slices_S3x500000x32_S1x500000x32_1_0_0) shapeCasts_S1x500000x32_S500000x32 := by
  after_results <;> rfl

theorem after_hostOps2_v11 :
    StableHlo.after hostOps2 V main_v11
      = shapeCast S131072 (extractStridedSlice S131072x1 ![0, 2] (V main_arg0) slices_S131072x3_S131072x1_0_2) shapeCasts_S131072x1_S131072 := by
  after_results <;> rfl

theorem after_hostOps2_v13 :
    StableHlo.after hostOps2 V main_v13
      = shapeCast S500000x32 (extractStridedSlice S1x500000x32 ![2, 0, 0] (V main_arg2) slices_S3x500000x32_S1x500000x32_2_0_0) shapeCasts_S1x500000x32_S500000x32 := by
  after_results <;> rfl

end After

/-! ## The index array and the stack of tables reach every region as launched

No host stretch writes them and no region's result array is one of them. -/

theorem U1_arg0 (c : Dev nD) : U1 m c main_arg0 = m ((c : Thread nD τ).loc main_arg0) := V1_of m c main_arg0 (by decide)
theorem U1_arg2 (c : Dev nD) : U1 m c main_arg2 = m ((c : Thread nD τ).loc main_arg2) := V1_of m c main_arg2 (by decide)

theorem U2_arg0 (c : Dev nD) : U2 m c main_arg0 = m ((c : Thread nD τ).loc main_arg0) := by
  unfold U2
  rw [Pipeline.withArrays_of_ne spec0 c _ _ main_arg0 (Fin.forall_fin_one.mpr (by decide))]
  exact U1_arg0 m c
theorem U2_arg2 (c : Dev nD) : U2 m c main_arg2 = m ((c : Thread nD τ).loc main_arg2) := by
  unfold U2
  rw [Pipeline.withArrays_of_ne spec0 c _ _ main_arg2 (Fin.forall_fin_one.mpr (by decide))]
  exact U1_arg2 m c

theorem U3_arg0 (c : Dev nD) : U3 m c main_arg0 = m ((c : Thread nD τ).loc main_arg0) :=
  (StableHlo.after_of_writes_sub hostOps1 _ hostOps1_writes (by decide : main_arg0 ∉ hostOps1_W)).trans (U2_arg0 m c)
theorem U3_arg2 (c : Dev nD) : U3 m c main_arg2 = m ((c : Thread nD τ).loc main_arg2) :=
  (StableHlo.after_of_writes_sub hostOps1 _ hostOps1_writes (by decide : main_arg2 ∉ hostOps1_W)).trans (U2_arg2 m c)

theorem U4_arg0 (c : Dev nD) : U4 m c main_arg0 = m ((c : Thread nD τ).loc main_arg0) := by
  unfold U4
  rw [Pipeline.withArrays_of_ne spec1 c _ _ main_arg0 (Fin.forall_fin_one.mpr (by decide))]
  exact U3_arg0 m c
theorem U4_arg2 (c : Dev nD) : U4 m c main_arg2 = m ((c : Thread nD τ).loc main_arg2) := by
  unfold U4
  rw [Pipeline.withArrays_of_ne spec1 c _ _ main_arg2 (Fin.forall_fin_one.mpr (by decide))]
  exact U3_arg2 m c

/-! ## The column and the table each region is entered with, as cuts of the launch contents -/

theorem U1_v1 (c : Dev nD) :
    U1 m c main_v1 = shapeCast S131072 (extractStridedSlice S131072x1 ![0, 0]
      (m ((c : Thread nD τ).loc main_arg0) : S131072x3.Idx → Elt F .i32) slices_S131072x3_S131072x1_0_0) shapeCasts_S131072x1_S131072 :=
  after_hostOps0_v1 (V0 m c)
theorem U1_v3 (c : Dev nD) :
    U1 m c main_v3 = shapeCast S500000x32 (extractStridedSlice S1x500000x32 ![0, 0, 0]
      (m ((c : Thread nD τ).loc main_arg2) : S3x500000x32.Idx → Elt F .f32) slices_S3x500000x32_S1x500000x32_0_0_0) shapeCasts_S1x500000x32_S500000x32 :=
  after_hostOps0_v3 (V0 m c)
theorem U3_v6 (c : Dev nD) :
    U3 m c main_v6 = shapeCast S131072 (extractStridedSlice S131072x1 ![0, 1]
      (m ((c : Thread nD τ).loc main_arg0) : S131072x3.Idx → Elt F .i32) slices_S131072x3_S131072x1_0_1) shapeCasts_S131072x1_S131072 := by
  show StableHlo.after hostOps1 (U2 m c) main_v6 = _
  rw [after_hostOps1_v6, U2_arg0]
theorem U3_v8 (c : Dev nD) :
    U3 m c main_v8 = shapeCast S500000x32 (extractStridedSlice S1x500000x32 ![1, 0, 0]
      (m ((c : Thread nD τ).loc main_arg2) : S3x500000x32.Idx → Elt F .f32) slices_S3x500000x32_S1x500000x32_1_0_0) shapeCasts_S1x500000x32_S500000x32 := by
  show StableHlo.after hostOps1 (U2 m c) main_v8 = _
  rw [after_hostOps1_v8, U2_arg2]
theorem U5_v11 (c : Dev nD) :
    U5 m c main_v11 = shapeCast S131072 (extractStridedSlice S131072x1 ![0, 2]
      (m ((c : Thread nD τ).loc main_arg0) : S131072x3.Idx → Elt F .i32) slices_S131072x3_S131072x1_0_2) shapeCasts_S131072x1_S131072 := by
  show StableHlo.after hostOps2 (U4 m c) main_v11 = _
  rw [after_hostOps2_v11, U4_arg0]
theorem U5_v13 (c : Dev nD) :
    U5 m c main_v13 = shapeCast S500000x32 (extractStridedSlice S1x500000x32 ![2, 0, 0]
      (m ((c : Thread nD τ).loc main_arg2) : S3x500000x32.Idx → Elt F .f32) slices_S3x500000x32_S1x500000x32_2_0_0) shapeCasts_S1x500000x32_S500000x32 := by
  show StableHlo.after hostOps2 (U4 m c) main_v13 = _
  rw [after_hostOps2_v13, U4_arg2]

/-- Region 0's column of index words is column 0 of the index array. -/
theorem col0_eq (j : S131072.Idx) :
    col0 (a0 m) j = (m ((c₀ : Thread nD τ).loc main_arg0) : S131072x3.Idx → Elt F .i32) (ValueIdx.ix2 (j 0) (0 : Fin 3)) := by
  -- a whole buffer reads as its contents, and the column's are what the first host stretch leaves
  show (StableHlo.after hostOps0 (V0 m c₀) main_v1 : S131072.Idx → Elt F .i32) j = _
  rw [after_hostOps0_v1]
  exact col_at _ (0 : Fin 3) _ rfl _ j

/-- Region 0's table is table 0 of the stack. -/
theorem tbl0_eq (c : Dev nD) (y : S500000x32.Idx) :
    tbl0 (ofVal (U1 m)) c y = (m ((c : Thread nD τ).loc main_arg2) : S3x500000x32.Idx → Elt F .f32) (ValueIdx.ix3 (0 : Fin 3) (y 0) (y 1)) := by
  show (StableHlo.after hostOps0 (V0 m c) main_v3 : S500000x32.Idx → Elt F .f32) y = _
  rw [after_hostOps0_v3]
  exact tbl_at _ (0 : Fin 3) _ rfl _ y

/-- Region 1's column is column 1 of the index array, its table is table 1. -/
theorem col1_eq (j : S131072.Idx) :
    col1 (a1 m) j = (m ((c₀ : Thread nD τ).loc main_arg0) : S131072x3.Idx → Elt F .i32) (ValueIdx.ix2 (j 0) (1 : Fin 3)) := by
  show (StableHlo.after hostOps1 (U2 m c₀) main_v6 : S131072.Idx → Elt F .i32) j = _
  rw [after_hostOps1_v6, U2_arg0]
  exact col_at _ (1 : Fin 3) _ rfl _ j

theorem tbl1_eq (c : Dev nD) (y : S500000x32.Idx) :
    tbl1 (ofVal (U3 m)) c y = (m ((c : Thread nD τ).loc main_arg2) : S3x500000x32.Idx → Elt F .f32) (ValueIdx.ix3 (1 : Fin 3) (y 0) (y 1)) := by
  show (StableHlo.after hostOps1 (U2 m c) main_v8 : S500000x32.Idx → Elt F .f32) y = _
  rw [after_hostOps1_v8, U2_arg2]
  exact tbl_at _ (1 : Fin 3) _ rfl _ y

/-- Region 2's column is column 2 of the index array, its table is table 2. -/
theorem col2_eq (j : S131072.Idx) :
    col2 (a2 m) j = (m ((c₀ : Thread nD τ).loc main_arg0) : S131072x3.Idx → Elt F .i32) (ValueIdx.ix2 (j 0) (2 : Fin 3)) := by
  show (StableHlo.after hostOps2 (U4 m c₀) main_v11 : S131072.Idx → Elt F .i32) j = _
  rw [after_hostOps2_v11, U4_arg0]
  exact col_at _ (2 : Fin 3) _ rfl _ j

theorem tbl2_eq (c : Dev nD) (y : S500000x32.Idx) :
    tbl2 (ofVal (U5 m)) c y = (m ((c : Thread nD τ).loc main_arg2) : S3x500000x32.Idx → Elt F .f32) (ValueIdx.ix3 (2 : Fin 3) (y 0) (y 1)) := by
  show (StableHlo.after hostOps2 (U4 m c) main_v13 : S500000x32.Idx → Elt F .f32) y = _
  rw [after_hostOps2_v13, U4_arg2]
  exact tbl_at _ (2 : Fin 3) _ rfl _ y

end Cert.KernelIdeal.Hand

end
-- ==== Proof.KI.Inputs.lean ====
/-
  The 97 input columns as the projection region finds them.  After the three gather regions and the last host
  stretch, row n of the input array holds, side by side, the three table rows that row n of the index array
  names (table q read at the word in column q), then the time of row n: the specification's input vector.
-/
import proofs.«423058_j50337016709696_1_alg».proof.Proof.KI.HostLink
import proofs.«423058_j50337016709696_1_alg».proof.Proof.KI.LaunchVals
import proofs.«423058_j50337016709696_1_alg».proof.Proof.Spec
import Idealize.ShloMosaic.Lib.Pipeline.Value
import Idealize.ShloMosaic.Lib.Pipeline.FrameSuffix
import Idealize.ShloMosaic.Lib.StableHlo.Run
import Idealize.ShloMosaic.Lib.ValueIdx

noncomputable section

namespace Cert.KernelIdeal.Hand

open Cert.KernelIdeal Cert.KernelIdeal.Gen Cert.KernelIdeal.RunCond
open Idealize.ShloMosaic Idealize.ShloMosaic.TcCoe

variable (m : (ℓ : Loc nD τ sig) → Buf (Elt Ideal) ℓ)

/-- The index array, the time and the stack of tables, as the program is started with them. -/
abbrev argIdx (c : Dev nD) : S131072x3.Idx → BitVec 32 := m ((c : Thread nD τ).loc main_arg0)
abbrev argTime (c : Dev nD) : S131072.Idx → EReal := m ((c : Thread nD τ).loc main_arg1)
abbrev argTabs (c : Dev nD) : S3x500000x32.Idx → EReal := m ((c : Thread nD τ).loc main_arg2)

/-! ## Gather region 0: what it leaves in its result array -/

section Gather0
variable (V : (c : Dev nD) → (b : Ref sig .tc) → Buf (Elt Ideal) ((c : Thread nD τ).loc b)) (a : (pcfg0 (F := Ideal)).Adm)

/-- On the one-axis grid, point `t` has coordinate `t`. -/
theorem coords0_val : ∀ t : Fin grid0.N, (grid0.coords t 0).val = t.val := by decide

/-- So grid point `t` is block `t`, -/
theorem blkAt0_val (t : Fin (cfg0 a).N) : (blkAt0 a t).val = t.val := coords0_val t

/-- the result window's block index at point `t` is `t` along the rows -/
theorem index0_0 (t : Fin (cfg0 a).N) : ((cfg0 a).win 0).index t (⟨0, by decide⟩ : Fin 2) = t.val := by
  show (BitVec.ofNat 32 ((cfg0 a).grid.coords t 0).val).toNat = t.val
  rw [BitVec.toNat_ofNat, show ((cfg0 a).grid.coords t 0).val = t.val from coords0_val t]
  exact Nat.mod_eq_of_lt (by have : t.val < 128 := t.isLt; omega)

/-- and zero along the lanes. -/
theorem index0_1 (t : Fin (cfg0 a).N) : ((cfg0 a).win 0).index t (⟨1, by decide⟩ : Fin 2) = 0 := rfl

/-- Successive points have different blocks, so every point writes its block back. -/
theorem flush0_0 (t : Fin (cfg0 a).N) : ((cfg0 a).win 0).flush t = true := by
  unfold Pipeline.Window.flush
  rw [show ((cfg0 a).win 0).isOut = true from rfl, Bool.true_and, Bool.or_eq_true, decide_eq_true_eq, decide_eq_true_eq]
  have hlt : t.val < (cfg0 a).grid.N := t.isLt
  by_cases h : t.val + 1 = (cfg0 a).grid.N
  · exact Or.inl h
  · have ht : t.val + 1 < (cfg0 a).grid.N := by omega
    refine Or.inr ⟨ht, fun e => ?_⟩
    have e0 := congrFun e (⟨0, by decide⟩ : Fin 2)
    rw [index0_0 a ⟨t.val + 1, ht⟩, index0_0 a t] at e0
    exact absurd e0 (by show t.val + 1 ≠ t.val; omega)

/-- Where element `y` of the block at point `t` sits in the array: row `1024 t + y 0`, -/
theorem blk0_emb_0 (t : Fin (cfg0 a).N) (y : S1024x32.Idx) (i : S131072x32.Idx) (hi : i = (((cfg0 a).win 0).blk t).view.emb y) :
    (i 0).val = 1024 * t.val + (y 0).val := by
  subst hi
  have h := ((cfg0 a).win 0).rect_emb_val t y (⟨0, Nat.zero_lt_two⟩ : Fin 2)
  rw [index0_0] at h
  show ((((cfg0 a).win 0).rect t).emb y (⟨0, Nat.zero_lt_two⟩ : Fin 2) : ℕ) = _
  rw [h]
  show t.val * 1024 + (y 0).val = 1024 * t.val + (y 0).val
  omega

/-- lane `y 1`. -/
theorem blk0_emb_1 (t : Fin (cfg0 a).N) (y : S1024x32.Idx) (i : S131072x32.Idx) (hi : i = (((cfg0 a).win 0).blk t).view.emb y) :
    (i 1).val = (y 1).val := by
  subst hi
  have h := ((cfg0 a).win 0).rect_emb_val t y (⟨1, Nat.one_lt_two⟩ : Fin 2)
  rw [index0_1] at h
  show ((((cfg0 a).win 0).rect t).emb y (⟨1, Nat.one_lt_two⟩ : Fin 2) : ℕ) = _
  rw [h]
  show 0 * 32 + (y 1).val = (y 1).val
  omega

/-- The whole result array as the region fills it: row `r` is the table's row that the column's word at `r` names,
    capped at the table's last row. -/
def G0 (c : Dev nD) : S131072x32.Idx → EReal := fun i =>
  tbl0 V c (ValueIdx.ix2 (⟨min (col0 a (ValueIdx.ix1 (n := 131072) (i 0))).toNat 499999, by omega⟩ : Fin 500000) (i 1))

/-- That array at an index given by its row and lane. -/
theorem G0_at (c : Dev nD) (i : S131072x32.Idx) (r : Fin 131072) (l : Fin 32) (h0 : (i 0).val = r.val) (h1 : (i 1).val = l.val) :
    G0 V a c i = tbl0 V c (ValueIdx.ix2 (⟨min (col0 a (ValueIdx.ix1 r)).toNat 499999, by omega⟩ : Fin 500000) l) := by
  have e : i = ValueIdx.ix2 r l := funext fun k => Fin.ext (by
    match k with
    | ⟨0, _⟩ => exact h0
    | ⟨1, _⟩ => exact h1)
  subst e
  rfl

/-- What each point writes back is its block of that array, -/
theorem flushed0_eq (c : Dev nD) (t : Fin (cfg0 a).N) (_ : ((cfg0 a).win 0).flush t = true) :
    (dat0 V a c).flushed 0 t = (((cfg0 a).win 0).blk t).view.read (Elt Ideal) (G0 V a c) := by
  refine funext fun (y : S1024x32.Idx) => ?_
  show (dat0 V a c).after 0 t y = G0 V a c ((((cfg0 a).win 0).blk t).view.emb y)
  have hy0 : (y 0).val < 1024 := (y 0).isLt
  have hb : (blkAt0 a t).val < 128 := (blkAt0 a t).isLt
  rw [after0_0, G0_at V a c _ (⟨1024 * (blkAt0 a t).val + (y 0).val, by omega⟩ : Fin 131072) (⟨(y 1).val, (y 1).isLt⟩ : Fin 32)
    ((blk0_emb_0 a t y _ rfl).trans (by show 1024 * t.val + (y 0).val = 1024 * (blkAt0 a t).val + (y 0).val; rw [blkAt0_val])) (blk0_emb_1 a t y _ rfl)]
  rfl

/-- the blocks cover the array, -/
theorem cover0 (i : S131072x32.Idx) :
    ∃ t : Fin (cfg0 a).N, ((cfg0 a).win 0).flush t = true ∧ i ∈ (((cfg0 a).win 0).blk t).view.set := by
  have hi0 : (i 0).val < 131072 := (i 0).isLt
  have hi1 : (i 1).val < 32 := (i 1).isLt
  have hN : (cfg0 a).N = 128 := N_0
  refine ⟨⟨(i 0).val / 1024, by omega⟩, flush0_0 a _, ?_⟩
  have hs : ∀ t, (((cfg0 a).win 0).blk t).view.set = (((cfg0 a).win 0).rect t).set := fun t => View.set_slice_whole main_v4 _
  rw [hs]
  refine Rect.mem_set_unit.mpr fun k => ?_
  match k with
  | ⟨0, _⟩ =>
    show ((cfg0 a).win 0).index _ (⟨0, by decide⟩ : Fin 2) * 1024 ≤ (i 0).val ∧ (i 0).val < ((cfg0 a).win 0).index _ (⟨0, by decide⟩ : Fin 2) * 1024 + 1024
    rw [index0_0]
    show (i 0).val / 1024 * 1024 ≤ (i 0).val ∧ (i 0).val < (i 0).val / 1024 * 1024 + 1024
    omega
  | ⟨1, _⟩ =>
    show 0 * 32 ≤ (i 1).val ∧ (i 1).val < 0 * 32 + 32
    omega

/-- so the region leaves that array. -/
theorem arrAt0_eq (c : Dev nD) : (dat0 V a c).arrAt 0 (cfg0 a).N = G0 V a c :=
  (dat0 V a c).arrAt_eq_of_cover 0 (G0 V a c) (flushed0_eq V a c) (cover0 a)

end Gather0

/-! ## Gather region 1: what it leaves in its result array -/

section Gather1
variable (V : (c : Dev nD) → (b : Ref sig .tc) → Buf (Elt Ideal) ((c : Thread nD τ).loc b)) (a : (pcfg1 (F := Ideal)).Adm)

/-- On the one-axis grid, point `t` has coordinate `t`. -/
theorem coords1_val : ∀ t : Fin grid1.N, (grid1.coords t 0).val = t.val := by decide

/-- So grid point `t` is block `t`, -/
theorem blkAt1_val (t : Fin (cfg1 a).N) : (blkAt1 a t).val = t.val := coords1_val t

/-- the result window's block index at point `t` is `t` along the rows -/
theorem index1_0 (t : Fin (cfg1 a).N) : ((cfg1 a).win 0).index t (⟨0, by decide⟩ : Fin 2) = t.val := by
  show (BitVec.ofNat 32 ((cfg1 a).grid.coords t 0).val).toNat = t.val
  rw [BitVec.toNat_ofNat, show ((cfg1 a).grid.coords t 0).val = t.val from coords1_val t]
  exact Nat.mod_eq_of_lt (by have : t.val < 128 := t.isLt; omega)

/-- and zero along the lanes. -/
theorem index1_1 (t : Fin (cfg1 a).N) : ((cfg1 a).win 0).index t (⟨1, by decide⟩ : Fin 2) = 0 := rfl

/-- Successive points have different blocks, so every point writes its block back. -/
theorem flush1_0 (t : Fin (cfg1 a).N) : ((cfg1 a).win 0).flush t = true := by
  unfold Pipeline.Window.flush
  rw [show ((cfg1 a).win 0).isOut = true from rfl, Bool.true_and, Bool.or_eq_true, decide_eq_true_eq, decide_eq_true_eq]
  have hlt : t.val < (cfg1 a).grid.N := t.isLt
  by_cases h : t.val + 1 = (cfg1 a).grid.N
  · exact Or.inl h
  · have ht : t.val + 1 < (cfg1 a).grid.N := by omega
    refine Or.inr ⟨ht, fun e => ?_⟩
    have e0 := congrFun e (⟨0, by decide⟩ : Fin 2)
    rw [index1_0 a ⟨t.val + 1, ht⟩, index1_0 a t] at e0
    exact absurd e0 (by show t.val + 1 ≠ t.val; omega)

/-- Where element `y` of the block at point `t` sits in the array: row `1024 t + y 0`, -/
theorem blk1_emb_0 (t : Fin (cfg1 a).N) (y : S1024x32.Idx) (i : S131072x32.Idx) (hi : i = (((cfg1 a).win 0).blk t).view.emb y) :
    (i 0).val = 1024 * t.val + (y 0).val := by
  subst hi
  have h := ((cfg1 a).win 0).rect_emb_val t y (⟨0, Nat.zero_lt_two⟩ : Fin 2)
  rw [index1_0] at h
  show ((((cfg1 a).win 0).rect t).emb y (⟨0, Nat.zero_lt_two⟩ : Fin 2) : ℕ) = _
  rw [h]
  show t.val * 1024 + (y 0).val = 1024 * t.val + (y 0).val
  omega

/-- lane `y 1`. -/
theorem blk1_emb_1 (t : Fin (cfg1 a).N) (y : S1024x32.Idx) (i : S131072x32.Idx) (hi : i = (((cfg1 a).win 0).blk t).view.emb y) :
    (i 1).val = (y 1).val := by
  subst hi
  have h := ((cfg1 a).win 0).rect_emb_val t y (⟨1, Nat.one_lt_two⟩ : Fin 2)
  rw [index1_1] at h
  show ((((cfg1 a).win 0).rect t).emb y (⟨1, Nat.one_lt_two⟩ : Fin 2) : ℕ) = _
  rw [h]
  show 0 * 32 + (y 1).val = (y 1).val
  omega

/-- The whole result array as the region fills it: row `r` is the table's row that the column's word at `r` names,
    capped at the table's last row. -/
def G1 (c : Dev nD) : S131072x32.Idx → EReal := fun i =>
  tbl1 V c (ValueIdx.ix2 (⟨min (col1 a (ValueIdx.ix1 (n := 131072) (i 0))).toNat 499999, by omega⟩ : Fin 500000) (i 1))

/-- That array at an index given by its row and lane. -/
theorem G1_at (c : Dev nD) (i : S131072x32.Idx) (r : Fin 131072) (l : Fin 32) (h0 : (i 0).val = r.val) (h1 : (i 1).val = l.val) :
    G1 V a c i = tbl1 V c (ValueIdx.ix2 (⟨min (col1 a (ValueIdx.ix1 r)).toNat 499999, by omega⟩ : Fin 500000) l) := by
  have e : i = ValueIdx.ix2 r l := funext fun k => Fin.ext (by
    match k with
    | ⟨0, _⟩ => exact h0
    | ⟨1, _⟩ => exact h1)
  subst e
  rfl

/-- What each point writes back is its block of that array, -/
theorem flushed1_eq (c : Dev nD) (t : Fin (cfg1 a).N) (_ : ((cfg1 a).win 0).flush t = true) :
    (dat1 V a c).flushed 0 t = (((cfg1 a).win 0).blk t).view.read (Elt Ideal) (G1 V a c) := by
  refine funext fun (y : S1024x32.Idx) => ?_
  show (dat1 V a c).after 0 t y = G1 V a c ((((cfg1 a).win 0).blk t).view.emb y)
  have hy0 : (y 0).val < 1024 := (y 0).isLt
  have hb : (blkAt1 a t).val < 128 := (blkAt1 a t).isLt
  rw [after1_1, G1_at V a c _ (⟨1024 * (blkAt1 a t).val + (y 0).val, by omega⟩ : Fin 131072) (⟨(y 1).val, (y 1).isLt⟩ : Fin 32)
    ((blk1_emb_0 a t y _ rfl).trans (by show 1024 * t.val + (y 0).val = 1024 * (blkAt1 a t).val + (y 0).val; rw [blkAt1_val])) (blk1_emb_1 a t y _ rfl)]
  rfl

/-- the blocks cover the array, -/
theorem cover1 (i : S131072x32.Idx) :
    ∃ t : Fin (cfg1 a).N, ((cfg1 a).win 0).flush t = true ∧ i ∈ (((cfg1 a).win 0).blk t).view.set := by
  have hi0 : (i 0).val < 131072 := (i 0).isLt
  have hi1 : (i 1).val < 32 := (i 1).isLt
  have hN : (cfg1 a).N = 128 := N_1
  refine ⟨⟨(i 0).val / 1024, by omega⟩, flush1_0 a _, ?_⟩
  have hs : ∀ t, (((cfg1 a).win 0).blk t).view.set = (((cfg1 a).win 0).rect t).set := fun t => View.set_slice_whole main_v9 _
  rw [hs]
  refine Rect.mem_set_unit.mpr fun k => ?_
  match k with
  | ⟨0, _⟩ =>
    show ((cfg1 a).win 0).index _ (⟨0, by decide⟩ : Fin 2) * 1024 ≤ (i 0).val ∧ (i 0).val < ((cfg1 a).win 0).index _ (⟨0, by decide⟩ : Fin 2) * 1024 + 1024
    rw [index1_0]
    show (i 0).val / 1024 * 1024 ≤ (i 0).val ∧ (i 0).val < (i 0).val / 1024 * 1024 + 1024
    omega
  | ⟨1, _⟩ =>
    show 0 * 32 ≤ (i 1).val ∧ (i 1).val < 0 * 32 + 32
    omega

/-- so the region leaves that array. -/
theorem arrAt1_eq (c : Dev nD) : (dat1 V a c).arrAt 0 (cfg1 a).N = G1 V a c :=
  (dat1 V a c).arrAt_eq_of_cover 0 (G1 V a c) (flushed1_eq V a c) (cover1 a)

end Gather1

/-! ## Gather region 2: what it leaves in its result array -/

section Gather2
variable (V : (c : Dev nD) → (b : Ref sig .tc) → Buf (Elt Ideal) ((c : Thread nD τ).loc b)) (a : (pcfg2 (F := Ideal)).Adm)

/-- On the one-axis grid, point `t` has coordinate `t`. -/
theorem coords2_val : ∀ t : Fin grid2.N, (grid2.coords t 0).val = t.val := by decide

/-- So grid point `t` is block `t`, -/
theorem blkAt2_val (t : Fin (cfg2 a).N) : (blkAt2 a t).val = t.val := coords2_val t

/-- the result window's block index at point `t` is `t` along the rows -/
theorem index2_0 (t : Fin (cfg2 a).N) : ((cfg2 a).win 0).index t (⟨0, by decide⟩ : Fin 2) = t.val := by
  show (BitVec.ofNat 32 ((cfg2 a).grid.coords t 0).val).toNat = t.val
  rw [BitVec.toNat_ofNat, show ((cfg2 a).grid.coords t 0).val = t.val from coords2_val t]
  exact Nat.mod_eq_of_lt (by have : t.val < 128 := t.isLt; omega)

/-- and zero along the lanes. -/
theorem index2_1 (t : Fin (cfg2 a).N) : ((cfg2 a).win 0).index t (⟨1, by decide⟩ : Fin 2) = 0 := rfl

/-- Successive points have different blocks, so every point writes its block back. -/
theorem flush2_0 (t : Fin (cfg2 a).N) : ((cfg2 a).win 0).flush t = true := by
  unfold Pipeline.Window.flush
  rw [show ((cfg2 a).win 0).isOut = true from rfl, Bool.true_and, Bool.or_eq_true, decide_eq_true_eq, decide_eq_true_eq]
  have hlt : t.val < (cfg2 a).grid.N := t.isLt
  by_cases h : t.val + 1 = (cfg2 a).grid.N
  · exact Or.inl h
  · have ht : t.val + 1 < (cfg2 a).grid.N := by omega
    refine Or.inr ⟨ht, fun e => ?_⟩
    have e0 := congrFun e (⟨0, by decide⟩ : Fin 2)
    rw [index2_0 a ⟨t.val + 1, ht⟩, index2_0 a t] at e0
    exact absurd e0 (by show t.val + 1 ≠ t.val; omega)

/-- Where element `y` of the block at point `t` sits in the array: row `1024 t + y 0`, -/
theorem blk2_emb_0 (t : Fin (cfg2 a).N) (y : S1024x32.Idx) (i : S131072x32.Idx) (hi : i = (((cfg2 a).win 0).blk t).view.emb y) :
    (i 0).val = 1024 * t.val + (y 0).val := by
  subst hi
  have h := ((cfg2 a).win 0).rect_emb_val t y (⟨0, Nat.zero_lt_two⟩ : Fin 2)
  rw [index2_0] at h
  show ((((cfg2 a).win 0).rect t).emb y (⟨0, Nat.zero_lt_two⟩ : Fin 2) : ℕ) = _
  rw [h]
  show t.val * 1024 + (y 0).val = 1024 * t.val + (y 0).val
  omega

/-- lane `y 1`. -/
theorem blk2_emb_1 (t : Fin (cfg2 a).N) (y : S1024x32.Idx) (i : S131072x32.Idx) (hi : i = (((cfg2 a).win 0).blk t).view.emb y) :
    (i 1).val = (y 1).val := by
  subst hi
  have h := ((cfg2 a).win 0).rect_emb_val t y (⟨1, Nat.one_lt_two⟩ : Fin 2)
  rw [index2_1] at h
  show ((((cfg2 a).win 0).rect t).emb y (⟨1, Nat.one_lt_two⟩ : Fin 2) : ℕ) = _
  rw [h]
  show 0 * 32 + (y 1).val = (y 1).val
  omega

/-- The whole result array as the region fills it: row `r` is the table's row that the column's word at `r` names,
    capped at the table's last row. -/
def G2 (c : Dev nD) : S131072x32.Idx → EReal := fun i =>
  tbl2 V c (ValueIdx.ix2 (⟨min (col2 a (ValueIdx.ix1 (n := 131072) (i 0))).toNat 499999, by omega⟩ : Fin 500000) (i 1))

/-- That array at an index given by its row and lane. -/
theorem G2_at (c : Dev nD) (i : S131072x32.Idx) (r : Fin 131072) (l : Fin 32) (h0 : (i 0).val = r.val) (h1 : (i 1).val = l.val) :
    G2 V a c i = tbl2 V c (ValueIdx.ix2 (⟨min (col2 a (ValueIdx.ix1 r)).toNat 499999, by omega⟩ : Fin 500000) l) := by
  have e : i = ValueIdx.ix2 r l := funext fun k => Fin.ext (by
    match k with
    | ⟨0, _⟩ => exact h0
    | ⟨1, _⟩ => exact h1)
  subst e
  rfl

/-- What each point writes back is its block of that array, -/
theorem flushed2_eq (c : Dev nD) (t : Fin (cfg2 a).N) (_ : ((cfg2 a).win 0).flush t = true) :
    (dat2 V a c).flushed 0 t = (((cfg2 a).win 0).blk t).view.read (Elt Ideal) (G2 V a c) := by
  refine funext fun (y : S1024x32.Idx) => ?_
  show (dat2 V a c).after 0 t y = G2 V a c ((((cfg2 a).win 0).blk t).view.emb y)
  have hy0 : (y 0).val < 1024 := (y 0).isLt
  have hb : (blkAt2 a t).val < 128 := (blkAt2 a t).isLt
  rw [after2_2, G2_at V a c _ (⟨1024 * (blkAt2 a t).val + (y 0).val, by omega⟩ : Fin 131072) (⟨(y 1).val, (y 1).isLt⟩ : Fin 32)
    ((blk2_emb_0 a t y _ rfl).trans (by show 1024 * t.val + (y 0).val = 1024 * (blkAt2 a t).val + (y 0).val; rw [blkAt2_val])) (blk2_emb_1 a t y _ rfl)]
  rfl

/-- the blocks cover the array, -/
theorem cover2 (i : S131072x32.Idx) :
    ∃ t : Fin (cfg2 a).N, ((cfg2 a).win 0).flush t = true ∧ i ∈ (((cfg2 a).win 0).blk t).view.set := by
  have hi0 : (i 0).val < 131072 := (i 0).isLt
  have hi1 : (i 1).val < 32 := (i 1).isLt
  have hN : (cfg2 a).N = 128 := N_2
  refine ⟨⟨(i 0).val / 1024, by omega⟩, flush2_0 a _, ?_⟩
  have hs : ∀ t, (((cfg2 a).win 0).blk t).view.set = (((cfg2 a).win 0).rect t).set := fun t => View.set_slice_whole main_v14 _
  rw [hs]
  refine Rect.mem_set_unit.mpr fun k => ?_
  match k with
  | ⟨0, _⟩ =>
    show ((cfg2 a).win 0).index _ (⟨0, by decide⟩ : Fin 2) * 1024 ≤ (i 0).val ∧ (i 0).val < ((cfg2 a).win 0).index _ (⟨0, by decide⟩ : Fin 2) * 1024 + 1024
    rw [index2_0]
    show (i 0).val / 1024 * 1024 ≤ (i 0).val ∧ (i 0).val < (i 0).val / 1024 * 1024 + 1024
    omega
  | ⟨1, _⟩ =>
    show 0 * 32 ≤ (i 1).val ∧ (i 1).val < 0 * 32 + 32
    omega

/-- so the region leaves that array. -/
theorem arrAt2_eq (c : Dev nD) : (dat2 V a c).arrAt 0 (cfg2 a).N = G2 V a c :=
  (dat2 V a c).arrAt_eq_of_cover 0 (G2 V a c) (flushed2_eq V a c) (cover2 a)

end Gather2

/-! ## What the three gather regions leave, as the projection region's host stretch finds it -/

section Chain

/-- Region 0's result array after the region, -/
theorem U2_v4 (c : Dev nD) : (U2 m c main_v4 : S131072x32.Idx → EReal) = G0 (ofVal (U1 m)) (a0 m) c := by
  unfold U2
  exact (Pipeline.withArrays_arr spec0 (launch0 (F := Ideal)).win.arr_inj c (U1 m c)
    (fun w => (dat0 (ofVal (U1 m)) (a0 m) c).arrAt w (cfg0 (a0 m)).N) 0).trans (arrAt0_eq (ofVal (U1 m)) (a0 m) c)

/-- region 1's, -/
theorem U4_v9 (c : Dev nD) : (U4 m c main_v9 : S131072x32.Idx → EReal) = G1 (ofVal (U3 m)) (a1 m) c := by
  unfold U4
  exact (Pipeline.withArrays_arr spec1 (launch1 (F := Ideal)).win.arr_inj c (U3 m c)
    (fun w => (dat1 (ofVal (U3 m)) (a1 m) c).arrAt w (cfg1 (a1 m)).N) 0).trans (arrAt1_eq (ofVal (U3 m)) (a1 m) c)

/-- region 2's. -/
theorem U6_v14 (c : Dev nD) : (U6 m c main_v14 : S131072x32.Idx → EReal) = G2 (ofVal (U5 m)) (a2 m) c := by
  unfold U6
  exact (Pipeline.withArrays_arr spec2 (launch2 (F := Ideal)).win.arr_inj c (U5 m c)
    (fun w => (dat2 (ofVal (U5 m)) (a2 m) c).arrAt w (cfg2 (a2 m)).N) 0).trans (arrAt2_eq (ofVal (U5 m)) (a2 m) c)

/-- No later host stretch writes an earlier region's result array, and no later region's result array is it: region 0's
    reaches the last host stretch as region 0 left it, -/
theorem U6_v4 (c : Dev nD) : U6 m c main_v4 = U2 m c main_v4 := by
  have h3 : U3 m c main_v4 = U2 m c main_v4 :=
    StableHlo.after_of_writes_sub hostOps1 _ hostOps1_writes (by decide : main_v4 ∉ hostOps1_W)
  have h4 : U4 m c main_v4 = U3 m c main_v4 := by
    unfold U4; exact Pipeline.withArrays_of_ne spec1 c _ _ main_v4 (Fin.forall_fin_one.mpr (by decide))
  have h5 : U5 m c main_v4 = U4 m c main_v4 :=
    StableHlo.after_of_writes_sub hostOps2 _ hostOps2_writes (by decide : main_v4 ∉ hostOps2_W)
  have h6 : U6 m c main_v4 = U5 m c main_v4 := by
    unfold U6; exact Pipeline.withArrays_of_ne spec2 c _ _ main_v4 (Fin.forall_fin_one.mpr (by decide))
  exact h6.trans (h5.trans (h4.trans h3))

/-- and region 1's as region 1 left it. -/
theorem U6_v9 (c : Dev nD) : U6 m c main_v9 = U4 m c main_v9 := by
  have h5 : U5 m c main_v9 = U4 m c main_v9 :=
    StableHlo.after_of_writes_sub hostOps2 _ hostOps2_writes (by decide : main_v9 ∉ hostOps2_W)
  have h6 : U6 m c main_v9 = U5 m c main_v9 := by
    unfold U6; exact Pipeline.withArrays_of_ne spec2 c _ _ main_v9 (Fin.forall_fin_one.mpr (by decide))
  exact h6.trans h5

/-- The time reaches it as launched. -/
theorem U6_arg1 (c : Dev nD) : U6 m c main_arg1 = m ((c : Thread nD τ).loc main_arg1) := by
  have h1 : U1 m c main_arg1 = m ((c : Thread nD τ).loc main_arg1) := V1_of m c main_arg1 (by decide)
  have h2 : U2 m c main_arg1 = U1 m c main_arg1 := by
    unfold U2; exact Pipeline.withArrays_of_ne spec0 c _ _ main_arg1 (Fin.forall_fin_one.mpr (by decide))
  have h3 : U3 m c main_arg1 = U2 m c main_arg1 :=
    StableHlo.after_of_writes_sub hostOps1 _ hostOps1_writes (by decide : main_arg1 ∉ hostOps1_W)
  have h4 : U4 m c main_arg1 = U3 m c main_arg1 := by
    unfold U4; exact Pipeline.withArrays_of_ne spec1 c _ _ main_arg1 (Fin.forall_fin_one.mpr (by decide))
  have h5 : U5 m c main_arg1 = U4 m c main_arg1 :=
    StableHlo.after_of_writes_sub hostOps2 _ hostOps2_writes (by decide : main_arg1 ∉ hostOps2_W)
  have h6 : U6 m c main_arg1 = U5 m c main_arg1 := by
    unfold U6; exact Pipeline.withArrays_of_ne spec2 c _ _ main_arg1 (Fin.forall_fin_one.mpr (by decide))
  exact h6.trans (h5.trans (h4.trans (h3.trans (h2.trans h1))))

/-- The last host stretch puts the three result arrays and the time column side by side. -/
theorem after_hostOps3_v16 (W : Valuation τ sig (Elt Ideal)) :
    StableHlo.after hostOps3 W main_v16
      = concatenate S131072x97 1 [⟨S131072x32, W main_v4⟩, ⟨S131072x32, W main_v9⟩, ⟨S131072x32, W main_v14⟩,
          ⟨S131072x1, broadcastInDim S131072x1 ![0] bcast_S131072_S131072x1_0 (W main_arg1)⟩]
          concatenates_S131072x32_S131072x32_S131072x32_S131072x1_S131072x97_d1 := by
  after_results <;> rfl

end Chain

/-! ## The input array, column by column -/

/-- Row `n` of region 0's result array is the row of table 0 that the index array's word at `(n, 0)` names. -/
theorem G0_row (c : Dev nD) (n : Fin 131072) (l : Fin 32) :
    G0 (ofVal (U1 m)) (a0 m) c (ValueIdx.ix2 n l)
      = argTabs m c (ValueIdx.ix3 (0 : Fin 3) (Cert.Spec.rowOf (argIdx m c₀) n (0 : Fin 3)) l) := by
  show tbl0 (ofVal (U1 m)) c (ValueIdx.ix2 (⟨min (col0 (a0 m) (ValueIdx.ix1 n)).toNat 499999, by omega⟩ : Fin 500000) l) = _
  rw [tbl0_eq]
  refine congrArg (argTabs m c) (funext fun k => Fin.ext ?_)
  match k with
  | ⟨0, _⟩ => rfl
  | ⟨1, _⟩ =>
    show min (col0 (a0 m) (ValueIdx.ix1 n)).toNat 499999 = min (argIdx m c₀ (ValueIdx.ix2 n (0 : Fin 3))).toNat 499999
    rw [col0_eq]
  | ⟨2, _⟩ => rfl

/-- Row `n` of region 1's result array is the row of table 1 that the index array's word at `(n, 1)` names. -/
theorem G1_row (c : Dev nD) (n : Fin 131072) (l : Fin 32) :
    G1 (ofVal (U3 m)) (a1 m) c (ValueIdx.ix2 n l)
      = argTabs m c (ValueIdx.ix3 (1 : Fin 3) (Cert.Spec.rowOf (argIdx m c₀) n (1 : Fin 3)) l) := by
  show tbl1 (ofVal (U3 m)) c (ValueIdx.ix2 (⟨min (col1 (a1 m) (ValueIdx.ix1 n)).toNat 499999, by omega⟩ : Fin 500000) l) = _
  rw [tbl1_eq]
  refine congrArg (argTabs m c) (funext fun k => Fin.ext ?_)
  match k with
  | ⟨0, _⟩ => rfl
  | ⟨1, _⟩ =>
    show min (col1 (a1 m) (ValueIdx.ix1 n)).toNat 499999 = min (argIdx m c₀ (ValueIdx.ix2 n (1 : Fin 3))).toNat 499999
    rw [col1_eq]
  | ⟨2, _⟩ => rfl

/-- Row `n` of region 2's result array is the row of table 2 that the index array's word at `(n, 2)` names. -/
theorem G2_row (c : Dev nD) (n : Fin 131072) (l : Fin 32) :
    G2 (ofVal (U5 m)) (a2 m) c (ValueIdx.ix2 n l)
      = argTabs m c (ValueIdx.ix3 (2 : Fin 3) (Cert.Spec.rowOf (argIdx m c₀) n (2 : Fin 3)) l) := by
  show tbl2 (ofVal (U5 m)) c (ValueIdx.ix2 (⟨min (col2 (a2 m) (ValueIdx.ix1 n)).toNat 499999, by omega⟩ : Fin 500000) l) = _
  rw [tbl2_eq]
  refine congrArg (argTabs m c) (funext fun k => Fin.ext ?_)
  match k with
  | ⟨0, _⟩ => rfl
  | ⟨1, _⟩ =>
    show min (col2 (a2 m) (ValueIdx.ix1 n)).toNat 499999 = min (argIdx m c₀ (ValueIdx.ix2 n (2 : Fin 3))).toNat 499999
    rw [col2_eq]
  | ⟨2, _⟩ => rfl

/-- The four pieces the last host stretch puts side by side, from the buffers `W` it runs from. -/
abbrev cols (W : Valuation τ sig (Elt Ideal)) : List ((s : Shape) × (s.Idx → EReal)) :=
  [⟨S131072x32, W main_v4⟩, ⟨S131072x32, W main_v9⟩, ⟨S131072x32, W main_v14⟩,
    ⟨S131072x1, broadcastInDim S131072x1 ![0] bcast_S131072_S131072x1_0 (W main_arg1)⟩]

/-- The input array the projection region is entered with is the specification's input vectors, row by row, when every
    index word is below the tables' height. -/
theorem inputs_eq (c : Dev nD) (hidx : ∀ j : S131072x3.Idx, (argIdx m c j).toNat < 500000) (n : Fin 131072) (j : Fin 97) :
    (U7 m c main_v16 : S131072x97.Idx → EReal) (ValueIdx.ix2 n j) = Cert.Spec.input (argIdx m c) (argTime m c) (argTabs m c) n j := by
  obtain rfl : c = c₀ := Subsingleton.elim _ _
  have hj : j.val < 97 := j.isLt
  show (StableHlo.after hostOps3 (U6 m c₀) main_v16 : S131072x97.Idx → EReal) (ValueIdx.ix2 n j) = _
  rw [after_hostOps3_v16]
  unfold Cert.Spec.input
  by_cases h : j.val < 96
  · rw [dif_pos h]
    by_cases h0 : j.val < 32
    ·
      -- columns 0 to 31: region 0's result array
      rw [concatenate_apply_piece (1 : Fin S131072x97.rank) (cols (U6 m c₀)) concatenates_S131072x32_S131072x32_S131072x32_S131072x1_S131072x97_d1
        (ValueIdx.ix2 n j) 0 (by show (0 : ℕ) < 4; omega) S131072x32 (U6 m c₀ main_v4) rfl rfl 0 rfl
        (ValueIdx.ix2 n (⟨j.val, by omega⟩ : Fin 32))
        (fun b hb => by match b with | ⟨0, _⟩ => rfl | ⟨1, _⟩ => exact absurd rfl hb)
        (by show 0 + (j.val) = j.val; omega)]
      rw [U6_v4, U2_v4, G0_row]
      have e1 : (⟨j.val / 32, by omega⟩ : Fin 3) = (0 : Fin 3) := Fin.ext (by show j.val / 32 = 0; omega)
      have e2 : (⟨j.val % 32, Nat.mod_lt _ (by decide)⟩ : Fin 32) = ⟨j.val, by omega⟩ := Fin.ext (by show j.val % 32 = j.val; omega)
      rw [e1, e2]
    by_cases h1 : j.val < 64
    ·
      -- columns 32 to 63: region 1's result array
      rw [concatenate_apply_piece (1 : Fin S131072x97.rank) (cols (U6 m c₀)) concatenates_S131072x32_S131072x32_S131072x32_S131072x1_S131072x97_d1
        (ValueIdx.ix2 n j) 1 (by show (1 : ℕ) < 4; omega) S131072x32 (U6 m c₀ main_v9) rfl rfl 32 rfl
        (ValueIdx.ix2 n (⟨j.val - 32, by omega⟩ : Fin 32))
        (fun b hb => by match b with | ⟨0, _⟩ => rfl | ⟨1, _⟩ => exact absurd rfl hb)
        (by show 32 + (j.val - 32) = j.val; omega)]
      rw [U6_v9, U4_v9, G1_row]
      have e1 : (⟨j.val / 32, by omega⟩ : Fin 3) = (1 : Fin 3) := Fin.ext (by show j.val / 32 = 1; omega)
      have e2 : (⟨j.val % 32, Nat.mod_lt _ (by decide)⟩ : Fin 32) = ⟨j.val - 32, by omega⟩ := Fin.ext (by show j.val % 32 = j.val - 32; omega)
      rw [e1, e2]
    ·
      -- columns 64 to 95: region 2's result array
      rw [concatenate_apply_piece (1 : Fin S131072x97.rank) (cols (U6 m c₀)) concatenates_S131072x32_S131072x32_S131072x32_S131072x1_S131072x97_d1
        (ValueIdx.ix2 n j) 2 (by show (2 : ℕ) < 4; omega) S131072x32 (U6 m c₀ main_v14) rfl rfl 64 rfl
        (ValueIdx.ix2 n (⟨j.val - 64, by omega⟩ : Fin 32))
        (fun b hb => by match b with | ⟨0, _⟩ => rfl | ⟨1, _⟩ => exact absurd rfl hb)
        (by show 64 + (j.val - 64) = j.val; omega)]
      rw [U6_v14, G2_row]
      have e1 : (⟨j.val / 32, by omega⟩ : Fin 3) = (2 : Fin 3) := Fin.ext (by show j.val / 32 = 2; omega)
      have e2 : (⟨j.val % 32, Nat.mod_lt _ (by decide)⟩ : Fin 32) = ⟨j.val - 64, by omega⟩ := Fin.ext (by show j.val % 32 = j.val - 64; omega)
      rw [e1, e2]
  · rw [dif_neg h]
    -- column 96: the time
    rw [concatenate_apply_piece (1 : Fin S131072x97.rank) (cols (U6 m c₀)) concatenates_S131072x32_S131072x32_S131072x32_S131072x1_S131072x97_d1
      (ValueIdx.ix2 n j) 3 (by show (3 : ℕ) < 4; omega) S131072x1 (broadcastInDim S131072x1 ![0] bcast_S131072_S131072x1_0 (U6 m c₀ main_arg1)) rfl rfl 96 rfl
      (ValueIdx.ix2 n (0 : Fin 1))
      (fun b hb => by match b with | ⟨0, _⟩ => rfl | ⟨1, _⟩ => exact absurd rfl hb)
      (by show 96 + 0 = j.val; omega)]
    rw [broadcastInDim_apply _ bcast_S131072_S131072x1_0 _ (ValueIdx.ix2 n (0 : Fin 1)) (ValueIdx.ix1 n) (fun a => by
      match a with
      | ⟨0, _⟩ => show n.val = if (131072 : Nat) = 1 then 0 else n.val; rw [if_neg (by decide)]), U6_arg1]

end Cert.KernelIdeal.Hand

end
-- ==== Proof.KI.ProjValue.lean ====
/-
  What the fourth region's body computes, read at a row.  Given a block of 512 input rows `x`, the
  frequency matrix `w`, the read-out column `o` and the bias `b`, row `p` of the result is: the
  projection of row `p` against each of the 256 columns of `w`, its sine and cosine side by side, each
  times one sixteenth, read out against `o`, plus `b`.  At the ideal instance the two changes of float
  format in between are the identity and each matrix product is the plain sum of products.
-/
import proofs.«423058_j50337016709696_1_alg».proof.Proof.KI.ProjBody
import proofs.«423058_j50337016709696_1_alg».proof.Proof.Consts
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic

/-! ## The two matrix products' operand indices, axis by axis

Each product contracts the left operand's columns against the right operand's rows: at result index `i` and
contraction index `q` the left operand is read at row `i 0`, column `q`, and the right at row `q`, column `i 1`. -/

theorem lhs_dot_S512x97_S97x256_S512x256_1_0_0_1_n_n_0 (i : S512x256.Idx) (q : dot_S512x97_S97x256_S512x256_1_0_0_1_n_n.contr.Idx) :
    (dot_S512x97_S97x256_S512x256_1_0_0_1_n_n.lhsIdx i q 0).val = (i 0).val := by
  unfold DotDims.lhsIdx
  rw [dif_neg (show ¬(0 : Fin S512x97.rank) ∈ dot_S512x97_S97x256_S512x256_1_0_0_1_n_n.lhsBatch by decide), dif_pos (show (0 : Fin S512x97.rank) ∈ dot_S512x97_S97x256_S512x256_1_0_0_1_n_n.lhsNonContracting by decide)]
  rfl
theorem lhs_dot_S512x97_S97x256_S512x256_1_0_0_1_n_n_1 (i : S512x256.Idx) (q : dot_S512x97_S97x256_S512x256_1_0_0_1_n_n.contr.Idx) :
    (dot_S512x97_S97x256_S512x256_1_0_0_1_n_n.lhsIdx i q 1).val = (q ⟨0, by decide⟩).val :=
  dot_S512x97_S97x256_S512x256_1_0_0_1_n_n.lhsIdx_val_of_single rfl i q
theorem rhs_dot_S512x97_S97x256_S512x256_1_0_0_1_n_n_0 (i : S512x256.Idx) (q : dot_S512x97_S97x256_S512x256_1_0_0_1_n_n.contr.Idx) :
    (dot_S512x97_S97x256_S512x256_1_0_0_1_n_n.rhsIdx i q 0).val = (q ⟨0, by decide⟩).val :=
  dot_S512x97_S97x256_S512x256_1_0_0_1_n_n.rhsIdx_val_of_single rfl i q
theorem rhs_dot_S512x97_S97x256_S512x256_1_0_0_1_n_n_1 (i : S512x256.Idx) (q : dot_S512x97_S97x256_S512x256_1_0_0_1_n_n.contr.Idx) :
    (dot_S512x97_S97x256_S512x256_1_0_0_1_n_n.rhsIdx i q 1).val = (i 1).val := by
  unfold DotDims.rhsIdx
  rw [dif_neg (show ¬(1 : Fin S97x256.rank) ∈ dot_S512x97_S97x256_S512x256_1_0_0_1_n_n.rhsBatch by decide), dif_pos (show (1 : Fin S97x256.rank) ∈ dot_S512x97_S97x256_S512x256_1_0_0_1_n_n.rhsNonContracting by decide)]
  rfl

theorem lhs_dot_S512x512_S512x1_S512x1_1_0_0_1_n_n_0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
  rfl
theorem lhs_dot_S512x512_S512x1_S512x1_1_0_0_1_n_n_1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
theorem rhs_dot_S512x512_S512x1_S512x1_1_0_0_1_n_n_0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
theorem rhs_dot_S512x512_S512x1_S512x1_1_0_0_1_n_n_1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
  rfl

/-! ## The payload, stage by stage -/

/-- The projections of the block's rows: the first matrix product, into a zero accumulator. -/
def projV (x : Vec Ideal S512x97 .f32) (w : Vec Ideal S97x256 .f32) : FVec Ideal S512x256 .f32 :=
  FloatOps.matmul (φ₁ := .f32) (φ₂ := .f32) dot_S512x97_S97x256_S512x256_1_0_0_1_n_n (some .fp32) (shapeCast S512x97 x shapeCasts_S512x97_S512x97) w (constant S512x256 .f32 0x00000000#32)

/-- The features: sines beside cosines, each times the literal sixteenth, in the narrower float format. -/
def featV (x : Vec Ideal S512x97 .f32) (w : Vec Ideal S97x256 .f32) : FVec Ideal S512x512 .bf16 :=
  truncf .bf16 (mulf (concatenate S512x512 1 [⟨S512x256, sin (projV x w)⟩, ⟨S512x256, cos (projV x w)⟩] concatenates_S512x256_S512x256_S512x512_d1)
    (broadcast S512x512 (Scalar.ofBits (F := Ideal) .f32 0x3D800000#32))) bitsLt_bf16_f32

/-- The payload is the read-out of the features against the column, into a zero accumulator, plus the bias spread
    over the rows. -/
theorem k3_pay1_eq (x : Vec Ideal S512x97 .f32) (w : Vec Ideal S97x256 .f32) (o : Vec Ideal S512x1 .f32) (b : Vec Ideal S1x1 .f32) :
    k3_pay1 (F := Ideal) x w o b
      = addf (FloatOps.matmul (φ₁ := .bf16) (φ₂ := .bf16) dot_S512x512_S512x1_S512x1_1_0_0_1_n_n none (featV x w) (truncf (φ := .f32) .bf16 o bitsLt_bf16_f32) (constant S512x1 .f32 0x00000000#32))
          (broadcastTo S512x1 (shapeCast S1x1 b shapeCasts_S1x1_S1x1) broadcasts_S1x1_S512x1) := rfl

/-- Row `p`'s projection against column `n`: the sum of products over the 97 entries. -/
theorem projV_apply (x : Vec Ideal S512x97 .f32) (w : Vec Ideal S97x256 .f32) (p : Fin 512) (n : Fin 256) :
    projV x w (ValueIdx.ix2 p n) = ∑ j : Fin 97, x (ValueIdx.ix2 p j) * w (ValueIdx.ix2 j n) := by
  unfold projV
  rw [shapeCast_self]
  refine (Ideal.matmul_constant_zero_apply (φ₁ := .f32) (φ₂ := .f32) dot_S512x97_S97x256_S512x256_1_0_0_1_n_n (some .fp32) x w (ValueIdx.ix2 p n)).trans ?_
  rw [← Equiv.sum_comp (ValueIdx.contrEquiv1 dot_S512x97_S97x256_S512x256_1_0_0_1_n_n 97 rfl rfl).symm]
  refine Finset.sum_congr rfl fun k _ => ?_
  have hk := ValueIdx.contrEquiv1_symm_val dot_S512x97_S97x256_S512x256_1_0_0_1_n_n 97 rfl rfl k
  have el : dot_S512x97_S97x256_S512x256_1_0_0_1_n_n.lhsIdx (ValueIdx.ix2 p n) ((ValueIdx.contrEquiv1 dot_S512x97_S97x256_S512x256_1_0_0_1_n_n 97 rfl rfl).symm k) = ValueIdx.ix2 p k :=
    funext fun a => Fin.ext (by
      match a with
      | ⟨0, _⟩ => exact lhs_dot_S512x97_S97x256_S512x256_1_0_0_1_n_n_0 _ _
      | ⟨1, _⟩ => exact (lhs_dot_S512x97_S97x256_S512x256_1_0_0_1_n_n_1 _ _).trans hk)
  have er : dot_S512x97_S97x256_S512x256_1_0_0_1_n_n.rhsIdx (ValueIdx.ix2 p n) ((ValueIdx.contrEquiv1 dot_S512x97_S97x256_S512x256_1_0_0_1_n_n 97 rfl rfl).symm k) = ValueIdx.ix2 k n :=
    funext fun a => Fin.ext (by
      match a with
      | ⟨0, _⟩ => exact (rhs_dot_S512x97_S97x256_S512x256_1_0_0_1_n_n_0 _ _).trans hk
      | ⟨1, _⟩ => exact rhs_dot_S512x97_S97x256_S512x256_1_0_0_1_n_n_1 _ _)
  rw [el, er]

/-- Feature `q` of row `p`: the sine of the projection on the first 256 columns, the cosine on the last 256, times one
    sixteenth; the change of float format is the identity. -/
theorem featV_apply (x : Vec Ideal S512x97 .f32) (w : Vec Ideal S97x256 .f32) (p q : Fin 512) :
    featV x w (ValueIdx.ix2 p q)
      = (if h : q.val < 256 then Ideal.sin (projV x w (ValueIdx.ix2 p (⟨q.val, h⟩ : Fin 256)))
          else Ideal.cos (projV x w (ValueIdx.ix2 p (⟨q.val - 256, by omega⟩ : Fin 256)))) * ((1 / 16 : ℝ) : EReal) := by
  unfold featV
  rw [ValueIdx.truncf_apply, ValueIdx.mulf_apply, ValueIdx.broadcast_apply]
  refine (Cert.Consts.mul_sixteenth _).trans ?_
  congr 1
  by_cases h : q.val < 256
  · rw [dif_pos h, concatenate_pair_apply_left (1 : Fin S512x512.rank) _ _ concatenates_S512x256_S512x256_S512x512_d1
      (ValueIdx.ix2 p q) rfl (ValueIdx.ix2 p (⟨q.val, h⟩ : Fin 256)) (fun a => by match a with | ⟨0, _⟩ => rfl | ⟨1, _⟩ => rfl)]
    rfl
  · have hq := q.isLt
    rw [dif_neg h, concatenate_pair_apply_right (1 : Fin S512x512.rank) _ _ concatenates_S512x256_S512x256_S512x512_d1
      (ValueIdx.ix2 p q) rfl rfl (ValueIdx.ix2 p (⟨q.val - 256, by omega⟩ : Fin 256))
      (fun a ha => by match a with | ⟨0, _⟩ => rfl | ⟨1, _⟩ => exact absurd rfl ha)
      (by show q.val - 256 + 256 = q.val; omega)]
    rfl

/-- The read-out of any features against any column at row `p`: the sum of products over the 512 features. -/
theorem readout_apply (g : FVec Ideal S512x512 .bf16) (o' : FVec Ideal S512x1 .bf16) (p : Fin 512) :
    FloatOps.matmul (φ₁ := .bf16) (φ₂ := .bf16) dot_S512x512_S512x1_S512x1_1_0_0_1_n_n none g o' (constant S512x1 .f32 0x00000000#32) (ValueIdx.ix2 p (0 : Fin 1))
      = ∑ q : Fin 512, g (ValueIdx.ix2 p q) * o' (ValueIdx.ix2 q (0 : Fin 1)) := by
  refine (Ideal.matmul_constant_zero_apply dot_S512x512_S512x1_S512x1_1_0_0_1_n_n none g o' (ValueIdx.ix2 p (0 : Fin 1))).trans ?_
  rw [← Equiv.sum_comp (ValueIdx.contrEquiv1 dot_S512x512_S512x1_S512x1_1_0_0_1_n_n 512 rfl rfl).symm]
  refine Finset.sum_congr rfl fun k _ => ?_
  have hk := ValueIdx.contrEquiv1_symm_val dot_S512x512_S512x1_S512x1_1_0_0_1_n_n 512 rfl rfl k
  have el : dot_S512x512_S512x1_S512x1_1_0_0_1_n_n.lhsIdx (ValueIdx.ix2 p (0 : Fin 1)) ((ValueIdx.contrEquiv1 dot_S512x512_S512x1_S512x1_1_0_0_1_n_n 512 rfl rfl).symm k) = ValueIdx.ix2 p k :=
    funext fun a => Fin.ext (by
      match a with
      | ⟨0, _⟩ => exact lhs_dot_S512x512_S512x1_S512x1_1_0_0_1_n_n_0 _ _
      | ⟨1, _⟩ => exact (lhs_dot_S512x512_S512x1_S512x1_1_0_0_1_n_n_1 _ _).trans hk)
  have er : dot_S512x512_S512x1_S512x1_1_0_0_1_n_n.rhsIdx (ValueIdx.ix2 p (0 : Fin 1)) ((ValueIdx.contrEquiv1 dot_S512x512_S512x1_S512x1_1_0_0_1_n_n 512 rfl rfl).symm k) = ValueIdx.ix2 k (0 : Fin 1) :=
    funext fun a => Fin.ext (by
      match a with
      | ⟨0, _⟩ => exact (rhs_dot_S512x512_S512x1_S512x1_1_0_0_1_n_n_0 _ _).trans hk
      | ⟨1, _⟩ => exact rhs_dot_S512x512_S512x1_S512x1_1_0_0_1_n_n_1 _ _)
  rw [el, er]

/-- The bias spread over the rows reads the one bias at every row. -/
theorem bias_apply (b : Vec Ideal S1x1 .f32) (p : Fin 512) :
    broadcastTo S512x1 (shapeCast S1x1 b shapeCasts_S1x1_S1x1) broadcasts_S1x1_S512x1 (ValueIdx.ix2 p (0 : Fin 1))
      = b (ValueIdx.ix2 (0 : Fin 1) (0 : Fin 1)) := by
  rw [shapeCast_self]
  exact broadcastTo_apply b broadcasts_S1x1_S512x1 (ValueIdx.ix2 p (0 : Fin 1)) (ValueIdx.ix2 (0 : Fin 1) (0 : Fin 1))
    (fun a => by match a with | ⟨0, _⟩ => rfl | ⟨1, _⟩ => rfl)

/-- Row `p` of the body's result, from its four operands, as sums over the reals' extension. -/
theorem k3_pay1_apply (x : Vec Ideal S512x97 .f32) (w : Vec Ideal S97x256 .f32) (o : Vec Ideal S512x1 .f32) (b : Vec Ideal S1x1 .f32)
    (p : Fin 512) :
    k3_pay1 (F := Ideal) x w o b (ValueIdx.ix2 p (0 : Fin 1))
      = (∑ q : Fin 512,
            ((if h : q.val < 256 then Ideal.sin (∑ j : Fin 97, x (ValueIdx.ix2 p j) * w (ValueIdx.ix2 j (⟨q.val, h⟩ : Fin 256)))
              else Ideal.cos (∑ j : Fin 97, x (ValueIdx.ix2 p j) * w (ValueIdx.ix2 j (⟨q.val - 256, by omega⟩ : Fin 256))))
              * ((1 / 16 : ℝ) : EReal)) * o (ValueIdx.ix2 q (0 : Fin 1)))
        + b (ValueIdx.ix2 (0 : Fin 1) (0 : Fin 1)) := by
  rw [k3_pay1_eq, ValueIdx.addf_apply, readout_apply, bias_apply]
  congr 1
  refine Finset.sum_congr rfl fun q _ => ?_
  rw [featV_apply, ValueIdx.truncf_apply]
  congr 2
  by_cases h : q.val < 256
  · rw [dif_pos h, dif_pos h, projV_apply]
  · rw [dif_neg h, dif_neg h, projV_apply]

end Cert.KernelIdeal.Hand

end
-- ==== Proof.KI.Result.lean ====
/-
  The result.  The projection region leaves in the result array, block by block, the read-out of the input
  rows it is entered with; those rows are the specification's input vectors, so the result array is the
  specification's function of the program's six arguments.
-/
import proofs.«423058_j50337016709696_1_alg».proof.Proof.KI.Inputs
import proofs.«423058_j50337016709696_1_alg».proof.Proof.KI.ProjValue
import proofs.«423058_j50337016709696_1_alg».proof.Proof.KI.Reg3
import Idealize.ShloMosaic.Lib.Pipeline.Value
import Idealize.ShloMosaic.Lib.Pipeline.FrameSuffix
import Idealize.ShloMosaic.Lib.StableHlo.Run
import Idealize.ShloMosaic.Lib.ValueIdx

noncomputable section

open scoped BigOperators

namespace Cert.KernelIdeal.Hand

open Cert.KernelIdeal Cert.KernelIdeal.Gen Cert.KernelIdeal.RunCond
open Idealize.ShloMosaic Idealize.ShloMosaic.TcCoe

variable (m : (ℓ : Loc nD τ sig) → Buf (Elt Ideal) ℓ)

/-- The frequency matrix, the read-out column and the bias, as the program is started with them. -/
abbrev argW (c : Dev nD) : S97x256.Idx → EReal := m ((c : Thread nD τ).loc main_arg3)
abbrev argOut (c : Dev nD) : S512x1.Idx → EReal := m ((c : Thread nD τ).loc main_arg4)
abbrev argBias (c : Dev nD) : S1.Idx → EReal := m ((c : Thread nD τ).loc main_arg5)

/-! ## The projection region's grid and windows

The grid has one axis of 256 points.  The input window's and the result window's block at point `t` is block `t` along
the rows; the three small operands' block is the whole array at every point. -/

section Geometry

/-- On the one-axis grid, point `t` has coordinate `t`. -/
theorem coords3_val : ∀ t : Fin grid3.N, (grid3.coords t 0).val = t.val := by decide

/-- The input window's block index at point `t` is `t` along the rows -/
theorem index3_0_0 (t : Fin cfg3.N) : (cfg3.win 0).index t (⟨0, by decide⟩ : Fin 2) = t.val := by
  show (BitVec.ofNat 32 (cfg3.grid.coords t 0).val).toNat = t.val
  rw [BitVec.toNat_ofNat, show (cfg3.grid.coords t 0).val = t.val from coords3_val t]
  exact Nat.mod_eq_of_lt (by have : t.val < 256 := t.isLt; omega)

/-- and zero along the columns; -/
theorem index3_0_1 (t : Fin cfg3.N) : (cfg3.win 0).index t (⟨1, by decide⟩ : Fin 2) = 0 := rfl

/-- the result window's likewise. -/
theorem index3_4_0 (t : Fin cfg3.N) : (cfg3.win 4).index t (⟨0, by decide⟩ : Fin 2) = t.val := by
  show (BitVec.ofNat 32 (cfg3.grid.coords t 0).val).toNat = t.val
  rw [BitVec.toNat_ofNat, show (cfg3.grid.coords t 0).val = t.val from coords3_val t]
  exact Nat.mod_eq_of_lt (by have : t.val < 256 := t.isLt; omega)

theorem index3_4_1 (t : Fin cfg3.N) : (cfg3.win 4).index t (⟨1, by decide⟩ : Fin 2) = 0 := rfl

/-- Successive points have different result blocks, so every point writes its block back. -/
theorem flush3_4 (t : Fin cfg3.N) : (cfg3.win 4).flush t = true := by
  unfold Pipeline.Window.flush
  rw [show (cfg3.win 4).isOut = true from rfl, Bool.true_and, Bool.or_eq_true, decide_eq_true_eq, decide_eq_true_eq]
  have hlt : t.val < cfg3.grid.N := t.isLt
  by_cases h : t.val + 1 = cfg3.grid.N
  · exact Or.inl h
  · have ht : t.val + 1 < cfg3.grid.N := by omega
    refine Or.inr ⟨ht, fun e => ?_⟩
    have e0 := congrFun e (⟨0, by decide⟩ : Fin 2)
    rw [index3_4_0 ⟨t.val + 1, ht⟩, index3_4_0 t] at e0
    exact absurd e0 (by show t.val + 1 ≠ t.val; omega)

/-- Where element `y` of the result's block at point `t` sits in the result array: row `512 t + y 0`, -/
theorem blk3_4_emb_0 (t : Fin cfg3.N) (y : S512x1.Idx) (i : S131072x1.Idx) (hi : i = ((cfg3.win 4).blk t).view.emb y) :
    (i 0).val = 512 * t.val + (y 0).val := by
  subst hi
  have h := (cfg3.win 4).rect_emb_val t y (⟨0, Nat.zero_lt_two⟩ : Fin 2)
  rw [index3_4_0] at h
  show (((cfg3.win 4).rect t).emb y (⟨0, Nat.zero_lt_two⟩ : Fin 2) : ℕ) = _
  rw [h]
  show t.val * 512 + (y 0).val = 512 * t.val + (y 0).val
  omega

/-- The result's blocks cover the result array. -/
theorem cover3_4 (i : S131072x1.Idx) :
    ∃ t : Fin cfg3.N, (cfg3.win 4).flush t = true ∧ i ∈ ((cfg3.win 4).blk t).view.set := by
  have hi0 : (i 0).val < 131072 := (i 0).isLt
  have hi1 : (i 1).val < 1 := (i 1).isLt
  have hN : cfg3.N = 256 := N_3
  refine ⟨⟨(i 0).val / 512, by omega⟩, flush3_4 _, ?_⟩
  have hs : ∀ t, ((cfg3.win 4).blk t).view.set = ((cfg3.win 4).rect t).set := fun t => View.set_slice_whole main_v18 _
  rw [hs]
  refine Rect.mem_set_unit.mpr fun k => ?_
  match k with
  | ⟨0, _⟩ =>
    show (cfg3.win 4).index _ (⟨0, by decide⟩ : Fin 2) * 512 ≤ (i 0).val ∧ (i 0).val < (cfg3.win 4).index _ (⟨0, by decide⟩ : Fin 2) * 512 + 512
    rw [index3_4_0]
    show (i 0).val / 512 * 512 ≤ (i 0).val ∧ (i 0).val < (i 0).val / 512 * 512 + 512
    omega
  | ⟨1, _⟩ =>
    show 0 * 1 ≤ (i 1).val ∧ (i 1).val < 0 * 1 + 1
    omega

end Geometry

/-! ## The operands' blocks at a point -/

section Operands
variable (V : (c : Dev nD) → (b : Ref sig .tc) → Buf (Elt Ideal) ((c : Thread nD τ).loc b))

/-- The input window's block at point `t` is rows `512 t` onward of the input array. -/
theorem iblk3_0_apply (c : Dev nD) (t : Fin cfg3.N) (p : Fin 512) (j : Fin 97) :
    iblk3 V c 0 t (ValueIdx.ix2 p j)
      = (V c main_v16 : S131072x97.Idx → EReal) (ValueIdx.ix2 (⟨512 * t.val + p.val, by have : t.val < 256 := t.isLt; omega⟩ : Fin 131072) j) := by
  show (V c main_v16 : S131072x97.Idx → EReal) (((cfg3.win 0).blk t).view.emb (ValueIdx.ix2 p j)) = _
  congr 1
  funext a
  refine Fin.ext ?_
  match a with
  | ⟨0, _⟩ =>
    have h := (cfg3.win 0).rect_emb_val t (ValueIdx.ix2 p j) (⟨0, Nat.zero_lt_two⟩ : Fin 2)
    rw [index3_0_0] at h
    show (((cfg3.win 0).rect t).emb (ValueIdx.ix2 p j) (⟨0, Nat.zero_lt_two⟩ : Fin 2) : ℕ) = 512 * t.val + p.val
    rw [h]
    show t.val * 512 + p.val = 512 * t.val + p.val
    omega
  | ⟨1, _⟩ =>
    exact (cfg3.win 0).rect_emb_val_of_index_zero t (⟨1, Nat.one_lt_two⟩ : Fin 2) (index3_0_1 t) (ValueIdx.ix2 p j)

/-- The frequency matrix's block is the whole matrix, -/
theorem iblk3_1_eq (c : Dev nD) (t : Fin cfg3.N) : iblk3 V c 1 t = (V c main_arg3 : S97x256.Idx → EReal) := by
  funext y
  show (V c main_arg3 : S97x256.Idx → EReal) (((cfg3.win 1).blk t).view.emb y) = _
  congr 1
  funext a
  refine Fin.ext ?_
  match a with
  | ⟨0, _⟩ => exact (cfg3.win 1).rect_emb_val_of_index_zero t (⟨0, Nat.zero_lt_two⟩ : Fin 2) rfl y
  | ⟨1, _⟩ => exact (cfg3.win 1).rect_emb_val_of_index_zero t (⟨1, Nat.one_lt_two⟩ : Fin 2) rfl y

/-- the read-out column's the whole column, -/
theorem iblk3_2_eq (c : Dev nD) (t : Fin cfg3.N) : iblk3 V c 2 t = (V c main_arg4 : S512x1.Idx → EReal) := by
  funext y
  show (V c main_arg4 : S512x1.Idx → EReal) (((cfg3.win 2).blk t).view.emb y) = _
  congr 1
  funext a
  refine Fin.ext ?_
  match a with
  | ⟨0, _⟩ => exact (cfg3.win 2).rect_emb_val_of_index_zero t (⟨0, Nat.zero_lt_two⟩ : Fin 2) rfl y
  | ⟨1, _⟩ => exact (cfg3.win 2).rect_emb_val_of_index_zero t (⟨1, Nat.one_lt_two⟩ : Fin 2) rfl y

/-- and the bias's the one bias. -/
theorem iblk3_3_eq (c : Dev nD) (t : Fin cfg3.N) : iblk3 V c 3 t = (V c main_v17 : S1x1.Idx → EReal) := by
  funext y
  show (V c main_v17 : S1x1.Idx → EReal) (((cfg3.win 3).blk t).view.emb y) = _
  congr 1
  funext a
  refine Fin.ext ?_
  match a with
  | ⟨0, _⟩ => exact (cfg3.win 3).rect_emb_val_of_index_zero t (⟨0, Nat.zero_lt_two⟩ : Fin 2) rfl y
  | ⟨1, _⟩ => exact (cfg3.win 3).rect_emb_val_of_index_zero t (⟨1, Nat.one_lt_two⟩ : Fin 2) rfl y

end Operands

/-! ## The three small operands reach the projection region as launched -/

section Args

/-- A buffer that no host stretch writes and that is no gather region's result array holds, when the last host stretch
    begins, what it held at launch. -/
theorem U6_of (c : Dev nD) (r : Ref sig .tc) (h0 : r ∉ hostOps0_W) (h1 : r ∉ hostOps1_W) (h2 : r ∉ hostOps2_W)
    (a0' : ∀ w, Pipeline.arrRef spec0 w ≠ r) (a1' : ∀ w, Pipeline.arrRef spec1 w ≠ r) (a2' : ∀ w, Pipeline.arrRef spec2 w ≠ r) :
    U6 m c r = m ((c : Thread nD τ).loc r) := by
  have e1 : U1 m c r = m ((c : Thread nD τ).loc r) := V1_of m c r h0
  have e2 : U2 m c r = U1 m c r := by unfold U2; exact Pipeline.withArrays_of_ne spec0 c _ _ r a0'
  have e3 : U3 m c r = U2 m c r := StableHlo.after_of_writes_sub hostOps1 _ hostOps1_writes h1
  have e4 : U4 m c r = U3 m c r := by unfold U4; exact Pipeline.withArrays_of_ne spec1 c _ _ r a1'
  have e5 : U5 m c r = U4 m c r := StableHlo.after_of_writes_sub hostOps2 _ hostOps2_writes h2
  have e6 : U6 m c r = U5 m c r := by unfold U6; exact Pipeline.withArrays_of_ne spec2 c _ _ r a2'
  exact e6.trans (e5.trans (e4.trans (e3.trans (e2.trans e1))))

/-- If the last host stretch does not write it either, it holds that when the projection region is entered. -/
theorem U7_of (c : Dev nD) (r : Ref sig .tc) (h0 : r ∉ hostOps0_W) (h1 : r ∉ hostOps1_W) (h2 : r ∉ hostOps2_W) (h3 : r ∉ hostOps3_W)
    (a0' : ∀ w, Pipeline.arrRef spec0 w ≠ r) (a1' : ∀ w, Pipeline.arrRef spec1 w ≠ r) (a2' : ∀ w, Pipeline.arrRef spec2 w ≠ r) :
    U7 m c r = m ((c : Thread nD τ).loc r) :=
  (StableHlo.after_of_writes_sub hostOps3 _ hostOps3_writes h3).trans (U6_of m c r h0 h1 h2 a0' a1' a2')

theorem U7_arg3 (c : Dev nD) : U7 m c main_arg3 = m ((c : Thread nD τ).loc main_arg3) :=
  U7_of m c main_arg3 (by decide) (by decide) (by decide) (by decide)
    (Fin.forall_fin_one.mpr (by decide)) (Fin.forall_fin_one.mpr (by decide)) (Fin.forall_fin_one.mpr (by decide))

theorem U7_arg4 (c : Dev nD) : U7 m c main_arg4 = m ((c : Thread nD τ).loc main_arg4) :=
  U7_of m c main_arg4 (by decide) (by decide) (by decide) (by decide)
    (Fin.forall_fin_one.mpr (by decide)) (Fin.forall_fin_one.mpr (by decide)) (Fin.forall_fin_one.mpr (by decide))

theorem U6_arg5 (c : Dev nD) : U6 m c main_arg5 = m ((c : Thread nD τ).loc main_arg5) :=
  U6_of m c main_arg5 (by decide) (by decide) (by decide)
    (Fin.forall_fin_one.mpr (by decide)) (Fin.forall_fin_one.mpr (by decide)) (Fin.forall_fin_one.mpr (by decide))

/-- The last host stretch reshapes the bias to one row of one entry. -/
theorem after_hostOps3_v17 (W : Valuation τ sig (Elt Ideal)) :
    StableHlo.after hostOps3 W main_v17 = shapeCast S1x1 (W main_arg5) shapeCasts_S1_S1x1 := by
  after_results <;> rfl

/-- So the bias the projection region reads is the program's. -/
theorem U7_v17_apply (c : Dev nD) :
    (U7 m c main_v17 : S1x1.Idx → EReal) (ValueIdx.ix2 (0 : Fin 1) (0 : Fin 1)) = argBias m c (ValueIdx.ix1 (0 : Fin 1)) := by
  show (StableHlo.after hostOps3 (U6 m c) main_v17 : S1x1.Idx → EReal) (ValueIdx.ix2 (0 : Fin 1) (0 : Fin 1)) = _
  rw [after_hostOps3_v17, U6_arg5]
  exact shapeCast_apply _ shapeCasts_S1_S1x1 _ (ValueIdx.ix1 (0 : Fin 1))
    (by rw [Shape.rowMajor_val_one, Shape.rowMajor_val_two]; rfl)

end Args

/-! ## What the body leaves, and the specification at a row -/

section Payload

/-- Both offsets zero, as the body's rectangles spell them. -/
theorem zeros2 : (![0, 0] : Fin 2 → ℕ) = fun _ => 0 := by
  funext a
  match a with
  | ⟨0, _⟩ => rfl
  | ⟨1, _⟩ => rfl

/-- The body's one store goes through the whole of the result's block and its loads through the whole of each operand's:
    what it leaves is its payload at the four blocks. -/
theorem projOut_eq (x : Vec Ideal S512x97 .f32) (w : Vec Ideal S97x256 .f32) (o : Vec Ideal S512x1 .f32) (b : Vec Ideal S1x1 .f32) :
    projOut x w o b = k3_pay1 (F := Ideal) x w o b := by
  unfold projOut
  rw [View.canon_unit_zero zeros2, View.ld_unit_zero zeros2, View.ld_unit_zero zeros2, View.ld_unit_zero zeros2,
    View.ld_unit_zero zeros2]

/-- The specification at row `n`, with its feature map and projection written out. -/
theorem G_row (idx : Cert.Spec.SIdx.Idx → BitVec 32) (tm : Cert.Spec.STime.Idx → EReal) (Ut : Cert.Spec.STab.Idx → EReal)
    (W : Cert.Spec.SW.Idx → EReal) (wout : Cert.Spec.SOut.Idx → EReal) (bias : Cert.Spec.SBias.Idx → EReal) (n : Fin 131072) :
    Cert.Spec.G idx tm Ut W wout bias (ValueIdx.ix2 n (0 : Fin 1))
      = (∑ q : Fin 512,
            ((if h : q.val < 256 then Ideal.sin (∑ j : Fin 97, Cert.Spec.input idx tm Ut n j * W (ValueIdx.ix2 j (⟨q.val, h⟩ : Fin 256)))
              else Ideal.cos (∑ j : Fin 97, Cert.Spec.input idx tm Ut n j * W (ValueIdx.ix2 j (⟨q.val - 256, by omega⟩ : Fin 256))))
              * ((1 / 16 : ℝ) : EReal)) * wout (ValueIdx.ix2 q (0 : Fin 1)))
        + bias (ValueIdx.ix1 (0 : Fin 1)) := rfl

end Payload

/-! ## The result array -/

/-- What each point writes back is its block of the specification's result: row `p` of block `t` is the read-out of input
    row `512 t + p`, which is the specification's input vector of that row. -/
theorem flushed3_4_eq (c : Dev nD) (hidx : ∀ j : S131072x3.Idx, (argIdx m c j).toNat < 500000) (t : Fin cfg3.N)
    (_ : (cfg3.win 4).flush t = true) :
    (dat3 (ofVal (U7 m)) c).flushed 4 t
      = ((cfg3.win 4).blk t).view.read (Elt Ideal)
          (Cert.Spec.G (argIdx m c) (argTime m c) (argTabs m c) (argW m c) (argOut m c) (argBias m c)) := by
  refine funext fun (y : S512x1.Idx) => ?_
  show (dat3 (ofVal (U7 m)) c).after 4 t y
    = Cert.Spec.G (argIdx m c) (argTime m c) (argTabs m c) (argW m c) (argOut m c) (argBias m c) (((cfg3.win 4).blk t).view.emb y)
  obtain ⟨p, z, rfl⟩ : ∃ p z, y = ValueIdx.ix2 p z := ⟨y 0, y 1, ValueIdx.eq_ix2 y⟩
  obtain rfl : z = (0 : Fin 1) := Subsingleton.elim _ _
  have ht : t.val < 256 := by have h := t.isLt; have hN : cfg3.N = 256 := N_3; omega
  have hp : p.val < 512 := p.isLt
  -- where the element sits in the array
  have hi : ((cfg3.win 4).blk t).view.emb (ValueIdx.ix2 p (0 : Fin 1))
      = ValueIdx.ix2 (⟨512 * t.val + p.val, by omega⟩ : Fin 131072) (0 : Fin 1) := funext fun a => Fin.ext (by
    match a with
    | ⟨0, _⟩ => exact blk3_4_emb_0 t (ValueIdx.ix2 p (0 : Fin 1)) _ rfl
    | ⟨1, _⟩ =>
      have h1 : ((((cfg3.win 4).blk t).view.emb (ValueIdx.ix2 p (0 : Fin 1))) ⟨1, Nat.one_lt_two⟩).val < 1 := Fin.isLt _
      show ((((cfg3.win 4).blk t).view.emb (ValueIdx.ix2 p (0 : Fin 1))) ⟨1, Nat.one_lt_two⟩).val = 0
      omega)
  rw [hi, G_row, after3_4, projOut_eq, iblk3_1_eq, iblk3_2_eq, iblk3_3_eq, k3_pay1_apply]
  -- the three small operands are the program's arguments
  have hw : (ofVal (U7 m) c main_arg3 : S97x256.Idx → EReal) = argW m c := U7_arg3 m c
  have ho : (ofVal (U7 m) c main_arg4 : S512x1.Idx → EReal) = argOut m c := U7_arg4 m c
  have hb : (ofVal (U7 m) c main_v17 : S1x1.Idx → EReal) (ValueIdx.ix2 (0 : Fin 1) (0 : Fin 1)) = argBias m c (ValueIdx.ix1 (0 : Fin 1)) :=
    U7_v17_apply m c
  rw [hw, ho, hb]
  refine congrArg (fun s => s + argBias m c (ValueIdx.ix1 (0 : Fin 1))) (Finset.sum_congr rfl fun q _ => ?_)
  refine congrArg (fun a => a * ((1 / 16 : ℝ) : EReal) * argOut m c (ValueIdx.ix2 q (0 : Fin 1))) ?_
  -- the block's row is the specification's input vector
  have hx : ∀ j : Fin 97, iblk3 (ofVal (U7 m)) c 0 t (ValueIdx.ix2 p j)
      = Cert.Spec.input (argIdx m c) (argTime m c) (argTabs m c) (⟨512 * t.val + p.val, by omega⟩ : Fin 131072) j := fun j =>
    (iblk3_0_apply (ofVal (U7 m)) c t p j).trans (inputs_eq m c hidx _ j)
  by_cases h : q.val < 256
  · rw [dif_pos h, dif_pos h]
    exact congrArg Ideal.sin (Finset.sum_congr rfl fun j _ => by rw [hx j])
  · rw [dif_neg h, dif_neg h]
    exact congrArg Ideal.cos (Finset.sum_congr rfl fun j _ => by rw [hx j])

/-- What the program leaves in the result array is the specification's function of its arguments, when every index
    word is below the tables' height. -/
theorem result_eq (c : Dev nD) (hidx : ∀ j : S131072x3.Idx, (argIdx m c j).toNat < 500000) :
    (U8 m c main_v18 : S131072x1.Idx → EReal)
      = Cert.Spec.G (argIdx m c) (argTime m c) (argTabs m c) (argW m c) (argOut m c) (argBias m c) := by
  -- the result array is what the projection region's proof data compute for its fifth window, and the blocks that window
  -- writes back cover it
  refine (show (U8 m c main_v18 : S131072x1.Idx → EReal) = (dat3 (ofVal (U7 m)) c).arrAt 4 cfg3.N from
    (hF3 (F := Ideal) m c 4).symm).trans ?_
  exact (dat3 (ofVal (U7 m)) c).arrAt_eq_of_cover 4 _ (flushed3_4_eq m c hidx) cover3_4

end Cert.KernelIdeal.Hand

end
-- ==== Proof.K.Base.lean ====
/-
  The resource algebra and the ways of holding a buffer that every module about the word-level kernel's
  regions shares.  Beside the pipeline library's own algebra it carries the counters the regions' local
  transfers take their tokens from: three of the four regions move table rows by transfers of their own.
-/
import proofs.«423058_j50337016709696_1_alg».proof.Proof.Gen.Kernel.Loops
import Idealize.ShloMosaic.Lib.Tactic
import Idealize.ShloMosaic.Lib.Pipeline.Kit
import Idealize.ShloMosaic.Lib.WholeRead

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra of the whole program: the pipeline library's, beside the transfers' counters. -/
abbrev UU : Type := UR sig nD τ × Counters

/-- The model every statement about this program's regions is made in. -/
abbrev 𝕄K (F : FTy → Type) : Type := MT nD τ sig Unit (Elt F) ℕ UU ℕ

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c` held whole, at the full share, at contents `f`. -/
abbrev pt (c : Dev nD) {sp : Space} {S : Shape} {e : EltTy} (M : Memref sig .tc sp S e) (f : Bf (F := F) c M) : sProp (𝕄K F) :=
  M.view.loc (c : Thread nD τ) ↦{fullShare} f

/-- The same at a share `q`: how an array that several transfers read at once is held, one share a transfer. -/
abbrev ptq (c : Dev nD) {sp : Space} {S : Shape} {e : EltTy} (M : Memref sig .tc sp S e) (q : PosShare TreeShare)
    (f : Bf (F := F) c M) : sProp (𝕄K F) :=
  M.view.loc (c : Thread nD τ) ↦{q} f

/-- A row index below the tables' height keeps the one-row window inside the table: what each transfer's
    source asks of the index word it was computed from. -/
theorem row_inb (v : BitVec 32) (h : v.toNat < 500000) :
    ∀ a, (![v.toNat, 0] : Fin 2 → ℕ) a + S1x32.size a ≤ S500000x32.size a := by
  intro a
  match a with
  | ⟨0, _⟩ => show v.toNat + 1 ≤ 500000; omega
  | ⟨1, _⟩ => show 0 + 32 ≤ 32; omega

end Cert.Kernel.Hand

end
-- ==== Proof.K.Cells0.lean ====
/-
  The first region's cells: the 32 semaphores of its own that its transfers complete on (the core's 2 to 33),
  their counters, and the table it reads held as one read share for each of them, so that transfers reading the
  same table row do not compete.
-/
import proofs.«423058_j50337016709696_1_alg».proof.Proof.K.Base
import proofs.«423058_j50337016709696_1_alg».proof.Proof.GatherSpec
import Idealize.ShloMosaic.Lib.Pipeline.FrameBody

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first region's table held for reading: one read share for each of the 32 transfers of a trip, indexed by the
    transfer's semaphore (the region's own semaphores are the core's 2 to 33). -/
abbrev toks0 (c : Dev nD) (f : Bf (F := F) c (Memref.whole main_v3)) : sProp (𝕄K F) :=
  iprop(ptq c (Memref.whole main_v3) (Transfers.shareTokN fullShare 2) f
      ∗ ptq c (Memref.whole main_v3) (Transfers.shareTokN fullShare 3) f
      ∗ ptq c (Memref.whole main_v3) (Transfers.shareTokN fullShare 4) f
      ∗ ptq c (Memref.whole main_v3) (Transfers.shareTokN fullShare 5) f
      ∗ ptq c (Memref.whole main_v3) (Transfers.shareTokN fullShare 6) f
      ∗ ptq c (Memref.whole main_v3) (Transfers.shareTokN fullShare 7) f
      ∗ ptq c (Memref.whole main_v3) (Transfers.shareTokN fullShare 8) f
      ∗ ptq c (Memref.whole main_v3) (Transfers.shareTokN fullShare 9) f
      ∗ ptq c (Memref.whole main_v3) (Transfers.shareTokN fullShare 10) f
      ∗ ptq c (Memref.whole main_v3) (Transfers.shareTokN fullShare 11) f
      ∗ ptq c (Memref.whole main_v3) (Transfers.shareTokN fullShare 12) f
      ∗ ptq c (Memref.whole main_v3) (Transfers.shareTokN fullShare 13) f
      ∗ ptq c (Memref.whole main_v3) (Transfers.shareTokN fullShare 14) f
      ∗ ptq c (Memref.whole main_v3) (Transfers.shareTokN fullShare 15) f
      ∗ ptq c (Memref.whole main_v3) (Transfers.shareTokN fullShare 16) f
      ∗ ptq c (Memref.whole main_v3) (Transfers.shareTokN fullShare 17) f
      ∗ ptq c (Memref.whole main_v3) (Transfers.shareTokN fullShare 18) f
      ∗ ptq c (Memref.whole main_v3) (Transfers.shareTokN fullShare 19) f
      ∗ ptq c (Memref.whole main_v3) (Transfers.shareTokN fullShare 20) f
      ∗ ptq c (Memref.whole main_v3) (Transfers.shareTokN fullShare 21) f
      ∗ ptq c (Memref.whole main_v3) (Transfers.shareTokN fullShare 22) f
      ∗ ptq c (Memref.whole main_v3) (Transfers.shareTokN fullShare 23) f
      ∗ ptq c (Memref.whole main_v3) (Transfers.shareTokN fullShare 24) f
      ∗ ptq c (Memref.whole main_v3) (Transfers.shareTokN fullShare 25) f
      ∗ ptq c (Memref.whole main_v3) (Transfers.shareTokN fullShare 26) f
      ∗ ptq c (Memref.whole main_v3) (Transfers.shareTokN fullShare 27) f
      ∗ ptq c (Memref.whole main_v3) (Transfers.shareTokN fullShare 28) f
      ∗ ptq c (Memref.whole main_v3) (Transfers.shareTokN fullShare 29) f
      ∗ ptq c (Memref.whole main_v3) (Transfers.shareTokN fullShare 30) f
      ∗ ptq c (Memref.whole main_v3) (Transfers.shareTokN fullShare 31) f
      ∗ ptq c (Memref.whole main_v3) (Transfers.shareTokN fullShare 32) f
      ∗ ptq c (Memref.whole main_v3) (Transfers.shareTokN fullShare 33) f)

/-- The first region's 32 semaphores' counters at zero. -/
abbrev sems0 (c : Dev nD) : sProp (𝕄K F) :=
  iprop(semVal ((c : Thread nD τ), (SemLoc.dma 2 : SemLoc sig)) 0
      ∗ semVal ((c : Thread nD τ), (SemLoc.dma 3 : SemLoc sig)) 0
      ∗ semVal ((c : Thread nD τ), (SemLoc.dma 4 : SemLoc sig)) 0
      ∗ semVal ((c : Thread nD τ), (SemLoc.dma 5 : SemLoc sig)) 0
      ∗ semVal ((c : Thread nD τ), (SemLoc.dma 6 : SemLoc sig)) 0
      ∗ semVal ((c : Thread nD τ), (SemLoc.dma 7 : SemLoc sig)) 0
      ∗ semVal ((c : Thread nD τ), (SemLoc.dma 8 : SemLoc sig)) 0
      ∗ semVal ((c : Thread nD τ), (SemLoc.dma 9 : SemLoc sig)) 0
      ∗ semVal ((c : Thread nD τ), (SemLoc.dma 10 : SemLoc sig)) 0
      ∗ semVal ((c : Thread nD τ), (SemLoc.dma 11 : SemLoc sig)) 0
      ∗ semVal ((c : Thread nD τ), (SemLoc.dma 12 : SemLoc sig)) 0
      ∗ semVal ((c : Thread nD τ), (SemLoc.dma 13 : SemLoc sig)) 0
      ∗ semVal ((c : Thread nD τ), (SemLoc.dma 14 : SemLoc sig)) 0
      ∗ semVal ((c : Thread nD τ), (SemLoc.dma 15 : SemLoc sig)) 0
      ∗ semVal ((c : Thread nD τ), (SemLoc.dma 16 : SemLoc sig)) 0
      ∗ semVal ((c : Thread nD τ), (SemLoc.dma 17 : SemLoc sig)) 0
      ∗ semVal ((c : Thread nD τ), (SemLoc.dma 18 : SemLoc sig)) 0
      ∗ semVal ((c : Thread nD τ), (SemLoc.dma 19 : SemLoc sig)) 0
      ∗ semVal ((c : Thread nD τ), (SemLoc.dma 20 : SemLoc sig)) 0
      ∗ semVal ((c : Thread nD τ), (SemLoc.dma 21 : SemLoc sig)) 0
      ∗ semVal ((c : Thread nD τ), (SemLoc.dma 22 : SemLoc sig)) 0
      ∗ semVal ((c : Thread nD τ), (SemLoc.dma 23 : SemLoc sig)) 0
      ∗ semVal ((c : Thread nD τ), (SemLoc.dma 24 : SemLoc sig)) 0
      ∗ semVal ((c : Thread nD τ), (SemLoc.dma 25 : SemLoc sig)) 0
      ∗ semVal ((c : Thread nD τ), (SemLoc.dma 26 : SemLoc sig)) 0
      ∗ semVal ((c : Thread nD τ), (SemLoc.dma 27 : SemLoc sig)) 0
      ∗ semVal ((c : Thread nD τ), (SemLoc.dma 28 : SemLoc sig)) 0
      ∗ semVal ((c : Thread nD τ), (SemLoc.dma 29 : SemLoc sig)) 0
      ∗ semVal ((c : Thread nD τ), (SemLoc.dma 30 : SemLoc sig)) 0
      ∗ semVal ((c : Thread nD τ), (SemLoc.dma 31 : SemLoc sig)) 0
      ∗ semVal ((c : Thread nD τ), (SemLoc.dma 32 : SemLoc sig)) 0
      ∗ semVal ((c : Thread nD τ), (SemLoc.dma 33 : SemLoc sig)) 0)

/-- The grid point as a block number. -/
abbrev blk0 (i : grid0.Coords) : Fin 128 := ⟨(i 0).val, (i 0).isLt⟩

end Cert.Kernel.Hand

end
-- ==== Proof.K.Rows0.lean ====
/-
  The 32 rows a trip of the first region's loop fills, as one family: transfer `s` of trip `k` goes to row
  `32 k + s` of the scratch.
-/
import proofs.«423058_j50337016709696_1_alg».proof.Proof.K.Base

noncomputable section

namespace Cert.Kernel.Hand

open Cert.Kernel Cert.Kernel.Gen
open Idealize.ShloMosaic

/-- The offsets the kernel computes for transfer `s`'s destination row at trip `k`. -/
def dstOff0 (k : Fin k0_t1_loop.trips) : Fin 32 → Fin 2 → ℕ
  | ⟨0, _⟩ => k0_off2 k
  | ⟨1, _⟩ => k0_off5 k
  | ⟨2, _⟩ => k0_off8 k
  | ⟨3, _⟩ => k0_off11 k
  | ⟨4, _⟩ => k0_off14 k
  | ⟨5, _⟩ => k0_off17 k
  | ⟨6, _⟩ => k0_off20 k
  | ⟨7, _⟩ => k0_off23 k
  | ⟨8, _⟩ => k0_off26 k
  | ⟨9, _⟩ => k0_off29 k
  | ⟨10, _⟩ => k0_off32 k
  | ⟨11, _⟩ => k0_off35 k
  | ⟨12, _⟩ => k0_off38 k
  | ⟨13, _⟩ => k0_off41 k
  | ⟨14, _⟩ => k0_off44 k
  | ⟨15, _⟩ => k0_off47 k
  | ⟨16, _⟩ => k0_off50 k
  | ⟨17, _⟩ => k0_off53 k
  | ⟨18, _⟩ => k0_off56 k
  | ⟨19, _⟩ => k0_off59 k
  | ⟨20, _⟩ => k0_off62 k
  | ⟨21, _⟩ => k0_off65 k
  | ⟨22, _⟩ => k0_off68 k
  | ⟨23, _⟩ => k0_off71 k
  | ⟨24, _⟩ => k0_off74 k
  | ⟨25, _⟩ => k0_off77 k
  | ⟨26, _⟩ => k0_off80 k
  | ⟨27, _⟩ => k0_off83 k
  | ⟨28, _⟩ => k0_off86 k
  | ⟨29, _⟩ => k0_off89 k
  | ⟨30, _⟩ => k0_off92 k
  | ⟨31, _⟩ => k0_off95 k
  | ⟨_ + 32, h⟩ => absurd h (Nat.not_lt.2 (Nat.le_add_left _ _))

/-- Each row lies inside the block. -/
theorem dstOff0_inb (k : Fin k0_t1_loop.trips) : ∀ (s : Fin 32) (a : Fin 2), dstOff0 k s a + S1x32.size a ≤ S1024x32.size a
  | ⟨0, _⟩ => k0_off2_inb k
  | ⟨1, _⟩ => k0_off5_inb k
  | ⟨2, _⟩ => k0_off8_inb k
  | ⟨3, _⟩ => k0_off11_inb k
  | ⟨4, _⟩ => k0_off14_inb k
  | ⟨5, _⟩ => k0_off17_inb k
  | ⟨6, _⟩ => k0_off20_inb k
  | ⟨7, _⟩ => k0_off23_inb k
  | ⟨8, _⟩ => k0_off26_inb k
  | ⟨9, _⟩ => k0_off29_inb k
  | ⟨10, _⟩ => k0_off32_inb k
  | ⟨11, _⟩ => k0_off35_inb k
  | ⟨12, _⟩ => k0_off38_inb k
  | ⟨13, _⟩ => k0_off41_inb k
  | ⟨14, _⟩ => k0_off44_inb k
  | ⟨15, _⟩ => k0_off47_inb k
  | ⟨16, _⟩ => k0_off50_inb k
  | ⟨17, _⟩ => k0_off53_inb k
  | ⟨18, _⟩ => k0_off56_inb k
  | ⟨19, _⟩ => k0_off59_inb k
  | ⟨20, _⟩ => k0_off62_inb k
  | ⟨21, _⟩ => k0_off65_inb k
  | ⟨22, _⟩ => k0_off68_inb k
  | ⟨23, _⟩ => k0_off71_inb k
  | ⟨24, _⟩ => k0_off74_inb k
  | ⟨25, _⟩ => k0_off77_inb k
  | ⟨26, _⟩ => k0_off80_inb k
  | ⟨27, _⟩ => k0_off83_inb k
  | ⟨28, _⟩ => k0_off86_inb k
  | ⟨29, _⟩ => k0_off89_inb k
  | ⟨30, _⟩ => k0_off92_inb k
  | ⟨31, _⟩ => k0_off95_inb k
  | ⟨_ + 32, h⟩ => absurd h (Nat.not_lt.2 (Nat.le_add_left _ _))

/-- The loop runs 32 trips. -/
theorem trips0 : k0_t1_loop.trips = 32 := by decide

/-- Transfer s of trip k fills row 32 k + s. -/
def dstRow0 (k : Fin k0_t1_loop.trips) (s : Fin 32) : Fin 1024 :=
  ⟨32 * k.val + s.val, by have hk : k.val < 32 := Nat.lt_of_lt_of_eq k.isLt trips0; have := s.isLt; omega⟩

/-- In closed form the offsets of transfer `s` are row `32 k + s`, lane 0. -/
theorem dstOff0_eq (k : Fin k0_t1_loop.trips) : ∀ s : Fin 32, dstOff0 k s = ![(dstRow0 k s).val, 0]
  | ⟨0, _⟩ => k0_off2_eq k
  | ⟨1, _⟩ => k0_off5_eq k
  | ⟨2, _⟩ => k0_off8_eq k
  | ⟨3, _⟩ => k0_off11_eq k
  | ⟨4, _⟩ => k0_off14_eq k
  | ⟨5, _⟩ => k0_off17_eq k
  | ⟨6, _⟩ => k0_off20_eq k
  | ⟨7, _⟩ => k0_off23_eq k
  | ⟨8, _⟩ => k0_off26_eq k
  | ⟨9, _⟩ => k0_off29_eq k
  | ⟨10, _⟩ => k0_off32_eq k
  | ⟨11, _⟩ => k0_off35_eq k
  | ⟨12, _⟩ => k0_off38_eq k
  | ⟨13, _⟩ => k0_off41_eq k
  | ⟨14, _⟩ => k0_off44_eq k
  | ⟨15, _⟩ => k0_off47_eq k
  | ⟨16, _⟩ => k0_off50_eq k
  | ⟨17, _⟩ => k0_off53_eq k
  | ⟨18, _⟩ => k0_off56_eq k
  | ⟨19, _⟩ => k0_off59_eq k
  | ⟨20, _⟩ => k0_off62_eq k
  | ⟨21, _⟩ => k0_off65_eq k
  | ⟨22, _⟩ => k0_off68_eq k
  | ⟨23, _⟩ => k0_off71_eq k
  | ⟨24, _⟩ => k0_off74_eq k
  | ⟨25, _⟩ => k0_off77_eq k
  | ⟨26, _⟩ => k0_off80_eq k
  | ⟨27, _⟩ => k0_off83_eq k
  | ⟨28, _⟩ => k0_off86_eq k
  | ⟨29, _⟩ => k0_off89_eq k
  | ⟨30, _⟩ => k0_off92_eq k
  | ⟨31, _⟩ => k0_off95_eq k
  | ⟨_ + 32, h⟩ => absurd h (Nat.not_lt.2 (Nat.le_add_left _ _))

/-- Different transfers of a trip fill different rows. -/
theorem dstRow0_inj (k : Fin k0_t1_loop.trips) : Function.Injective (dstRow0 k) := by
  intro s s' h
  have h' : 32 * k.val + s.val = 32 * k.val + s'.val := congrArg Fin.val h
  exact Fin.ext (by omega)

end Cert.Kernel.Hand

end
-- ==== Proof.K.RowWrites.lean ====
/-
  A transfer into one row of a block overwrites that row and nothing else.  Read back as a function of
  (row, lane), the block after a write of the 32 words `p` through the one-row window at row `ρ` is `p` on
  row `ρ` and what it was on every other row.  Then the same for several such writes one after another into
  rows that are all different: a row some write went to holds that write's words, any other row is as before.
-/
import proofs.«423058_j50337016709696_1_alg».proof.Proof.K.Base
import Idealize.ShloMosaic.Lib.ValueIdx
import Idealize.ShloMosaic.Lib.Writes
import Idealize.ShloMosaic.Signature.View
import Idealize.ShloMosaic.Signature.Memref
import Idealize.ShloMosaic.Shape

set_option maxRecDepth 16384

noncomputable section

namespace Cert.Kernel.Hand

open Cert.Kernel Cert.Kernel.Gen
open Idealize.ShloMosaic

variable {F : FTy → Type} [FloatOps F]

/-- The one-row window at offsets `off` of a block of 1024 rows of 32 lanes, as the kernels name it: the slice of
    one row, its leading axis of size one dropped. -/
abbrev rowWin (sc : Memref sig .tc .vmem S1024x32 .f32) (off : Fin 2 → ℕ) (h : ∀ a, off a + S1x32.size a ≤ S1024x32.size a) :
    Memref sig .tc .vmem S32 .f32 :=
  (sc.slice (Rect.unit (s := S1024x32) off S1x32.size h) (fun _ => rfl)).squeeze S32 squeezes_S1x32_S32

/-- ONE write: the block read back after the words `p` are written through the window at row `ρ`. -/
theorem read_write_row (sc : Memref sig .tc .vmem S1024x32 .f32) (hsc : sc.IsWhole)
    (off : Fin 2 → ℕ) (ρ : Fin 1024) (hoff : off = ![ρ.val, 0]) (h : ∀ a, off a + S1x32.size a ≤ S1024x32.size a)
    (f : sc.view.ty.Contents (Elt F)) (p : S32.Idx → Elt F .f32) :
    sc.view.read (Elt F) (View.write (Elt F) (rowWin sc off h).view f p Finset.univ)
      = fun y => if (y 0).val = ρ.val then p (ValueIdx.ix1 (y 1)) else sc.view.read (Elt F) f y := by
  subst hoff
  funext y
  -- the window is the one-row rectangle of the block, re-indexed by its lane alone
  show sc.view.read (Elt F) (View.write (Elt F)
      ((sc.view.slice (Rect.unit (s := S1024x32) ![ρ.val, 0] S1x32.size h)).reshape S32 squeezes_S1x32_S32.numel_eq) f p Finset.univ) y = _
  rw [View.write_reshape_univ]
  by_cases hy : (y 0).val = ρ.val
  · -- on row `ρ`: the index is the rectangle's own index (0, lane) placed in the block
    rw [if_pos hy]
    have hx : (Rect.unit (s := S1024x32) ![ρ.val, 0] S1x32.size h).emb
        (Fin.cons (⟨0, Nat.one_pos⟩ : Fin 1) (ValueIdx.ix1 (y 1) : S32.Idx)) = y :=
      funext fun a => Fin.ext (by
        match a with
        | ⟨0, _⟩ => show ρ.val + 1 * 0 = (y 0).val; omega
        | ⟨1, _⟩ => show 0 + 1 * (y 1).val = (y 1).val; omega)
    have hw := View.read_slice_write_emb (v := sc.view) (Rect.unit (s := S1024x32) ![ρ.val, 0] S1x32.size h) f
      (fun x => p ((Shape.reshapeEquiv squeezes_S1x32_S32.numel_eq).symm x))
      (Finset.mem_univ (Fin.cons (⟨0, Nat.one_pos⟩ : Fin 1) (ValueIdx.ix1 (y 1) : S32.Idx)))
    rw [hx] at hw
    rw [hw]
    congr 1
    rw [Equiv.symm_apply_eq]
    exact (Shape.reshapeEquiv_cons_one _ _).symm
  · -- off row `ρ`: the index is outside the rectangle, on the row axis
    rw [if_neg hy]
    refine View.read_slice_write_of_not_mem _ _ _ _ ?_
    rw [Rect.map_emb_univ, Rect.mem_set_unit]
    intro hall
    have h0 := hall (0 : Fin 2)
    have e0 : (![ρ.val, 0] : Fin 2 → ℕ) (0 : Fin 2) = ρ.val := rfl
    have e1 : S1x32.size (0 : Fin 2) = 1 := rfl
    rw [e0, e1] at h0
    omega

/-- SEVERAL writes one after another, write `s` through the window at row `ρ s`, the rows all different: the block
    after the first `m` of them. -/
def writeRows (sc : Memref sig .tc .vmem S1024x32 .f32) {n : ℕ} (off : Fin n → Fin 2 → ℕ)
    (h : ∀ s a, off s a + S1x32.size a ≤ S1024x32.size a) (p : Fin n → S32.Idx → Elt F .f32)
    (f : sc.view.ty.Contents (Elt F)) : (m : ℕ) → m ≤ n → sc.view.ty.Contents (Elt F)
  | 0, _ => f
  | m + 1, hm => View.write (Elt F) (rowWin sc (off ⟨m, hm⟩) (h ⟨m, hm⟩)).view (writeRows sc off h p f m (Nat.le_of_succ_le hm)) (p ⟨m, hm⟩) Finset.univ

/-- The rows being all different, the write that went to a given row is determined by the row. -/
theorem choose_row_eq {n : ℕ} (ρ : Fin n → Fin 1024) (hρ : Function.Injective ρ) {m r : ℕ}
    (hy : ∃ s : Fin n, s.val < m ∧ (ρ s).val = r) (s₀ : Fin n) (h₀ : (ρ s₀).val = r) : hy.choose = s₀ :=
  hρ (Fin.ext (hy.choose_spec.2.trans h₀.symm))

/-- Read back: a row that one of the first `m` writes went to holds that write's words; every other row is as before. -/
theorem read_writeRows (sc : Memref sig .tc .vmem S1024x32 .f32) (hsc : sc.IsWhole) {n : ℕ} (off : Fin n → Fin 2 → ℕ)
    (ρ : Fin n → Fin 1024) (hoff : ∀ s, off s = ![(ρ s).val, 0]) (hρ : Function.Injective ρ)
    (h : ∀ s a, off s a + S1x32.size a ≤ S1024x32.size a) (p : Fin n → S32.Idx → Elt F .f32)
    (f : sc.view.ty.Contents (Elt F)) (m : ℕ) (hm : m ≤ n) (y : S1024x32.Idx) :
    sc.view.read (Elt F) (writeRows sc off h p f m hm) y
      = if hy : ∃ s : Fin n, s.val < m ∧ (ρ s).val = (y 0).val then p hy.choose (ValueIdx.ix1 (y 1))
        else sc.view.read (Elt F) f y := by
  induction m with
  | zero =>
    -- no write yet: the block is as it was
    rw [dif_neg (fun ⟨_, hs, _⟩ => Nat.not_lt_zero _ hs)]
    rfl
  | succ m ih =>
    have hm' : m ≤ n := Nat.le_of_succ_le hm
    -- the newest write is one write through the window at row `ρ m`, over the first `m`
    show sc.view.read (Elt F) (View.write (Elt F) (rowWin sc (off ⟨m, hm⟩) (h ⟨m, hm⟩)).view
        (writeRows sc off h p f m hm') (p ⟨m, hm⟩) Finset.univ) y = _
    rw [read_write_row sc hsc (off ⟨m, hm⟩) (ρ ⟨m, hm⟩) (hoff ⟨m, hm⟩) (h ⟨m, hm⟩)]
    show (if (y 0).val = (ρ ⟨m, hm⟩).val then p ⟨m, hm⟩ (ValueIdx.ix1 (y 1))
        else sc.view.read (Elt F) (writeRows sc off h p f m hm') y) = _
    by_cases hr : (y 0).val = (ρ ⟨m, hm⟩).val
    · -- its own row: it is the write that went there
      have hy : ∃ s : Fin n, s.val < m + 1 ∧ (ρ s).val = (y 0).val := ⟨⟨m, hm⟩, Nat.lt_succ_self m, hr.symm⟩
      rw [if_pos hr, dif_pos hy, choose_row_eq ρ hρ hy ⟨m, hm⟩ hr.symm]
    · -- another row: as the first `m` writes left it, and the newest write is not among those that went there
      rw [if_neg hr, ih hm']
      by_cases hy : ∃ s : Fin n, s.val < m ∧ (ρ s).val = (y 0).val
      · obtain ⟨s, hs, hs'⟩ := id hy
        have hy1 : ∃ s : Fin n, s.val < m + 1 ∧ (ρ s).val = (y 0).val := ⟨s, Nat.lt_succ_of_lt hs, hs'⟩
        rw [dif_pos hy, dif_pos hy1, choose_row_eq ρ hρ hy s hs', choose_row_eq ρ hρ hy1 s hs']
      · have hy1 : ¬ ∃ s : Fin n, s.val < m + 1 ∧ (ρ s).val = (y 0).val := by
          rintro ⟨s, hs, hs'⟩
          rcases Nat.lt_succ_iff_lt_or_eq.mp hs with hlt | heq
          · exact hy ⟨s, hlt, hs'⟩
          · have es : s = ⟨m, hm⟩ := Fin.ext heq
            rw [es] at hs'
            exact hr hs'.symm
        rw [dif_neg hy, dif_neg hy1]

/-! ## Consequences at one row -/

section Corollaries

variable (sc : Memref sig .tc .vmem S1024x32 .f32) (hsc : sc.IsWhole) {n : ℕ} (off : Fin n → Fin 2 → ℕ)
  (ρ : Fin n → Fin 1024) (hoff : ∀ s, off s = ![(ρ s).val, 0]) (hρ : Function.Injective ρ)
  (h : ∀ s a, off s a + S1x32.size a ≤ S1024x32.size a) (p : Fin n → S32.Idx → Elt F .f32)
  (f : sc.view.ty.Contents (Elt F))

include hsc hoff hρ

/-- A row that write `s`, one of the first `m`, went to holds that write's words. -/
theorem read_writeRows_of_row (m : ℕ) (hm : m ≤ n) (s : Fin n) (hs : s.val < m) (y : S1024x32.Idx)
    (hy : (ρ s).val = (y 0).val) :
    sc.view.read (Elt F) (writeRows sc off h p f m hm) y = p s (ValueIdx.ix1 (y 1)) := by
  have he : ∃ s : Fin n, s.val < m ∧ (ρ s).val = (y 0).val := ⟨s, hs, hy⟩
  rw [read_writeRows sc hsc off ρ hoff hρ h p f m hm y, dif_pos he, choose_row_eq ρ hρ he s hy]

/-- A row that none of the first `m` writes went to is as before. -/
theorem read_writeRows_of_not_row (m : ℕ) (hm : m ≤ n) (y : S1024x32.Idx)
    (hy : ∀ s : Fin n, s.val < m → (ρ s).val ≠ (y 0).val) :
    sc.view.read (Elt F) (writeRows sc off h p f m hm) y = sc.view.read (Elt F) f y := by
  rw [read_writeRows sc hsc off ρ hoff hρ h p f m hm y, dif_neg (fun ⟨s, hs, hs'⟩ => hy s hs hs')]

/-- ROWS AGREE: once write `s` is among the writes made, the row it went to reads the same however many more are made. -/
theorem read_writeRows_agree (m m' : ℕ) (hm : m ≤ n) (hm' : m' ≤ n) (s : Fin n) (hs : s.val < m) (hs' : s.val < m')
    (y : S1024x32.Idx) (hy : (ρ s).val = (y 0).val) :
    sc.view.read (Elt F) (writeRows sc off h p f m hm) y = sc.view.read (Elt F) (writeRows sc off h p f m' hm') y := by
  rw [read_writeRows_of_row sc hsc off ρ hoff hρ h p f m hm s hs y hy,
    read_writeRows_of_row sc hsc off ρ hoff hρ h p f m' hm' s hs' y hy]

/-- The same on the buffer itself: under the window at row `ρ s` the two contents are equal element by element. -/
theorem writeRows_agree_on_row (m m' : ℕ) (hm : m ≤ n) (hm' : m' ≤ n) (s : Fin n) (hs : s.val < m) (hs' : s.val < m') :
    ∀ i ∈ (rowWin sc (off s) (h s)).view.set, writeRows sc off h p f m hm i = writeRows sc off h p f m' hm' i := by
  intro i hi
  -- an element under the window is an element of the block whose row is `ρ s`
  have hi' : i ∈ (Rect.unit (s := S1024x32) (off s) S1x32.size (h s)).set.map sc.view.emb := by
    change i ∈ ((sc.view.slice (Rect.unit (s := S1024x32) (off s) S1x32.size (h s))).reshape S32
      squeezes_S1x32_S32.numel_eq).set at hi
    rw [View.set_reshape, View.set_slice] at hi
    exact hi
  obtain ⟨y, hyR, rfl⟩ := Finset.mem_map.mp hi'
  rw [Rect.mem_set_unit] at hyR
  have h0 := hyR (0 : Fin 2)
  have e0 : off s (0 : Fin 2) = (ρ s).val := by rw [hoff s]; rfl
  have e1 : S1x32.size (0 : Fin 2) = 1 := rfl
  rw [e0, e1] at h0
  have hrow : (ρ s).val = (y 0).val := by omega
  -- there the two contents read the same, and reading is the element itself up to the type of its words
  have hr := read_writeRows_agree sc hsc off ρ hoff hρ h p f m m' hm hm' s hs hs' y hrow
  rw [View.read_apply, View.read_apply] at hr
  exact (cast_inj _).mp hr

end Corollaries

end Cert.Kernel.Hand

end
-- ==== Proof.K.ReadRow.lean ====
/-
  Reading one row of the table.  Each transfer's source is the one-row window of the table at the row its index
  word names; read through that window, the table gives exactly that row, lane by lane.  And two one-row windows
  of the scratch at different rows share no element, which is what lets 32 transfers into 32 different rows be in
  flight at once and be put back one by one.
-/
import proofs.«423058_j50337016709696_1_alg».proof.Proof.K.Base
import Idealize.ShloMosaic.Lib.ValueIdx
import Idealize.ShloMosaic.Signature.View
import Idealize.ShloMosaic.Signature.Memref
import Idealize.ShloMosaic.Signature.Eff
import Idealize.ShloMosaic.Shape
import proofs.«423058_j50337016709696_1_alg».proof.Proof.K.RowWrites

noncomputable section

namespace Cert.Kernel.Hand

open Cert.Kernel Cert.Kernel.Gen
open Idealize.ShloMosaic

variable {F : FTy → Type} [FloatOps F]

/-- The one-row window at offsets `off` of a table of 500000 rows of 32 lanes, as the kernels name it. -/
abbrev tblRowWin (tb : Memref sig .tc .hbm S500000x32 .f32) (off : Fin 2 → ℕ) (h : ∀ a, off a + S1x32.size a ≤ S500000x32.size a) :
    Memref sig .tc .hbm S32 .f32 :=
  (tb.slice (Rect.unit (s := S500000x32) off S1x32.size h) (fun _ => rfl)).squeeze S32 squeezes_S1x32_S32

/-- Read through the window at row `ρ`, the table gives its row `ρ`. -/
theorem read_tblRow (tb : Memref sig .tc .hbm S500000x32 .f32) (off : Fin 2 → ℕ) (ρ : Fin 500000) (hoff : off = ![ρ.val, 0])
    (h : ∀ a, off a + S1x32.size a ≤ S500000x32.size a) (g : tb.view.ty.Contents (Elt F)) :
    View.read (Elt F) (tblRowWin tb off h).view g = fun l => tb.view.read (Elt F) g (ValueIdx.ix2 ρ (l 0)) := by
  subst hoff
  funext l
  -- lane `l` of the window sits in the table at the rectangle's own index (0, l), placed at row `ρ`
  have he : (tblRowWin tb ![ρ.val, 0] h).view.emb l = tb.view.emb (ValueIdx.ix2 ρ (l 0)) := by
    show tb.view.emb ((Rect.unit (s := S500000x32) ![ρ.val, 0] S1x32.size h).emb
      (Shape.reshapeEquiv squeezes_S1x32_S32.numel_eq l)) = _
    congr 1
    rw [Shape.reshapeEquiv_cons_one]
    funext a
    refine Fin.ext ?_
    match a with
    | ⟨0, _⟩ => show ρ.val + 1 * 0 = ρ.val; omega
    | ⟨1, _⟩ => show 0 + 1 * (l 0).val = (l 0).val; omega
  rw [View.read_apply, View.read_apply, he]

/-- The values a transfer from that window moves, taken as they are: row `ρ` of the table. -/
theorem readAs_same_tblRow (tb : Memref sig .tc .hbm S500000x32 .f32) (off : Fin 2 → ℕ) (ρ : Fin 500000) (hoff : off = ![ρ.val, 0])
    (h : ∀ a, off a + S1x32.size a ≤ S500000x32.size a) (g : tb.view.ty.Contents (Elt F)) :
    (ReadAs.same : ReadAs (Elt F) S32 .f32 S32 .f32).apply (View.read (Elt F) (tblRowWin tb off h).view g)
      = fun l => tb.view.read (Elt F) g (ValueIdx.ix2 ρ (l 0)) := by
  rw [ReadAs.apply_same]
  exact read_tblRow tb off ρ hoff h g

/-! ## One-row windows of the scratch at different rows -/

/-- The elements under a one-row window: the block's elements in the one-row rectangle at its offsets. -/
theorem rowWin_set (sc : Memref sig .tc .vmem S1024x32 .f32) (off : Fin 2 → ℕ) (h : ∀ a, off a + S1x32.size a ≤ S1024x32.size a) :
    (rowWin sc off h).view.set = (Rect.unit (s := S1024x32) off S1x32.size h).set.map sc.view.emb := by
  show ((sc.view.slice (Rect.unit (s := S1024x32) off S1x32.size h)).reshape S32 squeezes_S1x32_S32.numel_eq).set = _
  rw [View.set_reshape, View.set_slice]

/-- Windows at different rows share no element: their rectangles are apart on the row axis. -/
theorem rowWin_disjoint (sc : Memref sig .tc .vmem S1024x32 .f32) (off off' : Fin 2 → ℕ) (ρ ρ' : Fin 1024)
    (hoff : off = ![ρ.val, 0]) (hoff' : off' = ![ρ'.val, 0]) (hne : ρ ≠ ρ')
    (h : ∀ a, off a + S1x32.size a ≤ S1024x32.size a) (h' : ∀ a, off' a + S1x32.size a ≤ S1024x32.size a) :
    Disjoint (rowWin sc off h).view.set (rowWin sc off' h').view.set := by
  subst hoff hoff'
  rw [rowWin_set, rowWin_set, Finset.disjoint_map]
  refine Rect.unit_disjoint (0 : Fin 2) ?_
  show ρ.val + 1 ≤ ρ'.val ∨ ρ'.val + 1 ≤ ρ.val
  have hv : ρ.val ≠ ρ'.val := fun e => hne (Fin.ext e)
  omega

/-- ONE STEP of a chain: a window inside `S` is inside `S` less a window at another row. -/
theorem rowWin_subset_sdiff (sc : Memref sig .tc .vmem S1024x32 .f32) (off off' : Fin 2 → ℕ) (ρ ρ' : Fin 1024)
    (hoff : off = ![ρ.val, 0]) (hoff' : off' = ![ρ'.val, 0]) (hne : ρ ≠ ρ')
    (h : ∀ a, off a + S1x32.size a ≤ S1024x32.size a) (h' : ∀ a, off' a + S1x32.size a ≤ S1024x32.size a)
    {S : Finset sc.view.ty.Idx} (hS : (rowWin sc off h).view.set ⊆ S) :
    (rowWin sc off h).view.set ⊆ S \ (rowWin sc off' h').view.set :=
  Finset.subset_sdiff.mpr ⟨hS, rowWin_disjoint sc off off' ρ ρ' hoff hoff' hne h h'⟩

/-- A set inside `S` and apart from every set of a list is inside `S` less them all, taken off one after another. -/
theorem subset_foldl_sdiff {α : Type} [DecidableEq α] (W : Finset α) :
    ∀ (L : List (Finset α)) (S : Finset α), W ⊆ S → (∀ V ∈ L, Disjoint W V) → W ⊆ L.foldl (· \ ·) S
  | [], _, hS, _ => hS
  | V :: L, S, hS, hL =>
    subset_foldl_sdiff W L (S \ V) (Finset.subset_sdiff.mpr ⟨hS, hL V List.mem_cons_self⟩)
      (fun V' hV' => hL V' (List.mem_cons_of_mem _ hV'))

section Chain

variable (sc : Memref sig .tc .vmem S1024x32 .f32) {n : ℕ} (off : Fin n → Fin 2 → ℕ)
  (ρ : Fin n → Fin 1024) (hoff : ∀ s, off s = ![(ρ s).val, 0]) (hρ : Function.Injective ρ)
  (h : ∀ s a, off s a + S1x32.size a ≤ S1024x32.size a)

include hoff hρ

/-- A CHAIN: of several windows at rows all different, window `r` inside `S` is inside `S` less the windows `ks`, taken off
    one after another, when `r` is none of them. -/
theorem rowWin_subset_sdiff_list (r : Fin n) (ks : List (Fin n)) (hks : ∀ k ∈ ks, k ≠ r)
    {S : Finset sc.view.ty.Idx} (hS : (rowWin sc (off r) (h r)).view.set ⊆ S) :
    (rowWin sc (off r) (h r)).view.set
      ⊆ (ks.map fun k => ((rowWin sc (off k) (h k)).view.set : Finset sc.view.ty.Idx)).foldl (· \ ·) S := by
  refine subset_foldl_sdiff _ _ S hS ?_
  intro V hV
  obtain ⟨k, hk, rfl⟩ := List.mem_map.mp hV
  exact rowWin_disjoint sc (off r) (off k) (ρ r) (ρ k) (hoff r) (hoff k)
    (fun e => hks k hk (hρ e).symm) (h r) (h k)

/-- The same from every element of the block. -/
theorem rowWin_subset_univ_sdiff_list (r : Fin n) (ks : List (Fin n)) (hks : ∀ k ∈ ks, k ≠ r) :
    (rowWin sc (off r) (h r)).view.set
      ⊆ (ks.map fun k => ((rowWin sc (off k) (h k)).view.set : Finset sc.view.ty.Idx)).foldl (· \ ·) Finset.univ :=
  rowWin_subset_sdiff_list sc off ρ hoff hρ h r ks hks (Finset.subset_univ _)

end Chain

end Cert.Kernel.Hand

end
-- ==== Proof.K.Rejoin.lean ====
/-
  The scratch put back together after a trip.  A trip's 32 transfers each fill one row; when they have all
  landed, the 16 rows filled first are held apart from the rest of the block, each at what the block held
  right after that row was filled.  Later transfers went to other rows, so on its own row each of those
  agrees with the block's final contents, and the 16 rows and the rest are the whole block at those contents.
-/
import proofs.«423058_j50337016709696_1_alg».proof.Proof.K.ReadRow

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- ONE row brought to the final contents: on the row of write `s`, the block after `m` writes (`s < m`) and the block
    after all 32 agree, so the row held at the former is held at the latter. -/
theorem window_final (c : Dev nD) (sc : Memref sig .tc .vmem S1024x32 .f32) (hsc : sc.IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32) (f : sc.view.ty.Contents (Elt F))
    (s : Fin 32) (m : ℕ) (hm : m ≤ 32) (hs : s.val < m) :
    (sc.view.loc (c : Thread nD τ) ↦[(rowWin sc (off s) (h s)).view.set]{fullShare} writeRows sc off h p f m hm : sProp (𝕄K F))
      = (sc.view.loc (c : Thread nD τ) ↦[(rowWin sc (off s) (h s)).view.set]{fullShare} writeRows sc off h p f 32 (le_refl _)) :=
  pointsTo_congr (writeRows_agree_on_row sc hsc off ρ hoff hρ h p f m 32 hm (le_refl _) s hs s.isLt)

/-- The same as an entailment: the row held at the earlier contents is held at the final ones. -/
theorem window_final_le (c : Dev nD) (sc : Memref sig .tc .vmem S1024x32 .f32) (hsc : sc.IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32) (f : sc.view.ty.Contents (Elt F))
    (s : Fin 32) (m : ℕ) (hm : m ≤ 32) (hs : s.val < m) :
    (sc.view.loc (c : Thread nD τ) ↦[(rowWin sc (off s) (h s)).view.set]{fullShare} writeRows sc off h p f m hm : sProp (𝕄K F))
      ⊢ (sc.view.loc (c : Thread nD τ) ↦[(rowWin sc (off s) (h s)).view.set]{fullShare} writeRows sc off h p f 32 (le_refl _)) := by
  rw [window_final c sc hsc off ρ hoff hρ h p f s m hm hs]

-- sixteen rows are put back one after another, each into a set written as up to fifteen nested differences
set_option maxHeartbeats 4000000 in
/-- The rest of the block at its final contents and the 16 rows filled first, each at what the block held then, are
    the whole block at its final contents. -/
theorem rejoin16 (c : Dev nD) (sc : Memref sig .tc .vmem S1024x32 .f32) (hsc : sc.IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32) (f : sc.view.ty.Contents (Elt F)) :
    (iprop((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega))) : sProp (𝕄K F))
      ⊢ sc.view.loc (c : Thread nD τ) ↦{fullShare} writeRows sc off h p f 32 (le_refl _) := by
  have hI0 : (rowWin sc (off 0) (h 0)).view.set ⊆ Finset.univ :=
    rowWin_subset_univ_sdiff_list sc off ρ hoff hρ h 0 [] (by decide)
  have hI1 : (rowWin sc (off 1) (h 1)).view.set ⊆ (Finset.univ \ (rowWin sc (off 0) (h 0)).view.set) :=
    rowWin_subset_univ_sdiff_list sc off ρ hoff hρ h 1 [0] (by decide)
  have hI2 : (rowWin sc (off 2) (h 2)).view.set ⊆ ((Finset.univ \ (rowWin sc (off 0) (h 0)).view.set) \ (rowWin sc (off 1) (h 1)).view.set) :=
    rowWin_subset_univ_sdiff_list sc off ρ hoff hρ h 2 [0, 1] (by decide)
  have hI3 : (rowWin sc (off 3) (h 3)).view.set ⊆ (((Finset.univ \ (rowWin sc (off 0) (h 0)).view.set) \ (rowWin sc (off 1) (h 1)).view.set) \ (rowWin sc (off 2) (h 2)).view.set) :=
    rowWin_subset_univ_sdiff_list sc off ρ hoff hρ h 3 [0, 1, 2] (by decide)
  have hI4 : (rowWin sc (off 4) (h 4)).view.set ⊆ ((((Finset.univ \ (rowWin sc (off 0) (h 0)).view.set) \ (rowWin sc (off 1) (h 1)).view.set) \ (rowWin sc (off 2) (h 2)).view.set) \ (rowWin sc (off 3) (h 3)).view.set) :=
    rowWin_subset_univ_sdiff_list sc off ρ hoff hρ h 4 [0, 1, 2, 3] (by decide)
  have hI5 : (rowWin sc (off 5) (h 5)).view.set ⊆ (((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) :=
    rowWin_subset_univ_sdiff_list sc off ρ hoff hρ h 5 [0, 1, 2, 3, 4] (by decide)
  have hI6 : (rowWin sc (off 6) (h 6)).view.set ⊆ ((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) :=
    rowWin_subset_univ_sdiff_list sc off ρ hoff hρ h 6 [0, 1, 2, 3, 4, 5] (by decide)
  have hI7 : (rowWin sc (off 7) (h 7)).view.set ⊆ (((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) :=
    rowWin_subset_univ_sdiff_list sc off ρ hoff hρ h 7 [0, 1, 2, 3, 4, 5, 6] (by decide)
  have hI8 : (rowWin sc (off 8) (h 8)).view.set ⊆ ((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) :=
    rowWin_subset_univ_sdiff_list sc off ρ hoff hρ h 8 [0, 1, 2, 3, 4, 5, 6, 7] (by decide)
  have hI9 : (rowWin sc (off 9) (h 9)).view.set ⊆ (((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) :=
    rowWin_subset_univ_sdiff_list sc off ρ hoff hρ h 9 [0, 1, 2, 3, 4, 5, 6, 7, 8] (by decide)
  have hI10 : (rowWin sc (off 10) (h 10)).view.set ⊆ ((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) :=
    rowWin_subset_univ_sdiff_list sc off ρ hoff hρ h 10 [0, 1, 2, 3, 4, 5, 6, 7, 8, 9] (by decide)
  have hI11 : (rowWin sc (off 11) (h 11)).view.set ⊆ (((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) :=
    rowWin_subset_univ_sdiff_list sc off ρ hoff hρ h 11 [0, 1, 2, 3, 4, 5, 6, 7, 8, 9, 10] (by decide)
  have hI12 : (rowWin sc (off 12) (h 12)).view.set ⊆ ((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) :=
    rowWin_subset_univ_sdiff_list sc off ρ hoff hρ h 12 [0, 1, 2, 3, 4, 5, 6, 7, 8, 9, 10, 11] (by decide)
  have hI13 : (rowWin sc (off 13) (h 13)).view.set ⊆ (((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) :=
    rowWin_subset_univ_sdiff_list sc off ρ hoff hρ h 13 [0, 1, 2, 3, 4, 5, 6, 7, 8, 9, 10, 11, 12] (by decide)
  have hI14 : (rowWin sc (off 14) (h 14)).view.set ⊆ ((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) :=
    rowWin_subset_univ_sdiff_list sc off ρ hoff hρ h 14 [0, 1, 2, 3, 4, 5, 6, 7, 8, 9, 10, 11, 12, 13] (by decide)
  have hI15 : (rowWin sc (off 15) (h 15)).view.set ⊆ (((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) :=
    rowWin_subset_univ_sdiff_list sc off ρ hoff hρ h 15 [0, 1, 2, 3, 4, 5, 6, 7, 8, 9, 10, 11, 12, 13, 14] (by decide)
  iintro ⟨Hs, Hw0, Hw1, Hw2, Hw3, Hw4, Hw5, Hw6, Hw7, Hw8, Hw9, Hw10, Hw11, Hw12, Hw13, Hw14, Hw15⟩
  ihave Hw0 := (window_final_le c sc hsc off ρ hoff hρ h p f 0 1 _ (by decide)) $$ Hw0
  ihave Hw1 := (window_final_le c sc hsc off ρ hoff hρ h p f 1 2 _ (by decide)) $$ Hw1
  ihave Hw2 := (window_final_le c sc hsc off ρ hoff hρ h p f 2 3 _ (by decide)) $$ Hw2
  ihave Hw3 := (window_final_le c sc hsc off ρ hoff hρ h p f 3 4 _ (by decide)) $$ Hw3
  ihave Hw4 := (window_final_le c sc hsc off ρ hoff hρ h p f 4 5 _ (by decide)) $$ Hw4
  ihave Hw5 := (window_final_le c sc hsc off ρ hoff hρ h p f 5 6 _ (by decide)) $$ Hw5
  ihave Hw6 := (window_final_le c sc hsc off ρ hoff hρ h p f 6 7 _ (by decide)) $$ Hw6
  ihave Hw7 := (window_final_le c sc hsc off ρ hoff hρ h p f 7 8 _ (by decide)) $$ Hw7
  ihave Hw8 := (window_final_le c sc hsc off ρ hoff hρ h p f 8 9 _ (by decide)) $$ Hw8
  ihave Hw9 := (window_final_le c sc hsc off ρ hoff hρ h p f 9 10 _ (by decide)) $$ Hw9
  ihave Hw10 := (window_final_le c sc hsc off ρ hoff hρ h p f 10 11 _ (by decide)) $$ Hw10
  ihave Hw11 := (window_final_le c sc hsc off ρ hoff hρ h p f 11 12 _ (by decide)) $$ Hw11
  ihave Hw12 := (window_final_le c sc hsc off ρ hoff hρ h p f 12 13 _ (by decide)) $$ Hw12
  ihave Hw13 := (window_final_le c sc hsc off ρ hoff hρ h p f 13 14 _ (by decide)) $$ Hw13
  ihave Hw14 := (window_final_le c sc hsc off ρ hoff hρ h p f 14 15 _ (by decide)) $$ Hw14
  ihave Hw15 := (window_final_le c sc hsc off ρ hoff hρ h p f 15 16 _ (by decide)) $$ Hw15
  ihave Hs := (pointsTo_split_subset (ℓ := sc.view.loc (c : Thread nD τ)) (q := fullShare) (f := writeRows sc off h p f 32 (le_refl _)) hI15).2 $$ [Hw15 Hs]
  · isplitl [Hw15] <;> iassumption
  ihave Hs := (pointsTo_split_subset (ℓ := sc.view.loc (c : Thread nD τ)) (q := fullShare) (f := writeRows sc off h p f 32 (le_refl _)) hI14).2 $$ [Hw14 Hs]
  · isplitl [Hw14] <;> iassumption
  ihave Hs := (pointsTo_split_subset (ℓ := sc.view.loc (c : Thread nD τ)) (q := fullShare) (f := writeRows sc off h p f 32 (le_refl _)) hI13).2 $$ [Hw13 Hs]
  · isplitl [Hw13] <;> iassumption
  ihave Hs := (pointsTo_split_subset (ℓ := sc.view.loc (c : Thread nD τ)) (q := fullShare) (f := writeRows sc off h p f 32 (le_refl _)) hI12).2 $$ [Hw12 Hs]
  · isplitl [Hw12] <;> iassumption
  ihave Hs := (pointsTo_split_subset (ℓ := sc.view.loc (c : Thread nD τ)) (q := fullShare) (f := writeRows sc off h p f 32 (le_refl _)) hI11).2 $$ [Hw11 Hs]
  · isplitl [Hw11] <;> iassumption
  ihave Hs := (pointsTo_split_subset (ℓ := sc.view.loc (c : Thread nD τ)) (q := fullShare) (f := writeRows sc off h p f 32 (le_refl _)) hI10).2 $$ [Hw10 Hs]
  · isplitl [Hw10] <;> iassumption
  ihave Hs := (pointsTo_split_subset (ℓ := sc.view.loc (c : Thread nD τ)) (q := fullShare) (f := writeRows sc off h p f 32 (le_refl _)) hI9).2 $$ [Hw9 Hs]
  · isplitl [Hw9] <;> iassumption
  ihave Hs := (pointsTo_split_subset (ℓ := sc.view.loc (c : Thread nD τ)) (q := fullShare) (f := writeRows sc off h p f 32 (le_refl _)) hI8).2 $$ [Hw8 Hs]
  · isplitl [Hw8] <;> iassumption
  ihave Hs := (pointsTo_split_subset (ℓ := sc.view.loc (c : Thread nD τ)) (q := fullShare) (f := writeRows sc off h p f 32 (le_refl _)) hI7).2 $$ [Hw7 Hs]
  · isplitl [Hw7] <;> iassumption
  ihave Hs := (pointsTo_split_subset (ℓ := sc.view.loc (c : Thread nD τ)) (q := fullShare) (f := writeRows sc off h p f 32 (le_refl _)) hI6).2 $$ [Hw6 Hs]
  · isplitl [Hw6] <;> iassumption
  ihave Hs := (pointsTo_split_subset (ℓ := sc.view.loc (c : Thread nD τ)) (q := fullShare) (f := writeRows sc off h p f 32 (le_refl _)) hI5).2 $$ [Hw5 Hs]
  · isplitl [Hw5] <;> iassumption
  ihave Hs := (pointsTo_split_subset (ℓ := sc.view.loc (c : Thread nD τ)) (q := fullShare) (f := writeRows sc off h p f 32 (le_refl _)) hI4).2 $$ [Hw4 Hs]
  · isplitl [Hw4] <;> iassumption
  ihave Hs := (pointsTo_split_subset (ℓ := sc.view.loc (c : Thread nD τ)) (q := fullShare) (f := writeRows sc off h p f 32 (le_refl _)) hI3).2 $$ [Hw3 Hs]
  · isplitl [Hw3] <;> iassumption
  ihave Hs := (pointsTo_split_subset (ℓ := sc.view.loc (c : Thread nD τ)) (q := fullShare) (f := writeRows sc off h p f 32 (le_refl _)) hI2).2 $$ [Hw2 Hs]
  · isplitl [Hw2] <;> iassumption
  ihave Hs := (pointsTo_split_subset (ℓ := sc.view.loc (c : Thread nD τ)) (q := fullShare) (f := writeRows sc off h p f 32 (le_refl _)) hI1).2 $$ [Hw1 Hs]
  · isplitl [Hw1] <;> iassumption
  ihave Hs := (pointsTo_split_subset (ℓ := sc.view.loc (c : Thread nD τ)) (q := fullShare) (f := writeRows sc off h p f 32 (le_refl _)) hI0).2 $$ [Hw0 Hs]
  · isplitl [Hw0] <;> iassumption
  iexact Hs

end Cert.Kernel.Hand

end
-- ==== Proof.K.GathStep.lean ====
/-
  One trip's effect on the scratch, as a function of (row, lane).  If the scratch reads as the block with rows
  below `32 k` filled, and 32 rows `32 k` to `32 k + 31` are then written, row `32 k + s` with the table row that the
  block's index word at that position names, it reads as the block with rows below `32 (k + 1)` filled.
-/
import proofs.«423058_j50337016709696_1_alg».proof.Proof.K.RowWrites
import proofs.«423058_j50337016709696_1_alg».proof.Proof.GatherSpec

noncomputable section

namespace Cert.Kernel.Hand

open Cert.Kernel Cert.Kernel.Gen
open Idealize.ShloMosaic

variable {F : FTy → Type} [FloatOps F]

theorem gath_step (sc : Memref sig .tc .vmem S1024x32 .f32) (hsc : sc.IsWhole)
    (X : S131072.Idx → Elt F .i32) (u : S500000x32.Idx → Elt F .f32) (i : Fin 128) (f₀ : S1024x32.Idx → Elt F .f32)
    (k : ℕ) (hk : k < 32)
    (off : Fin 32 → Fin 2 → ℕ) (ρ : Fin 32 → Fin 1024) (hoff : ∀ s, off s = ![(ρ s).val, 0]) (hρ : Function.Injective ρ)
    (hrow : ∀ s : Fin 32, (ρ s).val = 32 * k + s.val)
    (h : ∀ s a, off s a + S1x32.size a ≤ S1024x32.size a)
    (p : Fin 32 → S32.Idx → Elt F .f32)
    (hp : ∀ (s : Fin 32) (l : S32.Idx), p s l = u (ValueIdx.ix2 (Cert.Gather.srcRow X i (ρ s)) (l 0)))
    (fs : sc.view.ty.Contents (Elt F)) (hfs : sc.view.read (Elt F) fs = Cert.Gather.gath X u i f₀ k) :
    sc.view.read (Elt F) (writeRows sc off h p fs 32 (le_refl _)) = Cert.Gather.gath X u i f₀ (k + 1) := by
  funext y
  have hy0 : (y 0).val < 1024 := ValueIdx.idx2_lt0 y
  -- after the trip a row is filled if it is one of the trip's 32, else as before the trip
  show _ = (if 32 * k ≤ (y 0).val ∧ (y 0).val < 32 * k + 32 then Cert.Gather.filled X u i y
      else Cert.Gather.gath X u i f₀ k y)
  by_cases hin : 32 * k ≤ (y 0).val ∧ (y 0).val < 32 * k + 32
  · -- one of the trip's rows: write `s = row − 32 k` went there, and its words are the table row that row names
    rw [if_pos hin]
    have hs : (y 0).val - 32 * k < 32 := by omega
    have hys : (ρ ⟨(y 0).val - 32 * k, hs⟩).val = (y 0).val := by
      rw [hrow]
      show 32 * k + ((y 0).val - 32 * k) = (y 0).val
      omega
    rw [read_writeRows_of_row sc hsc off ρ hoff hρ h p fs 32 (le_refl _) ⟨(y 0).val - 32 * k, hs⟩ hs y hys, hp]
    have e : ρ ⟨(y 0).val - 32 * k, hs⟩ = y 0 := Fin.ext hys
    rw [e]
    rfl
  · -- another row: no write of the trip went there, so it is as before the trip
    rw [if_neg hin]
    rw [read_writeRows_of_not_row sc hsc off ρ hoff hρ h p fs 32 (le_refl _) y
      (fun s _ e => hin (by rw [hrow] at e; have := s.isLt; omega)), hfs]

end Cert.Kernel.Hand

end
-- ==== Proof.K.Payload.lean ====
/-
  What one transfer carries.  Transfer `s` of trip `k` at grid point `i` reads the index word at position
  `1024 i + 32 k + s` of the column, takes it as a row number of the table, and carries that row: the row
  the specification fills row `32 k + s` of block `i` from.
-/
import proofs.«423058_j50337016709696_1_alg».proof.Proof.K.ReadRow
import proofs.«423058_j50337016709696_1_alg».proof.Proof.K.Rows0
import proofs.«423058_j50337016709696_1_alg».proof.Proof.GatherSpec
import Idealize.ShloMosaic.Lib.WholeRead

noncomputable section

namespace Cert.Kernel.Hand

open Cert.Kernel Cert.Kernel.Gen
open Idealize.ShloMosaic

variable {F : FTy → Type} [FloatOps F]

/-- For any column `col` of index words and any table `tbl`: a payload that is the table read through the one-row window
    at the row a word names, the word being the column's entry at position `pos`, is the table's row `srcRow` names for block row `n`, when `pos = 1024 i + n`. -/
theorem payload_row (col : Memref sig .tc .smem S131072 .i32) (tbl : Memref sig .tc .hbm S500000x32 .f32) (h1 : col.IsWhole) (h2 : tbl.IsWhole)
    (X : S131072.Idx → Elt F .i32) (hX : ∀ j, (X j).toNat < 500000) (u : S500000x32.Idx → Elt F .f32)
    (ib : Fin 128) (n : Fin 1024)
    (woff : Fin 1 → ℕ) (hw : ∀ a, woff a + S1.size a ≤ S131072.size a) (hwoff : woff = ![1024 * ib.val + n.val])
    (hfirst : 0 < (Rect.unit (s := S131072) woff S1.size hw).toLoadRect.shape.numel)
    (w : Elt F .i32)
    (hwv : w = View.readAt (Elt F) col.view (Rect.unit (s := S131072) woff S1.size hw).toLoadRect (h1.unread X) (Shape.Idx.first hfirst))
    (soff : Fin 2 → ℕ) (hs : ∀ a, soff a + S1x32.size a ≤ S500000x32.size a) (hsoff : soff = ![w.toNat, 0])
    (p : S32.Idx → Elt F .f32)
    (hp : p = (ReadAs.same : ReadAs (Elt F) S32 .f32 S32 .f32).apply (View.read (Elt F) (tblRowWin tbl soff hs).view (h2.unread u)))
    (l : S32.Idx) :
    p l = u (ValueIdx.ix2 (Cert.Gather.srcRow X ib n) (l 0)) := by
  subst hp hwoff
  -- the word is the column's entry at position 1024 ib + n
  have hwX : w = X (ValueIdx.ix1 (⟨1024 * ib.val + n.val, by have := ib.isLt; have := n.isLt; omega⟩ : Fin 131072)) := by
    rw [hwv, h1.readAt_unread X]
    congr 1
    funext a
    match a with
    | ⟨0, _⟩ => exact Fin.ext (by simp [LoadRect.idx, Rect.toLoadRect, Rect.unit, Shape.Idx.first])
  have hlt : w.toNat < 500000 := hwX ▸ hX _
  -- so the row the transfer reads is the row srcRow names
  have hrow : (⟨w.toNat, hlt⟩ : Fin 500000) = Cert.Gather.srcRow X ib n :=
    Fin.ext (by rw [Cert.Gather.srcRow_val X ib n (hX _)]; exact congrArg BitVec.toNat hwX)
  rw [readAs_same_tblRow tbl soff ⟨w.toNat, hlt⟩ hsoff hs (h2.unread u), h2.read_unread, hrow]

end Cert.Kernel.Hand

end
-- ==== Proof.K.Words0.lean ====
/-
  The positions, in the region's column of index words, of the 32 words a trip reads: transfer `s` of trip `k`
  at grid point `i` reads the word at position `1024 i + 32 k + s`, the one for row `32 k + s` of block `i`.
-/
import proofs.«423058_j50337016709696_1_alg».proof.Proof.K.Rows0

noncomputable section

namespace Cert.Kernel.Hand

open Cert.Kernel Cert.Kernel.Gen
open Idealize.ShloMosaic

/-- The offsets the kernel computes for the position of transfer `s`'s index word. -/
def wordOff0 (i : grid0.Coords) (k : Fin k0_t1_loop.trips) : Fin 32 → Fin 1 → ℕ
  | ⟨0, _⟩ => k0_off1 i k
  | ⟨1, _⟩ => k0_off4 i k
  | ⟨2, _⟩ => k0_off7 i k
  | ⟨3, _⟩ => k0_off10 i k
  | ⟨4, _⟩ => k0_off13 i k
  | ⟨5, _⟩ => k0_off16 i k
  | ⟨6, _⟩ => k0_off19 i k
  | ⟨7, _⟩ => k0_off22 i k
  | ⟨8, _⟩ => k0_off25 i k
  | ⟨9, _⟩ => k0_off28 i k
  | ⟨10, _⟩ => k0_off31 i k
  | ⟨11, _⟩ => k0_off34 i k
  | ⟨12, _⟩ => k0_off37 i k
  | ⟨13, _⟩ => k0_off40 i k
  | ⟨14, _⟩ => k0_off43 i k
  | ⟨15, _⟩ => k0_off46 i k
  | ⟨16, _⟩ => k0_off49 i k
  | ⟨17, _⟩ => k0_off52 i k
  | ⟨18, _⟩ => k0_off55 i k
  | ⟨19, _⟩ => k0_off58 i k
  | ⟨20, _⟩ => k0_off61 i k
  | ⟨21, _⟩ => k0_off64 i k
  | ⟨22, _⟩ => k0_off67 i k
  | ⟨23, _⟩ => k0_off70 i k
  | ⟨24, _⟩ => k0_off73 i k
  | ⟨25, _⟩ => k0_off76 i k
  | ⟨26, _⟩ => k0_off79 i k
  | ⟨27, _⟩ => k0_off82 i k
  | ⟨28, _⟩ => k0_off85 i k
  | ⟨29, _⟩ => k0_off88 i k
  | ⟨30, _⟩ => k0_off91 i k
  | ⟨31, _⟩ => k0_off94 i k
  | ⟨_ + 32, h⟩ => absurd h (Nat.not_lt.2 (Nat.le_add_left _ _))

/-- Each position lies inside the column. -/
theorem wordOff0_inb (i : grid0.Coords) (k : Fin k0_t1_loop.trips) : ∀ (s : Fin 32) (a : Fin 1), wordOff0 i k s a + S1.size a ≤ S131072.size a
  | ⟨0, _⟩ => k0_off1_inb i k
  | ⟨1, _⟩ => k0_off4_inb i k
  | ⟨2, _⟩ => k0_off7_inb i k
  | ⟨3, _⟩ => k0_off10_inb i k
  | ⟨4, _⟩ => k0_off13_inb i k
  | ⟨5, _⟩ => k0_off16_inb i k
  | ⟨6, _⟩ => k0_off19_inb i k
  | ⟨7, _⟩ => k0_off22_inb i k
  | ⟨8, _⟩ => k0_off25_inb i k
  | ⟨9, _⟩ => k0_off28_inb i k
  | ⟨10, _⟩ => k0_off31_inb i k
  | ⟨11, _⟩ => k0_off34_inb i k
  | ⟨12, _⟩ => k0_off37_inb i k
  | ⟨13, _⟩ => k0_off40_inb i k
  | ⟨14, _⟩ => k0_off43_inb i k
  | ⟨15, _⟩ => k0_off46_inb i k
  | ⟨16, _⟩ => k0_off49_inb i k
  | ⟨17, _⟩ => k0_off52_inb i k
  | ⟨18, _⟩ => k0_off55_inb i k
  | ⟨19, _⟩ => k0_off58_inb i k
  | ⟨20, _⟩ => k0_off61_inb i k
  | ⟨21, _⟩ => k0_off64_inb i k
  | ⟨22, _⟩ => k0_off67_inb i k
  | ⟨23, _⟩ => k0_off70_inb i k
  | ⟨24, _⟩ => k0_off73_inb i k
  | ⟨25, _⟩ => k0_off76_inb i k
  | ⟨26, _⟩ => k0_off79_inb i k
  | ⟨27, _⟩ => k0_off82_inb i k
  | ⟨28, _⟩ => k0_off85_inb i k
  | ⟨29, _⟩ => k0_off88_inb i k
  | ⟨30, _⟩ => k0_off91_inb i k
  | ⟨31, _⟩ => k0_off94_inb i k
  | ⟨_ + 32, h⟩ => absurd h (Nat.not_lt.2 (Nat.le_add_left _ _))

/-- In closed form the position is `1024 i + 32 k + s`. -/
theorem wordOff0_eq (i : grid0.Coords) (k : Fin k0_t1_loop.trips) : ∀ s : Fin 32, wordOff0 i k s = ![1024 * (i 0).val + 32 * k.val + s.val]
  | ⟨0, _⟩ => k0_off1_eq i k
  | ⟨1, _⟩ => k0_off4_eq i k
  | ⟨2, _⟩ => k0_off7_eq i k
  | ⟨3, _⟩ => k0_off10_eq i k
  | ⟨4, _⟩ => k0_off13_eq i k
  | ⟨5, _⟩ => k0_off16_eq i k
  | ⟨6, _⟩ => k0_off19_eq i k
  | ⟨7, _⟩ => k0_off22_eq i k
  | ⟨8, _⟩ => k0_off25_eq i k
  | ⟨9, _⟩ => k0_off28_eq i k
  | ⟨10, _⟩ => k0_off31_eq i k
  | ⟨11, _⟩ => k0_off34_eq i k
  | ⟨12, _⟩ => k0_off37_eq i k
  | ⟨13, _⟩ => k0_off40_eq i k
  | ⟨14, _⟩ => k0_off43_eq i k
  | ⟨15, _⟩ => k0_off46_eq i k
  | ⟨16, _⟩ => k0_off49_eq i k
  | ⟨17, _⟩ => k0_off52_eq i k
  | ⟨18, _⟩ => k0_off55_eq i k
  | ⟨19, _⟩ => k0_off58_eq i k
  | ⟨20, _⟩ => k0_off61_eq i k
  | ⟨21, _⟩ => k0_off64_eq i k
  | ⟨22, _⟩ => k0_off67_eq i k
  | ⟨23, _⟩ => k0_off70_eq i k
  | ⟨24, _⟩ => k0_off73_eq i k
  | ⟨25, _⟩ => k0_off76_eq i k
  | ⟨26, _⟩ => k0_off79_eq i k
  | ⟨27, _⟩ => k0_off82_eq i k
  | ⟨28, _⟩ => k0_off85_eq i k
  | ⟨29, _⟩ => k0_off88_eq i k
  | ⟨30, _⟩ => k0_off91_eq i k
  | ⟨31, _⟩ => k0_off94_eq i k
  | ⟨_ + 32, h⟩ => absurd h (Nat.not_lt.2 (Nat.le_add_left _ _))

end Cert.Kernel.Hand

end
-- ==== Proof.K.Handback0.lean ====
/-
  After a trip, everything the trip borrowed is back: the column, the table's read shares, the counters at zero,
  and the scratch whole again at its final contents (its 16 rows held apart rejoined).
-/
import proofs.«423058_j50337016709696_1_alg».proof.Proof.K.Rejoin
import proofs.«423058_j50337016709696_1_alg».proof.Proof.K.Cells0

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- 80 resources are sorted into their places and 16 rows rejoined
set_option maxHeartbeats 4000000 in
theorem handback0 (c : Dev nD) (hsc : (Memref.whole cc0_scratch0).IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32)
    (f : Bf (F := F) c (Memref.whole cc0_scratch0))
    (col : Bf (F := F) c (Memref.whole main_v1)) (tb : Bf (F := F) c (Memref.whole main_v3)) (W : Waits sig Unit) :
    let sc := Memref.whole cc0_scratch0
    (iprop(pt c (Memref.whole main_v1) col
        ∗ (ptq c (Memref.whole main_v3) (Transfers.shareTokN fullShare 2) tb
        ∗ ptq c (Memref.whole main_v3) (Transfers.shareTokN fullShare 3) tb
        ∗ ptq c (Memref.whole main_v3) (Transfers.shareTokN fullShare 4) tb
        ∗ ptq c (Memref.whole main_v3) (Transfers.shareTokN fullShare 5) tb
        ∗ ptq c (Memref.whole main_v3) (Transfers.shareTokN fullShare 6) tb
        ∗ ptq c (Memref.whole main_v3) (Transfers.shareTokN fullShare 7) tb
        ∗ ptq c (Memref.whole main_v3) (Transfers.shareTokN fullShare 8) tb
        ∗ ptq c (Memref.whole main_v3) (Transfers.shareTokN fullShare 9) tb
        ∗ ptq c (Memref.whole main_v3) (Transfers.shareTokN fullShare 10) tb
        ∗ ptq c (Memref.whole main_v3) (Transfers.shareTokN fullShare 11) tb
        ∗ ptq c (Memref.whole main_v3) (Transfers.shareTokN fullShare 12) tb
        ∗ ptq c (Memref.whole main_v3) (Transfers.shareTokN fullShare 13) tb
        ∗ ptq c (Memref.whole main_v3) (Transfers.shareTokN fullShare 14) tb
        ∗ ptq c (Memref.whole main_v3) (Transfers.shareTokN fullShare 15) tb
        ∗ ptq c (Memref.whole main_v3) (Transfers.shareTokN fullShare 16) tb
        ∗ ptq c (Memref.whole main_v3) (Transfers.shareTokN fullShare 17) tb
        ∗ ptq c (Memref.whole main_v3) (Transfers.shareTokN fullShare 18) tb
        ∗ ptq c (Memref.whole main_v3) (Transfers.shareTokN fullShare 19) tb
        ∗ ptq c (Memref.whole main_v3) (Transfers.shareTokN fullShare 20) tb
        ∗ ptq c (Memref.whole main_v3) (Transfers.shareTokN fullShare 21) tb
        ∗ ptq c (Memref.whole main_v3) (Transfers.shareTokN fullShare 22) tb
        ∗ ptq c (Memref.whole main_v3) (Transfers.shareTokN fullShare 23) tb
        ∗ ptq c (Memref.whole main_v3) (Transfers.shareTokN fullShare 24) tb
        ∗ ptq c (Memref.whole main_v3) (Transfers.shareTokN fullShare 25) tb
        ∗ ptq c (Memref.whole main_v3) (Transfers.shareTokN fullShare 26) tb
        ∗ ptq c (Memref.whole main_v3) (Transfers.shareTokN fullShare 27) tb
        ∗ ptq c (Memref.whole main_v3) (Transfers.shareTokN fullShare 28) tb
        ∗ ptq c (Memref.whole main_v3) (Transfers.shareTokN fullShare 29) tb
        ∗ ptq c (Memref.whole main_v3) (Transfers.shareTokN fullShare 30) tb
        ∗ ptq c (Memref.whole main_v3) (Transfers.shareTokN fullShare 31) tb
        ∗ ptq c (Memref.whole main_v3) (Transfers.shareTokN fullShare 32) tb
        ∗ ptq c (Memref.whole main_v3) (Transfers.shareTokN fullShare 33) tb)
        ∗ ((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega)))
        ∗ (semVal ((c : Thread nD τ), (SemLoc.dma 2 : SemLoc sig)) 0
        ∗ semVal ((c : Thread nD τ), (SemLoc.dma 3 : SemLoc sig)) 0
        ∗ semVal ((c : Thread nD τ), (SemLoc.dma 4 : SemLoc sig)) 0
        ∗ semVal ((c : Thread nD τ), (SemLoc.dma 5 : SemLoc sig)) 0
        ∗ semVal ((c : Thread nD τ), (SemLoc.dma 6 : SemLoc sig)) 0
        ∗ semVal ((c : Thread nD τ), (SemLoc.dma 7 : SemLoc sig)) 0
        ∗ semVal ((c : Thread nD τ), (SemLoc.dma 8 : SemLoc sig)) 0
        ∗ semVal ((c : Thread nD τ), (SemLoc.dma 9 : SemLoc sig)) 0
        ∗ semVal ((c : Thread nD τ), (SemLoc.dma 10 : SemLoc sig)) 0
        ∗ semVal ((c : Thread nD τ), (SemLoc.dma 11 : SemLoc sig)) 0
        ∗ semVal ((c : Thread nD τ), (SemLoc.dma 12 : SemLoc sig)) 0
        ∗ semVal ((c : Thread nD τ), (SemLoc.dma 13 : SemLoc sig)) 0
        ∗ semVal ((c : Thread nD τ), (SemLoc.dma 14 : SemLoc sig)) 0
        ∗ semVal ((c : Thread nD τ), (SemLoc.dma 15 : SemLoc sig)) 0
        ∗ semVal ((c : Thread nD τ), (SemLoc.dma 16 : SemLoc sig)) 0
        ∗ semVal ((c : Thread nD τ), (SemLoc.dma 17 : SemLoc sig)) 0
        ∗ semVal ((c : Thread nD τ), (SemLoc.dma 18 : SemLoc sig)) 0
        ∗ semVal ((c : Thread nD τ), (SemLoc.dma 19 : SemLoc sig)) 0
        ∗ semVal ((c : Thread nD τ), (SemLoc.dma 20 : SemLoc sig)) 0
        ∗ semVal ((c : Thread nD τ), (SemLoc.dma 21 : SemLoc sig)) 0
        ∗ semVal ((c : Thread nD τ), (SemLoc.dma 22 : SemLoc sig)) 0
        ∗ semVal ((c : Thread nD τ), (SemLoc.dma 23 : SemLoc sig)) 0
        ∗ semVal ((c : Thread nD τ), (SemLoc.dma 24 : SemLoc sig)) 0
        ∗ semVal ((c : Thread nD τ), (SemLoc.dma 25 : SemLoc sig)) 0
        ∗ semVal ((c : Thread nD τ), (SemLoc.dma 26 : SemLoc sig)) 0
        ∗ semVal ((c : Thread nD τ), (SemLoc.dma 27 : SemLoc sig)) 0
        ∗ semVal ((c : Thread nD τ), (SemLoc.dma 28 : SemLoc sig)) 0
        ∗ semVal ((c : Thread nD τ), (SemLoc.dma 29 : SemLoc sig)) 0
        ∗ semVal ((c : Thread nD τ), (SemLoc.dma 30 : SemLoc sig)) 0
        ∗ semVal ((c : Thread nD τ), (SemLoc.dma 31 : SemLoc sig)) 0
        ∗ semVal ((c : Thread nD τ), (SemLoc.dma 32 : SemLoc sig)) 0
        ∗ semVal ((c : Thread nD τ), (SemLoc.dma 33 : SemLoc sig)) 0)
        ∗ owes (c : Thread nD τ) 0 W) : sProp (𝕄K F))
      ⊢ iprop((pt c (Memref.whole main_v1) col ∗ toks0 c tb ∗ pt c sc (writeRows sc off h p f 32 (le_refl _)) ∗ sems0 c)
          ∗ ∃ W', owes (c : Thread nD τ) 0 W') := by
  intro sc
  iintro ⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hs, Hw0, Hw1, Hw2, Hw3, Hw4, Hw5, Hw6, Hw7, Hw8, Hw9, Hw10, Hw11, Hw12, Hw13, Hw14, Hw15⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO⟩
  isplitr [HO]; swap
  · iexists _; iexact HO
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks0
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hs Hw0 Hw1 Hw2 Hw3 Hw4 Hw5 Hw6 Hw7 Hw8 Hw9 Hw10 Hw11 Hw12 Hw13 Hw14 Hw15]
  · iapply (rejoin16 c sc hsc off ρ hoff hρ h p f)
    isplitl [Hs]; · iexact Hs
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  unfold sems0
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  isplitl [Hd23]; · iexact Hd23
  isplitl [Hd24]; · iexact Hd24
  isplitl [Hd25]; · iexact Hd25
  isplitl [Hd26]; · iexact Hd26
  isplitl [Hd27]; · iexact Hd27
  isplitl [Hd28]; · iexact Hd28
  isplitl [Hd29]; · iexact Hd29
  isplitl [Hd30]; · iexact Hd30
  iexact Hd31

end Cert.Kernel.Hand

end
-- ==== Proof.K.RowWritesMore.lean ====
/-
  Two small facts used when a trip's writes are put in order: the block after one more write, and that a buffer
  held at some contents is held at any equal contents.
-/
import proofs.«423058_j50337016709696_1_alg».proof.Proof.K.RowWrites

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One more write: the block after `m + 1` of the writes is write `m` over the block after `m`. -/
theorem writeRows_succ (sc : Memref sig .tc .vmem S1024x32 .f32) {n : ℕ} (off : Fin n → Fin 2 → ℕ)
    (h : ∀ s a, off s a + S1x32.size a ≤ S1024x32.size a) (p : Fin n → S32.Idx → Elt F .f32)
    (f : sc.view.ty.Contents (Elt F)) (m : ℕ) (hm : m + 1 ≤ n) :
    writeRows sc off h p f (m + 1) hm
      = View.write (Elt F) (rowWin sc (off ⟨m, hm⟩) (h ⟨m, hm⟩)).view (writeRows sc off h p f m (Nat.le_of_succ_le hm)) (p ⟨m, hm⟩) Finset.univ := rfl

/-- Held at contents that are equal, held at either. -/
theorem pt_of_eq {ℓ : Loc nD τ sig} {S : Finset (Idx ℓ)} {q : PosShare TreeShare} {A B : Buf (Elt F) ℓ} (e : A = B) :
    (ℓ ↦[S]{q} A : sProp (𝕄K F)) ⊢ ℓ ↦[S]{q} B := e ▸ .rfl

end Cert.Kernel.Hand

end
-- ==== Proof.K.Trip0.lean ====
/-
  One trip of the first region's loop.  Before trip `k` the scratch holds the rows filled so far; the trip
  starts 32 transfers, one per row `32 k` to `32 k + 31`, each reading the table row its index word names,
  and waits for all of them; afterwards those 32 rows are filled too and nothing else has changed.
-/
import proofs.«423058_j50337016709696_1_alg».proof.Proof.K.Cells0
import proofs.«423058_j50337016709696_1_alg».proof.Proof.K.Rows0
import proofs.«423058_j50337016709696_1_alg».proof.Proof.K.Rejoin
import proofs.«423058_j50337016709696_1_alg».proof.Proof.K.GathStep
import proofs.«423058_j50337016709696_1_alg».proof.Proof.K.Payload
import proofs.«423058_j50337016709696_1_alg».proof.Proof.K.Words0
import proofs.«423058_j50337016709696_1_alg».proof.Proof.K.Handback0
import proofs.«423058_j50337016709696_1_alg».proof.Proof.K.RowWritesMore

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a trip needs and gives back, the scratch at raw contents `fs`: the column, the table held for reading, the
    scratch, the counters at zero.  (The result's staging block is not among them: a trip never touches it.) -/
abbrev Trip0 (c : Dev nD) (h1 : (Memref.whole main_v1).IsWhole)
    (h2 : (Memref.whole main_v3).IsWhole) (X : S131072.Idx → Elt F .i32) (u : S500000x32.Idx → Elt F .f32)
    (fs : Bf (F := F) c (Memref.whole cc0_scratch0)) : sProp (𝕄K F) :=
  iprop(pt c (Memref.whole main_v1) (h1.unread X) ∗ toks0 c (h2.unread u)
    ∗ pt c (Memref.whole cc0_scratch0) fs ∗ sems0 c)

-- one trip is 32 transfers started and then 32 awaited, run in one go, and 16 rows rejoined after it
set_option maxHeartbeats 40000000 in
/-- ONE trip: from the scratch reading as `Gather.gath X u i f₀ k` to the scratch reading as `Gather.gath X u i f₀ (k + 1)`,
    everything else as it was. -/
theorem trip0 (c : Dev nD) (i : grid0.Coords) (M3 : Memref sig .tc .vmem S1024x32 .f32) (h3 : M3.IsWhole)
    (h1 : (Memref.whole main_v1).IsWhole) (h2 : (Memref.whole main_v3).IsWhole) (h4 : (Memref.whole cc0_scratch0).IsWhole)
    (X : S131072.Idx → Elt F .i32) (hX : ∀ j, (X j).toNat < 500000) (u : S500000x32.Idx → Elt F .f32)
    (f₀ : S1024x32.Idx → Elt F .f32) (fs : Bf (F := F) c (Memref.whole cc0_scratch0))
    (k : Fin k0_t1_loop.trips) (hfs : (Memref.whole cc0_scratch0).view.read (Elt F) fs = Cert.Gather.gath X u (blk0 i) f₀ k.val)
    (W : Waits sig Unit) (Q : Unit → sProp (𝕄K F)) :
    iprop(Trip0 c h1 h2 X u fs ∗ owes (c : Thread nD τ) 0 W
        ∗ (iprop(∃ fs' : Bf (F := F) c (Memref.whole cc0_scratch0),
              ⌜(Memref.whole cc0_scratch0).view.read (Elt F) fs' = Cert.Gather.gath X u (blk0 i) f₀ (k.val + 1)⌝
              ∗ Trip0 c h1 h2 X u fs' ∗ (∃ W', owes (c : Thread nD τ) 0 W')) -∗ Q ()))
      ⊢ wp frame (wpE (defs₀ (F := F)) Variants.none c none) Set.univ
          (k0_t1_body i (Memref.whole main_v1) h1 (Memref.whole main_v3) h2 M3 h3 (Memref.whole cc0_scratch0) h4 cc0_scratch1
            (Scalar.muli (BitVec.ofNat 32 (i 0).val) 1024#32) k ()) Q := by
  unfold k0_t1_body
  iintro ⟨⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, Hs, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩⟩, HO, Hk⟩
  sl_exec (disch := (sl_unfold_run_names; obtain ⟨j, hj⟩ := h1.exists_readAt_unread X _ _; rw [hj]; exact row_inb _ (hX j)))
  sl_step
  -- the 32 transfers' payloads, as one family (the run's own names)
  let pay : Fin 32 → S32.Idx → Elt F .f32 := fun s => match s with
    | ⟨0, _⟩ => trip0.sl.dma1 i h1 h2 X hX u k
    | ⟨1, _⟩ => trip0.sl.dma2 i h1 h2 X hX u k
    | ⟨2, _⟩ => trip0.sl.dma3 i h1 h2 X hX u k
    | ⟨3, _⟩ => trip0.sl.dma4 i h1 h2 X hX u k
    | ⟨4, _⟩ => trip0.sl.dma5 i h1 h2 X hX u k
    | ⟨5, _⟩ => trip0.sl.dma6 i h1 h2 X hX u k
    | ⟨6, _⟩ => trip0.sl.dma7 i h1 h2 X hX u k
    | ⟨7, _⟩ => trip0.sl.dma8 i h1 h2 X hX u k
    | ⟨8, _⟩ => trip0.sl.dma9 i h1 h2 X hX u k
    | ⟨9, _⟩ => trip0.sl.dma10 i h1 h2 X hX u k
    | ⟨10, _⟩ => trip0.sl.dma11 i h1 h2 X hX u k
    | ⟨11, _⟩ => trip0.sl.dma12 i h1 h2 X hX u k
    | ⟨12, _⟩ => trip0.sl.dma13 i h1 h2 X hX u k
    | ⟨13, _⟩ => trip0.sl.dma14 i h1 h2 X hX u k
    | ⟨14, _⟩ => trip0.sl.dma15 i h1 h2 X hX u k
    | ⟨15, _⟩ => trip0.sl.dma16 i h1 h2 X hX u k
    | ⟨16, _⟩ => trip0.sl.dma17 i h1 h2 X hX u k
    | ⟨17, _⟩ => trip0.sl.dma18 i h1 h2 X hX u k
    | ⟨18, _⟩ => trip0.sl.dma19 i h1 h2 X hX u k
    | ⟨19, _⟩ => trip0.sl.dma20 i h1 h2 X hX u k
    | ⟨20, _⟩ => trip0.sl.dma21 i h1 h2 X hX u k
    | ⟨21, _⟩ => trip0.sl.dma22 i h1 h2 X hX u k
    | ⟨22, _⟩ => trip0.sl.dma23 i h1 h2 X hX u k
    | ⟨23, _⟩ => trip0.sl.dma24 i h1 h2 X hX u k
    | ⟨24, _⟩ => trip0.sl.dma25 i h1 h2 X hX u k
    | ⟨25, _⟩ => trip0.sl.dma26 i h1 h2 X hX u k
    | ⟨26, _⟩ => trip0.sl.dma27 i h1 h2 X hX u k
    | ⟨27, _⟩ => trip0.sl.dma28 i h1 h2 X hX u k
    | ⟨28, _⟩ => trip0.sl.dma29 i h1 h2 X hX u k
    | ⟨29, _⟩ => trip0.sl.dma30 i h1 h2 X hX u k
    | ⟨30, _⟩ => trip0.sl.dma31 i h1 h2 X hX u k
    | ⟨31, _⟩ => trip0.sl.dma32 i h1 h2 X hX u k
    | ⟨_ + 32, h⟩ => absurd h (Nat.not_lt.2 (Nat.le_add_left _ _))
  -- the scratch after r + 1 of the transfers have landed is the run's name for it
  have e0 : trip0.sl.Hs_w0 c i h1 h2 X hX u fs k = writeRows (Memref.whole cc0_scratch0) (dstOff0 k) (dstOff0_inb k) pay fs (0 + 1) (by omega) := by
    rw [writeRows_succ]; rfl
  have e1 : trip0.sl.Hs_w1 c i h1 h2 X hX u fs k = writeRows (Memref.whole cc0_scratch0) (dstOff0 k) (dstOff0_inb k) pay fs (1 + 1) (by omega) := by
    rw [writeRows_succ, ← e0]; rfl
  have e2 : trip0.sl.Hs_w2 c i h1 h2 X hX u fs k = writeRows (Memref.whole cc0_scratch0) (dstOff0 k) (dstOff0_inb k) pay fs (2 + 1) (by omega) := by
    rw [writeRows_succ, ← e1]; rfl
  have e3 : trip0.sl.Hs_w3 c i h1 h2 X hX u fs k = writeRows (Memref.whole cc0_scratch0) (dstOff0 k) (dstOff0_inb k) pay fs (3 + 1) (by omega) := by
    rw [writeRows_succ, ← e2]; rfl
  have e4 : trip0.sl.Hs_w4 c i h1 h2 X hX u fs k = writeRows (Memref.whole cc0_scratch0) (dstOff0 k) (dstOff0_inb k) pay fs (4 + 1) (by omega) := by
    rw [writeRows_succ, ← e3]; rfl
  have e5 : trip0.sl.Hs_w5 c i h1 h2 X hX u fs k = writeRows (Memref.whole cc0_scratch0) (dstOff0 k) (dstOff0_inb k) pay fs (5 + 1) (by omega) := by
    rw [writeRows_succ, ← e4]; rfl
  have e6 : trip0.sl.Hs_w6 c i h1 h2 X hX u fs k = writeRows (Memref.whole cc0_scratch0) (dstOff0 k) (dstOff0_inb k) pay fs (6 + 1) (by omega) := by
    rw [writeRows_succ, ← e5]; rfl
  have e7 : trip0.sl.Hs_w7 c i h1 h2 X hX u fs k = writeRows (Memref.whole cc0_scratch0) (dstOff0 k) (dstOff0_inb k) pay fs (7 + 1) (by omega) := by
    rw [writeRows_succ, ← e6]; rfl
  have e8 : trip0.sl.Hs_w8 c i h1 h2 X hX u fs k = writeRows (Memref.whole cc0_scratch0) (dstOff0 k) (dstOff0_inb k) pay fs (8 + 1) (by omega) := by
    rw [writeRows_succ, ← e7]; rfl
  have e9 : trip0.sl.Hs_w9 c i h1 h2 X hX u fs k = writeRows (Memref.whole cc0_scratch0) (dstOff0 k) (dstOff0_inb k) pay fs (9 + 1) (by omega) := by
    rw [writeRows_succ, ← e8]; rfl
  have e10 : trip0.sl.Hs_w10 c i h1 h2 X hX u fs k = writeRows (Memref.whole cc0_scratch0) (dstOff0 k) (dstOff0_inb k) pay fs (10 + 1) (by omega) := by
    rw [writeRows_succ, ← e9]; rfl
  have e11 : trip0.sl.Hs_w11 c i h1 h2 X hX u fs k = writeRows (Memref.whole cc0_scratch0) (dstOff0 k) (dstOff0_inb k) pay fs (11 + 1) (by omega) := by
    rw [writeRows_succ, ← e10]; rfl
  have e12 : trip0.sl.Hs_w12 c i h1 h2 X hX u fs k = writeRows (Memref.whole cc0_scratch0) (dstOff0 k) (dstOff0_inb k) pay fs (12 + 1) (by omega) := by
    rw [writeRows_succ, ← e11]; rfl
  have e13 : trip0.sl.Hs_w13 c i h1 h2 X hX u fs k = writeRows (Memref.whole cc0_scratch0) (dstOff0 k) (dstOff0_inb k) pay fs (13 + 1) (by omega) := by
    rw [writeRows_succ, ← e12]; rfl
  have e14 : trip0.sl.Hs_w14 c i h1 h2 X hX u fs k = writeRows (Memref.whole cc0_scratch0) (dstOff0 k) (dstOff0_inb k) pay fs (14 + 1) (by omega) := by
    rw [writeRows_succ, ← e13]; rfl
  have e15 : trip0.sl.Hs_w15 c i h1 h2 X hX u fs k = writeRows (Memref.whole cc0_scratch0) (dstOff0 k) (dstOff0_inb k) pay fs (15 + 1) (by omega) := by
    rw [writeRows_succ, ← e14]; rfl
  have e16 : trip0.sl.Hs_w16 c i h1 h2 X hX u fs k = writeRows (Memref.whole cc0_scratch0) (dstOff0 k) (dstOff0_inb k) pay fs (16 + 1) (by omega) := by
    rw [writeRows_succ, ← e15]; rfl
  have e17 : trip0.sl.Hs_w17 c i h1 h2 X hX u fs k = writeRows (Memref.whole cc0_scratch0) (dstOff0 k) (dstOff0_inb k) pay fs (17 + 1) (by omega) := by
    rw [writeRows_succ, ← e16]; rfl
  have e18 : trip0.sl.Hs_w18 c i h1 h2 X hX u fs k = writeRows (Memref.whole cc0_scratch0) (dstOff0 k) (dstOff0_inb k) pay fs (18 + 1) (by omega) := by
    rw [writeRows_succ, ← e17]; rfl
  have e19 : trip0.sl.Hs_w19 c i h1 h2 X hX u fs k = writeRows (Memref.whole cc0_scratch0) (dstOff0 k) (dstOff0_inb k) pay fs (19 + 1) (by omega) := by
    rw [writeRows_succ, ← e18]; rfl
  have e20 : trip0.sl.Hs_w20 c i h1 h2 X hX u fs k = writeRows (Memref.whole cc0_scratch0) (dstOff0 k) (dstOff0_inb k) pay fs (20 + 1) (by omega) := by
    rw [writeRows_succ, ← e19]; rfl
  have e21 : trip0.sl.Hs_w21 c i h1 h2 X hX u fs k = writeRows (Memref.whole cc0_scratch0) (dstOff0 k) (dstOff0_inb k) pay fs (21 + 1) (by omega) := by
    rw [writeRows_succ, ← e20]; rfl
  have e22 : trip0.sl.Hs_w22 c i h1 h2 X hX u fs k = writeRows (Memref.whole cc0_scratch0) (dstOff0 k) (dstOff0_inb k) pay fs (22 + 1) (by omega) := by
    rw [writeRows_succ, ← e21]; rfl
  have e23 : trip0.sl.Hs_w23 c i h1 h2 X hX u fs k = writeRows (Memref.whole cc0_scratch0) (dstOff0 k) (dstOff0_inb k) pay fs (23 + 1) (by omega) := by
    rw [writeRows_succ, ← e22]; rfl
  have e24 : trip0.sl.Hs_w24 c i h1 h2 X hX u fs k = writeRows (Memref.whole cc0_scratch0) (dstOff0 k) (dstOff0_inb k) pay fs (24 + 1) (by omega) := by
    rw [writeRows_succ, ← e23]; rfl
  have e25 : trip0.sl.Hs_w25 c i h1 h2 X hX u fs k = writeRows (Memref.whole cc0_scratch0) (dstOff0 k) (dstOff0_inb k) pay fs (25 + 1) (by omega) := by
    rw [writeRows_succ, ← e24]; rfl
  have e26 : trip0.sl.Hs_w26 c i h1 h2 X hX u fs k = writeRows (Memref.whole cc0_scratch0) (dstOff0 k) (dstOff0_inb k) pay fs (26 + 1) (by omega) := by
    rw [writeRows_succ, ← e25]; rfl
  have e27 : trip0.sl.Hs_w27 c i h1 h2 X hX u fs k = writeRows (Memref.whole cc0_scratch0) (dstOff0 k) (dstOff0_inb k) pay fs (27 + 1) (by omega) := by
    rw [writeRows_succ, ← e26]; rfl
  have e28 : trip0.sl.Hs_w28 c i h1 h2 X hX u fs k = writeRows (Memref.whole cc0_scratch0) (dstOff0 k) (dstOff0_inb k) pay fs (28 + 1) (by omega) := by
    rw [writeRows_succ, ← e27]; rfl
  have e29 : trip0.sl.Hs_w29 c i h1 h2 X hX u fs k = writeRows (Memref.whole cc0_scratch0) (dstOff0 k) (dstOff0_inb k) pay fs (29 + 1) (by omega) := by
    rw [writeRows_succ, ← e28]; rfl
  have e30 : trip0.sl.Hs_w30 c i h1 h2 X hX u fs k = writeRows (Memref.whole cc0_scratch0) (dstOff0 k) (dstOff0_inb k) pay fs (30 + 1) (by omega) := by
    rw [writeRows_succ, ← e29]; rfl
  have e31 : trip0.sl.Hs_w31 c i h1 h2 X hX u fs k = writeRows (Memref.whole cc0_scratch0) (dstOff0 k) (dstOff0_inb k) pay fs (31 + 1) (by omega) := by
    rw [writeRows_succ, ← e30]; rfl
  -- each transfer carries the table row the specification fills its row from
  have hpAll : ∀ (s : Fin 32) (l : S32.Idx), pay s l = u (ValueIdx.ix2 (Cert.Gather.srcRow X (blk0 i) (dstRow0 k s)) (l 0)) := fun s => match s with
    | ⟨0, _⟩ => fun l => payload_row (Memref.whole main_v1) (Memref.whole main_v3) h1 h2 X hX u (blk0 i) (dstRow0 k ⟨0, by decide⟩) (wordOff0 i k ⟨0, by decide⟩) (wordOff0_inb i k ⟨0, by decide⟩) (by rw [wordOff0_eq]; rfl) _ (trip0.sl.r i h1 X k) rfl (k0_off3 (trip0.sl.r i h1 X k)) _ rfl (trip0.sl.dma1 i h1 h2 X hX u k) rfl l
    | ⟨1, _⟩ => fun l => payload_row (Memref.whole main_v1) (Memref.whole main_v3) h1 h2 X hX u (blk0 i) (dstRow0 k ⟨1, by decide⟩) (wordOff0 i k ⟨1, by decide⟩) (wordOff0_inb i k ⟨1, by decide⟩) (by rw [wordOff0_eq]; rfl) _ (trip0.sl.r_1 i h1 X k) rfl (k0_off6 (trip0.sl.r_1 i h1 X k)) _ rfl (trip0.sl.dma2 i h1 h2 X hX u k) rfl l
    | ⟨2, _⟩ => fun l => payload_row (Memref.whole main_v1) (Memref.whole main_v3) h1 h2 X hX u (blk0 i) (dstRow0 k ⟨2, by decide⟩) (wordOff0 i k ⟨2, by decide⟩) (wordOff0_inb i k ⟨2, by decide⟩) (by rw [wordOff0_eq]; rfl) _ (trip0.sl.r_2 i h1 X k) rfl (k0_off9 (trip0.sl.r_2 i h1 X k)) _ rfl (trip0.sl.dma3 i h1 h2 X hX u k) rfl l
    | ⟨3, _⟩ => fun l => payload_row (Memref.whole main_v1) (Memref.whole main_v3) h1 h2 X hX u (blk0 i) (dstRow0 k ⟨3, by decide⟩) (wordOff0 i k ⟨3, by decide⟩) (wordOff0_inb i k ⟨3, by decide⟩) (by rw [wordOff0_eq]; rfl) _ (trip0.sl.r_3 i h1 X k) rfl (k0_off12 (trip0.sl.r_3 i h1 X k)) _ rfl (trip0.sl.dma4 i h1 h2 X hX u k) rfl l
    | ⟨4, _⟩ => fun l => payload_row (Memref.whole main_v1) (Memref.whole main_v3) h1 h2 X hX u (blk0 i) (dstRow0 k ⟨4, by decide⟩) (wordOff0 i k ⟨4, by decide⟩) (wordOff0_inb i k ⟨4, by decide⟩) (by rw [wordOff0_eq]; rfl) _ (trip0.sl.r_4 i h1 X k) rfl (k0_off15 (trip0.sl.r_4 i h1 X k)) _ rfl (trip0.sl.dma5 i h1 h2 X hX u k) rfl l
    | ⟨5, _⟩ => fun l => payload_row (Memref.whole main_v1) (Memref.whole main_v3) h1 h2 X hX u (blk0 i) (dstRow0 k ⟨5, by decide⟩) (wordOff0 i k ⟨5, by decide⟩) (wordOff0_inb i k ⟨5, by decide⟩) (by rw [wordOff0_eq]; rfl) _ (trip0.sl.r_5 i h1 X k) rfl (k0_off18 (trip0.sl.r_5 i h1 X k)) _ rfl (trip0.sl.dma6 i h1 h2 X hX u k) rfl l
    | ⟨6, _⟩ => fun l => payload_row (Memref.whole main_v1) (Memref.whole main_v3) h1 h2 X hX u (blk0 i) (dstRow0 k ⟨6, by decide⟩) (wordOff0 i k ⟨6, by decide⟩) (wordOff0_inb i k ⟨6, by decide⟩) (by rw [wordOff0_eq]; rfl) _ (trip0.sl.r_6 i h1 X k) rfl (k0_off21 (trip0.sl.r_6 i h1 X k)) _ rfl (trip0.sl.dma7 i h1 h2 X hX u k) rfl l
    | ⟨7, _⟩ => fun l => payload_row (Memref.whole main_v1) (Memref.whole main_v3) h1 h2 X hX u (blk0 i) (dstRow0 k ⟨7, by decide⟩) (wordOff0 i k ⟨7, by decide⟩) (wordOff0_inb i k ⟨7, by decide⟩) (by rw [wordOff0_eq]; rfl) _ (trip0.sl.r_7 i h1 X k) rfl (k0_off24 (trip0.sl.r_7 i h1 X k)) _ rfl (trip0.sl.dma8 i h1 h2 X hX u k) rfl l
    | ⟨8, _⟩ => fun l => payload_row (Memref.whole main_v1) (Memref.whole main_v3) h1 h2 X hX u (blk0 i) (dstRow0 k ⟨8, by decide⟩) (wordOff0 i k ⟨8, by decide⟩) (wordOff0_inb i k ⟨8, by decide⟩) (by rw [wordOff0_eq]; rfl) _ (trip0.sl.r_8 i h1 X k) rfl (k0_off27 (trip0.sl.r_8 i h1 X k)) _ rfl (trip0.sl.dma9 i h1 h2 X hX u k) rfl l
    | ⟨9, _⟩ => fun l => payload_row (Memref.whole main_v1) (Memref.whole main_v3) h1 h2 X hX u (blk0 i) (dstRow0 k ⟨9, by decide⟩) (wordOff0 i k ⟨9, by decide⟩) (wordOff0_inb i k ⟨9, by decide⟩) (by rw [wordOff0_eq]; rfl) _ (trip0.sl.r_9 i h1 X k) rfl (k0_off30 (trip0.sl.r_9 i h1 X k)) _ rfl (trip0.sl.dma10 i h1 h2 X hX u k) rfl l
    | ⟨10, _⟩ => fun l => payload_row (Memref.whole main_v1) (Memref.whole main_v3) h1 h2 X hX u (blk0 i) (dstRow0 k ⟨10, by decide⟩) (wordOff0 i k ⟨10, by decide⟩) (wordOff0_inb i k ⟨10, by decide⟩) (by rw [wordOff0_eq]; rfl) _ (trip0.sl.r_10 i h1 X k) rfl (k0_off33 (trip0.sl.r_10 i h1 X k)) _ rfl (trip0.sl.dma11 i h1 h2 X hX u k) rfl l
    | ⟨11, _⟩ => fun l => payload_row (Memref.whole main_v1) (Memref.whole main_v3) h1 h2 X hX u (blk0 i) (dstRow0 k ⟨11, by decide⟩) (wordOff0 i k ⟨11, by decide⟩) (wordOff0_inb i k ⟨11, by decide⟩) (by rw [wordOff0_eq]; rfl) _ (trip0.sl.r_11 i h1 X k) rfl (k0_off36 (trip0.sl.r_11 i h1 X k)) _ rfl (trip0.sl.dma12 i h1 h2 X hX u k) rfl l
    | ⟨12, _⟩ => fun l => payload_row (Memref.whole main_v1) (Memref.whole main_v3) h1 h2 X hX u (blk0 i) (dstRow0 k ⟨12, by decide⟩) (wordOff0 i k ⟨12, by decide⟩) (wordOff0_inb i k ⟨12, by decide⟩) (by rw [wordOff0_eq]; rfl) _ (trip0.sl.r_12 i h1 X k) rfl (k0_off39 (trip0.sl.r_12 i h1 X k)) _ rfl (trip0.sl.dma13 i h1 h2 X hX u k) rfl l
    | ⟨13, _⟩ => fun l => payload_row (Memref.whole main_v1) (Memref.whole main_v3) h1 h2 X hX u (blk0 i) (dstRow0 k ⟨13, by decide⟩) (wordOff0 i k ⟨13, by decide⟩) (wordOff0_inb i k ⟨13, by decide⟩) (by rw [wordOff0_eq]; rfl) _ (trip0.sl.r_13 i h1 X k) rfl (k0_off42 (trip0.sl.r_13 i h1 X k)) _ rfl (trip0.sl.dma14 i h1 h2 X hX u k) rfl l
    | ⟨14, _⟩ => fun l => payload_row (Memref.whole main_v1) (Memref.whole main_v3) h1 h2 X hX u (blk0 i) (dstRow0 k ⟨14, by decide⟩) (wordOff0 i k ⟨14, by decide⟩) (wordOff0_inb i k ⟨14, by decide⟩) (by rw [wordOff0_eq]; rfl) _ (trip0.sl.r_14 i h1 X k) rfl (k0_off45 (trip0.sl.r_14 i h1 X k)) _ rfl (trip0.sl.dma15 i h1 h2 X hX u k) rfl l
    | ⟨15, _⟩ => fun l => payload_row (Memref.whole main_v1) (Memref.whole main_v3) h1 h2 X hX u (blk0 i) (dstRow0 k ⟨15, by decide⟩) (wordOff0 i k ⟨15, by decide⟩) (wordOff0_inb i k ⟨15, by decide⟩) (by rw [wordOff0_eq]; rfl) _ (trip0.sl.r_15 i h1 X k) rfl (k0_off48 (trip0.sl.r_15 i h1 X k)) _ rfl (trip0.sl.dma16 i h1 h2 X hX u k) rfl l
    | ⟨16, _⟩ => fun l => payload_row (Memref.whole main_v1) (Memref.whole main_v3) h1 h2 X hX u (blk0 i) (dstRow0 k ⟨16, by decide⟩) (wordOff0 i k ⟨16, by decide⟩) (wordOff0_inb i k ⟨16, by decide⟩) (by rw [wordOff0_eq]; rfl) _ (trip0.sl.r_16 i h1 X k) rfl (k0_off51 (trip0.sl.r_16 i h1 X k)) _ rfl (trip0.sl.dma17 i h1 h2 X hX u k) rfl l
    | ⟨17, _⟩ => fun l => payload_row (Memref.whole main_v1) (Memref.whole main_v3) h1 h2 X hX u (blk0 i) (dstRow0 k ⟨17, by decide⟩) (wordOff0 i k ⟨17, by decide⟩) (wordOff0_inb i k ⟨17, by decide⟩) (by rw [wordOff0_eq]; rfl) _ (trip0.sl.r_17 i h1 X k) rfl (k0_off54 (trip0.sl.r_17 i h1 X k)) _ rfl (trip0.sl.dma18 i h1 h2 X hX u k) rfl l
    | ⟨18, _⟩ => fun l => payload_row (Memref.whole main_v1) (Memref.whole main_v3) h1 h2 X hX u (blk0 i) (dstRow0 k ⟨18, by decide⟩) (wordOff0 i k ⟨18, by decide⟩) (wordOff0_inb i k ⟨18, by decide⟩) (by rw [wordOff0_eq]; rfl) _ (trip0.sl.r_18 i h1 X k) rfl (k0_off57 (trip0.sl.r_18 i h1 X k)) _ rfl (trip0.sl.dma19 i h1 h2 X hX u k) rfl l
    | ⟨19, _⟩ => fun l => payload_row (Memref.whole main_v1) (Memref.whole main_v3) h1 h2 X hX u (blk0 i) (dstRow0 k ⟨19, by decide⟩) (wordOff0 i k ⟨19, by decide⟩) (wordOff0_inb i k ⟨19, by decide⟩) (by rw [wordOff0_eq]; rfl) _ (trip0.sl.r_19 i h1 X k) rfl (k0_off60 (trip0.sl.r_19 i h1 X k)) _ rfl (trip0.sl.dma20 i h1 h2 X hX u k) rfl l
    | ⟨20, _⟩ => fun l => payload_row (Memref.whole main_v1) (Memref.whole main_v3) h1 h2 X hX u (blk0 i) (dstRow0 k ⟨20, by decide⟩) (wordOff0 i k ⟨20, by decide⟩) (wordOff0_inb i k ⟨20, by decide⟩) (by rw [wordOff0_eq]; rfl) _ (trip0.sl.r_20 i h1 X k) rfl (k0_off63 (trip0.sl.r_20 i h1 X k)) _ rfl (trip0.sl.dma21 i h1 h2 X hX u k) rfl l
    | ⟨21, _⟩ => fun l => payload_row (Memref.whole main_v1) (Memref.whole main_v3) h1 h2 X hX u (blk0 i) (dstRow0 k ⟨21, by decide⟩) (wordOff0 i k ⟨21, by decide⟩) (wordOff0_inb i k ⟨21, by decide⟩) (by rw [wordOff0_eq]; rfl) _ (trip0.sl.r_21 i h1 X k) rfl (k0_off66 (trip0.sl.r_21 i h1 X k)) _ rfl (trip0.sl.dma22 i h1 h2 X hX u k) rfl l
    | ⟨22, _⟩ => fun l => payload_row (Memref.whole main_v1) (Memref.whole main_v3) h1 h2 X hX u (blk0 i) (dstRow0 k ⟨22, by decide⟩) (wordOff0 i k ⟨22, by decide⟩) (wordOff0_inb i k ⟨22, by decide⟩) (by rw [wordOff0_eq]; rfl) _ (trip0.sl.r_22 i h1 X k) rfl (k0_off69 (trip0.sl.r_22 i h1 X k)) _ rfl (trip0.sl.dma23 i h1 h2 X hX u k) rfl l
    | ⟨23, _⟩ => fun l => payload_row (Memref.whole main_v1) (Memref.whole main_v3) h1 h2 X hX u (blk0 i) (dstRow0 k ⟨23, by decide⟩) (wordOff0 i k ⟨23, by decide⟩) (wordOff0_inb i k ⟨23, by decide⟩) (by rw [wordOff0_eq]; rfl) _ (trip0.sl.r_23 i h1 X k) rfl (k0_off72 (trip0.sl.r_23 i h1 X k)) _ rfl (trip0.sl.dma24 i h1 h2 X hX u k) rfl l
    | ⟨24, _⟩ => fun l => payload_row (Memref.whole main_v1) (Memref.whole main_v3) h1 h2 X hX u (blk0 i) (dstRow0 k ⟨24, by decide⟩) (wordOff0 i k ⟨24, by decide⟩) (wordOff0_inb i k ⟨24, by decide⟩) (by rw [wordOff0_eq]; rfl) _ (trip0.sl.r_24 i h1 X k) rfl (k0_off75 (trip0.sl.r_24 i h1 X k)) _ rfl (trip0.sl.dma25 i h1 h2 X hX u k) rfl l
    | ⟨25, _⟩ => fun l => payload_row (Memref.whole main_v1) (Memref.whole main_v3) h1 h2 X hX u (blk0 i) (dstRow0 k ⟨25, by decide⟩) (wordOff0 i k ⟨25, by decide⟩) (wordOff0_inb i k ⟨25, by decide⟩) (by rw [wordOff0_eq]; rfl) _ (trip0.sl.r_25 i h1 X k) rfl (k0_off78 (trip0.sl.r_25 i h1 X k)) _ rfl (trip0.sl.dma26 i h1 h2 X hX u k) rfl l
    | ⟨26, _⟩ => fun l => payload_row (Memref.whole main_v1) (Memref.whole main_v3) h1 h2 X hX u (blk0 i) (dstRow0 k ⟨26, by decide⟩) (wordOff0 i k ⟨26, by decide⟩) (wordOff0_inb i k ⟨26, by decide⟩) (by rw [wordOff0_eq]; rfl) _ (trip0.sl.r_26 i h1 X k) rfl (k0_off81 (trip0.sl.r_26 i h1 X k)) _ rfl (trip0.sl.dma27 i h1 h2 X hX u k) rfl l
    | ⟨27, _⟩ => fun l => payload_row (Memref.whole main_v1) (Memref.whole main_v3) h1 h2 X hX u (blk0 i) (dstRow0 k ⟨27, by decide⟩) (wordOff0 i k ⟨27, by decide⟩) (wordOff0_inb i k ⟨27, by decide⟩) (by rw [wordOff0_eq]; rfl) _ (trip0.sl.r_27 i h1 X k) rfl (k0_off84 (trip0.sl.r_27 i h1 X k)) _ rfl (trip0.sl.dma28 i h1 h2 X hX u k) rfl l
    | ⟨28, _⟩ => fun l => payload_row (Memref.whole main_v1) (Memref.whole main_v3) h1 h2 X hX u (blk0 i) (dstRow0 k ⟨28, by decide⟩) (wordOff0 i k ⟨28, by decide⟩) (wordOff0_inb i k ⟨28, by decide⟩) (by rw [wordOff0_eq]; rfl) _ (trip0.sl.r_28 i h1 X k) rfl (k0_off87 (trip0.sl.r_28 i h1 X k)) _ rfl (trip0.sl.dma29 i h1 h2 X hX u k) rfl l
    | ⟨29, _⟩ => fun l => payload_row (Memref.whole main_v1) (Memref.whole main_v3) h1 h2 X hX u (blk0 i) (dstRow0 k ⟨29, by decide⟩) (wordOff0 i k ⟨29, by decide⟩) (wordOff0_inb i k ⟨29, by decide⟩) (by rw [wordOff0_eq]; rfl) _ (trip0.sl.r_29 i h1 X k) rfl (k0_off90 (trip0.sl.r_29 i h1 X k)) _ rfl (trip0.sl.dma30 i h1 h2 X hX u k) rfl l
    | ⟨30, _⟩ => fun l => payload_row (Memref.whole main_v1) (Memref.whole main_v3) h1 h2 X hX u (blk0 i) (dstRow0 k ⟨30, by decide⟩) (wordOff0 i k ⟨30, by decide⟩) (wordOff0_inb i k ⟨30, by decide⟩) (by rw [wordOff0_eq]; rfl) _ (trip0.sl.r_30 i h1 X k) rfl (k0_off93 (trip0.sl.r_30 i h1 X k)) _ rfl (trip0.sl.dma31 i h1 h2 X hX u k) rfl l
    | ⟨31, _⟩ => fun l => payload_row (Memref.whole main_v1) (Memref.whole main_v3) h1 h2 X hX u (blk0 i) (dstRow0 k ⟨31, by decide⟩) (wordOff0 i k ⟨31, by decide⟩) (wordOff0_inb i k ⟨31, by decide⟩) (by rw [wordOff0_eq]; rfl) _ (trip0.sl.r_31 i h1 X k) rfl (k0_off96 (trip0.sl.r_31 i h1 X k)) _ rfl (trip0.sl.dma32 i h1 h2 X hX u k) rfl l
    | ⟨_ + 32, h⟩ => absurd h (Nat.not_lt.2 (Nat.le_add_left _ _))
  -- the scratch's pieces at those contents
  ihave Hs_2 := (pt_of_eq e0) $$ Hs_2
  ihave Hs_3 := (pt_of_eq e1) $$ Hs_3
  ihave Hs_4 := (pt_of_eq e2) $$ Hs_4
  ihave Hs_5 := (pt_of_eq e3) $$ Hs_5
  ihave Hs_6 := (pt_of_eq e4) $$ Hs_6
  ihave Hs_7 := (pt_of_eq e5) $$ Hs_7
  ihave Hs_8 := (pt_of_eq e6) $$ Hs_8
  ihave Hs_9 := (pt_of_eq e7) $$ Hs_9
  ihave Hs_10 := (pt_of_eq e8) $$ Hs_10
  ihave Hs_11 := (pt_of_eq e9) $$ Hs_11
  ihave Hs_12 := (pt_of_eq e10) $$ Hs_12
  ihave Hs_13 := (pt_of_eq e11) $$ Hs_13
  ihave Hs_14 := (pt_of_eq e12) $$ Hs_14
  ihave Hs_15 := (pt_of_eq e13) $$ Hs_15
  ihave Hs_16 := (pt_of_eq e14) $$ Hs_16
  ihave Hs_17 := (pt_of_eq e15) $$ Hs_17
  ihave Hs := (pt_of_eq e31) $$ Hs
  iapply Hk
  iexists (writeRows (Memref.whole cc0_scratch0) (dstOff0 k) (dstOff0_inb k) pay fs (32) (by omega))
  isplitr [Ht Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hs Hs_2 Hs_3 Hs_4 Hs_5 Hs_6 Hs_7 Hs_8 Hs_9 Hs_10 Hs_11 Hs_12 Hs_13 Hs_14 Hs_15 Hs_16 Hs_17 Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 HO]; swap
  · iapply (handback0 c h4 (dstOff0 k) (dstRow0 k) (dstOff0_eq k) (dstRow0_inj k) (dstOff0_inb k) pay fs (h1.unread X) (h2.unread u) _)
    isplitl [Ht]; · iexact Ht
    isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
    ·
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hu19]; · iexact Hu19
      isplitl [Hu20]; · iexact Hu20
      isplitl [Hu21]; · iexact Hu21
      isplitl [Hu22]; · iexact Hu22
      isplitl [Hu23]; · iexact Hu23
      isplitl [Hu24]; · iexact Hu24
      isplitl [Hu25]; · iexact Hu25
      isplitl [Hu26]; · iexact Hu26
      isplitl [Hu27]; · iexact Hu27
      isplitl [Hu28]; · iexact Hu28
      isplitl [Hu29]; · iexact Hu29
      isplitl [Hu30]; · iexact Hu30
      iexact Hu31
    isplitl [Hs Hs_2 Hs_3 Hs_4 Hs_5 Hs_6 Hs_7 Hs_8 Hs_9 Hs_10 Hs_11 Hs_12 Hs_13 Hs_14 Hs_15 Hs_16 Hs_17]
    ·
      isplitl [Hs]; · iexact Hs
      isplitl [Hs_2]; · iexact Hs_2
      isplitl [Hs_3]; · iexact Hs_3
      isplitl [Hs_4]; · iexact Hs_4
      isplitl [Hs_5]; · iexact Hs_5
      isplitl [Hs_6]; · iexact Hs_6
      isplitl [Hs_7]; · iexact Hs_7
      isplitl [Hs_8]; · iexact Hs_8
      isplitl [Hs_9]; · iexact Hs_9
      isplitl [Hs_10]; · iexact Hs_10
      isplitl [Hs_11]; · iexact Hs_11
      isplitl [Hs_12]; · iexact Hs_12
      isplitl [Hs_13]; · iexact Hs_13
      isplitl [Hs_14]; · iexact Hs_14
      isplitl [Hs_15]; · iexact Hs_15
      isplitl [Hs_16]; · iexact Hs_16
      iexact Hs_17
    isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
    ·
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      iexact Hd31
    iexact HO
  · ipureintro
    exact gath_step (Memref.whole cc0_scratch0) h4 X u (blk0 i) f₀ k.val (Nat.lt_of_lt_of_eq k.isLt trips0) (dstOff0 k) (dstRow0 k) (dstOff0_eq k) (dstRow0_inj k)
      (fun s => rfl) (dstOff0_inb k) pay hpAll fs hfs

end Cert.Kernel.Hand

end
-- ==== Proof.K.Loop0.lean ====
/-
  The first region's loop, by its invariant.  Before trip `k` the scratch reads as the block with rows below
  `32 k` filled from the table and the rest as the loop found them; the column, the table held for reading and the
  region's own counters at zero are as they were.  One trip takes this from `k` to `k + 1`.
-/
import proofs.«423058_j50337016709696_1_alg».proof.Proof.K.Trip0

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Before trip `k`: the scratch reads as the block with rows below `32 k` filled; the rest as the loop found it. -/
abbrev inv0 (c : Dev nD) (i : grid0.Coords) (h1 : (Memref.whole main_v1).IsWhole)
    (h2 : (Memref.whole main_v3).IsWhole) (X : S131072.Idx → Elt F .i32) (u : S500000x32.Idx → Elt F .f32)
    (f₀ : S1024x32.Idx → Elt F .f32) (k : ℕ) : sProp (𝕄K F) :=
  iprop(∃ fs : Bf (F := F) c (Memref.whole cc0_scratch0),
    ⌜(Memref.whole cc0_scratch0).view.read (Elt F) fs = Cert.Gather.gath X u (blk0 i) f₀ k⌝
    ∗ Trip0 c h1 h2 X u fs ∗ (∃ W, owes (c : Thread nD τ) 0 W))

@[sl_loop] noncomputable def loopInv0 (c : Dev nD) (X : S131072.Idx → Elt F .i32) (hX : ∀ j, (X j).toNat < 500000)
    (u : S500000x32.Idx → Elt F .f32) (f₀ : S1024x32.Idx → Elt F .f32)
    (i : grid0.Coords) (h1 : (Memref.whole main_v1).IsWhole) (h2 : (Memref.whole main_v3).IsWhole)
    (M3 : Memref sig .tc .vmem S1024x32 .f32) (h3 : M3.IsWhole) (h4 : (Memref.whole cc0_scratch0).IsWhole) :
    Cert.Kernel.Gen.LoopInvTy_k0_t1 (F := F) Unit ℕ UU ℕ Variants.none c none Set.univ i (Memref.whole main_v1) h1 (Memref.whole main_v3) h2
      M3 h3 (Memref.whole cc0_scratch0) h4 cc0_scratch1 (Scalar.muli (BitVec.ofNat 32 (i 0).val) 1024#32) where
  inv := fun k _ => inv0 c i h1 h2 X u f₀ k
  step := fun k _ => by
    unfold inv0
    iintro ⟨%fs, %hfs, HT, %W, HO⟩
    iapply (trip0 c i M3 h3 h1 h2 h4 X hX u f₀ fs k hfs W _)
    isplitl [HT]; · iexact HT
    isplitl [HO]; · iexact HO
    iintro ⟨%fs', %hfs', HT', HO'⟩
    iexists fs'
    isplitr; · ipureintro; exact hfs'
    isplitl [HT']; · iexact HT'
    iexact HO'

end Cert.Kernel.Hand

end
-- ==== Proof.K.WholeBlock.lean ====
/-
  Copying a block whole.  A block that is overwritten by one store of another block read whole reads as that
  other block: the store's one rectangle covers every element, and reading a block through the rectangle that
  is the whole of it reads the block.
-/
import proofs.«423058_j50337016709696_1_alg».proof.Proof.K.Base
import Idealize.ShloMosaic.Lib.Pipeline.FrameBody

noncomputable section

namespace Cert.Kernel.Hand

open Cert.Kernel Cert.Kernel.Gen
open Idealize.ShloMosaic

variable {F : FTy → Type} [FloatOps F]

/-- The whole of a 1024x32 block, as the rectangle the kernels load and store it through. -/
abbrev rBlk : Rect S1024x32 := Rect.unit (s := S1024x32) ![0, 0] S1024x32.size inb_S1024x32_S1024x32_0_0

/-- The whole block is one rectangle of itself. -/
theorem cover_blk (p0 : Vec F S1024x32 .f32) (y : S1024x32.Idx) :
    ∃ pc ∈ ([⟨rBlk, p0⟩] : List (View.Piece (Elt F) S1024x32 .f32)), y ∈ pc.1.set :=
  View.cover_of_tiled [⟨rBlk, p0⟩] S1024x32.size (by rfl) y

/-- One store of a block read whole leaves that block: for any memref `sc` of the block's shape at raw contents `f`. -/
theorem canon_whole_read (sc : Memref sig .tc .vmem S1024x32 .f32) (f : sc.view.ty.Contents (Elt F)) :
    View.canon [⟨rBlk, View.readAt (Elt F) sc.view rBlk.toLoadRect f⟩] = sc.view.read (Elt F) f := by
  funext y
  have hy : y ∈ (rBlk : Rect S1024x32).set := by
    obtain ⟨pc, hpc, hmem⟩ := cover_blk (F := F) (View.readAt (Elt F) sc.view rBlk.toLoadRect f) y
    rw [List.mem_singleton.mp hpc] at hmem
    exact hmem
  obtain ⟨x, rfl⟩ : ∃ x, (rBlk : Rect S1024x32).emb x = y := (rBlk : Rect S1024x32).exists_idx_of_mem hy
  rw [View.canon_cons_emb]
  rfl

end Cert.Kernel.Hand

end
-- ==== Proof.K.Gather0.lean ====
/-
  The first region's body.  At grid point `i` it fills its scratch with the 1024 table rows that the
  region's column of index words names at positions `1024 i` to `1024 i + 1023`, 32 rows a trip by 32
  transfers in flight at once, each waited for before the trip ends, and then copies the scratch to the
  result's block.  The table is only read, by several transfers at a time, so it is held as one read
  share per transfer; every index word is below the table's height, which is what each transfer's
  source window asks.
-/
import proofs.«423058_j50337016709696_1_alg».proof.Proof.K.Loop0
import proofs.«423058_j50337016709696_1_alg».proof.Proof.K.WholeBlock

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

-- the body is run across its loop and through the copy of the scratch to the result's block
set_option maxHeartbeats 4000000 in
/-- The body at grid point `i`: from the result's staging block and the scratch at anything, the index column at `X`
    (every word below the table's height), the table at `u` held for reading, the counters at zero and nothing owed, it
    runs to the continuation with the result's block filled (`Gather.filled X u i`), and everything else as it was. -/
theorem sound_gather0 (c : Dev nD) (i : grid0.Coords)
    (arg3 : Memref sig .tc .vmem S1024x32 .f32) (harg3 : arg3.IsWhole)
    (h1 : (Memref.whole main_v1).IsWhole) (h2 : (Memref.whole main_v3).IsWhole) (h4 : (Memref.whole cc0_scratch0).IsWhole)
    (X : S131072.Idx → Elt F .i32) (hX : ∀ j, (X j).toNat < 500000) (u : S500000x32.Idx → Elt F .f32)
    (W : Waits sig Unit) (K : PUnit → sProp (𝕄K F)) :
    iprop((∃ d, owns (c : Thread nD τ) arg3 fullShare d) ∗ (∃ f, pt c (Memref.whole cc0_scratch0) f)
        ∗ pt c (Memref.whole main_v1) (h1.unread X) ∗ toks0 c (h2.unread u) ∗ sems0 c ∗ owes (c : Thread nD τ) 0 W
        ∗ (iprop(owns (c : Thread nD τ) arg3 fullShare (Cert.Gather.filled X u (blk0 i)) ∗ (∃ f, pt c (Memref.whole cc0_scratch0) f)
              ∗ pt c (Memref.whole main_v1) (h1.unread X) ∗ toks0 c (h2.unread u) ∗ sems0 c ∗ (∃ W', owes (c : Thread nD τ) 0 W')) -∗ K ⟨⟩))
      ⊢ wp frame (wpE (defs₀ (F := F)) Variants.none c none) Set.univ
          (cc0__gather_kernel i (Memref.whole main_v1) h1 (Memref.whole main_v3) h2 arg3 harg3 (Memref.whole cc0_scratch0) h4 cc0_scratch1) K := by
  simp only [cc0__gather_kernel_eq_skeleton]; unfold cc0__gather_kernel_skel
  unfold owns
  iintro ⟨⟨%d3, %f3, -, H3⟩, ⟨%fs₀, Hs⟩, Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO, Hk⟩
  sl_exec
  sl_step
  iapply Hk
  -- the result's block: one whole-block store of the scratch read whole
  isplitl [H3]
  · iexists _; isplitr; swap; · iexact H3
    ipureintro
    rw [View.read_writes_eq_canon _ _ _ (cover_blk _), canon_whole_read, hL0]
    exact Cert.Gather.gath_last X u (blk0 i) _
  isplitl [Hs]; · iexists _; iexact Hs
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks0
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · unfold sems0
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.Kernel.Hand

end
-- ==== Proof.K.Region0.lean ====
/-
  The first region's proof data and body obligation, at the contents `V` the buffers hold when the region is
  entered and the contents `a` of its column of index words.  At grid point `t` the body leaves in the result's
  block the 1024 table rows that the column names at positions `1024 t` onward.  Between points the region keeps
  the table it reads, its own 32 semaphores at zero, the column, and its scratch at whatever the last point left.
-/
import proofs.«423058_j50337016709696_1_alg».proof.Proof.K.Gather0
import proofs.«423058_j50337016709696_1_alg».proof.Proof.GatherSpec
import proofs.«423058_j50337016709696_1_alg».proof.Proof.Gen.Kernel.Launch
import Idealize.ShloMosaic.Lib.Pipeline.FrameBody
import Idealize.ShloMosaic.Lib.Pipeline.Frame

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
variable (a : (pcfg0 (F := F)).Adm)

/-- The region's own 32 semaphores: the core's DMA semaphores 2 to 33. -/
abbrev osem0 : Fin 32 → SemLoc sig := fun k => .dma ⟨2 + k.val, by show 2 + k.val < 109; omega⟩

/-- The column of index words, as the function its contents read as. -/
abbrev col0 : S131072.Idx → Elt F .i32 := (Memref.whole main_v1).view.read (Elt F) (a.1 0)

/-- The table, as the function its contents read as when the region is entered. -/
abbrev tbl0 (c : Dev nD) : S500000x32.Idx → Elt F .f32 := (Memref.whole main_v3).view.read (Elt F) (V c main_v3)

/-- Grid point `t` as a block number. -/
abbrev blkAt0 (t : Fin (cfg0 a).N) : Fin 128 := ⟨((cfg0 a).grid.coords t 0).val, ((cfg0 a).grid.coords t 0).isLt⟩

/-- What the region keeps between points: the table at its entry contents, its own semaphores at zero, the column,
    and the scoped buffers no window stages (its scratch among them, at anything). -/
def Φ0 (c : Dev nD) : sProp (𝕄K F) :=
  iprop((((c : Thread nD τ).loc main_v3) ↦{fullShare} V c main_v3)
    ∗ Pipeline.ownSems0 (Ix := Unit) (Name := ℕ) (U := UU) (Lvl := ℕ) (Val := Elt F) osem0 c
    ∗ Pipeline.prefHeld (Ix := Unit) (Name := ℕ) (U := UU) (Lvl := ℕ) pre0 c (fun _ => fullShare) a.1
    ∗ Pipeline.scopedRest (Ix := Unit) (Name := ℕ) (U := UU) (Lvl := ℕ) (Val := Elt F) spec0 c)

/-- The first region's proof data: the result's array as found; after the body at point `t` the result's block
    filled from the table by the column; the invariant `Φ0`; nothing owed; full shares. -/
def dat0 (c : Dev nD) : Dat τ (Elt F) Unit ℕ UU ℕ (cfg0 a) c where
  A w := V c (Pipeline.arrRef spec0 w)
  after w t := match w with
    | ⟨0, _⟩ => Cert.Gather.filled (col0 a) (tbl0 V c) (blkAt0 a t)
  Φ _ := Φ0 V a c
  q _ := fullShare
  owed _ := 0

/-! ## The invariant's parts in the shape the body's triple takes them -/

/-- The region's own semaphores at zero, written out one by one. -/
theorem ownSems0_eq (c : Dev nD) :
    (Pipeline.ownSems0 (Ix := Unit) (Name := ℕ) (U := UU) (Lvl := ℕ) (Val := Elt F) osem0 c : sProp (𝕄K F)) = sems0 c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl

/-- The column is the one prefetched table, held whole; its contents are the raw contents that read as `col0`. -/
theorem prefHeld0_eq (c : Dev nD) (h1 : (Memref.whole main_v1).IsWhole) :
    (Pipeline.prefHeld (Ix := Unit) (Name := ℕ) (U := UU) (Lvl := ℕ) pre0 c (fun _ => fullShare) a.1 : sProp (𝕄K F))
      = pt c (Memref.whole main_v1) (h1.unread (col0 a)) := by
  have e : h1.unread (col0 (F := F) a) = a.1 0 := h1.unread_read _
  rw [e]
  exact bigSep_W0 _

/-- The table's contents at entry are the raw contents that read as `tbl0`. -/
theorem table0_eq (c : Dev nD) (h2 : (Memref.whole main_v3).IsWhole) :
    ((((c : Thread nD τ).loc main_v3) ↦{fullShare} V c main_v3 : sProp (𝕄K F)))
      = pt c (Memref.whole main_v3) (h2.unread (tbl0 V c)) := by
  rw [h2.unread_read]

/-- The table held whole is what is left after 34 read shares are dealt off, the read shares below the region's
    own, and the 32 the transfers take: a full share deals into a remainder and any number of read shares, and back. -/
theorem table0_toks (c : Dev nD) (f : Bf (F := F) c (Memref.whole main_v3)) :
    pt c (Memref.whole main_v3) f ⊣⊢
      iprop(ptq c (Memref.whole main_v3) (Transfers.shareDrop fullShare 34) f
        ∗ bigSep (Finset.range 2) (fun i => ptq c (Memref.whole main_v3) (Transfers.shareTokN fullShare i) f)
        ∗ toks0 c f) := by
  have h := Transfers.pointsTo_toks_range (Ix := Unit) (Name := ℕ) (U := UU) (Lvl := ℕ) (Val := Elt F)
    (ℓ := (Memref.whole main_v3).view.loc (c : Thread nD τ)) (S := Finset.univ) (f := f) fullShare 34
  rw [show Finset.range 34 = Finset.range 2 ∪ [2, 3, 4, 5, 6, 7, 8, 9, 10, 11, 12, 13, 14, 15, 16, 17, 18, 19, 20, 21, 22, 23, 24, 25, 26, 27, 28, 29, 30, 31, 32, 33].toFinset by decide,
    BI.bigSep_union (show Disjoint (Finset.range 2) [2, 3, 4, 5, 6, 7, 8, 9, 10, 11, 12, 13, 14, 15, 16, 17, 18, 19, 20, 21, 22, 23, 24, 25, 26, 27, 28, 29, 30, 31, 32, 33].toFinset by decide),
    BI.bigSep_eq_bigSepL [2, 3, 4, 5, 6, 7, 8, 9, 10, 11, 12, 13, 14, 15, 16, 17, 18, 19, 20, 21, 22, 23, 24, 25, 26, 27, 28, 29, 30, 31, 32, 33] (by decide)] at h
  exact h

/-- The scoped buffers no window stages are the region's scratch and the others. -/
theorem scopedRest0_split (c : Dev nD) :
    (Pipeline.scopedRest (Ix := Unit) (Name := ℕ) (U := UU) (Lvl := ℕ) (Val := Elt F) spec0 c : sProp (𝕄K F))
      = iprop((∃ f, pt c (Memref.whole cc0_scratch0) f)
          ∗ Pipeline.scopedRestBut (Ix := Unit) (Name := ℕ) (U := UU) (Lvl := ℕ) (Val := Elt F) spec0 c [cc0_scratch0]) :=
  Pipeline.scopedRest_split_of_list spec0 c [cc0_scratch0] (by decide) (by decide)

/-- Everything the region keeps that the body never touches: what is left of the table beside the transfers' read
    shares, and the scoped buffers other than the scratch. -/
abbrev aside0 (c : Dev nD) (h2 : (Memref.whole main_v3).IsWhole) : sProp (𝕄K F) :=
  iprop(ptq c (Memref.whole main_v3) (Transfers.shareDrop fullShare 34) (h2.unread (tbl0 V c))
    ∗ bigSep (Finset.range 2) (fun i => ptq c (Memref.whole main_v3) (Transfers.shareTokN fullShare i) (h2.unread (tbl0 V c)))
    ∗ Pipeline.scopedRestBut (Ix := Unit) (Name := ℕ) (U := UU) (Lvl := ℕ) (Val := Elt F) spec0 c [cc0_scratch0])

/-- The invariant, both ways, as what the body's triple takes and gives back — the scratch at anything, the column,
    the table's 32 read shares, the semaphores at zero — beside what the body never touches. -/
theorem Φ0_body (c : Dev nD) (h1 : (Memref.whole main_v1).IsWhole) (h2 : (Memref.whole main_v3).IsWhole) :
    Φ0 V a c ⊣⊢
      iprop((∃ f, pt c (Memref.whole cc0_scratch0) f) ∗ pt c (Memref.whole main_v1) (h1.unread (col0 a))
        ∗ toks0 c (h2.unread (tbl0 V c)) ∗ sems0 c ∗ aside0 V c h2) := by
  unfold Φ0
  rw [table0_eq V c h2, ownSems0_eq, prefHeld0_eq a c h1, scopedRest0_split]
  constructor
  · iintro ⟨Htab, Hsems, Hcol, Hscr, Hrest⟩
    icases (table0_toks c (h2.unread (tbl0 V c))).1 $$ Htab with ⟨Hd, Hlow, Htoks⟩
    isplitl [Hscr]; · iexact Hscr
    isplitl [Hcol]; · iexact Hcol
    isplitl [Htoks]; · iexact Htoks
    isplitl [Hsems]; · iexact Hsems
    isplitl [Hd]; · iexact Hd
    isplitl [Hlow]; · iexact Hlow
    iexact Hrest
  · iintro ⟨Hscr, Hcol, Htoks, Hsems, Hd, Hlow, Hrest⟩
    isplitl [Hd Hlow Htoks]
    · iapply (table0_toks c (h2.unread (tbl0 V c))).2
      isplitl [Hd]; · iexact Hd
      isplitl [Hlow]; · iexact Hlow
      iexact Htoks
    isplitl [Hsems]; · iexact Hsems
    isplitl [Hcol]; · iexact Hcol
    isplitl [Hscr]; · iexact Hscr
    iexact Hrest

/-! ## The proof data, projected -/

/-- What the body leaves in the result's block at point `t`. -/
theorem after0_0 (c : Dev nD) (t : Fin (cfg0 a).N) :
    (dat0 V a c).after 0 t = Cert.Gather.filled (col0 a) (tbl0 V c) (blkAt0 a t) := by dsimp only [dat0]; rfl

/-! ## The obligation's two sides -/

/-- The one window's current staging memref at point `t`. -/
abbrev st0_0 (t : Fin (cfg0 a).N) := ((cfg0 a).win 0).stage ((cfg0 a).slots t 0)

/-- The body at point `t`, on what the pipeline calls it with. -/
abbrev bodyAt0 (t : Fin (cfg0 a).N) : Prog (TpuEff nD τ sig (Elt F) Λ₀ .tc) PUnit :=
  cc0__gather_kernel ((cfg0 a).grid.coords t) (Memref.whole main_v1) (Memref.isWhole_whole _) (Memref.whole main_v3) (Memref.isWhole_whole _)
    (spec0_0.stage ((cfg0 a).slots t 0)) (hstage0_0 (((cfg0 a).slots t 0).cast nbuf0_0))
    (Memref.whole cc0_scratch0) (Memref.isWhole_whole _) cc0_scratch1

/-- What the body is handed at point `t`: the invariant, what the core owes, and the result's current buffer. -/
def bodyPre0 (c : Dev nD) (t : Fin (cfg0 a).N) : sProp (𝕄K F) :=
  iprop((dat0 V a c).Φ t.castSucc ∗ (dat0 V a c).owesAt () t.castSucc
    ∗ (∃ d, owns (c : Thread nD τ) (st0_0 a t) fullShare ((dat0 V a c).before 0 t d)))

/-- What it hands back: the same at the next point, the buffer at what the body leaves there. -/
def bodyPost0 (c : Dev nD) (t : Fin (cfg0 a).N) : sProp (𝕄K F) :=
  iprop((dat0 V a c).Φ t.succ ∗ (dat0 V a c).owesAt () t.succ
    ∗ owns (c : Thread nD τ) (st0_0 a t) fullShare ((dat0 V a c).after 0 t))

/-- The body at any point: the invariant opens into what the body's triple takes, the triple runs, and what it gives
    back closes into the invariant again; the core owes nothing before and nothing after, and the bound on its
    recorded waits is the whole set, so it asks nothing. -/
theorem sound_body0 (c : Dev nD) (hX : ∀ j, ((col0 a) j).toNat < 500000) (t : Fin (cfg0 a).N) :
    bodyPre0 V a c t ⊢ wp frame (wpE (defs₀ (F := F)) Variants.none c none) Set.univ (bodyAt0 a t) (fun _ => bodyPost0 V a c t) := by
  unfold bodyPre0 bodyPost0
  rw [show (dat0 V a c).Φ t.succ = Φ0 V a c from rfl, show (dat0 V a c).Φ t.castSucc = Φ0 V a c from rfl, after0_0]
  iintro ⟨HΦ, ⟨%W, %hW, Ho⟩, ⟨%d, Hw⟩⟩
  icases (Φ0_body V a c (Memref.isWhole_whole _) (Memref.isWhole_whole _)).1 $$ HΦ with ⟨Hscr, Hcol, Htoks, Hsems, Hrest⟩
  iapply (sound_gather0 c ((cfg0 a).grid.coords t) (spec0_0.stage ((cfg0 a).slots t 0)) (hstage0_0 (((cfg0 a).slots t 0).cast nbuf0_0))
    (Memref.isWhole_whole _) (Memref.isWhole_whole _) (Memref.isWhole_whole _) (col0 a) hX (tbl0 V c) W _)
  isplitl [Hw]; · iexists _; iexact Hw
  isplitl [Hscr]; · iexact Hscr
  isplitl [Hcol]; · iexact Hcol
  isplitl [Htoks]; · iexact Htoks
  isplitl [Hsems]; · iexact Hsems
  isplitl [Ho]; · iexact Ho
  iintro ⟨Hw, Hscr, Hcol, Htoks, Hsems, ⟨%W', Ho⟩⟩
  isplitl [Hscr Hcol Htoks Hsems Hrest]
  · iapply (Φ0_body V a c (Memref.isWhole_whole _) (Memref.isWhole_whole _)).2
    isplitl [Hscr]; · iexact Hscr
    isplitl [Hcol]; · iexact Hcol
    isplitl [Htoks]; · iexact Htoks
    isplitl [Hsems]; · iexact Hsems
    iexact Hrest
  isplitl [Ho]
  · iexists W'; isplitr
    · ipureintro; exact fun _ _ => Or.inl trivial
    iexact Ho
  iexact Hw

/-- The library's body obligation for the first region, at every point, when every word of the column is below the
    table's height. -/
theorem body_obligation0 (c : Dev nD) (hX : ∀ j, ((col0 a) j).toNat < 500000) :
    BodyObligation (dat0 (F := F) V a c) (defs₀ (F := F)) Variants.none () Set.univ := fun t => by
  rw [bigSep_W0, bigSep_W0]
  exact sound_body0 V a c hX t

end Cert.Kernel.Hand

end
-- ==== Proof.K.Cells1.lean ====
/-
  The second region's cells: the 32 semaphores of its own that its transfers complete on (the core's 36 to 67),
  their counters, and the table it reads held as one read share for each of them, so that transfers reading the
  same table row do not compete.
-/
import proofs.«423058_j50337016709696_1_alg».proof.Proof.K.Base
import proofs.«423058_j50337016709696_1_alg».proof.Proof.GatherSpec
import Idealize.ShloMosaic.Lib.Pipeline.FrameBody

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The second region's table held for reading: one read share for each of the 32 transfers of a trip, indexed by the
    transfer's semaphore (the region's own semaphores are the core's 36 to 67). -/
abbrev toks1 (c : Dev nD) (f : Bf (F := F) c (Memref.whole main_v8)) : sProp (𝕄K F) :=
  iprop(ptq c (Memref.whole main_v8) (Transfers.shareTokN fullShare 36) f
      ∗ ptq c (Memref.whole main_v8) (Transfers.shareTokN fullShare 37) f
      ∗ ptq c (Memref.whole main_v8) (Transfers.shareTokN fullShare 38) f
      ∗ ptq c (Memref.whole main_v8) (Transfers.shareTokN fullShare 39) f
      ∗ ptq c (Memref.whole main_v8) (Transfers.shareTokN fullShare 40) f
      ∗ ptq c (Memref.whole main_v8) (Transfers.shareTokN fullShare 41) f
      ∗ ptq c (Memref.whole main_v8) (Transfers.shareTokN fullShare 42) f
      ∗ ptq c (Memref.whole main_v8) (Transfers.shareTokN fullShare 43) f
      ∗ ptq c (Memref.whole main_v8) (Transfers.shareTokN fullShare 44) f
      ∗ ptq c (Memref.whole main_v8) (Transfers.shareTokN fullShare 45) f
      ∗ ptq c (Memref.whole main_v8) (Transfers.shareTokN fullShare 46) f
      ∗ ptq c (Memref.whole main_v8) (Transfers.shareTokN fullShare 47) f
      ∗ ptq c (Memref.whole main_v8) (Transfers.shareTokN fullShare 48) f
      ∗ ptq c (Memref.whole main_v8) (Transfers.shareTokN fullShare 49) f
      ∗ ptq c (Memref.whole main_v8) (Transfers.shareTokN fullShare 50) f
      ∗ ptq c (Memref.whole main_v8) (Transfers.shareTokN fullShare 51) f
      ∗ ptq c (Memref.whole main_v8) (Transfers.shareTokN fullShare 52) f
      ∗ ptq c (Memref.whole main_v8) (Transfers.shareTokN fullShare 53) f
      ∗ ptq c (Memref.whole main_v8) (Transfers.shareTokN fullShare 54) f
      ∗ ptq c (Memref.whole main_v8) (Transfers.shareTokN fullShare 55) f
      ∗ ptq c (Memref.whole main_v8) (Transfers.shareTokN fullShare 56) f
      ∗ ptq c (Memref.whole main_v8) (Transfers.shareTokN fullShare 57) f
      ∗ ptq c (Memref.whole main_v8) (Transfers.shareTokN fullShare 58) f
      ∗ ptq c (Memref.whole main_v8) (Transfers.shareTokN fullShare 59) f
      ∗ ptq c (Memref.whole main_v8) (Transfers.shareTokN fullShare 60) f
      ∗ ptq c (Memref.whole main_v8) (Transfers.shareTokN fullShare 61) f
      ∗ ptq c (Memref.whole main_v8) (Transfers.shareTokN fullShare 62) f
      ∗ ptq c (Memref.whole main_v8) (Transfers.shareTokN fullShare 63) f
      ∗ ptq c (Memref.whole main_v8) (Transfers.shareTokN fullShare 64) f
      ∗ ptq c (Memref.whole main_v8) (Transfers.shareTokN fullShare 65) f
      ∗ ptq c (Memref.whole main_v8) (Transfers.shareTokN fullShare 66) f
      ∗ ptq c (Memref.whole main_v8) (Transfers.shareTokN fullShare 67) f)

/-- The second region's 32 semaphores' counters at zero. -/
abbrev sems1 (c : Dev nD) : sProp (𝕄K F) :=
  iprop(semVal ((c : Thread nD τ), (SemLoc.dma 36 : SemLoc sig)) 0
      ∗ semVal ((c : Thread nD τ), (SemLoc.dma 37 : SemLoc sig)) 0
      ∗ semVal ((c : Thread nD τ), (SemLoc.dma 38 : SemLoc sig)) 0
      ∗ semVal ((c : Thread nD τ), (SemLoc.dma 39 : SemLoc sig)) 0
      ∗ semVal ((c : Thread nD τ), (SemLoc.dma 40 : SemLoc sig)) 0
      ∗ semVal ((c : Thread nD τ), (SemLoc.dma 41 : SemLoc sig)) 0
      ∗ semVal ((c : Thread nD τ), (SemLoc.dma 42 : SemLoc sig)) 0
      ∗ semVal ((c : Thread nD τ), (SemLoc.dma 43 : SemLoc sig)) 0
      ∗ semVal ((c : Thread nD τ), (SemLoc.dma 44 : SemLoc sig)) 0
      ∗ semVal ((c : Thread nD τ), (SemLoc.dma 45 : SemLoc sig)) 0
      ∗ semVal ((c : Thread nD τ), (SemLoc.dma 46 : SemLoc sig)) 0
      ∗ semVal ((c : Thread nD τ), (SemLoc.dma 47 : SemLoc sig)) 0
      ∗ semVal ((c : Thread nD τ), (SemLoc.dma 48 : SemLoc sig)) 0
      ∗ semVal ((c : Thread nD τ), (SemLoc.dma 49 : SemLoc sig)) 0
      ∗ semVal ((c : Thread nD τ), (SemLoc.dma 50 : SemLoc sig)) 0
      ∗ semVal ((c : Thread nD τ), (SemLoc.dma 51 : SemLoc sig)) 0
      ∗ semVal ((c : Thread nD τ), (SemLoc.dma 52 : SemLoc sig)) 0
      ∗ semVal ((c : Thread nD τ), (SemLoc.dma 53 : SemLoc sig)) 0
      ∗ semVal ((c : Thread nD τ), (SemLoc.dma 54 : SemLoc sig)) 0
      ∗ semVal ((c : Thread nD τ), (SemLoc.dma 55 : SemLoc sig)) 0
      ∗ semVal ((c : Thread nD τ), (SemLoc.dma 56 : SemLoc sig)) 0
      ∗ semVal ((c : Thread nD τ), (SemLoc.dma 57 : SemLoc sig)) 0
      ∗ semVal ((c : Thread nD τ), (SemLoc.dma 58 : SemLoc sig)) 0
      ∗ semVal ((c : Thread nD τ), (SemLoc.dma 59 : SemLoc sig)) 0
      ∗ semVal ((c : Thread nD τ), (SemLoc.dma 60 : SemLoc sig)) 0
      ∗ semVal ((c : Thread nD τ), (SemLoc.dma 61 : SemLoc sig)) 0
      ∗ semVal ((c : Thread nD τ), (SemLoc.dma 62 : SemLoc sig)) 0
      ∗ semVal ((c : Thread nD τ), (SemLoc.dma 63 : SemLoc sig)) 0
      ∗ semVal ((c : Thread nD τ), (SemLoc.dma 64 : SemLoc sig)) 0
      ∗ semVal ((c : Thread nD τ), (SemLoc.dma 65 : SemLoc sig)) 0
      ∗ semVal ((c : Thread nD τ), (SemLoc.dma 66 : SemLoc sig)) 0
      ∗ semVal ((c : Thread nD τ), (SemLoc.dma 67 : SemLoc sig)) 0)

/-- The grid point as a block number. -/
abbrev blk1 (i : grid1.Coords) : Fin 128 := ⟨(i 0).val, (i 0).isLt⟩

end Cert.Kernel.Hand

end
-- ==== Proof.K.Rows1.lean ====
/-
  The 32 rows a trip of the second region's loop fills, as one family: transfer `s` of trip `k` goes to row
  `32 k + s` of the scratch.
-/
import proofs.«423058_j50337016709696_1_alg».proof.Proof.K.Base

noncomputable section

namespace Cert.Kernel.Hand

open Cert.Kernel Cert.Kernel.Gen
open Idealize.ShloMosaic

/-- The offsets the kernel computes for transfer `s`'s destination row at trip `k`. -/
def dstOff1 (k : Fin k1_t1_loop.trips) : Fin 32 → Fin 2 → ℕ
  | ⟨0, _⟩ => k1_off2 k
  | ⟨1, _⟩ => k1_off5 k
  | ⟨2, _⟩ => k1_off8 k
  | ⟨3, _⟩ => k1_off11 k
  | ⟨4, _⟩ => k1_off14 k
  | ⟨5, _⟩ => k1_off17 k
  | ⟨6, _⟩ => k1_off20 k
  | ⟨7, _⟩ => k1_off23 k
  | ⟨8, _⟩ => k1_off26 k
  | ⟨9, _⟩ => k1_off29 k
  | ⟨10, _⟩ => k1_off32 k
  | ⟨11, _⟩ => k1_off35 k
  | ⟨12, _⟩ => k1_off38 k
  | ⟨13, _⟩ => k1_off41 k
  | ⟨14, _⟩ => k1_off44 k
  | ⟨15, _⟩ => k1_off47 k
  | ⟨16, _⟩ => k1_off50 k
  | ⟨17, _⟩ => k1_off53 k
  | ⟨18, _⟩ => k1_off56 k
  | ⟨19, _⟩ => k1_off59 k
  | ⟨20, _⟩ => k1_off62 k
  | ⟨21, _⟩ => k1_off65 k
  | ⟨22, _⟩ => k1_off68 k
  | ⟨23, _⟩ => k1_off71 k
  | ⟨24, _⟩ => k1_off74 k
  | ⟨25, _⟩ => k1_off77 k
  | ⟨26, _⟩ => k1_off80 k
  | ⟨27, _⟩ => k1_off83 k
  | ⟨28, _⟩ => k1_off86 k
  | ⟨29, _⟩ => k1_off89 k
  | ⟨30, _⟩ => k1_off92 k
  | ⟨31, _⟩ => k1_off95 k
  | ⟨_ + 32, h⟩ => absurd h (Nat.not_lt.2 (Nat.le_add_left _ _))

/-- Each row lies inside the block. -/
theorem dstOff1_inb (k : Fin k1_t1_loop.trips) : ∀ (s : Fin 32) (a : Fin 2), dstOff1 k s a + S1x32.size a ≤ S1024x32.size a
  | ⟨0, _⟩ => k1_off2_inb k
  | ⟨1, _⟩ => k1_off5_inb k
  | ⟨2, _⟩ => k1_off8_inb k
  | ⟨3, _⟩ => k1_off11_inb k
  | ⟨4, _⟩ => k1_off14_inb k
  | ⟨5, _⟩ => k1_off17_inb k
  | ⟨6, _⟩ => k1_off20_inb k
  | ⟨7, _⟩ => k1_off23_inb k
  | ⟨8, _⟩ => k1_off26_inb k
  | ⟨9, _⟩ => k1_off29_inb k
  | ⟨10, _⟩ => k1_off32_inb k
  | ⟨11, _⟩ => k1_off35_inb k
  | ⟨12, _⟩ => k1_off38_inb k
  | ⟨13, _⟩ => k1_off41_inb k
  | ⟨14, _⟩ => k1_off44_inb k
  | ⟨15, _⟩ => k1_off47_inb k
  | ⟨16, _⟩ => k1_off50_inb k
  | ⟨17, _⟩ => k1_off53_inb k
  | ⟨18, _⟩ => k1_off56_inb k
  | ⟨19, _⟩ => k1_off59_inb k
  | ⟨20, _⟩ => k1_off62_inb k
  | ⟨21, _⟩ => k1_off65_inb k
  | ⟨22, _⟩ => k1_off68_inb k
  | ⟨23, _⟩ => k1_off71_inb k
  | ⟨24, _⟩ => k1_off74_inb k
  | ⟨25, _⟩ => k1_off77_inb k
  | ⟨26, _⟩ => k1_off80_inb k
  | ⟨27, _⟩ => k1_off83_inb k
  | ⟨28, _⟩ => k1_off86_inb k
  | ⟨29, _⟩ => k1_off89_inb k
  | ⟨30, _⟩ => k1_off92_inb k
  | ⟨31, _⟩ => k1_off95_inb k
  | ⟨_ + 32, h⟩ => absurd h (Nat.not_lt.2 (Nat.le_add_left _ _))

/-- The loop runs 32 trips. -/
theorem trips1 : k1_t1_loop.trips = 32 := by decide

/-- Transfer s of trip k fills row 32 k + s. -/
def dstRow1 (k : Fin k1_t1_loop.trips) (s : Fin 32) : Fin 1024 :=
  ⟨32 * k.val + s.val, by have hk : k.val < 32 := Nat.lt_of_lt_of_eq k.isLt trips1; have := s.isLt; omega⟩

/-- In closed form the offsets of transfer `s` are row `32 k + s`, lane 0. -/
theorem dstOff1_eq (k : Fin k1_t1_loop.trips) : ∀ s : Fin 32, dstOff1 k s = ![(dstRow1 k s).val, 0]
  | ⟨0, _⟩ => k1_off2_eq k
  | ⟨1, _⟩ => k1_off5_eq k
  | ⟨2, _⟩ => k1_off8_eq k
  | ⟨3, _⟩ => k1_off11_eq k
  | ⟨4, _⟩ => k1_off14_eq k
  | ⟨5, _⟩ => k1_off17_eq k
  | ⟨6, _⟩ => k1_off20_eq k
  | ⟨7, _⟩ => k1_off23_eq k
  | ⟨8, _⟩ => k1_off26_eq k
  | ⟨9, _⟩ => k1_off29_eq k
  | ⟨10, _⟩ => k1_off32_eq k
  | ⟨11, _⟩ => k1_off35_eq k
  | ⟨12, _⟩ => k1_off38_eq k
  | ⟨13, _⟩ => k1_off41_eq k
  | ⟨14, _⟩ => k1_off44_eq k
  | ⟨15, _⟩ => k1_off47_eq k
  | ⟨16, _⟩ => k1_off50_eq k
  | ⟨17, _⟩ => k1_off53_eq k
  | ⟨18, _⟩ => k1_off56_eq k
  | ⟨19, _⟩ => k1_off59_eq k
  | ⟨20, _⟩ => k1_off62_eq k
  | ⟨21, _⟩ => k1_off65_eq k
  | ⟨22, _⟩ => k1_off68_eq k
  | ⟨23, _⟩ => k1_off71_eq k
  | ⟨24, _⟩ => k1_off74_eq k
  | ⟨25, _⟩ => k1_off77_eq k
  | ⟨26, _⟩ => k1_off80_eq k
  | ⟨27, _⟩ => k1_off83_eq k
  | ⟨28, _⟩ => k1_off86_eq k
  | ⟨29, _⟩ => k1_off89_eq k
  | ⟨30, _⟩ => k1_off92_eq k
  | ⟨31, _⟩ => k1_off95_eq k
  | ⟨_ + 32, h⟩ => absurd h (Nat.not_lt.2 (Nat.le_add_left _ _))

/-- Different transfers of a trip fill different rows. -/
theorem dstRow1_inj (k : Fin k1_t1_loop.trips) : Function.Injective (dstRow1 k) := by
  intro s s' h
  have h' : 32 * k.val + s.val = 32 * k.val + s'.val := congrArg Fin.val h
  exact Fin.ext (by omega)

end Cert.Kernel.Hand

end
-- ==== Proof.K.Words1.lean ====
/-
  The positions, in the region's column of index words, of the 32 words a trip reads: transfer `s` of trip `k`
  at grid point `i` reads the word at position `1024 i + 32 k + s`, the one for row `32 k + s` of block `i`.
-/
import proofs.«423058_j50337016709696_1_alg».proof.Proof.K.Rows1

noncomputable section

namespace Cert.Kernel.Hand

open Cert.Kernel Cert.Kernel.Gen
open Idealize.ShloMosaic

/-- The offsets the kernel computes for the position of transfer `s`'s index word. -/
def wordOff1 (i : grid1.Coords) (k : Fin k1_t1_loop.trips) : Fin 32 → Fin 1 → ℕ
  | ⟨0, _⟩ => k1_off1 i k
  | ⟨1, _⟩ => k1_off4 i k
  | ⟨2, _⟩ => k1_off7 i k
  | ⟨3, _⟩ => k1_off10 i k
  | ⟨4, _⟩ => k1_off13 i k
  | ⟨5, _⟩ => k1_off16 i k
  | ⟨6, _⟩ => k1_off19 i k
  | ⟨7, _⟩ => k1_off22 i k
  | ⟨8, _⟩ => k1_off25 i k
  | ⟨9, _⟩ => k1_off28 i k
  | ⟨10, _⟩ => k1_off31 i k
  | ⟨11, _⟩ => k1_off34 i k
  | ⟨12, _⟩ => k1_off37 i k
  | ⟨13, _⟩ => k1_off40 i k
  | ⟨14, _⟩ => k1_off43 i k
  | ⟨15, _⟩ => k1_off46 i k
  | ⟨16, _⟩ => k1_off49 i k
  | ⟨17, _⟩ => k1_off52 i k
  | ⟨18, _⟩ => k1_off55 i k
  | ⟨19, _⟩ => k1_off58 i k
  | ⟨20, _⟩ => k1_off61 i k
  | ⟨21, _⟩ => k1_off64 i k
  | ⟨22, _⟩ => k1_off67 i k
  | ⟨23, _⟩ => k1_off70 i k
  | ⟨24, _⟩ => k1_off73 i k
  | ⟨25, _⟩ => k1_off76 i k
  | ⟨26, _⟩ => k1_off79 i k
  | ⟨27, _⟩ => k1_off82 i k
  | ⟨28, _⟩ => k1_off85 i k
  | ⟨29, _⟩ => k1_off88 i k
  | ⟨30, _⟩ => k1_off91 i k
  | ⟨31, _⟩ => k1_off94 i k
  | ⟨_ + 32, h⟩ => absurd h (Nat.not_lt.2 (Nat.le_add_left _ _))

/-- Each position lies inside the column. -/
theorem wordOff1_inb (i : grid1.Coords) (k : Fin k1_t1_loop.trips) : ∀ (s : Fin 32) (a : Fin 1), wordOff1 i k s a + S1.size a ≤ S131072.size a
  | ⟨0, _⟩ => k1_off1_inb i k
  | ⟨1, _⟩ => k1_off4_inb i k
  | ⟨2, _⟩ => k1_off7_inb i k
  | ⟨3, _⟩ => k1_off10_inb i k
  | ⟨4, _⟩ => k1_off13_inb i k
  | ⟨5, _⟩ => k1_off16_inb i k
  | ⟨6, _⟩ => k1_off19_inb i k
  | ⟨7, _⟩ => k1_off22_inb i k
  | ⟨8, _⟩ => k1_off25_inb i k
  | ⟨9, _⟩ => k1_off28_inb i k
  | ⟨10, _⟩ => k1_off31_inb i k
  | ⟨11, _⟩ => k1_off34_inb i k
  | ⟨12, _⟩ => k1_off37_inb i k
  | ⟨13, _⟩ => k1_off40_inb i k
  | ⟨14, _⟩ => k1_off43_inb i k
  | ⟨15, _⟩ => k1_off46_inb i k
  | ⟨16, _⟩ => k1_off49_inb i k
  | ⟨17, _⟩ => k1_off52_inb i k
  | ⟨18, _⟩ => k1_off55_inb i k
  | ⟨19, _⟩ => k1_off58_inb i k
  | ⟨20, _⟩ => k1_off61_inb i k
  | ⟨21, _⟩ => k1_off64_inb i k
  | ⟨22, _⟩ => k1_off67_inb i k
  | ⟨23, _⟩ => k1_off70_inb i k
  | ⟨24, _⟩ => k1_off73_inb i k
  | ⟨25, _⟩ => k1_off76_inb i k
  | ⟨26, _⟩ => k1_off79_inb i k
  | ⟨27, _⟩ => k1_off82_inb i k
  | ⟨28, _⟩ => k1_off85_inb i k
  | ⟨29, _⟩ => k1_off88_inb i k
  | ⟨30, _⟩ => k1_off91_inb i k
  | ⟨31, _⟩ => k1_off94_inb i k
  | ⟨_ + 32, h⟩ => absurd h (Nat.not_lt.2 (Nat.le_add_left _ _))

/-- In closed form the position is `1024 i + 32 k + s`. -/
theorem wordOff1_eq (i : grid1.Coords) (k : Fin k1_t1_loop.trips) : ∀ s : Fin 32, wordOff1 i k s = ![1024 * (i 0).val + 32 * k.val + s.val]
  | ⟨0, _⟩ => k1_off1_eq i k
  | ⟨1, _⟩ => k1_off4_eq i k
  | ⟨2, _⟩ => k1_off7_eq i k
  | ⟨3, _⟩ => k1_off10_eq i k
  | ⟨4, _⟩ => k1_off13_eq i k
  | ⟨5, _⟩ => k1_off16_eq i k
  | ⟨6, _⟩ => k1_off19_eq i k
  | ⟨7, _⟩ => k1_off22_eq i k
  | ⟨8, _⟩ => k1_off25_eq i k
  | ⟨9, _⟩ => k1_off28_eq i k
  | ⟨10, _⟩ => k1_off31_eq i k
  | ⟨11, _⟩ => k1_off34_eq i k
  | ⟨12, _⟩ => k1_off37_eq i k
  | ⟨13, _⟩ => k1_off40_eq i k
  | ⟨14, _⟩ => k1_off43_eq i k
  | ⟨15, _⟩ => k1_off46_eq i k
  | ⟨16, _⟩ => k1_off49_eq i k
  | ⟨17, _⟩ => k1_off52_eq i k
  | ⟨18, _⟩ => k1_off55_eq i k
  | ⟨19, _⟩ => k1_off58_eq i k
  | ⟨20, _⟩ => k1_off61_eq i k
  | ⟨21, _⟩ => k1_off64_eq i k
  | ⟨22, _⟩ => k1_off67_eq i k
  | ⟨23, _⟩ => k1_off70_eq i k
  | ⟨24, _⟩ => k1_off73_eq i k
  | ⟨25, _⟩ => k1_off76_eq i k
  | ⟨26, _⟩ => k1_off79_eq i k
  | ⟨27, _⟩ => k1_off82_eq i k
  | ⟨28, _⟩ => k1_off85_eq i k
  | ⟨29, _⟩ => k1_off88_eq i k
  | ⟨30, _⟩ => k1_off91_eq i k
  | ⟨31, _⟩ => k1_off94_eq i k
  | ⟨_ + 32, h⟩ => absurd h (Nat.not_lt.2 (Nat.le_add_left _ _))

end Cert.Kernel.Hand

end
-- ==== Proof.K.Handback1.lean ====
/-
  After a trip, everything the trip borrowed is back: the column, the table's read shares, the counters at zero,
  and the scratch whole again at its final contents (its 16 rows held apart rejoined).
-/
import proofs.«423058_j50337016709696_1_alg».proof.Proof.K.Rejoin
import proofs.«423058_j50337016709696_1_alg».proof.Proof.K.Cells1

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- 80 resources are sorted into their places and 16 rows rejoined
set_option maxHeartbeats 4000000 in
theorem handback1 (c : Dev nD) (hsc : (Memref.whole cc1_scratch0).IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32)
    (f : Bf (F := F) c (Memref.whole cc1_scratch0))
    (col : Bf (F := F) c (Memref.whole main_v6)) (tb : Bf (F := F) c (Memref.whole main_v8)) (W : Waits sig Unit) :
    let sc := Memref.whole cc1_scratch0
    (iprop(pt c (Memref.whole main_v6) col
        ∗ (ptq c (Memref.whole main_v8) (Transfers.shareTokN fullShare 36) tb
        ∗ ptq c (Memref.whole main_v8) (Transfers.shareTokN fullShare 37) tb
        ∗ ptq c (Memref.whole main_v8) (Transfers.shareTokN fullShare 38) tb
        ∗ ptq c (Memref.whole main_v8) (Transfers.shareTokN fullShare 39) tb
        ∗ ptq c (Memref.whole main_v8) (Transfers.shareTokN fullShare 40) tb
        ∗ ptq c (Memref.whole main_v8) (Transfers.shareTokN fullShare 41) tb
        ∗ ptq c (Memref.whole main_v8) (Transfers.shareTokN fullShare 42) tb
        ∗ ptq c (Memref.whole main_v8) (Transfers.shareTokN fullShare 43) tb
        ∗ ptq c (Memref.whole main_v8) (Transfers.shareTokN fullShare 44) tb
        ∗ ptq c (Memref.whole main_v8) (Transfers.shareTokN fullShare 45) tb
        ∗ ptq c (Memref.whole main_v8) (Transfers.shareTokN fullShare 46) tb
        ∗ ptq c (Memref.whole main_v8) (Transfers.shareTokN fullShare 47) tb
        ∗ ptq c (Memref.whole main_v8) (Transfers.shareTokN fullShare 48) tb
        ∗ ptq c (Memref.whole main_v8) (Transfers.shareTokN fullShare 49) tb
        ∗ ptq c (Memref.whole main_v8) (Transfers.shareTokN fullShare 50) tb
        ∗ ptq c (Memref.whole main_v8) (Transfers.shareTokN fullShare 51) tb
        ∗ ptq c (Memref.whole main_v8) (Transfers.shareTokN fullShare 52) tb
        ∗ ptq c (Memref.whole main_v8) (Transfers.shareTokN fullShare 53) tb
        ∗ ptq c (Memref.whole main_v8) (Transfers.shareTokN fullShare 54) tb
        ∗ ptq c (Memref.whole main_v8) (Transfers.shareTokN fullShare 55) tb
        ∗ ptq c (Memref.whole main_v8) (Transfers.shareTokN fullShare 56) tb
        ∗ ptq c (Memref.whole main_v8) (Transfers.shareTokN fullShare 57) tb
        ∗ ptq c (Memref.whole main_v8) (Transfers.shareTokN fullShare 58) tb
        ∗ ptq c (Memref.whole main_v8) (Transfers.shareTokN fullShare 59) tb
        ∗ ptq c (Memref.whole main_v8) (Transfers.shareTokN fullShare 60) tb
        ∗ ptq c (Memref.whole main_v8) (Transfers.shareTokN fullShare 61) tb
        ∗ ptq c (Memref.whole main_v8) (Transfers.shareTokN fullShare 62) tb
        ∗ ptq c (Memref.whole main_v8) (Transfers.shareTokN fullShare 63) tb
        ∗ ptq c (Memref.whole main_v8) (Transfers.shareTokN fullShare 64) tb
        ∗ ptq c (Memref.whole main_v8) (Transfers.shareTokN fullShare 65) tb
        ∗ ptq c (Memref.whole main_v8) (Transfers.shareTokN fullShare 66) tb
        ∗ ptq c (Memref.whole main_v8) (Transfers.shareTokN fullShare 67) tb)
        ∗ ((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega)))
        ∗ (semVal ((c : Thread nD τ), (SemLoc.dma 36 : SemLoc sig)) 0
        ∗ semVal ((c : Thread nD τ), (SemLoc.dma 37 : SemLoc sig)) 0
        ∗ semVal ((c : Thread nD τ), (SemLoc.dma 38 : SemLoc sig)) 0
        ∗ semVal ((c : Thread nD τ), (SemLoc.dma 39 : SemLoc sig)) 0
        ∗ semVal ((c : Thread nD τ), (SemLoc.dma 40 : SemLoc sig)) 0
        ∗ semVal ((c : Thread nD τ), (SemLoc.dma 41 : SemLoc sig)) 0
        ∗ semVal ((c : Thread nD τ), (SemLoc.dma 42 : SemLoc sig)) 0
        ∗ semVal ((c : Thread nD τ), (SemLoc.dma 43 : SemLoc sig)) 0
        ∗ semVal ((c : Thread nD τ), (SemLoc.dma 44 : SemLoc sig)) 0
        ∗ semVal ((c : Thread nD τ), (SemLoc.dma 45 : SemLoc sig)) 0
        ∗ semVal ((c : Thread nD τ), (SemLoc.dma 46 : SemLoc sig)) 0
        ∗ semVal ((c : Thread nD τ), (SemLoc.dma 47 : SemLoc sig)) 0
        ∗ semVal ((c : Thread nD τ), (SemLoc.dma 48 : SemLoc sig)) 0
        ∗ semVal ((c : Thread nD τ), (SemLoc.dma 49 : SemLoc sig)) 0
        ∗ semVal ((c : Thread nD τ), (SemLoc.dma 50 : SemLoc sig)) 0
        ∗ semVal ((c : Thread nD τ), (SemLoc.dma 51 : SemLoc sig)) 0
        ∗ semVal ((c : Thread nD τ), (SemLoc.dma 52 : SemLoc sig)) 0
        ∗ semVal ((c : Thread nD τ), (SemLoc.dma 53 : SemLoc sig)) 0
        ∗ semVal ((c : Thread nD τ), (SemLoc.dma 54 : SemLoc sig)) 0
        ∗ semVal ((c : Thread nD τ), (SemLoc.dma 55 : SemLoc sig)) 0
        ∗ semVal ((c : Thread nD τ), (SemLoc.dma 56 : SemLoc sig)) 0
        ∗ semVal ((c : Thread nD τ), (SemLoc.dma 57 : SemLoc sig)) 0
        ∗ semVal ((c : Thread nD τ), (SemLoc.dma 58 : SemLoc sig)) 0
        ∗ semVal ((c : Thread nD τ), (SemLoc.dma 59 : SemLoc sig)) 0
        ∗ semVal ((c : Thread nD τ), (SemLoc.dma 60 : SemLoc sig)) 0
        ∗ semVal ((c : Thread nD τ), (SemLoc.dma 61 : SemLoc sig)) 0
        ∗ semVal ((c : Thread nD τ), (SemLoc.dma 62 : SemLoc sig)) 0
        ∗ semVal ((c : Thread nD τ), (SemLoc.dma 63 : SemLoc sig)) 0
        ∗ semVal ((c : Thread nD τ), (SemLoc.dma 64 : SemLoc sig)) 0
        ∗ semVal ((c : Thread nD τ), (SemLoc.dma 65 : SemLoc sig)) 0
        ∗ semVal ((c : Thread nD τ), (SemLoc.dma 66 : SemLoc sig)) 0
        ∗ semVal ((c : Thread nD τ), (SemLoc.dma 67 : SemLoc sig)) 0)
        ∗ owes (c : Thread nD τ) 0 W) : sProp (𝕄K F))
      ⊢ iprop((pt c (Memref.whole main_v6) col ∗ toks1 c tb ∗ pt c sc (writeRows sc off h p f 32 (le_refl _)) ∗ sems1 c)
          ∗ ∃ W', owes (c : Thread nD τ) 0 W') := by
  intro sc
  iintro ⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hs, Hw0, Hw1, Hw2, Hw3, Hw4, Hw5, Hw6, Hw7, Hw8, Hw9, Hw10, Hw11, Hw12, Hw13, Hw14, Hw15⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO⟩
  isplitr [HO]; swap
  · iexists _; iexact HO
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks1
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hs Hw0 Hw1 Hw2 Hw3 Hw4 Hw5 Hw6 Hw7 Hw8 Hw9 Hw10 Hw11 Hw12 Hw13 Hw14 Hw15]
  · iapply (rejoin16 c sc hsc off ρ hoff hρ h p f)
    isplitl [Hs]; · iexact Hs
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  unfold sems1
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  isplitl [Hd23]; · iexact Hd23
  isplitl [Hd24]; · iexact Hd24
  isplitl [Hd25]; · iexact Hd25
  isplitl [Hd26]; · iexact Hd26
  isplitl [Hd27]; · iexact Hd27
  isplitl [Hd28]; · iexact Hd28
  isplitl [Hd29]; · iexact Hd29
  isplitl [Hd30]; · iexact Hd30
  iexact Hd31

end Cert.Kernel.Hand

end
-- ==== Proof.K.Trip1.lean ====
/-
  One trip of the second region's loop.  Before trip `k` the scratch holds the rows filled so far; the trip
  starts 32 transfers, one per row `32 k` to `32 k + 31`, each reading the table row its index word names,
  and waits for all of them; afterwards those 32 rows are filled too and nothing else has changed.
-/
import proofs.«423058_j50337016709696_1_alg».proof.Proof.K.Cells1
import proofs.«423058_j50337016709696_1_alg».proof.Proof.K.Rows1
import proofs.«423058_j50337016709696_1_alg».proof.Proof.K.Rejoin
import proofs.«423058_j50337016709696_1_alg».proof.Proof.K.GathStep
import proofs.«423058_j50337016709696_1_alg».proof.Proof.K.Payload
import proofs.«423058_j50337016709696_1_alg».proof.Proof.K.Words1
import proofs.«423058_j50337016709696_1_alg».proof.Proof.K.Handback1
import proofs.«423058_j50337016709696_1_alg».proof.Proof.K.RowWritesMore

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a trip needs and gives back, the scratch at raw contents `fs`: the column, the table held for reading, the
    scratch, the counters at zero.  (The result's staging block is not among them: a trip never touches it.) -/
abbrev Trip1 (c : Dev nD) (h1 : (Memref.whole main_v6).IsWhole)
    (h2 : (Memref.whole main_v8).IsWhole) (X : S131072.Idx → Elt F .i32) (u : S500000x32.Idx → Elt F .f32)
    (fs : Bf (F := F) c (Memref.whole cc1_scratch0)) : sProp (𝕄K F) :=
  iprop(pt c (Memref.whole main_v6) (h1.unread X) ∗ toks1 c (h2.unread u)
    ∗ pt c (Memref.whole cc1_scratch0) fs ∗ sems1 c)

-- one trip is 32 transfers started and then 32 awaited, run in one go, and 16 rows rejoined after it
set_option maxHeartbeats 40000000 in
/-- ONE trip: from the scratch reading as `Gather.gath X u i f₀ k` to the scratch reading as `Gather.gath X u i f₀ (k + 1)`,
    everything else as it was. -/
theorem trip1 (c : Dev nD) (i : grid1.Coords) (M3 : Memref sig .tc .vmem S1024x32 .f32) (h3 : M3.IsWhole)
    (h1 : (Memref.whole main_v6).IsWhole) (h2 : (Memref.whole main_v8).IsWhole) (h4 : (Memref.whole cc1_scratch0).IsWhole)
    (X : S131072.Idx → Elt F .i32) (hX : ∀ j, (X j).toNat < 500000) (u : S500000x32.Idx → Elt F .f32)
    (f₀ : S1024x32.Idx → Elt F .f32) (fs : Bf (F := F) c (Memref.whole cc1_scratch0))
    (k : Fin k1_t1_loop.trips) (hfs : (Memref.whole cc1_scratch0).view.read (Elt F) fs = Cert.Gather.gath X u (blk1 i) f₀ k.val)
    (W : Waits sig Unit) (Q : Unit → sProp (𝕄K F)) :
    iprop(Trip1 c h1 h2 X u fs ∗ owes (c : Thread nD τ) 0 W
        ∗ (iprop(∃ fs' : Bf (F := F) c (Memref.whole cc1_scratch0),
              ⌜(Memref.whole cc1_scratch0).view.read (Elt F) fs' = Cert.Gather.gath X u (blk1 i) f₀ (k.val + 1)⌝
              ∗ Trip1 c h1 h2 X u fs' ∗ (∃ W', owes (c : Thread nD τ) 0 W')) -∗ Q ()))
      ⊢ wp frame (wpE (defs₀ (F := F)) Variants.none c none) Set.univ
          (k1_t1_body i (Memref.whole main_v6) h1 (Memref.whole main_v8) h2 M3 h3 (Memref.whole cc1_scratch0) h4 cc1_scratch1
            (Scalar.muli (BitVec.ofNat 32 (i 0).val) 1024#32) k ()) Q := by
  unfold k1_t1_body
  iintro ⟨⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, Hs, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩⟩, HO, Hk⟩
  sl_exec (disch := (sl_unfold_run_names; obtain ⟨j, hj⟩ := h1.exists_readAt_unread X _ _; rw [hj]; exact row_inb _ (hX j)))
  sl_step
  -- the 32 transfers' payloads, as one family (the run's own names)
  let pay : Fin 32 → S32.Idx → Elt F .f32 := fun s => match s with
    | ⟨0, _⟩ => trip1.sl.dma1 i h1 h2 X hX u k
    | ⟨1, _⟩ => trip1.sl.dma2 i h1 h2 X hX u k
    | ⟨2, _⟩ => trip1.sl.dma3 i h1 h2 X hX u k
    | ⟨3, _⟩ => trip1.sl.dma4 i h1 h2 X hX u k
    | ⟨4, _⟩ => trip1.sl.dma5 i h1 h2 X hX u k
    | ⟨5, _⟩ => trip1.sl.dma6 i h1 h2 X hX u k
    | ⟨6, _⟩ => trip1.sl.dma7 i h1 h2 X hX u k
    | ⟨7, _⟩ => trip1.sl.dma8 i h1 h2 X hX u k
    | ⟨8, _⟩ => trip1.sl.dma9 i h1 h2 X hX u k
    | ⟨9, _⟩ => trip1.sl.dma10 i h1 h2 X hX u k
    | ⟨10, _⟩ => trip1.sl.dma11 i h1 h2 X hX u k
    | ⟨11, _⟩ => trip1.sl.dma12 i h1 h2 X hX u k
    | ⟨12, _⟩ => trip1.sl.dma13 i h1 h2 X hX u k
    | ⟨13, _⟩ => trip1.sl.dma14 i h1 h2 X hX u k
    | ⟨14, _⟩ => trip1.sl.dma15 i h1 h2 X hX u k
    | ⟨15, _⟩ => trip1.sl.dma16 i h1 h2 X hX u k
    | ⟨16, _⟩ => trip1.sl.dma17 i h1 h2 X hX u k
    | ⟨17, _⟩ => trip1.sl.dma18 i h1 h2 X hX u k
    | ⟨18, _⟩ => trip1.sl.dma19 i h1 h2 X hX u k
    | ⟨19, _⟩ => trip1.sl.dma20 i h1 h2 X hX u k
    | ⟨20, _⟩ => trip1.sl.dma21 i h1 h2 X hX u k
    | ⟨21, _⟩ => trip1.sl.dma22 i h1 h2 X hX u k
    | ⟨22, _⟩ => trip1.sl.dma23 i h1 h2 X hX u k
    | ⟨23, _⟩ => trip1.sl.dma24 i h1 h2 X hX u k
    | ⟨24, _⟩ => trip1.sl.dma25 i h1 h2 X hX u k
    | ⟨25, _⟩ => trip1.sl.dma26 i h1 h2 X hX u k
    | ⟨26, _⟩ => trip1.sl.dma27 i h1 h2 X hX u k
    | ⟨27, _⟩ => trip1.sl.dma28 i h1 h2 X hX u k
    | ⟨28, _⟩ => trip1.sl.dma29 i h1 h2 X hX u k
    | ⟨29, _⟩ => trip1.sl.dma30 i h1 h2 X hX u k
    | ⟨30, _⟩ => trip1.sl.dma31 i h1 h2 X hX u k
    | ⟨31, _⟩ => trip1.sl.dma32 i h1 h2 X hX u k
    | ⟨_ + 32, h⟩ => absurd h (Nat.not_lt.2 (Nat.le_add_left _ _))
  -- the scratch after r + 1 of the transfers have landed is the run's name for it
  have e0 : trip1.sl.Hs_w0 c i h1 h2 X hX u fs k = writeRows (Memref.whole cc1_scratch0) (dstOff1 k) (dstOff1_inb k) pay fs (0 + 1) (by omega) := by
    rw [writeRows_succ]; rfl
  have e1 : trip1.sl.Hs_w1 c i h1 h2 X hX u fs k = writeRows (Memref.whole cc1_scratch0) (dstOff1 k) (dstOff1_inb k) pay fs (1 + 1) (by omega) := by
    rw [writeRows_succ, ← e0]; rfl
  have e2 : trip1.sl.Hs_w2 c i h1 h2 X hX u fs k = writeRows (Memref.whole cc1_scratch0) (dstOff1 k) (dstOff1_inb k) pay fs (2 + 1) (by omega) := by
    rw [writeRows_succ, ← e1]; rfl
  have e3 : trip1.sl.Hs_w3 c i h1 h2 X hX u fs k = writeRows (Memref.whole cc1_scratch0) (dstOff1 k) (dstOff1_inb k) pay fs (3 + 1) (by omega) := by
    rw [writeRows_succ, ← e2]; rfl
  have e4 : trip1.sl.Hs_w4 c i h1 h2 X hX u fs k = writeRows (Memref.whole cc1_scratch0) (dstOff1 k) (dstOff1_inb k) pay fs (4 + 1) (by omega) := by
    rw [writeRows_succ, ← e3]; rfl
  have e5 : trip1.sl.Hs_w5 c i h1 h2 X hX u fs k = writeRows (Memref.whole cc1_scratch0) (dstOff1 k) (dstOff1_inb k) pay fs (5 + 1) (by omega) := by
    rw [writeRows_succ, ← e4]; rfl
  have e6 : trip1.sl.Hs_w6 c i h1 h2 X hX u fs k = writeRows (Memref.whole cc1_scratch0) (dstOff1 k) (dstOff1_inb k) pay fs (6 + 1) (by omega) := by
    rw [writeRows_succ, ← e5]; rfl
  have e7 : trip1.sl.Hs_w7 c i h1 h2 X hX u fs k = writeRows (Memref.whole cc1_scratch0) (dstOff1 k) (dstOff1_inb k) pay fs (7 + 1) (by omega) := by
    rw [writeRows_succ, ← e6]; rfl
  have e8 : trip1.sl.Hs_w8 c i h1 h2 X hX u fs k = writeRows (Memref.whole cc1_scratch0) (dstOff1 k) (dstOff1_inb k) pay fs (8 + 1) (by omega) := by
    rw [writeRows_succ, ← e7]; rfl
  have e9 : trip1.sl.Hs_w9 c i h1 h2 X hX u fs k = writeRows (Memref.whole cc1_scratch0) (dstOff1 k) (dstOff1_inb k) pay fs (9 + 1) (by omega) := by
    rw [writeRows_succ, ← e8]; rfl
  have e10 : trip1.sl.Hs_w10 c i h1 h2 X hX u fs k = writeRows (Memref.whole cc1_scratch0) (dstOff1 k) (dstOff1_inb k) pay fs (10 + 1) (by omega) := by
    rw [writeRows_succ, ← e9]; rfl
  have e11 : trip1.sl.Hs_w11 c i h1 h2 X hX u fs k = writeRows (Memref.whole cc1_scratch0) (dstOff1 k) (dstOff1_inb k) pay fs (11 + 1) (by omega) := by
    rw [writeRows_succ, ← e10]; rfl
  have e12 : trip1.sl.Hs_w12 c i h1 h2 X hX u fs k = writeRows (Memref.whole cc1_scratch0) (dstOff1 k) (dstOff1_inb k) pay fs (12 + 1) (by omega) := by
    rw [writeRows_succ, ← e11]; rfl
  have e13 : trip1.sl.Hs_w13 c i h1 h2 X hX u fs k = writeRows (Memref.whole cc1_scratch0) (dstOff1 k) (dstOff1_inb k) pay fs (13 + 1) (by omega) := by
    rw [writeRows_succ, ← e12]; rfl
  have e14 : trip1.sl.Hs_w14 c i h1 h2 X hX u fs k = writeRows (Memref.whole cc1_scratch0) (dstOff1 k) (dstOff1_inb k) pay fs (14 + 1) (by omega) := by
    rw [writeRows_succ, ← e13]; rfl
  have e15 : trip1.sl.Hs_w15 c i h1 h2 X hX u fs k = writeRows (Memref.whole cc1_scratch0) (dstOff1 k) (dstOff1_inb k) pay fs (15 + 1) (by omega) := by
    rw [writeRows_succ, ← e14]; rfl
  have e16 : trip1.sl.Hs_w16 c i h1 h2 X hX u fs k = writeRows (Memref.whole cc1_scratch0) (dstOff1 k) (dstOff1_inb k) pay fs (16 + 1) (by omega) := by
    rw [writeRows_succ, ← e15]; rfl
  have e17 : trip1.sl.Hs_w17 c i h1 h2 X hX u fs k = writeRows (Memref.whole cc1_scratch0) (dstOff1 k) (dstOff1_inb k) pay fs (17 + 1) (by omega) := by
    rw [writeRows_succ, ← e16]; rfl
  have e18 : trip1.sl.Hs_w18 c i h1 h2 X hX u fs k = writeRows (Memref.whole cc1_scratch0) (dstOff1 k) (dstOff1_inb k) pay fs (18 + 1) (by omega) := by
    rw [writeRows_succ, ← e17]; rfl
  have e19 : trip1.sl.Hs_w19 c i h1 h2 X hX u fs k = writeRows (Memref.whole cc1_scratch0) (dstOff1 k) (dstOff1_inb k) pay fs (19 + 1) (by omega) := by
    rw [writeRows_succ, ← e18]; rfl
  have e20 : trip1.sl.Hs_w20 c i h1 h2 X hX u fs k = writeRows (Memref.whole cc1_scratch0) (dstOff1 k) (dstOff1_inb k) pay fs (20 + 1) (by omega) := by
    rw [writeRows_succ, ← e19]; rfl
  have e21 : trip1.sl.Hs_w21 c i h1 h2 X hX u fs k = writeRows (Memref.whole cc1_scratch0) (dstOff1 k) (dstOff1_inb k) pay fs (21 + 1) (by omega) := by
    rw [writeRows_succ, ← e20]; rfl
  have e22 : trip1.sl.Hs_w22 c i h1 h2 X hX u fs k = writeRows (Memref.whole cc1_scratch0) (dstOff1 k) (dstOff1_inb k) pay fs (22 + 1) (by omega) := by
    rw [writeRows_succ, ← e21]; rfl
  have e23 : trip1.sl.Hs_w23 c i h1 h2 X hX u fs k = writeRows (Memref.whole cc1_scratch0) (dstOff1 k) (dstOff1_inb k) pay fs (23 + 1) (by omega) := by
    rw [writeRows_succ, ← e22]; rfl
  have e24 : trip1.sl.Hs_w24 c i h1 h2 X hX u fs k = writeRows (Memref.whole cc1_scratch0) (dstOff1 k) (dstOff1_inb k) pay fs (24 + 1) (by omega) := by
    rw [writeRows_succ, ← e23]; rfl
  have e25 : trip1.sl.Hs_w25 c i h1 h2 X hX u fs k = writeRows (Memref.whole cc1_scratch0) (dstOff1 k) (dstOff1_inb k) pay fs (25 + 1) (by omega) := by
    rw [writeRows_succ, ← e24]; rfl
  have e26 : trip1.sl.Hs_w26 c i h1 h2 X hX u fs k = writeRows (Memref.whole cc1_scratch0) (dstOff1 k) (dstOff1_inb k) pay fs (26 + 1) (by omega) := by
    rw [writeRows_succ, ← e25]; rfl
  have e27 : trip1.sl.Hs_w27 c i h1 h2 X hX u fs k = writeRows (Memref.whole cc1_scratch0) (dstOff1 k) (dstOff1_inb k) pay fs (27 + 1) (by omega) := by
    rw [writeRows_succ, ← e26]; rfl
  have e28 : trip1.sl.Hs_w28 c i h1 h2 X hX u fs k = writeRows (Memref.whole cc1_scratch0) (dstOff1 k) (dstOff1_inb k) pay fs (28 + 1) (by omega) := by
    rw [writeRows_succ, ← e27]; rfl
  have e29 : trip1.sl.Hs_w29 c i h1 h2 X hX u fs k = writeRows (Memref.whole cc1_scratch0) (dstOff1 k) (dstOff1_inb k) pay fs (29 + 1) (by omega) := by
    rw [writeRows_succ, ← e28]; rfl
  have e30 : trip1.sl.Hs_w30 c i h1 h2 X hX u fs k = writeRows (Memref.whole cc1_scratch0) (dstOff1 k) (dstOff1_inb k) pay fs (30 + 1) (by omega) := by
    rw [writeRows_succ, ← e29]; rfl
  have e31 : trip1.sl.Hs_w31 c i h1 h2 X hX u fs k = writeRows (Memref.whole cc1_scratch0) (dstOff1 k) (dstOff1_inb k) pay fs (31 + 1) (by omega) := by
    rw [writeRows_succ, ← e30]; rfl
  -- each transfer carries the table row the specification fills its row from
  have hpAll : ∀ (s : Fin 32) (l : S32.Idx), pay s l = u (ValueIdx.ix2 (Cert.Gather.srcRow X (blk1 i) (dstRow1 k s)) (l 0)) := fun s => match s with
    | ⟨0, _⟩ => fun l => payload_row (Memref.whole main_v6) (Memref.whole main_v8) h1 h2 X hX u (blk1 i) (dstRow1 k ⟨0, by decide⟩) (wordOff1 i k ⟨0, by decide⟩) (wordOff1_inb i k ⟨0, by decide⟩) (by rw [wordOff1_eq]; rfl) _ (trip1.sl.r i h1 X k) rfl (k1_off3 (trip1.sl.r i h1 X k)) _ rfl (trip1.sl.dma1 i h1 h2 X hX u k) rfl l
    | ⟨1, _⟩ => fun l => payload_row (Memref.whole main_v6) (Memref.whole main_v8) h1 h2 X hX u (blk1 i) (dstRow1 k ⟨1, by decide⟩) (wordOff1 i k ⟨1, by decide⟩) (wordOff1_inb i k ⟨1, by decide⟩) (by rw [wordOff1_eq]; rfl) _ (trip1.sl.r_1 i h1 X k) rfl (k1_off6 (trip1.sl.r_1 i h1 X k)) _ rfl (trip1.sl.dma2 i h1 h2 X hX u k) rfl l
    | ⟨2, _⟩ => fun l => payload_row (Memref.whole main_v6) (Memref.whole main_v8) h1 h2 X hX u (blk1 i) (dstRow1 k ⟨2, by decide⟩) (wordOff1 i k ⟨2, by decide⟩) (wordOff1_inb i k ⟨2, by decide⟩) (by rw [wordOff1_eq]; rfl) _ (trip1.sl.r_2 i h1 X k) rfl (k1_off9 (trip1.sl.r_2 i h1 X k)) _ rfl (trip1.sl.dma3 i h1 h2 X hX u k) rfl l
    | ⟨3, _⟩ => fun l => payload_row (Memref.whole main_v6) (Memref.whole main_v8) h1 h2 X hX u (blk1 i) (dstRow1 k ⟨3, by decide⟩) (wordOff1 i k ⟨3, by decide⟩) (wordOff1_inb i k ⟨3, by decide⟩) (by rw [wordOff1_eq]; rfl) _ (trip1.sl.r_3 i h1 X k) rfl (k1_off12 (trip1.sl.r_3 i h1 X k)) _ rfl (trip1.sl.dma4 i h1 h2 X hX u k) rfl l
    | ⟨4, _⟩ => fun l => payload_row (Memref.whole main_v6) (Memref.whole main_v8) h1 h2 X hX u (blk1 i) (dstRow1 k ⟨4, by decide⟩) (wordOff1 i k ⟨4, by decide⟩) (wordOff1_inb i k ⟨4, by decide⟩) (by rw [wordOff1_eq]; rfl) _ (trip1.sl.r_4 i h1 X k) rfl (k1_off15 (trip1.sl.r_4 i h1 X k)) _ rfl (trip1.sl.dma5 i h1 h2 X hX u k) rfl l
    | ⟨5, _⟩ => fun l => payload_row (Memref.whole main_v6) (Memref.whole main_v8) h1 h2 X hX u (blk1 i) (dstRow1 k ⟨5, by decide⟩) (wordOff1 i k ⟨5, by decide⟩) (wordOff1_inb i k ⟨5, by decide⟩) (by rw [wordOff1_eq]; rfl) _ (trip1.sl.r_5 i h1 X k) rfl (k1_off18 (trip1.sl.r_5 i h1 X k)) _ rfl (trip1.sl.dma6 i h1 h2 X hX u k) rfl l
    | ⟨6, _⟩ => fun l => payload_row (Memref.whole main_v6) (Memref.whole main_v8) h1 h2 X hX u (blk1 i) (dstRow1 k ⟨6, by decide⟩) (wordOff1 i k ⟨6, by decide⟩) (wordOff1_inb i k ⟨6, by decide⟩) (by rw [wordOff1_eq]; rfl) _ (trip1.sl.r_6 i h1 X k) rfl (k1_off21 (trip1.sl.r_6 i h1 X k)) _ rfl (trip1.sl.dma7 i h1 h2 X hX u k) rfl l
    | ⟨7, _⟩ => fun l => payload_row (Memref.whole main_v6) (Memref.whole main_v8) h1 h2 X hX u (blk1 i) (dstRow1 k ⟨7, by decide⟩) (wordOff1 i k ⟨7, by decide⟩) (wordOff1_inb i k ⟨7, by decide⟩) (by rw [wordOff1_eq]; rfl) _ (trip1.sl.r_7 i h1 X k) rfl (k1_off24 (trip1.sl.r_7 i h1 X k)) _ rfl (trip1.sl.dma8 i h1 h2 X hX u k) rfl l
    | ⟨8, _⟩ => fun l => payload_row (Memref.whole main_v6) (Memref.whole main_v8) h1 h2 X hX u (blk1 i) (dstRow1 k ⟨8, by decide⟩) (wordOff1 i k ⟨8, by decide⟩) (wordOff1_inb i k ⟨8, by decide⟩) (by rw [wordOff1_eq]; rfl) _ (trip1.sl.r_8 i h1 X k) rfl (k1_off27 (trip1.sl.r_8 i h1 X k)) _ rfl (trip1.sl.dma9 i h1 h2 X hX u k) rfl l
    | ⟨9, _⟩ => fun l => payload_row (Memref.whole main_v6) (Memref.whole main_v8) h1 h2 X hX u (blk1 i) (dstRow1 k ⟨9, by decide⟩) (wordOff1 i k ⟨9, by decide⟩) (wordOff1_inb i k ⟨9, by decide⟩) (by rw [wordOff1_eq]; rfl) _ (trip1.sl.r_9 i h1 X k) rfl (k1_off30 (trip1.sl.r_9 i h1 X k)) _ rfl (trip1.sl.dma10 i h1 h2 X hX u k) rfl l
    | ⟨10, _⟩ => fun l => payload_row (Memref.whole main_v6) (Memref.whole main_v8) h1 h2 X hX u (blk1 i) (dstRow1 k ⟨10, by decide⟩) (wordOff1 i k ⟨10, by decide⟩) (wordOff1_inb i k ⟨10, by decide⟩) (by rw [wordOff1_eq]; rfl) _ (trip1.sl.r_10 i h1 X k) rfl (k1_off33 (trip1.sl.r_10 i h1 X k)) _ rfl (trip1.sl.dma11 i h1 h2 X hX u k) rfl l
    | ⟨11, _⟩ => fun l => payload_row (Memref.whole main_v6) (Memref.whole main_v8) h1 h2 X hX u (blk1 i) (dstRow1 k ⟨11, by decide⟩) (wordOff1 i k ⟨11, by decide⟩) (wordOff1_inb i k ⟨11, by decide⟩) (by rw [wordOff1_eq]; rfl) _ (trip1.sl.r_11 i h1 X k) rfl (k1_off36 (trip1.sl.r_11 i h1 X k)) _ rfl (trip1.sl.dma12 i h1 h2 X hX u k) rfl l
    | ⟨12, _⟩ => fun l => payload_row (Memref.whole main_v6) (Memref.whole main_v8) h1 h2 X hX u (blk1 i) (dstRow1 k ⟨12, by decide⟩) (wordOff1 i k ⟨12, by decide⟩) (wordOff1_inb i k ⟨12, by decide⟩) (by rw [wordOff1_eq]; rfl) _ (trip1.sl.r_12 i h1 X k) rfl (k1_off39 (trip1.sl.r_12 i h1 X k)) _ rfl (trip1.sl.dma13 i h1 h2 X hX u k) rfl l
    | ⟨13, _⟩ => fun l => payload_row (Memref.whole main_v6) (Memref.whole main_v8) h1 h2 X hX u (blk1 i) (dstRow1 k ⟨13, by decide⟩) (wordOff1 i k ⟨13, by decide⟩) (wordOff1_inb i k ⟨13, by decide⟩) (by rw [wordOff1_eq]; rfl) _ (trip1.sl.r_13 i h1 X k) rfl (k1_off42 (trip1.sl.r_13 i h1 X k)) _ rfl (trip1.sl.dma14 i h1 h2 X hX u k) rfl l
    | ⟨14, _⟩ => fun l => payload_row (Memref.whole main_v6) (Memref.whole main_v8) h1 h2 X hX u (blk1 i) (dstRow1 k ⟨14, by decide⟩) (wordOff1 i k ⟨14, by decide⟩) (wordOff1_inb i k ⟨14, by decide⟩) (by rw [wordOff1_eq]; rfl) _ (trip1.sl.r_14 i h1 X k) rfl (k1_off45 (trip1.sl.r_14 i h1 X k)) _ rfl (trip1.sl.dma15 i h1 h2 X hX u k) rfl l
    | ⟨15, _⟩ => fun l => payload_row (Memref.whole main_v6) (Memref.whole main_v8) h1 h2 X hX u (blk1 i) (dstRow1 k ⟨15, by decide⟩) (wordOff1 i k ⟨15, by decide⟩) (wordOff1_inb i k ⟨15, by decide⟩) (by rw [wordOff1_eq]; rfl) _ (trip1.sl.r_15 i h1 X k) rfl (k1_off48 (trip1.sl.r_15 i h1 X k)) _ rfl (trip1.sl.dma16 i h1 h2 X hX u k) rfl l
    | ⟨16, _⟩ => fun l => payload_row (Memref.whole main_v6) (Memref.whole main_v8) h1 h2 X hX u (blk1 i) (dstRow1 k ⟨16, by decide⟩) (wordOff1 i k ⟨16, by decide⟩) (wordOff1_inb i k ⟨16, by decide⟩) (by rw [wordOff1_eq]; rfl) _ (trip1.sl.r_16 i h1 X k) rfl (k1_off51 (trip1.sl.r_16 i h1 X k)) _ rfl (trip1.sl.dma17 i h1 h2 X hX u k) rfl l
    | ⟨17, _⟩ => fun l => payload_row (Memref.whole main_v6) (Memref.whole main_v8) h1 h2 X hX u (blk1 i) (dstRow1 k ⟨17, by decide⟩) (wordOff1 i k ⟨17, by decide⟩) (wordOff1_inb i k ⟨17, by decide⟩) (by rw [wordOff1_eq]; rfl) _ (trip1.sl.r_17 i h1 X k) rfl (k1_off54 (trip1.sl.r_17 i h1 X k)) _ rfl (trip1.sl.dma18 i h1 h2 X hX u k) rfl l
    | ⟨18, _⟩ => fun l => payload_row (Memref.whole main_v6) (Memref.whole main_v8) h1 h2 X hX u (blk1 i) (dstRow1 k ⟨18, by decide⟩) (wordOff1 i k ⟨18, by decide⟩) (wordOff1_inb i k ⟨18, by decide⟩) (by rw [wordOff1_eq]; rfl) _ (trip1.sl.r_18 i h1 X k) rfl (k1_off57 (trip1.sl.r_18 i h1 X k)) _ rfl (trip1.sl.dma19 i h1 h2 X hX u k) rfl l
    | ⟨19, _⟩ => fun l => payload_row (Memref.whole main_v6) (Memref.whole main_v8) h1 h2 X hX u (blk1 i) (dstRow1 k ⟨19, by decide⟩) (wordOff1 i k ⟨19, by decide⟩) (wordOff1_inb i k ⟨19, by decide⟩) (by rw [wordOff1_eq]; rfl) _ (trip1.sl.r_19 i h1 X k) rfl (k1_off60 (trip1.sl.r_19 i h1 X k)) _ rfl (trip1.sl.dma20 i h1 h2 X hX u k) rfl l
    | ⟨20, _⟩ => fun l => payload_row (Memref.whole main_v6) (Memref.whole main_v8) h1 h2 X hX u (blk1 i) (dstRow1 k ⟨20, by decide⟩) (wordOff1 i k ⟨20, by decide⟩) (wordOff1_inb i k ⟨20, by decide⟩) (by rw [wordOff1_eq]; rfl) _ (trip1.sl.r_20 i h1 X k) rfl (k1_off63 (trip1.sl.r_20 i h1 X k)) _ rfl (trip1.sl.dma21 i h1 h2 X hX u k) rfl l
    | ⟨21, _⟩ => fun l => payload_row (Memref.whole main_v6) (Memref.whole main_v8) h1 h2 X hX u (blk1 i) (dstRow1 k ⟨21, by decide⟩) (wordOff1 i k ⟨21, by decide⟩) (wordOff1_inb i k ⟨21, by decide⟩) (by rw [wordOff1_eq]; rfl) _ (trip1.sl.r_21 i h1 X k) rfl (k1_off66 (trip1.sl.r_21 i h1 X k)) _ rfl (trip1.sl.dma22 i h1 h2 X hX u k) rfl l
    | ⟨22, _⟩ => fun l => payload_row (Memref.whole main_v6) (Memref.whole main_v8) h1 h2 X hX u (blk1 i) (dstRow1 k ⟨22, by decide⟩) (wordOff1 i k ⟨22, by decide⟩) (wordOff1_inb i k ⟨22, by decide⟩) (by rw [wordOff1_eq]; rfl) _ (trip1.sl.r_22 i h1 X k) rfl (k1_off69 (trip1.sl.r_22 i h1 X k)) _ rfl (trip1.sl.dma23 i h1 h2 X hX u k) rfl l
    | ⟨23, _⟩ => fun l => payload_row (Memref.whole main_v6) (Memref.whole main_v8) h1 h2 X hX u (blk1 i) (dstRow1 k ⟨23, by decide⟩) (wordOff1 i k ⟨23, by decide⟩) (wordOff1_inb i k ⟨23, by decide⟩) (by rw [wordOff1_eq]; rfl) _ (trip1.sl.r_23 i h1 X k) rfl (k1_off72 (trip1.sl.r_23 i h1 X k)) _ rfl (trip1.sl.dma24 i h1 h2 X hX u k) rfl l
    | ⟨24, _⟩ => fun l => payload_row (Memref.whole main_v6) (Memref.whole main_v8) h1 h2 X hX u (blk1 i) (dstRow1 k ⟨24, by decide⟩) (wordOff1 i k ⟨24, by decide⟩) (wordOff1_inb i k ⟨24, by decide⟩) (by rw [wordOff1_eq]; rfl) _ (trip1.sl.r_24 i h1 X k) rfl (k1_off75 (trip1.sl.r_24 i h1 X k)) _ rfl (trip1.sl.dma25 i h1 h2 X hX u k) rfl l
    | ⟨25, _⟩ => fun l => payload_row (Memref.whole main_v6) (Memref.whole main_v8) h1 h2 X hX u (blk1 i) (dstRow1 k ⟨25, by decide⟩) (wordOff1 i k ⟨25, by decide⟩) (wordOff1_inb i k ⟨25, by decide⟩) (by rw [wordOff1_eq]; rfl) _ (trip1.sl.r_25 i h1 X k) rfl (k1_off78 (trip1.sl.r_25 i h1 X k)) _ rfl (trip1.sl.dma26 i h1 h2 X hX u k) rfl l
    | ⟨26, _⟩ => fun l => payload_row (Memref.whole main_v6) (Memref.whole main_v8) h1 h2 X hX u (blk1 i) (dstRow1 k ⟨26, by decide⟩) (wordOff1 i k ⟨26, by decide⟩) (wordOff1_inb i k ⟨26, by decide⟩) (by rw [wordOff1_eq]; rfl) _ (trip1.sl.r_26 i h1 X k) rfl (k1_off81 (trip1.sl.r_26 i h1 X k)) _ rfl (trip1.sl.dma27 i h1 h2 X hX u k) rfl l
    | ⟨27, _⟩ => fun l => payload_row (Memref.whole main_v6) (Memref.whole main_v8) h1 h2 X hX u (blk1 i) (dstRow1 k ⟨27, by decide⟩) (wordOff1 i k ⟨27, by decide⟩) (wordOff1_inb i k ⟨27, by decide⟩) (by rw [wordOff1_eq]; rfl) _ (trip1.sl.r_27 i h1 X k) rfl (k1_off84 (trip1.sl.r_27 i h1 X k)) _ rfl (trip1.sl.dma28 i h1 h2 X hX u k) rfl l
    | ⟨28, _⟩ => fun l => payload_row (Memref.whole main_v6) (Memref.whole main_v8) h1 h2 X hX u (blk1 i) (dstRow1 k ⟨28, by decide⟩) (wordOff1 i k ⟨28, by decide⟩) (wordOff1_inb i k ⟨28, by decide⟩) (by rw [wordOff1_eq]; rfl) _ (trip1.sl.r_28 i h1 X k) rfl (k1_off87 (trip1.sl.r_28 i h1 X k)) _ rfl (trip1.sl.dma29 i h1 h2 X hX u k) rfl l
    | ⟨29, _⟩ => fun l => payload_row (Memref.whole main_v6) (Memref.whole main_v8) h1 h2 X hX u (blk1 i) (dstRow1 k ⟨29, by decide⟩) (wordOff1 i k ⟨29, by decide⟩) (wordOff1_inb i k ⟨29, by decide⟩) (by rw [wordOff1_eq]; rfl) _ (trip1.sl.r_29 i h1 X k) rfl (k1_off90 (trip1.sl.r_29 i h1 X k)) _ rfl (trip1.sl.dma30 i h1 h2 X hX u k) rfl l
    | ⟨30, _⟩ => fun l => payload_row (Memref.whole main_v6) (Memref.whole main_v8) h1 h2 X hX u (blk1 i) (dstRow1 k ⟨30, by decide⟩) (wordOff1 i k ⟨30, by decide⟩) (wordOff1_inb i k ⟨30, by decide⟩) (by rw [wordOff1_eq]; rfl) _ (trip1.sl.r_30 i h1 X k) rfl (k1_off93 (trip1.sl.r_30 i h1 X k)) _ rfl (trip1.sl.dma31 i h1 h2 X hX u k) rfl l
    | ⟨31, _⟩ => fun l => payload_row (Memref.whole main_v6) (Memref.whole main_v8) h1 h2 X hX u (blk1 i) (dstRow1 k ⟨31, by decide⟩) (wordOff1 i k ⟨31, by decide⟩) (wordOff1_inb i k ⟨31, by decide⟩) (by rw [wordOff1_eq]; rfl) _ (trip1.sl.r_31 i h1 X k) rfl (k1_off96 (trip1.sl.r_31 i h1 X k)) _ rfl (trip1.sl.dma32 i h1 h2 X hX u k) rfl l
    | ⟨_ + 32, h⟩ => absurd h (Nat.not_lt.2 (Nat.le_add_left _ _))
  -- the scratch's pieces at those contents
  ihave Hs_2 := (pt_of_eq e0) $$ Hs_2
  ihave Hs_3 := (pt_of_eq e1) $$ Hs_3
  ihave Hs_4 := (pt_of_eq e2) $$ Hs_4
  ihave Hs_5 := (pt_of_eq e3) $$ Hs_5
  ihave Hs_6 := (pt_of_eq e4) $$ Hs_6
  ihave Hs_7 := (pt_of_eq e5) $$ Hs_7
  ihave Hs_8 := (pt_of_eq e6) $$ Hs_8
  ihave Hs_9 := (pt_of_eq e7) $$ Hs_9
  ihave Hs_10 := (pt_of_eq e8) $$ Hs_10
  ihave Hs_11 := (pt_of_eq e9) $$ Hs_11
  ihave Hs_12 := (pt_of_eq e10) $$ Hs_12
  ihave Hs_13 := (pt_of_eq e11) $$ Hs_13
  ihave Hs_14 := (pt_of_eq e12) $$ Hs_14
  ihave Hs_15 := (pt_of_eq e13) $$ Hs_15
  ihave Hs_16 := (pt_of_eq e14) $$ Hs_16
  ihave Hs_17 := (pt_of_eq e15) $$ Hs_17
  ihave Hs := (pt_of_eq e31) $$ Hs
  iapply Hk
  iexists (writeRows (Memref.whole cc1_scratch0) (dstOff1 k) (dstOff1_inb k) pay fs (32) (by omega))
  isplitr [Ht Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hs Hs_2 Hs_3 Hs_4 Hs_5 Hs_6 Hs_7 Hs_8 Hs_9 Hs_10 Hs_11 Hs_12 Hs_13 Hs_14 Hs_15 Hs_16 Hs_17 Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 HO]; swap
  · iapply (handback1 c h4 (dstOff1 k) (dstRow1 k) (dstOff1_eq k) (dstRow1_inj k) (dstOff1_inb k) pay fs (h1.unread X) (h2.unread u) _)
    isplitl [Ht]; · iexact Ht
    isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
    ·
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hu19]; · iexact Hu19
      isplitl [Hu20]; · iexact Hu20
      isplitl [Hu21]; · iexact Hu21
      isplitl [Hu22]; · iexact Hu22
      isplitl [Hu23]; · iexact Hu23
      isplitl [Hu24]; · iexact Hu24
      isplitl [Hu25]; · iexact Hu25
      isplitl [Hu26]; · iexact Hu26
      isplitl [Hu27]; · iexact Hu27
      isplitl [Hu28]; · iexact Hu28
      isplitl [Hu29]; · iexact Hu29
      isplitl [Hu30]; · iexact Hu30
      iexact Hu31
    isplitl [Hs Hs_2 Hs_3 Hs_4 Hs_5 Hs_6 Hs_7 Hs_8 Hs_9 Hs_10 Hs_11 Hs_12 Hs_13 Hs_14 Hs_15 Hs_16 Hs_17]
    ·
      isplitl [Hs]; · iexact Hs
      isplitl [Hs_2]; · iexact Hs_2
      isplitl [Hs_3]; · iexact Hs_3
      isplitl [Hs_4]; · iexact Hs_4
      isplitl [Hs_5]; · iexact Hs_5
      isplitl [Hs_6]; · iexact Hs_6
      isplitl [Hs_7]; · iexact Hs_7
      isplitl [Hs_8]; · iexact Hs_8
      isplitl [Hs_9]; · iexact Hs_9
      isplitl [Hs_10]; · iexact Hs_10
      isplitl [Hs_11]; · iexact Hs_11
      isplitl [Hs_12]; · iexact Hs_12
      isplitl [Hs_13]; · iexact Hs_13
      isplitl [Hs_14]; · iexact Hs_14
      isplitl [Hs_15]; · iexact Hs_15
      isplitl [Hs_16]; · iexact Hs_16
      iexact Hs_17
    isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
    ·
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      iexact Hd31
    iexact HO
  · ipureintro
    exact gath_step (Memref.whole cc1_scratch0) h4 X u (blk1 i) f₀ k.val (Nat.lt_of_lt_of_eq k.isLt trips1) (dstOff1 k) (dstRow1 k) (dstOff1_eq k) (dstRow1_inj k)
      (fun s => rfl) (dstOff1_inb k) pay hpAll fs hfs

end Cert.Kernel.Hand

end
-- ==== Proof.K.Loop1.lean ====
/-
  The second region's loop, by its invariant.  Before trip `k` the scratch reads as the block with rows below
  `32 k` filled from the table and the rest as the loop found them; the column, the table held for reading and the
  region's own counters at zero are as they were.  One trip takes this from `k` to `k + 1`.
-/
import proofs.«423058_j50337016709696_1_alg».proof.Proof.K.Trip1

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Before trip `k`: the scratch reads as the block with rows below `32 k` filled; the rest as the loop found it. -/
abbrev inv1 (c : Dev nD) (i : grid1.Coords) (h1 : (Memref.whole main_v6).IsWhole)
    (h2 : (Memref.whole main_v8).IsWhole) (X : S131072.Idx → Elt F .i32) (u : S500000x32.Idx → Elt F .f32)
    (f₀ : S1024x32.Idx → Elt F .f32) (k : ℕ) : sProp (𝕄K F) :=
  iprop(∃ fs : Bf (F := F) c (Memref.whole cc1_scratch0),
    ⌜(Memref.whole cc1_scratch0).view.read (Elt F) fs = Cert.Gather.gath X u (blk1 i) f₀ k⌝
    ∗ Trip1 c h1 h2 X u fs ∗ (∃ W, owes (c : Thread nD τ) 0 W))

@[sl_loop] noncomputable def loopInv1 (c : Dev nD) (X : S131072.Idx → Elt F .i32) (hX : ∀ j, (X j).toNat < 500000)
    (u : S500000x32.Idx → Elt F .f32) (f₀ : S1024x32.Idx → Elt F .f32)
    (i : grid1.Coords) (h1 : (Memref.whole main_v6).IsWhole) (h2 : (Memref.whole main_v8).IsWhole)
    (M3 : Memref sig .tc .vmem S1024x32 .f32) (h3 : M3.IsWhole) (h4 : (Memref.whole cc1_scratch0).IsWhole) :
    Cert.Kernel.Gen.LoopInvTy_k1_t1 (F := F) Unit ℕ UU ℕ Variants.none c none Set.univ i (Memref.whole main_v6) h1 (Memref.whole main_v8) h2
      M3 h3 (Memref.whole cc1_scratch0) h4 cc1_scratch1 (Scalar.muli (BitVec.ofNat 32 (i 0).val) 1024#32) where
  inv := fun k _ => inv1 c i h1 h2 X u f₀ k
  step := fun k _ => by
    unfold inv1
    iintro ⟨%fs, %hfs, HT, %W, HO⟩
    iapply (trip1 c i M3 h3 h1 h2 h4 X hX u f₀ fs k hfs W _)
    isplitl [HT]; · iexact HT
    isplitl [HO]; · iexact HO
    iintro ⟨%fs', %hfs', HT', HO'⟩
    iexists fs'
    isplitr; · ipureintro; exact hfs'
    isplitl [HT']; · iexact HT'
    iexact HO'

end Cert.Kernel.Hand

end
-- ==== Proof.K.Gather1.lean ====
/-
  The second region's body.  At grid point `i` it fills its scratch with the 1024 table rows that the
  region's column of index words names at positions `1024 i` to `1024 i + 1023`, 32 rows a trip by 32
  transfers in flight at once, each waited for before the trip ends, and then copies the scratch to the
  result's block.  The table is only read, by several transfers at a time, so it is held as one read
  share per transfer; every index word is below the table's height, which is what each transfer's
  source window asks.
-/
import proofs.«423058_j50337016709696_1_alg».proof.Proof.K.Loop1
import proofs.«423058_j50337016709696_1_alg».proof.Proof.K.WholeBlock

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

-- the body is run across its loop and through the copy of the scratch to the result's block
set_option maxHeartbeats 4000000 in
/-- The body at grid point `i`: from the result's staging block and the scratch at anything, the index column at `X`
    (every word below the table's height), the table at `u` held for reading, the counters at zero and nothing owed, it
    runs to the continuation with the result's block filled (`Gather.filled X u i`), and everything else as it was. -/
theorem sound_gather1 (c : Dev nD) (i : grid1.Coords)
    (arg3 : Memref sig .tc .vmem S1024x32 .f32) (harg3 : arg3.IsWhole)
    (h1 : (Memref.whole main_v6).IsWhole) (h2 : (Memref.whole main_v8).IsWhole) (h4 : (Memref.whole cc1_scratch0).IsWhole)
    (X : S131072.Idx → Elt F .i32) (hX : ∀ j, (X j).toNat < 500000) (u : S500000x32.Idx → Elt F .f32)
    (W : Waits sig Unit) (K : PUnit → sProp (𝕄K F)) :
    iprop((∃ d, owns (c : Thread nD τ) arg3 fullShare d) ∗ (∃ f, pt c (Memref.whole cc1_scratch0) f)
        ∗ pt c (Memref.whole main_v6) (h1.unread X) ∗ toks1 c (h2.unread u) ∗ sems1 c ∗ owes (c : Thread nD τ) 0 W
        ∗ (iprop(owns (c : Thread nD τ) arg3 fullShare (Cert.Gather.filled X u (blk1 i)) ∗ (∃ f, pt c (Memref.whole cc1_scratch0) f)
              ∗ pt c (Memref.whole main_v6) (h1.unread X) ∗ toks1 c (h2.unread u) ∗ sems1 c ∗ (∃ W', owes (c : Thread nD τ) 0 W')) -∗ K ⟨⟩))
      ⊢ wp frame (wpE (defs₀ (F := F)) Variants.none c none) Set.univ
          (cc1__gather_kernel i (Memref.whole main_v6) h1 (Memref.whole main_v8) h2 arg3 harg3 (Memref.whole cc1_scratch0) h4 cc1_scratch1) K := by
  simp only [cc1__gather_kernel_eq_skeleton]; unfold cc1__gather_kernel_skel
  unfold owns
  iintro ⟨⟨%d3, %f3, -, H3⟩, ⟨%fs₀, Hs⟩, Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO, Hk⟩
  sl_exec
  sl_step
  iapply Hk
  -- the result's block: one whole-block store of the scratch read whole
  isplitl [H3]
  · iexists _; isplitr; swap; · iexact H3
    ipureintro
    rw [View.read_writes_eq_canon _ _ _ (cover_blk _), canon_whole_read, hL0]
    exact Cert.Gather.gath_last X u (blk1 i) _
  isplitl [Hs]; · iexists _; iexact Hs
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks1
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · unfold sems1
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.Kernel.Hand

end
-- ==== Proof.K.Region1.lean ====
/-
  The second region's proof data and body obligation, at the contents `V` the buffers hold when the region is
  entered and the contents `a` of its column of index words.  At grid point `t` the body leaves in the result's
  block the 1024 table rows that the column names at positions `1024 t` onward.  Between points the region keeps
  the table it reads, its own 32 semaphores at zero, the column, and its scratch at whatever the last point left.
-/
import proofs.«423058_j50337016709696_1_alg».proof.Proof.K.Gather1
import proofs.«423058_j50337016709696_1_alg».proof.Proof.GatherSpec
import proofs.«423058_j50337016709696_1_alg».proof.Proof.Gen.Kernel.Launch
import Idealize.ShloMosaic.Lib.Pipeline.FrameBody
import Idealize.ShloMosaic.Lib.Pipeline.Frame

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
variable (a : (pcfg1 (F := F)).Adm)

/-- The region's own 32 semaphores: the core's DMA semaphores 2 to 33. -/
abbrev osem1 : Fin 32 → SemLoc sig := fun k => .dma ⟨36 + k.val, by show 36 + k.val < 109; omega⟩

/-- The column of index words, as the function its contents read as. -/
abbrev col1 : S131072.Idx → Elt F .i32 := (Memref.whole main_v6).view.read (Elt F) (a.1 0)

/-- The table, as the function its contents read as when the region is entered. -/
abbrev tbl1 (c : Dev nD) : S500000x32.Idx → Elt F .f32 := (Memref.whole main_v8).view.read (Elt F) (V c main_v8)

/-- Grid point `t` as a block number. -/
abbrev blkAt1 (t : Fin (cfg1 a).N) : Fin 128 := ⟨((cfg1 a).grid.coords t 0).val, ((cfg1 a).grid.coords t 0).isLt⟩

/-- What the region keeps between points: the table at its entry contents, its own semaphores at zero, the column,
    and the scoped buffers no window stages (its scratch among them, at anything). -/
def Φ1 (c : Dev nD) : sProp (𝕄K F) :=
  iprop((((c : Thread nD τ).loc main_v8) ↦{fullShare} V c main_v8)
    ∗ Pipeline.ownSems0 (Ix := Unit) (Name := ℕ) (U := UU) (Lvl := ℕ) (Val := Elt F) osem1 c
    ∗ Pipeline.prefHeld (Ix := Unit) (Name := ℕ) (U := UU) (Lvl := ℕ) pre1 c (fun _ => fullShare) a.1
    ∗ Pipeline.scopedRest (Ix := Unit) (Name := ℕ) (U := UU) (Lvl := ℕ) (Val := Elt F) spec1 c)

/-- The second region's proof data: the result's array as found; after the body at point `t` the result's block
    filled from the table by the column; the invariant `Φ1`; nothing owed; full shares. -/
def dat1 (c : Dev nD) : Dat τ (Elt F) Unit ℕ UU ℕ (cfg1 a) c where
  A w := V c (Pipeline.arrRef spec1 w)
  after w t := match w with
    | ⟨0, _⟩ => Cert.Gather.filled (col1 a) (tbl1 V c) (blkAt1 a t)
  Φ _ := Φ1 V a c
  q _ := fullShare
  owed _ := 0

/-! ## The invariant's parts in the shape the body's triple takes them -/

/-- The region's own semaphores at zero, written out one by one. -/
theorem ownSems1_eq (c : Dev nD) :
    (Pipeline.ownSems0 (Ix := Unit) (Name := ℕ) (U := UU) (Lvl := ℕ) (Val := Elt F) osem1 c : sProp (𝕄K F)) = sems1 c := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

/-- The column is the one prefetched table, held whole; its contents are the raw contents that read as `col1`. -/
theorem prefHeld1_eq (c : Dev nD) (h1 : (Memref.whole main_v6).IsWhole) :
    (Pipeline.prefHeld (Ix := Unit) (Name := ℕ) (U := UU) (Lvl := ℕ) pre1 c (fun _ => fullShare) a.1 : sProp (𝕄K F))
      = pt c (Memref.whole main_v6) (h1.unread (col1 a)) := by
  have e : h1.unread (col1 (F := F) a) = a.1 0 := h1.unread_read _
  rw [e]
  exact bigSep_W1 _

/-- The table's contents at entry are the raw contents that read as `tbl1`. -/
theorem table1_eq (c : Dev nD) (h2 : (Memref.whole main_v8).IsWhole) :
    ((((c : Thread nD τ).loc main_v8) ↦{fullShare} V c main_v8 : sProp (𝕄K F)))
      = pt c (Memref.whole main_v8) (h2.unread (tbl1 V c)) := by
  rw [h2.unread_read]

/-- The table held whole is what is left after 68 read shares are dealt off, the read shares below the region's
    own, and the 32 the transfers take: a full share deals into a remainder and any number of read shares, and back. -/
theorem table1_toks (c : Dev nD) (f : Bf (F := F) c (Memref.whole main_v8)) :
    pt c (Memref.whole main_v8) f ⊣⊢
      iprop(ptq c (Memref.whole main_v8) (Transfers.shareDrop fullShare 68) f
        ∗ bigSep (Finset.range 36) (fun i => ptq c (Memref.whole main_v8) (Transfers.shareTokN fullShare i) f)
        ∗ toks1 c f) := by
  have h := Transfers.pointsTo_toks_range (Ix := Unit) (Name := ℕ) (U := UU) (Lvl := ℕ) (Val := Elt F)
    (ℓ := (Memref.whole main_v8).view.loc (c : Thread nD τ)) (S := Finset.univ) (f := f) fullShare 68
  rw [show Finset.range 68 = Finset.range 36 ∪ [36, 37, 38, 39, 40, 41, 42, 43, 44, 45, 46, 47, 48, 49, 50, 51, 52, 53, 54, 55, 56, 57, 58, 59, 60, 61, 62, 63, 64, 65, 66, 67].toFinset by decide,
    BI.bigSep_union (show Disjoint (Finset.range 36) [36, 37, 38, 39, 40, 41, 42, 43, 44, 45, 46, 47, 48, 49, 50, 51, 52, 53, 54, 55, 56, 57, 58, 59, 60, 61, 62, 63, 64, 65, 66, 67].toFinset by decide),
    BI.bigSep_eq_bigSepL [36, 37, 38, 39, 40, 41, 42, 43, 44, 45, 46, 47, 48, 49, 50, 51, 52, 53, 54, 55, 56, 57, 58, 59, 60, 61, 62, 63, 64, 65, 66, 67] (by decide)] at h
  exact h

/-- The scoped buffers no window stages are the region's scratch and the others. -/
theorem scopedRest1_split (c : Dev nD) :
    (Pipeline.scopedRest (Ix := Unit) (Name := ℕ) (U := UU) (Lvl := ℕ) (Val := Elt F) spec1 c : sProp (𝕄K F))
      = iprop((∃ f, pt c (Memref.whole cc1_scratch0) f)
          ∗ Pipeline.scopedRestBut (Ix := Unit) (Name := ℕ) (U := UU) (Lvl := ℕ) (Val := Elt F) spec1 c [cc1_scratch0]) :=
  Pipeline.scopedRest_split_of_list spec1 c [cc1_scratch0] (by decide) (by decide)

/-- Everything the region keeps that the body never touches: what is left of the table beside the transfers' read
    shares, and the scoped buffers other than the scratch. -/
abbrev aside1 (c : Dev nD) (h2 : (Memref.whole main_v8).IsWhole) : sProp (𝕄K F) :=
  iprop(ptq c (Memref.whole main_v8) (Transfers.shareDrop fullShare 68) (h2.unread (tbl1 V c))
    ∗ bigSep (Finset.range 36) (fun i => ptq c (Memref.whole main_v8) (Transfers.shareTokN fullShare i) (h2.unread (tbl1 V c)))
    ∗ Pipeline.scopedRestBut (Ix := Unit) (Name := ℕ) (U := UU) (Lvl := ℕ) (Val := Elt F) spec1 c [cc1_scratch0])

/-- The invariant, both ways, as what the body's triple takes and gives back — the scratch at anything, the column,
    the table's 32 read shares, the semaphores at zero — beside what the body never touches. -/
theorem Φ1_body (c : Dev nD) (h1 : (Memref.whole main_v6).IsWhole) (h2 : (Memref.whole main_v8).IsWhole) :
    Φ1 V a c ⊣⊢
      iprop((∃ f, pt c (Memref.whole cc1_scratch0) f) ∗ pt c (Memref.whole main_v6) (h1.unread (col1 a))
        ∗ toks1 c (h2.unread (tbl1 V c)) ∗ sems1 c ∗ aside1 V c h2) := by
  unfold Φ1
  rw [table1_eq V c h2, ownSems1_eq, prefHeld1_eq a c h1, scopedRest1_split]
  constructor
  · iintro ⟨Htab, Hsems, Hcol, Hscr, Hrest⟩
    icases (table1_toks c (h2.unread (tbl1 V c))).1 $$ Htab with ⟨Hd, Hlow, Htoks⟩
    isplitl [Hscr]; · iexact Hscr
    isplitl [Hcol]; · iexact Hcol
    isplitl [Htoks]; · iexact Htoks
    isplitl [Hsems]; · iexact Hsems
    isplitl [Hd]; · iexact Hd
    isplitl [Hlow]; · iexact Hlow
    iexact Hrest
  · iintro ⟨Hscr, Hcol, Htoks, Hsems, Hd, Hlow, Hrest⟩
    isplitl [Hd Hlow Htoks]
    · iapply (table1_toks c (h2.unread (tbl1 V c))).2
      isplitl [Hd]; · iexact Hd
      isplitl [Hlow]; · iexact Hlow
      iexact Htoks
    isplitl [Hsems]; · iexact Hsems
    isplitl [Hcol]; · iexact Hcol
    isplitl [Hscr]; · iexact Hscr
    iexact Hrest

/-! ## The proof data, projected -/

/-- What the body leaves in the result's block at point `t`. -/
theorem after1_1 (c : Dev nD) (t : Fin (cfg1 a).N) :
    (dat1 V a c).after 0 t = Cert.Gather.filled (col1 a) (tbl1 V c) (blkAt1 a t) := by dsimp only [dat1]; rfl

/-! ## The obligation's two sides -/

/-- The one window's current staging memref at point `t`. -/
abbrev st1_0 (t : Fin (cfg1 a).N) := ((cfg1 a).win 0).stage ((cfg1 a).slots t 0)

/-- The body at point `t`, on what the pipeline calls it with. -/
abbrev bodyAt1 (t : Fin (cfg1 a).N) : Prog (TpuEff nD τ sig (Elt F) Λ₀ .tc) PUnit :=
  cc1__gather_kernel ((cfg1 a).grid.coords t) (Memref.whole main_v6) (Memref.isWhole_whole _) (Memref.whole main_v8) (Memref.isWhole_whole _)
    (spec1_0.stage ((cfg1 a).slots t 0)) (hstage1_0 (((cfg1 a).slots t 0).cast nbuf1_0))
    (Memref.whole cc1_scratch0) (Memref.isWhole_whole _) cc1_scratch1

/-- What the body is handed at point `t`: the invariant, what the core owes, and the result's current buffer. -/
def bodyPre1 (c : Dev nD) (t : Fin (cfg1 a).N) : sProp (𝕄K F) :=
  iprop((dat1 V a c).Φ t.castSucc ∗ (dat1 V a c).owesAt () t.castSucc
    ∗ (∃ d, owns (c : Thread nD τ) (st1_0 a t) fullShare ((dat1 V a c).before 0 t d)))

/-- What it hands back: the same at the next point, the buffer at what the body leaves there. -/
def bodyPost1 (c : Dev nD) (t : Fin (cfg1 a).N) : sProp (𝕄K F) :=
  iprop((dat1 V a c).Φ t.succ ∗ (dat1 V a c).owesAt () t.succ
    ∗ owns (c : Thread nD τ) (st1_0 a t) fullShare ((dat1 V a c).after 0 t))

/-- The body at any point: the invariant opens into what the body's triple takes, the triple runs, and what it gives
    back closes into the invariant again; the core owes nothing before and nothing after, and the bound on its
    recorded waits is the whole set, so it asks nothing. -/
theorem sound_body1 (c : Dev nD) (hX : ∀ j, ((col1 a) j).toNat < 500000) (t : Fin (cfg1 a).N) :
    bodyPre1 V a c t ⊢ wp frame (wpE (defs₀ (F := F)) Variants.none c none) Set.univ (bodyAt1 a t) (fun _ => bodyPost1 V a c t) := by
  unfold bodyPre1 bodyPost1
  rw [show (dat1 V a c).Φ t.succ = Φ1 V a c from rfl, show (dat1 V a c).Φ t.castSucc = Φ1 V a c from rfl, after1_1]
  iintro ⟨HΦ, ⟨%W, %hW, Ho⟩, ⟨%d, Hw⟩⟩
  icases (Φ1_body V a c (Memref.isWhole_whole _) (Memref.isWhole_whole _)).1 $$ HΦ with ⟨Hscr, Hcol, Htoks, Hsems, Hrest⟩
  iapply (sound_gather1 c ((cfg1 a).grid.coords t) (spec1_0.stage ((cfg1 a).slots t 0)) (hstage1_0 (((cfg1 a).slots t 0).cast nbuf1_0))
    (Memref.isWhole_whole _) (Memref.isWhole_whole _) (Memref.isWhole_whole _) (col1 a) hX (tbl1 V c) W _)
  isplitl [Hw]; · iexists _; iexact Hw
  isplitl [Hscr]; · iexact Hscr
  isplitl [Hcol]; · iexact Hcol
  isplitl [Htoks]; · iexact Htoks
  isplitl [Hsems]; · iexact Hsems
  isplitl [Ho]; · iexact Ho
  iintro ⟨Hw, Hscr, Hcol, Htoks, Hsems, ⟨%W', Ho⟩⟩
  isplitl [Hscr Hcol Htoks Hsems Hrest]
  · iapply (Φ1_body V a c (Memref.isWhole_whole _) (Memref.isWhole_whole _)).2
    isplitl [Hscr]; · iexact Hscr
    isplitl [Hcol]; · iexact Hcol
    isplitl [Htoks]; · iexact Htoks
    isplitl [Hsems]; · iexact Hsems
    iexact Hrest
  isplitl [Ho]
  · iexists W'; isplitr
    · ipureintro; exact fun _ _ => Or.inl trivial
    iexact Ho
  iexact Hw

/-- The library's body obligation for the second region, at every point, when every word of the column is below the
    table's height. -/
theorem body_obligation1 (c : Dev nD) (hX : ∀ j, ((col1 a) j).toNat < 500000) :
    BodyObligation (dat1 (F := F) V a c) (defs₀ (F := F)) Variants.none () Set.univ := fun t => by
  rw [bigSep_W1, bigSep_W1]
  exact sound_body1 V a c hX t

end Cert.Kernel.Hand

end
-- ==== Proof.K.Cells2.lean ====
/-
  The third region's cells: the 32 semaphores of its own that its transfers complete on (the core's 70 to 101),
  their counters, and the table it reads held as one read share for each of them, so that transfers reading the
  same table row do not compete.
-/
import proofs.«423058_j50337016709696_1_alg».proof.Proof.K.Base
import proofs.«423058_j50337016709696_1_alg».proof.Proof.GatherSpec
import Idealize.ShloMosaic.Lib.Pipeline.FrameBody

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The third region's table held for reading: one read share for each of the 32 transfers of a trip, indexed by the
    transfer's semaphore (the region's own semaphores are the core's 70 to 101). -/
abbrev toks2 (c : Dev nD) (f : Bf (F := F) c (Memref.whole main_v13)) : sProp (𝕄K F) :=
  iprop(ptq c (Memref.whole main_v13) (Transfers.shareTokN fullShare 70) f
      ∗ ptq c (Memref.whole main_v13) (Transfers.shareTokN fullShare 71) f
      ∗ ptq c (Memref.whole main_v13) (Transfers.shareTokN fullShare 72) f
      ∗ ptq c (Memref.whole main_v13) (Transfers.shareTokN fullShare 73) f
      ∗ ptq c (Memref.whole main_v13) (Transfers.shareTokN fullShare 74) f
      ∗ ptq c (Memref.whole main_v13) (Transfers.shareTokN fullShare 75) f
      ∗ ptq c (Memref.whole main_v13) (Transfers.shareTokN fullShare 76) f
      ∗ ptq c (Memref.whole main_v13) (Transfers.shareTokN fullShare 77) f
      ∗ ptq c (Memref.whole main_v13) (Transfers.shareTokN fullShare 78) f
      ∗ ptq c (Memref.whole main_v13) (Transfers.shareTokN fullShare 79) f
      ∗ ptq c (Memref.whole main_v13) (Transfers.shareTokN fullShare 80) f
      ∗ ptq c (Memref.whole main_v13) (Transfers.shareTokN fullShare 81) f
      ∗ ptq c (Memref.whole main_v13) (Transfers.shareTokN fullShare 82) f
      ∗ ptq c (Memref.whole main_v13) (Transfers.shareTokN fullShare 83) f
      ∗ ptq c (Memref.whole main_v13) (Transfers.shareTokN fullShare 84) f
      ∗ ptq c (Memref.whole main_v13) (Transfers.shareTokN fullShare 85) f
      ∗ ptq c (Memref.whole main_v13) (Transfers.shareTokN fullShare 86) f
      ∗ ptq c (Memref.whole main_v13) (Transfers.shareTokN fullShare 87) f
      ∗ ptq c (Memref.whole main_v13) (Transfers.shareTokN fullShare 88) f
      ∗ ptq c (Memref.whole main_v13) (Transfers.shareTokN fullShare 89) f
      ∗ ptq c (Memref.whole main_v13) (Transfers.shareTokN fullShare 90) f
      ∗ ptq c (Memref.whole main_v13) (Transfers.shareTokN fullShare 91) f
      ∗ ptq c (Memref.whole main_v13) (Transfers.shareTokN fullShare 92) f
      ∗ ptq c (Memref.whole main_v13) (Transfers.shareTokN fullShare 93) f
      ∗ ptq c (Memref.whole main_v13) (Transfers.shareTokN fullShare 94) f
      ∗ ptq c (Memref.whole main_v13) (Transfers.shareTokN fullShare 95) f
      ∗ ptq c (Memref.whole main_v13) (Transfers.shareTokN fullShare 96) f
      ∗ ptq c (Memref.whole main_v13) (Transfers.shareTokN fullShare 97) f
      ∗ ptq c (Memref.whole main_v13) (Transfers.shareTokN fullShare 98) f
      ∗ ptq c (Memref.whole main_v13) (Transfers.shareTokN fullShare 99) f
      ∗ ptq c (Memref.whole main_v13) (Transfers.shareTokN fullShare 100) f
      ∗ ptq c (Memref.whole main_v13) (Transfers.shareTokN fullShare 101) f)

/-- The third region's 32 semaphores' counters at zero. -/
abbrev sems2 (c : Dev nD) : sProp (𝕄K F) :=
  iprop(semVal ((c : Thread nD τ), (SemLoc.dma 70 : SemLoc sig)) 0
      ∗ semVal ((c : Thread nD τ), (SemLoc.dma 71 : SemLoc sig)) 0
      ∗ semVal ((c : Thread nD τ), (SemLoc.dma 72 : SemLoc sig)) 0
      ∗ semVal ((c : Thread nD τ), (SemLoc.dma 73 : SemLoc sig)) 0
      ∗ semVal ((c : Thread nD τ), (SemLoc.dma 74 : SemLoc sig)) 0
      ∗ semVal ((c : Thread nD τ), (SemLoc.dma 75 : SemLoc sig)) 0
      ∗ semVal ((c : Thread nD τ), (SemLoc.dma 76 : SemLoc sig)) 0
      ∗ semVal ((c : Thread nD τ), (SemLoc.dma 77 : SemLoc sig)) 0
      ∗ semVal ((c : Thread nD τ), (SemLoc.dma 78 : SemLoc sig)) 0
      ∗ semVal ((c : Thread nD τ), (SemLoc.dma 79 : SemLoc sig)) 0
      ∗ semVal ((c : Thread nD τ), (SemLoc.dma 80 : SemLoc sig)) 0
      ∗ semVal ((c : Thread nD τ), (SemLoc.dma 81 : SemLoc sig)) 0
      ∗ semVal ((c : Thread nD τ), (SemLoc.dma 82 : SemLoc sig)) 0
      ∗ semVal ((c : Thread nD τ), (SemLoc.dma 83 : SemLoc sig)) 0
      ∗ semVal ((c : Thread nD τ), (SemLoc.dma 84 : SemLoc sig)) 0
      ∗ semVal ((c : Thread nD τ), (SemLoc.dma 85 : SemLoc sig)) 0
      ∗ semVal ((c : Thread nD τ), (SemLoc.dma 86 : SemLoc sig)) 0
      ∗ semVal ((c : Thread nD τ), (SemLoc.dma 87 : SemLoc sig)) 0
      ∗ semVal ((c : Thread nD τ), (SemLoc.dma 88 : SemLoc sig)) 0
      ∗ semVal ((c : Thread nD τ), (SemLoc.dma 89 : SemLoc sig)) 0
      ∗ semVal ((c : Thread nD τ), (SemLoc.dma 90 : SemLoc sig)) 0
      ∗ semVal ((c : Thread nD τ), (SemLoc.dma 91 : SemLoc sig)) 0
      ∗ semVal ((c : Thread nD τ), (SemLoc.dma 92 : SemLoc sig)) 0
      ∗ semVal ((c : Thread nD τ), (SemLoc.dma 93 : SemLoc sig)) 0
      ∗ semVal ((c : Thread nD τ), (SemLoc.dma 94 : SemLoc sig)) 0
      ∗ semVal ((c : Thread nD τ), (SemLoc.dma 95 : SemLoc sig)) 0
      ∗ semVal ((c : Thread nD τ), (SemLoc.dma 96 : SemLoc sig)) 0
      ∗ semVal ((c : Thread nD τ), (SemLoc.dma 97 : SemLoc sig)) 0
      ∗ semVal ((c : Thread nD τ), (SemLoc.dma 98 : SemLoc sig)) 0
      ∗ semVal ((c : Thread nD τ), (SemLoc.dma 99 : SemLoc sig)) 0
      ∗ semVal ((c : Thread nD τ), (SemLoc.dma 100 : SemLoc sig)) 0
      ∗ semVal ((c : Thread nD τ), (SemLoc.dma 101 : SemLoc sig)) 0)

/-- The grid point as a block number. -/
abbrev blk2 (i : grid2.Coords) : Fin 128 := ⟨(i 0).val, (i 0).isLt⟩

end Cert.Kernel.Hand

end
-- ==== Proof.K.Rows2.lean ====
/-
  The 32 rows a trip of the third region's loop fills, as one family: transfer `s` of trip `k` goes to row
  `32 k + s` of the scratch.
-/
import proofs.«423058_j50337016709696_1_alg».proof.Proof.K.Base

noncomputable section

namespace Cert.Kernel.Hand

open Cert.Kernel Cert.Kernel.Gen
open Idealize.ShloMosaic

/-- The offsets the kernel computes for transfer `s`'s destination row at trip `k`. -/
def dstOff2 (k : Fin k2_t1_loop.trips) : Fin 32 → Fin 2 → ℕ
  | ⟨0, _⟩ => k2_off2 k
  | ⟨1, _⟩ => k2_off5 k
  | ⟨2, _⟩ => k2_off8 k
  | ⟨3, _⟩ => k2_off11 k
  | ⟨4, _⟩ => k2_off14 k
  | ⟨5, _⟩ => k2_off17 k
  | ⟨6, _⟩ => k2_off20 k
  | ⟨7, _⟩ => k2_off23 k
  | ⟨8, _⟩ => k2_off26 k
  | ⟨9, _⟩ => k2_off29 k
  | ⟨10, _⟩ => k2_off32 k
  | ⟨11, _⟩ => k2_off35 k
  | ⟨12, _⟩ => k2_off38 k
  | ⟨13, _⟩ => k2_off41 k
  | ⟨14, _⟩ => k2_off44 k
  | ⟨15, _⟩ => k2_off47 k
  | ⟨16, _⟩ => k2_off50 k
  | ⟨17, _⟩ => k2_off53 k
  | ⟨18, _⟩ => k2_off56 k
  | ⟨19, _⟩ => k2_off59 k
  | ⟨20, _⟩ => k2_off62 k
  | ⟨21, _⟩ => k2_off65 k
  | ⟨22, _⟩ => k2_off68 k
  | ⟨23, _⟩ => k2_off71 k
  | ⟨24, _⟩ => k2_off74 k
  | ⟨25, _⟩ => k2_off77 k
  | ⟨26, _⟩ => k2_off80 k
  | ⟨27, _⟩ => k2_off83 k
  | ⟨28, _⟩ => k2_off86 k
  | ⟨29, _⟩ => k2_off89 k
  | ⟨30, _⟩ => k2_off92 k
  | ⟨31, _⟩ => k2_off95 k
  | ⟨_ + 32, h⟩ => absurd h (Nat.not_lt.2 (Nat.le_add_left _ _))

/-- Each row lies inside the block. -/
theorem dstOff2_inb (k : Fin k2_t1_loop.trips) : ∀ (s : Fin 32) (a : Fin 2), dstOff2 k s a + S1x32.size a ≤ S1024x32.size a
  | ⟨0, _⟩ => k2_off2_inb k
  | ⟨1, _⟩ => k2_off5_inb k
  | ⟨2, _⟩ => k2_off8_inb k
  | ⟨3, _⟩ => k2_off11_inb k
  | ⟨4, _⟩ => k2_off14_inb k
  | ⟨5, _⟩ => k2_off17_inb k
  | ⟨6, _⟩ => k2_off20_inb k
  | ⟨7, _⟩ => k2_off23_inb k
  | ⟨8, _⟩ => k2_off26_inb k
  | ⟨9, _⟩ => k2_off29_inb k
  | ⟨10, _⟩ => k2_off32_inb k
  | ⟨11, _⟩ => k2_off35_inb k
  | ⟨12, _⟩ => k2_off38_inb k
  | ⟨13, _⟩ => k2_off41_inb k
  | ⟨14, _⟩ => k2_off44_inb k
  | ⟨15, _⟩ => k2_off47_inb k
  | ⟨16, _⟩ => k2_off50_inb k
  | ⟨17, _⟩ => k2_off53_inb k
  | ⟨18, _⟩ => k2_off56_inb k
  | ⟨19, _⟩ => k2_off59_inb k
  | ⟨20, _⟩ => k2_off62_inb k
  | ⟨21, _⟩ => k2_off65_inb k
  | ⟨22, _⟩ => k2_off68_inb k
  | ⟨23, _⟩ => k2_off71_inb k
  | ⟨24, _⟩ => k2_off74_inb k
  | ⟨25, _⟩ => k2_off77_inb k
  | ⟨26, _⟩ => k2_off80_inb k
  | ⟨27, _⟩ => k2_off83_inb k
  | ⟨28, _⟩ => k2_off86_inb k
  | ⟨29, _⟩ => k2_off89_inb k
  | ⟨30, _⟩ => k2_off92_inb k
  | ⟨31, _⟩ => k2_off95_inb k
  | ⟨_ + 32, h⟩ => absurd h (Nat.not_lt.2 (Nat.le_add_left _ _))

/-- The loop runs 32 trips. -/
theorem trips2 : k2_t1_loop.trips = 32 := by decide

/-- Transfer s of trip k fills row 32 k + s. -/
def dstRow2 (k : Fin k2_t1_loop.trips) (s : Fin 32) : Fin 1024 :=
  ⟨32 * k.val + s.val, by have hk : k.val < 32 := Nat.lt_of_lt_of_eq k.isLt trips2; have := s.isLt; omega⟩

/-- In closed form the offsets of transfer `s` are row `32 k + s`, lane 0. -/
theorem dstOff2_eq (k : Fin k2_t1_loop.trips) : ∀ s : Fin 32, dstOff2 k s = ![(dstRow2 k s).val, 0]
  | ⟨0, _⟩ => k2_off2_eq k
  | ⟨1, _⟩ => k2_off5_eq k
  | ⟨2, _⟩ => k2_off8_eq k
  | ⟨3, _⟩ => k2_off11_eq k
  | ⟨4, _⟩ => k2_off14_eq k
  | ⟨5, _⟩ => k2_off17_eq k
  | ⟨6, _⟩ => k2_off20_eq k
  | ⟨7, _⟩ => k2_off23_eq k
  | ⟨8, _⟩ => k2_off26_eq k
  | ⟨9, _⟩ => k2_off29_eq k
  | ⟨10, _⟩ => k2_off32_eq k
  | ⟨11, _⟩ => k2_off35_eq k
  | ⟨12, _⟩ => k2_off38_eq k
  | ⟨13, _⟩ => k2_off41_eq k
  | ⟨14, _⟩ => k2_off44_eq k
  | ⟨15, _⟩ => k2_off47_eq k
  | ⟨16, _⟩ => k2_off50_eq k
  | ⟨17, _⟩ => k2_off53_eq k
  | ⟨18, _⟩ => k2_off56_eq k
  | ⟨19, _⟩ => k2_off59_eq k
  | ⟨20, _⟩ => k2_off62_eq k
  | ⟨21, _⟩ => k2_off65_eq k
  | ⟨22, _⟩ => k2_off68_eq k
  | ⟨23, _⟩ => k2_off71_eq k
  | ⟨24, _⟩ => k2_off74_eq k
  | ⟨25, _⟩ => k2_off77_eq k
  | ⟨26, _⟩ => k2_off80_eq k
  | ⟨27, _⟩ => k2_off83_eq k
  | ⟨28, _⟩ => k2_off86_eq k
  | ⟨29, _⟩ => k2_off89_eq k
  | ⟨30, _⟩ => k2_off92_eq k
  | ⟨31, _⟩ => k2_off95_eq k
  | ⟨_ + 32, h⟩ => absurd h (Nat.not_lt.2 (Nat.le_add_left _ _))

/-- Different transfers of a trip fill different rows. -/
theorem dstRow2_inj (k : Fin k2_t1_loop.trips) : Function.Injective (dstRow2 k) := by
  intro s s' h
  have h' : 32 * k.val + s.val = 32 * k.val + s'.val := congrArg Fin.val h
  exact Fin.ext (by omega)

end Cert.Kernel.Hand

end
-- ==== Proof.K.Words2.lean ====
/-
  The positions, in the region's column of index words, of the 32 words a trip reads: transfer `s` of trip `k`
  at grid point `i` reads the word at position `1024 i + 32 k + s`, the one for row `32 k + s` of block `i`.
-/
import proofs.«423058_j50337016709696_1_alg».proof.Proof.K.Rows2

noncomputable section

namespace Cert.Kernel.Hand

open Cert.Kernel Cert.Kernel.Gen
open Idealize.ShloMosaic

/-- The offsets the kernel computes for the position of transfer `s`'s index word. -/
def wordOff2 (i : grid2.Coords) (k : Fin k2_t1_loop.trips) : Fin 32 → Fin 1 → ℕ
  | ⟨0, _⟩ => k2_off1 i k
  | ⟨1, _⟩ => k2_off4 i k
  | ⟨2, _⟩ => k2_off7 i k
  | ⟨3, _⟩ => k2_off10 i k
  | ⟨4, _⟩ => k2_off13 i k
  | ⟨5, _⟩ => k2_off16 i k
  | ⟨6, _⟩ => k2_off19 i k
  | ⟨7, _⟩ => k2_off22 i k
  | ⟨8, _⟩ => k2_off25 i k
  | ⟨9, _⟩ => k2_off28 i k
  | ⟨10, _⟩ => k2_off31 i k
  | ⟨11, _⟩ => k2_off34 i k
  | ⟨12, _⟩ => k2_off37 i k
  | ⟨13, _⟩ => k2_off40 i k
  | ⟨14, _⟩ => k2_off43 i k
  | ⟨15, _⟩ => k2_off46 i k
  | ⟨16, _⟩ => k2_off49 i k
  | ⟨17, _⟩ => k2_off52 i k
  | ⟨18, _⟩ => k2_off55 i k
  | ⟨19, _⟩ => k2_off58 i k
  | ⟨20, _⟩ => k2_off61 i k
  | ⟨21, _⟩ => k2_off64 i k
  | ⟨22, _⟩ => k2_off67 i k
  | ⟨23, _⟩ => k2_off70 i k
  | ⟨24, _⟩ => k2_off73 i k
  | ⟨25, _⟩ => k2_off76 i k
  | ⟨26, _⟩ => k2_off79 i k
  | ⟨27, _⟩ => k2_off82 i k
  | ⟨28, _⟩ => k2_off85 i k
  | ⟨29, _⟩ => k2_off88 i k
  | ⟨30, _⟩ => k2_off91 i k
  | ⟨31, _⟩ => k2_off94 i k
  | ⟨_ + 32, h⟩ => absurd h (Nat.not_lt.2 (Nat.le_add_left _ _))

/-- Each position lies inside the column. -/
theorem wordOff2_inb (i : grid2.Coords) (k : Fin k2_t1_loop.trips) : ∀ (s : Fin 32) (a : Fin 1), wordOff2 i k s a + S1.size a ≤ S131072.size a
  | ⟨0, _⟩ => k2_off1_inb i k
  | ⟨1, _⟩ => k2_off4_inb i k
  | ⟨2, _⟩ => k2_off7_inb i k
  | ⟨3, _⟩ => k2_off10_inb i k
  | ⟨4, _⟩ => k2_off13_inb i k
  | ⟨5, _⟩ => k2_off16_inb i k
  | ⟨6, _⟩ => k2_off19_inb i k
  | ⟨7, _⟩ => k2_off22_inb i k
  | ⟨8, _⟩ => k2_off25_inb i k
  | ⟨9, _⟩ => k2_off28_inb i k
  | ⟨10, _⟩ => k2_off31_inb i k
  | ⟨11, _⟩ => k2_off34_inb i k
  | ⟨12, _⟩ => k2_off37_inb i k
  | ⟨13, _⟩ => k2_off40_inb i k
  | ⟨14, _⟩ => k2_off43_inb i k
  | ⟨15, _⟩ => k2_off46_inb i k
  | ⟨16, _⟩ => k2_off49_inb i k
  | ⟨17, _⟩ => k2_off52_inb i k
  | ⟨18, _⟩ => k2_off55_inb i k
  | ⟨19, _⟩ => k2_off58_inb i k
  | ⟨20, _⟩ => k2_off61_inb i k
  | ⟨21, _⟩ => k2_off64_inb i k
  | ⟨22, _⟩ => k2_off67_inb i k
  | ⟨23, _⟩ => k2_off70_inb i k
  | ⟨24, _⟩ => k2_off73_inb i k
  | ⟨25, _⟩ => k2_off76_inb i k
  | ⟨26, _⟩ => k2_off79_inb i k
  | ⟨27, _⟩ => k2_off82_inb i k
  | ⟨28, _⟩ => k2_off85_inb i k
  | ⟨29, _⟩ => k2_off88_inb i k
  | ⟨30, _⟩ => k2_off91_inb i k
  | ⟨31, _⟩ => k2_off94_inb i k
  | ⟨_ + 32, h⟩ => absurd h (Nat.not_lt.2 (Nat.le_add_left _ _))

/-- In closed form the position is `1024 i + 32 k + s`. -/
theorem wordOff2_eq (i : grid2.Coords) (k : Fin k2_t1_loop.trips) : ∀ s : Fin 32, wordOff2 i k s = ![1024 * (i 0).val + 32 * k.val + s.val]
  | ⟨0, _⟩ => k2_off1_eq i k
  | ⟨1, _⟩ => k2_off4_eq i k
  | ⟨2, _⟩ => k2_off7_eq i k
  | ⟨3, _⟩ => k2_off10_eq i k
  | ⟨4, _⟩ => k2_off13_eq i k
  | ⟨5, _⟩ => k2_off16_eq i k
  | ⟨6, _⟩ => k2_off19_eq i k
  | ⟨7, _⟩ => k2_off22_eq i k
  | ⟨8, _⟩ => k2_off25_eq i k
  | ⟨9, _⟩ => k2_off28_eq i k
  | ⟨10, _⟩ => k2_off31_eq i k
  | ⟨11, _⟩ => k2_off34_eq i k
  | ⟨12, _⟩ => k2_off37_eq i k
  | ⟨13, _⟩ => k2_off40_eq i k
  | ⟨14, _⟩ => k2_off43_eq i k
  | ⟨15, _⟩ => k2_off46_eq i k
  | ⟨16, _⟩ => k2_off49_eq i k
  | ⟨17, _⟩ => k2_off52_eq i k
  | ⟨18, _⟩ => k2_off55_eq i k
  | ⟨19, _⟩ => k2_off58_eq i k
  | ⟨20, _⟩ => k2_off61_eq i k
  | ⟨21, _⟩ => k2_off64_eq i k
  | ⟨22, _⟩ => k2_off67_eq i k
  | ⟨23, _⟩ => k2_off70_eq i k
  | ⟨24, _⟩ => k2_off73_eq i k
  | ⟨25, _⟩ => k2_off76_eq i k
  | ⟨26, _⟩ => k2_off79_eq i k
  | ⟨27, _⟩ => k2_off82_eq i k
  | ⟨28, _⟩ => k2_off85_eq i k
  | ⟨29, _⟩ => k2_off88_eq i k
  | ⟨30, _⟩ => k2_off91_eq i k
  | ⟨31, _⟩ => k2_off94_eq i k
  | ⟨_ + 32, h⟩ => absurd h (Nat.not_lt.2 (Nat.le_add_left _ _))

end Cert.Kernel.Hand

end
-- ==== Proof.K.Handback2.lean ====
/-
  After a trip, everything the trip borrowed is back: the column, the table's read shares, the counters at zero,
  and the scratch whole again at its final contents (its 16 rows held apart rejoined).
-/
import proofs.«423058_j50337016709696_1_alg».proof.Proof.K.Rejoin
import proofs.«423058_j50337016709696_1_alg».proof.Proof.K.Cells2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- 80 resources are sorted into their places and 16 rows rejoined
set_option maxHeartbeats 4000000 in
theorem handback2 (c : Dev nD) (hsc : (Memref.whole cc2_scratch0).IsWhole)
    (off : Fin 32 → Fin 2 → ℕ) (ρ : Fin 32 → Fin 1024) (hoff : ∀ s, off s = ![(ρ s).val, 0]) (hρ : Function.Injective ρ)
    (h : ∀ s a, off s a + S1x32.size a ≤ S1024x32.size a) (p : Fin 32 → S32.Idx → Elt F .f32)
    (f : Bf (F := F) c (Memref.whole cc2_scratch0))
    (col : Bf (F := F) c (Memref.whole main_v11)) (tb : Bf (F := F) c (Memref.whole main_v13)) (W : Waits sig Unit) :
    let sc := Memref.whole cc2_scratch0
    (iprop(pt c (Memref.whole main_v11) col
        ∗ (ptq c (Memref.whole main_v13) (Transfers.shareTokN fullShare 70) tb
        ∗ ptq c (Memref.whole main_v13) (Transfers.shareTokN fullShare 71) tb
        ∗ ptq c (Memref.whole main_v13) (Transfers.shareTokN fullShare 72) tb
        ∗ ptq c (Memref.whole main_v13) (Transfers.shareTokN fullShare 73) tb
        ∗ ptq c (Memref.whole main_v13) (Transfers.shareTokN fullShare 74) tb
        ∗ ptq c (Memref.whole main_v13) (Transfers.shareTokN fullShare 75) tb
        ∗ ptq c (Memref.whole main_v13) (Transfers.shareTokN fullShare 76) tb
        ∗ ptq c (Memref.whole main_v13) (Transfers.shareTokN fullShare 77) tb
        ∗ ptq c (Memref.whole main_v13) (Transfers.shareTokN fullShare 78) tb
        ∗ ptq c (Memref.whole main_v13) (Transfers.shareTokN fullShare 79) tb
        ∗ ptq c (Memref.whole main_v13) (Transfers.shareTokN fullShare 80) tb
        ∗ ptq c (Memref.whole main_v13) (Transfers.shareTokN fullShare 81) tb
        ∗ ptq c (Memref.whole main_v13) (Transfers.shareTokN fullShare 82) tb
        ∗ ptq c (Memref.whole main_v13) (Transfers.shareTokN fullShare 83) tb
        ∗ ptq c (Memref.whole main_v13) (Transfers.shareTokN fullShare 84) tb
        ∗ ptq c (Memref.whole main_v13) (Transfers.shareTokN fullShare 85) tb
        ∗ ptq c (Memref.whole main_v13) (Transfers.shareTokN fullShare 86) tb
        ∗ ptq c (Memref.whole main_v13) (Transfers.shareTokN fullShare 87) tb
        ∗ ptq c (Memref.whole main_v13) (Transfers.shareTokN fullShare 88) tb
        ∗ ptq c (Memref.whole main_v13) (Transfers.shareTokN fullShare 89) tb
        ∗ ptq c (Memref.whole main_v13) (Transfers.shareTokN fullShare 90) tb
        ∗ ptq c (Memref.whole main_v13) (Transfers.shareTokN fullShare 91) tb
        ∗ ptq c (Memref.whole main_v13) (Transfers.shareTokN fullShare 92) tb
        ∗ ptq c (Memref.whole main_v13) (Transfers.shareTokN fullShare 93) tb
        ∗ ptq c (Memref.whole main_v13) (Transfers.shareTokN fullShare 94) tb
        ∗ ptq c (Memref.whole main_v13) (Transfers.shareTokN fullShare 95) tb
        ∗ ptq c (Memref.whole main_v13) (Transfers.shareTokN fullShare 96) tb
        ∗ ptq c (Memref.whole main_v13) (Transfers.shareTokN fullShare 97) tb
        ∗ ptq c (Memref.whole main_v13) (Transfers.shareTokN fullShare 98) tb
        ∗ ptq c (Memref.whole main_v13) (Transfers.shareTokN fullShare 99) tb
        ∗ ptq c (Memref.whole main_v13) (Transfers.shareTokN fullShare 100) tb
        ∗ ptq c (Memref.whole main_v13) (Transfers.shareTokN fullShare 101) tb)
        ∗ ((sc.view.loc (c : Thread nD τ) ↦[((((((((((((((((Finset.univ \ (rowWin sc (off 0) (h 0)).view.set) \ (rowWin sc (off 1) (h 1)).view.set) \ (rowWin sc (off 2) (h 2)).view.set) \ (rowWin sc (off 3) (h 3)).view.set) \ (rowWin sc (off 4) (h 4)).view.set) \ (rowWin sc (off 5) (h 5)).view.set) \ (rowWin sc (off 6) (h 6)).view.set) \ (rowWin sc (off 7) (h 7)).view.set) \ (rowWin sc (off 8) (h 8)).view.set) \ (rowWin sc (off 9) (h 9)).view.set) \ (rowWin sc (off 10) (h 10)).view.set) \ (rowWin sc (off 11) (h 11)).view.set) \ (rowWin sc (off 12) (h 12)).view.set) \ (rowWin sc (off 13) (h 13)).view.set) \ (rowWin sc (off 14) (h 14)).view.set) \ (rowWin sc (off 15) (h 15)).view.set)]{fullShare} writeRows sc off h p f 32 (le_refl _))
        ∗ (sc.view.loc (c : Thread nD τ) ↦[(rowWin sc (off 0) (h 0)).view.set]{fullShare} writeRows sc off h p f 1 (by omega))
        ∗ (sc.view.loc (c : Thread nD τ) ↦[(rowWin sc (off 1) (h 1)).view.set]{fullShare} writeRows sc off h p f 2 (by omega))
        ∗ (sc.view.loc (c : Thread nD τ) ↦[(rowWin sc (off 2) (h 2)).view.set]{fullShare} writeRows sc off h p f 3 (by omega))
        ∗ (sc.view.loc (c : Thread nD τ) ↦[(rowWin sc (off 3) (h 3)).view.set]{fullShare} writeRows sc off h p f 4 (by omega))
        ∗ (sc.view.loc (c : Thread nD τ) ↦[(rowWin sc (off 4) (h 4)).view.set]{fullShare} writeRows sc off h p f 5 (by omega))
        ∗ (sc.view.loc (c : Thread nD τ) ↦[(rowWin sc (off 5) (h 5)).view.set]{fullShare} writeRows sc off h p f 6 (by omega))
        ∗ (sc.view.loc (c : Thread nD τ) ↦[(rowWin sc (off 6) (h 6)).view.set]{fullShare} writeRows sc off h p f 7 (by omega))
        ∗ (sc.view.loc (c : Thread nD τ) ↦[(rowWin sc (off 7) (h 7)).view.set]{fullShare} writeRows sc off h p f 8 (by omega))
        ∗ (sc.view.loc (c : Thread nD τ) ↦[(rowWin sc (off 8) (h 8)).view.set]{fullShare} writeRows sc off h p f 9 (by omega))
        ∗ (sc.view.loc (c : Thread nD τ) ↦[(rowWin sc (off 9) (h 9)).view.set]{fullShare} writeRows sc off h p f 10 (by omega))
        ∗ (sc.view.loc (c : Thread nD τ) ↦[(rowWin sc (off 10) (h 10)).view.set]{fullShare} writeRows sc off h p f 11 (by omega))
        ∗ (sc.view.loc (c : Thread nD τ) ↦[(rowWin sc (off 11) (h 11)).view.set]{fullShare} writeRows sc off h p f 12 (by omega))
        ∗ (sc.view.loc (c : Thread nD τ) ↦[(rowWin sc (off 12) (h 12)).view.set]{fullShare} writeRows sc off h p f 13 (by omega))
        ∗ (sc.view.loc (c : Thread nD τ) ↦[(rowWin sc (off 13) (h 13)).view.set]{fullShare} writeRows sc off h p f 14 (by omega))
        ∗ (sc.view.loc (c : Thread nD τ) ↦[(rowWin sc (off 14) (h 14)).view.set]{fullShare} writeRows sc off h p f 15 (by omega))
        ∗ (sc.view.loc (c : Thread nD τ) ↦[(rowWin sc (off 15) (h 15)).view.set]{fullShare} writeRows sc off h p f 16 (by omega)))
        ∗ (semVal ((c : Thread nD τ), (SemLoc.dma 70 : SemLoc sig)) 0
        ∗ semVal ((c : Thread nD τ), (SemLoc.dma 71 : SemLoc sig)) 0
        ∗ semVal ((c : Thread nD τ), (SemLoc.dma 72 : SemLoc sig)) 0
        ∗ semVal ((c : Thread nD τ), (SemLoc.dma 73 : SemLoc sig)) 0
        ∗ semVal ((c : Thread nD τ), (SemLoc.dma 74 : SemLoc sig)) 0
        ∗ semVal ((c : Thread nD τ), (SemLoc.dma 75 : SemLoc sig)) 0
        ∗ semVal ((c : Thread nD τ), (SemLoc.dma 76 : SemLoc sig)) 0
        ∗ semVal ((c : Thread nD τ), (SemLoc.dma 77 : SemLoc sig)) 0
        ∗ semVal ((c : Thread nD τ), (SemLoc.dma 78 : SemLoc sig)) 0
        ∗ semVal ((c : Thread nD τ), (SemLoc.dma 79 : SemLoc sig)) 0
        ∗ semVal ((c : Thread nD τ), (SemLoc.dma 80 : SemLoc sig)) 0
        ∗ semVal ((c : Thread nD τ), (SemLoc.dma 81 : SemLoc sig)) 0
        ∗ semVal ((c : Thread nD τ), (SemLoc.dma 82 : SemLoc sig)) 0
        ∗ semVal ((c : Thread nD τ), (SemLoc.dma 83 : SemLoc sig)) 0
        ∗ semVal ((c : Thread nD τ), (SemLoc.dma 84 : SemLoc sig)) 0
        ∗ semVal ((c : Thread nD τ), (SemLoc.dma 85 : SemLoc sig)) 0
        ∗ semVal ((c : Thread nD τ), (SemLoc.dma 86 : SemLoc sig)) 0
        ∗ semVal ((c : Thread nD τ), (SemLoc.dma 87 : SemLoc sig)) 0
        ∗ semVal ((c : Thread nD τ), (SemLoc.dma 88 : SemLoc sig)) 0
        ∗ semVal ((c : Thread nD τ), (SemLoc.dma 89 : SemLoc sig)) 0
        ∗ semVal ((c : Thread nD τ), (SemLoc.dma 90 : SemLoc sig)) 0
        ∗ semVal ((c : Thread nD τ), (SemLoc.dma 91 : SemLoc sig)) 0
        ∗ semVal ((c : Thread nD τ), (SemLoc.dma 92 : SemLoc sig)) 0
        ∗ semVal ((c : Thread nD τ), (SemLoc.dma 93 : SemLoc sig)) 0
        ∗ semVal ((c : Thread nD τ), (SemLoc.dma 94 : SemLoc sig)) 0
        ∗ semVal ((c : Thread nD τ), (SemLoc.dma 95 : SemLoc sig)) 0
        ∗ semVal ((c : Thread nD τ), (SemLoc.dma 96 : SemLoc sig)) 0
        ∗ semVal ((c : Thread nD τ), (SemLoc.dma 97 : SemLoc sig)) 0
        ∗ semVal ((c : Thread nD τ), (SemLoc.dma 98 : SemLoc sig)) 0
        ∗ semVal ((c : Thread nD τ), (SemLoc.dma 99 : SemLoc sig)) 0
        ∗ semVal ((c : Thread nD τ), (SemLoc.dma 100 : SemLoc sig)) 0
        ∗ semVal ((c : Thread nD τ), (SemLoc.dma 101 : SemLoc sig)) 0)
        ∗ owes (c : Thread nD τ) 0 W) : sProp (𝕄K F))
      ⊢ iprop((pt c (Memref.whole main_v11) col ∗ toks2 c tb ∗ pt c sc (writeRows sc off h p f 32 (le_refl _)) ∗ sems2 c)
          ∗ ∃ W', owes (c : Thread nD τ) 0 W') := by
  intro sc
  iintro ⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hs, Hw0, Hw1, Hw2, Hw3, Hw4, Hw5, Hw6, Hw7, Hw8, Hw9, Hw10, Hw11, Hw12, Hw13, Hw14, Hw15⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO⟩
  isplitr [HO]; swap
  · iexists _; iexact HO
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks2
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hs Hw0 Hw1 Hw2 Hw3 Hw4 Hw5 Hw6 Hw7 Hw8 Hw9 Hw10 Hw11 Hw12 Hw13 Hw14 Hw15]
  · iapply (rejoin16 c sc hsc off ρ hoff hρ h p f)
    isplitl [Hs]; · iexact Hs
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  unfold sems2
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  isplitl [Hd23]; · iexact Hd23
  isplitl [Hd24]; · iexact Hd24
  isplitl [Hd25]; · iexact Hd25
  isplitl [Hd26]; · iexact Hd26
  isplitl [Hd27]; · iexact Hd27
  isplitl [Hd28]; · iexact Hd28
  isplitl [Hd29]; · iexact Hd29
  isplitl [Hd30]; · iexact Hd30
  iexact Hd31

end Cert.Kernel.Hand

end
-- ==== Proof.K.Trip2.lean ====
/-
  One trip of the third region's loop.  Before trip `k` the scratch holds the rows filled so far; the trip
  starts 32 transfers, one per row `32 k` to `32 k + 31`, each reading the table row its index word names,
  and waits for all of them; afterwards those 32 rows are filled too and nothing else has changed.
-/
import proofs.«423058_j50337016709696_1_alg».proof.Proof.K.Cells2
import proofs.«423058_j50337016709696_1_alg».proof.Proof.K.Rows2
import proofs.«423058_j50337016709696_1_alg».proof.Proof.K.Rejoin
import proofs.«423058_j50337016709696_1_alg».proof.Proof.K.GathStep
import proofs.«423058_j50337016709696_1_alg».proof.Proof.K.Payload
import proofs.«423058_j50337016709696_1_alg».proof.Proof.K.Words2
import proofs.«423058_j50337016709696_1_alg».proof.Proof.K.Handback2
import proofs.«423058_j50337016709696_1_alg».proof.Proof.K.RowWritesMore

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a trip needs and gives back, the scratch at raw contents `fs`: the column, the table held for reading, the
    scratch, the counters at zero.  (The result's staging block is not among them: a trip never touches it.) -/
abbrev Trip2 (c : Dev nD) (h1 : (Memref.whole main_v11).IsWhole)
    (h2 : (Memref.whole main_v13).IsWhole) (X : S131072.Idx → Elt F .i32) (u : S500000x32.Idx → Elt F .f32)
    (fs : Bf (F := F) c (Memref.whole cc2_scratch0)) : sProp (𝕄K F) :=
  iprop(pt c (Memref.whole main_v11) (h1.unread X) ∗ toks2 c (h2.unread u)
    ∗ pt c (Memref.whole cc2_scratch0) fs ∗ sems2 c)

-- one trip is 32 transfers started and then 32 awaited, run in one go, and 16 rows rejoined after it
set_option maxHeartbeats 40000000 in
/-- ONE trip: from the scratch reading as `Gather.gath X u i f₀ k` to the scratch reading as `Gather.gath X u i f₀ (k + 1)`,
    everything else as it was. -/
theorem trip2 (c : Dev nD) (i : grid2.Coords) (M3 : Memref sig .tc .vmem S1024x32 .f32) (h3 : M3.IsWhole)
    (h1 : (Memref.whole main_v11).IsWhole) (h2 : (Memref.whole main_v13).IsWhole) (h4 : (Memref.whole cc2_scratch0).IsWhole)
    (X : S131072.Idx → Elt F .i32) (hX : ∀ j, (X j).toNat < 500000) (u : S500000x32.Idx → Elt F .f32)
    (f₀ : S1024x32.Idx → Elt F .f32) (fs : Bf (F := F) c (Memref.whole cc2_scratch0))
    (k : Fin k2_t1_loop.trips) (hfs : (Memref.whole cc2_scratch0).view.read (Elt F) fs = Cert.Gather.gath X u (blk2 i) f₀ k.val)
    (W : Waits sig Unit) (Q : Unit → sProp (𝕄K F)) :
    iprop(Trip2 c h1 h2 X u fs ∗ owes (c : Thread nD τ) 0 W
        ∗ (iprop(∃ fs' : Bf (F := F) c (Memref.whole cc2_scratch0),
              ⌜(Memref.whole cc2_scratch0).view.read (Elt F) fs' = Cert.Gather.gath X u (blk2 i) f₀ (k.val + 1)⌝
              ∗ Trip2 c h1 h2 X u fs' ∗ (∃ W', owes (c : Thread nD τ) 0 W')) -∗ Q ()))
      ⊢ wp frame (wpE (defs₀ (F := F)) Variants.none c none) Set.univ
          (k2_t1_body i (Memref.whole main_v11) h1 (Memref.whole main_v13) h2 M3 h3 (Memref.whole cc2_scratch0) h4 cc2_scratch1
            (Scalar.muli (BitVec.ofNat 32 (i 0).val) 1024#32) k ()) Q := by
  unfold k2_t1_body
  iintro ⟨⟨Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, Hs, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩⟩, HO, Hk⟩
  sl_exec (disch := (sl_unfold_run_names; obtain ⟨j, hj⟩ := h1.exists_readAt_unread X _ _; rw [hj]; exact row_inb _ (hX j)))
  sl_step
  -- the 32 transfers' payloads, as one family (the run's own names)
  let pay : Fin 32 → S32.Idx → Elt F .f32 := fun s => match s with
    | ⟨0, _⟩ => trip2.sl.dma1 i h1 h2 X hX u k
    | ⟨1, _⟩ => trip2.sl.dma2 i h1 h2 X hX u k
    | ⟨2, _⟩ => trip2.sl.dma3 i h1 h2 X hX u k
    | ⟨3, _⟩ => trip2.sl.dma4 i h1 h2 X hX u k
    | ⟨4, _⟩ => trip2.sl.dma5 i h1 h2 X hX u k
    | ⟨5, _⟩ => trip2.sl.dma6 i h1 h2 X hX u k
    | ⟨6, _⟩ => trip2.sl.dma7 i h1 h2 X hX u k
    | ⟨7, _⟩ => trip2.sl.dma8 i h1 h2 X hX u k
    | ⟨8, _⟩ => trip2.sl.dma9 i h1 h2 X hX u k
    | ⟨9, _⟩ => trip2.sl.dma10 i h1 h2 X hX u k
    | ⟨10, _⟩ => trip2.sl.dma11 i h1 h2 X hX u k
    | ⟨11, _⟩ => trip2.sl.dma12 i h1 h2 X hX u k
    | ⟨12, _⟩ => trip2.sl.dma13 i h1 h2 X hX u k
    | ⟨13, _⟩ => trip2.sl.dma14 i h1 h2 X hX u k
    | ⟨14, _⟩ => trip2.sl.dma15 i h1 h2 X hX u k
    | ⟨15, _⟩ => trip2.sl.dma16 i h1 h2 X hX u k
    | ⟨16, _⟩ => trip2.sl.dma17 i h1 h2 X hX u k
    | ⟨17, _⟩ => trip2.sl.dma18 i h1 h2 X hX u k
    | ⟨18, _⟩ => trip2.sl.dma19 i h1 h2 X hX u k
    | ⟨19, _⟩ => trip2.sl.dma20 i h1 h2 X hX u k
    | ⟨20, _⟩ => trip2.sl.dma21 i h1 h2 X hX u k
    | ⟨21, _⟩ => trip2.sl.dma22 i h1 h2 X hX u k
    | ⟨22, _⟩ => trip2.sl.dma23 i h1 h2 X hX u k
    | ⟨23, _⟩ => trip2.sl.dma24 i h1 h2 X hX u k
    | ⟨24, _⟩ => trip2.sl.dma25 i h1 h2 X hX u k
    | ⟨25, _⟩ => trip2.sl.dma26 i h1 h2 X hX u k
    | ⟨26, _⟩ => trip2.sl.dma27 i h1 h2 X hX u k
    | ⟨27, _⟩ => trip2.sl.dma28 i h1 h2 X hX u k
    | ⟨28, _⟩ => trip2.sl.dma29 i h1 h2 X hX u k
    | ⟨29, _⟩ => trip2.sl.dma30 i h1 h2 X hX u k
    | ⟨30, _⟩ => trip2.sl.dma31 i h1 h2 X hX u k
    | ⟨31, _⟩ => trip2.sl.dma32 i h1 h2 X hX u k
    | ⟨_ + 32, h⟩ => absurd h (Nat.not_lt.2 (Nat.le_add_left _ _))
  -- the scratch after r + 1 of the transfers have landed is the run's name for it
  have e0 : trip2.sl.Hs_w0 c i h1 h2 X hX u fs k = writeRows (Memref.whole cc2_scratch0) (dstOff2 k) (dstOff2_inb k) pay fs (0 + 1) (by omega) := by
    rw [writeRows_succ]; rfl
  have e1 : trip2.sl.Hs_w1 c i h1 h2 X hX u fs k = writeRows (Memref.whole cc2_scratch0) (dstOff2 k) (dstOff2_inb k) pay fs (1 + 1) (by omega) := by
    rw [writeRows_succ, ← e0]; rfl
  have e2 : trip2.sl.Hs_w2 c i h1 h2 X hX u fs k = writeRows (Memref.whole cc2_scratch0) (dstOff2 k) (dstOff2_inb k) pay fs (2 + 1) (by omega) := by
    rw [writeRows_succ, ← e1]; rfl
  have e3 : trip2.sl.Hs_w3 c i h1 h2 X hX u fs k = writeRows (Memref.whole cc2_scratch0) (dstOff2 k) (dstOff2_inb k) pay fs (3 + 1) (by omega) := by
    rw [writeRows_succ, ← e2]; rfl
  have e4 : trip2.sl.Hs_w4 c i h1 h2 X hX u fs k = writeRows (Memref.whole cc2_scratch0) (dstOff2 k) (dstOff2_inb k) pay fs (4 + 1) (by omega) := by
    rw [writeRows_succ, ← e3]; rfl
  have e5 : trip2.sl.Hs_w5 c i h1 h2 X hX u fs k = writeRows (Memref.whole cc2_scratch0) (dstOff2 k) (dstOff2_inb k) pay fs (5 + 1) (by omega) := by
    rw [writeRows_succ, ← e4]; rfl
  have e6 : trip2.sl.Hs_w6 c i h1 h2 X hX u fs k = writeRows (Memref.whole cc2_scratch0) (dstOff2 k) (dstOff2_inb k) pay fs (6 + 1) (by omega) := by
    rw [writeRows_succ, ← e5]; rfl
  have e7 : trip2.sl.Hs_w7 c i h1 h2 X hX u fs k = writeRows (Memref.whole cc2_scratch0) (dstOff2 k) (dstOff2_inb k) pay fs (7 + 1) (by omega) := by
    rw [writeRows_succ, ← e6]; rfl
  have e8 : trip2.sl.Hs_w8 c i h1 h2 X hX u fs k = writeRows (Memref.whole cc2_scratch0) (dstOff2 k) (dstOff2_inb k) pay fs (8 + 1) (by omega) := by
    rw [writeRows_succ, ← e7]; rfl
  have e9 : trip2.sl.Hs_w9 c i h1 h2 X hX u fs k = writeRows (Memref.whole cc2_scratch0) (dstOff2 k) (dstOff2_inb k) pay fs (9 + 1) (by omega) := by
    rw [writeRows_succ, ← e8]; rfl
  have e10 : trip2.sl.Hs_w10 c i h1 h2 X hX u fs k = writeRows (Memref.whole cc2_scratch0) (dstOff2 k) (dstOff2_inb k) pay fs (10 + 1) (by omega) := by
    rw [writeRows_succ, ← e9]; rfl
  have e11 : trip2.sl.Hs_w11 c i h1 h2 X hX u fs k = writeRows (Memref.whole cc2_scratch0) (dstOff2 k) (dstOff2_inb k) pay fs (11 + 1) (by omega) := by
    rw [writeRows_succ, ← e10]; rfl
  have e12 : trip2.sl.Hs_w12 c i h1 h2 X hX u fs k = writeRows (Memref.whole cc2_scratch0) (dstOff2 k) (dstOff2_inb k) pay fs (12 + 1) (by omega) := by
    rw [writeRows_succ, ← e11]; rfl
  have e13 : trip2.sl.Hs_w13 c i h1 h2 X hX u fs k = writeRows (Memref.whole cc2_scratch0) (dstOff2 k) (dstOff2_inb k) pay fs (13 + 1) (by omega) := by
    rw [writeRows_succ, ← e12]; rfl
  have e14 : trip2.sl.Hs_w14 c i h1 h2 X hX u fs k = writeRows (Memref.whole cc2_scratch0) (dstOff2 k) (dstOff2_inb k) pay fs (14 + 1) (by omega) := by
    rw [writeRows_succ, ← e13]; rfl
  have e15 : trip2.sl.Hs_w15 c i h1 h2 X hX u fs k = writeRows (Memref.whole cc2_scratch0) (dstOff2 k) (dstOff2_inb k) pay fs (15 + 1) (by omega) := by
    rw [writeRows_succ, ← e14]; rfl
  have e16 : trip2.sl.Hs_w16 c i h1 h2 X hX u fs k = writeRows (Memref.whole cc2_scratch0) (dstOff2 k) (dstOff2_inb k) pay fs (16 + 1) (by omega) := by
    rw [writeRows_succ, ← e15]; rfl
  have e17 : trip2.sl.Hs_w17 c i h1 h2 X hX u fs k = writeRows (Memref.whole cc2_scratch0) (dstOff2 k) (dstOff2_inb k) pay fs (17 + 1) (by omega) := by
    rw [writeRows_succ, ← e16]; rfl
  have e18 : trip2.sl.Hs_w18 c i h1 h2 X hX u fs k = writeRows (Memref.whole cc2_scratch0) (dstOff2 k) (dstOff2_inb k) pay fs (18 + 1) (by omega) := by
    rw [writeRows_succ, ← e17]; rfl
  have e19 : trip2.sl.Hs_w19 c i h1 h2 X hX u fs k = writeRows (Memref.whole cc2_scratch0) (dstOff2 k) (dstOff2_inb k) pay fs (19 + 1) (by omega) := by
    rw [writeRows_succ, ← e18]; rfl
  have e20 : trip2.sl.Hs_w20 c i h1 h2 X hX u fs k = writeRows (Memref.whole cc2_scratch0) (dstOff2 k) (dstOff2_inb k) pay fs (20 + 1) (by omega) := by
    rw [writeRows_succ, ← e19]; rfl
  have e21 : trip2.sl.Hs_w21 c i h1 h2 X hX u fs k = writeRows (Memref.whole cc2_scratch0) (dstOff2 k) (dstOff2_inb k) pay fs (21 + 1) (by omega) := by
    rw [writeRows_succ, ← e20]; rfl
  have e22 : trip2.sl.Hs_w22 c i h1 h2 X hX u fs k = writeRows (Memref.whole cc2_scratch0) (dstOff2 k) (dstOff2_inb k) pay fs (22 + 1) (by omega) := by
    rw [writeRows_succ, ← e21]; rfl
  have e23 : trip2.sl.Hs_w23 c i h1 h2 X hX u fs k = writeRows (Memref.whole cc2_scratch0) (dstOff2 k) (dstOff2_inb k) pay fs (23 + 1) (by omega) := by
    rw [writeRows_succ, ← e22]; rfl
  have e24 : trip2.sl.Hs_w24 c i h1 h2 X hX u fs k = writeRows (Memref.whole cc2_scratch0) (dstOff2 k) (dstOff2_inb k) pay fs (24 + 1) (by omega) := by
    rw [writeRows_succ, ← e23]; rfl
  have e25 : trip2.sl.Hs_w25 c i h1 h2 X hX u fs k = writeRows (Memref.whole cc2_scratch0) (dstOff2 k) (dstOff2_inb k) pay fs (25 + 1) (by omega) := by
    rw [writeRows_succ, ← e24]; rfl
  have e26 : trip2.sl.Hs_w26 c i h1 h2 X hX u fs k = writeRows (Memref.whole cc2_scratch0) (dstOff2 k) (dstOff2_inb k) pay fs (26 + 1) (by omega) := by
    rw [writeRows_succ, ← e25]; rfl
  have e27 : trip2.sl.Hs_w27 c i h1 h2 X hX u fs k = writeRows (Memref.whole cc2_scratch0) (dstOff2 k) (dstOff2_inb k) pay fs (27 + 1) (by omega) := by
    rw [writeRows_succ, ← e26]; rfl
  have e28 : trip2.sl.Hs_w28 c i h1 h2 X hX u fs k = writeRows (Memref.whole cc2_scratch0) (dstOff2 k) (dstOff2_inb k) pay fs (28 + 1) (by omega) := by
    rw [writeRows_succ, ← e27]; rfl
  have e29 : trip2.sl.Hs_w29 c i h1 h2 X hX u fs k = writeRows (Memref.whole cc2_scratch0) (dstOff2 k) (dstOff2_inb k) pay fs (29 + 1) (by omega) := by
    rw [writeRows_succ, ← e28]; rfl
  have e30 : trip2.sl.Hs_w30 c i h1 h2 X hX u fs k = writeRows (Memref.whole cc2_scratch0) (dstOff2 k) (dstOff2_inb k) pay fs (30 + 1) (by omega) := by
    rw [writeRows_succ, ← e29]; rfl
  have e31 : trip2.sl.Hs_w31 c i h1 h2 X hX u fs k = writeRows (Memref.whole cc2_scratch0) (dstOff2 k) (dstOff2_inb k) pay fs (31 + 1) (by omega) := by
    rw [writeRows_succ, ← e30]; rfl
  -- each transfer carries the table row the specification fills its row from
  have hpAll : ∀ (s : Fin 32) (l : S32.Idx), pay s l = u (ValueIdx.ix2 (Cert.Gather.srcRow X (blk2 i) (dstRow2 k s)) (l 0)) := fun s => match s with
    | ⟨0, _⟩ => fun l => payload_row (Memref.whole main_v11) (Memref.whole main_v13) h1 h2 X hX u (blk2 i) (dstRow2 k ⟨0, by decide⟩) (wordOff2 i k ⟨0, by decide⟩) (wordOff2_inb i k ⟨0, by decide⟩) (by rw [wordOff2_eq]; rfl) _ (trip2.sl.r i h1 X k) rfl (k2_off3 (trip2.sl.r i h1 X k)) _ rfl (trip2.sl.dma1 i h1 h2 X hX u k) rfl l
    | ⟨1, _⟩ => fun l => payload_row (Memref.whole main_v11) (Memref.whole main_v13) h1 h2 X hX u (blk2 i) (dstRow2 k ⟨1, by decide⟩) (wordOff2 i k ⟨1, by decide⟩) (wordOff2_inb i k ⟨1, by decide⟩) (by rw [wordOff2_eq]; rfl) _ (trip2.sl.r_1 i h1 X k) rfl (k2_off6 (trip2.sl.r_1 i h1 X k)) _ rfl (trip2.sl.dma2 i h1 h2 X hX u k) rfl l
    | ⟨2, _⟩ => fun l => payload_row (Memref.whole main_v11) (Memref.whole main_v13) h1 h2 X hX u (blk2 i) (dstRow2 k ⟨2, by decide⟩) (wordOff2 i k ⟨2, by decide⟩) (wordOff2_inb i k ⟨2, by decide⟩) (by rw [wordOff2_eq]; rfl) _ (trip2.sl.r_2 i h1 X k) rfl (k2_off9 (trip2.sl.r_2 i h1 X k)) _ rfl (trip2.sl.dma3 i h1 h2 X hX u k) rfl l
    | ⟨3, _⟩ => fun l => payload_row (Memref.whole main_v11) (Memref.whole main_v13) h1 h2 X hX u (blk2 i) (dstRow2 k ⟨3, by decide⟩) (wordOff2 i k ⟨3, by decide⟩) (wordOff2_inb i k ⟨3, by decide⟩) (by rw [wordOff2_eq]; rfl) _ (trip2.sl.r_3 i h1 X k) rfl (k2_off12 (trip2.sl.r_3 i h1 X k)) _ rfl (trip2.sl.dma4 i h1 h2 X hX u k) rfl l
    | ⟨4, _⟩ => fun l => payload_row (Memref.whole main_v11) (Memref.whole main_v13) h1 h2 X hX u (blk2 i) (dstRow2 k ⟨4, by decide⟩) (wordOff2 i k ⟨4, by decide⟩) (wordOff2_inb i k ⟨4, by decide⟩) (by rw [wordOff2_eq]; rfl) _ (trip2.sl.r_4 i h1 X k) rfl (k2_off15 (trip2.sl.r_4 i h1 X k)) _ rfl (trip2.sl.dma5 i h1 h2 X hX u k) rfl l
    | ⟨5, _⟩ => fun l => payload_row (Memref.whole main_v11) (Memref.whole main_v13) h1 h2 X hX u (blk2 i) (dstRow2 k ⟨5, by decide⟩) (wordOff2 i k ⟨5, by decide⟩) (wordOff2_inb i k ⟨5, by decide⟩) (by rw [wordOff2_eq]; rfl) _ (trip2.sl.r_5 i h1 X k) rfl (k2_off18 (trip2.sl.r_5 i h1 X k)) _ rfl (trip2.sl.dma6 i h1 h2 X hX u k) rfl l
    | ⟨6, _⟩ => fun l => payload_row (Memref.whole main_v11) (Memref.whole main_v13) h1 h2 X hX u (blk2 i) (dstRow2 k ⟨6, by decide⟩) (wordOff2 i k ⟨6, by decide⟩) (wordOff2_inb i k ⟨6, by decide⟩) (by rw [wordOff2_eq]; rfl) _ (trip2.sl.r_6 i h1 X k) rfl (k2_off21 (trip2.sl.r_6 i h1 X k)) _ rfl (trip2.sl.dma7 i h1 h2 X hX u k) rfl l
    | ⟨7, _⟩ => fun l => payload_row (Memref.whole main_v11) (Memref.whole main_v13) h1 h2 X hX u (blk2 i) (dstRow2 k ⟨7, by decide⟩) (wordOff2 i k ⟨7, by decide⟩) (wordOff2_inb i k ⟨7, by decide⟩) (by rw [wordOff2_eq]; rfl) _ (trip2.sl.r_7 i h1 X k) rfl (k2_off24 (trip2.sl.r_7 i h1 X k)) _ rfl (trip2.sl.dma8 i h1 h2 X hX u k) rfl l
    | ⟨8, _⟩ => fun l => payload_row (Memref.whole main_v11) (Memref.whole main_v13) h1 h2 X hX u (blk2 i) (dstRow2 k ⟨8, by decide⟩) (wordOff2 i k ⟨8, by decide⟩) (wordOff2_inb i k ⟨8, by decide⟩) (by rw [wordOff2_eq]; rfl) _ (trip2.sl.r_8 i h1 X k) rfl (k2_off27 (trip2.sl.r_8 i h1 X k)) _ rfl (trip2.sl.dma9 i h1 h2 X hX u k) rfl l
    | ⟨9, _⟩ => fun l => payload_row (Memref.whole main_v11) (Memref.whole main_v13) h1 h2 X hX u (blk2 i) (dstRow2 k ⟨9, by decide⟩) (wordOff2 i k ⟨9, by decide⟩) (wordOff2_inb i k ⟨9, by decide⟩) (by rw [wordOff2_eq]; rfl) _ (trip2.sl.r_9 i h1 X k) rfl (k2_off30 (trip2.sl.r_9 i h1 X k)) _ rfl (trip2.sl.dma10 i h1 h2 X hX u k) rfl l
    | ⟨10, _⟩ => fun l => payload_row (Memref.whole main_v11) (Memref.whole main_v13) h1 h2 X hX u (blk2 i) (dstRow2 k ⟨10, by decide⟩) (wordOff2 i k ⟨10, by decide⟩) (wordOff2_inb i k ⟨10, by decide⟩) (by rw [wordOff2_eq]; rfl) _ (trip2.sl.r_10 i h1 X k) rfl (k2_off33 (trip2.sl.r_10 i h1 X k)) _ rfl (trip2.sl.dma11 i h1 h2 X hX u k) rfl l
    | ⟨11, _⟩ => fun l => payload_row (Memref.whole main_v11) (Memref.whole main_v13) h1 h2 X hX u (blk2 i) (dstRow2 k ⟨11, by decide⟩) (wordOff2 i k ⟨11, by decide⟩) (wordOff2_inb i k ⟨11, by decide⟩) (by rw [wordOff2_eq]; rfl) _ (trip2.sl.r_11 i h1 X k) rfl (k2_off36 (trip2.sl.r_11 i h1 X k)) _ rfl (trip2.sl.dma12 i h1 h2 X hX u k) rfl l
    | ⟨12, _⟩ => fun l => payload_row (Memref.whole main_v11) (Memref.whole main_v13) h1 h2 X hX u (blk2 i) (dstRow2 k ⟨12, by decide⟩) (wordOff2 i k ⟨12, by decide⟩) (wordOff2_inb i k ⟨12, by decide⟩) (by rw [wordOff2_eq]; rfl) _ (trip2.sl.r_12 i h1 X k) rfl (k2_off39 (trip2.sl.r_12 i h1 X k)) _ rfl (trip2.sl.dma13 i h1 h2 X hX u k) rfl l
    | ⟨13, _⟩ => fun l => payload_row (Memref.whole main_v11) (Memref.whole main_v13) h1 h2 X hX u (blk2 i) (dstRow2 k ⟨13, by decide⟩) (wordOff2 i k ⟨13, by decide⟩) (wordOff2_inb i k ⟨13, by decide⟩) (by rw [wordOff2_eq]; rfl) _ (trip2.sl.r_13 i h1 X k) rfl (k2_off42 (trip2.sl.r_13 i h1 X k)) _ rfl (trip2.sl.dma14 i h1 h2 X hX u k) rfl l
    | ⟨14, _⟩ => fun l => payload_row (Memref.whole main_v11) (Memref.whole main_v13) h1 h2 X hX u (blk2 i) (dstRow2 k ⟨14, by decide⟩) (wordOff2 i k ⟨14, by decide⟩) (wordOff2_inb i k ⟨14, by decide⟩) (by rw [wordOff2_eq]; rfl) _ (trip2.sl.r_14 i h1 X k) rfl (k2_off45 (trip2.sl.r_14 i h1 X k)) _ rfl (trip2.sl.dma15 i h1 h2 X hX u k) rfl l
    | ⟨15, _⟩ => fun l => payload_row (Memref.whole main_v11) (Memref.whole main_v13) h1 h2 X hX u (blk2 i) (dstRow2 k ⟨15, by decide⟩) (wordOff2 i k ⟨15, by decide⟩) (wordOff2_inb i k ⟨15, by decide⟩) (by rw [wordOff2_eq]; rfl) _ (trip2.sl.r_15 i h1 X k) rfl (k2_off48 (trip2.sl.r_15 i h1 X k)) _ rfl (trip2.sl.dma16 i h1 h2 X hX u k) rfl l
    | ⟨16, _⟩ => fun l => payload_row (Memref.whole main_v11) (Memref.whole main_v13) h1 h2 X hX u (blk2 i) (dstRow2 k ⟨16, by decide⟩) (wordOff2 i k ⟨16, by decide⟩) (wordOff2_inb i k ⟨16, by decide⟩) (by rw [wordOff2_eq]; rfl) _ (trip2.sl.r_16 i h1 X k) rfl (k2_off51 (trip2.sl.r_16 i h1 X k)) _ rfl (trip2.sl.dma17 i h1 h2 X hX u k) rfl l
    | ⟨17, _⟩ => fun l => payload_row (Memref.whole main_v11) (Memref.whole main_v13) h1 h2 X hX u (blk2 i) (dstRow2 k ⟨17, by decide⟩) (wordOff2 i k ⟨17, by decide⟩) (wordOff2_inb i k ⟨17, by decide⟩) (by rw [wordOff2_eq]; rfl) _ (trip2.sl.r_17 i h1 X k) rfl (k2_off54 (trip2.sl.r_17 i h1 X k)) _ rfl (trip2.sl.dma18 i h1 h2 X hX u k) rfl l
    | ⟨18, _⟩ => fun l => payload_row (Memref.whole main_v11) (Memref.whole main_v13) h1 h2 X hX u (blk2 i) (dstRow2 k ⟨18, by decide⟩) (wordOff2 i k ⟨18, by decide⟩) (wordOff2_inb i k ⟨18, by decide⟩) (by rw [wordOff2_eq]; rfl) _ (trip2.sl.r_18 i h1 X k) rfl (k2_off57 (trip2.sl.r_18 i h1 X k)) _ rfl (trip2.sl.dma19 i h1 h2 X hX u k) rfl l
    | ⟨19, _⟩ => fun l => payload_row (Memref.whole main_v11) (Memref.whole main_v13) h1 h2 X hX u (blk2 i) (dstRow2 k ⟨19, by decide⟩) (wordOff2 i k ⟨19, by decide⟩) (wordOff2_inb i k ⟨19, by decide⟩) (by rw [wordOff2_eq]; rfl) _ (trip2.sl.r_19 i h1 X k) rfl (k2_off60 (trip2.sl.r_19 i h1 X k)) _ rfl (trip2.sl.dma20 i h1 h2 X hX u k) rfl l
    | ⟨20, _⟩ => fun l => payload_row (Memref.whole main_v11) (Memref.whole main_v13) h1 h2 X hX u (blk2 i) (dstRow2 k ⟨20, by decide⟩) (wordOff2 i k ⟨20, by decide⟩) (wordOff2_inb i k ⟨20, by decide⟩) (by rw [wordOff2_eq]; rfl) _ (trip2.sl.r_20 i h1 X k) rfl (k2_off63 (trip2.sl.r_20 i h1 X k)) _ rfl (trip2.sl.dma21 i h1 h2 X hX u k) rfl l
    | ⟨21, _⟩ => fun l => payload_row (Memref.whole main_v11) (Memref.whole main_v13) h1 h2 X hX u (blk2 i) (dstRow2 k ⟨21, by decide⟩) (wordOff2 i k ⟨21, by decide⟩) (wordOff2_inb i k ⟨21, by decide⟩) (by rw [wordOff2_eq]; rfl) _ (trip2.sl.r_21 i h1 X k) rfl (k2_off66 (trip2.sl.r_21 i h1 X k)) _ rfl (trip2.sl.dma22 i h1 h2 X hX u k) rfl l
    | ⟨22, _⟩ => fun l => payload_row (Memref.whole main_v11) (Memref.whole main_v13) h1 h2 X hX u (blk2 i) (dstRow2 k ⟨22, by decide⟩) (wordOff2 i k ⟨22, by decide⟩) (wordOff2_inb i k ⟨22, by decide⟩) (by rw [wordOff2_eq]; rfl) _ (trip2.sl.r_22 i h1 X k) rfl (k2_off69 (trip2.sl.r_22 i h1 X k)) _ rfl (trip2.sl.dma23 i h1 h2 X hX u k) rfl l
    | ⟨23, _⟩ => fun l => payload_row (Memref.whole main_v11) (Memref.whole main_v13) h1 h2 X hX u (blk2 i) (dstRow2 k ⟨23, by decide⟩) (wordOff2 i k ⟨23, by decide⟩) (wordOff2_inb i k ⟨23, by decide⟩) (by rw [wordOff2_eq]; rfl) _ (trip2.sl.r_23 i h1 X k) rfl (k2_off72 (trip2.sl.r_23 i h1 X k)) _ rfl (trip2.sl.dma24 i h1 h2 X hX u k) rfl l
    | ⟨24, _⟩ => fun l => payload_row (Memref.whole main_v11) (Memref.whole main_v13) h1 h2 X hX u (blk2 i) (dstRow2 k ⟨24, by decide⟩) (wordOff2 i k ⟨24, by decide⟩) (wordOff2_inb i k ⟨24, by decide⟩) (by rw [wordOff2_eq]; rfl) _ (trip2.sl.r_24 i h1 X k) rfl (k2_off75 (trip2.sl.r_24 i h1 X k)) _ rfl (trip2.sl.dma25 i h1 h2 X hX u k) rfl l
    | ⟨25, _⟩ => fun l => payload_row (Memref.whole main_v11) (Memref.whole main_v13) h1 h2 X hX u (blk2 i) (dstRow2 k ⟨25, by decide⟩) (wordOff2 i k ⟨25, by decide⟩) (wordOff2_inb i k ⟨25, by decide⟩) (by rw [wordOff2_eq]; rfl) _ (trip2.sl.r_25 i h1 X k) rfl (k2_off78 (trip2.sl.r_25 i h1 X k)) _ rfl (trip2.sl.dma26 i h1 h2 X hX u k) rfl l
    | ⟨26, _⟩ => fun l => payload_row (Memref.whole main_v11) (Memref.whole main_v13) h1 h2 X hX u (blk2 i) (dstRow2 k ⟨26, by decide⟩) (wordOff2 i k ⟨26, by decide⟩) (wordOff2_inb i k ⟨26, by decide⟩) (by rw [wordOff2_eq]; rfl) _ (trip2.sl.r_26 i h1 X k) rfl (k2_off81 (trip2.sl.r_26 i h1 X k)) _ rfl (trip2.sl.dma27 i h1 h2 X hX u k) rfl l
    | ⟨27, _⟩ => fun l => payload_row (Memref.whole main_v11) (Memref.whole main_v13) h1 h2 X hX u (blk2 i) (dstRow2 k ⟨27, by decide⟩) (wordOff2 i k ⟨27, by decide⟩) (wordOff2_inb i k ⟨27, by decide⟩) (by rw [wordOff2_eq]; rfl) _ (trip2.sl.r_27 i h1 X k) rfl (k2_off84 (trip2.sl.r_27 i h1 X k)) _ rfl (trip2.sl.dma28 i h1 h2 X hX u k) rfl l
    | ⟨28, _⟩ => fun l => payload_row (Memref.whole main_v11) (Memref.whole main_v13) h1 h2 X hX u (blk2 i) (dstRow2 k ⟨28, by decide⟩) (wordOff2 i k ⟨28, by decide⟩) (wordOff2_inb i k ⟨28, by decide⟩) (by rw [wordOff2_eq]; rfl) _ (trip2.sl.r_28 i h1 X k) rfl (k2_off87 (trip2.sl.r_28 i h1 X k)) _ rfl (trip2.sl.dma29 i h1 h2 X hX u k) rfl l
    | ⟨29, _⟩ => fun l => payload_row (Memref.whole main_v11) (Memref.whole main_v13) h1 h2 X hX u (blk2 i) (dstRow2 k ⟨29, by decide⟩) (wordOff2 i k ⟨29, by decide⟩) (wordOff2_inb i k ⟨29, by decide⟩) (by rw [wordOff2_eq]; rfl) _ (trip2.sl.r_29 i h1 X k) rfl (k2_off90 (trip2.sl.r_29 i h1 X k)) _ rfl (trip2.sl.dma30 i h1 h2 X hX u k) rfl l
    | ⟨30, _⟩ => fun l => payload_row (Memref.whole main_v11) (Memref.whole main_v13) h1 h2 X hX u (blk2 i) (dstRow2 k ⟨30, by decide⟩) (wordOff2 i k ⟨30, by decide⟩) (wordOff2_inb i k ⟨30, by decide⟩) (by rw [wordOff2_eq]; rfl) _ (trip2.sl.r_30 i h1 X k) rfl (k2_off93 (trip2.sl.r_30 i h1 X k)) _ rfl (trip2.sl.dma31 i h1 h2 X hX u k) rfl l
    | ⟨31, _⟩ => fun l => payload_row (Memref.whole main_v11) (Memref.whole main_v13) h1 h2 X hX u (blk2 i) (dstRow2 k ⟨31, by decide⟩) (wordOff2 i k ⟨31, by decide⟩) (wordOff2_inb i k ⟨31, by decide⟩) (by rw [wordOff2_eq]; rfl) _ (trip2.sl.r_31 i h1 X k) rfl (k2_off96 (trip2.sl.r_31 i h1 X k)) _ rfl (trip2.sl.dma32 i h1 h2 X hX u k) rfl l
    | ⟨_ + 32, h⟩ => absurd h (Nat.not_lt.2 (Nat.le_add_left _ _))
  -- the scratch's pieces at those contents
  ihave Hs_2 := (pt_of_eq e0) $$ Hs_2
  ihave Hs_3 := (pt_of_eq e1) $$ Hs_3
  ihave Hs_4 := (pt_of_eq e2) $$ Hs_4
  ihave Hs_5 := (pt_of_eq e3) $$ Hs_5
  ihave Hs_6 := (pt_of_eq e4) $$ Hs_6
  ihave Hs_7 := (pt_of_eq e5) $$ Hs_7
  ihave Hs_8 := (pt_of_eq e6) $$ Hs_8
  ihave Hs_9 := (pt_of_eq e7) $$ Hs_9
  ihave Hs_10 := (pt_of_eq e8) $$ Hs_10
  ihave Hs_11 := (pt_of_eq e9) $$ Hs_11
  ihave Hs_12 := (pt_of_eq e10) $$ Hs_12
  ihave Hs_13 := (pt_of_eq e11) $$ Hs_13
  ihave Hs_14 := (pt_of_eq e12) $$ Hs_14
  ihave Hs_15 := (pt_of_eq e13) $$ Hs_15
  ihave Hs_16 := (pt_of_eq e14) $$ Hs_16
  ihave Hs_17 := (pt_of_eq e15) $$ Hs_17
  ihave Hs := (pt_of_eq e31) $$ Hs
  iapply Hk
  iexists (writeRows (Memref.whole cc2_scratch0) (dstOff2 k) (dstOff2_inb k) pay fs (32) (by omega))
  isplitr [Ht Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hs Hs_2 Hs_3 Hs_4 Hs_5 Hs_6 Hs_7 Hs_8 Hs_9 Hs_10 Hs_11 Hs_12 Hs_13 Hs_14 Hs_15 Hs_16 Hs_17 Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 HO]; swap
  · iapply (handback2 c h4 (dstOff2 k) (dstRow2 k) (dstOff2_eq k) (dstRow2_inj k) (dstOff2_inb k) pay fs (h1.unread X) (h2.unread u) _)
    isplitl [Ht]; · iexact Ht
    isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
    ·
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hu19]; · iexact Hu19
      isplitl [Hu20]; · iexact Hu20
      isplitl [Hu21]; · iexact Hu21
      isplitl [Hu22]; · iexact Hu22
      isplitl [Hu23]; · iexact Hu23
      isplitl [Hu24]; · iexact Hu24
      isplitl [Hu25]; · iexact Hu25
      isplitl [Hu26]; · iexact Hu26
      isplitl [Hu27]; · iexact Hu27
      isplitl [Hu28]; · iexact Hu28
      isplitl [Hu29]; · iexact Hu29
      isplitl [Hu30]; · iexact Hu30
      iexact Hu31
    isplitl [Hs Hs_2 Hs_3 Hs_4 Hs_5 Hs_6 Hs_7 Hs_8 Hs_9 Hs_10 Hs_11 Hs_12 Hs_13 Hs_14 Hs_15 Hs_16 Hs_17]
    ·
      isplitl [Hs]; · iexact Hs
      isplitl [Hs_2]; · iexact Hs_2
      isplitl [Hs_3]; · iexact Hs_3
      isplitl [Hs_4]; · iexact Hs_4
      isplitl [Hs_5]; · iexact Hs_5
      isplitl [Hs_6]; · iexact Hs_6
      isplitl [Hs_7]; · iexact Hs_7
      isplitl [Hs_8]; · iexact Hs_8
      isplitl [Hs_9]; · iexact Hs_9
      isplitl [Hs_10]; · iexact Hs_10
      isplitl [Hs_11]; · iexact Hs_11
      isplitl [Hs_12]; · iexact Hs_12
      isplitl [Hs_13]; · iexact Hs_13
      isplitl [Hs_14]; · iexact Hs_14
      isplitl [Hs_15]; · iexact Hs_15
      isplitl [Hs_16]; · iexact Hs_16
      iexact Hs_17
    isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
    ·
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      iexact Hd31
    iexact HO
  · ipureintro
    exact gath_step (Memref.whole cc2_scratch0) h4 X u (blk2 i) f₀ k.val (Nat.lt_of_lt_of_eq k.isLt trips2) (dstOff2 k) (dstRow2 k) (dstOff2_eq k) (dstRow2_inj k)
      (fun s => rfl) (dstOff2_inb k) pay hpAll fs hfs

end Cert.Kernel.Hand

end
-- ==== Proof.K.Loop2.lean ====
/-
  The third region's loop, by its invariant.  Before trip `k` the scratch reads as the block with rows below
  `32 k` filled from the table and the rest as the loop found them; the column, the table held for reading and the
  region's own counters at zero are as they were.  One trip takes this from `k` to `k + 1`.
-/
import proofs.«423058_j50337016709696_1_alg».proof.Proof.K.Trip2

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Before trip `k`: the scratch reads as the block with rows below `32 k` filled; the rest as the loop found it. -/
abbrev inv2 (c : Dev nD) (i : grid2.Coords) (h1 : (Memref.whole main_v11).IsWhole)
    (h2 : (Memref.whole main_v13).IsWhole) (X : S131072.Idx → Elt F .i32) (u : S500000x32.Idx → Elt F .f32)
    (f₀ : S1024x32.Idx → Elt F .f32) (k : ℕ) : sProp (𝕄K F) :=
  iprop(∃ fs : Bf (F := F) c (Memref.whole cc2_scratch0),
    ⌜(Memref.whole cc2_scratch0).view.read (Elt F) fs = Cert.Gather.gath X u (blk2 i) f₀ k⌝
    ∗ Trip2 c h1 h2 X u fs ∗ (∃ W, owes (c : Thread nD τ) 0 W))

@[sl_loop] noncomputable def loopInv2 (c : Dev nD) (X : S131072.Idx → Elt F .i32) (hX : ∀ j, (X j).toNat < 500000)
    (u : S500000x32.Idx → Elt F .f32) (f₀ : S1024x32.Idx → Elt F .f32)
    (i : grid2.Coords) (h1 : (Memref.whole main_v11).IsWhole) (h2 : (Memref.whole main_v13).IsWhole)
    (M3 : Memref sig .tc .vmem S1024x32 .f32) (h3 : M3.IsWhole) (h4 : (Memref.whole cc2_scratch0).IsWhole) :
    Cert.Kernel.Gen.LoopInvTy_k2_t1 (F := F) Unit ℕ UU ℕ Variants.none c none Set.univ i (Memref.whole main_v11) h1 (Memref.whole main_v13) h2
      M3 h3 (Memref.whole cc2_scratch0) h4 cc2_scratch1 (Scalar.muli (BitVec.ofNat 32 (i 0).val) 1024#32) where
  inv := fun k _ => inv2 c i h1 h2 X u f₀ k
  step := fun k _ => by
    unfold inv2
    iintro ⟨%fs, %hfs, HT, %W, HO⟩
    iapply (trip2 c i M3 h3 h1 h2 h4 X hX u f₀ fs k hfs W _)
    isplitl [HT]; · iexact HT
    isplitl [HO]; · iexact HO
    iintro ⟨%fs', %hfs', HT', HO'⟩
    iexists fs'
    isplitr; · ipureintro; exact hfs'
    isplitl [HT']; · iexact HT'
    iexact HO'

end Cert.Kernel.Hand

end
-- ==== Proof.K.Gather2.lean ====
/-
  The third region's body.  At grid point `i` it fills its scratch with the 1024 table rows that the
  region's column of index words names at positions `1024 i` to `1024 i + 1023`, 32 rows a trip by 32
  transfers in flight at once, each waited for before the trip ends, and then copies the scratch to the
  result's block.  The table is only read, by several transfers at a time, so it is held as one read
  share per transfer; every index word is below the table's height, which is what each transfer's
  source window asks.
-/
import proofs.«423058_j50337016709696_1_alg».proof.Proof.K.Loop2
import proofs.«423058_j50337016709696_1_alg».proof.Proof.K.WholeBlock

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

-- the body is run across its loop and through the copy of the scratch to the result's block
set_option maxHeartbeats 4000000 in
/-- The body at grid point `i`: from the result's staging block and the scratch at anything, the index column at `X`
    (every word below the table's height), the table at `u` held for reading, the counters at zero and nothing owed, it
    runs to the continuation with the result's block filled (`Gather.filled X u i`), and everything else as it was. -/
theorem sound_gather2 (c : Dev nD) (i : grid2.Coords)
    (arg3 : Memref sig .tc .vmem S1024x32 .f32) (harg3 : arg3.IsWhole)
    (h1 : (Memref.whole main_v11).IsWhole) (h2 : (Memref.whole main_v13).IsWhole) (h4 : (Memref.whole cc2_scratch0).IsWhole)
    (X : S131072.Idx → Elt F .i32) (hX : ∀ j, (X j).toNat < 500000) (u : S500000x32.Idx → Elt F .f32)
    (W : Waits sig Unit) (K : PUnit → sProp (𝕄K F)) :
    iprop((∃ d, owns (c : Thread nD τ) arg3 fullShare d) ∗ (∃ f, pt c (Memref.whole cc2_scratch0) f)
        ∗ pt c (Memref.whole main_v11) (h1.unread X) ∗ toks2 c (h2.unread u) ∗ sems2 c ∗ owes (c : Thread nD τ) 0 W
        ∗ (iprop(owns (c : Thread nD τ) arg3 fullShare (Cert.Gather.filled X u (blk2 i)) ∗ (∃ f, pt c (Memref.whole cc2_scratch0) f)
              ∗ pt c (Memref.whole main_v11) (h1.unread X) ∗ toks2 c (h2.unread u) ∗ sems2 c ∗ (∃ W', owes (c : Thread nD τ) 0 W')) -∗ K ⟨⟩))
      ⊢ wp frame (wpE (defs₀ (F := F)) Variants.none c none) Set.univ
          (cc2__gather_kernel i (Memref.whole main_v11) h1 (Memref.whole main_v13) h2 arg3 harg3 (Memref.whole cc2_scratch0) h4 cc2_scratch1) K := by
  simp only [cc2__gather_kernel_eq_skeleton]; unfold cc2__gather_kernel_skel
  unfold owns
  iintro ⟨⟨%d3, %f3, -, H3⟩, ⟨%fs₀, Hs⟩, Ht, ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩, HO, Hk⟩
  sl_exec
  sl_step
  iapply Hk
  -- the result's block: one whole-block store of the scratch read whole
  isplitl [H3]
  · iexists _; isplitr; swap; · iexact H3
    ipureintro
    rw [View.read_writes_eq_canon _ _ _ (cover_blk _), canon_whole_read, hL0]
    exact Cert.Gather.gath_last X u (blk2 i) _
  isplitl [Hs]; · iexists _; iexact Hs
  isplitl [Ht]; · iexact Ht
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31]
  · unfold toks2
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hu8]; · iexact Hu8
    isplitl [Hu9]; · iexact Hu9
    isplitl [Hu10]; · iexact Hu10
    isplitl [Hu11]; · iexact Hu11
    isplitl [Hu12]; · iexact Hu12
    isplitl [Hu13]; · iexact Hu13
    isplitl [Hu14]; · iexact Hu14
    isplitl [Hu15]; · iexact Hu15
    isplitl [Hu16]; · iexact Hu16
    isplitl [Hu17]; · iexact Hu17
    isplitl [Hu18]; · iexact Hu18
    isplitl [Hu19]; · iexact Hu19
    isplitl [Hu20]; · iexact Hu20
    isplitl [Hu21]; · iexact Hu21
    isplitl [Hu22]; · iexact Hu22
    isplitl [Hu23]; · iexact Hu23
    isplitl [Hu24]; · iexact Hu24
    isplitl [Hu25]; · iexact Hu25
    isplitl [Hu26]; · iexact Hu26
    isplitl [Hu27]; · iexact Hu27
    isplitl [Hu28]; · iexact Hu28
    isplitl [Hu29]; · iexact Hu29
    isplitl [Hu30]; · iexact Hu30
    iexact Hu31
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · unfold sems2
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.Kernel.Hand

end
-- ==== Proof.K.Region2.lean ====
/-
  The third region's proof data and body obligation, at the contents `V` the buffers hold when the region is
  entered and the contents `a` of its column of index words.  At grid point `t` the body leaves in the result's
  block the 1024 table rows that the column names at positions `1024 t` onward.  Between points the region keeps
  the table it reads, its own 32 semaphores at zero, the column, and its scratch at whatever the last point left.
-/
import proofs.«423058_j50337016709696_1_alg».proof.Proof.K.Gather2
import proofs.«423058_j50337016709696_1_alg».proof.Proof.GatherSpec
import proofs.«423058_j50337016709696_1_alg».proof.Proof.Gen.Kernel.Launch
import Idealize.ShloMosaic.Lib.Pipeline.FrameBody
import Idealize.ShloMosaic.Lib.Pipeline.Frame

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
variable (a : (pcfg2 (F := F)).Adm)

/-- The region's own 32 semaphores: the core's DMA semaphores 2 to 33. -/
abbrev osem2 : Fin 32 → SemLoc sig := fun k => .dma ⟨70 + k.val, by show 70 + k.val < 109; omega⟩

/-- The column of index words, as the function its contents read as. -/
abbrev col2 : S131072.Idx → Elt F .i32 := (Memref.whole main_v11).view.read (Elt F) (a.1 0)

/-- The table, as the function its contents read as when the region is entered. -/
abbrev tbl2 (c : Dev nD) : S500000x32.Idx → Elt F .f32 := (Memref.whole main_v13).view.read (Elt F) (V c main_v13)

/-- Grid point `t` as a block number. -/
abbrev blkAt2 (t : Fin (cfg2 a).N) : Fin 128 := ⟨((cfg2 a).grid.coords t 0).val, ((cfg2 a).grid.coords t 0).isLt⟩

/-- What the region keeps between points: the table at its entry contents, its own semaphores at zero, the column,
    and the scoped buffers no window stages (its scratch among them, at anything). -/
def Φ2 (c : Dev nD) : sProp (𝕄K F) :=
  iprop((((c : Thread nD τ).loc main_v13) ↦{fullShare} V c main_v13)
    ∗ Pipeline.ownSems0 (Ix := Unit) (Name := ℕ) (U := UU) (Lvl := ℕ) (Val := Elt F) osem2 c
    ∗ Pipeline.prefHeld (Ix := Unit) (Name := ℕ) (U := UU) (Lvl := ℕ) pre2 c (fun _ => fullShare) a.1
    ∗ Pipeline.scopedRest (Ix := Unit) (Name := ℕ) (U := UU) (Lvl := ℕ) (Val := Elt F) spec2 c)

/-- The third region's proof data: the result's array as found; after the body at point `t` the result's block
    filled from the table by the column; the invariant `Φ2`; nothing owed; full shares. -/
def dat2 (c : Dev nD) : Dat τ (Elt F) Unit ℕ UU ℕ (cfg2 a) c where
  A w := V c (Pipeline.arrRef spec2 w)
  after w t := match w with
    | ⟨0, _⟩ => Cert.Gather.filled (col2 a) (tbl2 V c) (blkAt2 a t)
  Φ _ := Φ2 V a c
  q _ := fullShare
  owed _ := 0

/-! ## The invariant's parts in the shape the body's triple takes them -/

/-- The region's own semaphores at zero, written out one by one. -/
theorem ownSems2_eq (c : Dev nD) :
    (Pipeline.ownSems0 (Ix := Unit) (Name := ℕ) (U := UU) (Lvl := ℕ) (Val := Elt F) osem2 c : sProp (𝕄K F)) = sems2 c := by
  rw [Pipeline.ownSems0_eq_of_list c osem2 [0, 1, 2, 3, 4, 5, 6, 7, 8, 9, 10, 11, 12, 13, 14, 15, 16, 17, 18, 19, 20, 21, 22, 23, 24, 25, 26, 27, 28, 29, 30, 31] (by decide) (by decide)]; rfl

/-- The column is the one prefetched table, held whole; its contents are the raw contents that read as `col2`. -/
theorem prefHeld2_eq (c : Dev nD) (h1 : (Memref.whole main_v11).IsWhole) :
    (Pipeline.prefHeld (Ix := Unit) (Name := ℕ) (U := UU) (Lvl := ℕ) pre2 c (fun _ => fullShare) a.1 : sProp (𝕄K F))
      = pt c (Memref.whole main_v11) (h1.unread (col2 a)) := by
  have e : h1.unread (col2 (F := F) a) = a.1 0 := h1.unread_read _
  rw [e]
  exact bigSep_W2 _

/-- The table's contents at entry are the raw contents that read as `tbl2`. -/
theorem table2_eq (c : Dev nD) (h2 : (Memref.whole main_v13).IsWhole) :
    ((((c : Thread nD τ).loc main_v13) ↦{fullShare} V c main_v13 : sProp (𝕄K F)))
      = pt c (Memref.whole main_v13) (h2.unread (tbl2 V c)) := by
  rw [h2.unread_read]

/-- The table held whole is what is left after 102 read shares are dealt off, the read shares below the region's
    own, and the 32 the transfers take: a full share deals into a remainder and any number of read shares, and back. -/
theorem table2_toks (c : Dev nD) (f : Bf (F := F) c (Memref.whole main_v13)) :
    pt c (Memref.whole main_v13) f ⊣⊢
      iprop(ptq c (Memref.whole main_v13) (Transfers.shareDrop fullShare 102) f
        ∗ bigSep (Finset.range 70) (fun i => ptq c (Memref.whole main_v13) (Transfers.shareTokN fullShare i) f)
        ∗ toks2 c f) := by
  have h := Transfers.pointsTo_toks_range (Ix := Unit) (Name := ℕ) (U := UU) (Lvl := ℕ) (Val := Elt F)
    (ℓ := (Memref.whole main_v13).view.loc (c : Thread nD τ)) (S := Finset.univ) (f := f) fullShare 102
  rw [show Finset.range 102 = Finset.range 70 ∪ [70, 71, 72, 73, 74, 75, 76, 77, 78, 79, 80, 81, 82, 83, 84, 85, 86, 87, 88, 89, 90, 91, 92, 93, 94, 95, 96, 97, 98, 99, 100, 101].toFinset by decide,
    BI.bigSep_union (show Disjoint (Finset.range 70) [70, 71, 72, 73, 74, 75, 76, 77, 78, 79, 80, 81, 82, 83, 84, 85, 86, 87, 88, 89, 90, 91, 92, 93, 94, 95, 96, 97, 98, 99, 100, 101].toFinset by decide),
    BI.bigSep_eq_bigSepL [70, 71, 72, 73, 74, 75, 76, 77, 78, 79, 80, 81, 82, 83, 84, 85, 86, 87, 88, 89, 90, 91, 92, 93, 94, 95, 96, 97, 98, 99, 100, 101] (by decide)] at h
  exact h

/-- The scoped buffers no window stages are the region's scratch and the others. -/
theorem scopedRest2_split (c : Dev nD) :
    (Pipeline.scopedRest (Ix := Unit) (Name := ℕ) (U := UU) (Lvl := ℕ) (Val := Elt F) spec2 c : sProp (𝕄K F))
      = iprop((∃ f, pt c (Memref.whole cc2_scratch0) f)
          ∗ Pipeline.scopedRestBut (Ix := Unit) (Name := ℕ) (U := UU) (Lvl := ℕ) (Val := Elt F) spec2 c [cc2_scratch0]) :=
  Pipeline.scopedRest_split_of_list spec2 c [cc2_scratch0] (by decide) (by decide)

/-- Everything the region keeps that the body never touches: what is left of the table beside the transfers' read
    shares, and the scoped buffers other than the scratch. -/
abbrev aside2 (c : Dev nD) (h2 : (Memref.whole main_v13).IsWhole) : sProp (𝕄K F) :=
  iprop(ptq c (Memref.whole main_v13) (Transfers.shareDrop fullShare 102) (h2.unread (tbl2 V c))
    ∗ bigSep (Finset.range 70) (fun i => ptq c (Memref.whole main_v13) (Transfers.shareTokN fullShare i) (h2.unread (tbl2 V c)))
    ∗ Pipeline.scopedRestBut (Ix := Unit) (Name := ℕ) (U := UU) (Lvl := ℕ) (Val := Elt F) spec2 c [cc2_scratch0])

/-- The invariant, both ways, as what the body's triple takes and gives back — the scratch at anything, the column,
    the table's 32 read shares, the semaphores at zero — beside what the body never touches. -/
theorem Φ2_body (c : Dev nD) (h1 : (Memref.whole main_v11).IsWhole) (h2 : (Memref.whole main_v13).IsWhole) :
    Φ2 V a c ⊣⊢
      iprop((∃ f, pt c (Memref.whole cc2_scratch0) f) ∗ pt c (Memref.whole main_v11) (h1.unread (col2 a))
        ∗ toks2 c (h2.unread (tbl2 V c)) ∗ sems2 c ∗ aside2 V c h2) := by
  unfold Φ2
  rw [table2_eq V c h2, ownSems2_eq, prefHeld2_eq a c h1, scopedRest2_split]
  constructor
  · iintro ⟨Htab, Hsems, Hcol, Hscr, Hrest⟩
    icases (table2_toks c (h2.unread (tbl2 V c))).1 $$ Htab with ⟨Hd, Hlow, Htoks⟩
    isplitl [Hscr]; · iexact Hscr
    isplitl [Hcol]; · iexact Hcol
    isplitl [Htoks]; · iexact Htoks
    isplitl [Hsems]; · iexact Hsems
    isplitl [Hd]; · iexact Hd
    isplitl [Hlow]; · iexact Hlow
    iexact Hrest
  · iintro ⟨Hscr, Hcol, Htoks, Hsems, Hd, Hlow, Hrest⟩
    isplitl [Hd Hlow Htoks]
    · iapply (table2_toks c (h2.unread (tbl2 V c))).2
      isplitl [Hd]; · iexact Hd
      isplitl [Hlow]; · iexact Hlow
      iexact Htoks
    isplitl [Hsems]; · iexact Hsems
    isplitl [Hcol]; · iexact Hcol
    isplitl [Hscr]; · iexact Hscr
    iexact Hrest

/-! ## The proof data, projected -/

/-- What the body leaves in the result's block at point `t`. -/
theorem after2_2 (c : Dev nD) (t : Fin (cfg2 a).N) :
    (dat2 V a c).after 0 t = Cert.Gather.filled (col2 a) (tbl2 V c) (blkAt2 a t) := by dsimp only [dat2]; rfl

/-! ## The obligation's two sides -/

/-- The one window's current staging memref at point `t`. -/
abbrev st2_0 (t : Fin (cfg2 a).N) := ((cfg2 a).win 0).stage ((cfg2 a).slots t 0)

/-- The body at point `t`, on what the pipeline calls it with. -/
abbrev bodyAt2 (t : Fin (cfg2 a).N) : Prog (TpuEff nD τ sig (Elt F) Λ₀ .tc) PUnit :=
  cc2__gather_kernel ((cfg2 a).grid.coords t) (Memref.whole main_v11) (Memref.isWhole_whole _) (Memref.whole main_v13) (Memref.isWhole_whole _)
    (spec2_0.stage ((cfg2 a).slots t 0)) (hstage2_0 (((cfg2 a).slots t 0).cast nbuf2_0))
    (Memref.whole cc2_scratch0) (Memref.isWhole_whole _) cc2_scratch1

/-- What the body is handed at point `t`: the invariant, what the core owes, and the result's current buffer. -/
def bodyPre2 (c : Dev nD) (t : Fin (cfg2 a).N) : sProp (𝕄K F) :=
  iprop((dat2 V a c).Φ t.castSucc ∗ (dat2 V a c).owesAt () t.castSucc
    ∗ (∃ d, owns (c : Thread nD τ) (st2_0 a t) fullShare ((dat2 V a c).before 0 t d)))

/-- What it hands back: the same at the next point, the buffer at what the body leaves there. -/
def bodyPost2 (c : Dev nD) (t : Fin (cfg2 a).N) : sProp (𝕄K F) :=
  iprop((dat2 V a c).Φ t.succ ∗ (dat2 V a c).owesAt () t.succ
    ∗ owns (c : Thread nD τ) (st2_0 a t) fullShare ((dat2 V a c).after 0 t))

/-- The body at any point: the invariant opens into what the body's triple takes, the triple runs, and what it gives
    back closes into the invariant again; the core owes nothing before and nothing after, and the bound on its
    recorded waits is the whole set, so it asks nothing. -/
theorem sound_body2 (c : Dev nD) (hX : ∀ j, ((col2 a) j).toNat < 500000) (t : Fin (cfg2 a).N) :
    bodyPre2 V a c t ⊢ wp frame (wpE (defs₀ (F := F)) Variants.none c none) Set.univ (bodyAt2 a t) (fun _ => bodyPost2 V a c t) := by
  unfold bodyPre2 bodyPost2
  rw [show (dat2 V a c).Φ t.succ = Φ2 V a c from rfl, show (dat2 V a c).Φ t.castSucc = Φ2 V a c from rfl, after2_2]
  iintro ⟨HΦ, ⟨%W, %hW, Ho⟩, ⟨%d, Hw⟩⟩
  icases (Φ2_body V a c (Memref.isWhole_whole _) (Memref.isWhole_whole _)).1 $$ HΦ with ⟨Hscr, Hcol, Htoks, Hsems, Hrest⟩
  iapply (sound_gather2 c ((cfg2 a).grid.coords t) (spec2_0.stage ((cfg2 a).slots t 0)) (hstage2_0 (((cfg2 a).slots t 0).cast nbuf2_0))
    (Memref.isWhole_whole _) (Memref.isWhole_whole _) (Memref.isWhole_whole _) (col2 a) hX (tbl2 V c) W _)
  isplitl [Hw]; · iexists _; iexact Hw
  isplitl [Hscr]; · iexact Hscr
  isplitl [Hcol]; · iexact Hcol
  isplitl [Htoks]; · iexact Htoks
  isplitl [Hsems]; · iexact Hsems
  isplitl [Ho]; · iexact Ho
  iintro ⟨Hw, Hscr, Hcol, Htoks, Hsems, ⟨%W', Ho⟩⟩
  isplitl [Hscr Hcol Htoks Hsems Hrest]
  · iapply (Φ2_body V a c (Memref.isWhole_whole _) (Memref.isWhole_whole _)).2
    isplitl [Hscr]; · iexact Hscr
    isplitl [Hcol]; · iexact Hcol
    isplitl [Htoks]; · iexact Htoks
    isplitl [Hsems]; · iexact Hsems
    iexact Hrest
  isplitl [Ho]
  · iexists W'; isplitr
    · ipureintro; exact fun _ _ => Or.inl trivial
    iexact Ho
  iexact Hw

/-- The library's body obligation for the third region, at every point, when every word of the column is below the
    table's height. -/
theorem body_obligation2 (c : Dev nD) (hX : ∀ j, ((col2 a) j).toNat < 500000) :
    BodyObligation (dat2 (F := F) V a c) (defs₀ (F := F)) Variants.none () Set.univ := fun t => by
  rw [bigSep_W2, bigSep_W2]
  exact sound_body2 V a c hX t

end Cert.Kernel.Hand

end
-- ==== Proof.K.ProjBody.lean ====
/-
  The fourth region's body: from a block of 512 input rows, the frequency matrix, the read-out column
  and the bias, it leaves in the result's block the read-out of the sine and cosine features of the rows'
  projections, scaled by one sixteenth, plus the bias.  It loads its four operands whole, computes, and
  stores the result's block whole: one store, so what the block holds afterwards is that one payload.
-/
import proofs.«423058_j50337016709696_1_alg».proof.Proof.K.Base
import Idealize.ShloMosaic.Lib.Pipeline.FrameBody

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The whole of each operand's block, as the rectangle the body reads or writes it through. -/
abbrev rIn : Rect S512x97 := Rect.unit (s := S512x97) ![0, 0] S512x97.size inb_S512x97_S512x97_0_0
abbrev rW : Rect S97x256 := Rect.unit (s := S97x256) ![0, 0] S97x256.size inb_S97x256_S97x256_0_0
abbrev rOut : Rect S512x1 := Rect.unit (s := S512x1) ![0, 0] S512x1.size inb_S512x1_S512x1_0_0
abbrev rBias : Rect S1x1 := Rect.unit (s := S1x1) ![0, 0] S1x1.size inb_S1x1_S1x1_0_0

/-- What the body leaves in the result's block, from the four operands' blocks: its one store. -/
def projOut (x0 : Vec F S512x97 .f32) (x1 : Vec F S97x256 .f32) (x2 : Vec F S512x1 .f32) (x3 : Vec F S1x1 .f32) :
    Vec F S512x1 .f32 :=
  View.canon [⟨rOut, k3_pay1 (View.ld x0 rIn) (View.ld x1 rW) (View.ld x2 rOut) (View.ld x3 rBias)⟩]

/-- The one store's rectangle is the whole result block, so every index of the block lies in it. -/
theorem cover_out (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

/-- The body on whole staging memrefs: the four operands' at read contents, the result's at anything, runs to the
    continuation holding the operands' as they were and the result's at `projOut` of them. -/
theorem sound_proj (c : Dev nD) (E : Set ℕ) (i : grid3.Coords)
    (arg1 : Memref sig .tc .vmem S512x97 .f32) (harg1 : arg1.IsWhole) (arg2 : Memref sig .tc .vmem S97x256 .f32) (harg2 : arg2.IsWhole)
    (arg3 : Memref sig .tc .vmem S512x1 .f32) (harg3 : arg3.IsWhole) (arg4 : Memref sig .tc .vmem S1x1 .f32) (harg4 : arg4.IsWhole)
    (arg5 : Memref sig .tc .vmem S512x1 .f32) (harg5 : arg5.IsWhole)
    (x0 : Vec F S512x97 .f32) (x1 : Vec F S97x256 .f32) (x2 : Vec F S512x1 .f32) (x3 : Vec F S1x1 .f32)
    (K : PUnit → sProp (𝕄K F)) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare (projOut x0 x1 x2 x3)) -∗ K ⟨⟩))
      ⊢ wp frame (wpE (defs₀ (F := F)) Variants.none c none) E
          (cc3__proj_kernel i arg1 harg1 arg2 harg2 arg3 harg3 arg4 harg4 arg5 harg5) K := by
  simp only [cc3__proj_kernel_eq_skeleton]; unfold cc3__proj_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Hand

end
-- ==== Proof.K.Region3.lean ====
/-
  The fourth region's proof data and body obligation, at the contents `V` the buffers hold when the region
  is entered.  At grid point `t` the body is handed block `t` of the input rows and the whole of the three
  small operands (the same block at every point), and leaves in the result's block the read-out of those
  rows: `projOut` of the four.  It touches nothing else, so the invariant between points is just what the
  pipeline itself keeps aside.
-/
import proofs.«423058_j50337016709696_1_alg».proof.Proof.K.ProjBody
import proofs.«423058_j50337016709696_1_alg».proof.Proof.Gen.Kernel.Points
import proofs.«423058_j50337016709696_1_alg».proof.Proof.Gen.Kernel.Launch
import Idealize.ShloMosaic.Lib.Pipeline.FrameBody
import Idealize.ShloMosaic.Lib.Pipeline.Frame

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The fourth region's proof data: the arrays as found; after the body each operand's buffer at its block and the
    result's at `projOut` of the four; the invariant what the pipeline keeps aside; nothing owed; full shares. -/
def dat3 (c : Dev nD) : Dat τ (Elt F) Unit ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => projOut (iblk3 V c 0 t) (iblk3 V c 1 t) (iblk3 V c 2 t) (iblk3 V c 3 t)
  Φ _ := Pipeline.ΦA spec3 c
  q _ := fullShare
  owed _ := 0

/-! ## The proof data, projected -/

/-- The arrays of the proof data are the contents the region is entered with. -/
theorem A_eq3 (c : Dev nD) (w : Fin cfg3.W) : (dat3 V c).A w = V c (Pipeline.arrRef spec3 w) := by
  dsimp only [dat3]

/-- What the body leaves in each window's buffer: an operand's block where it was, the result's at `projOut`. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = projOut (iblk3 V c 0 t) (iblk3 V c 1 t) (iblk3 V c 2 t) (iblk3 V c 3 t) := by dsimp only [dat3]

/-! ## What the body finds in each operand's buffer

An operand's buffer holds its block at every point.  Where the pipeline fetched it, the fetch put the block there.
Where it did not, the block index is the one of the point before, the body left the buffer as it found it, and so
the buffer still holds the previous point's block, which is this point's: the three small operands, whose block
is the same at every point, are fetched once and found unchanged ever after. -/

theorem before3_0 (c : Dev nD) (t : Fin cfg3.N) (d) : (dat3 V c).before 0 t d = iblk3 V c 0 t := by
  have hkeep : ∀ t, (cfg3.win 0).cut (cfg3.grid.coords t) ((dat3 V c).after 0 t) = (dat3 V c).blockOf 0 t := fun t => by
    rw [after3_0]; unfold Dat.blockOf iblk3; rw [A_eq3]
  rw [(dat3 V c).before_in_eq_fetched 0 rfl (fun _ => rfl) (fun _ _ _ => rfl) hkeep t d]
  unfold Dat.fetched Dat.blockOf iblk3; rw [A_eq3]; rfl

theorem before3_1 (c : Dev nD) (t : Fin cfg3.N) (d) : (dat3 V c).before 1 t d = iblk3 V c 1 t := by
  have hkeep : ∀ t, (cfg3.win 1).cut (cfg3.grid.coords t) ((dat3 V c).after 1 t) = (dat3 V c).blockOf 1 t := fun t => by
    rw [after3_1]; unfold Dat.blockOf iblk3; rw [A_eq3]
  rw [(dat3 V c).before_in_eq_fetched 1 rfl (fun _ => rfl) (fun _ _ _ => rfl) hkeep t d]
  unfold Dat.fetched Dat.blockOf iblk3; rw [A_eq3]; rfl

theorem before3_2 (c : Dev nD) (t : Fin cfg3.N) (d) : (dat3 V c).before 2 t d = iblk3 V c 2 t := by
  have hkeep : ∀ t, (cfg3.win 2).cut (cfg3.grid.coords t) ((dat3 V c).after 2 t) = (dat3 V c).blockOf 2 t := fun t => by
    rw [after3_2]; unfold Dat.blockOf iblk3; rw [A_eq3]
  rw [(dat3 V c).before_in_eq_fetched 2 rfl (fun _ => rfl) (fun _ _ _ => rfl) hkeep t d]
  unfold Dat.fetched Dat.blockOf iblk3; rw [A_eq3]; rfl

theorem before3_3 (c : Dev nD) (t : Fin cfg3.N) (d) : (dat3 V c).before 3 t d = iblk3 V c 3 t := by
  have hkeep : ∀ t, (cfg3.win 3).cut (cfg3.grid.coords t) ((dat3 V c).after 3 t) = (dat3 V c).blockOf 3 t := fun t => by
    rw [after3_3]; unfold Dat.blockOf iblk3; rw [A_eq3]
  rw [(dat3 V c).before_in_eq_fetched 3 rfl (fun _ => rfl) (fun _ _ _ => rfl) hkeep t d]
  unfold Dat.fetched Dat.blockOf iblk3; rw [A_eq3]; rfl

/-! ## The obligation's two sides, window by window -/

/-- What the body is handed at point `t`: the invariant, what the core owes, and the five current buffers. -/
def bodyPre3 (c : Dev nD) (t : Fin cfg3.N) : sProp (𝕄K F) :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it hands back: the same at the next point, each buffer at what the body leaves there. -/
def bodyPost3 (c : Dev nD) (t : Fin cfg3.N) : sProp (𝕄K F) :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the operands' buffers hold their blocks, so the body's triple applies at those four
    blocks; the invariant and what the core owes do not depend on the point and pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_proj c Set.univ (grid3.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))
    (win3_4.stage (cfg3.slots t 4)) (hstage3_4 ((cfg3.slots t 4).cast nbuf3_4))
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the fourth region, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.LaunchData.lean ====
/-
  The launch's data for the word-level kernel, from the memory `m` it starts in: the contents of the three
  columns of index words the gather regions read (which the host computes from the index array before
  each region), what each region leaves in the arrays it may change, and the buffers' contents between
  the items of the program.  The valuations are the generated ones at those leavings; each region's proof
  data is read off the valuation it is entered in.
-/
import proofs.«423058_j50337016709696_1_alg».proof.Proof.K.RunCond
import proofs.«423058_j50337016709696_1_alg».proof.Proof.K.Region0
import proofs.«423058_j50337016709696_1_alg».proof.Proof.K.Region1
import proofs.«423058_j50337016709696_1_alg».proof.Proof.K.Region2
import proofs.«423058_j50337016709696_1_alg».proof.Proof.K.Region3
import Idealize.ShloMosaic.Lib.Pipeline.FrameSuffix

noncomputable section

namespace Cert.Kernel.Hand

open Cert.Kernel Cert.Kernel.Gen Cert.Kernel.RunCond
open Idealize.ShloMosaic Idealize.ShloMosaic.TcCoe
open Idealize.ShloMosaic.Pipeline (Dat withArrays arrRef)

variable {F : FTy → Type} [FloatOps F]

variable (m : (ℓ : Loc nD τ sig) → Buf (Elt F) ℓ)

/-- The one core. -/
abbrev c₀ : Dev nD := ⟨0, by decide⟩

/-- The buffers after the first host stretch: the valuation region 0 is entered in. -/
abbrev U1 (c : Dev nD) : Valuation τ sig (Elt F) := V1 m c

/-- Region 0's column of index words: what the first host stretch leaves in its table. -/
def a0 : (pcfg0 (F := F)).Adm := ⟨fun k => match k with | ⟨0, _⟩ => U1 m c₀ main_v1, trivial⟩

/-- A valuation, as the function of a buffer's reference that the regions' proof data take. -/
abbrev ofVal (W : Dev nD → Valuation τ sig (Elt F)) : (c : Dev nD) → (b : Ref sig .tc) → Buf (Elt F) ((c : Thread nD τ).loc b) :=
  fun c b => W c b

/-- After region 0: its result array at what the region leaves, everything else as it was. -/
def U2 (c : Dev nD) : Valuation τ sig (Elt F) :=
  withArrays spec0 c (U1 m c) (fun w => (dat0 (ofVal (U1 m)) (a0 m) c).arrAt w (cfg0 (a0 m)).N)

/-- After the second host stretch: the valuation region 1 is entered in. -/
def U3 (c : Dev nD) : Valuation τ sig (Elt F) := StableHlo.after hostOps1 (U2 m c)

/-- Region 1's column of index words. -/
def a1 : (pcfg1 (F := F)).Adm := ⟨fun k => match k with | ⟨0, _⟩ => U3 m c₀ main_v6, trivial⟩

/-- After region 1. -/
def U4 (c : Dev nD) : Valuation τ sig (Elt F) :=
  withArrays spec1 c (U3 m c) (fun w => (dat1 (ofVal (U3 m)) (a1 m) c).arrAt w (cfg1 (a1 m)).N)

/-- After the third host stretch: the valuation region 2 is entered in. -/
def U5 (c : Dev nD) : Valuation τ sig (Elt F) := StableHlo.after hostOps2 (U4 m c)

/-- Region 2's column of index words. -/
def a2 : (pcfg2 (F := F)).Adm := ⟨fun k => match k with | ⟨0, _⟩ => U5 m c₀ main_v11, trivial⟩

/-- After region 2. -/
def U6 (c : Dev nD) : Valuation τ sig (Elt F) :=
  withArrays spec2 c (U5 m c) (fun w => (dat2 (ofVal (U5 m)) (a2 m) c).arrAt w (cfg2 (a2 m)).N)

/-- After the fourth host stretch (the input rows put side by side): the valuation region 3 is entered in. -/
def U7 (c : Dev nD) : Valuation τ sig (Elt F) := StableHlo.after hostOps3 (U6 m c)

/-- After region 3: the result array at what the region leaves. -/
def U8 (c : Dev nD) : Valuation τ sig (Elt F) :=
  withArrays spec3 c (U7 m c) (fun w => (dat3 (ofVal (U7 m)) c).arrAt w cfg3.N)

/-- What the regions leave in the arrays they may change: read off the valuations after them. -/
def outs : Outs (F := F) := fun j r c =>
  match j with
  | 2 => U2 m c r
  | 4 => U4 m c r
  | 6 => U6 m c r
  | 8 => U8 m c r
  | _ => U1 m c r

end Cert.Kernel.Hand

end
-- ==== Proof.K.LaunchVals.lean ====
/-
  The generated valuations, taken at what the regions leave, are the buffers' contents between the program's
  items as the launch data define them: each host stretch runs from the valuation before it, and each region
  replaces its result array (and nothing else) by what it leaves.
-/
import proofs.«423058_j50337016709696_1_alg».proof.Proof.K.LaunchData

noncomputable section

namespace Cert.Kernel.Hand

open Cert.Kernel Cert.Kernel.Gen Cert.Kernel.RunCond
open Idealize.ShloMosaic Idealize.ShloMosaic.TcCoe
open Idealize.ShloMosaic.Pipeline (withArrays arrRef)

variable {F : FTy → Type} [FloatOps F]
variable (m : (ℓ : Loc nD τ sig) → Buf (Elt F) ℓ)

/-! ## Three facts about valuations -/

/-- A valuation overwritten at two buffers by another's contents there is that other one, when the two agree at every
    buffer but those. -/
theorem update2_eq (X Y : Valuation τ sig (Elt F)) (r r' : Ref sig .tc)
    (h : ∀ b : DevRef τ sig, b ≠ Proc.devRef .tc r → b ≠ Proc.devRef .tc r' → Y b = X b) :
    Function.update (Function.update X (Proc.devRef .tc r) (Y (Proc.devRef .tc r))) (Proc.devRef .tc r') (Y (Proc.devRef .tc r')) = Y := by
  funext b
  by_cases h' : b = Proc.devRef .tc r'
  · subst h'; exact Function.update_self _ _ _
  · rw [Function.update_of_ne h']
    by_cases hr : b = Proc.devRef .tc r
    · subst hr; exact Function.update_self _ _ _
    · rw [Function.update_of_ne hr]; exact (h b hr h').symm

/-- The same at one buffer. -/
theorem update1_eq (X Y : Valuation τ sig (Elt F)) (r : Ref sig .tc)
    (h : ∀ b : DevRef τ sig, b ≠ Proc.devRef .tc r → Y b = X b) :
    Function.update X (Proc.devRef .tc r) (Y (Proc.devRef .tc r)) = Y := by
  funext b
  by_cases hr : b = Proc.devRef .tc r
  · subst hr; exact Function.update_self _ _ _
  · rw [Function.update_of_ne hr]; exact (h b hr).symm

/-- Away from every window's array, a region leaves a buffer as it found it. -/
theorem withArrays_away {gr W : Nat} (win : Fin W → Pipeline.WinSpec sig gr) (c : Dev nD) (X : Valuation τ sig (Elt F))
    (A : (w : Fin W) → Buf (Elt F) ((win w).arr.view.loc (c.tc : Thread nD τ))) (b : DevRef τ sig)
    (hb : ∀ w, (Proc.devRef .tc (arrRef win w) : DevRef τ sig) ≠ b) : withArrays win c X A b = X b := by
  unfold withArrays
  rw [dif_neg]
  rintro ⟨w, e⟩
  exact hb w e

/-! ## The valuations, item by item -/

theorem V1_eq (c : Dev nD) : V1 m c = U1 m c := rfl

/-- After region 0: the generated valuation writes back, at the result array and at the table, what the launch data
    hold there; everywhere else both are the valuation before, the launch data's because a region changes its
    result array only. -/
theorem V2_eq (c : Dev nD) : V2 m (outs m) c = U2 m c :=
  update2_eq (U1 m c) (U2 m c) main_v4 main_v3 fun b h4 _ =>
    withArrays_away spec0 c (U1 m c) _ b fun w => match w with | ⟨0, _⟩ => fun e => h4 e.symm

theorem V3_eq (c : Dev nD) : V3 m (outs m) c = U3 m c := by
  show StableHlo.after hostOps1 (V2 m (outs m) c) = StableHlo.after hostOps1 (U2 m c)
  rw [V2_eq]

theorem V4_eq (c : Dev nD) : V4 m (outs m) c = U4 m c := by
  show Function.update (Function.update (V3 m (outs m) c) main_v9 (U4 m c main_v9)) main_v8 (U4 m c main_v8) = U4 m c
  rw [V3_eq]
  exact update2_eq (U3 m c) (U4 m c) main_v9 main_v8 fun b h9 _ =>
    withArrays_away spec1 c (U3 m c) _ b fun w => match w with | ⟨0, _⟩ => fun e => h9 e.symm

theorem V5_eq (c : Dev nD) : V5 m (outs m) c = U5 m c := by
  show StableHlo.after hostOps2 (V4 m (outs m) c) = StableHlo.after hostOps2 (U4 m c)
  rw [V4_eq]

theorem V6_eq (c : Dev nD) : V6 m (outs m) c = U6 m c := by
  show Function.update (Function.update (V5 m (outs m) c) main_v14 (U6 m c main_v14)) main_v13 (U6 m c main_v13) = U6 m c
  rw [V5_eq]
  exact update2_eq (U5 m c) (U6 m c) main_v14 main_v13 fun b h14 _ =>
    withArrays_away spec2 c (U5 m c) _ b fun w => match w with | ⟨0, _⟩ => fun e => h14 e.symm

theorem V7_eq (c : Dev nD) : V7 m (outs m) c = U7 m c := by
  show StableHlo.after hostOps3 (V6 m (outs m) c) = StableHlo.after hostOps3 (U6 m c)
  rw [V6_eq]

/-- After region 3: away from the result array the launch data hold what the valuation before held — at a buffer that
    is no window's array because a region leaves it alone, at an operand's array because an operand's array is never
    written back. -/
theorem V8_eq (c : Dev nD) : V8 m (outs m) c = U8 m c := by
  show Function.update (V7 m (outs m) c) main_v18 (U8 m c main_v18) = U8 m c
  rw [V7_eq]
  refine update1_eq (U7 m c) (U8 m c) main_v18 fun b h18 => ?_
  unfold U8
  by_cases hb : ∃ w, (Proc.devRef .tc (arrRef spec3 w) : DevRef τ sig) = b
  · obtain ⟨w, rfl⟩ := hb
    rw [Pipeline.withArrays_arr spec3 (by decide) c _ _ w]
    have hin : (cfg3.win w).isOut = false := by
      match w with
      | ⟨0, _⟩ => rfl
      | ⟨1, _⟩ => rfl
      | ⟨2, _⟩ => rfl
      | ⟨3, _⟩ => rfl
      | ⟨4, _⟩ => exact absurd rfl h18
    rw [(dat3 (ofVal (U7 m)) c).arrAt_in w hin cfg3.N]
    rfl
  · exact withArrays_away spec3 c (U7 m c) _ b fun w e => hb ⟨w, e⟩

end Cert.Kernel.Hand

end
-- ==== Proof.K.LaunchObjs.lean ====
/-
  The objects the launch's four region records share: which column of index words each gather region reads,
  each region's proof data at the buffers it is entered in, and what rides along between the program's items.
-/
import proofs.«423058_j50337016709696_1_alg».proof.Proof.K.LaunchVals
import Idealize.ShloMosaic.Lib.Pipeline.Regions

noncomputable section

namespace Cert.Kernel.Hand

open Cert.Kernel Cert.Kernel.Gen Cert.Kernel.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ) (ρ : Dev nD → PrngReg)

/-- The tables' contents of the four pipelines: the three columns of index words; the fourth has none. -/
def adm : (p : Fin 4) → (pcfgs (F := F) p).Adm
  | ⟨0, _⟩ => a0 m
  | ⟨1, _⟩ => a1 m
  | ⟨2, _⟩ => a2 m
  | ⟨3, _⟩ => cfg3.toPCfg_adm

/-- Each region's proof data, read off the valuation it is entered in. -/
def pdats : (p : Fin 4) → (c : Dev nD) → Dat τ (Elt F) Unit ℕ UU ℕ (Pipeline.pin (pcfgs (F := F)) (adm m) p) c
  | ⟨0, _⟩ => fun c => dat0 (ofVal (U1 m)) (a0 m) c
  | ⟨1, _⟩ => fun c => dat1 (ofVal (U3 m)) (a1 m) c
  | ⟨2, _⟩ => fun c => dat2 (ofVal (U5 m)) (a2 m) c
  | ⟨3, _⟩ => fun c => dat3 (ofVal (U7 m)) c

/-- No levels. -/
abbrev L₀ : GSem nD τ sig → Finset Unit := fun _ => ∅
abbrev lv₀ : GSem nD τ sig → Unit → ℕ := fun _ _ => 0

/-- What rides along between the program's items: the generator register, at whatever state it is in (a region that
    keeps it in its invariant forgets which), and the core's `owes`. -/
abbrev Erest (c : Dev nD) : sProp (𝕄K F) := iprop((∃ r, prngReg c r) ∗ ∃ W, owes (c : Thread nD τ) (0 : CellTallies nD τ sig Unit) W)

end Cert.Kernel.Hand

end
-- ==== Proof.K.Reg0.lean ====
/-
  Region 0's place in the launch: entered from the buffers as the host leaves them (`U1`) and left with its
  result array at what the region computes (`U2`), everything else as it was.
-/
import proofs.«423058_j50337016709696_1_alg».proof.Proof.K.LaunchObjs
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Launch
import Idealize.ShloMosaic.Lib.Pipeline.Kit

noncomputable section

namespace Cert.Kernel.Hand

open Cert.Kernel Cert.Kernel.Gen Cert.Kernel.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat withArrays arrRef)

variable {F : FTy → Type} [FloatOps F]
variable (m : (ℓ : Loc nD τ sig) → Buf (Elt F) ℓ) (ρ : Dev nD → PrngReg)

/-! ## The buffers that bypass region 0, and the two it reads -/

/-- There is one core. -/
theorem dev_eq0 (c : Dev nD) : c = c₀ := Subsingleton.elim _ _

/-- The unscoped buffers region 0 neither takes as its result array, nor reads as its column of index words, nor as its
    table: they pass the region by. -/
abbrev others0 : Finset (Ref sig .tc) := Pipeline.restRefsP sig pre0 spec0 \ {main_v3}

/-- The unscoped buffers that are not region 0's array, at contents `V`: the column, the table, and the others. -/
theorem unscopedRest0_parts (c : Dev nD) (V : (b : Ref sig .tc) → Buf (Elt F) ((c : Thread nD τ).loc b)) :
    (Pipeline.unscopedRest (Ix := Unit) (Name := ℕ) (U := UU) (Lvl := ℕ) spec0 c V : sProp (𝕄K F))
      = iprop(Pipeline.prefHeld (Ix := Unit) (Name := ℕ) (U := UU) (Lvl := ℕ) pre0 c (fun _ => fullShare) (fun k => V (pre0.ref k))
          ∗ (((c : Thread nD τ).loc main_v3) ↦{fullShare} V main_v3)
          ∗ bigSep others0 fun b => ((c : Thread nD τ).loc b) ↦{fullShare} V b) := by
  rw [Pipeline.unscopedRest_split (show Pipeline.PreFacts spec0 pre0 from (launch0 (F := F)).pre) c V]
  unfold Pipeline.unscopedRestP
  rw [BI.bigSep_sdiff_split (show ({main_v3} : Finset (Ref sig .tc)) ⊆ Pipeline.restRefsP sig pre0 spec0 by decide),
    BI.bigSep_singleton]
  rfl

/-- The column's contents under the valuation region 0 is entered in are the contents the region's tables are pinned at. -/
theorem pre0_contents (c : Dev nD) : (fun k => ofVal (U1 m) c (pre0.ref k)) = (a0 m).1 := by
  obtain rfl := dev_eq0 c
  funext k
  fin_cases k
  rfl

/-- The same at the valuation region 0 is entered in, the column at the contents the region's tables are pinned at. -/
theorem rest0_eq (c : Dev nD) :
    (Pipeline.unscopedRest (Ix := Unit) (Name := ℕ) (U := UU) (Lvl := ℕ) spec0 c (ofVal (U1 m) c) : sProp (𝕄K F))
      = iprop(Pipeline.prefHeld (Ix := Unit) (Name := ℕ) (U := UU) (Lvl := ℕ) pre0 c (fun _ => fullShare) (a0 m).1
          ∗ (((c : Thread nD τ).loc main_v3) ↦{fullShare} ofVal (U1 m) c main_v3)
          ∗ bigSep others0 fun b => ((c : Thread nD τ).loc b) ↦{fullShare} ofVal (U1 m) c b) := by
  rw [unscopedRest0_parts, pre0_contents]

/-- The kernel's own 32 semaphores are scoped, distinct, and no staging cell of the pipeline. -/
theorem ownSemFacts0 : Pipeline.OwnSemFacts spec0 osem0 := by decide

/-- Region 0 leaves in its result array what its proof data compute … -/
theorem hF0 (c : Dev nD) (w : Fin (cfg0 (a0 m)).W) :
    (dat0 (ofVal (U1 m)) (a0 m) c).arrAt w (cfg0 (a0 m)).N = ofVal (U2 m) c (arrRef spec0 w) := by
  show _ = withArrays spec0 c (U1 m c) (fun w => (dat0 (ofVal (U1 m)) (a0 m) c).arrAt w (cfg0 (a0 m)).N)
    (Proc.devRef .tc (arrRef spec0 w))
  exact (Pipeline.withArrays_arr spec0 (show Function.Injective (arrRef spec0) from (launch0 (F := F)).win.arr_inj) c (U1 m c)
    (fun w => (dat0 (ofVal (U1 m)) (a0 m) c).arrAt w (cfg0 (a0 m)).N) w).symm

/-- … and every other buffer as it found it. -/
theorem hrest0 (c : Dev nD) : ∀ b, b ∉ Finset.univ.image (arrRef spec0) → ofVal (U2 m) c b = ofVal (U1 m) c b := fun b hb => by
  show withArrays spec0 c (U1 m c) (fun w => (dat0 (ofVal (U1 m)) (a0 m) c).arrAt w (cfg0 (a0 m)).N) (Proc.devRef .tc b)
    = U1 m c (Proc.devRef .tc b)
  exact withArrays_away spec0 c (U1 m c) _ _ fun w e =>
    hb (Finset.mem_image.mpr ⟨w, Finset.mem_univ _, Proc.devRef_injective _ e⟩)

-- a library lemma stated over the pinned configuration unifies with it only when unification may unfold plain
-- definitions in a metavariable's type
set_option backward.isDefEq.respectTransparency.types false in
/-- Region 0's record: the launch's layout, the kernel's own 32 semaphores, the body obligation.  It is entered from every
    unscoped buffer at `U1` beside the register and the core's `owes`, and left with them at `U2`.  Of the unscoped buffers
    its result array goes to the pipeline; the column of index words (its prefetched table) and the table it reads go
    into the invariant, the table beside the own semaphores at entry and beside the column at exit; every other unscoped
    buffer and the register pass it by.  Nothing is owed. -/
def reg0 (hX : ∀ j, ((col0 (a0 m)) j).toNat < 500000) : Pipeline.RegionSeg (pcfgs (F := F)) (adm m) (pdats m) () (defs₀ (F := F)) Variants.none L₀ lv₀ 0 where
  win := (launch0 (F := F)).win.to₀
  block_pos := (launch0 (F := F)).block_pos
  stage_whole := (launch0 (F := F)).stage_whole
  K := Fin 32
  osem := osem0
  ho := ownSemFacts0
  hbody c := (body_obligation0 (ofVal (U1 m)) (a0 m) c hX).loose
  hwaits := Pipeline.hwaits_of_owed_zero _ _ _ _ L₀ lv₀ 0 fun _ _ => rfl
  pre c := iprop(StableHlo.held (c : Thread nD τ) (Pipeline.ucRefs τ sig) (U1 m c) ∗ Erest c)
  post c := iprop(StableHlo.held (c : Thread nD τ) (Pipeline.ucRefs τ sig) (U2 m c) ∗ Erest c)
  X c := iprop((((c : Thread nD τ).loc main_v3) ↦{fullShare} ofVal (U1 m) c main_v3)
    ∗ Pipeline.ownSems0 (Ix := Unit) (Name := ℕ) (U := UU) (Lvl := ℕ) (Val := Elt F) osem0 c)
  Y c := iprop((((c : Thread nD τ).loc main_v3) ↦{fullShare} ofVal (U1 m) c main_v3)
    ∗ Pipeline.prefHeld (Ix := Unit) (Name := ℕ) (U := UU) (Lvl := ℕ) pre0 c (fun _ => fullShare) (a0 m).1)
  Z c := iprop((bigSep others0 fun b => ((c : Thread nD τ).loc b) ↦{fullShare} ofVal (U1 m) c b) ∗ ∃ r, prngReg c r)
  hentry c := by
    have hsplit := (Pipeline.arrays_of_unscopedBufs (p := 0) (pcfgs (F := F)) (adm m) (pdats m) (launch0 (F := F)).win
      (launch0 (F := F)).arr_whole c ((pdats m 0 c).share_full fun _ => rfl) (ofVal (U1 m) c) fun _ => rfl).trans
      (sep_mono .rfl (Entails.of_eq (rest0_eq m c)))
    rw [Pipeline.unscopedBufs_held] at hsplit
    iintro ⟨⟨Hub, Hreg, HO⟩, Hos, -⟩
    ihave H := hsplit $$ Hub
    icases H with ⟨Ha, Hcol, Htab, Hoth⟩
    imodintro
    isplitl [Ha]; · iexact Ha
    isplitl [Hcol]; · iexact Hcol
    isplitl [HO]
    · unfold Pipeline.Dat.owesAt Pipeline.owesWithin
      icases HO with ⟨%W, HO⟩; iexists W; isplitr; · ipureintro; exact fun _ _ => Or.inl trivial
      iexact HO
    isplitl [Htab Hos]
    · isplitl [Htab]; · iexact Htab
      iexact Hos
    isplitl [Hoth]; · iexact Hoth
    iexact Hreg
  hin c := by
    show _ ⊢ Φ0 (ofVal (U1 m)) (a0 m) c
    unfold Φ0
    iintro ⟨⟨Htab, Hos⟩, Hcol, Hr⟩
    isplitl [Htab]; · iexact Htab
    isplitl [Hos]; · iexact Hos
    isplitl [Hcol]; · iexact Hcol
    iexact Hr
  hout c := by
    show Φ0 (ofVal (U1 m)) (a0 m) c ⊢ _
    unfold Φ0
    iintro ⟨Htab, Hos, Hcol, Hr⟩
    isplitl [Htab Hcol]
    · isplitl [Htab]; · iexact Htab
      iexact Hcol
    isplitl [Hos]; · iexact Hos
    iexact Hr
  hexit c := by
    have hjoin := (sep_mono .rfl (Entails.of_eq (rest0_eq m c).symm)).trans
      (Pipeline.unscopedBufs_of_arrays (p := 0) (pcfgs (F := F)) (adm m) (Ix := Unit) (Name := ℕ) (U := UU) (Lvl := ℕ)
        (launch0 (F := F)).win (launch0 (F := F)).arr_whole c (pdats m) ((pdats m 0 c).share_full fun _ => rfl)
        (ofVal (U1 m) c) (ofVal (U2 m) c) ((pdats m 0 c).arrAt · (cfg0 (a0 m)).N) (hF0 m c) (hrest0 m c))
    rw [Pipeline.unscopedBufs_held] at hjoin
    iintro ⟨Ha, HO, ⟨Htab, Hcol⟩, ⟨Hoth, Hreg⟩⟩
    imodintro
    isplitl [Ha Htab Hcol Hoth]
    · iapply hjoin
      isplitl [Ha]; · iexact Ha
      isplitl [Hcol]; · iexact Hcol
      isplitl [Htab]; · iexact Htab
      iexact Hoth
    isplitl [Hreg]; · iexact Hreg
    unfold Pipeline.Dat.owesAt Pipeline.owesWithin
    icases HO with ⟨%W, -, HO⟩; iexists W; iexact HO

/-- It is entered from the buffers at `U1` and what rides along, -/
theorem reg0_pre (hX : ∀ j, ((col0 (a0 m)) j).toNat < 500000) (c : Dev nD) :
    iprop(StableHlo.held (c : Thread nD τ) (Pipeline.ucRefs τ sig) (U1 m c) ∗ Erest c) ⊢ (reg0 m hX).pre c := .rfl

/-- and left with them at `U2`. -/
theorem reg0_post (hX : ∀ j, ((col0 (a0 m)) j).toNat < 500000) (c : Dev nD) :
    (reg0 m hX).post c ⊢ iprop(StableHlo.held (c : Thread nD τ) (Pipeline.ucRefs τ sig) (U2 m c) ∗ Erest c) := .rfl

end Cert.Kernel.Hand

end
-- ==== Proof.K.Reg1.lean ====
/-
  Region 1's place in the launch: entered from the buffers as the host leaves them (`U3`) and left with its
  result array at what the region computes (`U4`), everything else as it was.
-/
import proofs.«423058_j50337016709696_1_alg».proof.Proof.K.LaunchObjs
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Launch
import Idealize.ShloMosaic.Lib.Pipeline.Kit

noncomputable section

namespace Cert.Kernel.Hand

open Cert.Kernel Cert.Kernel.Gen Cert.Kernel.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat withArrays arrRef)

variable {F : FTy → Type} [FloatOps F]
variable (m : (ℓ : Loc nD τ sig) → Buf (Elt F) ℓ) (ρ : Dev nD → PrngReg)

/-! ## The buffers that bypass region 0, and the two it reads -/

/-- There is one core. -/
theorem dev_eq1 (c : Dev nD) : c = c₀ := Subsingleton.elim _ _

/-- The unscoped buffers region 0 neither takes as its result array, nor reads as its column of index words, nor as its
    table: they pass the region by. -/
abbrev others1 : Finset (Ref sig .tc) := Pipeline.restRefsP sig pre1 spec1 \ {main_v8}

/-- The unscoped buffers that are not region 0's array, at contents `V`: the column, the table, and the others. -/
theorem unscopedRest1_parts (c : Dev nD) (V : (b : Ref sig .tc) → Buf (Elt F) ((c : Thread nD τ).loc b)) :
    (Pipeline.unscopedRest (Ix := Unit) (Name := ℕ) (U := UU) (Lvl := ℕ) spec1 c V : sProp (𝕄K F))
      = iprop(Pipeline.prefHeld (Ix := Unit) (Name := ℕ) (U := UU) (Lvl := ℕ) pre1 c (fun _ => fullShare) (fun k => V (pre1.ref k))
          ∗ (((c : Thread nD τ).loc main_v8) ↦{fullShare} V main_v8)
          ∗ bigSep others1 fun b => ((c : Thread nD τ).loc b) ↦{fullShare} V b) := by
  rw [Pipeline.unscopedRest_split (show Pipeline.PreFacts spec1 pre1 from (launch1 (F := F)).pre) c V]
  unfold Pipeline.unscopedRestP
  rw [BI.bigSep_sdiff_split (show ({main_v8} : Finset (Ref sig .tc)) ⊆ Pipeline.restRefsP sig pre1 spec1 by decide),
    BI.bigSep_singleton]
  rfl

/-- The column's contents under the valuation region 0 is entered in are the contents the region's tables are pinned at. -/
theorem pre1_contents (c : Dev nD) : (fun k => ofVal (U3 m) c (pre1.ref k)) = (a1 m).1 := by
  obtain rfl := dev_eq1 c
  funext k
  fin_cases k
  rfl

/-- The same at the valuation region 0 is entered in, the column at the contents the region's tables are pinned at. -/
theorem rest1_eq (c : Dev nD) :
    (Pipeline.unscopedRest (Ix := Unit) (Name := ℕ) (U := UU) (Lvl := ℕ) spec1 c (ofVal (U3 m) c) : sProp (𝕄K F))
      = iprop(Pipeline.prefHeld (Ix := Unit) (Name := ℕ) (U := UU) (Lvl := ℕ) pre1 c (fun _ => fullShare) (a1 m).1
          ∗ (((c : Thread nD τ).loc main_v8) ↦{fullShare} ofVal (U3 m) c main_v8)
          ∗ bigSep others1 fun b => ((c : Thread nD τ).loc b) ↦{fullShare} ofVal (U3 m) c b) := by
  rw [unscopedRest1_parts, pre1_contents]

/-- The kernel's own 32 semaphores are scoped, distinct, and no staging cell of the pipeline. -/
theorem ownSemFacts1 : Pipeline.OwnSemFacts spec1 osem1 := by decide

/-- Region 0 leaves in its result array what its proof data compute … -/
theorem hF1 (c : Dev nD) (w : Fin (cfg1 (a1 m)).W) :
    (dat1 (ofVal (U3 m)) (a1 m) c).arrAt w (cfg1 (a1 m)).N = ofVal (U4 m) c (arrRef spec1 w) := by
  show _ = withArrays spec1 c (U3 m c) (fun w => (dat1 (ofVal (U3 m)) (a1 m) c).arrAt w (cfg1 (a1 m)).N)
    (Proc.devRef .tc (arrRef spec1 w))
  exact (Pipeline.withArrays_arr spec1 (show Function.Injective (arrRef spec1) from (launch1 (F := F)).win.arr_inj) c (U3 m c)
    (fun w => (dat1 (ofVal (U3 m)) (a1 m) c).arrAt w (cfg1 (a1 m)).N) w).symm

/-- … and every other buffer as it found it. -/
theorem hrest1 (c : Dev nD) : ∀ b, b ∉ Finset.univ.image (arrRef spec1) → ofVal (U4 m) c b = ofVal (U3 m) c b := fun b hb => by
  show withArrays spec1 c (U3 m c) (fun w => (dat1 (ofVal (U3 m)) (a1 m) c).arrAt w (cfg1 (a1 m)).N) (Proc.devRef .tc b)
    = U3 m c (Proc.devRef .tc b)
  exact withArrays_away spec1 c (U3 m c) _ _ fun w e =>
    hb (Finset.mem_image.mpr ⟨w, Finset.mem_univ _, Proc.devRef_injective _ e⟩)

-- a library lemma stated over the pinned configuration unifies with it only when unification may unfold plain
-- definitions in a metavariable's type
set_option backward.isDefEq.respectTransparency.types false in
/-- Region 1's record: the launch's layout, the kernel's own 32 semaphores, the body obligation.  It is entered from every
    unscoped buffer at `U3` beside the register and the core's `owes`, and left with them at `U4`.  Of the unscoped buffers
    its result array goes to the pipeline; the column of index words (its prefetched table) and the table it reads go
    into the invariant, the table beside the own semaphores at entry and beside the column at exit; every other unscoped
    buffer and the register pass it by.  Nothing is owed. -/
def reg1 (hX : ∀ j, ((col1 (a1 m)) j).toNat < 500000) : Pipeline.RegionSeg (pcfgs (F := F)) (adm m) (pdats m) () (defs₀ (F := F)) Variants.none L₀ lv₀ 1 where
  win := (launch1 (F := F)).win.to₀
  block_pos := (launch1 (F := F)).block_pos
  stage_whole := (launch1 (F := F)).stage_whole
  K := Fin 32
  osem := osem1
  ho := ownSemFacts1
  hbody c := (body_obligation1 (ofVal (U3 m)) (a1 m) c hX).loose
  hwaits := Pipeline.hwaits_of_owed_zero _ _ _ _ L₀ lv₀ 1 fun _ _ => rfl
  pre c := iprop(StableHlo.held (c : Thread nD τ) (Pipeline.ucRefs τ sig) (U3 m c) ∗ Erest c)
  post c := iprop(StableHlo.held (c : Thread nD τ) (Pipeline.ucRefs τ sig) (U4 m c) ∗ Erest c)
  X c := iprop((((c : Thread nD τ).loc main_v8) ↦{fullShare} ofVal (U3 m) c main_v8)
    ∗ Pipeline.ownSems0 (Ix := Unit) (Name := ℕ) (U := UU) (Lvl := ℕ) (Val := Elt F) osem1 c)
  Y c := iprop((((c : Thread nD τ).loc main_v8) ↦{fullShare} ofVal (U3 m) c main_v8)
    ∗ Pipeline.prefHeld (Ix := Unit) (Name := ℕ) (U := UU) (Lvl := ℕ) pre1 c (fun _ => fullShare) (a1 m).1)
  Z c := iprop((bigSep others1 fun b => ((c : Thread nD τ).loc b) ↦{fullShare} ofVal (U3 m) c b) ∗ ∃ r, prngReg c r)
  hentry c := by
    have hsplit := (Pipeline.arrays_of_unscopedBufs (p := 1) (pcfgs (F := F)) (adm m) (pdats m) (launch1 (F := F)).win
      (launch1 (F := F)).arr_whole c ((pdats m 1 c).share_full fun _ => rfl) (ofVal (U3 m) c) fun _ => rfl).trans
      (sep_mono .rfl (Entails.of_eq (rest1_eq m c)))
    rw [Pipeline.unscopedBufs_held] at hsplit
    iintro ⟨⟨Hub, Hreg, HO⟩, Hos, -⟩
    ihave H := hsplit $$ Hub
    icases H with ⟨Ha, Hcol, Htab, Hoth⟩
    imodintro
    isplitl [Ha]; · iexact Ha
    isplitl [Hcol]; · iexact Hcol
    isplitl [HO]
    · unfold Pipeline.Dat.owesAt Pipeline.owesWithin
      icases HO with ⟨%W, HO⟩; iexists W; isplitr; · ipureintro; exact fun _ _ => Or.inl trivial
      iexact HO
    isplitl [Htab Hos]
    · isplitl [Htab]; · iexact Htab
      iexact Hos
    isplitl [Hoth]; · iexact Hoth
    iexact Hreg
  hin c := by
    show _ ⊢ Φ1 (ofVal (U3 m)) (a1 m) c
    unfold Φ1
    iintro ⟨⟨Htab, Hos⟩, Hcol, Hr⟩
    isplitl [Htab]; · iexact Htab
    isplitl [Hos]; · iexact Hos
    isplitl [Hcol]; · iexact Hcol
    iexact Hr
  hout c := by
    show Φ1 (ofVal (U3 m)) (a1 m) c ⊢ _
    unfold Φ1
    iintro ⟨Htab, Hos, Hcol, Hr⟩
    isplitl [Htab Hcol]
    · isplitl [Htab]; · iexact Htab
      iexact Hcol
    isplitl [Hos]; · iexact Hos
    iexact Hr
  hexit c := by
    have hjoin := (sep_mono .rfl (Entails.of_eq (rest1_eq m c).symm)).trans
      (Pipeline.unscopedBufs_of_arrays (p := 1) (pcfgs (F := F)) (adm m) (Ix := Unit) (Name := ℕ) (U := UU) (Lvl := ℕ)
        (launch1 (F := F)).win (launch1 (F := F)).arr_whole c (pdats m) ((pdats m 1 c).share_full fun _ => rfl)
        (ofVal (U3 m) c) (ofVal (U4 m) c) ((pdats m 1 c).arrAt · (cfg1 (a1 m)).N) (hF1 m c) (hrest1 m c))
    rw [Pipeline.unscopedBufs_held] at hjoin
    iintro ⟨Ha, HO, ⟨Htab, Hcol⟩, ⟨Hoth, Hreg⟩⟩
    imodintro
    isplitl [Ha Htab Hcol Hoth]
    · iapply hjoin
      isplitl [Ha]; · iexact Ha
      isplitl [Hcol]; · iexact Hcol
      isplitl [Htab]; · iexact Htab
      iexact Hoth
    isplitl [Hreg]; · iexact Hreg
    unfold Pipeline.Dat.owesAt Pipeline.owesWithin
    icases HO with ⟨%W, -, HO⟩; iexists W; iexact HO

/-- It is entered from the buffers at `U3` and what rides along, -/
theorem reg1_pre (hX : ∀ j, ((col1 (a1 m)) j).toNat < 500000) (c : Dev nD) :
    iprop(StableHlo.held (c : Thread nD τ) (Pipeline.ucRefs τ sig) (U3 m c) ∗ Erest c) ⊢ (reg1 m hX).pre c := .rfl

/-- and left with them at `U4`. -/
theorem reg1_post (hX : ∀ j, ((col1 (a1 m)) j).toNat < 500000) (c : Dev nD) :
    (reg1 m hX).post c ⊢ iprop(StableHlo.held (c : Thread nD τ) (Pipeline.ucRefs τ sig) (U4 m c) ∗ Erest c) := .rfl

end Cert.Kernel.Hand

end
-- ==== Proof.K.Reg2.lean ====
/-
  Region 2's place in the launch: entered from the buffers as the host leaves them (`U5`) and left with its
  result array at what the region computes (`U6`), everything else as it was.
-/
import proofs.«423058_j50337016709696_1_alg».proof.Proof.K.LaunchObjs
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Launch
import Idealize.ShloMosaic.Lib.Pipeline.Kit

noncomputable section

namespace Cert.Kernel.Hand

open Cert.Kernel Cert.Kernel.Gen Cert.Kernel.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat withArrays arrRef)

variable {F : FTy → Type} [FloatOps F]
variable (m : (ℓ : Loc nD τ sig) → Buf (Elt F) ℓ) (ρ : Dev nD → PrngReg)

/-! ## The buffers that bypass region 0, and the two it reads -/

/-- There is one core. -/
theorem dev_eq2 (c : Dev nD) : c = c₀ := Subsingleton.elim _ _

/-- The unscoped buffers region 0 neither takes as its result array, nor reads as its column of index words, nor as its
    table: they pass the region by. -/
abbrev others2 : Finset (Ref sig .tc) := Pipeline.restRefsP sig pre2 spec2 \ {main_v13}

/-- The unscoped buffers that are not region 0's array, at contents `V`: the column, the table, and the others. -/
theorem unscopedRest2_parts (c : Dev nD) (V : (b : Ref sig .tc) → Buf (Elt F) ((c : Thread nD τ).loc b)) :
    (Pipeline.unscopedRest (Ix := Unit) (Name := ℕ) (U := UU) (Lvl := ℕ) spec2 c V : sProp (𝕄K F))
      = iprop(Pipeline.prefHeld (Ix := Unit) (Name := ℕ) (U := UU) (Lvl := ℕ) pre2 c (fun _ => fullShare) (fun k => V (pre2.ref k))
          ∗ (((c : Thread nD τ).loc main_v13) ↦{fullShare} V main_v13)
          ∗ bigSep others2 fun b => ((c : Thread nD τ).loc b) ↦{fullShare} V b) := by
  rw [Pipeline.unscopedRest_split (show Pipeline.PreFacts spec2 pre2 from (launch2 (F := F)).pre) c V]
  unfold Pipeline.unscopedRestP
  rw [BI.bigSep_sdiff_split (show ({main_v13} : Finset (Ref sig .tc)) ⊆ Pipeline.restRefsP sig pre2 spec2 by decide),
    BI.bigSep_singleton]
  rfl

/-- The column's contents under the valuation region 0 is entered in are the contents the region's tables are pinned at. -/
theorem pre2_contents (c : Dev nD) : (fun k => ofVal (U5 m) c (pre2.ref k)) = (a2 m).1 := by
  obtain rfl := dev_eq2 c
  funext k
  fin_cases k
  rfl

/-- The same at the valuation region 0 is entered in, the column at the contents the region's tables are pinned at. -/
theorem rest2_eq (c : Dev nD) :
    (Pipeline.unscopedRest (Ix := Unit) (Name := ℕ) (U := UU) (Lvl := ℕ) spec2 c (ofVal (U5 m) c) : sProp (𝕄K F))
      = iprop(Pipeline.prefHeld (Ix := Unit) (Name := ℕ) (U := UU) (Lvl := ℕ) pre2 c (fun _ => fullShare) (a2 m).1
          ∗ (((c : Thread nD τ).loc main_v13) ↦{fullShare} ofVal (U5 m) c main_v13)
          ∗ bigSep others2 fun b => ((c : Thread nD τ).loc b) ↦{fullShare} ofVal (U5 m) c b) := by
  rw [unscopedRest2_parts, pre2_contents]

/-- The kernel's own 32 semaphores are scoped, distinct, and no staging cell of the pipeline. -/
theorem ownSemFacts2 : Pipeline.OwnSemFacts spec2 osem2 := by decide

/-- Region 0 leaves in its result array what its proof data compute … -/
theorem hF2 (c : Dev nD) (w : Fin (cfg2 (a2 m)).W) :
    (dat2 (ofVal (U5 m)) (a2 m) c).arrAt w (cfg2 (a2 m)).N = ofVal (U6 m) c (arrRef spec2 w) := by
  show _ = withArrays spec2 c (U5 m c) (fun w => (dat2 (ofVal (U5 m)) (a2 m) c).arrAt w (cfg2 (a2 m)).N)
    (Proc.devRef .tc (arrRef spec2 w))
  exact (Pipeline.withArrays_arr spec2 (show Function.Injective (arrRef spec2) from (launch2 (F := F)).win.arr_inj) c (U5 m c)
    (fun w => (dat2 (ofVal (U5 m)) (a2 m) c).arrAt w (cfg2 (a2 m)).N) w).symm

/-- … and every other buffer as it found it. -/
theorem hrest2 (c : Dev nD) : ∀ b, b ∉ Finset.univ.image (arrRef spec2) → ofVal (U6 m) c b = ofVal (U5 m) c b := fun b hb => by
  show withArrays spec2 c (U5 m c) (fun w => (dat2 (ofVal (U5 m)) (a2 m) c).arrAt w (cfg2 (a2 m)).N) (Proc.devRef .tc b)
    = U5 m c (Proc.devRef .tc b)
  exact withArrays_away spec2 c (U5 m c) _ _ fun w e =>
    hb (Finset.mem_image.mpr ⟨w, Finset.mem_univ _, Proc.devRef_injective _ e⟩)

-- a library lemma stated over the pinned configuration unifies with it only when unification may unfold plain
-- definitions in a metavariable's type
set_option backward.isDefEq.respectTransparency.types false in
/-- Region 2's record: the launch's layout, the kernel's own 32 semaphores, the body obligation.  It is entered from every
    unscoped buffer at `U5` beside the register and the core's `owes`, and left with them at `U6`.  Of the unscoped buffers
    its result array goes to the pipeline; the column of index words (its prefetched table) and the table it reads go
    into the invariant, the table beside the own semaphores at entry and beside the column at exit; every other unscoped
    buffer and the register pass it by.  Nothing is owed. -/
def reg2 (hX : ∀ j, ((col2 (a2 m)) j).toNat < 500000) : Pipeline.RegionSeg (pcfgs (F := F)) (adm m) (pdats m) () (defs₀ (F := F)) Variants.none L₀ lv₀ 2 where
  win := (launch2 (F := F)).win.to₀
  block_pos := (launch2 (F := F)).block_pos
  stage_whole := (launch2 (F := F)).stage_whole
  K := Fin 32
  osem := osem2
  ho := ownSemFacts2
  hbody c := (body_obligation2 (ofVal (U5 m)) (a2 m) c hX).loose
  hwaits := Pipeline.hwaits_of_owed_zero _ _ _ _ L₀ lv₀ 2 fun _ _ => rfl
  pre c := iprop(StableHlo.held (c : Thread nD τ) (Pipeline.ucRefs τ sig) (U5 m c) ∗ Erest c)
  post c := iprop(StableHlo.held (c : Thread nD τ) (Pipeline.ucRefs τ sig) (U6 m c) ∗ Erest c)
  X c := iprop((((c : Thread nD τ).loc main_v13) ↦{fullShare} ofVal (U5 m) c main_v13)
    ∗ Pipeline.ownSems0 (Ix := Unit) (Name := ℕ) (U := UU) (Lvl := ℕ) (Val := Elt F) osem2 c)
  Y c := iprop((((c : Thread nD τ).loc main_v13) ↦{fullShare} ofVal (U5 m) c main_v13)
    ∗ Pipeline.prefHeld (Ix := Unit) (Name := ℕ) (U := UU) (Lvl := ℕ) pre2 c (fun _ => fullShare) (a2 m).1)
  Z c := iprop((bigSep others2 fun b => ((c : Thread nD τ).loc b) ↦{fullShare} ofVal (U5 m) c b) ∗ ∃ r, prngReg c r)
  hentry c := by
    have hsplit := (Pipeline.arrays_of_unscopedBufs (p := 2) (pcfgs (F := F)) (adm m) (pdats m) (launch2 (F := F)).win
      (launch2 (F := F)).arr_whole c ((pdats m 2 c).share_full fun _ => rfl) (ofVal (U5 m) c) fun _ => rfl).trans
      (sep_mono .rfl (Entails.of_eq (rest2_eq m c)))
    rw [Pipeline.unscopedBufs_held] at hsplit
    iintro ⟨⟨Hub, Hreg, HO⟩, Hos, -⟩
    ihave H := hsplit $$ Hub
    icases H with ⟨Ha, Hcol, Htab, Hoth⟩
    imodintro
    isplitl [Ha]; · iexact Ha
    isplitl [Hcol]; · iexact Hcol
    isplitl [HO]
    · unfold Pipeline.Dat.owesAt Pipeline.owesWithin
      icases HO with ⟨%W, HO⟩; iexists W; isplitr; · ipureintro; exact fun _ _ => Or.inl trivial
      iexact HO
    isplitl [Htab Hos]
    · isplitl [Htab]; · iexact Htab
      iexact Hos
    isplitl [Hoth]; · iexact Hoth
    iexact Hreg
  hin c := by
    show _ ⊢ Φ2 (ofVal (U5 m)) (a2 m) c
    unfold Φ2
    iintro ⟨⟨Htab, Hos⟩, Hcol, Hr⟩
    isplitl [Htab]; · iexact Htab
    isplitl [Hos]; · iexact Hos
    isplitl [Hcol]; · iexact Hcol
    iexact Hr
  hout c := by
    show Φ2 (ofVal (U5 m)) (a2 m) c ⊢ _
    unfold Φ2
    iintro ⟨Htab, Hos, Hcol, Hr⟩
    isplitl [Htab Hcol]
    · isplitl [Htab]; · iexact Htab
      iexact Hcol
    isplitl [Hos]; · iexact Hos
    iexact Hr
  hexit c := by
    have hjoin := (sep_mono .rfl (Entails.of_eq (rest2_eq m c).symm)).trans
      (Pipeline.unscopedBufs_of_arrays (p := 2) (pcfgs (F := F)) (adm m) (Ix := Unit) (Name := ℕ) (U := UU) (Lvl := ℕ)
        (launch2 (F := F)).win (launch2 (F := F)).arr_whole c (pdats m) ((pdats m 2 c).share_full fun _ => rfl)
        (ofVal (U5 m) c) (ofVal (U6 m) c) ((pdats m 2 c).arrAt · (cfg2 (a2 m)).N) (hF2 m c) (hrest2 m c))
    rw [Pipeline.unscopedBufs_held] at hjoin
    iintro ⟨Ha, HO, ⟨Htab, Hcol⟩, ⟨Hoth, Hreg⟩⟩
    imodintro
    isplitl [Ha Htab Hcol Hoth]
    · iapply hjoin
      isplitl [Ha]; · iexact Ha
      isplitl [Hcol]; · iexact Hcol
      isplitl [Htab]; · iexact Htab
      iexact Hoth
    isplitl [Hreg]; · iexact Hreg
    unfold Pipeline.Dat.owesAt Pipeline.owesWithin
    icases HO with ⟨%W, -, HO⟩; iexists W; iexact HO

/-- It is entered from the buffers at `U5` and what rides along, -/
theorem reg2_pre (hX : ∀ j, ((col2 (a2 m)) j).toNat < 500000) (c : Dev nD) :
    iprop(StableHlo.held (c : Thread nD τ) (Pipeline.ucRefs τ sig) (U5 m c) ∗ Erest c) ⊢ (reg2 m hX).pre c := .rfl

/-- and left with them at `U6`. -/
theorem reg2_post (hX : ∀ j, ((col2 (a2 m)) j).toNat < 500000) (c : Dev nD) :
    (reg2 m hX).post c ⊢ iprop(StableHlo.held (c : Thread nD τ) (Pipeline.ucRefs τ sig) (U6 m c) ∗ Erest c) := .rfl

end Cert.Kernel.Hand

end
-- ==== Proof.K.Reg3.lean ====
/-
  Region 3's place in the launch: entered from the buffers as the host leaves them (`U7`) and left with its
  result array at what the region computes (`U8`), everything else as it was.
-/
import proofs.«423058_j50337016709696_1_alg».proof.Proof.K.LaunchObjs
import Idealize.ShloMosaic.Lib.Pipeline.RegionsLoop
import Idealize.ShloMosaic.Lib.Pipeline.FrameSuffix

noncomputable section

namespace Cert.Kernel.Hand

open Cert.Kernel Cert.Kernel.Gen Cert.Kernel.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- At region 3's exit each of its arrays holds what the pipeline leaves there, -/
theorem hF3 (c : Dev nD) (w : Fin cfg3.W) :
    (dat3 (ofVal (F := F) (U7 m)) c).arrAt w cfg3.N = ofVal (F := F) (U8 m) c (Pipeline.arrRef spec3 w) := by
  unfold U8; exact (Pipeline.withArrays_arr spec3 (launch3 (F := F)).win.arr_inj c (U7 m c)
    (fun w => (dat3 (ofVal (F := F) (U7 m)) c).arrAt w cfg3.N) w).symm

/-- and every other buffer what it held at entry. -/
theorem hrest3 (c : Dev nD) : ∀ b, b ∉ Finset.univ.image (Pipeline.arrRef spec3) → ofVal (F := F) (U8 m) c b = ofVal (F := F) (U7 m) c b :=
  fun b hb => by
    unfold U8
    exact Pipeline.withArrays_of_ne spec3 c _ _ b fun w e => hb (Finset.mem_image.mpr ⟨w, Finset.mem_univ _, e⟩)

-- a library lemma stated over the pinned configuration unifies with the printed one only when unification may unfold
-- plain definitions in a metavariable's type
set_option backward.isDefEq.respectTransparency.types false in
/-- Region 3's record: entered from every unscoped buffer at `U7` and left at `U8`.  Its five arrays are split out of
    the unscoped buffers and put back at what the pipeline leaves; the generator register goes into the region's
    invariant and comes out at some state; nothing is owed; the kernel has no semaphore of its own and no table. -/
def reg3 : Pipeline.RegionSeg (pcfgs (F := F)) (adm m) (pdats m) () (defs₀ (F := F)) Variants.none L₀ lv₀ 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (ofVal (U7 m)) c).loose
  hwaits := Pipeline.hwaits_of_owed_zero _ _ _ _ L₀ lv₀ 3 fun _ _ => rfl
  pre c := iprop(StableHlo.held (c : Thread nD τ) (Pipeline.ucRefs τ sig) (U7 m c) ∗ Erest (F := F) c)
  post c := iprop(StableHlo.held (c : Thread nD τ) (Pipeline.ucRefs τ sig) (U8 m c) ∗ Erest (F := F) c)
  X c := iprop(∃ r, prngReg c r)
  Y c := iprop(∃ r, prngReg c r)
  Z c := Pipeline.unscopedRest (Ix := Unit) (Name := ℕ) (U := UU) (Lvl := ℕ) spec3 c (ofVal (U7 m) c)
  hentry c := by
    rw [Pipeline.ownSems0_none]
    have hsplit := Pipeline.arrays_of_unscopedBufs (p := 3) (pcfgs (F := F)) (adm m) (pdats m) (launch3 (F := F)).win (launch3 (F := F)).arr_whole c
      ((pdats m 3 c).share_full fun _ => rfl) (ofVal (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m) (Ix := Unit) (Name := ℕ) (U := UU) (Lvl := ℕ)
      (launch3 (F := F)).win (launch3 (F := F)).arr_whole c (pdats m) ((pdats m 3 c).share_full fun _ => rfl)
      (ofVal (U7 m) c) (ofVal (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- It is entered from the buffers at `U7` and what rides along, -/
theorem reg3_pre (c : Dev nD) :
    iprop(StableHlo.held (c : Thread nD τ) (Pipeline.ucRefs τ sig) (U7 m c) ∗ Erest c) ⊢ (reg3 m).pre c := .rfl

/-- and left with them at `U8`. -/
theorem reg3_post (c : Dev nD) :
    (reg3 m).post c ⊢ iprop(StableHlo.held (c : Thread nD τ) (Pipeline.ucRefs τ sig) (U8 m c) ∗ Erest c) := .rfl

end Cert.Kernel.Hand

end
-- ==== Proof.K.Run.lean ====
/-
  The word-level kernel's run.  From any memory with zero counters, when the three columns of index words the
  gather regions read are in range, every fair execution of the program terminates with the result array at what
  the fourth region leaves (`U8`) and the six arguments as they were.
-/
import proofs.«423058_j50337016709696_1_alg».proof.Proof.K.Reg0
import proofs.«423058_j50337016709696_1_alg».proof.Proof.K.Reg1
import proofs.«423058_j50337016709696_1_alg».proof.Proof.K.Reg2
import proofs.«423058_j50337016709696_1_alg».proof.Proof.K.Reg3
import proofs.«423058_j50337016709696_1_alg».proof.Proof.K.RunCond
import proofs.«423058_j50337016709696_1_alg».proof.Proof.K.LaunchVals
import Idealize.ShloMosaic.Lib.Pipeline.Regions
import Idealize.ShloMosaic.Lib.Pipeline.Kit

noncomputable section

namespace Cert.Kernel.Hand

open Cert.Kernel Cert.Kernel.Gen Cert.Kernel.RunCond
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra is the left component of the program's. -/
abbrev EPK : Emb (UR sig nD τ) (𝕄K F) := embL

-- the launch theorem's implicit arguments are found by unifying its conclusion with this one, which takes unfolding
-- plain definitions in a metavariable's type
set_option backward.isDefEq.respectTransparency.types false in
theorem run_KI (m : (ℓ : Loc nD τ sig) → Buf (Elt F) ℓ) (ρ : Dev nD → PrngReg)
    (hX0 : ∀ j, ((col0 (a0 m)) j).toNat < 500000) (hX1 : ∀ j, ((col1 (a1 m)) j).toNat < 500000) (hX2 : ∀ j, ((col2 (a2 m)) j).toNat < 500000) :
    θ_run (defs (F := F)) (onTc (τ := τ) (main (F := F))) ⟨m, fun _ => 0, ρ⟩ (fun r => ∀ c : Dev nD,
      r.2.mem ((c.tc : Thread nD τ).loc main_v18) = U8 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  -- the launch theorem states the result array at the generated valuation; that is the launch data's
  have h := run_cond (F := F) m (Ix := Unit) (U := UU) (Lvl := ℕ) (EPK (F := F)) () Variants.none L₀ lv₀ (fun _ _ => rfl) ρ (outs m) (adm m) (pdats m)
    (O₀ := fun _ => 0) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      -- the launch element is a pair: the pipelines' tokens are its left half, and nothing is asked of the right
      iintro Hu
      ihave H := (ownU_pair _ _) $$ Hu
      icases H with ⟨HP, -⟩
      imodintro
      isplitl [HP]; · iexact HP
      iapply (show (BI.emp : sProp (𝕄K F)) ⊢ bigSep Finset.univ (fun _ : Dev nD => (BI.emp : sProp (𝕄K F))) from by
        rw [BI.bigSep_emp_const])
      iempintro)
    (E := fun _ c => Erest c)
    (hE0 := Pipeline.initEach L₀ lv₀ fun c => by
      -- of what the launch deals a core, the register and the `owes` ride along; the rest is not needed
      iintro ⟨⟨-, HO, -, Hreg, -⟩, -⟩
      imodintro
      isplitl [Hreg]; · iexists _; iexact Hreg
      iexists ∅; iexact HO)
    (hE4 := fun c => by iintro ⟨-, HO⟩; iexact HO)
    (R0 := reg0 m hX0) (hpre0 := fun c => reg0_pre m hX0 c)
    (hpost0 := fun c => by rw [V2_eq]; exact reg0_post m hX0 c)
    (R1 := reg1 m hX1) (hpre1 := fun c => by rw [V3_eq]; exact reg1_pre m hX1 c)
    (hpost1 := fun c => by rw [V4_eq]; exact reg1_post m hX1 c)
    (R2 := reg2 m hX2) (hpre2 := fun c => by rw [V5_eq]; exact reg2_pre m hX2 c)
    (hpost2 := fun c => by rw [V6_eq]; exact reg2_post m hX2 c)
    (R3 := reg3 m) (hpre3 := fun c => by rw [V7_eq]; exact reg3_pre m c)
    (hpost3 := fun c => by rw [V8_eq]; exact reg3_post m c)
  exact (θ_run _ _ _).mono (fun r hr c => by have hc := hr c; rwa [V8_eq] at hc) h

end Cert.Kernel.Hand

end
-- ==== Proof.K.HostLink.lean ====
/-
  What the host computes between the regions, read at an index.  Before gather region m the host cuts column m
  out of the index array and table m out of the stack of tables; after the three regions it puts their three
  results and the time column side by side as the 97 input columns, and reshapes the bias.
-/
import proofs.«423058_j50337016709696_1_alg».proof.Proof.K.LaunchData
import Idealize.ShloMosaic.Lib.StableHlo.Run
import Idealize.ShloMosaic.Lib.ValueIdx
import Idealize.ShloMosaic.Lib.Pipeline.Value
import Idealize.ShloMosaic.Lib.Pipeline.FrameSuffix
import Idealize.ShloMosaic.Signature.View
import Idealize.ShloMosaic.Shape

noncomputable section

namespace Cert.Kernel.Hand

open Cert.Kernel Cert.Kernel.Gen Cert.Kernel.RunCond
open Idealize.ShloMosaic Idealize.ShloMosaic.TcCoe

variable {F : FTy → Type} [FloatOps F]
variable (m : (ℓ : Loc nD τ sig) → Buf (Elt F) ℓ)

/-! ## The two cuts, read at an index -/

/-- Column `q` of the index array, cut out as a 131072-by-1 slice and read as a vector: entry `j` is the array's at `(j, q)`. -/
theorem col_at {α : Type} (x : S131072x3.Idx → α) (q : Fin 3) (off : Fin 2 → ℕ) (hoff : off = ![0, q.val])
    (hs : S131072x3.Slices off S131072x1) (j : S131072.Idx) :
    shapeCast S131072 (extractStridedSlice S131072x1 off x hs) shapeCasts_S131072x1_S131072 j
      = x (ValueIdx.ix2 (j 0) q) := by
  subst hoff
  rw [shapeCast_apply _ shapeCasts_S131072x1_S131072 j (ValueIdx.ix2 (j 0) (0 : Fin 1))
    (by rw [Shape.rowMajor_val_two, Shape.rowMajor_val_one]; show (j 0).val * 1 + 0 = (j 0).val; omega)]
  exact extractStridedSlice_apply _ x hs _ _ (fun a => by
    match a with
    | ⟨0, _⟩ => show (j 0).val = 0 + (j 0).val; omega
    | ⟨1, _⟩ => show q.val = q.val + 0; omega)

/-- Table `q` of the stack, cut out as a 1-by-500000-by-32 slice and read as a matrix: entry `(r, l)` is the stack's at `(q, r, l)`. -/
theorem tbl_at {α : Type} (x : S3x500000x32.Idx → α) (q : Fin 3) (off : Fin 3 → ℕ) (hoff : off = ![q.val, 0, 0])
    (hs : S3x500000x32.Slices off S1x500000x32) (y : S500000x32.Idx) :
    shapeCast S500000x32 (extractStridedSlice S1x500000x32 off x hs) shapeCasts_S1x500000x32_S500000x32 y
      = x (ValueIdx.ix3 q (y 0) (y 1)) := by
  subst hoff
  rw [shapeCast_apply _ shapeCasts_S1x500000x32_S500000x32 y (ValueIdx.ix3 (0 : Fin 1) (y 0) (y 1))
    (by rw [Shape.rowMajor_val_three, Shape.rowMajor_val_two]
        show ((0 : ℕ) * 500000 + (y 0).val) * 32 + (y 1).val = (y 0).val * 32 + (y 1).val; omega)]
  exact extractStridedSlice_apply _ x hs _ _ (fun a => by
    match a with
    | ⟨0, _⟩ => show q.val = q.val + 0; omega
    | ⟨1, _⟩ => show (y 0).val = 0 + (y 0).val; omega
    | ⟨2, _⟩ => show (y 1).val = 0 + (y 1).val; omega)

/-! ## What each host stretch leaves in the column and the table it cuts, from any contents `V` -/

section After
variable (V : Valuation τ sig (Elt F))

theorem after_hostOps0_v1 :
    StableHlo.after hostOps0 V main_v1
      = shapeCast S131072 (extractStridedSlice S131072x1 ![0, 0] (V main_arg0) slices_S131072x3_S131072x1_0_0) shapeCasts_S131072x1_S131072 := by
  after_results <;> rfl

theorem after_hostOps0_v3 :
    StableHlo.after hostOps0 V main_v3
      = shapeCast S500000x32 (extractStridedSlice S1x500000x32 ![0, 0, 0] (V main_arg2) slices_S3x500000x32_S1x500000x32_0_0_0) shapeCasts_S1x500000x32_S500000x32 := by
  after_results <;> rfl

theorem after_hostOps1_v6 :
    StableHlo.after hostOps1 V main_v6
      = shapeCast S131072 (extractStridedSlice S131072x1 ![0, 1] (V main_arg0) slices_S131072x3_S131072x1_0_1) shapeCasts_S131072x1_S131072 := by
  after_results <;> rfl

theorem after_hostOps1_v8 :
    StableHlo.after hostOps1 V main_v8
      = shapeCast S500000x32 (extractStridedSlice S1x500000x32 ![1, 0, 0] (V main_arg2) slices_S3x500000x32_S1x500000x32_1_0_0) shapeCasts_S1x500000x32_S500000x32 := by
  after_results <;> rfl

theorem after_hostOps2_v11 :
    StableHlo.after hostOps2 V main_v11
      = shapeCast S131072 (extractStridedSlice S131072x1 ![0, 2] (V main_arg0) slices_S131072x3_S131072x1_0_2) shapeCasts_S131072x1_S131072 := by
  after_results <;> rfl

theorem after_hostOps2_v13 :
    StableHlo.after hostOps2 V main_v13
      = shapeCast S500000x32 (extractStridedSlice S1x500000x32 ![2, 0, 0] (V main_arg2) slices_S3x500000x32_S1x500000x32_2_0_0) shapeCasts_S1x500000x32_S500000x32 := by
  after_results <;> rfl

end After

/-! ## The index array and the stack of tables reach every region as launched

No host stretch writes them and no region's result array is one of them. -/

theorem U1_arg0 (c : Dev nD) : U1 m c main_arg0 = m ((c : Thread nD τ).loc main_arg0) := V1_of m c main_arg0 (by decide)
theorem U1_arg2 (c : Dev nD) : U1 m c main_arg2 = m ((c : Thread nD τ).loc main_arg2) := V1_of m c main_arg2 (by decide)

theorem U2_arg0 (c : Dev nD) : U2 m c main_arg0 = m ((c : Thread nD τ).loc main_arg0) := by
  unfold U2
  rw [Pipeline.withArrays_of_ne spec0 c _ _ main_arg0 (Fin.forall_fin_one.mpr (by decide))]
  exact U1_arg0 m c
theorem U2_arg2 (c : Dev nD) : U2 m c main_arg2 = m ((c : Thread nD τ).loc main_arg2) := by
  unfold U2
  rw [Pipeline.withArrays_of_ne spec0 c _ _ main_arg2 (Fin.forall_fin_one.mpr (by decide))]
  exact U1_arg2 m c

theorem U3_arg0 (c : Dev nD) : U3 m c main_arg0 = m ((c : Thread nD τ).loc main_arg0) :=
  (StableHlo.after_of_writes_sub hostOps1 _ hostOps1_writes (by decide : main_arg0 ∉ hostOps1_W)).trans (U2_arg0 m c)
theorem U3_arg2 (c : Dev nD) : U3 m c main_arg2 = m ((c : Thread nD τ).loc main_arg2) :=
  (StableHlo.after_of_writes_sub hostOps1 _ hostOps1_writes (by decide : main_arg2 ∉ hostOps1_W)).trans (U2_arg2 m c)

theorem U4_arg0 (c : Dev nD) : U4 m c main_arg0 = m ((c : Thread nD τ).loc main_arg0) := by
  unfold U4
  rw [Pipeline.withArrays_of_ne spec1 c _ _ main_arg0 (Fin.forall_fin_one.mpr (by decide))]
  exact U3_arg0 m c
theorem U4_arg2 (c : Dev nD) : U4 m c main_arg2 = m ((c : Thread nD τ).loc main_arg2) := by
  unfold U4
  rw [Pipeline.withArrays_of_ne spec1 c _ _ main_arg2 (Fin.forall_fin_one.mpr (by decide))]
  exact U3_arg2 m c

/-! ## The column and the table each region is entered with, as cuts of the launch contents -/

theorem U1_v1 (c : Dev nD) :
    U1 m c main_v1 = shapeCast S131072 (extractStridedSlice S131072x1 ![0, 0]
      (m ((c : Thread nD τ).loc main_arg0) : S131072x3.Idx → Elt F .i32) slices_S131072x3_S131072x1_0_0) shapeCasts_S131072x1_S131072 :=
  after_hostOps0_v1 (V0 m c)
theorem U1_v3 (c : Dev nD) :
    U1 m c main_v3 = shapeCast S500000x32 (extractStridedSlice S1x500000x32 ![0, 0, 0]
      (m ((c : Thread nD τ).loc main_arg2) : S3x500000x32.Idx → Elt F .f32) slices_S3x500000x32_S1x500000x32_0_0_0) shapeCasts_S1x500000x32_S500000x32 :=
  after_hostOps0_v3 (V0 m c)
theorem U3_v6 (c : Dev nD) :
    U3 m c main_v6 = shapeCast S131072 (extractStridedSlice S131072x1 ![0, 1]
      (m ((c : Thread nD τ).loc main_arg0) : S131072x3.Idx → Elt F .i32) slices_S131072x3_S131072x1_0_1) shapeCasts_S131072x1_S131072 := by
  show StableHlo.after hostOps1 (U2 m c) main_v6 = _
  rw [after_hostOps1_v6, U2_arg0]
theorem U3_v8 (c : Dev nD) :
    U3 m c main_v8 = shapeCast S500000x32 (extractStridedSlice S1x500000x32 ![1, 0, 0]
      (m ((c : Thread nD τ).loc main_arg2) : S3x500000x32.Idx → Elt F .f32) slices_S3x500000x32_S1x500000x32_1_0_0) shapeCasts_S1x500000x32_S500000x32 := by
  show StableHlo.after hostOps1 (U2 m c) main_v8 = _
  rw [after_hostOps1_v8, U2_arg2]
theorem U5_v11 (c : Dev nD) :
    U5 m c main_v11 = shapeCast S131072 (extractStridedSlice S131072x1 ![0, 2]
      (m ((c : Thread nD τ).loc main_arg0) : S131072x3.Idx → Elt F .i32) slices_S131072x3_S131072x1_0_2) shapeCasts_S131072x1_S131072 := by
  show StableHlo.after hostOps2 (U4 m c) main_v11 = _
  rw [after_hostOps2_v11, U4_arg0]
theorem U5_v13 (c : Dev nD) :
    U5 m c main_v13 = shapeCast S500000x32 (extractStridedSlice S1x500000x32 ![2, 0, 0]
      (m ((c : Thread nD τ).loc main_arg2) : S3x500000x32.Idx → Elt F .f32) slices_S3x500000x32_S1x500000x32_2_0_0) shapeCasts_S1x500000x32_S500000x32 := by
  show StableHlo.after hostOps2 (U4 m c) main_v13 = _
  rw [after_hostOps2_v13, U4_arg2]

/-- Region 0's column of index words is column 0 of the index array. -/
theorem col0_eq (j : S131072.Idx) :
    col0 (a0 m) j = (m ((c₀ : Thread nD τ).loc main_arg0) : S131072x3.Idx → Elt F .i32) (ValueIdx.ix2 (j 0) (0 : Fin 3)) := by
  -- a whole buffer reads as its contents, and the column's are what the first host stretch leaves
  show (StableHlo.after hostOps0 (V0 m c₀) main_v1 : S131072.Idx → Elt F .i32) j = _
  rw [after_hostOps0_v1]
  exact col_at _ (0 : Fin 3) _ rfl _ j

/-- Region 0's table is table 0 of the stack. -/
theorem tbl0_eq (c : Dev nD) (y : S500000x32.Idx) :
    tbl0 (ofVal (U1 m)) c y = (m ((c : Thread nD τ).loc main_arg2) : S3x500000x32.Idx → Elt F .f32) (ValueIdx.ix3 (0 : Fin 3) (y 0) (y 1)) := by
  show (StableHlo.after hostOps0 (V0 m c) main_v3 : S500000x32.Idx → Elt F .f32) y = _
  rw [after_hostOps0_v3]
  exact tbl_at _ (0 : Fin 3) _ rfl _ y

/-- Region 1's column is column 1 of the index array, its table is table 1. -/
theorem col1_eq (j : S131072.Idx) :
    col1 (a1 m) j = (m ((c₀ : Thread nD τ).loc main_arg0) : S131072x3.Idx → Elt F .i32) (ValueIdx.ix2 (j 0) (1 : Fin 3)) := by
  show (StableHlo.after hostOps1 (U2 m c₀) main_v6 : S131072.Idx → Elt F .i32) j = _
  rw [after_hostOps1_v6, U2_arg0]
  exact col_at _ (1 : Fin 3) _ rfl _ j

theorem tbl1_eq (c : Dev nD) (y : S500000x32.Idx) :
    tbl1 (ofVal (U3 m)) c y = (m ((c : Thread nD τ).loc main_arg2) : S3x500000x32.Idx → Elt F .f32) (ValueIdx.ix3 (1 : Fin 3) (y 0) (y 1)) := by
  show (StableHlo.after hostOps1 (U2 m c) main_v8 : S500000x32.Idx → Elt F .f32) y = _
  rw [after_hostOps1_v8, U2_arg2]
  exact tbl_at _ (1 : Fin 3) _ rfl _ y

/-- Region 2's column is column 2 of the index array, its table is table 2. -/
theorem col2_eq (j : S131072.Idx) :
    col2 (a2 m) j = (m ((c₀ : Thread nD τ).loc main_arg0) : S131072x3.Idx → Elt F .i32) (ValueIdx.ix2 (j 0) (2 : Fin 3)) := by
  show (StableHlo.after hostOps2 (U4 m c₀) main_v11 : S131072.Idx → Elt F .i32) j = _
  rw [after_hostOps2_v11, U4_arg0]
  exact col_at _ (2 : Fin 3) _ rfl _ j

theorem tbl2_eq (c : Dev nD) (y : S500000x32.Idx) :
    tbl2 (ofVal (U5 m)) c y = (m ((c : Thread nD τ).loc main_arg2) : S3x500000x32.Idx → Elt F .f32) (ValueIdx.ix3 (2 : Fin 3) (y 0) (y 1)) := by
  show (StableHlo.after hostOps2 (U4 m c) main_v13 : S500000x32.Idx → Elt F .f32) y = _
  rw [after_hostOps2_v13, U4_arg2]
  exact tbl_at _ (2 : Fin 3) _ rfl _ y

end Cert.Kernel.Hand

end
-- ==== Proof.lean ====
/- The proof of `Cert.Claim` (proofs.«423058_j50337016709696_1_alg».proof.Defs): the three programs run from any state
   satisfying the precondition, and the idealized kernel and the idealized reference end with equal results.

   The kernel gathers, for each of three modes, the table rows that a column of index words names, by transfers of
   its own, 32 in flight at a time (regions 0 to 2); the host puts the three gathered blocks and the time column side by
   side; region 3 projects each row against a frequency matrix, takes sines and cosines, scales them by 0.0625 and
   reads them out against a column, adding a bias.  The reference does the same by one gather, and divides by the
   square root of 256 where the kernel multiplies by 0.0625.  It is defined at every index word, where the kernel's
   transfers need the word to be a row of the table: the statement's precondition asks that every index word lie in
   [0, 500000).  Under it both compute `Cert.Spec.G` of the six arguments: sqrt 256 = 16 exactly, and on the extended
   reals dividing by 16 is multiplying by its reciprocal, at the infinities too.

   Route.  Reference: its generated run, read back and shown equal to `G` (`Cert.ReferenceIdeal.RefValue.result_eq`).
   Kernel: each gather region's body by its loop's invariant, one trip at a time (`trip0`, `sound_gather0` and their
   siblings); the four regions' records put into the launch theorem (`run_KI`); what the regions leave read at an index
   and shown equal to `G` (`inputs_eq`, `k3_pay1_apply`, `result_eq`).  The word-level kernel's run is the idealized
   one's text with the program's name changed. -/
import proofs.«423058_j50337016709696_1_alg».proof.Defs
import proofs.«423058_j50337016709696_1_alg».proof.Proof.Gen.Kernel
import proofs.«423058_j50337016709696_1_alg».proof.Proof.Gen.KernelIdeal
import proofs.«423058_j50337016709696_1_alg».proof.Proof.Gen.ReferenceIdeal
import proofs.«423058_j50337016709696_1_alg».proof.Proof.Gen.Pre_finite_inputs
import proofs.«423058_j50337016709696_1_alg».proof.Proof.RefValue
import proofs.«423058_j50337016709696_1_alg».proof.Proof.PreRange
import proofs.«423058_j50337016709696_1_alg».proof.Proof.KI.Run
import proofs.«423058_j50337016709696_1_alg».proof.Proof.KI.HostLink
import proofs.«423058_j50337016709696_1_alg».proof.Proof.KI.Result
import proofs.«423058_j50337016709696_1_alg».proof.Proof.K.Run
import proofs.«423058_j50337016709696_1_alg».proof.Proof.K.HostLink

noncomputable section

namespace Cert.Proof

open Idealize.ShloMosaic Idealize.ShloMosaic.TcCoe Idealize.SL.Sem

/-- Under the precondition each gather region of the idealized kernel reads a column of index words that is in range:
    the column is a column of the index array, and every word of the index array is below the tables' height. -/
theorem colsKI (m : (ℓ : Loc Cert.KernelIdeal.nD Cert.KernelIdeal.τ Cert.KernelIdeal.sig) → Buf (Elt Ideal) ℓ)
    (hpre : Pre_KernelIdeal (hPre_finite_inputs := Cert.Pre_finite_inputs.Gen.facts) m) :
    (∀ j, ((Cert.KernelIdeal.Hand.col0 (Cert.KernelIdeal.Hand.a0 m)) j).toNat < 500000)
    ∧ (∀ j, ((Cert.KernelIdeal.Hand.col1 (Cert.KernelIdeal.Hand.a1 m)) j).toNat < 500000)
    ∧ (∀ j, ((Cert.KernelIdeal.Hand.col2 (Cert.KernelIdeal.Hand.a2 m)) j).toNat < 500000) := by
  haveI := Cert.Pre_finite_inputs.Gen.facts
  have hidx := Cert.PreRange.idx_in_range (F := Ideal) _ _ _ _ _ _ (hpre Cert.KernelIdeal.Hand.c₀)
  exact ⟨fun j => by rw [Cert.KernelIdeal.Hand.col0_eq]; exact hidx _,
         fun j => by rw [Cert.KernelIdeal.Hand.col1_eq]; exact hidx _,
         fun j => by rw [Cert.KernelIdeal.Hand.col2_eq]; exact hidx _⟩

/-- Under the precondition each gather region of the word-level kernel reads a column of index words that is in range:
    the column is a column of the index array, and every word of the index array is below the tables' height. -/
theorem colsK (m : (ℓ : Loc Cert.Kernel.nD Cert.Kernel.τ Cert.Kernel.sig) → Buf (Elt Bits) ℓ)
    (hpre : Pre_Kernel (hPre_finite_inputs := Cert.Pre_finite_inputs.Gen.facts) m) :
    (∀ j, ((Cert.Kernel.Hand.col0 (Cert.Kernel.Hand.a0 m)) j).toNat < 500000)
    ∧ (∀ j, ((Cert.Kernel.Hand.col1 (Cert.Kernel.Hand.a1 m)) j).toNat < 500000)
    ∧ (∀ j, ((Cert.Kernel.Hand.col2 (Cert.Kernel.Hand.a2 m)) j).toNat < 500000) := by
  haveI := Cert.Pre_finite_inputs.Gen.facts
  have hidx := Cert.PreRange.idx_in_range (F := Bits) _ _ _ _ _ _ (hpre Cert.Kernel.Hand.c₀)
  exact ⟨fun j => by rw [Cert.Kernel.Hand.col0_eq]; exact hidx _,
         fun j => by rw [Cert.Kernel.Hand.col1_eq]; exact hidx _,
         fun j => by rw [Cert.Kernel.Hand.col2_eq]; exact hidx _⟩

theorem claim : Cert.Claim := ⟨Cert.Kernel.Gen.facts, Cert.KernelIdeal.Gen.facts, Cert.ReferenceIdeal.Gen.facts, Cert.Pre_finite_inputs.Gen.facts, by
  refine ⟨?fK, ?fKI, ?fR, trivial, ?alg⟩
  case fK =>
    -- the word-level kernel runs, and leaves its arguments as they were
    intro m g hpre
    obtain ⟨h0, h1, h2⟩ := colsK m hpre
    exact (θ_run _ _ _).mono (fun _ hr c => (hr c).2) (Cert.Kernel.Hand.run_KI m g h0 h1 h2)
  case fKI =>
    intro m g hpre
    obtain ⟨h0, h1, h2⟩ := colsKI m hpre
    exact (θ_run _ _ _).mono (fun _ hr c => (hr c).2) (Cert.KernelIdeal.Hand.run_KI m g h0 h1 h2)
  case fR =>
    intro m g _
    exact (θ_run _ _ _).mono (fun _ hr c => (hr c).2) (Cert.ReferenceIdeal.Value.run m g)
  case alg =>
    -- both results are the specification's function of the (equal) arguments
    intro m g m' g' hpre hagree
    haveI := Cert.Pre_finite_inputs.Gen.facts
    obtain ⟨h0, h1, h2⟩ := colsKI m hpre
    have hidx : ∀ c : Dev Cert.KernelIdeal.nD, ∀ j, ((m ((c.tc : Thread Cert.KernelIdeal.nD Cert.KernelIdeal.τ).loc Cert.KernelIdeal.main_arg0) : Cert.KernelIdeal.S131072x3.Idx → BitVec 32) j).toNat < 500000 :=
      fun c => Cert.PreRange.idx_in_range (F := Ideal) _ _ _ _ _ _ (hpre c)
    refine ⟨fun c => Cert.Spec.G (Cert.KernelIdeal.Hand.argIdx m c) (Cert.KernelIdeal.Hand.argTime m c) (Cert.KernelIdeal.Hand.argTabs m c)
        (Cert.KernelIdeal.Hand.argW m c) (Cert.KernelIdeal.Hand.argOut m c) (Cert.KernelIdeal.Hand.argBias m c), ?_, ?_⟩
    · exact (θ_run _ _ _).mono (fun _ hr c =>
        ⟨(hr c).1.trans (Cert.KernelIdeal.Hand.result_eq m c (hidx c)), (hr c).2⟩) (Cert.KernelIdeal.Hand.run_KI m g h0 h1 h2)
    · refine (θ_run _ _ _).mono (fun _ hr c => ⟨?_, (hr c).2⟩) (Cert.ReferenceIdeal.Value.run m' g')
      obtain ⟨e0, e1, e2, e3, e4, e5⟩ := hagree c
      -- the reference's result is its last stage applied to its arguments, which is the specification's function of them
      have hv := (hr c).1
      rw [Cert.ReferenceIdeal.Read.val_main_v30_eq] at hv
      have hj : ∀ j, ((m' ((c.tc : Thread Cert.ReferenceIdeal.nD Cert.ReferenceIdeal.τ).loc Cert.ReferenceIdeal.main_arg0)
          : Cert.ReferenceIdeal.S131072x3.Idx → BitVec 32) j).toNat < 500000 := fun j => by rw [e0]; exact hidx c j
      rw [hv, Cert.ReferenceIdeal.RefValue.result_eq _ _ _ _ _ _ hj, e0, e1, e2, e3, e4, e5]⟩

end Cert.Proof

end
